-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v294)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v294) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v403) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S5x128x128 : Shape := ⟨3, ![5, 128, 128]⟩
abbrev S5x128 : Shape := ⟨2, ![5, 128]⟩
abbrev S640x128 : Shape := ⟨2, ![640, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S640x128 : S_.BroadcastsInDim S640x128 (![] : Fin 0 → Fin S640x128.rank)
  reducesTo_S640x128_S_d0_1 : S640x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S128x10 .f32) (main_arg12 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg11
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S5x128 .f32) (main_arg8 : FVec F S5x128 .f32) (main_arg9 : FVec F S640x128 .f32) (main_arg10 : FVec F S128 .f32) (main_arg11 : FVec F S128x10 .f32) (main_arg12 : FVec F S10 .f32) (main_v33 : IVec S_ 1) : IVec S_ 1 :=
  let main_v34 : FVec F S5x128 .f32 := Host.absf main_arg7
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5x128 .f32 := Host.absf main_arg8
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S640x128 .f32 := Host.absf main_arg9
  let main_cst_16 : FVec F S_ .f32 := constant S_ .f32 0x7F800000#32
  let main_v45 : FVec F S640x128 .f32 := broadcastInDim S640x128 ![] bcast_S_S640x128 main_cst_16
  let main_v46 : IVec S640x128 1 := cmpf .olt main_v44 main_v45
  let main_c_17 : IVec S_ 1 := constantI S_ 1 1#1
  let main_v47 : IVec S_ 1 := (fun x v => Host.reduce IntOp.andi x v reducesTo_S640x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S5x128 .f32) (main_arg5 : FVec F S5x128x128 .f32) (main_arg6 : FVec F S5x128 .f32) (main_arg7 : FVec F S5x128 .f32) (main_arg8 : FVec F S5x128 .f32) (main_arg9 : FVec F S640x128 .f32) (main_arg10 : FVec F S128 .f32) (main_arg11 : FVec F S128x10 .f32) (main_arg12 : FVec F S10 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg4
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128x128 .f32 := Host.absf main_arg5
  let main_cst_8 : FVec F S_ .f32 := constant S_ .f32 0x7F800000#32
  let main_v25 : FVec F S5x128x128 .f32 := broadcastInDim S5x128x128 ![] bcast_S_S5x128x128 main_cst_8
  let main_v26 : IVec S5x128x128 1 := cmpf .olt main_v24 main_v25
  let main_c_9 : IVec S_ 1 := constantI S_ 1 1#1
  let main_v27 : IVec S_ 1 := (fun x v => Host.reduce IntOp.andi x v reducesTo_S5x128x128_S_d0_1_2 h_S_) main_v26 main_c_9
  let main_v28 : IVec S_ 1 := andi main_v23 main_v27
  let main_v29 : FVec F S5x128 .f32 := Host.absf main_arg6
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x128 .f32) (main_arg1 : FVec F S5x128x128 .f32) (main_arg2 : FVec F S5x128 .f32) (main_arg3 : FVec F S5x128 .f32) (main_arg4 : FVec F S5x128 .f32) (main_arg5 : FVec F S5x128x128 .f32) (main_arg6 : FVec F S5x128 .f32) (main_arg7 : FVec F S5x128 .f32) (main_arg8 : FVec F S5x128 .f32) (main_arg9 : FVec F S640x128 .f32) (main_arg10 : FVec F S128 .f32) (main_arg11 : FVec F S128x10 .f32) (main_arg12 : FVec F S10 .f32) (main_arg13 : IVec S2x800000 32) (main_arg14 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg1
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg2
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128 .f32 := Host.absf main_arg3
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg4 main_arg5 main_arg6 main_arg7 main_arg8 main_arg9 main_arg10 main_arg11 main_arg12 main_v13 main_v16
-- ==== Kernel.lean ====
abbrev S50000x128 : Shape := ⟨2, ![50000, 128]⟩
abbrev S5x128x128 : Shape := ⟨3, ![5, 128, 128]⟩
abbrev S5x128 : Shape := ⟨2, ![5, 128]⟩
abbrev S640x128 : Shape := ⟨2, ![640, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S10x1x128 : Shape := ⟨3, ![10, 1, 128]⟩
abbrev S5000x128 : Shape := ⟨2, ![5000, 128]⟩
abbrev S1x1x128 : Shape := ⟨3, ![1, 1, 128]⟩
abbrev S10x256x128 : Shape := ⟨3, ![10, 256, 128]⟩
abbrev S5000x1 : Shape := ⟨2, ![5000, 1]⟩
abbrev S1x256x128 : Shape := ⟨3, ![1, 256, 128]⟩
abbrev S5000x256 : Shape := ⟨2, ![5000, 256]⟩
abbrev S256x5000 : Shape := ⟨2, ![256, 5000]⟩
abbrev S256x128 : Shape := ⟨2, ![256, 128]⟩
abbrev S256x640 : Shape := ⟨2, ![256, 640]⟩
abbrev S256x10 : Shape := ⟨2, ![256, 10]⟩
abbrev S1x10 : Shape := ⟨2, ![1, 10]⟩

abbrev nBuf : Space → Nat
  | .hbm => 407
  | .vmem => 190
  | .smem => 0
  | _ => 0

abbrev hbmTy0_0 (i : Nat) : BufTy := match i % 128 with
  | 0 => ⟨S50000x128, .f32⟩
  | 1 => ⟨S5x128x128, .f32⟩
  | 2 => ⟨S5x128, .f32⟩
  | 3 => ⟨S5x128, .f32⟩
  | 4 => ⟨S5x128, .f32⟩
  | 5 => ⟨S5x128x128, .f32⟩
  | 6 => ⟨S5x128, .f32⟩
  | 7 => ⟨S5x128, .f32⟩
  | 8 => ⟨S5x128, .f32⟩
  | 9 => ⟨S640x128, .f32⟩
  | 10 => ⟨S128, .f32⟩
  | 11 => ⟨S128x10, .f32⟩
  | 12 => ⟨S10, .f32⟩
  | 13 => ⟨S2x800000, .i32⟩
  | 14 => ⟨S50000, .i32⟩
  | 15 => ⟨S1x800000, .i32⟩
  | 16 => ⟨S800000, .i32⟩
  | 17 => ⟨S1x800000, .i32⟩
  | 18 => ⟨S800000, .i32⟩
  | 19 => ⟨S50000x1, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S1x128, .f32⟩
  | 41 => ⟨S128, .f32⟩
  | 42 => ⟨S1x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S1x128, .f32⟩
  | 54 => ⟨S50000x128, .f32⟩
  | 55 => ⟨S10x1x128, .f32⟩
  | 56 => ⟨S10x1x128, .f32⟩
  | 57 => ⟨S_, .f32⟩
  | 58 => ⟨S1x128, .f32⟩
  | 59 => ⟨S_, .f32⟩
  | 60 => ⟨S1x128, .f32⟩
  | 61 => ⟨S1x128, .f32⟩
  | 62 => ⟨S_, .f32⟩
  | 63 => ⟨S1x128, .f32⟩
  | 64 => ⟨S_, .f32⟩
  | 65 => ⟨S1x128, .f32⟩
  | 66 => ⟨S1x128, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S50000x128, .f32⟩
  | 74 => ⟨S10x1x128, .f32⟩
  | 75 => ⟨S10x1x128, .f32⟩
  | 76 => ⟨S_, .f32⟩
  | 77 => ⟨S1x128, .f32⟩
  | 78 => ⟨S_, .f32⟩
  | 79 => ⟨S1x128, .f32⟩
  | 80 => ⟨S1x128, .f32⟩
  | 81 => ⟨S_, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S50000x128, .f32⟩
  | 92 => ⟨S10x256x128, .f32⟩
  | 93 => ⟨S_, .f32⟩
  | 94 => ⟨S256x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S1x128, .f32⟩
  | 116 => ⟨S128, .f32⟩
  | 117 => ⟨S1x128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S1x128, .f32⟩
  | 1 => ⟨S50000x128, .f32⟩
  | 2 => ⟨S10x1x128, .f32⟩
  | 3 => ⟨S10x1x128, .f32⟩
  | 4 => ⟨S_, .f32⟩
  | 5 => ⟨S1x128, .f32⟩
  | 6 => ⟨S_, .f32⟩
  | 7 => ⟨S1x128, .f32⟩
  | 8 => ⟨S1x128, .f32⟩
  | 9 => ⟨S_, .f32⟩
  | 10 => ⟨S1x128, .f32⟩
  | 11 => ⟨S_, .f32⟩
  | 12 => ⟨S1x128, .f32⟩
  | 13 => ⟨S1x128, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S1x128, .f32⟩
  | 20 => ⟨S50000x128, .f32⟩
  | 21 => ⟨S10x1x128, .f32⟩
  | 22 => ⟨S10x1x128, .f32⟩
  | 23 => ⟨S_, .f32⟩
  | 24 => ⟨S1x128, .f32⟩
  | 25 => ⟨S_, .f32⟩
  | 26 => ⟨S1x128, .f32⟩
  | 27 => ⟨S1x128, .f32⟩
  | 28 => ⟨S_, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S50000x128, .f32⟩
  | 39 => ⟨S10x256x128, .f32⟩
  | 40 => ⟨S_, .f32⟩
  | 41 => ⟨S256x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S1x128, .f32⟩
  | 63 => ⟨S128, .f32⟩
  | 64 => ⟨S1x128, .f32⟩
  | 65 => ⟨S1x128x128, .f32⟩
  | 66 => ⟨S128x128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S1x128, .f32⟩
  | 73 => ⟨S128, .f32⟩
  | 74 => ⟨S1x128, .f32⟩
  | 75 => ⟨S1x128, .f32⟩
  | 76 => ⟨S50000x128, .f32⟩
  | 77 => ⟨S10x1x128, .f32⟩
  | 78 => ⟨S10x1x128, .f32⟩
  | 79 => ⟨S_, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S1x128, .f32⟩
  | 95 => ⟨S50000x128, .f32⟩
  | 96 => ⟨S10x1x128, .f32⟩
  | 97 => ⟨S10x1x128, .f32⟩
  | 98 => ⟨S_, .f32⟩
  | 99 => ⟨S1x128, .f32⟩
  | 100 => ⟨S_, .f32⟩
  | 101 => ⟨S1x128, .f32⟩
  | 102 => ⟨S1x128, .f32⟩
  | 103 => ⟨S_, .f32⟩
  | 104 => ⟨S1x128, .f32⟩
  | 105 => ⟨S_, .f32⟩
  | 106 => ⟨S1x128, .f32⟩
  | 107 => ⟨S1x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S50000x128, .f32⟩
  | 114 => ⟨S10x256x128, .f32⟩
  | 115 => ⟨S_, .f32⟩
  | 116 => ⟨S256x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S_, .f32⟩
  | 127 => ⟨S50000x128, .f32⟩
  | _ => ⟨S50000x128, .f32⟩

abbrev hbmTy0_2 (i : Nat) : BufTy := match i % 128 with
  | 0 => ⟨S800000x1, .i32⟩
  | 1 => ⟨S50000x128, .f32⟩
  | 2 => ⟨S1x128x128, .f32⟩
  | 3 => ⟨S128x128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S1x128, .f32⟩
  | 10 => ⟨S128, .f32⟩
  | 11 => ⟨S1x128, .f32⟩
  | 12 => ⟨S1x128x128, .f32⟩
  | 13 => ⟨S128x128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S1x128, .f32⟩
  | 20 => ⟨S128, .f32⟩
  | 21 => ⟨S1x128, .f32⟩
  | 22 => ⟨S1x128, .f32⟩
  | 23 => ⟨S50000x128, .f32⟩
  | 24 => ⟨S10x1x128, .f32⟩
  | 25 => ⟨S10x1x128, .f32⟩
  | 26 => ⟨S_, .f32⟩
  | 27 => ⟨S1x128, .f32⟩
  | 28 => ⟨S_, .f32⟩
  | 29 => ⟨S1x128, .f32⟩
  | 30 => ⟨S1x128, .f32⟩
  | 31 => ⟨S_, .f32⟩
  | 32 => ⟨S1x128, .f32⟩
  | 33 => ⟨S_, .f32⟩
  | 34 => ⟨S1x128, .f32⟩
  | 35 => ⟨S1x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S50000x128, .f32⟩
  | 43 => ⟨S10x1x128, .f32⟩
  | 44 => ⟨S10x1x128, .f32⟩
  | 45 => ⟨S_, .f32⟩
  | 46 => ⟨S1x128, .f32⟩
  | 47 => ⟨S_, .f32⟩
  | 48 => ⟨S1x128, .f32⟩
  | 49 => ⟨S1x128, .f32⟩
  | 50 => ⟨S_, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S50000x128, .f32⟩
  | 61 => ⟨S10x256x128, .f32⟩
  | 62 => ⟨S_, .f32⟩
  | 63 => ⟨S256x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S1x128, .f32⟩
  | 85 => ⟨S128, .f32⟩
  | 86 => ⟨S1x128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S1x128, .f32⟩
  | 95 => ⟨S128, .f32⟩
  | 96 => ⟨S1x128, .f32⟩
  | 97 => ⟨S1x128, .f32⟩
  | 98 => ⟨S50000x128, .f32⟩
  | 99 => ⟨S10x1x128, .f32⟩
  | 100 => ⟨S10x1x128, .f32⟩
  | 101 => ⟨S_, .f32⟩
  | 102 => ⟨S1x128, .f32⟩
  | 103 => ⟨S_, .f32⟩
  | 104 => ⟨S1x128, .f32⟩
  | 105 => ⟨S1x128, .f32⟩
  | 106 => ⟨S_, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S50000x128, .f32⟩
  | 118 => ⟨S10x1x128, .f32⟩
  | 119 => ⟨S10x1x128, .f32⟩
  | 120 => ⟨S_, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S_, .f32⟩
  | _ => ⟨S50000x128, .f32⟩

abbrev hbmTy0_3 (i : Nat) : BufTy := match i % 128 with
  | 0 => ⟨S1x128, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S50000x128, .f32⟩
  | 8 => ⟨S10x256x128, .f32⟩
  | 9 => ⟨S_, .f32⟩
  | 10 => ⟨S256x128, .f32⟩
  | 11 => ⟨S256x640, .f32⟩
  | 12 => ⟨S256x128, .f32⟩
  | 13 => ⟨S1x128, .f32⟩
  | 14 => ⟨S256x128, .f32⟩
  | 15 => ⟨S256x128, .f32⟩
  | 16 => ⟨S_, .f32⟩
  | 17 => ⟨S256x128, .f32⟩
  | 18 => ⟨S256x128, .f32⟩
  | 19 => ⟨S256x10, .f32⟩
  | 20 => ⟨S1x10, .f32⟩
  | 21 => ⟨S256x10, .f32⟩
  | 22 => ⟨S256x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev vmemTy0_0 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S128x128, .f32⟩
  | 5 => ⟨S1x128, .f32⟩
  | 6 => ⟨S5000x128, .f32⟩
  | 7 => ⟨S5000x128, .f32⟩
  | 8 => ⟨S1x1x128, .f32⟩
  | 9 => ⟨S1x1x128, .f32⟩
  | 10 => ⟨S1x1x128, .f32⟩
  | 11 => ⟨S1x1x128, .f32⟩
  | 12 => ⟨S5000x128, .f32⟩
  | 13 => ⟨S5000x128, .f32⟩
  | 14 => ⟨S1x128, .f32⟩
  | 15 => ⟨S1x128, .f32⟩
  | 16 => ⟨S1x128, .f32⟩
  | 17 => ⟨S1x128, .f32⟩
  | 18 => ⟨S128x128, .f32⟩
  | 19 => ⟨S1x128, .f32⟩
  | 20 => ⟨S5000x128, .f32⟩
  | 21 => ⟨S5000x128, .f32⟩
  | 22 => ⟨S1x1x128, .f32⟩
  | 23 => ⟨S1x1x128, .f32⟩
  | 24 => ⟨S1x1x128, .f32⟩
  | 25 => ⟨S1x1x128, .f32⟩
  | 26 => ⟨S5000x128, .f32⟩
  | 27 => ⟨S5000x128, .f32⟩
  | 28 => ⟨S1x128, .f32⟩
  | 29 => ⟨S1x128, .f32⟩
  | 30 => ⟨S1x128, .f32⟩
  | 31 => ⟨S1x128, .f32⟩
  | 32 => ⟨S5000x1, .i32⟩
  | 33 => ⟨S5000x1, .i32⟩
  | 34 => ⟨S5000x128, .f32⟩
  | 35 => ⟨S5000x128, .f32⟩
  | 36 => ⟨S1x256x128, .f32⟩
  | 37 => ⟨S1x256x128, .f32⟩
  | 38 => ⟨S5000x128, .f32⟩
  | 39 => ⟨S5000x128, .f32⟩
  | 40 => ⟨S5000x128, .f32⟩
  | 41 => ⟨S5000x128, .f32⟩
  | 42 => ⟨S128x128, .f32⟩
  | 43 => ⟨S1x128, .f32⟩
  | 44 => ⟨S5000x128, .f32⟩
  | 45 => ⟨S5000x128, .f32⟩
  | 46 => ⟨S1x1x128, .f32⟩
  | 47 => ⟨S1x1x128, .f32⟩
  | 48 => ⟨S1x1x128, .f32⟩
  | 49 => ⟨S1x1x128, .f32⟩
  | 50 => ⟨S5000x128, .f32⟩
  | 51 => ⟨S5000x128, .f32⟩
  | 52 => ⟨S1x128, .f32⟩
  | 53 => ⟨S1x128, .f32⟩
  | 54 => ⟨S1x128, .f32⟩
  | 55 => ⟨S1x128, .f32⟩
  | 56 => ⟨S128x128, .f32⟩
  | 57 => ⟨S1x128, .f32⟩
  | 58 => ⟨S5000x128, .f32⟩
  | 59 => ⟨S5000x128, .f32⟩
  | 60 => ⟨S1x1x128, .f32⟩
  | 61 => ⟨S1x1x128, .f32⟩
  | 62 => ⟨S1x1x128, .f32⟩
  | 63 => ⟨S1x1x128, .f32⟩
  | 64 => ⟨S5000x128, .f32⟩
  | 65 => ⟨S5000x128, .f32⟩
  | 66 => ⟨S1x128, .f32⟩
  | 67 => ⟨S1x128, .f32⟩
  | 68 => ⟨S1x128, .f32⟩
  | 69 => ⟨S1x128, .f32⟩
  | 70 => ⟨S5000x1, .i32⟩
  | 71 => ⟨S5000x1, .i32⟩
  | 72 => ⟨S5000x128, .f32⟩
  | 73 => ⟨S5000x128, .f32⟩
  | 74 => ⟨S1x256x128, .f32⟩
  | 75 => ⟨S1x256x128, .f32⟩
  | 76 => ⟨S5000x128, .f32⟩
  | 77 => ⟨S5000x128, .f32⟩
  | 78 => ⟨S5000x128, .f32⟩
  | 79 => ⟨S5000x128, .f32⟩
  | 80 => ⟨S128x128, .f32⟩
  | 81 => ⟨S1x128, .f32⟩
  | 82 => ⟨S5000x128, .f32⟩
  | 83 => ⟨S5000x128, .f32⟩
  | 84 => ⟨S1x1x128, .f32⟩
  | 85 => ⟨S1x1x128, .f32⟩
  | 86 => ⟨S1x1x128, .f32⟩
  | 87 => ⟨S1x1x128, .f32⟩
  | 88 => ⟨S5000x128, .f32⟩
  | 89 => ⟨S5000x128, .f32⟩
  | 90 => ⟨S1x128, .f32⟩
  | 91 => ⟨S1x128, .f32⟩
  | 92 => ⟨S1x128, .f32⟩
  | 93 => ⟨S1x128, .f32⟩
  | 94 => ⟨S128x128, .f32⟩
  | 95 => ⟨S1x128, .f32⟩
  | 96 => ⟨S5000x128, .f32⟩
  | 97 => ⟨S5000x128, .f32⟩
  | 98 => ⟨S1x1x128, .f32⟩
  | 99 => ⟨S1x1x128, .f32⟩
  | 100 => ⟨S1x1x128, .f32⟩
  | 101 => ⟨S1x1x128, .f32⟩
  | 102 => ⟨S5000x128, .f32⟩
  | 103 => ⟨S5000x128, .f32⟩
  | 104 => ⟨S1x128, .f32⟩
  | 105 => ⟨S1x128, .f32⟩
  | 106 => ⟨S1x128, .f32⟩
  | 107 => ⟨S1x128, .f32⟩
  | 108 => ⟨S5000x1, .i32⟩
  | 109 => ⟨S5000x1, .i32⟩
  | 110 => ⟨S5000x128, .f32⟩
  | 111 => ⟨S5000x128, .f32⟩
  | 112 => ⟨S1x256x128, .f32⟩
  | 113 => ⟨S1x256x128, .f32⟩
  | 114 => ⟨S5000x128, .f32⟩
  | 115 => ⟨S5000x128, .f32⟩
  | 116 => ⟨S5000x128, .f32⟩
  | 117 => ⟨S5000x128, .f32⟩
  | 118 => ⟨S128x128, .f32⟩
  | 119 => ⟨S1x128, .f32⟩
  | 120 => ⟨S5000x128, .f32⟩
  | 121 => ⟨S5000x128, .f32⟩
  | 122 => ⟨S1x1x128, .f32⟩
  | 123 => ⟨S1x1x128, .f32⟩
  | 124 => ⟨S1x1x128, .f32⟩
  | 125 => ⟨S1x1x128, .f32⟩
  | 126 => ⟨S5000x128, .f32⟩
  | 127 => ⟨S5000x128, .f32⟩
  | _ => ⟨S50000x128, .f32⟩

abbrev vmemTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S128x128, .f32⟩
  | 5 => ⟨S1x128, .f32⟩
  | 6 => ⟨S5000x128, .f32⟩
  | 7 => ⟨S5000x128, .f32⟩
  | 8 => ⟨S1x1x128, .f32⟩
  | 9 => ⟨S1x1x128, .f32⟩
  | 10 => ⟨S1x1x128, .f32⟩
  | 11 => ⟨S1x1x128, .f32⟩
  | 12 => ⟨S5000x128, .f32⟩
  | 13 => ⟨S5000x128, .f32⟩
  | 14 => ⟨S1x128, .f32⟩
  | 15 => ⟨S1x128, .f32⟩
  | 16 => ⟨S1x128, .f32⟩
  | 17 => ⟨S1x128, .f32⟩
  | 18 => ⟨S5000x1, .i32⟩
  | 19 => ⟨S5000x1, .i32⟩
  | 20 => ⟨S5000x128, .f32⟩
  | 21 => ⟨S5000x128, .f32⟩
  | 22 => ⟨S1x256x128, .f32⟩
  | 23 => ⟨S1x256x128, .f32⟩
  | 24 => ⟨S5000x128, .f32⟩
  | 25 => ⟨S5000x128, .f32⟩
  | 26 => ⟨S5000x128, .f32⟩
  | 27 => ⟨S5000x128, .f32⟩
  | 28 => ⟨S128x128, .f32⟩
  | 29 => ⟨S1x128, .f32⟩
  | 30 => ⟨S5000x128, .f32⟩
  | 31 => ⟨S5000x128, .f32⟩
  | 32 => ⟨S1x1x128, .f32⟩
  | 33 => ⟨S1x1x128, .f32⟩
  | 34 => ⟨S1x1x128, .f32⟩
  | 35 => ⟨S1x1x128, .f32⟩
  | 36 => ⟨S5000x128, .f32⟩
  | 37 => ⟨S5000x128, .f32⟩
  | 38 => ⟨S1x128, .f32⟩
  | 39 => ⟨S1x128, .f32⟩
  | 40 => ⟨S1x128, .f32⟩
  | 41 => ⟨S1x128, .f32⟩
  | 42 => ⟨S128x128, .f32⟩
  | 43 => ⟨S1x128, .f32⟩
  | 44 => ⟨S5000x128, .f32⟩
  | 45 => ⟨S5000x128, .f32⟩
  | 46 => ⟨S1x1x128, .f32⟩
  | 47 => ⟨S1x1x128, .f32⟩
  | 48 => ⟨S1x1x128, .f32⟩
  | 49 => ⟨S1x1x128, .f32⟩
  | 50 => ⟨S5000x128, .f32⟩
  | 51 => ⟨S5000x128, .f32⟩
  | 52 => ⟨S1x128, .f32⟩
  | 53 => ⟨S1x128, .f32⟩
  | 54 => ⟨S1x128, .f32⟩
  | 55 => ⟨S1x128, .f32⟩
  | 56 => ⟨S5000x1, .i32⟩
  | 57 => ⟨S5000x1, .i32⟩
  | 58 => ⟨S5000x128, .f32⟩
  | 59 => ⟨S5000x128, .f32⟩
  | 60 => ⟨S1x256x128, .f32⟩
  | 61 => ⟨S1x256x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 190 → Bool
  | ⟨i, _⟩ => dmaSemScopedAt i

abbrev sig : RefSig :=
  ofTc nBuf bufTy 0 190 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_cst_1 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48_0 : Ref sig .tc := ⟨.hbm, 73, rfl⟩
abbrev main_v48_1 : Ref sig .tc := ⟨.hbm, 74, rfl⟩
abbrev main_v48_2 : Ref sig .tc := ⟨.hbm, 75, rfl⟩
abbrev main_cst_6 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59_0 : Ref sig .tc := ⟨.hbm, 91, rfl⟩
abbrev main_v59_1 : Ref sig .tc := ⟨.hbm, 92, rfl⟩
abbrev main_cst_11 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_c_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92_0 : Ref sig .tc := ⟨.hbm, 129, rfl⟩
abbrev main_v92_1 : Ref sig .tc := ⟨.hbm, 130, rfl⟩
abbrev main_v92_2 : Ref sig .tc := ⟨.hbm, 131, rfl⟩
abbrev main_cst_15 : Ref sig .tc := ⟨.hbm, 132, rfl⟩
abbrev main_v93 : Ref sig .tc := ⟨.hbm, 133, rfl⟩
abbrev main_cst_16 : Ref sig .tc := ⟨.hbm, 134, rfl⟩
abbrev main_v94 : Ref sig .tc := ⟨.hbm, 135, rfl⟩
abbrev main_v95 : Ref sig .tc := ⟨.hbm, 136, rfl⟩
abbrev main_cst_17 : Ref sig .tc := ⟨.hbm, 137, rfl⟩
abbrev main_v96 : Ref sig .tc := ⟨.hbm, 138, rfl⟩
abbrev main_cst_18 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_19 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104_0 : Ref sig .tc := ⟨.hbm, 148, rfl⟩
abbrev main_v104_1 : Ref sig .tc := ⟨.hbm, 149, rfl⟩
abbrev main_v104_2 : Ref sig .tc := ⟨.hbm, 150, rfl⟩
abbrev main_cst_20 : Ref sig .tc := ⟨.hbm, 151, rfl⟩
abbrev main_v105 : Ref sig .tc := ⟨.hbm, 152, rfl⟩
abbrev main_cst_21 : Ref sig .tc := ⟨.hbm, 153, rfl⟩
abbrev main_v106 : Ref sig .tc := ⟨.hbm, 154, rfl⟩
abbrev main_v107 : Ref sig .tc := ⟨.hbm, 155, rfl⟩
abbrev main_cst_22 : Ref sig .tc := ⟨.hbm, 156, rfl⟩
abbrev main_v108 : Ref sig .tc := ⟨.hbm, 157, rfl⟩
abbrev main_cst_23 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_24 : Ref sig .tc := ⟨.hbm, 163, rfl⟩
abbrev main_v113 : Ref sig .tc := ⟨.hbm, 164, rfl⟩
abbrev main_v114 : Ref sig .tc := ⟨.hbm, 165, rfl⟩
abbrev main_v115_0 : Ref sig .tc := ⟨.hbm, 166, rfl⟩
abbrev main_v115_1 : Ref sig .tc := ⟨.hbm, 167, rfl⟩
abbrev main_cst_25 : Ref sig .tc := ⟨.hbm, 168, rfl⟩
abbrev main_v116 : Ref sig .tc := ⟨.hbm, 169, rfl⟩
abbrev main_c_26 : Ref sig .tc := ⟨.hbm, 170, rfl⟩
abbrev main_v117 : Ref sig .tc := ⟨.hbm, 171, rfl⟩
abbrev main_v118 : Ref sig .tc := ⟨.hbm, 172, rfl⟩
abbrev main_c_27 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_28 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148_0 : Ref sig .tc := ⟨.hbm, 204, rfl⟩
abbrev main_v148_1 : Ref sig .tc := ⟨.hbm, 205, rfl⟩
abbrev main_v148_2 : Ref sig .tc := ⟨.hbm, 206, rfl⟩
abbrev main_cst_29 : Ref sig .tc := ⟨.hbm, 207, rfl⟩
abbrev main_v149 : Ref sig .tc := ⟨.hbm, 208, rfl⟩
abbrev main_cst_30 : Ref sig .tc := ⟨.hbm, 209, rfl⟩
abbrev main_v150 : Ref sig .tc := ⟨.hbm, 210, rfl⟩
abbrev main_v151 : Ref sig .tc := ⟨.hbm, 211, rfl⟩
abbrev main_cst_31 : Ref sig .tc := ⟨.hbm, 212, rfl⟩
abbrev main_v152 : Ref sig .tc := ⟨.hbm, 213, rfl⟩
abbrev main_cst_32 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_33 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160_0 : Ref sig .tc := ⟨.hbm, 223, rfl⟩
abbrev main_v160_1 : Ref sig .tc := ⟨.hbm, 224, rfl⟩
abbrev main_v160_2 : Ref sig .tc := ⟨.hbm, 225, rfl⟩
abbrev main_cst_34 : Ref sig .tc := ⟨.hbm, 226, rfl⟩
abbrev main_v161 : Ref sig .tc := ⟨.hbm, 227, rfl⟩
abbrev main_cst_35 : Ref sig .tc := ⟨.hbm, 228, rfl⟩
abbrev main_v162 : Ref sig .tc := ⟨.hbm, 229, rfl⟩
abbrev main_v163 : Ref sig .tc := ⟨.hbm, 230, rfl⟩
abbrev main_cst_36 : Ref sig .tc := ⟨.hbm, 231, rfl⟩
abbrev main_v164 : Ref sig .tc := ⟨.hbm, 232, rfl⟩
abbrev main_cst_37 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_cst_38 : Ref sig .tc := ⟨.hbm, 238, rfl⟩
abbrev main_v169 : Ref sig .tc := ⟨.hbm, 239, rfl⟩
abbrev main_v170 : Ref sig .tc := ⟨.hbm, 240, rfl⟩
abbrev main_v171_0 : Ref sig .tc := ⟨.hbm, 241, rfl⟩
abbrev main_v171_1 : Ref sig .tc := ⟨.hbm, 242, rfl⟩
abbrev main_cst_39 : Ref sig .tc := ⟨.hbm, 243, rfl⟩
abbrev main_v172 : Ref sig .tc := ⟨.hbm, 244, rfl⟩
abbrev main_c_40 : Ref sig .tc := ⟨.hbm, 245, rfl⟩
abbrev main_v173 : Ref sig .tc := ⟨.hbm, 246, rfl⟩
abbrev main_v174 : Ref sig .tc := ⟨.hbm, 247, rfl⟩
abbrev main_c_41 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_cst_42 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204_0 : Ref sig .tc := ⟨.hbm, 279, rfl⟩
abbrev main_v204_1 : Ref sig .tc := ⟨.hbm, 280, rfl⟩
abbrev main_v204_2 : Ref sig .tc := ⟨.hbm, 281, rfl⟩
abbrev main_cst_43 : Ref sig .tc := ⟨.hbm, 282, rfl⟩
abbrev main_v205 : Ref sig .tc := ⟨.hbm, 283, rfl⟩
abbrev main_cst_44 : Ref sig .tc := ⟨.hbm, 284, rfl⟩
abbrev main_v206 : Ref sig .tc := ⟨.hbm, 285, rfl⟩
abbrev main_v207 : Ref sig .tc := ⟨.hbm, 286, rfl⟩
abbrev main_cst_45 : Ref sig .tc := ⟨.hbm, 287, rfl⟩
abbrev main_v208 : Ref sig .tc := ⟨.hbm, 288, rfl⟩
abbrev main_cst_46 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_cst_47 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216_0 : Ref sig .tc := ⟨.hbm, 298, rfl⟩
abbrev main_v216_1 : Ref sig .tc := ⟨.hbm, 299, rfl⟩
abbrev main_v216_2 : Ref sig .tc := ⟨.hbm, 300, rfl⟩
abbrev main_cst_48 : Ref sig .tc := ⟨.hbm, 301, rfl⟩
abbrev main_v217 : Ref sig .tc := ⟨.hbm, 302, rfl⟩
abbrev main_cst_49 : Ref sig .tc := ⟨.hbm, 303, rfl⟩
abbrev main_v218 : Ref sig .tc := ⟨.hbm, 304, rfl⟩
abbrev main_v219 : Ref sig .tc := ⟨.hbm, 305, rfl⟩
abbrev main_cst_50 : Ref sig .tc := ⟨.hbm, 306, rfl⟩
abbrev main_v220 : Ref sig .tc := ⟨.hbm, 307, rfl⟩
abbrev main_cst_51 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_cst_52 : Ref sig .tc := ⟨.hbm, 313, rfl⟩
abbrev main_v225 : Ref sig .tc := ⟨.hbm, 314, rfl⟩
abbrev main_v226 : Ref sig .tc := ⟨.hbm, 315, rfl⟩
abbrev main_v227_0 : Ref sig .tc := ⟨.hbm, 316, rfl⟩
abbrev main_v227_1 : Ref sig .tc := ⟨.hbm, 317, rfl⟩
abbrev main_cst_53 : Ref sig .tc := ⟨.hbm, 318, rfl⟩
abbrev main_v228 : Ref sig .tc := ⟨.hbm, 319, rfl⟩
abbrev main_c_54 : Ref sig .tc := ⟨.hbm, 320, rfl⟩
abbrev main_v229 : Ref sig .tc := ⟨.hbm, 321, rfl⟩
abbrev main_v230 : Ref sig .tc := ⟨.hbm, 322, rfl⟩
abbrev main_c_55 : Ref sig .tc := ⟨.hbm, 323, rfl⟩
abbrev main_v231 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_v235 : Ref sig .tc := ⟨.hbm, 328, rfl⟩
abbrev main_cst_56 : Ref sig .tc := ⟨.hbm, 329, rfl⟩
abbrev main_v236 : Ref sig .tc := ⟨.hbm, 330, rfl⟩
abbrev main_v237 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260_0 : Ref sig .tc := ⟨.hbm, 354, rfl⟩
abbrev main_v260_1 : Ref sig .tc := ⟨.hbm, 355, rfl⟩
abbrev main_v260_2 : Ref sig .tc := ⟨.hbm, 356, rfl⟩
abbrev main_cst_57 : Ref sig .tc := ⟨.hbm, 357, rfl⟩
abbrev main_v261 : Ref sig .tc := ⟨.hbm, 358, rfl⟩
abbrev main_cst_58 : Ref sig .tc := ⟨.hbm, 359, rfl⟩
abbrev main_v262 : Ref sig .tc := ⟨.hbm, 360, rfl⟩
abbrev main_v263 : Ref sig .tc := ⟨.hbm, 361, rfl⟩
abbrev main_cst_59 : Ref sig .tc := ⟨.hbm, 362, rfl⟩
abbrev main_v264 : Ref sig .tc := ⟨.hbm, 363, rfl⟩
abbrev main_cst_60 : Ref sig .tc := ⟨.hbm, 364, rfl⟩
abbrev main_v265 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_cst_61 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_v272_0 : Ref sig .tc := ⟨.hbm, 373, rfl⟩
abbrev main_v272_1 : Ref sig .tc := ⟨.hbm, 374, rfl⟩
abbrev main_v272_2 : Ref sig .tc := ⟨.hbm, 375, rfl⟩
abbrev main_cst_62 : Ref sig .tc := ⟨.hbm, 376, rfl⟩
abbrev main_v273 : Ref sig .tc := ⟨.hbm, 377, rfl⟩
abbrev main_cst_63 : Ref sig .tc := ⟨.hbm, 378, rfl⟩
abbrev main_v274 : Ref sig .tc := ⟨.hbm, 379, rfl⟩
abbrev main_v275 : Ref sig .tc := ⟨.hbm, 380, rfl⟩
abbrev main_cst_64 : Ref sig .tc := ⟨.hbm, 381, rfl⟩
abbrev main_v276 : Ref sig .tc := ⟨.hbm, 382, rfl⟩
abbrev main_cst_65 : Ref sig .tc := ⟨.hbm, 383, rfl⟩
abbrev main_v277 : Ref sig .tc := ⟨.hbm, 384, rfl⟩
abbrev main_v278 : Ref sig .tc := ⟨.hbm, 385, rfl⟩
abbrev main_v279 : Ref sig .tc := ⟨.hbm, 386, rfl⟩
abbrev main_v280 : Ref sig .tc := ⟨.hbm, 387, rfl⟩
abbrev main_cst_66 : Ref sig .tc := ⟨.hbm, 388, rfl⟩
abbrev main_v281 : Ref sig .tc := ⟨.hbm, 389, rfl⟩
abbrev main_v282 : Ref sig .tc := ⟨.hbm, 390, rfl⟩
abbrev main_v283_0 : Ref sig .tc := ⟨.hbm, 391, rfl⟩
abbrev main_v283_1 : Ref sig .tc := ⟨.hbm, 392, rfl⟩
abbrev main_cst_67 : Ref sig .tc := ⟨.hbm, 393, rfl⟩
abbrev main_v284 : Ref sig .tc := ⟨.hbm, 394, rfl⟩
abbrev main_v285 : Ref sig .tc := ⟨.hbm, 395, rfl⟩
abbrev main_v286 : Ref sig .tc := ⟨.hbm, 396, rfl⟩
abbrev main_v287 : Ref sig .tc := ⟨.hbm, 397, rfl⟩
abbrev main_v288 : Ref sig .tc := ⟨.hbm, 398, rfl⟩
abbrev main_v289 : Ref sig .tc := ⟨.hbm, 399, rfl⟩
abbrev main_call0_cst : Ref sig .tc := ⟨.hbm, 400, rfl⟩
abbrev main_call0_v0 : Ref sig .tc := ⟨.hbm, 401, rfl⟩
abbrev main_v290 : Ref sig .tc := ⟨.hbm, 402, rfl⟩
abbrev main_v291 : Ref sig .tc := ⟨.hbm, 403, rfl⟩
abbrev main_v292 : Ref sig .tc := ⟨.hbm, 404, rfl⟩
abbrev main_v293 : Ref sig .tc := ⟨.hbm, 405, rfl⟩
abbrev main_v294 : Ref sig .tc := ⟨.hbm, 406, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg7_1 : Ref sig .tc := ⟨.vmem, 59, rfl⟩
abbrev cc4_stg8_0 : Ref sig .tc := ⟨.vmem, 60, rfl⟩
abbrev cc4_stg8_1 : Ref sig .tc := ⟨.vmem, 61, rfl⟩
abbrev cc4_stg9_0 : Ref sig .tc := ⟨.vmem, 62, rfl⟩
abbrev cc4_stg9_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg5_1 : Ref sig .tc := ⟨.vmem, 71, rfl⟩
abbrev cc5_stg6_0 : Ref sig .tc := ⟨.vmem, 72, rfl⟩
abbrev cc5_stg6_1 : Ref sig .tc := ⟨.vmem, 73, rfl⟩
abbrev cc5_stg7_0 : Ref sig .tc := ⟨.vmem, 74, rfl⟩
abbrev cc5_stg7_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg1_1 : Ref sig .tc := ⟨.vmem, 79, rfl⟩
abbrev cc6_stg2_0 : Ref sig .tc := ⟨.vmem, 80, rfl⟩
abbrev cc6_stg3_0 : Ref sig .tc := ⟨.vmem, 81, rfl⟩
abbrev cc6_stg4_0 : Ref sig .tc := ⟨.vmem, 82, rfl⟩
abbrev cc6_stg4_1 : Ref sig .tc := ⟨.vmem, 83, rfl⟩
abbrev cc6_stg5_0 : Ref sig .tc := ⟨.vmem, 84, rfl⟩
abbrev cc6_stg5_1 : Ref sig .tc := ⟨.vmem, 85, rfl⟩
abbrev cc6_stg6_0 : Ref sig .tc := ⟨.vmem, 86, rfl⟩
abbrev cc6_stg6_1 : Ref sig .tc := ⟨.vmem, 87, rfl⟩
abbrev cc7_stg0_0 : Ref sig .tc := ⟨.vmem, 88, rfl⟩
abbrev cc7_stg0_1 : Ref sig .tc := ⟨.vmem, 89, rfl⟩
abbrev cc7_stg1_0 : Ref sig .tc := ⟨.vmem, 90, rfl⟩
abbrev cc7_stg2_0 : Ref sig .tc := ⟨.vmem, 91, rfl⟩
abbrev cc7_stg3_0 : Ref sig .tc := ⟨.vmem, 92, rfl⟩
abbrev cc7_stg4_0 : Ref sig .tc := ⟨.vmem, 93, rfl⟩
abbrev cc7_stg5_0 : Ref sig .tc := ⟨.vmem, 94, rfl⟩
abbrev cc7_stg6_0 : Ref sig .tc := ⟨.vmem, 95, rfl⟩
abbrev cc7_stg7_0 : Ref sig .tc := ⟨.vmem, 96, rfl⟩
abbrev cc7_stg7_1 : Ref sig .tc := ⟨.vmem, 97, rfl⟩
abbrev cc7_stg8_0 : Ref sig .tc := ⟨.vmem, 98, rfl⟩
abbrev cc7_stg8_1 : Ref sig .tc := ⟨.vmem, 99, rfl⟩
abbrev cc7_stg9_0 : Ref sig .tc := ⟨.vmem, 100, rfl⟩
abbrev cc7_stg9_1 : Ref sig .tc := ⟨.vmem, 101, rfl⟩
abbrev cc8_stg0_0 : Ref sig .tc := ⟨.vmem, 102, rfl⟩
abbrev cc8_stg0_1 : Ref sig .tc := ⟨.vmem, 103, rfl⟩
abbrev cc8_stg1_0 : Ref sig .tc := ⟨.vmem, 104, rfl⟩
abbrev cc8_stg2_0 : Ref sig .tc := ⟨.vmem, 105, rfl⟩
abbrev cc8_stg3_0 : Ref sig .tc := ⟨.vmem, 106, rfl⟩
abbrev cc8_stg4_0 : Ref sig .tc := ⟨.vmem, 107, rfl⟩
abbrev cc8_stg5_0 : Ref sig .tc := ⟨.vmem, 108, rfl⟩
abbrev cc8_stg5_1 : Ref sig .tc := ⟨.vmem, 109, rfl⟩
abbrev cc8_stg6_0 : Ref sig .tc := ⟨.vmem, 110, rfl⟩
abbrev cc8_stg6_1 : Ref sig .tc := ⟨.vmem, 111, rfl⟩
abbrev cc8_stg7_0 : Ref sig .tc := ⟨.vmem, 112, rfl⟩
abbrev cc8_stg7_1 : Ref sig .tc := ⟨.vmem, 113, rfl⟩
abbrev cc9_stg0_0 : Ref sig .tc := ⟨.vmem, 114, rfl⟩
abbrev cc9_stg0_1 : Ref sig .tc := ⟨.vmem, 115, rfl⟩
abbrev cc9_stg1_0 : Ref sig .tc := ⟨.vmem, 116, rfl⟩
abbrev cc9_stg1_1 : Ref sig .tc := ⟨.vmem, 117, rfl⟩
abbrev cc9_stg2_0 : Ref sig .tc := ⟨.vmem, 118, rfl⟩
abbrev cc9_stg3_0 : Ref sig .tc := ⟨.vmem, 119, rfl⟩
abbrev cc9_stg4_0 : Ref sig .tc := ⟨.vmem, 120, rfl⟩
abbrev cc9_stg4_1 : Ref sig .tc := ⟨.vmem, 121, rfl⟩
abbrev cc9_stg5_0 : Ref sig .tc := ⟨.vmem, 122, rfl⟩
abbrev cc9_stg5_1 : Ref sig .tc := ⟨.vmem, 123, rfl⟩
abbrev cc9_stg6_0 : Ref sig .tc := ⟨.vmem, 124, rfl⟩
abbrev cc9_stg6_1 : Ref sig .tc := ⟨.vmem, 125, rfl⟩
abbrev cc10_stg0_0 : Ref sig .tc := ⟨.vmem, 126, rfl⟩
abbrev cc10_stg0_1 : Ref sig .tc := ⟨.vmem, 127, rfl⟩
abbrev cc10_stg1_0 : Ref sig .tc := ⟨.vmem, 128, rfl⟩
abbrev cc10_stg2_0 : Ref sig .tc := ⟨.vmem, 129, rfl⟩
abbrev cc10_stg3_0 : Ref sig .tc := ⟨.vmem, 130, rfl⟩
abbrev cc10_stg4_0 : Ref sig .tc := ⟨.vmem, 131, rfl⟩
abbrev cc10_stg5_0 : Ref sig .tc := ⟨.vmem, 132, rfl⟩
abbrev cc10_stg6_0 : Ref sig .tc := ⟨.vmem, 133, rfl⟩
abbrev cc10_stg7_0 : Ref sig .tc := ⟨.vmem, 134, rfl⟩
abbrev cc10_stg7_1 : Ref sig .tc := ⟨.vmem, 135, rfl⟩
abbrev cc10_stg8_0 : Ref sig .tc := ⟨.vmem, 136, rfl⟩
abbrev cc10_stg8_1 : Ref sig .tc := ⟨.vmem, 137, rfl⟩
abbrev cc10_stg9_0 : Ref sig .tc := ⟨.vmem, 138, rfl⟩
abbrev cc10_stg9_1 : Ref sig .tc := ⟨.vmem, 139, rfl⟩
abbrev cc11_stg0_0 : Ref sig .tc := ⟨.vmem, 140, rfl⟩
abbrev cc11_stg0_1 : Ref sig .tc := ⟨.vmem, 141, rfl⟩
abbrev cc11_stg1_0 : Ref sig .tc := ⟨.vmem, 142, rfl⟩
abbrev cc11_stg2_0 : Ref sig .tc := ⟨.vmem, 143, rfl⟩
abbrev cc11_stg3_0 : Ref sig .tc := ⟨.vmem, 144, rfl⟩
abbrev cc11_stg4_0 : Ref sig .tc := ⟨.vmem, 145, rfl⟩
abbrev cc11_stg5_0 : Ref sig .tc := ⟨.vmem, 146, rfl⟩
abbrev cc11_stg5_1 : Ref sig .tc := ⟨.vmem, 147, rfl⟩
abbrev cc11_stg6_0 : Ref sig .tc := ⟨.vmem, 148, rfl⟩
abbrev cc11_stg6_1 : Ref sig .tc := ⟨.vmem, 149, rfl⟩
abbrev cc11_stg7_0 : Ref sig .tc := ⟨.vmem, 150, rfl⟩
abbrev cc11_stg7_1 : Ref sig .tc := ⟨.vmem, 151, rfl⟩
abbrev cc12_stg0_0 : Ref sig .tc := ⟨.vmem, 152, rfl⟩
abbrev cc12_stg0_1 : Ref sig .tc := ⟨.vmem, 153, rfl⟩
abbrev cc12_stg1_0 : Ref sig .tc := ⟨.vmem, 154, rfl⟩
abbrev cc12_stg1_1 : Ref sig .tc := ⟨.vmem, 155, rfl⟩
abbrev cc12_stg2_0 : Ref sig .tc := ⟨.vmem, 156, rfl⟩
abbrev cc12_stg3_0 : Ref sig .tc := ⟨.vmem, 157, rfl⟩
abbrev cc12_stg4_0 : Ref sig .tc := ⟨.vmem, 158, rfl⟩
abbrev cc12_stg4_1 : Ref sig .tc := ⟨.vmem, 159, rfl⟩
abbrev cc12_stg5_0 : Ref sig .tc := ⟨.vmem, 160, rfl⟩
abbrev cc12_stg5_1 : Ref sig .tc := ⟨.vmem, 161, rfl⟩
abbrev cc12_stg6_0 : Ref sig .tc := ⟨.vmem, 162, rfl⟩
abbrev cc12_stg6_1 : Ref sig .tc := ⟨.vmem, 163, rfl⟩
abbrev cc13_stg0_0 : Ref sig .tc := ⟨.vmem, 164, rfl⟩
abbrev cc13_stg0_1 : Ref sig .tc := ⟨.vmem, 165, rfl⟩
abbrev cc13_stg1_0 : Ref sig .tc := ⟨.vmem, 166, rfl⟩
abbrev cc13_stg2_0 : Ref sig .tc := ⟨.vmem, 167, rfl⟩
abbrev cc13_stg3_0 : Ref sig .tc := ⟨.vmem, 168, rfl⟩
abbrev cc13_stg4_0 : Ref sig .tc := ⟨.vmem, 169, rfl⟩
abbrev cc13_stg5_0 : Ref sig .tc := ⟨.vmem, 170, rfl⟩
abbrev cc13_stg6_0 : Ref sig .tc := ⟨.vmem, 171, rfl⟩
abbrev cc13_stg7_0 : Ref sig .tc := ⟨.vmem, 172, rfl⟩
abbrev cc13_stg7_1 : Ref sig .tc := ⟨.vmem, 173, rfl⟩
abbrev cc13_stg8_0 : Ref sig .tc := ⟨.vmem, 174, rfl⟩
abbrev cc13_stg8_1 : Ref sig .tc := ⟨.vmem, 175, rfl⟩
abbrev cc13_stg9_0 : Ref sig .tc := ⟨.vmem, 176, rfl⟩
abbrev cc13_stg9_1 : Ref sig .tc := ⟨.vmem, 177, rfl⟩
abbrev cc14_stg0_0 : Ref sig .tc := ⟨.vmem, 178, rfl⟩
abbrev cc14_stg0_1 : Ref sig .tc := ⟨.vmem, 179, rfl⟩
abbrev cc14_stg1_0 : Ref sig .tc := ⟨.vmem, 180, rfl⟩
abbrev cc14_stg2_0 : Ref sig .tc := ⟨.vmem, 181, rfl⟩
abbrev cc14_stg3_0 : Ref sig .tc := ⟨.vmem, 182, rfl⟩
abbrev cc14_stg4_0 : Ref sig .tc := ⟨.vmem, 183, rfl⟩
abbrev cc14_stg5_0 : Ref sig .tc := ⟨.vmem, 184, rfl⟩
abbrev cc14_stg5_1 : Ref sig .tc := ⟨.vmem, 185, rfl⟩
abbrev cc14_stg6_0 : Ref sig .tc := ⟨.vmem, 186, rfl⟩
abbrev cc14_stg6_1 : Ref sig .tc := ⟨.vmem, 187, rfl⟩
abbrev cc14_stg7_0 : Ref sig .tc := ⟨.vmem, 188, rfl⟩
abbrev cc14_stg7_1 : Ref sig .tc := ⟨.vmem, 189, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem7_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem4_1 : DmaSem sig := 45
abbrev cc3_sem5_0 : DmaSem sig := 46
abbrev cc3_sem5_1 : DmaSem sig := 47
abbrev cc3_sem6_0 : DmaSem sig := 48
abbrev cc3_sem6_1 : DmaSem sig := 49
abbrev cc4_sem0_0 : DmaSem sig := 50
abbrev cc4_sem0_1 : DmaSem sig := 51
abbrev cc4_sem1_0 : DmaSem sig := 52
abbrev cc4_sem2_0 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem7_1 : DmaSem sig := 59
abbrev cc4_sem8_0 : DmaSem sig := 60
abbrev cc4_sem8_1 : DmaSem sig := 61
abbrev cc4_sem9_0 : DmaSem sig := 62
abbrev cc4_sem9_1 : DmaSem sig := 63
abbrev cc5_sem0_0 : DmaSem sig := 64
abbrev cc5_sem0_1 : DmaSem sig := 65
abbrev cc5_sem1_0 : DmaSem sig := 66
abbrev cc5_sem2_0 : DmaSem sig := 67
abbrev cc5_sem3_0 : DmaSem sig := 68
abbrev cc5_sem4_0 : DmaSem sig := 69
abbrev cc5_sem5_0 : DmaSem sig := 70
abbrev cc5_sem5_1 : DmaSem sig := 71
abbrev cc5_sem6_0 : DmaSem sig := 72
abbrev cc5_sem6_1 : DmaSem sig := 73
abbrev cc5_sem7_0 : DmaSem sig := 74
abbrev cc5_sem7_1 : DmaSem sig := 75
abbrev cc6_sem0_0 : DmaSem sig := 76
abbrev cc6_sem0_1 : DmaSem sig := 77
abbrev cc6_sem1_0 : DmaSem sig := 78
abbrev cc6_sem1_1 : DmaSem sig := 79
abbrev cc6_sem2_0 : DmaSem sig := 80
abbrev cc6_sem3_0 : DmaSem sig := 81
abbrev cc6_sem4_0 : DmaSem sig := 82
abbrev cc6_sem4_1 : DmaSem sig := 83
abbrev cc6_sem5_0 : DmaSem sig := 84
abbrev cc6_sem5_1 : DmaSem sig := 85
abbrev cc6_sem6_0 : DmaSem sig := 86
abbrev cc6_sem6_1 : DmaSem sig := 87
abbrev cc7_sem0_0 : DmaSem sig := 88
abbrev cc7_sem0_1 : DmaSem sig := 89
abbrev cc7_sem1_0 : DmaSem sig := 90
abbrev cc7_sem2_0 : DmaSem sig := 91
abbrev cc7_sem3_0 : DmaSem sig := 92
abbrev cc7_sem4_0 : DmaSem sig := 93
abbrev cc7_sem5_0 : DmaSem sig := 94
abbrev cc7_sem6_0 : DmaSem sig := 95
abbrev cc7_sem7_0 : DmaSem sig := 96
abbrev cc7_sem7_1 : DmaSem sig := 97
abbrev cc7_sem8_0 : DmaSem sig := 98
abbrev cc7_sem8_1 : DmaSem sig := 99
abbrev cc7_sem9_0 : DmaSem sig := 100
abbrev cc7_sem9_1 : DmaSem sig := 101
abbrev cc8_sem0_0 : DmaSem sig := 102
abbrev cc8_sem0_1 : DmaSem sig := 103
abbrev cc8_sem1_0 : DmaSem sig := 104
abbrev cc8_sem2_0 : DmaSem sig := 105
abbrev cc8_sem3_0 : DmaSem sig := 106
abbrev cc8_sem4_0 : DmaSem sig := 107
abbrev cc8_sem5_0 : DmaSem sig := 108
abbrev cc8_sem5_1 : DmaSem sig := 109
abbrev cc8_sem6_0 : DmaSem sig := 110
abbrev cc8_sem6_1 : DmaSem sig := 111
abbrev cc8_sem7_0 : DmaSem sig := 112
abbrev cc8_sem7_1 : DmaSem sig := 113
abbrev cc9_sem0_0 : DmaSem sig := 114
abbrev cc9_sem0_1 : DmaSem sig := 115
abbrev cc9_sem1_0 : DmaSem sig := 116
abbrev cc9_sem1_1 : DmaSem sig := 117
abbrev cc9_sem2_0 : DmaSem sig := 118
abbrev cc9_sem3_0 : DmaSem sig := 119
abbrev cc9_sem4_0 : DmaSem sig := 120
abbrev cc9_sem4_1 : DmaSem sig := 121
abbrev cc9_sem5_0 : DmaSem sig := 122
abbrev cc9_sem5_1 : DmaSem sig := 123
abbrev cc9_sem6_0 : DmaSem sig := 124
abbrev cc9_sem6_1 : DmaSem sig := 125
abbrev cc10_sem0_0 : DmaSem sig := 126
abbrev cc10_sem0_1 : DmaSem sig := 127
abbrev cc10_sem1_0 : DmaSem sig := 128
abbrev cc10_sem2_0 : DmaSem sig := 129
abbrev cc10_sem3_0 : DmaSem sig := 130
abbrev cc10_sem4_0 : DmaSem sig := 131
abbrev cc10_sem5_0 : DmaSem sig := 132
abbrev cc10_sem6_0 : DmaSem sig := 133
abbrev cc10_sem7_0 : DmaSem sig := 134
abbrev cc10_sem7_1 : DmaSem sig := 135
abbrev cc10_sem8_0 : DmaSem sig := 136
abbrev cc10_sem8_1 : DmaSem sig := 137
abbrev cc10_sem9_0 : DmaSem sig := 138
abbrev cc10_sem9_1 : DmaSem sig := 139
abbrev cc11_sem0_0 : DmaSem sig := 140
abbrev cc11_sem0_1 : DmaSem sig := 141
abbrev cc11_sem1_0 : DmaSem sig := 142
abbrev cc11_sem2_0 : DmaSem sig := 143
abbrev cc11_sem3_0 : DmaSem sig := 144
abbrev cc11_sem4_0 : DmaSem sig := 145
abbrev cc11_sem5_0 : DmaSem sig := 146
abbrev cc11_sem5_1 : DmaSem sig := 147
abbrev cc11_sem6_0 : DmaSem sig := 148
abbrev cc11_sem6_1 : DmaSem sig := 149
abbrev cc11_sem7_0 : DmaSem sig := 150
abbrev cc11_sem7_1 : DmaSem sig := 151
abbrev cc12_sem0_0 : DmaSem sig := 152
abbrev cc12_sem0_1 : DmaSem sig := 153
abbrev cc12_sem1_0 : DmaSem sig := 154
abbrev cc12_sem1_1 : DmaSem sig := 155
abbrev cc12_sem2_0 : DmaSem sig := 156
abbrev cc12_sem3_0 : DmaSem sig := 157
abbrev cc12_sem4_0 : DmaSem sig := 158
abbrev cc12_sem4_1 : DmaSem sig := 159
abbrev cc12_sem5_0 : DmaSem sig := 160
abbrev cc12_sem5_1 : DmaSem sig := 161
abbrev cc12_sem6_0 : DmaSem sig := 162
abbrev cc12_sem6_1 : DmaSem sig := 163
abbrev cc13_sem0_0 : DmaSem sig := 164
abbrev cc13_sem0_1 : DmaSem sig := 165
abbrev cc13_sem1_0 : DmaSem sig := 166
abbrev cc13_sem2_0 : DmaSem sig := 167
abbrev cc13_sem3_0 : DmaSem sig := 168
abbrev cc13_sem4_0 : DmaSem sig := 169
abbrev cc13_sem5_0 : DmaSem sig := 170
abbrev cc13_sem6_0 : DmaSem sig := 171
abbrev cc13_sem7_0 : DmaSem sig := 172
abbrev cc13_sem7_1 : DmaSem sig := 173
abbrev cc13_sem8_0 : DmaSem sig := 174
abbrev cc13_sem8_1 : DmaSem sig := 175
abbrev cc13_sem9_0 : DmaSem sig := 176
abbrev cc13_sem9_1 : DmaSem sig := 177
abbrev cc14_sem0_0 : DmaSem sig := 178
abbrev cc14_sem0_1 : DmaSem sig := 179
abbrev cc14_sem1_0 : DmaSem sig := 180
abbrev cc14_sem2_0 : DmaSem sig := 181
abbrev cc14_sem3_0 : DmaSem sig := 182
abbrev cc14_sem4_0 : DmaSem sig := 183
abbrev cc14_sem5_0 : DmaSem sig := 184
abbrev cc14_sem5_1 : DmaSem sig := 185
abbrev cc14_sem6_0 : DmaSem sig := 186
abbrev cc14_sem6_1 : DmaSem sig := 187
abbrev cc14_sem7_0 : DmaSem sig := 188
abbrev cc14_sem7_1 : DmaSem sig := 189

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x1x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1x1x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .i32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x256x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x1x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x1x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_9 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S1x1x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S1x1x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x1 .i32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S1x256x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_6 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S1x1x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S1x1x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_9 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S1x1x128 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev stage10_9 : Fin 2 → Memref sig .tc .vmem S1x1x128 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_7 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x1 .i32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S5000x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 2 → Memref sig .tc .vmem S1x256x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_6 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S5000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S1x1x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S1x1x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_8 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_9 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S128x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S5000x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev stage13_8 : Fin 2 → Memref sig .tc .vmem S1x1x128 .f32 := fun | 0 => Memref.whole cc13_stg8_0 | 1 => Memref.whole cc13_stg8_1 | ⟨_ + 2, h⟩ => absurd h (Nat.not_lt.2 (Nat.le_add_left _ _))
abbrev sem13_8 : Fin 2 → DmaSem sig := fun | 0 => cc13_sem8_0 | 1 => cc13_sem8_1 | ⟨_ + 2, h⟩ => absurd h (Nat.not_lt.2 (Nat.le_add_left _ _))
abbrev reads13_8 : Fin grid13.rank → Bool := ![true]

abbrev stage13_9 : Fin 2 → Memref sig .tc .vmem S1x1x128 .f32 := fun | 0 => Memref.whole cc13_stg9_0 | 1 => Memref.whole cc13_stg9_1 | ⟨_ + 2, h⟩ => absurd h (Nat.not_lt.2 (Nat.le_add_left _ _))
abbrev sem13_9 : Fin 2 → DmaSem sig := fun | 0 => cc13_sem9_0 | 1 => cc13_sem9_1 | ⟨_ + 2, h⟩ => absurd h (Nat.not_lt.2 (Nat.le_add_left _ _))
abbrev reads13_9 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_7 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x1 .i32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev stage14_6 : Fin 2 → Memref sig .tc .vmem S5000x128 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev stage14_7 : Fin 2 → Memref sig .tc .vmem S1x256x128 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S10x1x128_S1x128_d0 : S10x1x128.ReducesTo [0] S1x128
  h_S_ : 0 < S_.numel
  bcast_S_S1x128 : S_.BroadcastsInDim S1x128 (![] : Fin 0 → Fin S1x128.rank)
  iota_S5000x256_d1_w32 : S5000x256.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  natLt_1_32 : 1 < 32
  transposes_S5000x256_p1_0_S256x5000 : S5000x256.Transposes [1, 0] S256x5000
  shapeCasts_S256x128_S1x256x128 : S256x128.ShapeCasts S1x256x128
  inb_S1x256x128_S1x256x128_0_0_0 : ∀ a, (![0, 0, 0] : Fin 3 → Nat) a + S1x256x128.size a ≤ S1x256x128.size a
  h_S1x256x128 : 0 < S1x256x128.numel
  reducesTo_S10x256x128_S256x128_d0 : S10x256x128.ReducesTo [0] S256x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  concatenates_S256x128_S256x128_S256x128_S256x128_S256x128_S256x640_d1 : Shape.Concatenates [S256x128, S256x128, S256x128, S256x128, S256x128] S256x640 1
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S256x5000_S5000x128_S256x128_1_0_0_1_n_n_wf : DotDims.WF S256x5000 S5000x128 S256x128 [1] [0] [0] [1] [] []
  dot_S256x640_S640x128_S256x128_1_0_0_1_n_n_wf : DotDims.WF S256x640 S640x128 S256x128 [1] [0] [0] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S10x1x128.size a
  hwx0_5 : ∀ i : grid0.Coords, EltTy.bits .f32 = 32 ∨ (Rect.block (s := S10x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S10x1x128.size a
  hwx0_6 : ∀ i : grid0.Coords, EltTy.bits .f32 = 32 ∨ (Rect.block (s := S10x1x128) S1x1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x128.size a ≤ S10x1x128.size a
  hwx1_8 : ∀ i : grid1.Coords, EltTy.bits .f32 = 32 ∨ (Rect.block (s := S10x1x128) S1x1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x128.size a ≤ S10x1x128.size a
  hwx1_9 : ∀ i : grid1.Coords, EltTy.bits .f32 = 32 ∨ (Rect.block (s := S10x1x128) S1x1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .i32 = 32 ∨ (Rect.block (s := S50000x1) S5000x1.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256x128.size a ≤ S10x256x128.size a
  hwx2_7 : ∀ i : grid2.Coords, EltTy.bits .f32 = 32 ∨ (Rect.block (s := S10x256x128) S1x256x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x128.size a ≤ S10x1x128.size a
  hwx3_5 : ∀ i : grid3.Coords, EltTy.bits .f32 = 32 ∨ (Rect.block (s := S10x1x128) S1x1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1x128.size a ≤ S10x1x128.size a
  hwx3_6 : ∀ i : grid3.Coords, EltTy.bits .f32 = 32 ∨ (Rect.block (s := S10x1x128) S1x1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x1x128.size a ≤ S10x1x128.size a
  hwx4_8 : ∀ i : grid4.Coords, EltTy.bits .f32 = 32 ∨ (Rect.block (s := S10x1x128) S1x1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1x1x128.size a ≤ S10x1x128.size a
  hwx4_9 : ∀ i : grid4.Coords, EltTy.bits .f32 = 32 ∨ (Rect.block (s := S10x1x128) S1x1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S50000x1.size a
  hwx5_5 : ∀ i : grid5.Coords, EltTy.bits .i32 = 32 ∨ (Rect.block (s := S50000x1) S5000x1.size (cc5_transform_5 i) (hinb5_5 i)).WholeWords (EltTy.packing .i32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x256x128.size a ≤ S10x256x128.size a
  hwx5_7 : ∀ i : grid5.Coords, EltTy.bits .f32 = 32 ∨ (Rect.block (s := S10x256x128) S1x256x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x1x128.size a ≤ S10x1x128.size a
  hwx6_5 : ∀ i : grid6.Coords, EltTy.bits .f32 = 32 ∨ (Rect.block (s := S10x1x128) S1x1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1x1x128.size a ≤ S10x1x128.size a
  hwx6_6 : ∀ i : grid6.Coords, EltTy.bits .f32 = 32 ∨ (Rect.block (s := S10x1x128) S1x1x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S50000x128.size a
  hwx7_7 : ∀ i : grid7.Coords, EltTy.bits .f32 = 32 ∨ (Rect.block (s := S50000x128) S5000x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S1x1x128.size a ≤ S10x1x128.size a
  hwx7_8 : ∀ i : grid7.Coords, EltTy.bits .f32 = 32 ∨ (Rect.block (s := S10x1x128) S1x1x128.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S1x1x128.size a ≤ S10x1x128.size a
  hwx7_9 : ∀ i : grid7.Coords, EltTy.bits .f32 = 32 ∨ (Rect.block (s := S10x1x128) S1x1x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x1.size a ≤ S50000x1.size a
  hwx8_5 : ∀ i : grid8.Coords, EltTy.bits .i32 = 32 ∨ (Rect.block (s := S50000x1) S5000x1.size (cc8_transform_5 i) (hinb8_5 i)).WholeWords (EltTy.packing .i32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S1x256x128.size a ≤ S10x256x128.size a
  hwx8_7 : ∀ i : grid8.Coords, EltTy.bits .f32 = 32 ∨ (Rect.block (s := S10x256x128) S1x256x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S50000x128.size a
  hwx9_4 : ∀ i : grid9.Coords, EltTy.bits .f32 = 32 ∨ (Rect.block (s := S50000x128) S5000x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1x1x128.size a ≤ S10x1x128.size a
  hwx9_5 : ∀ i : grid9.Coords, EltTy.bits .f32 = 32 ∨ (Rect.block (s := S10x1x128) S1x1x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1x1x128.size a ≤ S10x1x128.size a
  hwx9_6 : ∀ i : grid9.Coords, EltTy.bits .f32 = 32 ∨ (Rect.block (s := S10x1x128) S1x1x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x128.size a ≤ S50000x128.size a
  hwx10_7 : ∀ i : grid10.Coords, EltTy.bits .f32 = 32 ∨ (Rect.block (s := S50000x128) S5000x128.size (cc10_transform_7 i) (hinb10_7 i)).WholeWords (EltTy.packing .f32)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S1x1x128.size a ≤ S10x1x128.size a
  hwx10_8 : ∀ i : grid10.Coords, EltTy.bits .f32 = 32 ∨ (Rect.block (s := S10x1x128) S1x1x128.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S1x1x128.size a ≤ S10x1x128.size a
  hwx10_9 : ∀ i : grid10.Coords, EltTy.bits .f32 = 32 ∨ (Rect.block (s := S10x1x128) S1x1x128.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x1.size a ≤ S50000x1.size a
  hwx11_5 : ∀ i : grid11.Coords, EltTy.bits .i32 = 32 ∨ (Rect.block (s := S50000x1) S5000x1.size (cc11_transform_5 i) (hinb11_5 i)).WholeWords (EltTy.packing .i32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S5000x128.size a ≤ S50000x128.size a
  hwx11_6 : ∀ i : grid11.Coords, EltTy.bits .f32 = 32 ∨ (Rect.block (s := S50000x128) S5000x128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S1x256x128.size a ≤ S10x256x128.size a
  hwx11_7 : ∀ i : grid11.Coords, EltTy.bits .f32 = 32 ∨ (Rect.block (s := S10x256x128) S1x256x128.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S50000x128.size a
  hwx12_1 : ∀ i : grid12.Coords, EltTy.bits .f32 = 32 ∨ (Rect.block (s := S50000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x128.size a ≤ S50000x128.size a
  hwx12_4 : ∀ i : grid12.Coords, EltTy.bits .f32 = 32 ∨ (Rect.block (s := S50000x128) S5000x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S1x1x128.size a ≤ S10x1x128.size a
  hwx12_5 : ∀ i : grid12.Coords, EltTy.bits .f32 = 32 ∨ (Rect.block (s := S10x1x128) S1x1x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S1x1x128.size a ≤ S10x1x128.size a
  hwx12_6 : ∀ i : grid12.Coords, EltTy.bits .f32 = 32 ∨ (Rect.block (s := S10x1x128) S1x1x128.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S128x128.size a ≤ S128x128.size a
  hwx13_5 : ∀ i : grid13.Coords, EltTy.bits .f32 = 32 ∨ (Rect.block (s := S128x128) S128x128.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x128.size a ≤ S1x128.size a
  hwx13_6 : ∀ i : grid13.Coords, EltTy.bits .f32 = 32 ∨ (Rect.block (s := S1x128) S1x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S5000x128.size a ≤ S50000x128.size a
  hwx13_7 : ∀ i : grid13.Coords, EltTy.bits .f32 = 32 ∨ (Rect.block (s := S50000x128) S5000x128.size (cc13_transform_7 i) (hinb13_7 i)).WholeWords (EltTy.packing .f32)
  hstage13_8 : ∀ j, (stage13_8 j).IsWhole
  nbuf13_8 : grid13.bufCount reads13_8 false = 2
  hreads13_8 : ∀ i i' : grid13.Coords, (∀ a, reads13_8 a = true → i a = i' a) → cc13_transform_8 i = cc13_transform_8 i'
  hinb13_8 : ∀ (i : grid13.Coords) a, (cc13_transform_8 i a + 1) * S1x1x128.size a ≤ S10x1x128.size a
  hwx13_8 : ∀ i : grid13.Coords, EltTy.bits .f32 = 32 ∨ (Rect.block (s := S10x1x128) S1x1x128.size (cc13_transform_8 i) (hinb13_8 i)).WholeWords (EltTy.packing .f32)
  hstage13_9 : ∀ j, (stage13_9 j).IsWhole
  nbuf13_9 : grid13.bufCount reads13_9 false = 2
  hreads13_9 : ∀ i i' : grid13.Coords, (∀ a, reads13_9 a = true → i a = i' a) → cc13_transform_9 i = cc13_transform_9 i'
  hinb13_9 : ∀ (i : grid13.Coords) a, (cc13_transform_9 i a + 1) * S1x1x128.size a ≤ S10x1x128.size a
  hwx13_9 : ∀ i : grid13.Coords, EltTy.bits .f32 = 32 ∨ (Rect.block (s := S10x1x128) S1x1x128.size (cc13_transform_9 i) (hinb13_9 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x1.size a ≤ S50000x1.size a
  hwx14_5 : ∀ i : grid14.Coords, EltTy.bits .i32 = 32 ∨ (Rect.block (s := S50000x1) S5000x1.size (cc14_transform_5 i) (hinb14_5 i)).WholeWords (EltTy.packing .i32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S5000x128.size a ≤ S50000x128.size a
  hwx14_6 : ∀ i : grid14.Coords, EltTy.bits .f32 = 32 ∨ (Rect.block (s := S50000x128) S5000x128.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S1x256x128.size a ≤ S10x256x128.size a
  hwx14_7 : ∀ i : grid14.Coords, EltTy.bits .f32 = 32 ∨ (Rect.block (s := S10x256x128) S1x256x128.size (cc14_transform_7 i) (hinb14_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S256x5000_S5000x128_S256x128_1_0_0_1_n_n : DotDims S256x5000 S5000x128 S256x128 where
  lhsContracting := [1]
  rhsContracting := [0]
  lhsNonContracting := [0]
  rhsNonContracting := [1]
  lhsBatch := []
  rhsBatch := []
  wf := dot_S256x5000_S5000x128_S256x128_1_0_0_1_n_n_wf
def dot_S256x640_S640x128_S256x128_1_0_0_1_n_n : DotDims S256x640 S640x128 S256x128 where
  lhsContracting := [1]
  rhsContracting := [0]
  lhsNonContracting := [0]
  rhsNonContracting := [1]
  lhsBatch := []
  rhsBatch := []
  wf := dot_S256x640_S640x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36_1) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36_2) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v48_1) S1x1x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v48_2) S1x1x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v48_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v59_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v59_1) S1x256x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v59_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v92_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v92_1) S1x1x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v92_2) S1x1x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v92_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v102) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v80) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v103) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v104_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v104_1) S1x1x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v104_2) S1x1x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v104_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v107) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v114) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v4) S5000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v115_0) S5000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v115_1) S1x256x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v115_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v126) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v128) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v147) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v148_0) S5000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v148_1) S1x1x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v148_2) S1x1x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v148_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v151) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v158) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v133) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v136) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v138) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v159) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v160_0) S5000x128.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v160_1) S1x1x128.size cc7_transform_8 reads7_8 true false 2 stage7_8 sem7_8
    hrank7 hreads7_8 hinb7_8 nbuf7_8 (Memref.isWhole_whole _) hwx7_8 hstage7_8

abbrev win7_9 : Pipeline.Window sig grid7 :=
  Pipeline.Window.ofSpec (Memref.whole main_v160_2) S1x1x128.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v160_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v163) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v170) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v143) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v146) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v4) S5000x1.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v171_0) S5000x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v171_1) S1x256x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v171_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v182) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v184) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v203) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v204_0) S5000x128.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v204_1) S1x1x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v204_2) S1x1x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v204_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v207) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v214) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v189) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v192) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v194) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v215) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v216_0) S5000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v216_1) S1x1x128.size cc10_transform_8 reads10_8 true false 2 stage10_8 sem10_8
    hrank10 hreads10_8 hinb10_8 nbuf10_8 (Memref.isWhole_whole _) hwx10_8 hstage10_8

abbrev win10_9 : Pipeline.Window sig grid10 :=
  Pipeline.Window.ofSpec (Memref.whole main_v216_2) S1x1x128.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v216_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v219) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v226) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v199) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v202) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v4) S5000x1.size cc11_transform_5 reads11_5 false false 2 stage11_5 sem11_5
    hrank11 hreads11_5 hinb11_5 nbuf11_5 (Memref.isWhole_whole _) hwx11_5 hstage11_5

abbrev win11_6 : Pipeline.Window sig grid11 :=
  Pipeline.Window.ofSpec (Memref.whole main_v227_0) S5000x128.size cc11_transform_6 reads11_6 true false 2 stage11_6 sem11_6
    hrank11 hreads11_6 hinb11_6 nbuf11_6 (Memref.isWhole_whole _) hwx11_6 hstage11_6

abbrev win11_7 : Pipeline.Window sig grid11 :=
  Pipeline.Window.ofSpec (Memref.whole main_v227_1) S1x256x128.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v227_0) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v238) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v240) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v259) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v260_0) S5000x128.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v260_1) S1x1x128.size cc12_transform_5 reads12_5 true false 2 stage12_5 sem12_5
    hrank12 hreads12_5 hinb12_5 nbuf12_5 (Memref.isWhole_whole _) hwx12_5 hstage12_5

abbrev win12_6 : Pipeline.Window sig grid12 :=
  Pipeline.Window.ofSpec (Memref.whole main_v260_2) S1x1x128.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v260_0) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v263) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v270) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v245) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v248) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v250) S128x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v271) S1x128.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v272_0) S5000x128.size cc13_transform_7 reads13_7 true false 2 stage13_7 sem13_7
    hrank13 hreads13_7 hinb13_7 nbuf13_7 (Memref.isWhole_whole _) hwx13_7 hstage13_7

abbrev win13_8 : Pipeline.Window sig grid13 :=
  Pipeline.Window.ofSpec (Memref.whole main_v272_1) S1x1x128.size cc13_transform_8 reads13_8 true false 2 stage13_8 sem13_8
    hrank13 hreads13_8 hinb13_8 nbuf13_8 (Memref.isWhole_whole _) hwx13_8 hstage13_8

abbrev win13_9 : Pipeline.Window sig grid13 :=
  Pipeline.Window.ofSpec (Memref.whole main_v272_2) S1x1x128.size cc13_transform_9 reads13_9 true false 2 stage13_9 sem13_9
    hrank13 hreads13_9 hinb13_9 nbuf13_9 (Memref.isWhole_whole _) hwx13_9 hstage13_9

abbrev win13 : Fin 10 → Pipeline.Window sig grid13 := fun | 0 => win13_0 | 1 => win13_1 | 2 => win13_2 | 3 => win13_3 | 4 => win13_4 | 5 => win13_5 | 6 => win13_6 | 7 => win13_7 | 8 => win13_8 | 9 => win13_9 | ⟨_ + 10, h⟩ => absurd h (Nat.not_lt.2 (Nat.le_add_left _ _))
abbrev spec13 : Fin 10 → Pipeline.WinSpec sig grid13.rank := fun w => (win13 w).toWinSpec

abbrev win14_0 : Pipeline.Window sig grid14 :=
  Pipeline.Window.ofSpec (Memref.whole main_v272_0) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v275) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v282) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v255) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v258) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v4) S5000x1.size cc14_transform_5 reads14_5 false false 2 stage14_5 sem14_5
    hrank14 hreads14_5 hinb14_5 nbuf14_5 (Memref.isWhole_whole _) hwx14_5 hstage14_5

abbrev win14_6 : Pipeline.Window sig grid14 :=
  Pipeline.Window.ofSpec (Memref.whole main_v283_0) S5000x128.size cc14_transform_6 reads14_6 true false 2 stage14_6 sem14_6
    hrank14 hreads14_6 hinb14_6 nbuf14_6 (Memref.isWhole_whole _) hwx14_6 hstage14_6

abbrev win14_7 : Pipeline.Window sig grid14 :=
  Pipeline.Window.ofSpec (Memref.whole main_v283_1) S1x256x128.size cc14_transform_7 reads14_7 true false 2 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

class Facts : Prop extends Facts₀ where

variable [Facts]
-- ==== ReferenceIdeal.lean ====
abbrev S50000x128 : Shape := ⟨2, ![50000, 128]⟩
abbrev S5x128x128 : Shape := ⟨3, ![5, 128, 128]⟩
abbrev S5x128 : Shape := ⟨2, ![5, 128]⟩
abbrev S640x128 : Shape := ⟨2, ![640, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S256x128 : Shape := ⟨2, ![256, 128]⟩
abbrev S50000x1 : Shape := ⟨2, ![50000, 1]⟩
abbrev S256x640 : Shape := ⟨2, ![256, 640]⟩
abbrev S256x10 : Shape := ⟨2, ![256, 10]⟩
abbrev S1x10 : Shape := ⟨2, ![1, 10]⟩

abbrev nBuf : Space → Nat
  | .hbm => 711
  | .vmem => 0
  | .smem => 0
  | _ => 0

abbrev hbmTy0_0 (i : Nat) : BufTy := match i % 128 with
  | 0 => ⟨S50000x128, .f32⟩
  | 1 => ⟨S5x128x128, .f32⟩
  | 2 => ⟨S5x128, .f32⟩
  | 3 => ⟨S5x128, .f32⟩
  | 4 => ⟨S5x128, .f32⟩
  | 5 => ⟨S5x128x128, .f32⟩
  | 6 => ⟨S5x128, .f32⟩
  | 7 => ⟨S5x128, .f32⟩
  | 8 => ⟨S5x128, .f32⟩
  | 9 => ⟨S640x128, .f32⟩
  | 10 => ⟨S128, .f32⟩
  | 11 => ⟨S128x10, .f32⟩
  | 12 => ⟨S10, .f32⟩
  | 13 => ⟨S2x800000, .i32⟩
  | 14 => ⟨S50000, .i32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S128, .f32⟩
  | 43 => ⟨S1x128, .f32⟩
  | 44 => ⟨S128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S128, .f32⟩
  | 102 => ⟨S1x128, .f32⟩
  | 103 => ⟨S128, .f32⟩
  | 104 => ⟨S_, .f32⟩
  | 105 => ⟨S128, .f32⟩
  | 106 => ⟨S_, .f32⟩
  | 107 => ⟨S128, .f32⟩
  | 108 => ⟨S128, .f32⟩
  | 109 => ⟨S_, .i32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S50000x128, .f32⟩
  | 117 => ⟨S50000x128, .f32⟩
  | 118 => ⟨S50000x128, .f32⟩
  | 119 => ⟨S_, .f32⟩
  | 120 => ⟨S_, .f32⟩
  | 121 => ⟨S_, .f32⟩
  | 122 => ⟨S_, .f32⟩
  | 123 => ⟨S128, .f32⟩
  | 124 => ⟨S128, .f32⟩
  | 125 => ⟨S128, .f32⟩
  | 126 => ⟨S_, .f32⟩
  | 127 => ⟨S_, .i1⟩
  | _ => ⟨S50000x128, .f32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S1x128, .f32⟩
  | 5 => ⟨S50000x128, .f32⟩
  | 6 => ⟨S50000x128, .f32⟩
  | 7 => ⟨S_, .f32⟩
  | 8 => ⟨S128, .f32⟩
  | 9 => ⟨S128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S_, .f32⟩
  | 24 => ⟨S256x128, .f32⟩
  | 25 => ⟨S50000x1, .i32⟩
  | 26 => ⟨S256x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1x128x128, .f32⟩
  | 101 => ⟨S128x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S128, .f32⟩
  | 112 => ⟨S_, .f32⟩
  | 113 => ⟨S128, .f32⟩
  | 114 => ⟨S_, .f32⟩
  | 115 => ⟨S128, .f32⟩
  | 116 => ⟨S128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_2 (i : Nat) : BufTy := match i % 128 with
  | 0 => ⟨S_, .f32⟩
  | 1 => ⟨S_, .f32⟩
  | 2 => ⟨S_, .f32⟩
  | 3 => ⟨S128, .f32⟩
  | 4 => ⟨S128, .f32⟩
  | 5 => ⟨S128, .f32⟩
  | 6 => ⟨S_, .f32⟩
  | 7 => ⟨S_, .i1⟩
  | 8 => ⟨S_, .f32⟩
  | 9 => ⟨S_, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S_, .f32⟩
  | 32 => ⟨S256x128, .f32⟩
  | 33 => ⟨S50000x1, .i32⟩
  | 34 => ⟨S256x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S128, .f32⟩
  | 61 => ⟨S_, .f32⟩
  | 62 => ⟨S128, .f32⟩
  | 63 => ⟨S_, .f32⟩
  | 64 => ⟨S128, .f32⟩
  | 65 => ⟨S128, .f32⟩
  | 66 => ⟨S_, .i32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S50000x128, .f32⟩
  | 74 => ⟨S50000x128, .f32⟩
  | 75 => ⟨S50000x128, .f32⟩
  | 76 => ⟨S_, .f32⟩
  | 77 => ⟨S_, .f32⟩
  | 78 => ⟨S_, .f32⟩
  | 79 => ⟨S_, .f32⟩
  | 80 => ⟨S128, .f32⟩
  | 81 => ⟨S128, .f32⟩
  | 82 => ⟨S128, .f32⟩
  | 83 => ⟨S_, .f32⟩
  | 84 => ⟨S_, .i1⟩
  | 85 => ⟨S_, .f32⟩
  | 86 => ⟨S_, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S128, .f32⟩
  | 120 => ⟨S_, .f32⟩
  | 121 => ⟨S128, .f32⟩
  | 122 => ⟨S_, .f32⟩
  | 123 => ⟨S128, .f32⟩
  | 124 => ⟨S128, .f32⟩
  | 125 => ⟨S_, .i32⟩
  | 126 => ⟨S_, .f32⟩
  | 127 => ⟨S128, .f32⟩
  | _ => ⟨S50000x128, .f32⟩

abbrev hbmTy0_3 (i : Nat) : BufTy := match i % 128 with
  | 0 => ⟨S1x128, .f32⟩
  | 1 => ⟨S_, .f32⟩
  | 2 => ⟨S1x128, .f32⟩
  | 3 => ⟨S1x128, .f32⟩
  | 4 => ⟨S50000x128, .f32⟩
  | 5 => ⟨S50000x128, .f32⟩
  | 6 => ⟨S50000x128, .f32⟩
  | 7 => ⟨S_, .f32⟩
  | 8 => ⟨S_, .f32⟩
  | 9 => ⟨S_, .f32⟩
  | 10 => ⟨S_, .f32⟩
  | 11 => ⟨S128, .f32⟩
  | 12 => ⟨S128, .f32⟩
  | 13 => ⟨S128, .f32⟩
  | 14 => ⟨S_, .f32⟩
  | 15 => ⟨S_, .i1⟩
  | 16 => ⟨S_, .f32⟩
  | 17 => ⟨S_, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S_, .f32⟩
  | 24 => ⟨S128, .f32⟩
  | 25 => ⟨S128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .f32⟩
  | 40 => ⟨S256x128, .f32⟩
  | 41 => ⟨S50000x1, .i32⟩
  | 42 => ⟨S256x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S128, .f32⟩
  | _ => ⟨S50000x128, .f32⟩

abbrev hbmTy0_4 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S50000x128, .f32⟩
  | 13 => ⟨S50000x128, .f32⟩
  | 14 => ⟨S50000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .f32⟩
  | 48 => ⟨S256x128, .f32⟩
  | 49 => ⟨S50000x1, .i32⟩
  | 50 => ⟨S256x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S1x128x128, .f32⟩
  | 66 => ⟨S128x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S128, .f32⟩
  | 75 => ⟨S1x128, .f32⟩
  | 76 => ⟨S128, .f32⟩
  | 77 => ⟨S_, .f32⟩
  | 78 => ⟨S128, .f32⟩
  | 79 => ⟨S_, .f32⟩
  | 80 => ⟨S128, .f32⟩
  | 81 => ⟨S128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S50000x128, .f32⟩
  | 90 => ⟨S50000x128, .f32⟩
  | 91 => ⟨S50000x128, .f32⟩
  | 92 => ⟨S_, .f32⟩
  | 93 => ⟨S_, .f32⟩
  | 94 => ⟨S_, .f32⟩
  | 95 => ⟨S_, .f32⟩
  | 96 => ⟨S128, .f32⟩
  | 97 => ⟨S128, .f32⟩
  | 98 => ⟨S128, .f32⟩
  | 99 => ⟨S_, .f32⟩
  | 100 => ⟨S_, .i1⟩
  | 101 => ⟨S_, .f32⟩
  | 102 => ⟨S_, .f32⟩
  | 103 => ⟨S128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S128, .f32⟩
  | 110 => ⟨S128, .f32⟩
  | 111 => ⟨S128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S1x128, .f32⟩
  | _ => ⟨S50000x128, .f32⟩

abbrev hbmTy0_5 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S128, .f32⟩
  | 6 => ⟨S1x128, .f32⟩
  | 7 => ⟨S128, .f32⟩
  | 8 => ⟨S_, .f32⟩
  | 9 => ⟨S128, .f32⟩
  | 10 => ⟨S_, .f32⟩
  | 11 => ⟨S128, .f32⟩
  | 12 => ⟨S128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S50000x128, .f32⟩
  | 21 => ⟨S50000x128, .f32⟩
  | 22 => ⟨S50000x128, .f32⟩
  | 23 => ⟨S_, .f32⟩
  | 24 => ⟨S_, .f32⟩
  | 25 => ⟨S_, .f32⟩
  | 26 => ⟨S_, .f32⟩
  | 27 => ⟨S128, .f32⟩
  | 28 => ⟨S128, .f32⟩
  | 29 => ⟨S128, .f32⟩
  | 30 => ⟨S_, .f32⟩
  | 31 => ⟨S_, .i1⟩
  | 32 => ⟨S_, .f32⟩
  | 33 => ⟨S_, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S128, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .f32⟩
  | 56 => ⟨S256x128, .f32⟩
  | 57 => ⟨S50000x1, .i32⟩
  | 58 => ⟨S256x128, .f32⟩
  | 59 => ⟨S256x640, .f32⟩
  | 60 => ⟨S256x128, .f32⟩
  | 61 => ⟨S1x128, .f32⟩
  | 62 => ⟨S256x128, .f32⟩
  | 63 => ⟨S256x128, .f32⟩
  | 64 => ⟨S_, .f32⟩
  | 65 => ⟨S256x128, .f32⟩
  | 66 => ⟨S256x128, .f32⟩
  | 67 => ⟨S256x10, .f32⟩
  | 68 => ⟨S1x10, .f32⟩
  | 69 => ⟨S256x10, .f32⟩
  | 70 => ⟨S256x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_4 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_call1_cst : Ref sig .tc := ⟨.hbm, 89, rfl⟩
abbrev main_call1_v0 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_5 : Ref sig .tc := ⟨.hbm, 104, rfl⟩
abbrev main_v59 : Ref sig .tc := ⟨.hbm, 105, rfl⟩
abbrev main_cst_6 : Ref sig .tc := ⟨.hbm, 106, rfl⟩
abbrev main_v60 : Ref sig .tc := ⟨.hbm, 107, rfl⟩
abbrev main_v61 : Ref sig .tc := ⟨.hbm, 108, rfl⟩
abbrev main_c_7 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_cst_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_cst_1 : Ref sig .tc := ⟨.hbm, 120, rfl⟩
abbrev main_call2_v8 : Ref sig .tc := ⟨.hbm, 121, rfl⟩
abbrev main_call2_cst_2 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_cst_3 : Ref sig .tc := ⟨.hbm, 126, rfl⟩
abbrev main_call2_v12 : Ref sig .tc := ⟨.hbm, 127, rfl⟩
abbrev main_call2_cst_4 : Ref sig .tc := ⟨.hbm, 128, rfl⟩
abbrev main_call2_call0_v0 : Ref sig .tc := ⟨.hbm, 129, rfl⟩
abbrev main_call2_call0_v1 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_cst_8 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_call3_cst : Ref sig .tc := ⟨.hbm, 148, rfl⟩
abbrev main_call3_v0 : Ref sig .tc := ⟨.hbm, 149, rfl⟩
abbrev main_v78 : Ref sig .tc := ⟨.hbm, 150, rfl⟩
abbrev main_cst_9 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_c_10 : Ref sig .tc := ⟨.hbm, 155, rfl⟩
abbrev main_v82 : Ref sig .tc := ⟨.hbm, 156, rfl⟩
abbrev main_v83 : Ref sig .tc := ⟨.hbm, 157, rfl⟩
abbrev main_c_11 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_cst_12 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_cst_13 : Ref sig .tc := ⟨.hbm, 181, rfl⟩
abbrev main_v105 : Ref sig .tc := ⟨.hbm, 182, rfl⟩
abbrev main_cst_14 : Ref sig .tc := ⟨.hbm, 183, rfl⟩
abbrev main_v106 : Ref sig .tc := ⟨.hbm, 184, rfl⟩
abbrev main_v107 : Ref sig .tc := ⟨.hbm, 185, rfl⟩
abbrev main_c_15 : Ref sig .tc := ⟨.hbm, 186, rfl⟩
abbrev main_call4_cst : Ref sig .tc := ⟨.hbm, 187, rfl⟩
abbrev main_call4_v0 : Ref sig .tc := ⟨.hbm, 188, rfl⟩
abbrev main_call4_v1 : Ref sig .tc := ⟨.hbm, 189, rfl⟩
abbrev main_call4_cst_0 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_v6 : Ref sig .tc := ⟨.hbm, 195, rfl⟩
abbrev main_call4_v7 : Ref sig .tc := ⟨.hbm, 196, rfl⟩
abbrev main_call4_cst_1 : Ref sig .tc := ⟨.hbm, 197, rfl⟩
abbrev main_call4_v8 : Ref sig .tc := ⟨.hbm, 198, rfl⟩
abbrev main_call4_cst_2 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_cst_3 : Ref sig .tc := ⟨.hbm, 203, rfl⟩
abbrev main_call4_v12 : Ref sig .tc := ⟨.hbm, 204, rfl⟩
abbrev main_call4_cst_4 : Ref sig .tc := ⟨.hbm, 205, rfl⟩
abbrev main_call4_call0_v0 : Ref sig .tc := ⟨.hbm, 206, rfl⟩
abbrev main_call4_call0_v1 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_cst_16 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_call5_cst : Ref sig .tc := ⟨.hbm, 225, rfl⟩
abbrev main_call5_v0 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_cst_17 : Ref sig .tc := ⟨.hbm, 240, rfl⟩
abbrev main_v137 : Ref sig .tc := ⟨.hbm, 241, rfl⟩
abbrev main_cst_18 : Ref sig .tc := ⟨.hbm, 242, rfl⟩
abbrev main_v138 : Ref sig .tc := ⟨.hbm, 243, rfl⟩
abbrev main_v139 : Ref sig .tc := ⟨.hbm, 244, rfl⟩
abbrev main_c_19 : Ref sig .tc := ⟨.hbm, 245, rfl⟩
abbrev main_call6_cst : Ref sig .tc := ⟨.hbm, 246, rfl⟩
abbrev main_call6_v0 : Ref sig .tc := ⟨.hbm, 247, rfl⟩
abbrev main_call6_v1 : Ref sig .tc := ⟨.hbm, 248, rfl⟩
abbrev main_call6_cst_0 : Ref sig .tc := ⟨.hbm, 249, rfl⟩
abbrev main_call6_v2 : Ref sig .tc := ⟨.hbm, 250, rfl⟩
abbrev main_call6_v3 : Ref sig .tc := ⟨.hbm, 251, rfl⟩
abbrev main_call6_v4 : Ref sig .tc := ⟨.hbm, 252, rfl⟩
abbrev main_call6_v5 : Ref sig .tc := ⟨.hbm, 253, rfl⟩
abbrev main_call6_v6 : Ref sig .tc := ⟨.hbm, 254, rfl⟩
abbrev main_call6_v7 : Ref sig .tc := ⟨.hbm, 255, rfl⟩
abbrev main_call6_cst_1 : Ref sig .tc := ⟨.hbm, 256, rfl⟩
abbrev main_call6_v8 : Ref sig .tc := ⟨.hbm, 257, rfl⟩
abbrev main_call6_cst_2 : Ref sig .tc := ⟨.hbm, 258, rfl⟩
abbrev main_call6_v9 : Ref sig .tc := ⟨.hbm, 259, rfl⟩
abbrev main_call6_v10 : Ref sig .tc := ⟨.hbm, 260, rfl⟩
abbrev main_call6_v11 : Ref sig .tc := ⟨.hbm, 261, rfl⟩
abbrev main_call6_cst_3 : Ref sig .tc := ⟨.hbm, 262, rfl⟩
abbrev main_call6_v12 : Ref sig .tc := ⟨.hbm, 263, rfl⟩
abbrev main_call6_cst_4 : Ref sig .tc := ⟨.hbm, 264, rfl⟩
abbrev main_call6_call0_v0 : Ref sig .tc := ⟨.hbm, 265, rfl⟩
abbrev main_call6_call0_v1 : Ref sig .tc := ⟨.hbm, 266, rfl⟩
abbrev main_v140 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_cst_20 : Ref sig .tc := ⟨.hbm, 271, rfl⟩
abbrev main_v144 : Ref sig .tc := ⟨.hbm, 272, rfl⟩
abbrev main_v145 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_v149 : Ref sig .tc := ⟨.hbm, 277, rfl⟩
abbrev main_v150 : Ref sig .tc := ⟨.hbm, 278, rfl⟩
abbrev main_v151 : Ref sig .tc := ⟨.hbm, 279, rfl⟩
abbrev main_v152 : Ref sig .tc := ⟨.hbm, 280, rfl⟩
abbrev main_v153 : Ref sig .tc := ⟨.hbm, 281, rfl⟩
abbrev main_v154 : Ref sig .tc := ⟨.hbm, 282, rfl⟩
abbrev main_v155 : Ref sig .tc := ⟨.hbm, 283, rfl⟩
abbrev main_call7_cst : Ref sig .tc := ⟨.hbm, 284, rfl⟩
abbrev main_call7_v0 : Ref sig .tc := ⟨.hbm, 285, rfl⟩
abbrev main_v156 : Ref sig .tc := ⟨.hbm, 286, rfl⟩
abbrev main_cst_21 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_c_22 : Ref sig .tc := ⟨.hbm, 291, rfl⟩
abbrev main_v160 : Ref sig .tc := ⟨.hbm, 292, rfl⟩
abbrev main_v161 : Ref sig .tc := ⟨.hbm, 293, rfl⟩
abbrev main_c_23 : Ref sig .tc := ⟨.hbm, 294, rfl⟩
abbrev main_v162 : Ref sig .tc := ⟨.hbm, 295, rfl⟩
abbrev main_v163 : Ref sig .tc := ⟨.hbm, 296, rfl⟩
abbrev main_v164 : Ref sig .tc := ⟨.hbm, 297, rfl⟩
abbrev main_v165 : Ref sig .tc := ⟨.hbm, 298, rfl⟩
abbrev main_v166 : Ref sig .tc := ⟨.hbm, 299, rfl⟩
abbrev main_cst_24 : Ref sig .tc := ⟨.hbm, 300, rfl⟩
abbrev main_v167 : Ref sig .tc := ⟨.hbm, 301, rfl⟩
abbrev main_v168 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_v177 : Ref sig .tc := ⟨.hbm, 311, rfl⟩
abbrev main_v178 : Ref sig .tc := ⟨.hbm, 312, rfl⟩
abbrev main_v179 : Ref sig .tc := ⟨.hbm, 313, rfl⟩
abbrev main_v180 : Ref sig .tc := ⟨.hbm, 314, rfl⟩
abbrev main_v181 : Ref sig .tc := ⟨.hbm, 315, rfl⟩
abbrev main_v182 : Ref sig .tc := ⟨.hbm, 316, rfl⟩
abbrev main_cst_25 : Ref sig .tc := ⟨.hbm, 317, rfl⟩
abbrev main_v183 : Ref sig .tc := ⟨.hbm, 318, rfl⟩
abbrev main_cst_26 : Ref sig .tc := ⟨.hbm, 319, rfl⟩
abbrev main_v184 : Ref sig .tc := ⟨.hbm, 320, rfl⟩
abbrev main_v185 : Ref sig .tc := ⟨.hbm, 321, rfl⟩
abbrev main_c_27 : Ref sig .tc := ⟨.hbm, 322, rfl⟩
abbrev main_call8_cst : Ref sig .tc := ⟨.hbm, 323, rfl⟩
abbrev main_call8_v0 : Ref sig .tc := ⟨.hbm, 324, rfl⟩
abbrev main_call8_v1 : Ref sig .tc := ⟨.hbm, 325, rfl⟩
abbrev main_call8_cst_0 : Ref sig .tc := ⟨.hbm, 326, rfl⟩
abbrev main_call8_v2 : Ref sig .tc := ⟨.hbm, 327, rfl⟩
abbrev main_call8_v3 : Ref sig .tc := ⟨.hbm, 328, rfl⟩
abbrev main_call8_v4 : Ref sig .tc := ⟨.hbm, 329, rfl⟩
abbrev main_call8_v5 : Ref sig .tc := ⟨.hbm, 330, rfl⟩
abbrev main_call8_v6 : Ref sig .tc := ⟨.hbm, 331, rfl⟩
abbrev main_call8_v7 : Ref sig .tc := ⟨.hbm, 332, rfl⟩
abbrev main_call8_cst_1 : Ref sig .tc := ⟨.hbm, 333, rfl⟩
abbrev main_call8_v8 : Ref sig .tc := ⟨.hbm, 334, rfl⟩
abbrev main_call8_cst_2 : Ref sig .tc := ⟨.hbm, 335, rfl⟩
abbrev main_call8_v9 : Ref sig .tc := ⟨.hbm, 336, rfl⟩
abbrev main_call8_v10 : Ref sig .tc := ⟨.hbm, 337, rfl⟩
abbrev main_call8_v11 : Ref sig .tc := ⟨.hbm, 338, rfl⟩
abbrev main_call8_cst_3 : Ref sig .tc := ⟨.hbm, 339, rfl⟩
abbrev main_call8_v12 : Ref sig .tc := ⟨.hbm, 340, rfl⟩
abbrev main_call8_cst_4 : Ref sig .tc := ⟨.hbm, 341, rfl⟩
abbrev main_call8_call0_v0 : Ref sig .tc := ⟨.hbm, 342, rfl⟩
abbrev main_call8_call0_v1 : Ref sig .tc := ⟨.hbm, 343, rfl⟩
abbrev main_v186 : Ref sig .tc := ⟨.hbm, 344, rfl⟩
abbrev main_v187 : Ref sig .tc := ⟨.hbm, 345, rfl⟩
abbrev main_v188 : Ref sig .tc := ⟨.hbm, 346, rfl⟩
abbrev main_v189 : Ref sig .tc := ⟨.hbm, 347, rfl⟩
abbrev main_cst_28 : Ref sig .tc := ⟨.hbm, 348, rfl⟩
abbrev main_v190 : Ref sig .tc := ⟨.hbm, 349, rfl⟩
abbrev main_v191 : Ref sig .tc := ⟨.hbm, 350, rfl⟩
abbrev main_v192 : Ref sig .tc := ⟨.hbm, 351, rfl⟩
abbrev main_v193 : Ref sig .tc := ⟨.hbm, 352, rfl⟩
abbrev main_v194 : Ref sig .tc := ⟨.hbm, 353, rfl⟩
abbrev main_v195 : Ref sig .tc := ⟨.hbm, 354, rfl⟩
abbrev main_v196 : Ref sig .tc := ⟨.hbm, 355, rfl⟩
abbrev main_v197 : Ref sig .tc := ⟨.hbm, 356, rfl⟩
abbrev main_v198 : Ref sig .tc := ⟨.hbm, 357, rfl⟩
abbrev main_v199 : Ref sig .tc := ⟨.hbm, 358, rfl⟩
abbrev main_v200 : Ref sig .tc := ⟨.hbm, 359, rfl⟩
abbrev main_v201 : Ref sig .tc := ⟨.hbm, 360, rfl⟩
abbrev main_call9_cst : Ref sig .tc := ⟨.hbm, 361, rfl⟩
abbrev main_call9_v0 : Ref sig .tc := ⟨.hbm, 362, rfl⟩
abbrev main_v202 : Ref sig .tc := ⟨.hbm, 363, rfl⟩
abbrev main_v203 : Ref sig .tc := ⟨.hbm, 364, rfl⟩
abbrev main_v204 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_v211 : Ref sig .tc := ⟨.hbm, 372, rfl⟩
abbrev main_v212 : Ref sig .tc := ⟨.hbm, 373, rfl⟩
abbrev main_v213 : Ref sig .tc := ⟨.hbm, 374, rfl⟩
abbrev main_v214 : Ref sig .tc := ⟨.hbm, 375, rfl⟩
abbrev main_cst_29 : Ref sig .tc := ⟨.hbm, 376, rfl⟩
abbrev main_v215 : Ref sig .tc := ⟨.hbm, 377, rfl⟩
abbrev main_cst_30 : Ref sig .tc := ⟨.hbm, 378, rfl⟩
abbrev main_v216 : Ref sig .tc := ⟨.hbm, 379, rfl⟩
abbrev main_v217 : Ref sig .tc := ⟨.hbm, 380, rfl⟩
abbrev main_c_31 : Ref sig .tc := ⟨.hbm, 381, rfl⟩
abbrev main_call10_cst : Ref sig .tc := ⟨.hbm, 382, rfl⟩
abbrev main_call10_v0 : Ref sig .tc := ⟨.hbm, 383, rfl⟩
abbrev main_call10_v1 : Ref sig .tc := ⟨.hbm, 384, rfl⟩
abbrev main_call10_cst_0 : Ref sig .tc := ⟨.hbm, 385, rfl⟩
abbrev main_call10_v2 : Ref sig .tc := ⟨.hbm, 386, rfl⟩
abbrev main_call10_v3 : Ref sig .tc := ⟨.hbm, 387, rfl⟩
abbrev main_call10_v4 : Ref sig .tc := ⟨.hbm, 388, rfl⟩
abbrev main_call10_v5 : Ref sig .tc := ⟨.hbm, 389, rfl⟩
abbrev main_call10_v6 : Ref sig .tc := ⟨.hbm, 390, rfl⟩
abbrev main_call10_v7 : Ref sig .tc := ⟨.hbm, 391, rfl⟩
abbrev main_call10_cst_1 : Ref sig .tc := ⟨.hbm, 392, rfl⟩
abbrev main_call10_v8 : Ref sig .tc := ⟨.hbm, 393, rfl⟩
abbrev main_call10_cst_2 : Ref sig .tc := ⟨.hbm, 394, rfl⟩
abbrev main_call10_v9 : Ref sig .tc := ⟨.hbm, 395, rfl⟩
abbrev main_call10_v10 : Ref sig .tc := ⟨.hbm, 396, rfl⟩
abbrev main_call10_v11 : Ref sig .tc := ⟨.hbm, 397, rfl⟩
abbrev main_call10_cst_3 : Ref sig .tc := ⟨.hbm, 398, rfl⟩
abbrev main_call10_v12 : Ref sig .tc := ⟨.hbm, 399, rfl⟩
abbrev main_call10_cst_4 : Ref sig .tc := ⟨.hbm, 400, rfl⟩
abbrev main_call10_call0_v0 : Ref sig .tc := ⟨.hbm, 401, rfl⟩
abbrev main_call10_call0_v1 : Ref sig .tc := ⟨.hbm, 402, rfl⟩
abbrev main_v218 : Ref sig .tc := ⟨.hbm, 403, rfl⟩
abbrev main_v219 : Ref sig .tc := ⟨.hbm, 404, rfl⟩
abbrev main_v220 : Ref sig .tc := ⟨.hbm, 405, rfl⟩
abbrev main_v221 : Ref sig .tc := ⟨.hbm, 406, rfl⟩
abbrev main_cst_32 : Ref sig .tc := ⟨.hbm, 407, rfl⟩
abbrev main_v222 : Ref sig .tc := ⟨.hbm, 408, rfl⟩
abbrev main_v223 : Ref sig .tc := ⟨.hbm, 409, rfl⟩
abbrev main_v224 : Ref sig .tc := ⟨.hbm, 410, rfl⟩
abbrev main_v225 : Ref sig .tc := ⟨.hbm, 411, rfl⟩
abbrev main_v226 : Ref sig .tc := ⟨.hbm, 412, rfl⟩
abbrev main_v227 : Ref sig .tc := ⟨.hbm, 413, rfl⟩
abbrev main_v228 : Ref sig .tc := ⟨.hbm, 414, rfl⟩
abbrev main_v229 : Ref sig .tc := ⟨.hbm, 415, rfl⟩
abbrev main_v230 : Ref sig .tc := ⟨.hbm, 416, rfl⟩
abbrev main_v231 : Ref sig .tc := ⟨.hbm, 417, rfl⟩
abbrev main_v232 : Ref sig .tc := ⟨.hbm, 418, rfl⟩
abbrev main_v233 : Ref sig .tc := ⟨.hbm, 419, rfl⟩
abbrev main_call11_cst : Ref sig .tc := ⟨.hbm, 420, rfl⟩
abbrev main_call11_v0 : Ref sig .tc := ⟨.hbm, 421, rfl⟩
abbrev main_v234 : Ref sig .tc := ⟨.hbm, 422, rfl⟩
abbrev main_cst_33 : Ref sig .tc := ⟨.hbm, 423, rfl⟩
abbrev main_v235 : Ref sig .tc := ⟨.hbm, 424, rfl⟩
abbrev main_v236 : Ref sig .tc := ⟨.hbm, 425, rfl⟩
abbrev main_v237 : Ref sig .tc := ⟨.hbm, 426, rfl⟩
abbrev main_c_34 : Ref sig .tc := ⟨.hbm, 427, rfl⟩
abbrev main_v238 : Ref sig .tc := ⟨.hbm, 428, rfl⟩
abbrev main_v239 : Ref sig .tc := ⟨.hbm, 429, rfl⟩
abbrev main_c_35 : Ref sig .tc := ⟨.hbm, 430, rfl⟩
abbrev main_v240 : Ref sig .tc := ⟨.hbm, 431, rfl⟩
abbrev main_v241 : Ref sig .tc := ⟨.hbm, 432, rfl⟩
abbrev main_v242 : Ref sig .tc := ⟨.hbm, 433, rfl⟩
abbrev main_v243 : Ref sig .tc := ⟨.hbm, 434, rfl⟩
abbrev main_v244 : Ref sig .tc := ⟨.hbm, 435, rfl⟩
abbrev main_cst_36 : Ref sig .tc := ⟨.hbm, 436, rfl⟩
abbrev main_v245 : Ref sig .tc := ⟨.hbm, 437, rfl⟩
abbrev main_v246 : Ref sig .tc := ⟨.hbm, 438, rfl⟩
abbrev main_v247 : Ref sig .tc := ⟨.hbm, 439, rfl⟩
abbrev main_v248 : Ref sig .tc := ⟨.hbm, 440, rfl⟩
abbrev main_v249 : Ref sig .tc := ⟨.hbm, 441, rfl⟩
abbrev main_v250 : Ref sig .tc := ⟨.hbm, 442, rfl⟩
abbrev main_v251 : Ref sig .tc := ⟨.hbm, 443, rfl⟩
abbrev main_v252 : Ref sig .tc := ⟨.hbm, 444, rfl⟩
abbrev main_v253 : Ref sig .tc := ⟨.hbm, 445, rfl⟩
abbrev main_v254 : Ref sig .tc := ⟨.hbm, 446, rfl⟩
abbrev main_v255 : Ref sig .tc := ⟨.hbm, 447, rfl⟩
abbrev main_v256 : Ref sig .tc := ⟨.hbm, 448, rfl⟩
abbrev main_v257 : Ref sig .tc := ⟨.hbm, 449, rfl⟩
abbrev main_v258 : Ref sig .tc := ⟨.hbm, 450, rfl⟩
abbrev main_v259 : Ref sig .tc := ⟨.hbm, 451, rfl⟩
abbrev main_v260 : Ref sig .tc := ⟨.hbm, 452, rfl⟩
abbrev main_cst_37 : Ref sig .tc := ⟨.hbm, 453, rfl⟩
abbrev main_v261 : Ref sig .tc := ⟨.hbm, 454, rfl⟩
abbrev main_cst_38 : Ref sig .tc := ⟨.hbm, 455, rfl⟩
abbrev main_v262 : Ref sig .tc := ⟨.hbm, 456, rfl⟩
abbrev main_v263 : Ref sig .tc := ⟨.hbm, 457, rfl⟩
abbrev main_c_39 : Ref sig .tc := ⟨.hbm, 458, rfl⟩
abbrev main_call12_cst : Ref sig .tc := ⟨.hbm, 459, rfl⟩
abbrev main_call12_v0 : Ref sig .tc := ⟨.hbm, 460, rfl⟩
abbrev main_call12_v1 : Ref sig .tc := ⟨.hbm, 461, rfl⟩
abbrev main_call12_cst_0 : Ref sig .tc := ⟨.hbm, 462, rfl⟩
abbrev main_call12_v2 : Ref sig .tc := ⟨.hbm, 463, rfl⟩
abbrev main_call12_v3 : Ref sig .tc := ⟨.hbm, 464, rfl⟩
abbrev main_call12_v4 : Ref sig .tc := ⟨.hbm, 465, rfl⟩
abbrev main_call12_v5 : Ref sig .tc := ⟨.hbm, 466, rfl⟩
abbrev main_call12_v6 : Ref sig .tc := ⟨.hbm, 467, rfl⟩
abbrev main_call12_v7 : Ref sig .tc := ⟨.hbm, 468, rfl⟩
abbrev main_call12_cst_1 : Ref sig .tc := ⟨.hbm, 469, rfl⟩
abbrev main_call12_v8 : Ref sig .tc := ⟨.hbm, 470, rfl⟩
abbrev main_call12_cst_2 : Ref sig .tc := ⟨.hbm, 471, rfl⟩
abbrev main_call12_v9 : Ref sig .tc := ⟨.hbm, 472, rfl⟩
abbrev main_call12_v10 : Ref sig .tc := ⟨.hbm, 473, rfl⟩
abbrev main_call12_v11 : Ref sig .tc := ⟨.hbm, 474, rfl⟩
abbrev main_call12_cst_3 : Ref sig .tc := ⟨.hbm, 475, rfl⟩
abbrev main_call12_v12 : Ref sig .tc := ⟨.hbm, 476, rfl⟩
abbrev main_call12_cst_4 : Ref sig .tc := ⟨.hbm, 477, rfl⟩
abbrev main_call12_call0_v0 : Ref sig .tc := ⟨.hbm, 478, rfl⟩
abbrev main_call12_call0_v1 : Ref sig .tc := ⟨.hbm, 479, rfl⟩
abbrev main_v264 : Ref sig .tc := ⟨.hbm, 480, rfl⟩
abbrev main_v265 : Ref sig .tc := ⟨.hbm, 481, rfl⟩
abbrev main_v266 : Ref sig .tc := ⟨.hbm, 482, rfl⟩
abbrev main_v267 : Ref sig .tc := ⟨.hbm, 483, rfl⟩
abbrev main_cst_40 : Ref sig .tc := ⟨.hbm, 484, rfl⟩
abbrev main_v268 : Ref sig .tc := ⟨.hbm, 485, rfl⟩
abbrev main_v269 : Ref sig .tc := ⟨.hbm, 486, rfl⟩
abbrev main_v270 : Ref sig .tc := ⟨.hbm, 487, rfl⟩
abbrev main_v271 : Ref sig .tc := ⟨.hbm, 488, rfl⟩
abbrev main_v272 : Ref sig .tc := ⟨.hbm, 489, rfl⟩
abbrev main_v273 : Ref sig .tc := ⟨.hbm, 490, rfl⟩
abbrev main_v274 : Ref sig .tc := ⟨.hbm, 491, rfl⟩
abbrev main_v275 : Ref sig .tc := ⟨.hbm, 492, rfl⟩
abbrev main_v276 : Ref sig .tc := ⟨.hbm, 493, rfl⟩
abbrev main_v277 : Ref sig .tc := ⟨.hbm, 494, rfl⟩
abbrev main_v278 : Ref sig .tc := ⟨.hbm, 495, rfl⟩
abbrev main_v279 : Ref sig .tc := ⟨.hbm, 496, rfl⟩
abbrev main_call13_cst : Ref sig .tc := ⟨.hbm, 497, rfl⟩
abbrev main_call13_v0 : Ref sig .tc := ⟨.hbm, 498, rfl⟩
abbrev main_v280 : Ref sig .tc := ⟨.hbm, 499, rfl⟩
abbrev main_v281 : Ref sig .tc := ⟨.hbm, 500, rfl⟩
abbrev main_v282 : Ref sig .tc := ⟨.hbm, 501, rfl⟩
abbrev main_v283 : Ref sig .tc := ⟨.hbm, 502, rfl⟩
abbrev main_v284 : Ref sig .tc := ⟨.hbm, 503, rfl⟩
abbrev main_v285 : Ref sig .tc := ⟨.hbm, 504, rfl⟩
abbrev main_v286 : Ref sig .tc := ⟨.hbm, 505, rfl⟩
abbrev main_v287 : Ref sig .tc := ⟨.hbm, 506, rfl⟩
abbrev main_v288 : Ref sig .tc := ⟨.hbm, 507, rfl⟩
abbrev main_v289 : Ref sig .tc := ⟨.hbm, 508, rfl⟩
abbrev main_v290 : Ref sig .tc := ⟨.hbm, 509, rfl⟩
abbrev main_v291 : Ref sig .tc := ⟨.hbm, 510, rfl⟩
abbrev main_v292 : Ref sig .tc := ⟨.hbm, 511, rfl⟩
abbrev main_cst_41 : Ref sig .tc := ⟨.hbm, 512, rfl⟩
abbrev main_v293 : Ref sig .tc := ⟨.hbm, 513, rfl⟩
abbrev main_cst_42 : Ref sig .tc := ⟨.hbm, 514, rfl⟩
abbrev main_v294 : Ref sig .tc := ⟨.hbm, 515, rfl⟩
abbrev main_v295 : Ref sig .tc := ⟨.hbm, 516, rfl⟩
abbrev main_c_43 : Ref sig .tc := ⟨.hbm, 517, rfl⟩
abbrev main_call14_cst : Ref sig .tc := ⟨.hbm, 518, rfl⟩
abbrev main_call14_v0 : Ref sig .tc := ⟨.hbm, 519, rfl⟩
abbrev main_call14_v1 : Ref sig .tc := ⟨.hbm, 520, rfl⟩
abbrev main_call14_cst_0 : Ref sig .tc := ⟨.hbm, 521, rfl⟩
abbrev main_call14_v2 : Ref sig .tc := ⟨.hbm, 522, rfl⟩
abbrev main_call14_v3 : Ref sig .tc := ⟨.hbm, 523, rfl⟩
abbrev main_call14_v4 : Ref sig .tc := ⟨.hbm, 524, rfl⟩
abbrev main_call14_v5 : Ref sig .tc := ⟨.hbm, 525, rfl⟩
abbrev main_call14_v6 : Ref sig .tc := ⟨.hbm, 526, rfl⟩
abbrev main_call14_v7 : Ref sig .tc := ⟨.hbm, 527, rfl⟩
abbrev main_call14_cst_1 : Ref sig .tc := ⟨.hbm, 528, rfl⟩
abbrev main_call14_v8 : Ref sig .tc := ⟨.hbm, 529, rfl⟩
abbrev main_call14_cst_2 : Ref sig .tc := ⟨.hbm, 530, rfl⟩
abbrev main_call14_v9 : Ref sig .tc := ⟨.hbm, 531, rfl⟩
abbrev main_call14_v10 : Ref sig .tc := ⟨.hbm, 532, rfl⟩
abbrev main_call14_v11 : Ref sig .tc := ⟨.hbm, 533, rfl⟩
abbrev main_call14_cst_3 : Ref sig .tc := ⟨.hbm, 534, rfl⟩
abbrev main_call14_v12 : Ref sig .tc := ⟨.hbm, 535, rfl⟩
abbrev main_call14_cst_4 : Ref sig .tc := ⟨.hbm, 536, rfl⟩
abbrev main_call14_call0_v0 : Ref sig .tc := ⟨.hbm, 537, rfl⟩
abbrev main_call14_call0_v1 : Ref sig .tc := ⟨.hbm, 538, rfl⟩
abbrev main_v296 : Ref sig .tc := ⟨.hbm, 539, rfl⟩
abbrev main_v297 : Ref sig .tc := ⟨.hbm, 540, rfl⟩
abbrev main_v298 : Ref sig .tc := ⟨.hbm, 541, rfl⟩
abbrev main_v299 : Ref sig .tc := ⟨.hbm, 542, rfl⟩
abbrev main_cst_44 : Ref sig .tc := ⟨.hbm, 543, rfl⟩
abbrev main_v300 : Ref sig .tc := ⟨.hbm, 544, rfl⟩
abbrev main_v301 : Ref sig .tc := ⟨.hbm, 545, rfl⟩
abbrev main_v302 : Ref sig .tc := ⟨.hbm, 546, rfl⟩
abbrev main_v303 : Ref sig .tc := ⟨.hbm, 547, rfl⟩
abbrev main_v304 : Ref sig .tc := ⟨.hbm, 548, rfl⟩
abbrev main_v305 : Ref sig .tc := ⟨.hbm, 549, rfl⟩
abbrev main_v306 : Ref sig .tc := ⟨.hbm, 550, rfl⟩
abbrev main_v307 : Ref sig .tc := ⟨.hbm, 551, rfl⟩
abbrev main_v308 : Ref sig .tc := ⟨.hbm, 552, rfl⟩
abbrev main_v309 : Ref sig .tc := ⟨.hbm, 553, rfl⟩
abbrev main_v310 : Ref sig .tc := ⟨.hbm, 554, rfl⟩
abbrev main_v311 : Ref sig .tc := ⟨.hbm, 555, rfl⟩
abbrev main_call15_cst : Ref sig .tc := ⟨.hbm, 556, rfl⟩
abbrev main_call15_v0 : Ref sig .tc := ⟨.hbm, 557, rfl⟩
abbrev main_v312 : Ref sig .tc := ⟨.hbm, 558, rfl⟩
abbrev main_cst_45 : Ref sig .tc := ⟨.hbm, 559, rfl⟩
abbrev main_v313 : Ref sig .tc := ⟨.hbm, 560, rfl⟩
abbrev main_v314 : Ref sig .tc := ⟨.hbm, 561, rfl⟩
abbrev main_v315 : Ref sig .tc := ⟨.hbm, 562, rfl⟩
abbrev main_c_46 : Ref sig .tc := ⟨.hbm, 563, rfl⟩
abbrev main_v316 : Ref sig .tc := ⟨.hbm, 564, rfl⟩
abbrev main_v317 : Ref sig .tc := ⟨.hbm, 565, rfl⟩
abbrev main_c_47 : Ref sig .tc := ⟨.hbm, 566, rfl⟩
abbrev main_v318 : Ref sig .tc := ⟨.hbm, 567, rfl⟩
abbrev main_v319 : Ref sig .tc := ⟨.hbm, 568, rfl⟩
abbrev main_v320 : Ref sig .tc := ⟨.hbm, 569, rfl⟩
abbrev main_v321 : Ref sig .tc := ⟨.hbm, 570, rfl⟩
abbrev main_v322 : Ref sig .tc := ⟨.hbm, 571, rfl⟩
abbrev main_cst_48 : Ref sig .tc := ⟨.hbm, 572, rfl⟩
abbrev main_v323 : Ref sig .tc := ⟨.hbm, 573, rfl⟩
abbrev main_v324 : Ref sig .tc := ⟨.hbm, 574, rfl⟩
abbrev main_v325 : Ref sig .tc := ⟨.hbm, 575, rfl⟩
abbrev main_v326 : Ref sig .tc := ⟨.hbm, 576, rfl⟩
abbrev main_v327 : Ref sig .tc := ⟨.hbm, 577, rfl⟩
abbrev main_v328 : Ref sig .tc := ⟨.hbm, 578, rfl⟩
abbrev main_v329 : Ref sig .tc := ⟨.hbm, 579, rfl⟩
abbrev main_v330 : Ref sig .tc := ⟨.hbm, 580, rfl⟩
abbrev main_v331 : Ref sig .tc := ⟨.hbm, 581, rfl⟩
abbrev main_v332 : Ref sig .tc := ⟨.hbm, 582, rfl⟩
abbrev main_v333 : Ref sig .tc := ⟨.hbm, 583, rfl⟩
abbrev main_v334 : Ref sig .tc := ⟨.hbm, 584, rfl⟩
abbrev main_v335 : Ref sig .tc := ⟨.hbm, 585, rfl⟩
abbrev main_v336 : Ref sig .tc := ⟨.hbm, 586, rfl⟩
abbrev main_v337 : Ref sig .tc := ⟨.hbm, 587, rfl⟩
abbrev main_v338 : Ref sig .tc := ⟨.hbm, 588, rfl⟩
abbrev main_cst_49 : Ref sig .tc := ⟨.hbm, 589, rfl⟩
abbrev main_v339 : Ref sig .tc := ⟨.hbm, 590, rfl⟩
abbrev main_cst_50 : Ref sig .tc := ⟨.hbm, 591, rfl⟩
abbrev main_v340 : Ref sig .tc := ⟨.hbm, 592, rfl⟩
abbrev main_v341 : Ref sig .tc := ⟨.hbm, 593, rfl⟩
abbrev main_c_51 : Ref sig .tc := ⟨.hbm, 594, rfl⟩
abbrev main_call16_cst : Ref sig .tc := ⟨.hbm, 595, rfl⟩
abbrev main_call16_v0 : Ref sig .tc := ⟨.hbm, 596, rfl⟩
abbrev main_call16_v1 : Ref sig .tc := ⟨.hbm, 597, rfl⟩
abbrev main_call16_cst_0 : Ref sig .tc := ⟨.hbm, 598, rfl⟩
abbrev main_call16_v2 : Ref sig .tc := ⟨.hbm, 599, rfl⟩
abbrev main_call16_v3 : Ref sig .tc := ⟨.hbm, 600, rfl⟩
abbrev main_call16_v4 : Ref sig .tc := ⟨.hbm, 601, rfl⟩
abbrev main_call16_v5 : Ref sig .tc := ⟨.hbm, 602, rfl⟩
abbrev main_call16_v6 : Ref sig .tc := ⟨.hbm, 603, rfl⟩
abbrev main_call16_v7 : Ref sig .tc := ⟨.hbm, 604, rfl⟩
abbrev main_call16_cst_1 : Ref sig .tc := ⟨.hbm, 605, rfl⟩
abbrev main_call16_v8 : Ref sig .tc := ⟨.hbm, 606, rfl⟩
abbrev main_call16_cst_2 : Ref sig .tc := ⟨.hbm, 607, rfl⟩
abbrev main_call16_v9 : Ref sig .tc := ⟨.hbm, 608, rfl⟩
abbrev main_call16_v10 : Ref sig .tc := ⟨.hbm, 609, rfl⟩
abbrev main_call16_v11 : Ref sig .tc := ⟨.hbm, 610, rfl⟩
abbrev main_call16_cst_3 : Ref sig .tc := ⟨.hbm, 611, rfl⟩
abbrev main_call16_v12 : Ref sig .tc := ⟨.hbm, 612, rfl⟩
abbrev main_call16_cst_4 : Ref sig .tc := ⟨.hbm, 613, rfl⟩
abbrev main_call16_call0_v0 : Ref sig .tc := ⟨.hbm, 614, rfl⟩
abbrev main_call16_call0_v1 : Ref sig .tc := ⟨.hbm, 615, rfl⟩
abbrev main_v342 : Ref sig .tc := ⟨.hbm, 616, rfl⟩
abbrev main_v343 : Ref sig .tc := ⟨.hbm, 617, rfl⟩
abbrev main_v344 : Ref sig .tc := ⟨.hbm, 618, rfl⟩
abbrev main_v345 : Ref sig .tc := ⟨.hbm, 619, rfl⟩
abbrev main_cst_52 : Ref sig .tc := ⟨.hbm, 620, rfl⟩
abbrev main_v346 : Ref sig .tc := ⟨.hbm, 621, rfl⟩
abbrev main_v347 : Ref sig .tc := ⟨.hbm, 622, rfl⟩
abbrev main_v348 : Ref sig .tc := ⟨.hbm, 623, rfl⟩
abbrev main_v349 : Ref sig .tc := ⟨.hbm, 624, rfl⟩
abbrev main_v350 : Ref sig .tc := ⟨.hbm, 625, rfl⟩
abbrev main_v351 : Ref sig .tc := ⟨.hbm, 626, rfl⟩
abbrev main_v352 : Ref sig .tc := ⟨.hbm, 627, rfl⟩
abbrev main_v353 : Ref sig .tc := ⟨.hbm, 628, rfl⟩
abbrev main_v354 : Ref sig .tc := ⟨.hbm, 629, rfl⟩
abbrev main_v355 : Ref sig .tc := ⟨.hbm, 630, rfl⟩
abbrev main_v356 : Ref sig .tc := ⟨.hbm, 631, rfl⟩
abbrev main_v357 : Ref sig .tc := ⟨.hbm, 632, rfl⟩
abbrev main_call17_cst : Ref sig .tc := ⟨.hbm, 633, rfl⟩
abbrev main_call17_v0 : Ref sig .tc := ⟨.hbm, 634, rfl⟩
abbrev main_v358 : Ref sig .tc := ⟨.hbm, 635, rfl⟩
abbrev main_v359 : Ref sig .tc := ⟨.hbm, 636, rfl⟩
abbrev main_v360 : Ref sig .tc := ⟨.hbm, 637, rfl⟩
abbrev main_v361 : Ref sig .tc := ⟨.hbm, 638, rfl⟩
abbrev main_v362 : Ref sig .tc := ⟨.hbm, 639, rfl⟩
abbrev main_v363 : Ref sig .tc := ⟨.hbm, 640, rfl⟩
abbrev main_v364 : Ref sig .tc := ⟨.hbm, 641, rfl⟩
abbrev main_v365 : Ref sig .tc := ⟨.hbm, 642, rfl⟩
abbrev main_v366 : Ref sig .tc := ⟨.hbm, 643, rfl⟩
abbrev main_v367 : Ref sig .tc := ⟨.hbm, 644, rfl⟩
abbrev main_v368 : Ref sig .tc := ⟨.hbm, 645, rfl⟩
abbrev main_v369 : Ref sig .tc := ⟨.hbm, 646, rfl⟩
abbrev main_v370 : Ref sig .tc := ⟨.hbm, 647, rfl⟩
abbrev main_cst_53 : Ref sig .tc := ⟨.hbm, 648, rfl⟩
abbrev main_v371 : Ref sig .tc := ⟨.hbm, 649, rfl⟩
abbrev main_cst_54 : Ref sig .tc := ⟨.hbm, 650, rfl⟩
abbrev main_v372 : Ref sig .tc := ⟨.hbm, 651, rfl⟩
abbrev main_v373 : Ref sig .tc := ⟨.hbm, 652, rfl⟩
abbrev main_c_55 : Ref sig .tc := ⟨.hbm, 653, rfl⟩
abbrev main_call18_cst : Ref sig .tc := ⟨.hbm, 654, rfl⟩
abbrev main_call18_v0 : Ref sig .tc := ⟨.hbm, 655, rfl⟩
abbrev main_call18_v1 : Ref sig .tc := ⟨.hbm, 656, rfl⟩
abbrev main_call18_cst_0 : Ref sig .tc := ⟨.hbm, 657, rfl⟩
abbrev main_call18_v2 : Ref sig .tc := ⟨.hbm, 658, rfl⟩
abbrev main_call18_v3 : Ref sig .tc := ⟨.hbm, 659, rfl⟩
abbrev main_call18_v4 : Ref sig .tc := ⟨.hbm, 660, rfl⟩
abbrev main_call18_v5 : Ref sig .tc := ⟨.hbm, 661, rfl⟩
abbrev main_call18_v6 : Ref sig .tc := ⟨.hbm, 662, rfl⟩
abbrev main_call18_v7 : Ref sig .tc := ⟨.hbm, 663, rfl⟩
abbrev main_call18_cst_1 : Ref sig .tc := ⟨.hbm, 664, rfl⟩
abbrev main_call18_v8 : Ref sig .tc := ⟨.hbm, 665, rfl⟩
abbrev main_call18_cst_2 : Ref sig .tc := ⟨.hbm, 666, rfl⟩
abbrev main_call18_v9 : Ref sig .tc := ⟨.hbm, 667, rfl⟩
abbrev main_call18_v10 : Ref sig .tc := ⟨.hbm, 668, rfl⟩
abbrev main_call18_v11 : Ref sig .tc := ⟨.hbm, 669, rfl⟩
abbrev main_call18_cst_3 : Ref sig .tc := ⟨.hbm, 670, rfl⟩
abbrev main_call18_v12 : Ref sig .tc := ⟨.hbm, 671, rfl⟩
abbrev main_call18_cst_4 : Ref sig .tc := ⟨.hbm, 672, rfl⟩
abbrev main_call18_call0_v0 : Ref sig .tc := ⟨.hbm, 673, rfl⟩
abbrev main_call18_call0_v1 : Ref sig .tc := ⟨.hbm, 674, rfl⟩
abbrev main_v374 : Ref sig .tc := ⟨.hbm, 675, rfl⟩
abbrev main_v375 : Ref sig .tc := ⟨.hbm, 676, rfl⟩
abbrev main_v376 : Ref sig .tc := ⟨.hbm, 677, rfl⟩
abbrev main_v377 : Ref sig .tc := ⟨.hbm, 678, rfl⟩
abbrev main_cst_56 : Ref sig .tc := ⟨.hbm, 679, rfl⟩
abbrev main_v378 : Ref sig .tc := ⟨.hbm, 680, rfl⟩
abbrev main_v379 : Ref sig .tc := ⟨.hbm, 681, rfl⟩
abbrev main_v380 : Ref sig .tc := ⟨.hbm, 682, rfl⟩
abbrev main_v381 : Ref sig .tc := ⟨.hbm, 683, rfl⟩
abbrev main_v382 : Ref sig .tc := ⟨.hbm, 684, rfl⟩
abbrev main_v383 : Ref sig .tc := ⟨.hbm, 685, rfl⟩
abbrev main_v384 : Ref sig .tc := ⟨.hbm, 686, rfl⟩
abbrev main_v385 : Ref sig .tc := ⟨.hbm, 687, rfl⟩
abbrev main_v386 : Ref sig .tc := ⟨.hbm, 688, rfl⟩
abbrev main_v387 : Ref sig .tc := ⟨.hbm, 689, rfl⟩
abbrev main_v388 : Ref sig .tc := ⟨.hbm, 690, rfl⟩
abbrev main_v389 : Ref sig .tc := ⟨.hbm, 691, rfl⟩
abbrev main_call19_cst : Ref sig .tc := ⟨.hbm, 692, rfl⟩
abbrev main_call19_v0 : Ref sig .tc := ⟨.hbm, 693, rfl⟩
abbrev main_v390 : Ref sig .tc := ⟨.hbm, 694, rfl⟩
abbrev main_cst_57 : Ref sig .tc := ⟨.hbm, 695, rfl⟩
abbrev main_v391 : Ref sig .tc := ⟨.hbm, 696, rfl⟩
abbrev main_v392 : Ref sig .tc := ⟨.hbm, 697, rfl⟩
abbrev main_v393 : Ref sig .tc := ⟨.hbm, 698, rfl⟩
abbrev main_v394 : Ref sig .tc := ⟨.hbm, 699, rfl⟩
abbrev main_v395 : Ref sig .tc := ⟨.hbm, 700, rfl⟩
abbrev main_v396 : Ref sig .tc := ⟨.hbm, 701, rfl⟩
abbrev main_v397 : Ref sig .tc := ⟨.hbm, 702, rfl⟩
abbrev main_v398 : Ref sig .tc := ⟨.hbm, 703, rfl⟩
abbrev main_call20_cst : Ref sig .tc := ⟨.hbm, 704, rfl⟩
abbrev main_call20_v0 : Ref sig .tc := ⟨.hbm, 705, rfl⟩
abbrev main_v399 : Ref sig .tc := ⟨.hbm, 706, rfl⟩
abbrev main_v400 : Ref sig .tc := ⟨.hbm, 707, rfl⟩
abbrev main_v401 : Ref sig .tc := ⟨.hbm, 708, rfl⟩
abbrev main_v402 : Ref sig .tc := ⟨.hbm, 709, rfl⟩
abbrev main_v403 : Ref sig .tc := ⟨.hbm, 710, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S256x128 : S_.BroadcastsInDim S256x128 (![] : Fin 0 → Fin S256x128.rank)
  bcast_S50000_S50000x1_0 : S50000.BroadcastsInDim S50000x1 (![0] : Fin 1 → Fin S50000x1.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  concatenates_S256x128_S256x128_S256x128_S256x128_S256x128_S256x640_d1 : Shape.Concatenates [S256x128, S256x128, S256x128, S256x128, S256x128] S256x640 1
  bcast_S1x128_S256x128_0_1 : S1x128.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  dot_S256x640_S640x128_S256x128_1_0_0_1_n_n_wf : DotDims.WF S256x640 S640x128 S256x128 [1] [0] [0] [1] [] []
  dot_S256x128_S128x10_S256x10_1_0_0_1_n_n_wf : DotDims.WF S256x128 S128x10 S256x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x640_S640x128_S256x128_1_0_0_1_n_n : DotDims S256x640 S640x128 S256x128 where
  lhsContracting := [1]
  rhsContracting := [0]
  lhsNonContracting := [0]
  rhsNonContracting := [1]
  lhsBatch := []
  rhsBatch := []
  wf := dot_S256x640_S640x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.K.Reg0.lean ====
/- The frame half of one TensorCore region of @main: the launch, over a grid of row blocks, of the kernel computing a layer's first affine map.
   Everything here is stated at a PARAMETER `V`, the TensorCore's buffer contents when the region is entered: each
   window's block at a grid point, what the kernel body leaves in each output window's staging buffer as a function
   of the input blocks, the body's Hoare triple on whole staging memrefs, the pipeline's proof data over the class's
   invariant, and the body obligation at every grid point. The kernel is of the plainest kind: every operand is a
   pipeline window, every block is loaded whole and every output block is stored whole. -/
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has thousands of coordinates: the structural check recurses once per
-- coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each staging buffer is read and written as one whole rectangle -/

/-- The whole of a row block of features. -/
abbrev r0_0 : Rect S5000x128 := Rect.unit (s := S5000x128) ![0, 0] S5000x128.size inb_S5000x128_S5000x128_0_0
/-- The whole of the weight matrix. -/
abbrev r0_1 : Rect S128x128 := Rect.unit (s := S128x128) ![0, 0] S128x128.size inb_S128x128_S128x128_0_0
/-- The whole of the bias row. -/
abbrev r0_2 : Rect S1x128 := Rect.unit (s := S1x128) ![0, 0] S1x128.size inb_S1x128_S1x128_0_0
/-- The whole of one block's row of column sums. -/
abbrev r0_3 : Rect S1x1x128 := Rect.unit (s := S1x1x128) ![0, 0, 0] S1x1x128.size inb_S1x1x128_S1x1x128_0_0_0

/-! ## What the body leaves in each output window's buffer

Each output buffer receives exactly one store, of the whole buffer; its contents afterwards are that store's payload,
a function of the four input blocks alone (whatever the buffer held before is overwritten). -/

/-- The affine image of the block: the sum of the two feature blocks, times the weights, plus the bias. -/
def out0_4 (x0 : Vec F S5000x128 .f32) (x1 : Vec F S5000x128 .f32) (x2 : Vec F S128x128 .f32) (x3 : Vec F S1x128 .f32) : Vec F S5000x128 .f32 :=
  View.canon [⟨r0_0, k0_pay1 (View.ld x0 r0_0) (View.ld x1 r0_0) (View.ld x2 r0_1) (View.ld x3 r0_2)⟩]

/-- The column sums of that image over the block's rows. -/
def out0_5 (x0 : Vec F S5000x128 .f32) (x1 : Vec F S5000x128 .f32) (x2 : Vec F S128x128 .f32) (x3 : Vec F S1x128 .f32) : Vec F S1x1x128 .f32 :=
  View.canon [⟨r0_3, k0_pay2 (View.ld x0 r0_0) (View.ld x1 r0_0) (View.ld x2 r0_1) (View.ld x3 r0_2)⟩]

/-- The column sums of its squares over the block's rows. -/
def out0_6 (x0 : Vec F S5000x128 .f32) (x1 : Vec F S5000x128 .f32) (x2 : Vec F S128x128 .f32) (x3 : Vec F S1x128 .f32) : Vec F S1x1x128 .f32 :=
  View.canon [⟨r0_3, k0_pay3 (View.ld x0 r0_0) (View.ld x1 r0_0) (View.ld x2 r0_1) (View.ld x3 r0_2)⟩]

/-- A single store of the whole buffer tiles it, so it covers every index. -/
theorem cover0_4 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

theorem cover0_5 (p0 : Vec F S1x1x128 .f32) (y : S1x1x128.Idx) :
    ∃ pc ∈ ([⟨r0_3, p0⟩] : List (View.Piece (Elt F) S1x1x128 .f32)), y ∈ pc.1.set :=
  View.cover_of_tiled [⟨r0_3, p0⟩] S1x1x128.size (by rfl) y

theorem cover0_6 (p0 : Vec F S1x1x128 .f32) (y : S1x1x128.Idx) :
    ∃ pc ∈ ([⟨r0_3, p0⟩] : List (View.Piece (Elt F) S1x1x128 .f32)), y ∈ pc.1.set :=
  View.cover_of_tiled [⟨r0_3, p0⟩] S1x1x128.size (by rfl) y

/-! ## An input window's staging buffer holds its block at every point

For ANY proof data whose array is the region-entry contents and whose body leaves the input's block in place, the
window's current staging buffer holds the block of the point, whether the pipeline fetched it there or not: where it
did not, the block index has not moved since the point before (the weights and the bias, whose index map is constant,
are fetched at the first point only). The windows are uncut and never idle. -/

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 4000000 in
/-- The kernel body on whole staging memrefs, the four inputs' at given read contents and the three outputs' at
    anything, runs to the continuation holding the inputs' as they were and each output's at its closed form in the
    inputs'. The printed function is its skeleton: four whole loads, then per output a load of whatever the buffer
    holds (its value is never used) and one whole store. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x1x128 .f32) (harg6 : arg6.IsWhole)
    (arg7 : Memref sig .tc .vmem S1x1x128 .f32) (harg7 : arg7.IsWhole)
    (x0 : Vec F S5000x128 .f32) (x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (out0_5 x0 x1 x2 x3)
            ∗ owns (c : Thread nD τ) arg7 fullShare (out0_6 x0 x1 x2 x3)) -∗ K ⟨⟩))
      ⊢ wp frame (wpE (defs₀ (F := F)) Variants.none c none) E (cc0__mm1_kernel i arg1 harg1 arg2 harg2 arg3 harg3 arg4 harg4 arg5 harg5 arg6 harg6 arg7 harg7) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the region's pipeline on core `c`: the arrays as the region finds them; after the body at point
    `t` each input's buffer at its block and each output's at its closed form in the four input blocks; the invariant
    the class's (the scoped rest and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' staging buffers hold their blocks, so the kernel's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand
-- ==== Proof.K.Reg1.lean ====
/- The frame half of one kernel region of @main: the batch-normalisation / rectifier / second matrix product kernel
   of a layer, as ONE pipelined launch over ten row blocks. Everything is stated at a PARAMETER `V`, the TensorCore's
   buffer contents when the region is entered: each window's block at a grid point, what the body leaves in each output
   window's staging buffer as a function of the input blocks, the body's Hoare triple on whole staging memrefs, the
   pipeline's proof data and the body obligation at every grid point. Generic in the float interpretation. -/
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a five-thousand-row axis is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and every store takes a whole staging buffer -/

/-- the whole of a row block of activations, -/
abbrev r1_0 : Rect S5000x128 := Rect.unit (s := S5000x128) ![0, 0] S5000x128.size inb_S5000x128_S5000x128_0_0
/-- the whole of a per-feature row (mean, variance, scale, shift, bias), -/
abbrev r1_1 : Rect S1x128 := Rect.unit (s := S1x128) ![0, 0] S1x128.size inb_S1x128_S1x128_0_0
/-- the whole of the square weight matrix, -/
abbrev r1_2 : Rect S128x128 := Rect.unit (s := S128x128) ![0, 0] S128x128.size inb_S128x128_S128x128_0_0
/-- the whole of a per-block row of column statistics. -/
abbrev r1_3 : Rect S1x1x128 := Rect.unit (s := S1x1x128) ![0, 0, 0] S1x1x128.size inb_S1x1x128_S1x1x128_0_0_0

/-! ## What the body leaves in each output window's buffer

The inputs in window order: `x0` the block of pre-activations, `x1` their mean, `x2` their variance, `x3` the scale,
`x4` the shift, `x5` the weight matrix, `x6` the bias. The body reads the variance before the mean, which is the order
the payload of the product takes them in. -/

/-- The block of the layer's second affine map: normalise, scale, shift, rectify, multiply by the weights, add the bias. -/
def out1_7 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S5000x128 .f32 :=
  View.canon [⟨r1_0, k1_pay3 (View.ld x0 r1_0) (View.ld x2 r1_1) (View.ld x1 r1_1) (View.ld x3 r1_1) (View.ld x4 r1_1)
    (View.ld x5 r1_2) (View.ld x6 r1_1)⟩]

/-- The column sums of that block, as a one-by-one-by-features row. -/
def out1_8 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r1_3, k1_pay1 (k1_pay4 (View.ld x0 r1_0) (View.ld x2 r1_1) (View.ld x1 r1_1) (View.ld x3 r1_1) (View.ld x4 r1_1)
    (View.ld x5 r1_2) (View.ld x6 r1_1))⟩]

/-- The column sums of the squares of that block, in the same form. -/
def out1_9 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r1_3, k1_pay2 (k1_pay5 (View.ld x0 r1_0) (View.ld x2 r1_1) (View.ld x1 r1_1) (View.ld x3 r1_1) (View.ld x4 r1_1)
    (View.ld x5 r1_2) (View.ld x6 r1_1))⟩]

/-- Each output's single store tiles its buffer, so it covers it. -/
theorem cover1_7 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y
theorem cover1_8 (p0 : Vec F S1x1x128 .f32) (y : S1x1x128.Idx) :
    ∃ pc ∈ ([⟨r1_3, p0⟩] : List (View.Piece (Elt F) S1x1x128 .f32)), y ∈ pc.1.set :=
  View.cover_of_tiled [⟨r1_3, p0⟩] S1x1x128.size (by rfl) y

/-! ## An input window's current staging buffer holds its block at every grid point

Fetched there or not: a window whose block index does not move between two points is not fetched again, and its buffer
still holds the earlier point's block, which is this point's. True of ANY proof data whose array is the region-entry
contents and whose body leaves the block in place; all the input windows are uncut and never idle. -/

/-- Window 0 (the block of pre-activations). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the mean row). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the variance row). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (the scale row). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 (the shift row). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Window 5 (the weight matrix). -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Window 6 (the bias row). -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 4000000 in
/-- The kernel body on whole staging memrefs, the inputs' at read contents `x0 … x6` and the outputs' at anything, runs to
    the continuation holding the inputs' as they were and each output's at its `out` of the inputs'. The printed
    function and its first part are their skeletons of loads and stores over payloads; the three loads of output buffers
    read whatever is there and their values are never used. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6)) -∗ K ⟨⟩))
      ⊢ wp frame (wpE (defs₀ (F := F)) Variants.none c none) E (cc1__bn_relu_mm2_kernel i arg1 harg1 arg2 harg2 arg3 harg3 arg4 harg4 arg5 harg5 arg6 harg6 arg7 harg7 arg8 harg8 arg9 harg9 arg10 harg10) K := by
  simp only [cc1__bn_relu_mm2_kernel_eq_skeleton]; unfold cc1__bn_relu_mm2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  isplitl [H8]
  · iexists _; isplitr
    swap; · iexact H8
    ipureintro
    try dsimp only
    exact View.read_writes_eq_canon _ _ _ (cover1_8 _)
  iexists _; isplitr
  swap; · iexact H9
  ipureintro
  try dsimp only
  exact View.read_writes_eq_canon _ _ _ (cover1_8 _)

/-! ## The pipeline's proof data -/

/-- The proof data of the pipeline on core `c`: the arrays as the region finds them; after the body at point `t` each
    input's buffer at its block and each output's at its `out` of the input blocks there; the invariant is the
    untouched rest (scoped buffers and the generator register); nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One launch of the normalise-rectify-pool kernel, seen from the buffers the TensorCore holds when the launch
    begins (a parameter `V`): what every window's block is at a grid point, what the kernel body does to whole
    staging buffers, and the per-point obligation the pipeline theorem asks of the body.

    The kernel reads a block of 5000 rows of 128 features, four rows of 128 numbers (mean, variance, scale, shift)
    and the 5000 graph numbers of the rows; it writes the rectified normalised block and a 256-by-128 table of
    per-graph column sums of that block. Every operand is a pipeline window read or written whole. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the rows of its array, as the launch finds the array, that the window's
    index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The whole-buffer rectangles the body reads and writes -/

/-- all of a 5000-by-128 buffer (the feature block read, and the feature block written), -/
abbrev r2_0 : Rect S5000x128 := Rect.unit (s := S5000x128) ![0, 0] S5000x128.size inb_S5000x128_S5000x128_0_0
/-- all of a 1-by-128 buffer (mean, variance, scale, shift), -/
abbrev r2_1 : Rect S1x128 := Rect.unit (s := S1x128) ![0, 0] S1x128.size inb_S1x128_S1x128_0_0
/-- all of the 5000-by-1 buffer of graph numbers, -/
abbrev r2_5 : Rect S5000x1 := Rect.unit (s := S5000x1) ![0, 0] S5000x1.size inb_S5000x1_S5000x1_0_0
/-- all of the 1-by-256-by-128 buffer of pooled sums. -/
abbrev r2_7 : Rect S1x256x128 := Rect.unit (s := S1x256x128) ![0, 0, 0] S1x256x128.size inb_S1x256x128_S1x256x128_0_0_0

/-! ## What the body leaves in each output buffer, as a function of the six input blocks

The six inputs, in window order: the feature block `xZ`, the mean row `xM`, the variance row `xV`, the scale row `xG`,
the shift row `xB`, the graph numbers `xI`. -/

/-- The feature output: one whole-buffer store of the rectified normalised block. The payload takes the variance
    row before the mean row, which is the order in which the body reads them. -/
def out2_6 (xZ : Vec F S5000x128 .f32) (xM : Vec F S1x128 .f32) (xV : Vec F S1x128 .f32) (xG : Vec F S1x128 .f32) (xB : Vec F S1x128 .f32) (xI : Vec F S5000x1 .i32) : Vec F S5000x128 .f32 :=
  View.canon [⟨r2_0, k2_pay1 (View.ld xZ r2_0) (View.ld xV r2_1) (View.ld xM r2_1) (View.ld xG r2_1) (View.ld xB r2_1)⟩]

/-- The pooled output: one whole-buffer store of the per-graph column sums of that same block. -/
def out2_7 (xZ : Vec F S5000x128 .f32) (xM : Vec F S1x128 .f32) (xV : Vec F S1x128 .f32) (xG : Vec F S1x128 .f32) (xB : Vec F S1x128 .f32) (xI : Vec F S5000x1 .i32) : Vec F S1x256x128 .f32 :=
  View.canon [⟨r2_7, k2_pay2 (View.ld xZ r2_0) (View.ld xV r2_1) (View.ld xM r2_1) (View.ld xG r2_1) (View.ld xB r2_1) (View.ld xI r2_5)⟩]

/-- A single whole-buffer store covers the buffer: the feature output, -/
theorem cover2_6 (pH : Vec F S5000x128 .f32) (y : S5000x128.Idx) :
    ∃ pc ∈ ([⟨r2_0, pH⟩] : List (View.Piece (Elt F) S5000x128 .f32)), y ∈ pc.1.set :=
  View.cover_of_tiled [⟨r2_0, pH⟩] S5000x128.size (by rfl) y

/-- and the pooled output. -/
theorem cover2_7 (pP : Vec F S1x256x128 .f32) (y : S1x256x128.Idx) :
    ∃ pc ∈ ([⟨r2_7, pP⟩] : List (View.Piece (Elt F) S1x256x128 .f32)), y ∈ pc.1.set :=
  View.cover_of_tiled [⟨r2_7, pP⟩] S1x256x128.size (by rfl) y

/-! ## An input's staging buffer holds its block at every point -/

/-- For any proof data over the launch's arrays whose body leaves an input's block in place, the body finds that
    block in the window's current staging buffer at every point. Where the pipeline fetched it there, that is what
    the fetch brought; where it did not (the four 1-by-128 rows are fetched at the first point only), the block
    index has not moved since, so the buffer still holds the same block. One statement per input window. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 4000000 in
/-- The kernel body run on whole staging buffers: the six inputs hold the contents `xZ … xI`, the two outputs hold
    anything. It ends with the inputs unchanged, the feature output at `out2_6` and the pooled output at `out2_7` of
    the inputs. The body is a sequence of loads and stores over named payloads, all of them in its one part, and the
    triple follows that sequence step by step; each output is loaded once before it is stored, a value nothing uses,
    so what the buffer held beforehand does not matter. -/
theorem sound_kernel2 (c : Dev nD) (E : Set ℕ) (i : grid2.Coords) (aZ : Memref sig .tc .vmem S5000x128 .f32) (haZ : aZ.IsWhole) (aM : Memref sig .tc .vmem S1x128 .f32) (haM : aM.IsWhole) (aV : Memref sig .tc .vmem S1x128 .f32) (haV : aV.IsWhole) (aG : Memref sig .tc .vmem S1x128 .f32) (haG : aG.IsWhole) (aB : Memref sig .tc .vmem S1x128 .f32) (haB : aB.IsWhole) (aI : Memref sig .tc .vmem S5000x1 .i32) (haI : aI.IsWhole) (aH : Memref sig .tc .vmem S5000x128 .f32) (haH : aH.IsWhole) (aP : Memref sig .tc .vmem S1x256x128 .f32) (haP : aP.IsWhole)
    (xZ : Vec F S5000x128 .f32) (xM : Vec F S1x128 .f32) (xV : Vec F S1x128 .f32) (xG : Vec F S1x128 .f32) (xB : Vec F S1x128 .f32) (xI : Vec F S5000x1 .i32)
    (K : PUnit → sProp 𝕄) :
    iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
        ∗ (∃ d, owns (c : Thread nD τ) aH fullShare d) ∗ (∃ d, owns (c : Thread nD τ) aP fullShare d)
        ∗ (iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
            ∗ owns (c : Thread nD τ) aH fullShare (out2_6 xZ xM xV xG xB xI) ∗ owns (c : Thread nD τ) aP fullShare (out2_7 xZ xM xV xG xB xI)) -∗ K ⟨⟩))
      ⊢ wp frame (wpE (defs₀ (F := F)) Variants.none c none) E (cc2__bn_relu_pool_kernel i aZ haZ aM haM aV haV aG haG aB haB aI haI aH haH aP haP) K := by
  simp only [cc2__bn_relu_pool_kernel_eq_skeleton]; unfold cc2__bn_relu_pool_kernel_skel
  simp only [k2_part1_eq_skeleton]; unfold k2_part1_skel
  unfold owns
  iintro ⟨⟨%fZ, %hfZ, HZ⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
  subst hfZ hfM hfV hfG hfB hfI
  sl_exec
  sl_step
  iapply Hk
  isplitl [HZ]
  · iexists fZ; isplitr; · ipureintro; rfl
    iexact HZ
  isplitl [HM]
  · iexists fM; isplitr; · ipureintro; rfl
    iexact HM
  isplitl [HV]
  · iexists fV; isplitr; · ipureintro; rfl
    iexact HV
  isplitl [HG]
  · iexists fG; isplitr; · ipureintro; rfl
    iexact HG
  isplitl [HB]
  · iexists fB; isplitr; · ipureintro; rfl
    iexact HB
  isplitl [HI]
  · iexists fI; isplitr; · ipureintro; rfl
    iexact HI
  isplitl [HH]
  · iexists _; isplitr
    swap; · iexact HH
    ipureintro
    try dsimp only
    exact View.read_writes_eq_canon _ _ _ (cover2_6 _)
  iexists _; isplitr
  swap; · iexact HP
  ipureintro
  try dsimp only
  exact View.read_writes_eq_canon _ _ _ (cover2_7 _)

/-! ## The pipeline's proof data -/

/-- The proof data of this launch on core `c`. The arrays are as the launch finds them (`V`). After the body at point
    `t` an input's buffer holds its block and an output's holds `out2_6` or `out2_7` of the six input blocks at `t`.
    The invariant is the class's own (everything the launch does not name stays as it was); nothing is owed; every
    share is full. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the launch's. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

/-- Each input's current staging buffer holds its block at every point, for this proof data. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is handed at point `t`: the invariant, the core's dues, and each window's current staging buffer
    at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: every input's buffer holds its block (`before2_0` … `before2_5`), so the body's triple applies;
    the invariant and the core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%dZ, HZ⟩, ⟨%dM, HM⟩, ⟨%dV, HV⟩, ⟨%dG, HG⟩, ⟨%dB, HB⟩, ⟨%dI, HI⟩, ⟨%dH, HH⟩, ⟨%dP, HP⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [HZ]; · iexact HZ
  isplitl [HM]; · iexact HM
  isplitl [HV]; · iexact HV
  isplitl [HG]; · iexact HG
  isplitl [HB]; · iexact HB
  isplitl [HI]; · iexact HI
  isplitl [HH]; · iexists _; iexact HH
  isplitl [HP]; · iexists _; iexact HP
  iintro ⟨HZ, HM, HV, HG, HB, HI, HH, HP⟩
  isplitl [HΦ]; · iexact HΦ
  isplitl [Ho]; · iexact Ho
  isplitl [HZ]; · iexact HZ
  isplitl [HM]; · iexact HM
  isplitl [HV]; · iexact HV
  isplitl [HG]; · iexact HG
  isplitl [HB]; · iexact HB
  isplitl [HI]; · iexact HI
  isplitl [HH]; · iexact HH
  iexact HP

/-- The pipeline theorem's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- The frame half of one TensorCore region of @main: the launch, over a grid of row blocks, of the kernel computing a layer's first affine map.
   Everything here is stated at a PARAMETER `V`, the TensorCore's buffer contents when the region is entered: each
   window's block at a grid point, what the kernel body leaves in each output window's staging buffer as a function
   of the input blocks, the body's Hoare triple on whole staging memrefs, the pipeline's proof data over the class's
   invariant, and the body obligation at every grid point. The kernel is of the plainest kind: every operand is a
   pipeline window, every block is loaded whole and every output block is stored whole. -/
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has thousands of coordinates: the structural check recurses once per
-- coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each staging buffer is read and written as one whole rectangle -/

/-- The whole of a row block of features. -/
abbrev r3_0 : Rect S5000x128 := Rect.unit (s := S5000x128) ![0, 0] S5000x128.size inb_S5000x128_S5000x128_0_0
/-- The whole of the weight matrix. -/
abbrev r3_1 : Rect S128x128 := Rect.unit (s := S128x128) ![0, 0] S128x128.size inb_S128x128_S128x128_0_0
/-- The whole of the bias row. -/
abbrev r3_2 : Rect S1x128 := Rect.unit (s := S1x128) ![0, 0] S1x128.size inb_S1x128_S1x128_0_0
/-- The whole of one block's row of column sums. -/
abbrev r3_3 : Rect S1x1x128 := Rect.unit (s := S1x1x128) ![0, 0, 0] S1x1x128.size inb_S1x1x128_S1x1x128_0_0_0

/-! ## What the body leaves in each output window's buffer

Each output buffer receives exactly one store, of the whole buffer; its contents afterwards are that store's payload,
a function of the four input blocks alone (whatever the buffer held before is overwritten). -/

/-- The affine image of the block: the sum of the two feature blocks, times the weights, plus the bias. -/
def out3_4 (x0 : Vec F S5000x128 .f32) (x1 : Vec F S5000x128 .f32) (x2 : Vec F S128x128 .f32) (x3 : Vec F S1x128 .f32) : Vec F S5000x128 .f32 :=
  View.canon [⟨r3_0, k3_pay1 (View.ld x0 r3_0) (View.ld x1 r3_0) (View.ld x2 r3_1) (View.ld x3 r3_2)⟩]

/-- The column sums of that image over the block's rows. -/
def out3_5 (x0 : Vec F S5000x128 .f32) (x1 : Vec F S5000x128 .f32) (x2 : Vec F S128x128 .f32) (x3 : Vec F S1x128 .f32) : Vec F S1x1x128 .f32 :=
  View.canon [⟨r3_3, k3_pay2 (View.ld x0 r3_0) (View.ld x1 r3_0) (View.ld x2 r3_1) (View.ld x3 r3_2)⟩]

/-- The column sums of its squares over the block's rows. -/
def out3_6 (x0 : Vec F S5000x128 .f32) (x1 : Vec F S5000x128 .f32) (x2 : Vec F S128x128 .f32) (x3 : Vec F S1x128 .f32) : Vec F S1x1x128 .f32 :=
  View.canon [⟨r3_3, k3_pay3 (View.ld x0 r3_0) (View.ld x1 r3_0) (View.ld x2 r3_1) (View.ld x3 r3_2)⟩]

/-- A single store of the whole buffer tiles it, so it covers every index. -/
theorem cover3_4 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

theorem cover3_5 (p0 : Vec F S1x1x128 .f32) (y : S1x1x128.Idx) :
    ∃ pc ∈ ([⟨r3_3, p0⟩] : List (View.Piece (Elt F) S1x1x128 .f32)), y ∈ pc.1.set :=
  View.cover_of_tiled [⟨r3_3, p0⟩] S1x1x128.size (by rfl) y

theorem cover3_6 (p0 : Vec F S1x1x128 .f32) (y : S1x1x128.Idx) :
    ∃ pc ∈ ([⟨r3_3, p0⟩] : List (View.Piece (Elt F) S1x1x128 .f32)), y ∈ pc.1.set :=
  View.cover_of_tiled [⟨r3_3, p0⟩] S1x1x128.size (by rfl) y

/-! ## An input window's staging buffer holds its block at every point

For ANY proof data whose array is the region-entry contents and whose body leaves the input's block in place, the
window's current staging buffer holds the block of the point, whether the pipeline fetched it there or not: where it
did not, the block index has not moved since the point before (the weights and the bias, whose index map is constant,
are fetched at the first point only). The windows are uncut and never idle. -/

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's triple -/

set_option maxHeartbeats 4000000 in
/-- The kernel body on whole staging memrefs, the four inputs' at given read contents and the three outputs' at
    anything, runs to the continuation holding the inputs' as they were and each output's at its closed form in the
    inputs'. The printed function is its skeleton: four whole loads, then per output a load of whatever the buffer
    holds (its value is never used) and one whole store. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x1x128 .f32) (harg6 : arg6.IsWhole)
    (arg7 : Memref sig .tc .vmem S1x1x128 .f32) (harg7 : arg7.IsWhole)
    (x0 : Vec F S5000x128 .f32) (x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)
            ∗ owns (c : Thread nD τ) arg6 fullShare (out3_5 x0 x1 x2 x3)
            ∗ owns (c : Thread nD τ) arg7 fullShare (out3_6 x0 x1 x2 x3)) -∗ K ⟨⟩))
      ⊢ wp frame (wpE (defs₀ (F := F)) Variants.none c none) E (cc3__mm1_kernel i arg1 harg1 arg2 harg2 arg3 harg3 arg4 harg4 arg5 harg5 arg6 harg6 arg7 harg7) K := by
  simp only [cc3__mm1_kernel_eq_skeleton]; unfold cc3__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of the region's pipeline on core `c`: the arrays as the region finds them; after the body at point
    `t` each input's buffer at its block and each output's at its closed form in the four input blocks; the invariant
    the class's (the scoped rest and the generator register, untouched); nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
    | ⟨6, _⟩ => out3_6 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]
theorem after3_6 (c : Dev nD) (t : Fin cfg3.N) : (dat3 V c).after 6 t = out3_6 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`: the invariant, what the core owes, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' staging buffers hold their blocks, so the kernel's triple applies; the
    invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand
-- ==== Proof.K.Reg4.lean ====
/- The frame half of one kernel region of @main: the batch-normalisation / rectifier / second matrix product kernel
   of a layer, as ONE pipelined launch over ten row blocks. Everything is stated at a PARAMETER `V`, the TensorCore's
   buffer contents when the region is entered: each window's block at a grid point, what the body leaves in each output
   window's staging buffer as a function of the input blocks, the body's Hoare triple on whole staging memrefs, the
   pipeline's proof data and the body obligation at every grid point. Generic in the float interpretation. -/
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a five-thousand-row axis is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and every store takes a whole staging buffer -/

/-- the whole of a row block of activations, -/
abbrev r4_0 : Rect S5000x128 := Rect.unit (s := S5000x128) ![0, 0] S5000x128.size inb_S5000x128_S5000x128_0_0
/-- the whole of a per-feature row (mean, variance, scale, shift, bias), -/
abbrev r4_1 : Rect S1x128 := Rect.unit (s := S1x128) ![0, 0] S1x128.size inb_S1x128_S1x128_0_0
/-- the whole of the square weight matrix, -/
abbrev r4_2 : Rect S128x128 := Rect.unit (s := S128x128) ![0, 0] S128x128.size inb_S128x128_S128x128_0_0
/-- the whole of a per-block row of column statistics. -/
abbrev r4_3 : Rect S1x1x128 := Rect.unit (s := S1x1x128) ![0, 0, 0] S1x1x128.size inb_S1x1x128_S1x1x128_0_0_0

/-! ## What the body leaves in each output window's buffer

The inputs in window order: `x0` the block of pre-activations, `x1` their mean, `x2` their variance, `x3` the scale,
`x4` the shift, `x5` the weight matrix, `x6` the bias. The body reads the variance before the mean, which is the order
the payload of the product takes them in. -/

/-- The block of the layer's second affine map: normalise, scale, shift, rectify, multiply by the weights, add the bias. -/
def out4_7 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S5000x128 .f32 :=
  View.canon [⟨r4_0, k4_pay3 (View.ld x0 r4_0) (View.ld x2 r4_1) (View.ld x1 r4_1) (View.ld x3 r4_1) (View.ld x4 r4_1)
    (View.ld x5 r4_2) (View.ld x6 r4_1)⟩]

/-- The column sums of that block, as a one-by-one-by-features row. -/
def out4_8 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r4_3, k4_pay1 (k4_pay4 (View.ld x0 r4_0) (View.ld x2 r4_1) (View.ld x1 r4_1) (View.ld x3 r4_1) (View.ld x4 r4_1)
    (View.ld x5 r4_2) (View.ld x6 r4_1))⟩]

/-- The column sums of the squares of that block, in the same form. -/
def out4_9 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r4_3, k4_pay2 (k4_pay5 (View.ld x0 r4_0) (View.ld x2 r4_1) (View.ld x1 r4_1) (View.ld x3 r4_1) (View.ld x4 r4_1)
    (View.ld x5 r4_2) (View.ld x6 r4_1))⟩]

/-- Each output's single store tiles its buffer, so it covers it. -/
theorem cover4_7 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y
theorem cover4_8 (p0 : Vec F S1x1x128 .f32) (y : S1x1x128.Idx) :
    ∃ pc ∈ ([⟨r4_3, p0⟩] : List (View.Piece (Elt F) S1x1x128 .f32)), y ∈ pc.1.set :=
  View.cover_of_tiled [⟨r4_3, p0⟩] S1x1x128.size (by rfl) y

/-! ## An input window's current staging buffer holds its block at every grid point

Fetched there or not: a window whose block index does not move between two points is not fetched again, and its buffer
still holds the earlier point's block, which is this point's. True of ANY proof data whose array is the region-entry
contents and whose body leaves the block in place; all the input windows are uncut and never idle. -/

/-- Window 0 (the block of pre-activations). -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1 (the mean row). -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2 (the variance row). -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Window 3 (the scale row). -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Window 4 (the shift row). -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Window 5 (the weight matrix). -/
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Window 6 (the bias row). -/
theorem before4_6_of {c : Dev nD} (dat : Dat τ (Elt F) Unit ℕ (Pipeline.UD sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's triple -/

set_option maxHeartbeats 4000000 in
/-- The kernel body on whole staging memrefs, the inputs' at read contents `x0 … x6` and the outputs' at anything, runs to
    the continuation holding the inputs' as they were and each output's at its `out` of the inputs'. The printed
    function and its first part are their skeletons of loads and stores over payloads; the three loads of output buffers
    read whatever is there and their values are never used. -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out4_7 x0 x1 x2 x3 x4 x5 x6) ∗ owns (c : Thread nD τ) arg9 fullShare (out4_8 x0 x1 x2 x3 x4 x5 x6) ∗ owns (c : Thread nD τ) arg10 fullShare (out4_9 x0 x1 x2 x3 x4 x5 x6)) -∗ K ⟨⟩))
      ⊢ wp frame (wpE (defs₀ (F := F)) Variants.none c none) E (cc4__bn_relu_mm2_kernel i arg1 harg1 arg2 harg2 arg3 harg3 arg4 harg4 arg5 harg5 arg6 harg6 arg7 harg7 arg8 harg8 arg9 harg9 arg10 harg10) K := by
  simp only [cc4__bn_relu_mm2_kernel_eq_skeleton]; unfold cc4__bn_relu_mm2_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover4_7 _)
  isplitl [H8]
  · iexists _; isplitr
    swap; · iexact H8
    ipureintro
    try dsimp only
    exact View.read_writes_eq_canon _ _ _ (cover4_8 _)
  iexists _; isplitr
  swap; · iexact H9
  ipureintro
  try dsimp only
  exact View.read_writes_eq_canon _ _ _ (cover4_8 _)

/-! ## The pipeline's proof data -/

/-- The proof data of the pipeline on core `c`: the arrays as the region finds them; after the body at point `t` each
    input's buffer at its block and each output's at its `out` of the input blocks there; the invariant is the
    untouched rest (scoped buffers and the generator register); nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
    | ⟨8, _⟩ => out4_8 (iblk4 V c 0 t) (iblk4 V c 1 t) (iblk4 V c 2 t) (iblk4 V c 3 t) (iblk4 V c 4 t) (iblk4 V c 5 t) (iblk4 V c 6 t)
    | ⟨9, _⟩ => out4_9 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

set_option maxHeartbeats 1000000 in
/-- The body at any point: the inputs' memrefs hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One launch of the normalise-rectify-pool kernel, seen from the buffers the TensorCore holds when the launch
    begins (a parameter `V`): what every window's block is at a grid point, what the kernel body does to whole
    staging buffers, and the per-point obligation the pipeline theorem asks of the body.

    The kernel reads a block of 5000 rows of 128 features, four rows of 128 numbers (mean, variance, scale, shift)
    and the 5000 graph numbers of the rows; it writes the rectified normalised block and a 256-by-128 table of
    per-graph column sums of that block. Every operand is a pipeline window read or written whole. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the rows of its array, as the launch finds the array, that the window's
    index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The whole-buffer rectangles the body reads and writes -/

/-- all of a 5000-by-128 buffer (the feature block read, and the feature block written), -/
abbrev r5_0 : Rect S5000x128 := Rect.unit (s := S5000x128) ![0, 0] S5000x128.size inb_S5000x128_S5000x128_0_0
/-- all of a 1-by-128 buffer (mean, variance, scale, shift), -/
abbrev r5_1 : Rect S1x128 := Rect.unit (s := S1x128) ![0, 0] S1x128.size inb_S1x128_S1x128_0_0
/-- all of the 5000-by-1 buffer of graph numbers, -/
abbrev r5_5 : Rect S5000x1 := Rect.unit (s := S5000x1) ![0, 0] S5000x1.size inb_S5000x1_S5000x1_0_0
/-- all of the 1-by-256-by-128 buffer of pooled sums. -/
abbrev r5_7 : Rect S1x256x128 := Rect.unit (s := S1x256x128) ![0, 0, 0] S1x256x128.size inb_S1x256x128_S1x256x128_0_0_0

/-! ## What the body leaves in each output buffer, as a function of the six input blocks

The six inputs, in window order: the feature block `xZ`, the mean row `xM`, the variance row `xV`, the scale row `xG`,
the shift row `xB`, the graph numbers `xI`. -/

/-- The feature output: one whole-buffer store of the rectified normalised block. The payload takes the variance
    row before the mean row, which is the order in which the body reads them. -/
def out5_6 (xZ : Vec F S5000x128 .f32) (xM : Vec F S1x128 .f32) (xV : Vec F S1x128 .f32) (xG : Vec F S1x128 .f32) (xB : Vec F S1x128 .f32) (xI : Vec F S5000x1 .i32) : Vec F S5000x128 .f32 :=
  View.canon [⟨r5_0, k5_pay1 (View.ld xZ r5_0) (View.ld xV r5_1) (View.ld xM r5_1) (View.ld xG r5_1) (View.ld xB r5_1)⟩]

/-- The pooled output: one whole-buffer store of the per-graph column sums of that same block. -/
def out5_7 (xZ : Vec F S5000x128 .f32) (xM : Vec F S1x128 .f32) (xV : Vec F S1x128 .f32) (xG : Vec F S1x128 .f32) (xB : Vec F S1x128 .f32) (xI : Vec F S5000x1 .i32) : Vec F S1x256x128 .f32 :=
  View.canon [⟨r5_7, k5_pay2 (View.ld xZ r5_0) (View.ld xV r5_1) (View.ld xM r5_1) (View.ld xG r5_1) (View.ld xB r5_1) (View.ld xI r5_5)⟩]

/-- A single whole-buffer store covers the buffer: the feature output, -/
theorem cover5_6 (pH : Vec F S5000x128 .f32) (y : S5000x128.Idx) :
    ∃ pc ∈ ([⟨r5_0, pH⟩] : List (View.Piece (Elt F) S5000x128 .f32)), y ∈ pc.1.set :=
  View.cover_of_tiled [⟨r5_0, pH⟩] S5000x128.size (by rfl) y

/-- and the pooled output. -/
theorem cover5_7 (pP : Vec F S1x256x128 .f32) (y : S1x256x128.Idx) :
    ∃ pc ∈ ([⟨r5_7, pP⟩] : List (View.Piece (Elt F) S1x256x128 .f32)), y ∈ pc.1.set :=
  View.cover_of_tiled [⟨r5_7, pP⟩] S1x256x128.size (by rfl) y

/-! ## An input's staging buffer holds its block at every point -/

/-- For any proof data over the launch's arrays whose body leaves an input's block in place, the body finds that
    block in the window's current staging buffer at every point. Where the pipeline fetched it there, that is what
    the fetch brought; where it did not (the four 1-by-128 rows are fetched at the first point only), the block
    index has not moved since, so the buffer still holds the same block. One statement per input window. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (Pipeline.UD sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's triple -/

set_option maxHeartbeats 4000000 in
/-- The kernel body run on whole staging buffers: the six inputs hold the contents `xZ … xI`, the two outputs hold
    anything. It ends with the inputs unchanged, the feature output at `out5_6` and the pooled output at `out5_7` of
    the inputs. The body is a sequence of loads and stores over named payloads, all of them in its one part, and the
    triple follows that sequence step by step; each output is loaded once before it is stored, a value nothing uses,
    so what the buffer held beforehand does not matter. -/
theorem sound_kernel5 (c : Dev nD) (E : Set ℕ) (i : grid5.Coords) (aZ : Memref sig .tc .vmem S5000x128 .f32) (haZ : aZ.IsWhole) (aM : Memref sig .tc .vmem S1x128 .f32) (haM : aM.IsWhole) (aV : Memref sig .tc .vmem S1x128 .f32) (haV : aV.IsWhole) (aG : Memref sig .tc .vmem S1x128 .f32) (haG : aG.IsWhole) (aB : Memref sig .tc .vmem S1x128 .f32) (haB : aB.IsWhole) (aI : Memref sig .tc .vmem S5000x1 .i32) (haI : aI.IsWhole) (aH : Memref sig .tc .vmem S5000x128 .f32) (haH : aH.IsWhole) (aP : Memref sig .tc .vmem S1x256x128 .f32) (haP : aP.IsWhole)
    (xZ : Vec F S5000x128 .f32) (xM : Vec F S1x128 .f32) (xV : Vec F S1x128 .f32) (xG : Vec F S1x128 .f32) (xB : Vec F S1x128 .f32) (xI : Vec F S5000x1 .i32)
    (K : PUnit → sProp 𝕄) :
    iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
        ∗ (∃ d, owns (c : Thread nD τ) aH fullShare d) ∗ (∃ d, owns (c : Thread nD τ) aP fullShare d)
        ∗ (iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
            ∗ owns (c : Thread nD τ) aH fullShare (out5_6 xZ xM xV xG xB xI) ∗ owns (c : Thread nD τ) aP fullShare (out5_7 xZ xM xV xG xB xI)) -∗ K ⟨⟩))
      ⊢ wp frame (wpE (defs₀ (F := F)) Variants.none c none) E (cc5__bn_relu_pool_kernel i aZ haZ aM haM aV haV aG haG aB haB aI haI aH haH aP haP) K := by
  simp only [cc5__bn_relu_pool_kernel_eq_skeleton]; unfold cc5__bn_relu_pool_kernel_skel
  simp only [k5_part1_eq_skeleton]; unfold k5_part1_skel
  unfold owns
  iintro ⟨⟨%fZ, %hfZ, HZ⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
  subst hfZ hfM hfV hfG hfB hfI
  sl_exec
  sl_step
  iapply Hk
  isplitl [HZ]
  · iexists fZ; isplitr; · ipureintro; rfl
    iexact HZ
  isplitl [HM]
  · iexists fM; isplitr; · ipureintro; rfl
    iexact HM
  isplitl [HV]
  · iexists fV; isplitr; · ipureintro; rfl
    iexact HV
  isplitl [HG]
  · iexists fG; isplitr; · ipureintro; rfl
    iexact HG
  isplitl [HB]
  · iexists fB; isplitr; · ipureintro; rfl
    iexact HB
  isplitl [HI]
  · iexists fI; isplitr; · ipureintro; rfl
    iexact HI
  isplitl [HH]
  · iexists _; isplitr
    swap; · iexact HH
    ipureintro
    try dsimp only
    exact View.read_writes_eq_canon _ _ _ (cover5_6 _)
  iexists _; isplitr
  swap; · iexact HP
  ipureintro
  try dsimp only
  exact View.read_writes_eq_canon _ _ _ (cover5_7 _)

/-! ## The pipeline's proof data -/

/-- The proof data of this launch on core `c`. The arrays are as the launch finds them (`V`). After the body at point
    `t` an input's buffer holds its block and an output's holds `out5_6` or `out5_7` of the six input blocks at `t`.
    The invariant is the class's own (everything the launch does not name stays as it was); nothing is owed; every
    share is full. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
    | ⟨7, _⟩ => out5_7 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the launch's. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) := by dsimp only [dat5]

/-- Each input's current staging buffer holds its block at every point, for this proof data. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is handed at point `t`: the invariant, the core's dues, and each window's current staging buffer
    at what the pipeline left in it, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 1000000 in
/-- The body at any point: every input's buffer holds its block (`before5_0` … `before5_5`), so the body's triple applies;
    the invariant and the core's dues pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%dZ, HZ⟩, ⟨%dM, HM⟩, ⟨%dV, HV⟩, ⟨%dG, HG⟩, ⟨%dB, HB⟩, ⟨%dI, HI⟩, ⟨%dH, HH⟩, ⟨%dP, HP⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) _)
  isplitl [HZ]; · iexact HZ
  isplitl [HM]; · iexact HM
  isplitl [HV]; · iexact HV
  isplitl [HG]; · iexact HG
  isplitl [HB]; · iexact HB
  isplitl [HI]; · iexact HI
  isplitl [HH]; · iexists _; iexact HH
  isplitl [HP]; · iexists _; iexact HP
  iintro ⟨HZ, HM, HV, HG, HB, HI, HH, HP⟩
  isplitl [HΦ]; · iexact HΦ
  isplitl [Ho]; · iexact Ho
  isplitl [HZ]; · iexact HZ
  isplitl [HM]; · iexact HM
  isplitl [HV]; · iexact HV
  isplitl [HG]; · iexact HG
  isplitl [HB]; · iexact HB
  isplitl [HI]; · iexact HI
  isplitl [HH]; · iexact HH
  iexact HP

/-- The pipeline theorem's obligation on the body, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/- The frame half of one TensorCore region of @main: the launch, over a grid of row blocks, of the kernel computing a layer's first affine map.
   Everything here is stated at a PARAMETER `V`, the TensorCore's buffer contents when the region is entered: each
   window's block at a grid point, what the kernel body leaves in each output window's staging buffer as a function
   of the input blocks, the body's Hoare triple on whole staging memrefs, the pipeline's proof data over the class's
   invariant, and the body obligation at every grid point. The kernel is of the plainest kind: every operand is a
   pipeline window, every block is loaded whole and every output block is stored whole. -/
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has thousands of coordinates: the structural check recurses once per
-- coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: each staging buffer is read and written as one whole rectangle -/

/-- The whole of a row block of features. -/
abbrev r6_0 : Rect S5000x128 := Rect.unit (s := S5000x128) ![0, 0] S5000x128.size inb_S5000x128_S5000x128_0_0
/-- The whole of the weight matrix. -/
abbrev r6_1 : Rect S128x128 := Rect.unit (s := S128x128) ![0, 0] S128x128.size inb_S128x128_S128x128_0_0
/-- The whole of the bias row. -/
abbrev r6_2 : Rect S1x128 := Rect.unit (s := S1x128) ![0, 0] S1x128.size inb_S1x128_S1x128_0_0
/-- The whole of one block's row of column sums. -/
abbrev r6_3 : Rect S1x1x128 := Rect.unit (s := S1x1x128) ![0, 0, 0] S1x1x128.size inb_S1x1x128_S1x1x128_0_0_0

/-! ## What the body leaves in each output window's buffer

Each output buffer receives exactly one store, of the whole buffer; its contents afterwards are that store's payload,
a function of the four input blocks alone (whatever the buffer held before is overwritten). -/

/-- The affine image of the block: the sum of the two feature blocks, times the weights, plus the bias. -/
def out6_4 (x0 : Vec F S5000x128 .f32) (x1 : Vec F S5000x128 .f32) (x2 : Vec F S128x128 .f32) (x3 : Vec F S1x128 .f32) : Vec F S5000x128 .f32 :=
  View.canon [⟨r6_0, k6_pay1 (View.ld x0 r6_0) (View.ld x1 r6_0) (View.ld x2 r6_1) (View.ld x3 r6_2)⟩]

/-- The column sums of that image over the block's rows. -/
def out6_5 (x0 : Vec F S5000x128 .f32) (x1 : Vec F S5000x128 .f32) (x2 : Vec F S128x128 .f32) (x3 : Vec F S1x128 .f32) : Vec F S1x1x128 .f32 :=
  View.canon [⟨r6_3, k6_pay2 (View.ld x0 r6_0) (View.ld x1 r6_0) (View.ld x2 r6_1) (View.ld x3 r6_2)⟩]

/-- The column sums of its squares over the block's rows. -/
def out6_6 (x0 : Vec F S5000x128 .f32) (x1 : Vec F S5000x128 .f32) (x2 : Vec F S128x128 .f32) (x3 : Vec F S1x128 .f32) : Vec F S1x1x128 .f32 :=
  View.canon [⟨r6_3, k6_pay3 (View.ld x0 r6_0) (View.ld x1 r6_0) (View.ld x2 r6_1) (View.ld x3 r6_2)⟩]

/-- A single store of the whole buffer tiles it, so it covers every index. -/
theorem cover6_4 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

theorem cover6_5 (p0 : Vec F S1x1x128 .f32) (y : S1x1x128.Idx) :
    ∃ pc ∈ ([⟨r6_3, p0⟩] : List (View.Piece (Elt F) S1x1x128 .f32)), y ∈ pc.1.set :=
  View.cover_of_tiled [⟨r6_3, p0⟩] S1x1x128.size (by rfl) y

theorem cover6_6 (p0 : Vec F S1x1x128 .f32) (y : S1x1x128.Idx) :
    ∃ pc ∈ ([⟨r6_3, p0⟩] : List (View.Piece (Elt F) S1x1x128 .f32)), y ∈ pc.1.set :=
  View.cover_of_tiled [⟨r6_3, p0⟩] S1x1x128.size (by rfl) y

/-! ## An input window's staging buffer holds its block at every point

For ANY proof data whose array is the region-entry contents and whose body leaves the input's block in place, the
window's current staging buffer holds the block of the point, whether the pipeline fetched it there or not: where it
did not, the block index has not moved since the point before (the weights and the bias, whose index map is constant,
are fetched at the first point only). The windows are uncut and never idle. -/

theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (Pipeline.UD sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's triple -/

set_option maxHeartbeats 4000000 in
/-- The kernel body on whole staging memrefs, the four inputs' at given read contents and the three outputs' at
    anything, runs to the continuation holding the inputs' as they were and each output's at its closed form in the
    inputs'. The printed function is its skeleton: four whole loads, then per output a load of whatever the buffer
    holds (its value is never used) and one whole store. -/
theorem sound_kernel6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x1x128 .f32) (harg6 : arg6.IsWhole)
    (arg7 : Memref sig .tc .vmem S1x1x128 .f32) (harg7 : arg7.IsWhole)
    (x0 : Vec F S5000x128 .f32) (x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out6_4 x0 x1 x2 x3)
            ∗ owns (c : Thread nD τ) arg6 fullShare (out6_5 x0 x1 x2 x3)
            ∗ owns (c : Thread nD τ) arg7 fullShare (out6_6 x0 x1 x2 x3)) -∗ K ⟨⟩))
      ⊢ wp frame (wpE (defs₀ (F := F)) Variants.none c none) E (cc6__mm1_kernel i arg1 harg1 arg2 harg2 arg3 harg3 arg4 harg4 arg5 harg5 arg6 harg6 arg7 harg7) K := by
  simp only [cc6__mm1_kernel_eq_skeleton]; unfold cc6__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover6_4 _)
  isplitl [H5]
  · iexists _; isplitr
    swap; · iexact H5
    ipureintro
    exact View.read_writes_eq_canon _ _ _ (cover6_5 _)
  iexists _; isplitr
  swap; · iexact H6
  ipureintro
  exact View.read_writes_eq_canon _ _ _ (cover6_6 _)

/-! ## The pipeline's proof data -/

/-- The proof data of the region's pipeline on core `c`: the arrays as the region finds them; after the body at point
    `t` each input's buffer at its block and each output's at its closed form in the four input blocks; the invariant
    the class's (the scoped rest and the generator register, untouched); nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
    | ⟨5, _⟩ => out6_5 (iblk6 V c 0 t) (iblk6 V c 1 t) (iblk6 V c 2 t) (iblk6 V c 3 t)
    | ⟨6, _⟩ => out6_6 (iblk6 V c 0 t) (iblk6 V c 1 t) (iblk6 V c 2 t) (iblk6 V c 3 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]
theorem after6_6 (c : Dev nD) (t : Fin cfg6.N) : (dat6 V c).after 6 t = out6_6 (iblk6 V c 0 t) (iblk6 V c 1 t) (iblk6 V c 2 t) (iblk6 V c 3 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`: the invariant, what the core owes, and each window's current staging
    buffer at what the pipeline left in it, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

set_option maxHeartbeats 1000000 in
/-- The body at any point: the inputs' staging buffers hold their blocks, so the kernel's triple applies; the
    invariant and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _
    (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region

end Cert.Kernel.Hand
-- ==== Proof.K.Reg7.lean ====
/- The frame half of one kernel region of @main: the batch-normalisation / rectifier / second matrix product kernel
   of a layer, as ONE pipelined launch over ten row blocks. Everything is stated at a PARAMETER `V`, the TensorCore's
   buffer contents when the region is entered: each window's block at a grid point, what the body leaves in each output
   window's staging buffer as a function of the input blocks, the body's Hoare triple on whole staging memrefs, the
   pipeline's proof data and the body obligation at every grid point. Generic in the float interpretation. -/
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a five-thousand-row axis is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: every load and every store takes a whole staging buffer -/

/-- the whole of a row block of activations, -/
abbrev r7_0 : Rect S5000x128 := Rect.unit (s := S5000x128) ![0, 0] S5000x128.size inb_S5000x128_S5000x128_0_0
/-- the whole of a per-feature row (mean, variance, scale, shift, bias), -/
abbrev r7_1 : Rect S1x128 := Rect.unit (s := S1x128) ![0, 0] S1x128.size inb_S1x128_S1x128_0_0
/-- the whole of the square weight matrix, -/
abbrev r7_2 : Rect S128x128 := Rect.unit (s := S128x128) ![0, 0] S128x128.size inb_S128x128_S128x128_0_0
/-- the whole of a per-block row of column statistics. -/
abbrev r7_3 : Rect S1x1x128 := Rect.unit (s := S1x1x128) ![0, 0, 0] S1x1x128.size inb_S1x1x128_S1x1x128_0_0_0

/-! ## What the body leaves in each output window's buffer

The inputs in window order: `x0` the block of pre-activations, `x1` their mean, `x2` their variance, `x3` the scale,
`x4` the shift, `x5` the weight matrix, `x6` the bias. The body reads the variance before the mean, which is the order
the payload of the product takes them in. -/

/-- The block of the layer's second affine map: normalise, scale, shift, rectify, multiply by the weights, add the bias. -/
def out7_7 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S5000x128 .f32 :=
  View.canon [⟨r7_0, k7_pay3 (View.ld x0 r7_0) (View.ld x2 r7_1) (View.ld x1 r7_1) (View.ld x3 r7_1) (View.ld x4 r7_1)
    (View.ld x5 r7_2) (View.ld x6 r7_1)⟩]

/-- The column sums of that block, as a one-by-one-by-features row. -/
def out7_8 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r7_3, k7_pay1 (k7_pay4 (View.ld x0 r7_0) (View.ld x2 r7_1) (View.ld x1 r7_1) (View.ld x3 r7_1) (View.ld x4 r7_1)
    (View.ld x5 r7_2) (View.ld x6 r7_1))⟩]

/-- The column sums of the squares of that block, in the same form. -/
def out7_9 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r7_3, k7_pay2 (k7_pay5 (View.ld x0 r7_0) (View.ld x2 r7_1) (View.ld x1 r7_1) (View.ld x3 r7_1) (View.ld x4 r7_1)
    (View.ld x5 r7_2) (View.ld x6 r7_1))⟩]

/-- Each output's single store tiles its buffer, so it covers it. -/
theorem cover7_7 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y
theorem cover7_8 (p0 : Vec F S1x1x128 .f32) (y : S1x1x128.Idx) :
    ∃ pc ∈ ([⟨r7_3, p0⟩] : List (View.Piece (Elt F) S1x1x128 .f32)), y ∈ pc.1.set :=
  View.cover_of_tiled [⟨r7_3, p0⟩] S1x1x128.size (by rfl) y

/-! ## An input window's current staging buffer holds its block at every grid point

Fetched there or not: a window whose block index does not move between two points is not fetched again, and its buffer
still holds the earlier point's block, which is this point's. True of ANY proof data whose array is the region-entry
contents and whose body leaves the block in place; all the input windows are uncut and never idle. -/

/-- Window 0 (the block of pre-activations). -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Window 1 (the mean row). -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Window 2 (the variance row). -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Window 3 (the scale row). -/
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Window 4 (the shift row). -/
theorem before7_4_of {c : Dev nD} (dat : Dat τ (Elt F) Unit ℕ (Pipeline.UD sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Window 5 (the weight matrix). -/
theorem before7_5_of {c : Dev nD} (dat : Dat τ (Elt F) Unit ℕ (Pipeline.UD sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Window 6 (the bias row). -/
theorem before7_6_of {c : Dev nD} (dat : Dat τ (Elt F) Unit ℕ (Pipeline.UD sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The body's triple -/

set_option maxHeartbeats 4000000 in
/-- The kernel body on whole staging memrefs, the inputs' at read contents `x0 … x6` and the outputs' at anything, runs to
    the continuation holding the inputs' as they were and each output's at its `out` of the inputs'. The printed
    function and its first part are their skeletons of loads and stores over payloads; the three loads of output buffers
    read whatever is there and their values are never used. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out7_7 x0 x1 x2 x3 x4 x5 x6) ∗ owns (c : Thread nD τ) arg9 fullShare (out7_8 x0 x1 x2 x3 x4 x5 x6) ∗ owns (c : Thread nD τ) arg10 fullShare (out7_9 x0 x1 x2 x3 x4 x5 x6)) -∗ K ⟨⟩))
      ⊢ wp frame (wpE (defs₀ (F := F)) Variants.none c none) E (cc7__bn_relu_mm2_kernel i arg1 harg1 arg2 harg2 arg3 harg3 arg4 harg4 arg5 harg5 arg6 harg6 arg7 harg7 arg8 harg8 arg9 harg9 arg10 harg10) K := by
  simp only [cc7__bn_relu_mm2_kernel_eq_skeleton]; unfold cc7__bn_relu_mm2_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover7_7 _)
  isplitl [H8]
  · iexists _; isplitr
    swap; · iexact H8
    ipureintro
    try dsimp only
    exact View.read_writes_eq_canon _ _ _ (cover7_8 _)
  iexists _; isplitr
  swap; · iexact H9
  ipureintro
  try dsimp only
  exact View.read_writes_eq_canon _ _ _ (cover7_8 _)

/-! ## The pipeline's proof data -/

/-- The proof data of the pipeline on core `c`: the arrays as the region finds them; after the body at point `t` each
    input's buffer at its block and each output's at its `out` of the input blocks there; the invariant is the
    untouched rest (scoped buffers and the generator register); nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
    | ⟨8, _⟩ => out7_8 (iblk7 V c 0 t) (iblk7 V c 1 t) (iblk7 V c 2 t) (iblk7 V c 3 t) (iblk7 V c 4 t) (iblk7 V c 5 t) (iblk7 V c 6 t)
    | ⟨9, _⟩ => out7_9 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) (iblk7 V c 6 t) := by dsimp only [dat7]
theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t))

set_option maxHeartbeats 1000000 in
/-- The body at any point: the inputs' memrefs hold their blocks, so the body's triple applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ (grid7.coords t) _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One launch of the normalise-rectify-pool kernel, seen from the buffers the TensorCore holds when the launch
    begins (a parameter `V`): what every window's block is at a grid point, what the kernel body does to whole
    staging buffers, and the per-point obligation the pipeline theorem asks of the body.

    The kernel reads a block of 5000 rows of 128 features, four rows of 128 numbers (mean, variance, scale, shift)
    and the 5000 graph numbers of the rows; it writes the rectified normalised block and a 256-by-128 table of
    per-graph column sums of that block. Every operand is a pipeline window read or written whole. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the rows of its array, as the launch finds the array, that the window's
    index map selects at `t`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The whole-buffer rectangles the body reads and writes -/

/-- all of a 5000-by-128 buffer (the feature block read, and the feature block written), -/
abbrev r8_0 : Rect S5000x128 := Rect.unit (s := S5000x128) ![0, 0] S5000x128.size inb_S5000x128_S5000x128_0_0
/-- all of a 1-by-128 buffer (mean, variance, scale, shift), -/
abbrev r8_1 : Rect S1x128 := Rect.unit (s := S1x128) ![0, 0] S1x128.size inb_S1x128_S1x128_0_0
/-- all of the 5000-by-1 buffer of graph numbers, -/
abbrev r8_5 : Rect S5000x1 := Rect.unit (s := S5000x1) ![0, 0] S5000x1.size inb_S5000x1_S5000x1_0_0
/-- all of the 1-by-256-by-128 buffer of pooled sums. -/
abbrev r8_7 : Rect S1x256x128 := Rect.unit (s := S1x256x128) ![0, 0, 0] S1x256x128.size inb_S1x256x128_S1x256x128_0_0_0

/-! ## What the body leaves in each output buffer, as a function of the six input blocks

The six inputs, in window order: the feature block `xZ`, the mean row `xM`, the variance row `xV`, the scale row `xG`,
the shift row `xB`, the graph numbers `xI`. -/

/-- The feature output: one whole-buffer store of the rectified normalised block. The payload takes the variance
    row before the mean row, which is the order in which the body reads them. -/
def out8_6 (xZ : Vec F S5000x128 .f32) (xM : Vec F S1x128 .f32) (xV : Vec F S1x128 .f32) (xG : Vec F S1x128 .f32) (xB : Vec F S1x128 .f32) (xI : Vec F S5000x1 .i32) : Vec F S5000x128 .f32 :=
  View.canon [⟨r8_0, k8_pay1 (View.ld xZ r8_0) (View.ld xV r8_1) (View.ld xM r8_1) (View.ld xG r8_1) (View.ld xB r8_1)⟩]

/-- The pooled output: one whole-buffer store of the per-graph column sums of that same block. -/
def out8_7 (xZ : Vec F S5000x128 .f32) (xM : Vec F S1x128 .f32) (xV : Vec F S1x128 .f32) (xG : Vec F S1x128 .f32) (xB : Vec F S1x128 .f32) (xI : Vec F S5000x1 .i32) : Vec F S1x256x128 .f32 :=
  View.canon [⟨r8_7, k8_pay2 (View.ld xZ r8_0) (View.ld xV r8_1) (View.ld xM r8_1) (View.ld xG r8_1) (View.ld xB r8_1) (View.ld xI r8_5)⟩]

/-- A single whole-buffer store covers the buffer: the feature output, -/
theorem cover8_6 (pH : Vec F S5000x128 .f32) (y : S5000x128.Idx) :
    ∃ pc ∈ ([⟨r8_0, pH⟩] : List (View.Piece (Elt F) S5000x128 .f32)), y ∈ pc.1.set :=
  View.cover_of_tiled [⟨r8_0, pH⟩] S5000x128.size (by rfl) y

/-- and the pooled output. -/
theorem cover8_7 (pP : Vec F S1x256x128 .f32) (y : S1x256x128.Idx) :
    ∃ pc ∈ ([⟨r8_7, pP⟩] : List (View.Piece (Elt F) S1x256x128 .f32)), y ∈ pc.1.set :=
  View.cover_of_tiled [⟨r8_7, pP⟩] S1x256x128.size (by rfl) y

/-! ## An input's staging buffer holds its block at every point -/

/-- For any proof data over the launch's arrays whose body leaves an input's block in place, the body finds that
    block in the window's current staging buffer at every point. Where the pipeline fetched it there, that is what
    the fetch brought; where it did not (the four 1-by-128 rows are fetched at the first point only), the block
    index has not moved since, so the buffer still holds the same block. One statement per input window. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (Pipeline.UD sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (Pipeline.UD sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

theorem before8_5_of {c : Dev nD} (dat : Dat τ (Elt F) Unit ℕ (Pipeline.UD sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's triple -/

set_option maxHeartbeats 4000000 in
/-- The kernel body run on whole staging buffers: the six inputs hold the contents `xZ … xI`, the two outputs hold
    anything. It ends with the inputs unchanged, the feature output at `out8_6` and the pooled output at `out8_7` of
    the inputs. The body is a sequence of loads and stores over named payloads, all of them in its one part, and the
    triple follows that sequence step by step; each output is loaded once before it is stored, a value nothing uses,
    so what the buffer held beforehand does not matter. -/
theorem sound_kernel8 (c : Dev nD) (E : Set ℕ) (i : grid8.Coords) (aZ : Memref sig .tc .vmem S5000x128 .f32) (haZ : aZ.IsWhole) (aM : Memref sig .tc .vmem S1x128 .f32) (haM : aM.IsWhole) (aV : Memref sig .tc .vmem S1x128 .f32) (haV : aV.IsWhole) (aG : Memref sig .tc .vmem S1x128 .f32) (haG : aG.IsWhole) (aB : Memref sig .tc .vmem S1x128 .f32) (haB : aB.IsWhole) (aI : Memref sig .tc .vmem S5000x1 .i32) (haI : aI.IsWhole) (aH : Memref sig .tc .vmem S5000x128 .f32) (haH : aH.IsWhole) (aP : Memref sig .tc .vmem S1x256x128 .f32) (haP : aP.IsWhole)
    (xZ : Vec F S5000x128 .f32) (xM : Vec F S1x128 .f32) (xV : Vec F S1x128 .f32) (xG : Vec F S1x128 .f32) (xB : Vec F S1x128 .f32) (xI : Vec F S5000x1 .i32)
    (K : PUnit → sProp 𝕄) :
    iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
        ∗ (∃ d, owns (c : Thread nD τ) aH fullShare d) ∗ (∃ d, owns (c : Thread nD τ) aP fullShare d)
        ∗ (iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
            ∗ owns (c : Thread nD τ) aH fullShare (out8_6 xZ xM xV xG xB xI) ∗ owns (c : Thread nD τ) aP fullShare (out8_7 xZ xM xV xG xB xI)) -∗ K ⟨⟩))
      ⊢ wp frame (wpE (defs₀ (F := F)) Variants.none c none) E (cc8__bn_relu_pool_kernel i aZ haZ aM haM aV haV aG haG aB haB aI haI aH haH aP haP) K := by
  simp only [cc8__bn_relu_pool_kernel_eq_skeleton]; unfold cc8__bn_relu_pool_kernel_skel
  simp only [k8_part1_eq_skeleton]; unfold k8_part1_skel
  unfold owns
  iintro ⟨⟨%fZ, %hfZ, HZ⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
  subst hfZ hfM hfV hfG hfB hfI
  sl_exec
  sl_step
  iapply Hk
  isplitl [HZ]
  · iexists fZ; isplitr; · ipureintro; rfl
    iexact HZ
  isplitl [HM]
  · iexists fM; isplitr; · ipureintro; rfl
    iexact HM
  isplitl [HV]
  · iexists fV; isplitr; · ipureintro; rfl
    iexact HV
  isplitl [HG]
  · iexists fG; isplitr; · ipureintro; rfl
    iexact HG
  isplitl [HB]
  · iexists fB; isplitr; · ipureintro; rfl
    iexact HB
  isplitl [HI]
  · iexists fI; isplitr; · ipureintro; rfl
    iexact HI
  isplitl [HH]
  · iexists _; isplitr
    swap; · iexact HH
    ipureintro
    try dsimp only
    exact View.read_writes_eq_canon _ _ _ (cover8_6 _)
  iexists _; isplitr
  swap; · iexact HP
  ipureintro
  try dsimp only
  exact View.read_writes_eq_canon _ _ _ (cover8_7 _)

/-! ## The pipeline's proof data -/

/-- The proof data of this launch on core `c`. The arrays are as the launch finds them (`V`). After the body at point
    `t` an input's buffer holds its block and an output's holds `out8_6` or `out8_7` of the six input blocks at `t`.
    The invariant is the class's own (everything the launch does not name stays as it was); nothing is owed; every
    share is full. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
    | ⟨7, _⟩ => out8_7 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the launch's. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) := by dsimp only [dat8]

/-- Each input's current staging buffer holds its block at every point, for this proof data. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is handed at point `t`: the invariant, the core's dues, and each window's current staging buffer
    at what the pipeline left in it, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it hands back. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

set_option maxHeartbeats 1000000 in
/-- The body at any point: every input's buffer holds its block (`before8_0` … `before8_5`), so the body's triple applies;
    the invariant and the core's dues pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%dZ, HZ⟩, ⟨%dM, HM⟩, ⟨%dV, HV⟩, ⟨%dG, HG⟩, ⟨%dB, HB⟩, ⟨%dI, HI⟩, ⟨%dH, HH⟩, ⟨%dP, HP⟩⟩
  iapply (sound_kernel8 c Set.univ (grid8.coords t) _ _ _ _ _ _ _ _ _ _ _ _ _ _ _ _ (iblk8 V c 0 t) (iblk8 V c 1 t) (iblk8 V c 2 t) (iblk8 V c 3 t) (iblk8 V c 4 t) (iblk8 V c 5 t) _)
  isplitl [HZ]; · iexact HZ
  isplitl [HM]; · iexact HM
  isplitl [HV]; · iexact HV
  isplitl [HG]; · iexact HG
  isplitl [HB]; · iexact HB
  isplitl [HI]; · iexact HI
  isplitl [HH]; · iexists _; iexact HH
  isplitl [HP]; · iexists _; iexact HP
  iintro ⟨HZ, HM, HV, HG, HB, HI, HH, HP⟩
  isplitl [HΦ]; · iexact HΦ
  isplitl [Ho]; · iexact Ho
  isplitl [HZ]; · iexact HZ
  isplitl [HM]; · iexact HM
  isplitl [HV]; · iexact HV
  isplitl [HG]; · iexact HG
  isplitl [HB]; · iexact HB
  isplitl [HI]; · iexact HI
  isplitl [HH]; · iexact HH
  iexact HP

/-- The pipeline theorem's obligation on the body, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Reg9.lean ====
/- The frame half of one TensorCore region of @main: the launch, over a grid of row blocks, of the kernel computing a layer's first affine map.
   Everything here is stated at a PARAMETER `V`, the TensorCore's buffer contents when the region is entered: each
   window's block at a grid point, what the kernel body leaves in each output window's staging buffer as a function
   of the input blocks, the body's Hoare triple on whole staging memrefs, the pipeline's proof data over the class's
   invariant, and the body obligation at every grid point. The kernel is of the plainest kind: every operand is a
   pipeline window, every block is loaded whole and every output block is stored whole. -/
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has thousands of coordinates: the structural check recurses once per
-- coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The body's accesses: each staging buffer is read and written as one whole rectangle -/

/-- The whole of a row block of features. -/
abbrev r9_0 : Rect S5000x128 := Rect.unit (s := S5000x128) ![0, 0] S5000x128.size inb_S5000x128_S5000x128_0_0
/-- The whole of the weight matrix. -/
abbrev r9_1 : Rect S128x128 := Rect.unit (s := S128x128) ![0, 0] S128x128.size inb_S128x128_S128x128_0_0
/-- The whole of the bias row. -/
abbrev r9_2 : Rect S1x128 := Rect.unit (s := S1x128) ![0, 0] S1x128.size inb_S1x128_S1x128_0_0
/-- The whole of one block's row of column sums. -/
abbrev r9_3 : Rect S1x1x128 := Rect.unit (s := S1x1x128) ![0, 0, 0] S1x1x128.size inb_S1x1x128_S1x1x128_0_0_0

/-! ## What the body leaves in each output window's buffer

Each output buffer receives exactly one store, of the whole buffer; its contents afterwards are that store's payload,
a function of the four input blocks alone (whatever the buffer held before is overwritten). -/

/-- The affine image of the block: the sum of the two feature blocks, times the weights, plus the bias. -/
def out9_4 (x0 : Vec F S5000x128 .f32) (x1 : Vec F S5000x128 .f32) (x2 : Vec F S128x128 .f32) (x3 : Vec F S1x128 .f32) : Vec F S5000x128 .f32 :=
  View.canon [⟨r9_0, k9_pay1 (View.ld x0 r9_0) (View.ld x1 r9_0) (View.ld x2 r9_1) (View.ld x3 r9_2)⟩]

/-- The column sums of that image over the block's rows. -/
def out9_5 (x0 : Vec F S5000x128 .f32) (x1 : Vec F S5000x128 .f32) (x2 : Vec F S128x128 .f32) (x3 : Vec F S1x128 .f32) : Vec F S1x1x128 .f32 :=
  View.canon [⟨r9_3, k9_pay2 (View.ld x0 r9_0) (View.ld x1 r9_0) (View.ld x2 r9_1) (View.ld x3 r9_2)⟩]

/-- The column sums of its squares over the block's rows. -/
def out9_6 (x0 : Vec F S5000x128 .f32) (x1 : Vec F S5000x128 .f32) (x2 : Vec F S128x128 .f32) (x3 : Vec F S1x128 .f32) : Vec F S1x1x128 .f32 :=
  View.canon [⟨r9_3, k9_pay3 (View.ld x0 r9_0) (View.ld x1 r9_0) (View.ld x2 r9_1) (View.ld x3 r9_2)⟩]

/-- A single store of the whole buffer tiles it, so it covers every index. -/
theorem cover9_4 (p0 : Vec F S5000x128 .f32) (y : S5000x128.Idx) :
    ∃ pc ∈ ([⟨r9_0, p0⟩] : List (View.Piece (Elt F) S5000x128 .f32)), y ∈ pc.1.set :=
  View.cover_of_tiled [⟨r9_0, p0⟩] S5000x128.size (by rfl) y

theorem cover9_5 (p0 : Vec F S1x1x128 .f32) (y : S1x1x128.Idx) :
    ∃ pc ∈ ([⟨r9_3, p0⟩] : List (View.Piece (Elt F) S1x1x128 .f32)), y ∈ pc.1.set :=
  View.cover_of_tiled [⟨r9_3, p0⟩] S1x1x128.size (by rfl) y

theorem cover9_6 (p0 : Vec F S1x1x128 .f32) (y : S1x1x128.Idx) :
    ∃ pc ∈ ([⟨r9_3, p0⟩] : List (View.Piece (Elt F) S1x1x128 .f32)), y ∈ pc.1.set :=
  View.cover_of_tiled [⟨r9_3, p0⟩] S1x1x128.size (by rfl) y

/-! ## An input window's staging buffer holds its block at every point

For ANY proof data whose array is the region-entry contents and whose body leaves the input's block in place, the
window's current staging buffer holds the block of the point, whether the pipeline fetched it there or not: where it
did not, the block index has not moved since the point before (the weights and the bias, whose index map is constant,
are fetched at the first point only). The windows are uncut and never idle. -/

theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's triple -/

set_option maxHeartbeats 4000000 in
/-- The kernel body on whole staging memrefs, the four inputs' at given read contents and the three outputs' at
    anything, runs to the continuation holding the inputs' as they were and each output's at its closed form in the
    inputs'. The printed function is its skeleton: four whole loads, then per output a load of whatever the buffer
    holds (its value is never used) and one whole store. -/
theorem sound_kernel9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x1x128 .f32) (harg6 : arg6.IsWhole)
    (arg7 : Memref sig .tc .vmem S1x1x128 .f32) (harg7 : arg7.IsWhole)
    (x0 : Vec F S5000x128 .f32) (x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out9_4 x0 x1 x2 x3)
            ∗ owns (c : Thread nD τ) arg6 fullShare (out9_5 x0 x1 x2 x3)
            ∗ owns (c : Thread nD τ) arg7 fullShare (out9_6 x0 x1 x2 x3)) -∗ K ⟨⟩))
      ⊢ wp frame (wpE (defs₀ (F := F)) Variants.none c none) E (cc9__mm1_kernel i arg1 harg1 arg2 harg2 arg3 harg3 arg4 harg4 arg5 harg5 arg6 harg6 arg7 harg7) K := by
  simp only [cc9__mm1_kernel_eq_skeleton]; unfold cc9__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover9_4 _)
  isplitl [H5]
  · iexists _; isplitr
    swap; · iexact H5
    ipureintro
    exact View.read_writes_eq_canon _ _ _ (cover9_5 _)
  iexists _; isplitr
  swap; · iexact H6
  ipureintro
  exact View.read_writes_eq_canon _ _ _ (cover9_6 _)

/-! ## The pipeline's proof data -/

/-- The proof data of the region's pipeline on core `c`: the arrays as the region finds them; after the body at point
    `t` each input's buffer at its block and each output's at its closed form in the four input blocks; the invariant
    the class's (the scoped rest and the generator register, untouched); nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
    | ⟨5, _⟩ => out9_5 (iblk9 V c 0 t) (iblk9 V c 1 t) (iblk9 V c 2 t) (iblk9 V c 3 t)
    | ⟨6, _⟩ => out9_6 (iblk9 V c 0 t) (iblk9 V c 1 t) (iblk9 V c 2 t) (iblk9 V c 3 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]
theorem after9_5 (c : Dev nD) (t : Fin cfg9.N) : (dat9 V c).after 5 t = out9_5 (iblk9 V c 0 t) (iblk9 V c 1 t) (iblk9 V c 2 t) (iblk9 V c 3 t) := by dsimp only [dat9]
theorem after9_6 (c : Dev nD) (t : Fin cfg9.N) : (dat9 V c).after 6 t = out9_6 (iblk9 V c 0 t) (iblk9 V c 1 t) (iblk9 V c 2 t) (iblk9 V c 3 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`: the invariant, what the core owes, and each window's current staging
    buffer at what the pipeline left in it, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

set_option maxHeartbeats 1000000 in
/-- The body at any point: the inputs' staging buffers hold their blocks, so the kernel's triple applies; the
    invariant and what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _
    (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region

end Cert.Kernel.Hand
-- ==== Proof.K.Reg10.lean ====
/- The frame half of one kernel region of @main: the batch-normalisation / rectifier / second matrix product kernel
   of a layer, as ONE pipelined launch over ten row blocks. Everything is stated at a PARAMETER `V`, the TensorCore's
   buffer contents when the region is entered: each window's block at a grid point, what the body leaves in each output
   window's staging buffer as a function of the input blocks, the body's Hoare triple on whole staging memrefs, the
   pipeline's proof data and the body obligation at every grid point. Generic in the float interpretation. -/
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a five-thousand-row axis is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The body's accesses: every load and every store takes a whole staging buffer -/

/-- the whole of a row block of activations, -/
abbrev r10_0 : Rect S5000x128 := Rect.unit (s := S5000x128) ![0, 0] S5000x128.size inb_S5000x128_S5000x128_0_0
/-- the whole of a per-feature row (mean, variance, scale, shift, bias), -/
abbrev r10_1 : Rect S1x128 := Rect.unit (s := S1x128) ![0, 0] S1x128.size inb_S1x128_S1x128_0_0
/-- the whole of the square weight matrix, -/
abbrev r10_2 : Rect S128x128 := Rect.unit (s := S128x128) ![0, 0] S128x128.size inb_S128x128_S128x128_0_0
/-- the whole of a per-block row of column statistics. -/
abbrev r10_3 : Rect S1x1x128 := Rect.unit (s := S1x1x128) ![0, 0, 0] S1x1x128.size inb_S1x1x128_S1x1x128_0_0_0

/-! ## What the body leaves in each output window's buffer

The inputs in window order: `x0` the block of pre-activations, `x1` their mean, `x2` their variance, `x3` the scale,
`x4` the shift, `x5` the weight matrix, `x6` the bias. The body reads the variance before the mean, which is the order
the payload of the product takes them in. -/

/-- The block of the layer's second affine map: normalise, scale, shift, rectify, multiply by the weights, add the bias. -/
def out10_7 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S5000x128 .f32 :=
  View.canon [⟨r10_0, k10_pay3 (View.ld x0 r10_0) (View.ld x2 r10_1) (View.ld x1 r10_1) (View.ld x3 r10_1) (View.ld x4 r10_1)
    (View.ld x5 r10_2) (View.ld x6 r10_1)⟩]

/-- The column sums of that block, as a one-by-one-by-features row. -/
def out10_8 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r10_3, k10_pay1 (k10_pay4 (View.ld x0 r10_0) (View.ld x2 r10_1) (View.ld x1 r10_1) (View.ld x3 r10_1) (View.ld x4 r10_1)
    (View.ld x5 r10_2) (View.ld x6 r10_1))⟩]

/-- The column sums of the squares of that block, in the same form. -/
def out10_9 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r10_3, k10_pay2 (k10_pay5 (View.ld x0 r10_0) (View.ld x2 r10_1) (View.ld x1 r10_1) (View.ld x3 r10_1) (View.ld x4 r10_1)
    (View.ld x5 r10_2) (View.ld x6 r10_1))⟩]

/-- Each output's single store tiles its buffer, so it covers it. -/
theorem cover10_7 (p0 : Vec F S5000x128 .f32) (y : S5000x128.Idx) :
    ∃ pc ∈ ([⟨r10_0, p0⟩] : List (View.Piece (Elt F) S5000x128 .f32)), y ∈ pc.1.set :=
  View.cover_of_tiled [⟨r10_0, p0⟩] S5000x128.size (by rfl) y
theorem cover10_8 (p0 : Vec F S1x1x128 .f32) (y : S1x1x128.Idx) :
    ∃ pc ∈ ([⟨r10_3, p0⟩] : List (View.Piece (Elt F) S1x1x128 .f32)), y ∈ pc.1.set :=
  View.cover_of_tiled [⟨r10_3, p0⟩] S1x1x128.size (by rfl) y

/-! ## An input window's current staging buffer holds its block at every grid point

Fetched there or not: a window whose block index does not move between two points is not fetched again, and its buffer
still holds the earlier point's block, which is this point's. True of ANY proof data whose array is the region-entry
contents and whose body leaves the block in place; all the input windows are uncut and never idle. -/

/-- Window 0 (the block of pre-activations). -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Window 1 (the mean row). -/
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Window 2 (the variance row). -/
theorem before10_2_of {c : Dev nD} (dat : Dat τ (Elt F) Unit ℕ (Pipeline.UD sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Window 3 (the scale row). -/
theorem before10_3_of {c : Dev nD} (dat : Dat τ (Elt F) Unit ℕ (Pipeline.UD sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Window 4 (the shift row). -/
theorem before10_4_of {c : Dev nD} (dat : Dat τ (Elt F) Unit ℕ (Pipeline.UD sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Window 5 (the weight matrix). -/
theorem before10_5_of {c : Dev nD} (dat : Dat τ (Elt F) Unit ℕ (Pipeline.UD sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Window 6 (the bias row). -/
theorem before10_6_of {c : Dev nD} (dat : Dat τ (Elt F) Unit ℕ (Pipeline.UD sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The body's triple -/

set_option maxHeartbeats 4000000 in
/-- The kernel body on whole staging memrefs, the inputs' at read contents `x0 … x6` and the outputs' at anything, runs to
    the continuation holding the inputs' as they were and each output's at its `out` of the inputs'. The printed
    function and its first part are their skeletons of loads and stores over payloads; the three loads of output buffers
    read whatever is there and their values are never used. -/
theorem sound_kernel10 (c : Dev nD) (E : Set ℕ) (i : grid10.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out10_7 x0 x1 x2 x3 x4 x5 x6) ∗ owns (c : Thread nD τ) arg9 fullShare (out10_8 x0 x1 x2 x3 x4 x5 x6) ∗ owns (c : Thread nD τ) arg10 fullShare (out10_9 x0 x1 x2 x3 x4 x5 x6)) -∗ K ⟨⟩))
      ⊢ wp frame (wpE (defs₀ (F := F)) Variants.none c none) E (cc10__bn_relu_mm2_kernel i arg1 harg1 arg2 harg2 arg3 harg3 arg4 harg4 arg5 harg5 arg6 harg6 arg7 harg7 arg8 harg8 arg9 harg9 arg10 harg10) K := by
  simp only [cc10__bn_relu_mm2_kernel_eq_skeleton]; unfold cc10__bn_relu_mm2_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover10_7 _)
  isplitl [H8]
  · iexists _; isplitr
    swap; · iexact H8
    ipureintro
    try dsimp only
    exact View.read_writes_eq_canon _ _ _ (cover10_8 _)
  iexists _; isplitr
  swap; · iexact H9
  ipureintro
  try dsimp only
  exact View.read_writes_eq_canon _ _ _ (cover10_8 _)

/-! ## The pipeline's proof data -/

/-- The proof data of the pipeline on core `c`: the arrays as the region finds them; after the body at point `t` each
    input's buffer at its block and each output's at its `out` of the input blocks there; the invariant is the
    untouched rest (scoped buffers and the generator register); nothing owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
    | ⟨8, _⟩ => out10_8 (iblk10 V c 0 t) (iblk10 V c 1 t) (iblk10 V c 2 t) (iblk10 V c 3 t) (iblk10 V c 4 t) (iblk10 V c 5 t) (iblk10 V c 6 t)
    | ⟨9, _⟩ => out10_9 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]
theorem after10_8 (c : Dev nD) (t : Fin cfg10.N) : (dat10 V c).after 8 t = out10_8 (iblk10 V c 0 t) (iblk10 V c 1 t) (iblk10 V c 2 t) (iblk10 V c 3 t) (iblk10 V c 4 t) (iblk10 V c 5 t) (iblk10 V c 6 t) := by dsimp only [dat10]
theorem after10_9 (c : Dev nD) (t : Fin cfg10.N) : (dat10 V c).after 9 t = out10_9 (iblk10 V c 0 t) (iblk10 V c 1 t) (iblk10 V c 2 t) (iblk10 V c 3 t) (iblk10 V c 4 t) (iblk10 V c 5 t) (iblk10 V c 6 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t))

set_option maxHeartbeats 1000000 in
/-- The body at any point: the inputs' memrefs hold their blocks, so the body's triple applies; the invariant and the
    core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel10 c Set.univ (grid10.coords t) _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Reg11.lean ====
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One launch of the normalise-rectify-pool kernel, seen from the buffers the TensorCore holds when the launch
    begins (a parameter `V`): what every window's block is at a grid point, what the kernel body does to whole
    staging buffers, and the per-point obligation the pipeline theorem asks of the body.

    The kernel reads a block of 5000 rows of 128 features, four rows of 128 numbers (mean, variance, scale, shift)
    and the 5000 graph numbers of the rows; it writes the rectified normalised block and a 256-by-128 table of
    per-graph column sums of that block. Every operand is a pipeline window read or written whole. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the rows of its array, as the launch finds the array, that the window's
    index map selects at `t`. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The whole-buffer rectangles the body reads and writes -/

/-- all of a 5000-by-128 buffer (the feature block read, and the feature block written), -/
abbrev r11_0 : Rect S5000x128 := Rect.unit (s := S5000x128) ![0, 0] S5000x128.size inb_S5000x128_S5000x128_0_0
/-- all of a 1-by-128 buffer (mean, variance, scale, shift), -/
abbrev r11_1 : Rect S1x128 := Rect.unit (s := S1x128) ![0, 0] S1x128.size inb_S1x128_S1x128_0_0
/-- all of the 5000-by-1 buffer of graph numbers, -/
abbrev r11_5 : Rect S5000x1 := Rect.unit (s := S5000x1) ![0, 0] S5000x1.size inb_S5000x1_S5000x1_0_0
/-- all of the 1-by-256-by-128 buffer of pooled sums. -/
abbrev r11_7 : Rect S1x256x128 := Rect.unit (s := S1x256x128) ![0, 0, 0] S1x256x128.size inb_S1x256x128_S1x256x128_0_0_0

/-! ## What the body leaves in each output buffer, as a function of the six input blocks

The six inputs, in window order: the feature block `xZ`, the mean row `xM`, the variance row `xV`, the scale row `xG`,
the shift row `xB`, the graph numbers `xI`. -/

/-- The feature output: one whole-buffer store of the rectified normalised block. The payload takes the variance
    row before the mean row, which is the order in which the body reads them. -/
def out11_6 (xZ : Vec F S5000x128 .f32) (xM : Vec F S1x128 .f32) (xV : Vec F S1x128 .f32) (xG : Vec F S1x128 .f32) (xB : Vec F S1x128 .f32) (xI : Vec F S5000x1 .i32) : Vec F S5000x128 .f32 :=
  View.canon [⟨r11_0, k11_pay1 (View.ld xZ r11_0) (View.ld xV r11_1) (View.ld xM r11_1) (View.ld xG r11_1) (View.ld xB r11_1)⟩]

/-- The pooled output: one whole-buffer store of the per-graph column sums of that same block. -/
def out11_7 (xZ : Vec F S5000x128 .f32) (xM : Vec F S1x128 .f32) (xV : Vec F S1x128 .f32) (xG : Vec F S1x128 .f32) (xB : Vec F S1x128 .f32) (xI : Vec F S5000x1 .i32) : Vec F S1x256x128 .f32 :=
  View.canon [⟨r11_7, k11_pay2 (View.ld xZ r11_0) (View.ld xV r11_1) (View.ld xM r11_1) (View.ld xG r11_1) (View.ld xB r11_1) (View.ld xI r11_5)⟩]

/-- A single whole-buffer store covers the buffer: the feature output, -/
theorem cover11_6 (pH : Vec F S5000x128 .f32) (y : S5000x128.Idx) :
    ∃ pc ∈ ([⟨r11_0, pH⟩] : List (View.Piece (Elt F) S5000x128 .f32)), y ∈ pc.1.set :=
  View.cover_of_tiled [⟨r11_0, pH⟩] S5000x128.size (by rfl) y

/-- and the pooled output. -/
theorem cover11_7 (pP : Vec F S1x256x128 .f32) (y : S1x256x128.Idx) :
    ∃ pc ∈ ([⟨r11_7, pP⟩] : List (View.Piece (Elt F) S1x256x128 .f32)), y ∈ pc.1.set :=
  View.cover_of_tiled [⟨r11_7, pP⟩] S1x256x128.size (by rfl) y

/-! ## An input's staging buffer holds its block at every point -/

/-- For any proof data over the launch's arrays whose body leaves an input's block in place, the body finds that
    block in the window's current staging buffer at every point. Where the pipeline fetched it there, that is what
    the fetch brought; where it did not (the four 1-by-128 rows are fetched at the first point only), the block
    index has not moved since, so the buffer still holds the same block. One statement per input window. -/
theorem before11_0_of {c : Dev nD} (dat : Dat τ (Elt F) Unit ℕ (Pipeline.UD sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (Pipeline.UD sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (Pipeline.UD sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (Pipeline.UD sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (Pipeline.UD sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

theorem before11_5_of {c : Dev nD} (dat : Dat τ (Elt F) Unit ℕ (Pipeline.UD sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's triple -/

set_option maxHeartbeats 4000000 in
/-- The kernel body run on whole staging buffers: the six inputs hold the contents `xZ … xI`, the two outputs hold
    anything. It ends with the inputs unchanged, the feature output at `out11_6` and the pooled output at `out11_7` of
    the inputs. The body is a sequence of loads and stores over named payloads, all of them in its one part, and the
    triple follows that sequence step by step; each output is loaded once before it is stored, a value nothing uses,
    so what the buffer held beforehand does not matter. -/
theorem sound_kernel11 (c : Dev nD) (E : Set ℕ) (i : grid11.Coords) (aZ : Memref sig .tc .vmem S5000x128 .f32) (haZ : aZ.IsWhole) (aM : Memref sig .tc .vmem S1x128 .f32) (haM : aM.IsWhole) (aV : Memref sig .tc .vmem S1x128 .f32) (haV : aV.IsWhole) (aG : Memref sig .tc .vmem S1x128 .f32) (haG : aG.IsWhole) (aB : Memref sig .tc .vmem S1x128 .f32) (haB : aB.IsWhole) (aI : Memref sig .tc .vmem S5000x1 .i32) (haI : aI.IsWhole) (aH : Memref sig .tc .vmem S5000x128 .f32) (haH : aH.IsWhole) (aP : Memref sig .tc .vmem S1x256x128 .f32) (haP : aP.IsWhole)
    (xZ : Vec F S5000x128 .f32) (xM : Vec F S1x128 .f32) (xV : Vec F S1x128 .f32) (xG : Vec F S1x128 .f32) (xB : Vec F S1x128 .f32) (xI : Vec F S5000x1 .i32)
    (K : PUnit → sProp 𝕄) :
    iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
        ∗ (∃ d, owns (c : Thread nD τ) aH fullShare d) ∗ (∃ d, owns (c : Thread nD τ) aP fullShare d)
        ∗ (iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
            ∗ owns (c : Thread nD τ) aH fullShare (out11_6 xZ xM xV xG xB xI) ∗ owns (c : Thread nD τ) aP fullShare (out11_7 xZ xM xV xG xB xI)) -∗ K ⟨⟩))
      ⊢ wp frame (wpE (defs₀ (F := F)) Variants.none c none) E (cc11__bn_relu_pool_kernel i aZ haZ aM haM aV haV aG haG aB haB aI haI aH haH aP haP) K := by
  simp only [cc11__bn_relu_pool_kernel_eq_skeleton]; unfold cc11__bn_relu_pool_kernel_skel
  simp only [k11_part1_eq_skeleton]; unfold k11_part1_skel
  unfold owns
  iintro ⟨⟨%fZ, %hfZ, HZ⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
  subst hfZ hfM hfV hfG hfB hfI
  sl_exec
  sl_step
  iapply Hk
  isplitl [HZ]
  · iexists fZ; isplitr; · ipureintro; rfl
    iexact HZ
  isplitl [HM]
  · iexists fM; isplitr; · ipureintro; rfl
    iexact HM
  isplitl [HV]
  · iexists fV; isplitr; · ipureintro; rfl
    iexact HV
  isplitl [HG]
  · iexists fG; isplitr; · ipureintro; rfl
    iexact HG
  isplitl [HB]
  · iexists fB; isplitr; · ipureintro; rfl
    iexact HB
  isplitl [HI]
  · iexists fI; isplitr; · ipureintro; rfl
    iexact HI
  isplitl [HH]
  · iexists _; isplitr
    swap; · iexact HH
    ipureintro
    try dsimp only
    exact View.read_writes_eq_canon _ _ _ (cover11_6 _)
  iexists _; isplitr
  swap; · iexact HP
  ipureintro
  try dsimp only
  exact View.read_writes_eq_canon _ _ _ (cover11_7 _)

/-! ## The pipeline's proof data -/

/-- The proof data of this launch on core `c`. The arrays are as the launch finds them (`V`). After the body at point
    `t` an input's buffer holds its block and an output's holds `out11_6` or `out11_7` of the six input blocks at `t`.
    The invariant is the class's own (everything the launch does not name stays as it was); nothing is owed; every
    share is full. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
    | ⟨7, _⟩ => out11_7 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the launch's. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]
theorem after11_7 (c : Dev nD) (t : Fin cfg11.N) : (dat11 V c).after 7 t = out11_7 (iblk11 V c 0 t) (iblk11 V c 1 t) (iblk11 V c 2 t) (iblk11 V c 3 t) (iblk11 V c 4 t) (iblk11 V c 5 t) := by dsimp only [dat11]

/-- Each input's current staging buffer holds its block at every point, for this proof data. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is handed at point `t`: the invariant, the core's dues, and each window's current staging buffer
    at what the pipeline left in it, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d)))

/-- and what it hands back. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t))

set_option maxHeartbeats 1000000 in
/-- The body at any point: every input's buffer holds its block (`before11_0` … `before11_5`), so the body's triple applies;
    the invariant and the core's dues pass through untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7]
  iintro ⟨HΦ, Ho, ⟨%dZ, HZ⟩, ⟨%dM, HM⟩, ⟨%dV, HV⟩, ⟨%dG, HG⟩, ⟨%dB, HB⟩, ⟨%dI, HI⟩, ⟨%dH, HH⟩, ⟨%dP, HP⟩⟩
  iapply (sound_kernel11 c Set.univ (grid11.coords t) _ _ _ _ _ _ _ _ _ _ _ _ _ _ _ _ (iblk11 V c 0 t) (iblk11 V c 1 t) (iblk11 V c 2 t) (iblk11 V c 3 t) (iblk11 V c 4 t) (iblk11 V c 5 t) _)
  isplitl [HZ]; · iexact HZ
  isplitl [HM]; · iexact HM
  isplitl [HV]; · iexact HV
  isplitl [HG]; · iexact HG
  isplitl [HB]; · iexact HB
  isplitl [HI]; · iexact HI
  isplitl [HH]; · iexists _; iexact HH
  isplitl [HP]; · iexists _; iexact HP
  iintro ⟨HZ, HM, HV, HG, HB, HI, HH, HP⟩
  isplitl [HΦ]; · iexact HΦ
  isplitl [Ho]; · iexact Ho
  isplitl [HZ]; · iexact HZ
  isplitl [HM]; · iexact HM
  isplitl [HV]; · iexact HV
  isplitl [HG]; · iexact HG
  isplitl [HB]; · iexact HB
  isplitl [HI]; · iexact HI
  isplitl [HH]; · iexact HH
  iexact HP

/-- The pipeline theorem's obligation on the body, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Reg12.lean ====
/- The frame half of one TensorCore region of @main: the launch, over a grid of row blocks, of the kernel computing a layer's first affine map.
   Everything here is stated at a PARAMETER `V`, the TensorCore's buffer contents when the region is entered: each
   window's block at a grid point, what the kernel body leaves in each output window's staging buffer as a function
   of the input blocks, the body's Hoare triple on whole staging memrefs, the pipeline's proof data over the class's
   invariant, and the body obligation at every grid point. The kernel is of the plainest kind: every operand is a
   pipeline window, every block is loaded whole and every output block is stored whole. -/
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has thousands of coordinates: the structural check recurses once per
-- coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The body's accesses: each staging buffer is read and written as one whole rectangle -/

/-- The whole of a row block of features. -/
abbrev r12_0 : Rect S5000x128 := Rect.unit (s := S5000x128) ![0, 0] S5000x128.size inb_S5000x128_S5000x128_0_0
/-- The whole of the weight matrix. -/
abbrev r12_1 : Rect S128x128 := Rect.unit (s := S128x128) ![0, 0] S128x128.size inb_S128x128_S128x128_0_0
/-- The whole of the bias row. -/
abbrev r12_2 : Rect S1x128 := Rect.unit (s := S1x128) ![0, 0] S1x128.size inb_S1x128_S1x128_0_0
/-- The whole of one block's row of column sums. -/
abbrev r12_3 : Rect S1x1x128 := Rect.unit (s := S1x1x128) ![0, 0, 0] S1x1x128.size inb_S1x1x128_S1x1x128_0_0_0

/-! ## What the body leaves in each output window's buffer

Each output buffer receives exactly one store, of the whole buffer; its contents afterwards are that store's payload,
a function of the four input blocks alone (whatever the buffer held before is overwritten). -/

/-- The affine image of the block: the sum of the two feature blocks, times the weights, plus the bias. -/
def out12_4 (x0 : Vec F S5000x128 .f32) (x1 : Vec F S5000x128 .f32) (x2 : Vec F S128x128 .f32) (x3 : Vec F S1x128 .f32) : Vec F S5000x128 .f32 :=
  View.canon [⟨r12_0, k12_pay1 (View.ld x0 r12_0) (View.ld x1 r12_0) (View.ld x2 r12_1) (View.ld x3 r12_2)⟩]

/-- The column sums of that image over the block's rows. -/
def out12_5 (x0 : Vec F S5000x128 .f32) (x1 : Vec F S5000x128 .f32) (x2 : Vec F S128x128 .f32) (x3 : Vec F S1x128 .f32) : Vec F S1x1x128 .f32 :=
  View.canon [⟨r12_3, k12_pay2 (View.ld x0 r12_0) (View.ld x1 r12_0) (View.ld x2 r12_1) (View.ld x3 r12_2)⟩]

/-- The column sums of its squares over the block's rows. -/
def out12_6 (x0 : Vec F S5000x128 .f32) (x1 : Vec F S5000x128 .f32) (x2 : Vec F S128x128 .f32) (x3 : Vec F S1x128 .f32) : Vec F S1x1x128 .f32 :=
  View.canon [⟨r12_3, k12_pay3 (View.ld x0 r12_0) (View.ld x1 r12_0) (View.ld x2 r12_1) (View.ld x3 r12_2)⟩]

/-- A single store of the whole buffer tiles it, so it covers every index. -/
theorem cover12_4 (p0 : Vec F S5000x128 .f32) (y : S5000x128.Idx) :
    ∃ pc ∈ ([⟨r12_0, p0⟩] : List (View.Piece (Elt F) S5000x128 .f32)), y ∈ pc.1.set :=
  View.cover_of_tiled [⟨r12_0, p0⟩] S5000x128.size (by rfl) y

theorem cover12_5 (p0 : Vec F S1x1x128 .f32) (y : S1x1x128.Idx) :
    ∃ pc ∈ ([⟨r12_3, p0⟩] : List (View.Piece (Elt F) S1x1x128 .f32)), y ∈ pc.1.set :=
  View.cover_of_tiled [⟨r12_3, p0⟩] S1x1x128.size (by rfl) y

theorem cover12_6 (p0 : Vec F S1x1x128 .f32) (y : S1x1x128.Idx) :
    ∃ pc ∈ ([⟨r12_3, p0⟩] : List (View.Piece (Elt F) S1x1x128 .f32)), y ∈ pc.1.set :=
  View.cover_of_tiled [⟨r12_3, p0⟩] S1x1x128.size (by rfl) y

/-! ## An input window's staging buffer holds its block at every point

For ANY proof data whose array is the region-entry contents and whose body leaves the input's block in place, the
window's current staging buffer holds the block of the point, whether the pipeline fetched it there or not: where it
did not, the block index has not moved since the point before (the weights and the bias, whose index map is constant,
are fetched at the first point only). The windows are uncut and never idle. -/

theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (Pipeline.UD sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of {c : Dev nD} (dat : Dat τ (Elt F) Unit ℕ (Pipeline.UD sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-! ## The body's triple -/

set_option maxHeartbeats 4000000 in
/-- The kernel body on whole staging memrefs, the four inputs' at given read contents and the three outputs' at
    anything, runs to the continuation holding the inputs' as they were and each output's at its closed form in the
    inputs'. The printed function is its skeleton: four whole loads, then per output a load of whatever the buffer
    holds (its value is never used) and one whole store. -/
theorem sound_kernel12 (c : Dev nD) (E : Set ℕ) (i : grid12.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x1x128 .f32) (harg6 : arg6.IsWhole)
    (arg7 : Memref sig .tc .vmem S1x1x128 .f32) (harg7 : arg7.IsWhole)
    (x0 : Vec F S5000x128 .f32) (x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out12_4 x0 x1 x2 x3)
            ∗ owns (c : Thread nD τ) arg6 fullShare (out12_5 x0 x1 x2 x3)
            ∗ owns (c : Thread nD τ) arg7 fullShare (out12_6 x0 x1 x2 x3)) -∗ K ⟨⟩))
      ⊢ wp frame (wpE (defs₀ (F := F)) Variants.none c none) E (cc12__mm1_kernel i arg1 harg1 arg2 harg2 arg3 harg3 arg4 harg4 arg5 harg5 arg6 harg6 arg7 harg7) K := by
  simp only [cc12__mm1_kernel_eq_skeleton]; unfold cc12__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover12_4 _)
  isplitl [H5]
  · iexists _; isplitr
    swap; · iexact H5
    ipureintro
    exact View.read_writes_eq_canon _ _ _ (cover12_5 _)
  iexists _; isplitr
  swap; · iexact H6
  ipureintro
  exact View.read_writes_eq_canon _ _ _ (cover12_6 _)

/-! ## The pipeline's proof data -/

/-- The proof data of the region's pipeline on core `c`: the arrays as the region finds them; after the body at point
    `t` each input's buffer at its block and each output's at its closed form in the four input blocks; the invariant
    the class's (the scoped rest and the generator register, untouched); nothing owed; full shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
    | ⟨5, _⟩ => out12_5 (iblk12 V c 0 t) (iblk12 V c 1 t) (iblk12 V c 2 t) (iblk12 V c 3 t)
    | ⟨6, _⟩ => out12_6 (iblk12 V c 0 t) (iblk12 V c 1 t) (iblk12 V c 2 t) (iblk12 V c 3 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = out12_4 (iblk12 V c 0 t) (iblk12 V c 1 t) (iblk12 V c 2 t) (iblk12 V c 3 t) := by dsimp only [dat12]
theorem after12_5 (c : Dev nD) (t : Fin cfg12.N) : (dat12 V c).after 5 t = out12_5 (iblk12 V c 0 t) (iblk12 V c 1 t) (iblk12 V c 2 t) (iblk12 V c 3 t) := by dsimp only [dat12]
theorem after12_6 (c : Dev nD) (t : Fin cfg12.N) : (dat12 V c).after 6 t = out12_6 (iblk12 V c 0 t) (iblk12 V c 1 t) (iblk12 V c 2 t) (iblk12 V c 3 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-! ## The body obligation, at a generic point -/

/-- What the body is called with at point `t`: the invariant, what the core owes, and each window's current staging
    buffer at what the pipeline left in it, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

set_option maxHeartbeats 1000000 in
/-- The body at any point: the inputs' staging buffers hold their blocks, so the kernel's triple applies; the
    invariant and what the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel12 c Set.univ (grid12.coords t) _ _ _ _ _ _ _ _ _ _ _ _ _ _
    (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation12 (c : Dev nD) : BodyObligation (dat12 (F := F) V c) (defs₀ (F := F)) Variants.none () Set.univ := fun t => by
  rw [bigSep_W12, bigSep_W12]
  exact sound_body12 V c t

end Region

end Cert.Kernel.Hand
-- ==== Proof.K.Reg13.lean ====
/- The frame half of one kernel region of @main: the batch-normalisation / rectifier / second matrix product kernel
   of a layer, as ONE pipelined launch over ten row blocks. Everything is stated at a PARAMETER `V`, the TensorCore's
   buffer contents when the region is entered: each window's block at a grid point, what the body leaves in each output
   window's staging buffer as a function of the input blocks, the body's Hoare triple on whole staging memrefs, the
   pipeline's proof data and the body obligation at every grid point. Generic in the float interpretation. -/
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a five-thousand-row axis is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The body's accesses: every load and every store takes a whole staging buffer -/

/-- the whole of a row block of activations, -/
abbrev r13_0 : Rect S5000x128 := Rect.unit (s := S5000x128) ![0, 0] S5000x128.size inb_S5000x128_S5000x128_0_0
/-- the whole of a per-feature row (mean, variance, scale, shift, bias), -/
abbrev r13_1 : Rect S1x128 := Rect.unit (s := S1x128) ![0, 0] S1x128.size inb_S1x128_S1x128_0_0
/-- the whole of the square weight matrix, -/
abbrev r13_2 : Rect S128x128 := Rect.unit (s := S128x128) ![0, 0] S128x128.size inb_S128x128_S128x128_0_0
/-- the whole of a per-block row of column statistics. -/
abbrev r13_3 : Rect S1x1x128 := Rect.unit (s := S1x1x128) ![0, 0, 0] S1x1x128.size inb_S1x1x128_S1x1x128_0_0_0

/-! ## What the body leaves in each output window's buffer

The inputs in window order: `x0` the block of pre-activations, `x1` their mean, `x2` their variance, `x3` the scale,
`x4` the shift, `x5` the weight matrix, `x6` the bias. The body reads the variance before the mean, which is the order
the payload of the product takes them in. -/

/-- The block of the layer's second affine map: normalise, scale, shift, rectify, multiply by the weights, add the bias. -/
def out13_7 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S5000x128 .f32 :=
  View.canon [⟨r13_0, k13_pay3 (View.ld x0 r13_0) (View.ld x2 r13_1) (View.ld x1 r13_1) (View.ld x3 r13_1) (View.ld x4 r13_1)
    (View.ld x5 r13_2) (View.ld x6 r13_1)⟩]

/-- The column sums of that block, as a one-by-one-by-features row. -/
def out13_8 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r13_3, k13_pay1 (k13_pay4 (View.ld x0 r13_0) (View.ld x2 r13_1) (View.ld x1 r13_1) (View.ld x3 r13_1) (View.ld x4 r13_1)
    (View.ld x5 r13_2) (View.ld x6 r13_1))⟩]

/-- The column sums of the squares of that block, in the same form. -/
def out13_9 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r13_3, k13_pay2 (k13_pay5 (View.ld x0 r13_0) (View.ld x2 r13_1) (View.ld x1 r13_1) (View.ld x3 r13_1) (View.ld x4 r13_1)
    (View.ld x5 r13_2) (View.ld x6 r13_1))⟩]

/-- Each output's single store tiles its buffer, so it covers it. -/
theorem cover13_7 (p0 : Vec F S5000x128 .f32) (y : S5000x128.Idx) :
    ∃ pc ∈ ([⟨r13_0, p0⟩] : List (View.Piece (Elt F) S5000x128 .f32)), y ∈ pc.1.set :=
  View.cover_of_tiled [⟨r13_0, p0⟩] S5000x128.size (by rfl) y
theorem cover13_8 (p0 : Vec F S1x1x128 .f32) (y : S1x1x128.Idx) :
    ∃ pc ∈ ([⟨r13_3, p0⟩] : List (View.Piece (Elt F) S1x1x128 .f32)), y ∈ pc.1.set :=
  View.cover_of_tiled [⟨r13_3, p0⟩] S1x1x128.size (by rfl) y

/-! ## An input window's current staging buffer holds its block at every grid point

Fetched there or not: a window whose block index does not move between two points is not fetched again, and its buffer
still holds the earlier point's block, which is this point's. True of ANY proof data whose array is the region-entry
contents and whose body leaves the block in place; all the input windows are uncut and never idle. -/

/-- Window 0 (the block of pre-activations). -/
theorem before13_0_of {c : Dev nD} (dat : Dat τ (Elt F) Unit ℕ (Pipeline.UD sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Window 1 (the mean row). -/
theorem before13_1_of {c : Dev nD} (dat : Dat τ (Elt F) Unit ℕ (Pipeline.UD sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Window 2 (the variance row). -/
theorem before13_2_of {c : Dev nD} (dat : Dat τ (Elt F) Unit ℕ (Pipeline.UD sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Window 3 (the scale row). -/
theorem before13_3_of {c : Dev nD} (dat : Dat τ (Elt F) Unit ℕ (Pipeline.UD sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Window 4 (the shift row). -/
theorem before13_4_of {c : Dev nD} (dat : Dat τ (Elt F) Unit ℕ (Pipeline.UD sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Window 5 (the weight matrix). -/
theorem before13_5_of {c : Dev nD} (dat : Dat τ (Elt F) Unit ℕ (Pipeline.UD sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- Window 6 (the bias row). -/
theorem before13_6_of {c : Dev nD} (dat : Dat τ (Elt F) Unit ℕ (Pipeline.UD sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-! ## The body's triple -/

set_option maxHeartbeats 4000000 in
/-- The kernel body on whole staging memrefs, the inputs' at read contents `x0 … x6` and the outputs' at anything, runs to
    the continuation holding the inputs' as they were and each output's at its `out` of the inputs'. The printed
    function and its first part are their skeletons of loads and stores over payloads; the three loads of output buffers
    read whatever is there and their values are never used. -/
theorem sound_kernel13 (c : Dev nD) (E : Set ℕ) (i : grid13.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out13_7 x0 x1 x2 x3 x4 x5 x6) ∗ owns (c : Thread nD τ) arg9 fullShare (out13_8 x0 x1 x2 x3 x4 x5 x6) ∗ owns (c : Thread nD τ) arg10 fullShare (out13_9 x0 x1 x2 x3 x4 x5 x6)) -∗ K ⟨⟩))
      ⊢ wp frame (wpE (defs₀ (F := F)) Variants.none c none) E (cc13__bn_relu_mm2_kernel i arg1 harg1 arg2 harg2 arg3 harg3 arg4 harg4 arg5 harg5 arg6 harg6 arg7 harg7 arg8 harg8 arg9 harg9 arg10 harg10) K := by
  simp only [cc13__bn_relu_mm2_kernel_eq_skeleton]; unfold cc13__bn_relu_mm2_kernel_skel
  simp only [k13_part1_eq_skeleton]; unfold k13_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover13_7 _)
  isplitl [H8]
  · iexists _; isplitr
    swap; · iexact H8
    ipureintro
    try dsimp only
    exact View.read_writes_eq_canon _ _ _ (cover13_8 _)
  iexists _; isplitr
  swap; · iexact H9
  ipureintro
  try dsimp only
  exact View.read_writes_eq_canon _ _ _ (cover13_8 _)

/-! ## The pipeline's proof data -/

/-- The proof data of the pipeline on core `c`: the arrays as the region finds them; after the body at point `t` each
    input's buffer at its block and each output's at its `out` of the input blocks there; the invariant is the
    untouched rest (scoped buffers and the generator register); nothing owed; full shares. -/
def dat13 (c : Dev nD) : Dat τ (Elt F) Unit ℕ (Pipeline.UD sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => out13_7 (iblk13 V c 0 t) (iblk13 V c 1 t) (iblk13 V c 2 t) (iblk13 V c 3 t) (iblk13 V c 4 t) (iblk13 V c 5 t) (iblk13 V c 6 t)
    | ⟨8, _⟩ => out13_8 (iblk13 V c 0 t) (iblk13 V c 1 t) (iblk13 V c 2 t) (iblk13 V c 3 t) (iblk13 V c 4 t) (iblk13 V c 5 t) (iblk13 V c 6 t)
    | ⟨9, _⟩ => out13_9 (iblk13 V c 0 t) (iblk13 V c 1 t) (iblk13 V c 2 t) (iblk13 V c 3 t) (iblk13 V c 4 t) (iblk13 V c 5 t) (iblk13 V c 6 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = out13_7 (iblk13 V c 0 t) (iblk13 V c 1 t) (iblk13 V c 2 t) (iblk13 V c 3 t) (iblk13 V c 4 t) (iblk13 V c 5 t) (iblk13 V c 6 t) := by dsimp only [dat13]
theorem after13_8 (c : Dev nD) (t : Fin cfg13.N) : (dat13 V c).after 8 t = out13_8 (iblk13 V c 0 t) (iblk13 V c 1 t) (iblk13 V c 2 t) (iblk13 V c 3 t) (iblk13 V c 4 t) (iblk13 V c 5 t) (iblk13 V c 6 t) := by dsimp only [dat13]
theorem after13_9 (c : Dev nD) (t : Fin cfg13.N) : (dat13 V c).after 9 t = out13_9 (iblk13 V c 0 t) (iblk13 V c 1 t) (iblk13 V c 2 t) (iblk13 V c 3 t) (iblk13 V c 4 t) (iblk13 V c 5 t) (iblk13 V c 6 t) := by dsimp only [dat13]

/-- Each input's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d))
    ∗ (∃ d, owns (c : Thread nD τ) (st13_8 t) fullShare ((dat13 V c).before 8 t d))
    ∗ (∃ d, owns (c : Thread nD τ) (st13_9 t) fullShare ((dat13 V c).before 9 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t)
    ∗ owns (c : Thread nD τ) (st13_8 t) fullShare ((dat13 V c).after 8 t)
    ∗ owns (c : Thread nD τ) (st13_9 t) fullShare ((dat13 V c).after 9 t))

set_option maxHeartbeats 1000000 in
/-- The body at any point: the inputs' memrefs hold their blocks, so the body's triple applies; the invariant and the
    core's debts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7, after13_8, after13_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel13 c Set.univ (grid13.coords t) _ _ _ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.Reg14.lean ====
import proofs.«422260_j36421322670663_2_alg».proof.Proof.Gen.Kernel.Launch
import proofs.«422260_j36421322670663_2_alg».proof.Proof.Gen.Kernel.Skeleton
import proofs.«422260_j36421322670663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One launch of the normalise-rectify-pool kernel, seen from the buffers the TensorCore holds when the launch
    begins (a parameter `V`): what every window's block is at a grid point, what the kernel body does to whole
    staging buffers, and the per-point obligation the pipeline theorem asks of the body.

    The kernel reads a block of 5000 rows of 128 features, four rows of 128 numbers (mean, variance, scale, shift)
    and the 5000 graph numbers of the rows; it writes the rectified normalised block and a 256-by-128 table of
    per-graph column sums of that block. Every operand is a pipeline window read or written whole. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the rows of its array, as the launch finds the array, that the window's
    index map selects at `t`. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The whole-buffer rectangles the body reads and writes -/

/-- all of a 5000-by-128 buffer (the feature block read, and the feature block written), -/
abbrev r14_0 : Rect S5000x128 := Rect.unit (s := S5000x128) ![0, 0] S5000x128.size inb_S5000x128_S5000x128_0_0
/-- all of a 1-by-128 buffer (mean, variance, scale, shift), -/
abbrev r14_1 : Rect S1x128 := Rect.unit (s := S1x128) ![0, 0] S1x128.size inb_S1x128_S1x128_0_0
/-- all of the 5000-by-1 buffer of graph numbers, -/
abbrev r14_5 : Rect S5000x1 := Rect.unit (s := S5000x1) ![0, 0] S5000x1.size inb_S5000x1_S5000x1_0_0
/-- all of the 1-by-256-by-128 buffer of pooled sums. -/
abbrev r14_7 : Rect S1x256x128 := Rect.unit (s := S1x256x128) ![0, 0, 0] S1x256x128.size inb_S1x256x128_S1x256x128_0_0_0

/-! ## What the body leaves in each output buffer, as a function of the six input blocks

The six inputs, in window order: the feature block `xZ`, the mean row `xM`, the variance row `xV`, the scale row `xG`,
the shift row `xB`, the graph numbers `xI`. -/

/-- The feature output: one whole-buffer store of the rectified normalised block. The payload takes the variance
    row before the mean row, which is the order in which the body reads them. -/
def out14_6 (xZ : Vec F S5000x128 .f32) (xM : Vec F S1x128 .f32) (xV : Vec F S1x128 .f32) (xG : Vec F S1x128 .f32) (xB : Vec F S1x128 .f32) (xI : Vec F S5000x1 .i32) : Vec F S5000x128 .f32 :=
  View.canon [⟨r14_0, k14_pay1 (View.ld xZ r14_0) (View.ld xV r14_1) (View.ld xM r14_1) (View.ld xG r14_1) (View.ld xB r14_1)⟩]

/-- The pooled output: one whole-buffer store of the per-graph column sums of that same block. -/
def out14_7 (xZ : Vec F S5000x128 .f32) (xM : Vec F S1x128 .f32) (xV : Vec F S1x128 .f32) (xG : Vec F S1x128 .f32) (xB : Vec F S1x128 .f32) (xI : Vec F S5000x1 .i32) : Vec F S1x256x128 .f32 :=
  View.canon [⟨r14_7, k14_pay2 (View.ld xZ r14_0) (View.ld xV r14_1) (View.ld xM r14_1) (View.ld xG r14_1) (View.ld xB r14_1) (View.ld xI r14_5)⟩]

/-- A single whole-buffer store covers the buffer: the feature output, -/
theorem cover14_6 (pH : Vec F S5000x128 .f32) (y : S5000x128.Idx) :
    ∃ pc ∈ ([⟨r14_0, pH⟩] : List (View.Piece (Elt F) S5000x128 .f32)), y ∈ pc.1.set :=
  View.cover_of_tiled [⟨r14_0, pH⟩] S5000x128.size (by rfl) y

/-- and the pooled output. -/
theorem cover14_7 (pP : Vec F S1x256x128 .f32) (y : S1x256x128.Idx) :
    ∃ pc ∈ ([⟨r14_7, pP⟩] : List (View.Piece (Elt F) S1x256x128 .f32)), y ∈ pc.1.set :=
  View.cover_of_tiled [⟨r14_7, pP⟩] S1x256x128.size (by rfl) y

/-! ## An input's staging buffer holds its block at every point -/

/-- For any proof data over the launch's arrays whose body leaves an input's block in place, the body finds that
    block in the window's current staging buffer at every point. Where the pipeline fetched it there, that is what
    the fetch brought; where it did not (the four 1-by-128 rows are fetched at the first point only), the block
    index has not moved since, so the buffer still holds the same block. One statement per input window. -/
theorem before14_0_of {c : Dev nD} (dat : Dat τ (Elt F) Unit ℕ (Pipeline.UD sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (Pipeline.UD sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (Pipeline.UD sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

theorem before14_3_of {c : Dev nD} (dat : Dat τ (Elt F) Unit ℕ (Pipeline.UD sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

theorem before14_4_of {c : Dev nD} (dat : Dat τ (Elt F) Unit ℕ (Pipeline.UD sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

theorem before14_5_of {c : Dev nD} (dat : Dat τ (Elt F) Unit ℕ (Pipeline.UD sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-! ## The body's triple -/

set_option maxHeartbeats 4000000 in
/-- The kernel body run on whole staging buffers: the six inputs hold the contents `xZ … xI`, the two outputs hold
    anything. It ends with the inputs unchanged, the feature output at `out14_6` and the pooled output at `out14_7` of
    the inputs. The body is a sequence of loads and stores over named payloads, all of them in its one part, and the
    triple follows that sequence step by step; each output is loaded once before it is stored, a value nothing uses,
    so what the buffer held beforehand does not matter. -/
theorem sound_kernel14 (c : Dev nD) (E : Set ℕ) (i : grid14.Coords) (aZ : Memref sig .tc .vmem S5000x128 .f32) (haZ : aZ.IsWhole) (aM : Memref sig .tc .vmem S1x128 .f32) (haM : aM.IsWhole) (aV : Memref sig .tc .vmem S1x128 .f32) (haV : aV.IsWhole) (aG : Memref sig .tc .vmem S1x128 .f32) (haG : aG.IsWhole) (aB : Memref sig .tc .vmem S1x128 .f32) (haB : aB.IsWhole) (aI : Memref sig .tc .vmem S5000x1 .i32) (haI : aI.IsWhole) (aH : Memref sig .tc .vmem S5000x128 .f32) (haH : aH.IsWhole) (aP : Memref sig .tc .vmem S1x256x128 .f32) (haP : aP.IsWhole)
    (xZ : Vec F S5000x128 .f32) (xM : Vec F S1x128 .f32) (xV : Vec F S1x128 .f32) (xG : Vec F S1x128 .f32) (xB : Vec F S1x128 .f32) (xI : Vec F S5000x1 .i32)
    (K : PUnit → sProp 𝕄) :
    iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
        ∗ (∃ d, owns (c : Thread nD τ) aH fullShare d) ∗ (∃ d, owns (c : Thread nD τ) aP fullShare d)
        ∗ (iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
            ∗ owns (c : Thread nD τ) aH fullShare (out14_6 xZ xM xV xG xB xI) ∗ owns (c : Thread nD τ) aP fullShare (out14_7 xZ xM xV xG xB xI)) -∗ K ⟨⟩))
      ⊢ wp frame (wpE (defs₀ (F := F)) Variants.none c none) E (cc14__bn_relu_pool_kernel i aZ haZ aM haM aV haV aG haG aB haB aI haI aH haH aP haP) K := by
  simp only [cc14__bn_relu_pool_kernel_eq_skeleton]; unfold cc14__bn_relu_pool_kernel_skel
  simp only [k14_part1_eq_skeleton]; unfold k14_part1_skel
  unfold owns
  iintro ⟨⟨%fZ, %hfZ, HZ⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
  subst hfZ hfM hfV hfG hfB hfI
  sl_exec
  sl_step
  iapply Hk
  isplitl [HZ]
  · iexists fZ; isplitr; · ipureintro; rfl
    iexact HZ
  isplitl [HM]
  · iexists fM; isplitr; · ipureintro; rfl
    iexact HM
  isplitl [HV]
  · iexists fV; isplitr; · ipureintro; rfl
    iexact HV
  isplitl [HG]
  · iexists fG; isplitr; · ipureintro; rfl
    iexact HG
  isplitl [HB]
  · iexists fB; isplitr; · ipureintro; rfl
    iexact HB
  isplitl [HI]
  · iexists fI; isplitr; · ipureintro; rfl
    iexact HI
  isplitl [HH]
  · iexists _; isplitr
    swap; · iexact HH
    ipureintro
    try dsimp only
    exact View.read_writes_eq_canon _ _ _ (cover14_6 _)
  iexists _; isplitr
  swap; · iexact HP
  ipureintro
  try dsimp only
  exact View.read_writes_eq_canon _ _ _ (cover14_7 _)

/-! ## The pipeline's proof data -/

/-- The proof data of this launch on core `c`. The arrays are as the launch finds them (`V`). After the body at point
    `t` an input's buffer holds its block and an output's holds `out14_6` or `out14_7` of the six input blocks at `t`.
    The invariant is the class's own (everything the launch does not name stays as it was); nothing is owed; every
    share is full. -/
def dat14 (c : Dev nD) : Dat τ (Elt F) Unit ℕ (Pipeline.UD sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
    | ⟨7, _⟩ => out14_7 (iblk14 V c 0 t) (iblk14 V c 1 t) (iblk14 V c 2 t) (iblk14 V c 3 t) (iblk14 V c 4 t) (iblk14 V c 5 t)
  Φ _ := Pipeline.ΦA spec14 c
  q _ := fullShare
  owed _ := 0

/-- The proof data's arrays are the launch's. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) (iblk14 V c 5 t) := by dsimp only [dat14]
theorem after14_7 (c : Dev nD) (t : Fin cfg14.N) : (dat14 V c).after 7 t = out14_7 (iblk14 V c 0 t) (iblk14 V c 1 t) (iblk14 V c 2 t) (iblk14 V c 3 t) (iblk14 V c 4 t) (iblk14 V c 5 t) := by dsimp only [dat14]

/-- Each input's current staging buffer holds its block at every point, for this proof data. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-! ## The body obligation, at a generic point -/

/-- What the body is handed at point `t`: the invariant, the core's dues, and each window's current staging buffer
    at what the pipeline left in it, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d)))

/-- and what it hands back. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t))

set_option maxHeartbeats 1000000 in
/-- The body at any point: every input's buffer holds its block (`before14_0` … `before14_5`), so the body's triple applies;
    the invariant and the core's dues pass through untouched. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7]
  iintro ⟨HΦ, Ho, ⟨%dZ, HZ⟩, ⟨%dM, HM⟩, ⟨%dV, HV⟩, ⟨%dG, HG⟩, ⟨%dB, HB⟩, ⟨%dI, HI⟩, ⟨%dH, HH⟩, ⟨%dP, HP⟩⟩
  iapply (sound_kernel14 c Set.univ (grid14.coords t) _ _ _ _ _ _ _ _ _ _ _ _ _ _ _ _ (iblk14 V c 0 t) (iblk14 V c 1 t) (iblk14 V c 2 t) (iblk14 V c 3 t) (iblk14 V c 4 t) (iblk14 V c 5 t) _)
  isplitl [HZ]; · iexact HZ
  isplitl [HM]; · iexact HM
  isplitl [HV]; · iexact HV
  isplitl [HG]; · iexact HG
  isplitl [HB]; · iexact HB
  isplitl [HI]; · iexact HI
  isplitl [HH]; · iexists _; iexact HH
  isplitl [HP]; · iexists _; iexact HP
  iintro ⟨HZ, HM, HV, HG, HB, HI, HH, HP⟩
  isplitl [HΦ]; · iexact HΦ
  isplitl [Ho]; · iexact Ho
  isplitl [HZ]; · iexact HZ
  isplitl [HM]; · iexact HM
  isplitl [HV]; · iexact HV
  isplitl [HG]; · iexact HG
  isplitl [HB]; · iexact HB
  isplitl [HI]; · iexact HI
  isplitl [HH]; · iexact HH
  iexact HP

/-- The pipeline theorem's obligation on the body, at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.K.Chain.lean ====
import proofs.«422260_j36421322670663_2_alg».proof.Proof.K.RegionsP
import proofs.«422260_j36421322670663_2_alg».proof.Proof.K.Reg0
import proofs.«422260_j36421322670663_2_alg».proof.Proof.K.Reg1
import proofs.«422260_j36421322670663_2_alg».proof.Proof.K.Reg2
import proofs.«422260_j36421322670663_2_alg».proof.Proof.K.Reg3
import proofs.«422260_j36421322670663_2_alg».proof.Proof.K.Reg4
import proofs.«422260_j36421322670663_2_alg».proof.Proof.K.Reg5
import proofs.«422260_j36421322670663_2_alg».proof.Proof.K.Reg6
import proofs.«422260_j36421322670663_2_alg».proof.Proof.K.Reg7
import proofs.«422260_j36421322670663_2_alg».proof.Proof.K.Reg8
import proofs.«422260_j36421322670663_2_alg».proof.Proof.K.Reg9
import proofs.«422260_j36421322670663_2_alg».proof.Proof.K.Reg10
import proofs.«422260_j36421322670663_2_alg».proof.Proof.K.Reg11
import proofs.«422260_j36421322670663_2_alg».proof.Proof.K.Reg12
import proofs.«422260_j36421322670663_2_alg».proof.Proof.K.Reg13
import proofs.«422260_j36421322670663_2_alg».proof.Proof.K.Reg14
import Idealize.ShloMosaic.Lib.Pipeline.FrameSuffix
import Idealize.ShloMosaic.Lib.Pipeline.RegionsLoop

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # What every unscoped buffer holds between @main's items

The conditional frame is written over unknown contents `outs J r c` that a kernel region leaves in its output arrays.
Here those unknowns are pinned, region by region, in program order: region K is entered at the valuation made from
the launch memory and the contents pinned for the regions before it; it leaves each of its arrays at what the
pipeline's write-backs have folded into it after the last grid point, and every other buffer as entered. Nothing is
circular: the entry valuation of region K reads `outs` only at items before K. -/

/-- A valuation updated at three references, read at the first of them. -/
theorem upd3_fst {V : Valuation τ sig (Elt F)} {a b d : DevRef τ sig} {x : a.ty.Contents (Elt F)} {y : b.ty.Contents (Elt F)}
    {z : d.ty.Contents (Elt F)} (hab : a ≠ b) (had : a ≠ d) :
    Function.update (Function.update (Function.update V a x) b y) d z a = x := by
  rw [Function.update_of_ne had, Function.update_of_ne hab, Function.update_self]
/-- A valuation updated at two or more references, read at the one before the last. -/
theorem upd2_fst {V : Valuation τ sig (Elt F)} {a b : DevRef τ sig} {x : a.ty.Contents (Elt F)} {y : b.ty.Contents (Elt F)}
    (hab : a ≠ b) : Function.update (Function.update V a x) b y a = x := by
  rw [Function.update_of_ne hab, Function.update_self]

/-! ## The valuations read the unknowns only at earlier items

Two families of unknowns that agree at every item up to a region's exit give the same valuation there, and the same
valuation after the host stretch that follows: one step per item of @main. -/

section Congr
variable {o o' : GenP.Outs (F := F)} (c : Dev nD)

theorem V2_congr (h : ∀ J, J ≤ 2 → ∀ r, o J r c = o' J r c) : GenP.V2 m o c = GenP.V2 m o' c := by
  unfold GenP.V2
  rw [h 2 le_rfl main_v36_0, h 2 le_rfl main_v36_1, h 2 le_rfl main_v36_2]
theorem V3_congr (h : ∀ J, J ≤ 2 → ∀ r, o J r c = o' J r c) : GenP.V3 m o c = GenP.V3 m o' c :=
  congrArg (StableHlo.after hostOps1) (V2_congr m c h)

theorem V4_congr (h : ∀ J, J ≤ 4 → ∀ r, o J r c = o' J r c) : GenP.V4 m o c = GenP.V4 m o' c := by
  unfold GenP.V4
  rw [V3_congr m c (fun J hJ => h J (hJ.trans (by decide))), h 4 le_rfl main_v48_0, h 4 le_rfl main_v48_1, h 4 le_rfl main_v48_2]
theorem V5_congr (h : ∀ J, J ≤ 4 → ∀ r, o J r c = o' J r c) : GenP.V5 m o c = GenP.V5 m o' c :=
  congrArg (StableHlo.after hostOps2) (V4_congr m c h)

theorem V6_congr (h : ∀ J, J ≤ 6 → ∀ r, o J r c = o' J r c) : GenP.V6 m o c = GenP.V6 m o' c := by
  unfold GenP.V6
  rw [V5_congr m c (fun J hJ => h J (hJ.trans (by decide))), h 6 le_rfl main_v59_0, h 6 le_rfl main_v59_1]
theorem V7_congr (h : ∀ J, J ≤ 6 → ∀ r, o J r c = o' J r c) : GenP.V7 m o c = GenP.V7 m o' c :=
  congrArg (StableHlo.after hostOps3) (V6_congr m c h)

theorem V8_congr (h : ∀ J, J ≤ 8 → ∀ r, o J r c = o' J r c) : GenP.V8 m o c = GenP.V8 m o' c := by
  unfold GenP.V8
  rw [V7_congr m c (fun J hJ => h J (hJ.trans (by decide))), h 8 le_rfl main_v92_0, h 8 le_rfl main_v92_1, h 8 le_rfl main_v92_2]
theorem V9_congr (h : ∀ J, J ≤ 8 → ∀ r, o J r c = o' J r c) : GenP.V9 m o c = GenP.V9 m o' c :=
  congrArg (StableHlo.after hostOps4) (V8_congr m c h)

theorem V10_congr (h : ∀ J, J ≤ 10 → ∀ r, o J r c = o' J r c) : GenP.V10 m o c = GenP.V10 m o' c := by
  unfold GenP.V10
  rw [V9_congr m c (fun J hJ => h J (hJ.trans (by decide))), h 10 le_rfl main_v104_0, h 10 le_rfl main_v104_1, h 10 le_rfl main_v104_2]
theorem V11_congr (h : ∀ J, J ≤ 10 → ∀ r, o J r c = o' J r c) : GenP.V11 m o c = GenP.V11 m o' c :=
  congrArg (StableHlo.after hostOps5) (V10_congr m c h)

theorem V12_congr (h : ∀ J, J ≤ 12 → ∀ r, o J r c = o' J r c) : GenP.V12 m o c = GenP.V12 m o' c := by
  unfold GenP.V12
  rw [V11_congr m c (fun J hJ => h J (hJ.trans (by decide))), h 12 le_rfl main_v115_0, h 12 le_rfl main_v115_1]
theorem V13_congr (h : ∀ J, J ≤ 12 → ∀ r, o J r c = o' J r c) : GenP.V13 m o c = GenP.V13 m o' c :=
  congrArg (StableHlo.after hostOps6) (V12_congr m c h)

theorem V14_congr (h : ∀ J, J ≤ 14 → ∀ r, o J r c = o' J r c) : GenP.V14 m o c = GenP.V14 m o' c := by
  unfold GenP.V14
  rw [V13_congr m c (fun J hJ => h J (hJ.trans (by decide))), h 14 le_rfl main_v148_0, h 14 le_rfl main_v148_1, h 14 le_rfl main_v148_2]
theorem V15_congr (h : ∀ J, J ≤ 14 → ∀ r, o J r c = o' J r c) : GenP.V15 m o c = GenP.V15 m o' c :=
  congrArg (StableHlo.after hostOps7) (V14_congr m c h)

theorem V16_congr (h : ∀ J, J ≤ 16 → ∀ r, o J r c = o' J r c) : GenP.V16 m o c = GenP.V16 m o' c := by
  unfold GenP.V16
  rw [V15_congr m c (fun J hJ => h J (hJ.trans (by decide))), h 16 le_rfl main_v160_0, h 16 le_rfl main_v160_1, h 16 le_rfl main_v160_2]
theorem V17_congr (h : ∀ J, J ≤ 16 → ∀ r, o J r c = o' J r c) : GenP.V17 m o c = GenP.V17 m o' c :=
  congrArg (StableHlo.after hostOps8) (V16_congr m c h)

theorem V18_congr (h : ∀ J, J ≤ 18 → ∀ r, o J r c = o' J r c) : GenP.V18 m o c = GenP.V18 m o' c := by
  unfold GenP.V18
  rw [V17_congr m c (fun J hJ => h J (hJ.trans (by decide))), h 18 le_rfl main_v171_0, h 18 le_rfl main_v171_1]
theorem V19_congr (h : ∀ J, J ≤ 18 → ∀ r, o J r c = o' J r c) : GenP.V19 m o c = GenP.V19 m o' c :=
  congrArg (StableHlo.after hostOps9) (V18_congr m c h)

theorem V20_congr (h : ∀ J, J ≤ 20 → ∀ r, o J r c = o' J r c) : GenP.V20 m o c = GenP.V20 m o' c := by
  unfold GenP.V20
  rw [V19_congr m c (fun J hJ => h J (hJ.trans (by decide))), h 20 le_rfl main_v204_0, h 20 le_rfl main_v204_1, h 20 le_rfl main_v204_2]
theorem V21_congr (h : ∀ J, J ≤ 20 → ∀ r, o J r c = o' J r c) : GenP.V21 m o c = GenP.V21 m o' c :=
  congrArg (StableHlo.after hostOps10) (V20_congr m c h)

theorem V22_congr (h : ∀ J, J ≤ 22 → ∀ r, o J r c = o' J r c) : GenP.V22 m o c = GenP.V22 m o' c := by
  unfold GenP.V22
  rw [V21_congr m c (fun J hJ => h J (hJ.trans (by decide))), h 22 le_rfl main_v216_0, h 22 le_rfl main_v216_1, h 22 le_rfl main_v216_2]
theorem V23_congr (h : ∀ J, J ≤ 22 → ∀ r, o J r c = o' J r c) : GenP.V23 m o c = GenP.V23 m o' c :=
  congrArg (StableHlo.after hostOps11) (V22_congr m c h)

theorem V24_congr (h : ∀ J, J ≤ 24 → ∀ r, o J r c = o' J r c) : GenP.V24 m o c = GenP.V24 m o' c := by
  unfold GenP.V24
  rw [V23_congr m c (fun J hJ => h J (hJ.trans (by decide))), h 24 le_rfl main_v227_0, h 24 le_rfl main_v227_1]
theorem V25_congr (h : ∀ J, J ≤ 24 → ∀ r, o J r c = o' J r c) : GenP.V25 m o c = GenP.V25 m o' c :=
  congrArg (StableHlo.after hostOps12) (V24_congr m c h)

theorem V26_congr (h : ∀ J, J ≤ 26 → ∀ r, o J r c = o' J r c) : GenP.V26 m o c = GenP.V26 m o' c := by
  unfold GenP.V26
  rw [V25_congr m c (fun J hJ => h J (hJ.trans (by decide))), h 26 le_rfl main_v260_0, h 26 le_rfl main_v260_1, h 26 le_rfl main_v260_2]
theorem V27_congr (h : ∀ J, J ≤ 26 → ∀ r, o J r c = o' J r c) : GenP.V27 m o c = GenP.V27 m o' c :=
  congrArg (StableHlo.after hostOps13) (V26_congr m c h)

theorem V28_congr (h : ∀ J, J ≤ 28 → ∀ r, o J r c = o' J r c) : GenP.V28 m o c = GenP.V28 m o' c := by
  unfold GenP.V28
  rw [V27_congr m c (fun J hJ => h J (hJ.trans (by decide))), h 28 le_rfl main_v272_0, h 28 le_rfl main_v272_1, h 28 le_rfl main_v272_2]
theorem V29_congr (h : ∀ J, J ≤ 28 → ∀ r, o J r c = o' J r c) : GenP.V29 m o c = GenP.V29 m o' c :=
  congrArg (StableHlo.after hostOps14) (V28_congr m c h)

theorem V30_congr (h : ∀ J, J ≤ 30 → ∀ r, o J r c = o' J r c) : GenP.V30 m o c = GenP.V30 m o' c := by
  unfold GenP.V30
  rw [V29_congr m c (fun J hJ => h J (hJ.trans (by decide))), h 30 le_rfl main_v283_0, h 30 le_rfl main_v283_1]
theorem V31_congr (h : ∀ J, J ≤ 30 → ∀ r, o J r c = o' J r c) : GenP.V31 m o c = GenP.V31 m o' c :=
  congrArg (StableHlo.after hostOps15) (V30_congr m c h)

end Congr

/-! ## Region 0 (item 1) -/

/-- Region 0's entry contents, over the contents pinned for the regions before it. -/
abbrev En0 (c : Dev nD) : Valuation τ sig (Elt F) := GenP.V1 m c
/-- Region 0's exit contents: each of its arrays at what the write-backs of all grid points leave there (an input
    array as entered), every other buffer as entered. -/
def Ex0 (c : Dev nD) : Valuation τ sig (Elt F) :=
  Pipeline.withArrays spec0 c (En0 m c) fun w => (dat0 (fun c b => En0 m c b) c).arrAt w cfg0.N
/-- The contents pinned up to region 0: at items up to 0 those pinned before, from item 2 on region 0's exit contents. -/
def pin0 : GenP.Outs (F := F) := fun J r c =>
  (Ex0 m c r : Buf (Elt F) ((c : Thread nD τ).loc r))

/-! ## Region 1 (item 3) -/

/-- Region 1's entry contents, over the contents pinned for the regions before it. -/
abbrev En1 (c : Dev nD) : Valuation τ sig (Elt F) := GenP.V3 m (pin0 m) c
/-- Region 1's exit contents: each of its arrays at what the write-backs of all grid points leave there (an input
    array as entered), every other buffer as entered. -/
def Ex1 (c : Dev nD) : Valuation τ sig (Elt F) :=
  Pipeline.withArrays spec1 c (En1 m c) fun w => (dat1 (fun c b => En1 m c b) c).arrAt w cfg1.N
/-- The contents pinned up to region 1: at items up to 2 those pinned before, from item 4 on region 1's exit contents. -/
def pin1 : GenP.Outs (F := F) := fun J r c =>
  if J ≤ 2 then pin0 m J r c else (Ex1 m c r : Buf (Elt F) ((c : Thread nD τ).loc r))
theorem pin1_le (J : ℕ) (hJ : J ≤ 2) (r : Ref sig .tc) (c : Dev nD) : pin1 m J r c = pin0 m J r c := if_pos hJ
theorem pin1_gt (J : ℕ) (hJ : ¬ J ≤ 2) (r : Ref sig .tc) (c : Dev nD) :
    pin1 m J r c = (Ex1 m c r : Buf (Elt F) ((c : Thread nD τ).loc r)) := if_neg hJ

/-! ## Region 2 (item 5) -/

/-- Region 2's entry contents, over the contents pinned for the regions before it. -/
abbrev En2 (c : Dev nD) : Valuation τ sig (Elt F) := GenP.V5 m (pin1 m) c
/-- Region 2's exit contents: each of its arrays at what the write-backs of all grid points leave there (an input
    array as entered), every other buffer as entered. -/
def Ex2 (c : Dev nD) : Valuation τ sig (Elt F) :=
  Pipeline.withArrays spec2 c (En2 m c) fun w => (dat2 (fun c b => En2 m c b) c).arrAt w cfg2.N
/-- The contents pinned up to region 2: at items up to 4 those pinned before, from item 6 on region 2's exit contents. -/
def pin2 : GenP.Outs (F := F) := fun J r c =>
  if J ≤ 4 then pin1 m J r c else (Ex2 m c r : Buf (Elt F) ((c : Thread nD τ).loc r))
theorem pin2_le (J : ℕ) (hJ : J ≤ 4) (r : Ref sig .tc) (c : Dev nD) : pin2 m J r c = pin1 m J r c := if_pos hJ
theorem pin2_gt (J : ℕ) (hJ : ¬ J ≤ 4) (r : Ref sig .tc) (c : Dev nD) :
    pin2 m J r c = (Ex2 m c r : Buf (Elt F) ((c : Thread nD τ).loc r)) := if_neg hJ

/-! ## Region 3 (item 7) -/

/-- Region 3's entry contents, over the contents pinned for the regions before it. -/
abbrev En3 (c : Dev nD) : Valuation τ sig (Elt F) := GenP.V7 m (pin2 m) c
/-- Region 3's exit contents: each of its arrays at what the write-backs of all grid points leave there (an input
    array as entered), every other buffer as entered. -/
def Ex3 (c : Dev nD) : Valuation τ sig (Elt F) :=
  Pipeline.withArrays spec3 c (En3 m c) fun w => (dat3 (fun c b => En3 m c b) c).arrAt w cfg3.N
/-- The contents pinned up to region 3: at items up to 6 those pinned before, from item 8 on region 3's exit contents. -/
def pin3 : GenP.Outs (F := F) := fun J r c =>
  if J ≤ 6 then pin2 m J r c else (Ex3 m c r : Buf (Elt F) ((c : Thread nD τ).loc r))
theorem pin3_le (J : ℕ) (hJ : J ≤ 6) (r : Ref sig .tc) (c : Dev nD) : pin3 m J r c = pin2 m J r c := if_pos hJ
theorem pin3_gt (J : ℕ) (hJ : ¬ J ≤ 6) (r : Ref sig .tc) (c : Dev nD) :
    pin3 m J r c = (Ex3 m c r : Buf (Elt F) ((c : Thread nD τ).loc r)) := if_neg hJ

/-! ## Region 4 (item 9) -/

/-- Region 4's entry contents, over the contents pinned for the regions before it. -/
abbrev En4 (c : Dev nD) : Valuation τ sig (Elt F) := GenP.V9 m (pin3 m) c
/-- Region 4's exit contents: each of its arrays at what the write-backs of all grid points leave there (an input
    array as entered), every other buffer as entered. -/
def Ex4 (c : Dev nD) : Valuation τ sig (Elt F) :=
  Pipeline.withArrays spec4 c (En4 m c) fun w => (dat4 (fun c b => En4 m c b) c).arrAt w cfg4.N
/-- The contents pinned up to region 4: at items up to 8 those pinned before, from item 10 on region 4's exit contents. -/
def pin4 : GenP.Outs (F := F) := fun J r c =>
  if J ≤ 8 then pin3 m J r c else (Ex4 m c r : Buf (Elt F) ((c : Thread nD τ).loc r))
theorem pin4_le (J : ℕ) (hJ : J ≤ 8) (r : Ref sig .tc) (c : Dev nD) : pin4 m J r c = pin3 m J r c := if_pos hJ
theorem pin4_gt (J : ℕ) (hJ : ¬ J ≤ 8) (r : Ref sig .tc) (c : Dev nD) :
    pin4 m J r c = (Ex4 m c r : Buf (Elt F) ((c : Thread nD τ).loc r)) := if_neg hJ

/-! ## Region 5 (item 11) -/

/-- Region 5's entry contents, over the contents pinned for the regions before it. -/
abbrev En5 (c : Dev nD) : Valuation τ sig (Elt F) := GenP.V11 m (pin4 m) c
/-- Region 5's exit contents: each of its arrays at what the write-backs of all grid points leave there (an input
    array as entered), every other buffer as entered. -/
def Ex5 (c : Dev nD) : Valuation τ sig (Elt F) :=
  Pipeline.withArrays spec5 c (En5 m c) fun w => (dat5 (fun c b => En5 m c b) c).arrAt w cfg5.N
/-- The contents pinned up to region 5: at items up to 10 those pinned before, from item 12 on region 5's exit contents. -/
def pin5 : GenP.Outs (F := F) := fun J r c =>
  if J ≤ 10 then pin4 m J r c else (Ex5 m c r : Buf (Elt F) ((c : Thread nD τ).loc r))
theorem pin5_le (J : ℕ) (hJ : J ≤ 10) (r : Ref sig .tc) (c : Dev nD) : pin5 m J r c = pin4 m J r c := if_pos hJ
theorem pin5_gt (J : ℕ) (hJ : ¬ J ≤ 10) (r : Ref sig .tc) (c : Dev nD) :
    pin5 m J r c = (Ex5 m c r : Buf (Elt F) ((c : Thread nD τ).loc r)) := if_neg hJ

/-! ## Region 6 (item 13) -/

/-- Region 6's entry contents, over the contents pinned for the regions before it. -/
abbrev En6 (c : Dev nD) : Valuation τ sig (Elt F) := GenP.V13 m (pin5 m) c
/-- Region 6's exit contents: each of its arrays at what the write-backs of all grid points leave there (an input
    array as entered), every other buffer as entered. -/
def Ex6 (c : Dev nD) : Valuation τ sig (Elt F) :=
  Pipeline.withArrays spec6 c (En6 m c) fun w => (dat6 (fun c b => En6 m c b) c).arrAt w cfg6.N
/-- The contents pinned up to region 6: at items up to 12 those pinned before, from item 14 on region 6's exit contents. -/
def pin6 : GenP.Outs (F := F) := fun J r c =>
  if J ≤ 12 then pin5 m J r c else (Ex6 m c r : Buf (Elt F) ((c : Thread nD τ).loc r))
theorem pin6_le (J : ℕ) (hJ : J ≤ 12) (r : Ref sig .tc) (c : Dev nD) : pin6 m J r c = pin5 m J r c := if_pos hJ
theorem pin6_gt (J : ℕ) (hJ : ¬ J ≤ 12) (r : Ref sig .tc) (c : Dev nD) :
    pin6 m J r c = (Ex6 m c r : Buf (Elt F) ((c : Thread nD τ).loc r)) := if_neg hJ

/-! ## Region 7 (item 15) -/

/-- Region 7's entry contents, over the contents pinned for the regions before it. -/
abbrev En7 (c : Dev nD) : Valuation τ sig (Elt F) := GenP.V15 m (pin6 m) c
/-- Region 7's exit contents: each of its arrays at what the write-backs of all grid points leave there (an input
    array as entered), every other buffer as entered. -/
def Ex7 (c : Dev nD) : Valuation τ sig (Elt F) :=
  Pipeline.withArrays spec7 c (En7 m c) fun w => (dat7 (fun c b => En7 m c b) c).arrAt w cfg7.N
/-- The contents pinned up to region 7: at items up to 14 those pinned before, from item 16 on region 7's exit contents. -/
def pin7 : GenP.Outs (F := F) := fun J r c =>
  if J ≤ 14 then pin6 m J r c else (Ex7 m c r : Buf (Elt F) ((c : Thread nD τ).loc r))
theorem pin7_le (J : ℕ) (hJ : J ≤ 14) (r : Ref sig .tc) (c : Dev nD) : pin7 m J r c = pin6 m J r c := if_pos hJ
theorem pin7_gt (J : ℕ) (hJ : ¬ J ≤ 14) (r : Ref sig .tc) (c : Dev nD) :
    pin7 m J r c = (Ex7 m c r : Buf (Elt F) ((c : Thread nD τ).loc r)) := if_neg hJ

/-! ## Region 8 (item 17) -/

/-- Region 8's entry contents, over the contents pinned for the regions before it. -/
abbrev En8 (c : Dev nD) : Valuation τ sig (Elt F) := GenP.V17 m (pin7 m) c
/-- Region 8's exit contents: each of its arrays at what the write-backs of all grid points leave there (an input
    array as entered), every other buffer as entered. -/
def Ex8 (c : Dev nD) : Valuation τ sig (Elt F) :=
  Pipeline.withArrays spec8 c (En8 m c) fun w => (dat8 (fun c b => En8 m c b) c).arrAt w cfg8.N
/-- The contents pinned up to region 8: at items up to 16 those pinned before, from item 18 on region 8's exit contents. -/
def pin8 : GenP.Outs (F := F) := fun J r c =>
  if J ≤ 16 then pin7 m J r c else (Ex8 m c r : Buf (Elt F) ((c : Thread nD τ).loc r))
theorem pin8_le (J : ℕ) (hJ : J ≤ 16) (r : Ref sig .tc) (c : Dev nD) : pin8 m J r c = pin7 m J r c := if_pos hJ
theorem pin8_gt (J : ℕ) (hJ : ¬ J ≤ 16) (r : Ref sig .tc) (c : Dev nD) :
    pin8 m J r c = (Ex8 m c r : Buf (Elt F) ((c : Thread nD τ).loc r)) := if_neg hJ

/-! ## Region 9 (item 19) -/

/-- Region 9's entry contents, over the contents pinned for the regions before it. -/
abbrev En9 (c : Dev nD) : Valuation τ sig (Elt F) := GenP.V19 m (pin8 m) c
/-- Region 9's exit contents: each of its arrays at what the write-backs of all grid points leave there (an input
    array as entered), every other buffer as entered. -/
def Ex9 (c : Dev nD) : Valuation τ sig (Elt F) :=
  Pipeline.withArrays spec9 c (En9 m c) fun w => (dat9 (fun c b => En9 m c b) c).arrAt w cfg9.N
/-- The contents pinned up to region 9: at items up to 18 those pinned before, from item 20 on region 9's exit contents. -/
def pin9 : GenP.Outs (F := F) := fun J r c =>
  if J ≤ 18 then pin8 m J r c else (Ex9 m c r : Buf (Elt F) ((c : Thread nD τ).loc r))
theorem pin9_le (J : ℕ) (hJ : J ≤ 18) (r : Ref sig .tc) (c : Dev nD) : pin9 m J r c = pin8 m J r c := if_pos hJ
theorem pin9_gt (J : ℕ) (hJ : ¬ J ≤ 18) (r : Ref sig .tc) (c : Dev nD) :
    pin9 m J r c = (Ex9 m c r : Buf (Elt F) ((c : Thread nD τ).loc r)) := if_neg hJ

/-! ## Region 10 (item 21) -/

/-- Region 10's entry contents, over the contents pinned for the regions before it. -/
abbrev En10 (c : Dev nD) : Valuation τ sig (Elt F) := GenP.V21 m (pin9 m) c
/-- Region 10's exit contents: each of its arrays at what the write-backs of all grid points leave there (an input
    array as entered), every other buffer as entered. -/
def Ex10 (c : Dev nD) : Valuation τ sig (Elt F) :=
  Pipeline.withArrays spec10 c (En10 m c) fun w => (dat10 (fun c b => En10 m c b) c).arrAt w cfg10.N
/-- The contents pinned up to region 10: at items up to 20 those pinned before, from item 22 on region 10's exit contents. -/
def pin10 : GenP.Outs (F := F) := fun J r c =>
  if J ≤ 20 then pin9 m J r c else (Ex10 m c r : Buf (Elt F) ((c : Thread nD τ).loc r))
theorem pin10_le (J : ℕ) (hJ : J ≤ 20) (r : Ref sig .tc) (c : Dev nD) : pin10 m J r c = pin9 m J r c := if_pos hJ
theorem pin10_gt (J : ℕ) (hJ : ¬ J ≤ 20) (r : Ref sig .tc) (c : Dev nD) :
    pin10 m J r c = (Ex10 m c r : Buf (Elt F) ((c : Thread nD τ).loc r)) := if_neg hJ

/-! ## Region 11 (item 23) -/

/-- Region 11's entry contents, over the contents pinned for the regions before it. -/
abbrev En11 (c : Dev nD) : Valuation τ sig (Elt F) := GenP.V23 m (pin10 m) c
/-- Region 11's exit contents: each of its arrays at what the write-backs of all grid points leave there (an input
    array as entered), every other buffer as entered. -/
def Ex11 (c : Dev nD) : Valuation τ sig (Elt F) :=
  Pipeline.withArrays spec11 c (En11 m c) fun w => (dat11 (fun c b => En11 m c b) c).arrAt w cfg11.N
/-- The contents pinned up to region 11: at items up to 22 those pinned before, from item 24 on region 11's exit contents. -/
def pin11 : GenP.Outs (F := F) := fun J r c =>
  if J ≤ 22 then pin10 m J r c else (Ex11 m c r : Buf (Elt F) ((c : Thread nD τ).loc r))
theorem pin11_le (J : ℕ) (hJ : J ≤ 22) (r : Ref sig .tc) (c : Dev nD) : pin11 m J r c = pin10 m J r c := if_pos hJ
theorem pin11_gt (J : ℕ) (hJ : ¬ J ≤ 22) (r : Ref sig .tc) (c : Dev nD) :
    pin11 m J r c = (Ex11 m c r : Buf (Elt F) ((c : Thread nD τ).loc r)) := if_neg hJ

/-! ## Region 12 (item 25) -/

/-- Region 12's entry contents, over the contents pinned for the regions before it. -/
abbrev En12 (c : Dev nD) : Valuation τ sig (Elt F) := GenP.V25 m (pin11 m) c
/-- Region 12's exit contents: each of its arrays at what the write-backs of all grid points leave there (an input
    array as entered), every other buffer as entered. -/
def Ex12 (c : Dev nD) : Valuation τ sig (Elt F) :=
  Pipeline.withArrays spec12 c (En12 m c) fun w => (dat12 (fun c b => En12 m c b) c).arrAt w cfg12.N
/-- The contents pinned up to region 12: at items up to 24 those pinned before, from item 26 on region 12's exit contents. -/
def pin12 : GenP.Outs (F := F) := fun J r c =>
  if J ≤ 24 then pin11 m J r c else (Ex12 m c r : Buf (Elt F) ((c : Thread nD τ).loc r))
theorem pin12_le (J : ℕ) (hJ : J ≤ 24) (r : Ref sig .tc) (c : Dev nD) : pin12 m J r c = pin11 m J r c := if_pos hJ
theorem pin12_gt (J : ℕ) (hJ : ¬ J ≤ 24) (r : Ref sig .tc) (c : Dev nD) :
    pin12 m J r c = (Ex12 m c r : Buf (Elt F) ((c : Thread nD τ).loc r)) := if_neg hJ

/-! ## Region 13 (item 27) -/

/-- Region 13's entry contents, over the contents pinned for the regions before it. -/
abbrev En13 (c : Dev nD) : Valuation τ sig (Elt F) := GenP.V27 m (pin12 m) c
/-- Region 13's exit contents: each of its arrays at what the write-backs of all grid points leave there (an input
    array as entered), every other buffer as entered. -/
def Ex13 (c : Dev nD) : Valuation τ sig (Elt F) :=
  Pipeline.withArrays spec13 c (En13 m c) fun w => (dat13 (fun c b => En13 m c b) c).arrAt w cfg13.N
/-- The contents pinned up to region 13: at items up to 26 those pinned before, from item 28 on region 13's exit contents. -/
def pin13 : GenP.Outs (F := F) := fun J r c =>
  if J ≤ 26 then pin12 m J r c else (Ex13 m c r : Buf (Elt F) ((c : Thread nD τ).loc r))
theorem pin13_le (J : ℕ) (hJ : J ≤ 26) (r : Ref sig .tc) (c : Dev nD) : pin13 m J r c = pin12 m J r c := if_pos hJ
theorem pin13_gt (J : ℕ) (hJ : ¬ J ≤ 26) (r : Ref sig .tc) (c : Dev nD) :
    pin13 m J r c = (Ex13 m c r : Buf (Elt F) ((c : Thread nD τ).loc r)) := if_neg hJ

/-! ## Region 14 (item 29) -/

/-- Region 14's entry contents, over the contents pinned for the regions before it. -/
abbrev En14 (c : Dev nD) : Valuation τ sig (Elt F) := GenP.V29 m (pin13 m) c
/-- Region 14's exit contents: each of its arrays at what the write-backs of all grid points leave there (an input
    array as entered), every other buffer as entered. -/
def Ex14 (c : Dev nD) : Valuation τ sig (Elt F) :=
  Pipeline.withArrays spec14 c (En14 m c) fun w => (dat14 (fun c b => En14 m c b) c).arrAt w cfg14.N
/-- The contents pinned up to region 14: at items up to 28 those pinned before, from item 30 on region 14's exit contents. -/
def pin14 : GenP.Outs (F := F) := fun J r c =>
  if J ≤ 28 then pin13 m J r c else (Ex14 m c r : Buf (Elt F) ((c : Thread nD τ).loc r))
theorem pin14_le (J : ℕ) (hJ : J ≤ 28) (r : Ref sig .tc) (c : Dev nD) : pin14 m J r c = pin13 m J r c := if_pos hJ
theorem pin14_gt (J : ℕ) (hJ : ¬ J ≤ 28) (r : Ref sig .tc) (c : Dev nD) :
    pin14 m J r c = (Ex14 m c r : Buf (Elt F) ((c : Thread nD τ).loc r)) := if_neg hJ

/-! ## The pinned contents, and the valuations at each region's entry and exit -/

/-- What every region leaves in its output arrays. -/
def outs : GenP.Outs (F := F) := pin14 m

/-! At items up to a region's entry the pinned contents are those pinned before it; at its exit, its exit contents. -/
theorem outs_le14 (J : ℕ) (hJ : J ≤ 28) (r : Ref sig .tc) (c : Dev nD) : outs m J r c = pin13 m J r c :=
  pin14_le m J hJ r c
theorem outs_le13 (J : ℕ) (hJ : J ≤ 26) (r : Ref sig .tc) (c : Dev nD) : outs m J r c = pin12 m J r c :=
  (outs_le14 m J (hJ.trans (by decide)) r c).trans (pin13_le m J hJ r c)
theorem outs_le12 (J : ℕ) (hJ : J ≤ 24) (r : Ref sig .tc) (c : Dev nD) : outs m J r c = pin11 m J r c :=
  (outs_le13 m J (hJ.trans (by decide)) r c).trans (pin12_le m J hJ r c)
theorem outs_le11 (J : ℕ) (hJ : J ≤ 22) (r : Ref sig .tc) (c : Dev nD) : outs m J r c = pin10 m J r c :=
  (outs_le12 m J (hJ.trans (by decide)) r c).trans (pin11_le m J hJ r c)
theorem outs_le10 (J : ℕ) (hJ : J ≤ 20) (r : Ref sig .tc) (c : Dev nD) : outs m J r c = pin9 m J r c :=
  (outs_le11 m J (hJ.trans (by decide)) r c).trans (pin10_le m J hJ r c)
theorem outs_le9 (J : ℕ) (hJ : J ≤ 18) (r : Ref sig .tc) (c : Dev nD) : outs m J r c = pin8 m J r c :=
  (outs_le10 m J (hJ.trans (by decide)) r c).trans (pin9_le m J hJ r c)
theorem outs_le8 (J : ℕ) (hJ : J ≤ 16) (r : Ref sig .tc) (c : Dev nD) : outs m J r c = pin7 m J r c :=
  (outs_le9 m J (hJ.trans (by decide)) r c).trans (pin8_le m J hJ r c)
theorem outs_le7 (J : ℕ) (hJ : J ≤ 14) (r : Ref sig .tc) (c : Dev nD) : outs m J r c = pin6 m J r c :=
  (outs_le8 m J (hJ.trans (by decide)) r c).trans (pin7_le m J hJ r c)
theorem outs_le6 (J : ℕ) (hJ : J ≤ 12) (r : Ref sig .tc) (c : Dev nD) : outs m J r c = pin5 m J r c :=
  (outs_le7 m J (hJ.trans (by decide)) r c).trans (pin6_le m J hJ r c)
theorem outs_le5 (J : ℕ) (hJ : J ≤ 10) (r : Ref sig .tc) (c : Dev nD) : outs m J r c = pin4 m J r c :=
  (outs_le6 m J (hJ.trans (by decide)) r c).trans (pin5_le m J hJ r c)
theorem outs_le4 (J : ℕ) (hJ : J ≤ 8) (r : Ref sig .tc) (c : Dev nD) : outs m J r c = pin3 m J r c :=
  (outs_le5 m J (hJ.trans (by decide)) r c).trans (pin4_le m J hJ r c)
theorem outs_le3 (J : ℕ) (hJ : J ≤ 6) (r : Ref sig .tc) (c : Dev nD) : outs m J r c = pin2 m J r c :=
  (outs_le4 m J (hJ.trans (by decide)) r c).trans (pin3_le m J hJ r c)
theorem outs_le2 (J : ℕ) (hJ : J ≤ 4) (r : Ref sig .tc) (c : Dev nD) : outs m J r c = pin1 m J r c :=
  (outs_le3 m J (hJ.trans (by decide)) r c).trans (pin2_le m J hJ r c)
theorem outs_le1 (J : ℕ) (hJ : J ≤ 2) (r : Ref sig .tc) (c : Dev nD) : outs m J r c = pin0 m J r c :=
  (outs_le2 m J (hJ.trans (by decide)) r c).trans (pin1_le m J hJ r c)
theorem outs_at0 (r : Ref sig .tc) (c : Dev nD) : outs m 2 r c = (Ex0 m c r : Buf (Elt F) ((c : Thread nD τ).loc r)) :=
  outs_le1 m 2 le_rfl r c
theorem outs_at1 (r : Ref sig .tc) (c : Dev nD) : outs m 4 r c = (Ex1 m c r : Buf (Elt F) ((c : Thread nD τ).loc r)) :=
  (outs_le2 m 4 le_rfl r c).trans (pin1_gt m 4 (by decide) r c)
theorem outs_at2 (r : Ref sig .tc) (c : Dev nD) : outs m 6 r c = (Ex2 m c r : Buf (Elt F) ((c : Thread nD τ).loc r)) :=
  (outs_le3 m 6 le_rfl r c).trans (pin2_gt m 6 (by decide) r c)
theorem outs_at3 (r : Ref sig .tc) (c : Dev nD) : outs m 8 r c = (Ex3 m c r : Buf (Elt F) ((c : Thread nD τ).loc r)) :=
  (outs_le4 m 8 le_rfl r c).trans (pin3_gt m 8 (by decide) r c)
theorem outs_at4 (r : Ref sig .tc) (c : Dev nD) : outs m 10 r c = (Ex4 m c r : Buf (Elt F) ((c : Thread nD τ).loc r)) :=
  (outs_le5 m 10 le_rfl r c).trans (pin4_gt m 10 (by decide) r c)
theorem outs_at5 (r : Ref sig .tc) (c : Dev nD) : outs m 12 r c = (Ex5 m c r : Buf (Elt F) ((c : Thread nD τ).loc r)) :=
  (outs_le6 m 12 le_rfl r c).trans (pin5_gt m 12 (by decide) r c)
theorem outs_at6 (r : Ref sig .tc) (c : Dev nD) : outs m 14 r c = (Ex6 m c r : Buf (Elt F) ((c : Thread nD τ).loc r)) :=
  (outs_le7 m 14 le_rfl r c).trans (pin6_gt m 14 (by decide) r c)
theorem outs_at7 (r : Ref sig .tc) (c : Dev nD) : outs m 16 r c = (Ex7 m c r : Buf (Elt F) ((c : Thread nD τ).loc r)) :=
  (outs_le8 m 16 le_rfl r c).trans (pin7_gt m 16 (by decide) r c)
theorem outs_at8 (r : Ref sig .tc) (c : Dev nD) : outs m 18 r c = (Ex8 m c r : Buf (Elt F) ((c : Thread nD τ).loc r)) :=
  (outs_le9 m 18 le_rfl r c).trans (pin8_gt m 18 (by decide) r c)
theorem outs_at9 (r : Ref sig .tc) (c : Dev nD) : outs m 20 r c = (Ex9 m c r : Buf (Elt F) ((c : Thread nD τ).loc r)) :=
  (outs_le10 m 20 le_rfl r c).trans (pin9_gt m 20 (by decide) r c)
theorem outs_at10 (r : Ref sig .tc) (c : Dev nD) : outs m 22 r c = (Ex10 m c r : Buf (Elt F) ((c : Thread nD τ).loc r)) :=
  (outs_le11 m 22 le_rfl r c).trans (pin10_gt m 22 (by decide) r c)
theorem outs_at11 (r : Ref sig .tc) (c : Dev nD) : outs m 24 r c = (Ex11 m c r : Buf (Elt F) ((c : Thread nD τ).loc r)) :=
  (outs_le12 m 24 le_rfl r c).trans (pin11_gt m 24 (by decide) r c)
theorem outs_at12 (r : Ref sig .tc) (c : Dev nD) : outs m 26 r c = (Ex12 m c r : Buf (Elt F) ((c : Thread nD τ).loc r)) :=
  (outs_le13 m 26 le_rfl r c).trans (pin12_gt m 26 (by decide) r c)
theorem outs_at13 (r : Ref sig .tc) (c : Dev nD) : outs m 28 r c = (Ex13 m c r : Buf (Elt F) ((c : Thread nD τ).loc r)) :=
  (outs_le14 m 28 le_rfl r c).trans (pin13_gt m 28 (by decide) r c)
theorem outs_at14 (r : Ref sig .tc) (c : Dev nD) : outs m 30 r c = (Ex14 m c r : Buf (Elt F) ((c : Thread nD τ).loc r)) :=
  pin14_gt m 30 (by decide) r c

/-- Core `c`'s unscoped buffers when region 0 is entered, -/
abbrev Vin0 (c : Dev nD) : Valuation τ sig (Elt F) := GenP.V1 m c
/-- and when it is left. -/
abbrev Vout0 (c : Dev nD) : Valuation τ sig (Elt F) := GenP.V2 m (outs m) c

/-- Core `c`'s unscoped buffers when region 1 is entered, -/
abbrev Vin1 (c : Dev nD) : Valuation τ sig (Elt F) := GenP.V3 m (outs m) c
/-- and when it is left. -/
abbrev Vout1 (c : Dev nD) : Valuation τ sig (Elt F) := GenP.V4 m (outs m) c
/-- The entry contents read the pinned contents only at earlier items, where `outs` is `pin0`. -/
theorem Vin1_eq : Vin1 m = En1 m := funext fun c => V3_congr m c fun J hJ r => outs_le1 m J hJ r c

/-- Core `c`'s unscoped buffers when region 2 is entered, -/
abbrev Vin2 (c : Dev nD) : Valuation τ sig (Elt F) := GenP.V5 m (outs m) c
/-- and when it is left. -/
abbrev Vout2 (c : Dev nD) : Valuation τ sig (Elt F) := GenP.V6 m (outs m) c
/-- The entry contents read the pinned contents only at earlier items, where `outs` is `pin1`. -/
theorem Vin2_eq : Vin2 m = En2 m := funext fun c => V5_congr m c fun J hJ r => outs_le2 m J hJ r c

/-- Core `c`'s unscoped buffers when region 3 is entered, -/
abbrev Vin3 (c : Dev nD) : Valuation τ sig (Elt F) := GenP.V7 m (outs m) c
/-- and when it is left. -/
abbrev Vout3 (c : Dev nD) : Valuation τ sig (Elt F) := GenP.V8 m (outs m) c
/-- The entry contents read the pinned contents only at earlier items, where `outs` is `pin2`. -/
theorem Vin3_eq : Vin3 m = En3 m := funext fun c => V7_congr m c fun J hJ r => outs_le3 m J hJ r c

/-- Core `c`'s unscoped buffers when region 4 is entered, -/
abbrev Vin4 (c : Dev nD) : Valuation τ sig (Elt F) := GenP.V9 m (outs m) c
/-- and when it is left. -/
abbrev Vout4 (c : Dev nD) : Valuation τ sig (Elt F) := GenP.V10 m (outs m) c
/-- The entry contents read the pinned contents only at earlier items, where `outs` is `pin3`. -/
theorem Vin4_eq : Vin4 m = En4 m := funext fun c => V9_congr m c fun J hJ r => outs_le4 m J hJ r c

/-- Core `c`'s unscoped buffers when region 5 is entered, -/
abbrev Vin5 (c : Dev nD) : Valuation τ sig (Elt F) := GenP.V11 m (outs m) c
/-- and when it is left. -/
abbrev Vout5 (c : Dev nD) : Valuation τ sig (Elt F) := GenP.V12 m (outs m) c
/-- The entry contents read the pinned contents only at earlier items, where `outs` is `pin4`. -/
theorem Vin5_eq : Vin5 m = En5 m := funext fun c => V11_congr m c fun J hJ r => outs_le5 m J hJ r c

/-- Core `c`'s unscoped buffers when region 6 is entered, -/
abbrev Vin6 (c : Dev nD) : Valuation τ sig (Elt F) := GenP.V13 m (outs m) c
/-- and when it is left. -/
abbrev Vout6 (c : Dev nD) : Valuation τ sig (Elt F) := GenP.V14 m (outs m) c
/-- The entry contents read the pinned contents only at earlier items, where `outs` is `pin5`. -/
theorem Vin6_eq : Vin6 m = En6 m := funext fun c => V13_congr m c fun J hJ r => outs_le6 m J hJ r c

/-- Core `c`'s unscoped buffers when region 7 is entered, -/
abbrev Vin7 (c : Dev nD) : Valuation τ sig (Elt F) := GenP.V15 m (outs m) c
/-- and when it is left. -/
abbrev Vout7 (c : Dev nD) : Valuation τ sig (Elt F) := GenP.V16 m (outs m) c
/-- The entry contents read the pinned contents only at earlier items, where `outs` is `pin6`. -/
theorem Vin7_eq : Vin7 m = En7 m := funext fun c => V15_congr m c fun J hJ r => outs_le7 m J hJ r c

/-- Core `c`'s unscoped buffers when region 8 is entered, -/
abbrev Vin8 (c : Dev nD) : Valuation τ sig (Elt F) := GenP.V17 m (outs m) c
/-- and when it is left. -/
abbrev Vout8 (c : Dev nD) : Valuation τ sig (Elt F) := GenP.V18 m (outs m) c
/-- The entry contents read the pinned contents only at earlier items, where `outs` is `pin7`. -/
theorem Vin8_eq : Vin8 m = En8 m := funext fun c => V17_congr m c fun J hJ r => outs_le8 m J hJ r c

/-- Core `c`'s unscoped buffers when region 9 is entered, -/
abbrev Vin9 (c : Dev nD) : Valuation τ sig (Elt F) := GenP.V19 m (outs m) c
/-- and when it is left. -/
abbrev Vout9 (c : Dev nD) : Valuation τ sig (Elt F) := GenP.V20 m (outs m) c
/-- The entry contents read the pinned contents only at earlier items, where `outs` is `pin8`. -/
theorem Vin9_eq : Vin9 m = En9 m := funext fun c => V19_congr m c fun J hJ r => outs_le9 m J hJ r c

/-- Core `c`'s unscoped buffers when region 10 is entered, -/
abbrev Vin10 (c : Dev nD) : Valuation τ sig (Elt F) := GenP.V21 m (outs m) c
/-- and when it is left. -/
abbrev Vout10 (c : Dev nD) : Valuation τ sig (Elt F) := GenP.V22 m (outs m) c
/-- The entry contents read the pinned contents only at earlier items, where `outs` is `pin9`. -/
theorem Vin10_eq : Vin10 m = En10 m := funext fun c => V21_congr m c fun J hJ r => outs_le10 m J hJ r c

/-- Core `c`'s unscoped buffers when region 11 is entered, -/
abbrev Vin11 (c : Dev nD) : Valuation τ sig (Elt F) := GenP.V23 m (outs m) c
/-- and when it is left. -/
abbrev Vout11 (c : Dev nD) : Valuation τ sig (Elt F) := GenP.V24 m (outs m) c
/-- The entry contents read the pinned contents only at earlier items, where `outs` is `pin10`. -/
theorem Vin11_eq : Vin11 m = En11 m := funext fun c => V23_congr m c fun J hJ r => outs_le11 m J hJ r c

/-- Core `c`'s unscoped buffers when region 12 is entered, -/
abbrev Vin12 (c : Dev nD) : Valuation τ sig (Elt F) := GenP.V25 m (outs m) c
/-- and when it is left. -/
abbrev Vout12 (c : Dev nD) : Valuation τ sig (Elt F) := GenP.V26 m (outs m) c
/-- The entry contents read the pinned contents only at earlier items, where `outs` is `pin11`. -/
theorem Vin12_eq : Vin12 m = En12 m := funext fun c => V25_congr m c fun J hJ r => outs_le12 m J hJ r c

/-- Core `c`'s unscoped buffers when region 13 is entered, -/
abbrev Vin13 (c : Dev nD) : Valuation τ sig (Elt F) := GenP.V27 m (outs m) c
/-- and when it is left. -/
abbrev Vout13 (c : Dev nD) : Valuation τ sig (Elt F) := GenP.V28 m (outs m) c
/-- The entry contents read the pinned contents only at earlier items, where `outs` is `pin12`. -/
theorem Vin13_eq : Vin13 m = En13 m := funext fun c => V27_congr m c fun J hJ r => outs_le13 m J hJ r c

/-- Core `c`'s unscoped buffers when region 14 is entered, -/
abbrev Vin14 (c : Dev nD) : Valuation τ sig (Elt F) := GenP.V29 m (outs m) c
/-- and when it is left. -/
abbrev Vout14 (c : Dev nD) : Valuation τ sig (Elt F) := GenP.V30 m (outs m) c
/-- The entry contents read the pinned contents only at earlier items, where `outs` is `pin13`. -/
theorem Vin14_eq : Vin14 m = En14 m := funext fun c => V29_congr m c fun J hJ r => outs_le14 m J hJ r c

/-! ## The two exit facts of every region

At a region's exit each of its arrays holds what the pipeline leaves there — an output array what `outs` pins, which
is that by definition; an input array what it held at entry, which no write-back touches and the update at the
output arrays misses — and every buffer that is no array of the region holds what it held at entry. -/

/-! ### Region 0 -/

/-- An input array of region 0 is never written back into, and the update at the output arrays misses it. -/
theorem hF_in0 (c : Dev nD) (w : Fin cfg0.W) (hin : (cfg0.win w).isOut = false)
    (hr : Pipeline.arrRef spec0 w ∉ ([main_v36_0, main_v36_1, main_v36_2] : List (Ref sig .tc))) :
    (dat0 (fun c b => Vin0 m c b) c).arrAt w cfg0.N = Vout0 m c (Pipeline.arrRef spec0 w) :=
  ((dat0 (fun c b => Vin0 m c b) c).arrAt_in w hin _).trans
    ((A_eq0 (fun c b => Vin0 m c b) c w).trans (GenP.V2_of m (outs m) c _ hr).symm)
/-- Output window 4 of region 0: its array `main_v36_0` at the exit holds the write-backs folded over all grid points. -/
theorem Vout_0_4 (c : Dev nD) : Vout0 m c (Pipeline.arrRef spec0 4) = (dat0 (fun c b => Vin0 m c b) c).arrAt 4 cfg0.N := by
  have h : Vout0 m c (Pipeline.arrRef spec0 4) = outs m 2 main_v36_0 c := upd3_fst (by decide) (by decide)
  rw [h, outs_at0]
  exact Pipeline.withArrays_arr spec0 launch0.win.arr_inj c _ _ 4
/-- Output window 5 of region 0: its array `main_v36_1` at the exit holds the write-backs folded over all grid points. -/
theorem Vout_0_5 (c : Dev nD) : Vout0 m c (Pipeline.arrRef spec0 5) = (dat0 (fun c b => Vin0 m c b) c).arrAt 5 cfg0.N := by
  have h : Vout0 m c (Pipeline.arrRef spec0 5) = outs m 2 main_v36_1 c := upd2_fst (by decide)
  rw [h, outs_at0]
  exact Pipeline.withArrays_arr spec0 launch0.win.arr_inj c _ _ 5
/-- Output window 6 of region 0: its array `main_v36_2` at the exit holds the write-backs folded over all grid points. -/
theorem Vout_0_6 (c : Dev nD) : Vout0 m c (Pipeline.arrRef spec0 6) = (dat0 (fun c b => Vin0 m c b) c).arrAt 6 cfg0.N := by
  have h : Vout0 m c (Pipeline.arrRef spec0 6) = outs m 2 main_v36_2 c := Function.update_self _ _ _
  rw [h, outs_at0]
  exact Pipeline.withArrays_arr spec0 launch0.win.arr_inj c _ _ 6
/-- At region 0's exit every array of it holds what the pipeline leaves. -/
theorem hF_0 (c : Dev nD) : ∀ w : Fin cfg0.W,
    (dat0 (fun c b => Vin0 m c b) c).arrAt w cfg0.N = Vout0 m c (Pipeline.arrRef spec0 w)
  | 0 => hF_in0 m c 0 rfl (by decide)
  | 1 => hF_in0 m c 1 rfl (by decide)
  | 2 => hF_in0 m c 2 rfl (by decide)
  | 3 => hF_in0 m c 3 rfl (by decide)
  | 4 => (Vout_0_4 m c).symm
  | 5 => (Vout_0_5 m c).symm
  | 6 => (Vout_0_6 m c).symm
  | ⟨_ + 7, h⟩ => absurd h (Nat.not_lt.2 (Nat.le_add_left _ _))
/-- At region 0's exit every buffer that is no array of it holds what it held at entry. -/
theorem hrest_0 (c : Dev nD) : ∀ b, b ∉ Finset.univ.image (Pipeline.arrRef spec0) → Vout0 m c b = Vin0 m c b :=
  fun b hb => GenP.V2_of m (outs m) c b fun h => hb <| by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩

/-! ### Region 1 -/

/-- An input array of region 1 is never written back into, and the update at the output arrays misses it. -/
theorem hF_in1 (c : Dev nD) (w : Fin cfg1.W) (hin : (cfg1.win w).isOut = false)
    (hr : Pipeline.arrRef spec1 w ∉ ([main_v48_0, main_v48_1, main_v48_2] : List (Ref sig .tc))) :
    (dat1 (fun c b => Vin1 m c b) c).arrAt w cfg1.N = Vout1 m c (Pipeline.arrRef spec1 w) :=
  ((dat1 (fun c b => Vin1 m c b) c).arrAt_in w hin _).trans
    ((A_eq1 (fun c b => Vin1 m c b) c w).trans (GenP.V4_of m (outs m) c _ hr).symm)
/-- Output window 7 of region 1: its array `main_v48_0` at the exit holds the write-backs folded over all grid points. -/
theorem Vout_1_7 (c : Dev nD) : Vout1 m c (Pipeline.arrRef spec1 7) = (dat1 (fun c b => Vin1 m c b) c).arrAt 7 cfg1.N := by
  have h : Vout1 m c (Pipeline.arrRef spec1 7) = outs m 4 main_v48_0 c := upd3_fst (by decide) (by decide)
  rw [h, outs_at1, Vin1_eq]
  exact Pipeline.withArrays_arr spec1 launch1.win.arr_inj c _ _ 7
/-- Output window 8 of region 1: its array `main_v48_1` at the exit holds the write-backs folded over all grid points. -/
theorem Vout_1_8 (c : Dev nD) : Vout1 m c (Pipeline.arrRef spec1 8) = (dat1 (fun c b => Vin1 m c b) c).arrAt 8 cfg1.N := by
  have h : Vout1 m c (Pipeline.arrRef spec1 8) = outs m 4 main_v48_1 c := upd2_fst (by decide)
  rw [h, outs_at1, Vin1_eq]
  exact Pipeline.withArrays_arr spec1 launch1.win.arr_inj c _ _ 8
/-- Output window 9 of region 1: its array `main_v48_2` at the exit holds the write-backs folded over all grid points. -/
theorem Vout_1_9 (c : Dev nD) : Vout1 m c (Pipeline.arrRef spec1 9) = (dat1 (fun c b => Vin1 m c b) c).arrAt 9 cfg1.N := by
  have h : Vout1 m c (Pipeline.arrRef spec1 9) = outs m 4 main_v48_2 c := Function.update_self _ _ _
  rw [h, outs_at1, Vin1_eq]
  exact Pipeline.withArrays_arr spec1 launch1.win.arr_inj c _ _ 9
/-- At region 1's exit every array of it holds what the pipeline leaves. -/
theorem hF_1 (c : Dev nD) : ∀ w : Fin cfg1.W,
    (dat1 (fun c b => Vin1 m c b) c).arrAt w cfg1.N = Vout1 m c (Pipeline.arrRef spec1 w)
  | 0 => hF_in1 m c 0 rfl (by decide)
  | 1 => hF_in1 m c 1 rfl (by decide)
  | 2 => hF_in1 m c 2 rfl (by decide)
  | 3 => hF_in1 m c 3 rfl (by decide)
  | 4 => hF_in1 m c 4 rfl (by decide)
  | 5 => hF_in1 m c 5 rfl (by decide)
  | 6 => hF_in1 m c 6 rfl (by decide)
  | 7 => (Vout_1_7 m c).symm
  | 8 => (Vout_1_8 m c).symm
  | 9 => (Vout_1_9 m c).symm
  | ⟨_ + 10, h⟩ => absurd h (Nat.not_lt.2 (Nat.le_add_left _ _))
/-- At region 1's exit every buffer that is no array of it holds what it held at entry. -/
theorem hrest_1 (c : Dev nD) : ∀ b, b ∉ Finset.univ.image (Pipeline.arrRef spec1) → Vout1 m c b = Vin1 m c b :=
  fun b hb => GenP.V4_of m (outs m) c b fun h => hb <| by
    simp only [List.mem_cons, List.mem_nil_iff, or_false] at h
    rcases h with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩

/-! ### Region 2 -/

/-- An input array of region 2 is never written back into, and the update at the output arrays misses it. -/
theorem hF_in2 (c : Dev nD) (w : Fin cfg2.W) (hin : (cfg2.win w).isOut = false)
    (hr : Pipeline.arrRef spec2 w ∉ ([main_v59_0, main_v59_1] : List (Ref sig .tc))) :
    (dat2 (fun c b => Vin2 m c b) c).arrAt w cfg2.N = Vout2 m c (Pipeline.arrRef spec2 w) :=
  ((dat2 (fun c b => Vin2 m c b) c).arrAt_in w hin _).trans
    ((A_eq2 (fun c b => Vin2 m c b) c w).trans (GenP.V6_of m (outs m) c _ hr).symm)
/-- Output window 6 of region 2: its array `main_v59_0` at the exit holds the write-backs folded over all grid points. -/
theorem Vout_2_6 (c : Dev nD) : Vout2 m c (Pipeline.arrRef spec2 6) = (dat2 (fun c b => Vin2 m c b) c).arrAt 6 cfg2.N := by
  have h : Vout2 m c (Pipeline.arrRef spec2 6) = outs m 6 main_v59_0 c := upd2_fst (by decide)
  rw [h, outs_at2, Vin2_eq]
  exact Pipeline.withArrays_arr spec2 launch2.win.arr_inj c _ _ 6
/-- Output window 7 of region 2: its array `main_v59_1` at the exit holds the write-backs folded over all grid points. -/
theorem Vout_2_7 (c : Dev nD) : Vout2 m c (Pipeline.arrRef spec2 7) = (dat2 (fun c b => Vin2 m c b) c).arrAt 7 cfg2.N := by
  have h : Vout2 m c (Pipeline.arrRef spec2 7) = outs m 6 main_v59_1 c := Function.update_self _ _ _
  rw [h, outs_at2, Vin2_eq]
  exact Pipeline.withArrays_arr spec2 launch2.win.arr_inj c _ _ 7
/-- At region 2's exit every array of it holds what the pipeline leaves. -/
theorem hF_2 (c : Dev nD) : ∀ w : Fin cfg2.W,
    (dat2 (fun c b => Vin2 m c b) c).arrAt w cfg2.N = Vout2 m c (Pipeline.arrRef spec2 w)
  | 0 => hF_in2 m c 0 rfl (by decide)
  | 1 => hF_in2 m c 1 rfl (by decide)
  | 2 => hF_in2 m c 2 rfl (by decide)
  | 3 => hF_in2 m c 3 rfl (by decide)
  | 4 => hF_in2 m c 4 rfl (by decide)
  | 5 => hF_in2 m c 5 rfl (by decide)
  | 6 => (Vout_2_6 m c).symm
  | 7 => (Vout_2_7 m c).symm
  | ⟨_ + 8, h⟩ => absurd h (Nat.not_lt.2 (Nat.le_add_left _ _))
/-- At region 2's exit every buffer that is no array of it holds what it held at entry. -/
theorem hrest_2 (c : Dev nD) : ∀ b, b ∉ Finset.univ.image (Pipeline.arrRef spec2) → Vout2 m c b = Vin2 m c b :=
  fun b hb => GenP.V6_of m (outs m) c b fun h => hb <| by
    simp only [List.mem_cons, List.mem_nil_iff, or_false] at h
    rcases h with rfl | rfl
    · exact Finset.mem_image.mpr ⟨6, Finset.mem_univ _, rfl⟩
    · exact Finset.mem_image.mpr ⟨7, Finset.mem_univ _, rfl⟩

/-! ### Region 3 -/

/-- An input array of region 3 is never written back into, and the update at the output arrays misses it. -/
theorem hF_in3 (c : Dev nD) (w : Fin cfg3.W) (hin : (cfg3.win w).isOut = false)
    (hr : Pipeline.arrRef spec3 w ∉ ([main_v92_0, main_v92_1, main_v92_2] : List (Ref sig .tc))) :
    (dat3 (fun c b => Vin3 m c b) c).arrAt w cfg3.N = Vout3 m c (Pipeline.arrRef spec3 w) :=
  ((dat3 (fun c b => Vin3 m c b) c).arrAt_in w hin _).trans
    ((A_eq3 (fun c b => Vin3 m c b) c w).trans (GenP.V8_of m (outs m) c _ hr).symm)
/-- Output window 4 of region 3: its array `main_v92_0` at the exit holds the write-backs folded over all grid points. -/
theorem Vout_3_4 (c : Dev nD) : Vout3 m c (Pipeline.arrRef spec3 4) = (dat3 (fun c b => Vin3 m c b) c).arrAt 4 cfg3.N := by
  have h : Vout3 m c (Pipeline.arrRef spec3 4) = outs m 8 main_v92_0 c := upd3_fst (by decide) (by decide)
  rw [h, outs_at3, Vin3_eq]
  exact Pipeline.withArrays_arr spec3 launch3.win.arr_inj c _ _ 4
/-- Output window 5 of region 3: its array `main_v92_1` at the exit holds the write-backs folded over all grid points. -/
theorem Vout_3_5 (c : Dev nD) : Vout3 m c (Pipeline.arrRef spec3 5) = (dat3 (fun c b => Vin3 m c b) c).arrAt 5 cfg3.N := by
  have h : Vout3 m c (Pipeline.arrRef spec3 5) = outs m 8 main_v92_1 c := upd2_fst (by decide)
  rw [h, outs_at3, Vin3_eq]
  exact Pipeline.withArrays_arr spec3 launch3.win.arr_inj c _ _ 5
/-- Output window 6 of region 3: its array `main_v92_2` at the exit holds the write-backs folded over all grid points. -/
theorem Vout_3_6 (c : Dev nD) : Vout3 m c (Pipeline.arrRef spec3 6) = (dat3 (fun c b => Vin3 m c b) c).arrAt 6 cfg3.N := by
  have h : Vout3 m c (Pipeline.arrRef spec3 6) = outs m 8 main_v92_2 c := Function.update_self _ _ _
  rw [h, outs_at3, Vin3_eq]
  exact Pipeline.withArrays_arr spec3 launch3.win.arr_inj c _ _ 6
/-- At region 3's exit every array of it holds what the pipeline leaves. -/
theorem hF_3 (c : Dev nD) : ∀ w : Fin cfg3.W,
    (dat3 (fun c b => Vin3 m c b) c).arrAt w cfg3.N = Vout3 m c (Pipeline.arrRef spec3 w)
  | 0 => hF_in3 m c 0 rfl (by decide)
  | 1 => hF_in3 m c 1 rfl (by decide)
  | 2 => hF_in3 m c 2 rfl (by decide)
  | 3 => hF_in3 m c 3 rfl (by decide)
  | 4 => (Vout_3_4 m c).symm
  | 5 => (Vout_3_5 m c).symm
  | 6 => (Vout_3_6 m c).symm
  | ⟨_ + 7, h⟩ => absurd h (Nat.not_lt.2 (Nat.le_add_left _ _))
/-- At region 3's exit every buffer that is no array of it holds what it held at entry. -/
theorem hrest_3 (c : Dev nD) : ∀ b, b ∉ Finset.univ.image (Pipeline.arrRef spec3) → Vout3 m c b = Vin3 m c b :=
  fun b hb => GenP.V8_of m (outs m) c b fun h => hb <| by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩

/-! ### Region 4 -/

/-- An input array of region 4 is never written back into, and the update at the output arrays misses it. -/
theorem hF_in4 (c : Dev nD) (w : Fin cfg4.W) (hin : (cfg4.win w).isOut = false)
    (hr : Pipeline.arrRef spec4 w ∉ ([main_v104_0, main_v104_1, main_v104_2] : List (Ref sig .tc))) :
    (dat4 (fun c b => Vin4 m c b) c).arrAt w cfg4.N = Vout4 m c (Pipeline.arrRef spec4 w) :=
  ((dat4 (fun c b => Vin4 m c b) c).arrAt_in w hin _).trans
    ((A_eq4 (fun c b => Vin4 m c b) c w).trans (GenP.V10_of m (outs m) c _ hr).symm)
/-- Output window 7 of region 4: its array `main_v104_0` at the exit holds the write-backs folded over all grid points. -/
theorem Vout_4_7 (c : Dev nD) : Vout4 m c (Pipeline.arrRef spec4 7) = (dat4 (fun c b => Vin4 m c b) c).arrAt 7 cfg4.N := by
  have h : Vout4 m c (Pipeline.arrRef spec4 7) = outs m 10 main_v104_0 c := upd3_fst (by decide) (by decide)
  rw [h, outs_at4, Vin4_eq]
  exact Pipeline.withArrays_arr spec4 launch4.win.arr_inj c _ _ 7
/-- Output window 8 of region 4: its array `main_v104_1` at the exit holds the write-backs folded over all grid points. -/
theorem Vout_4_8 (c : Dev nD) : Vout4 m c (Pipeline.arrRef spec4 8) = (dat4 (fun c b => Vin4 m c b) c).arrAt 8 cfg4.N := by
  have h : Vout4 m c (Pipeline.arrRef spec4 8) = outs m 10 main_v104_1 c := upd2_fst (by decide)
  rw [h, outs_at4, Vin4_eq]
  exact Pipeline.withArrays_arr spec4 launch4.win.arr_inj c _ _ 8
/-- Output window 9 of region 4: its array `main_v104_2` at the exit holds the write-backs folded over all grid points. -/
theorem Vout_4_9 (c : Dev nD) : Vout4 m c (Pipeline.arrRef spec4 9) = (dat4 (fun c b => Vin4 m c b) c).arrAt 9 cfg4.N := by
  have h : Vout4 m c (Pipeline.arrRef spec4 9) = outs m 10 main_v104_2 c := Function.update_self _ _ _
  rw [h, outs_at4, Vin4_eq]
  exact Pipeline.withArrays_arr spec4 launch4.win.arr_inj c _ _ 9
/-- At region 4's exit every array of it holds what the pipeline leaves. -/
theorem hF_4 (c : Dev nD) : ∀ w : Fin cfg4.W,
    (dat4 (fun c b => Vin4 m c b) c).arrAt w cfg4.N = Vout4 m c (Pipeline.arrRef spec4 w)
  | 0 => hF_in4 m c 0 rfl (by decide)
  | 1 => hF_in4 m c 1 rfl (by decide)
  | 2 => hF_in4 m c 2 rfl (by decide)
  | 3 => hF_in4 m c 3 rfl (by decide)
  | 4 => hF_in4 m c 4 rfl (by decide)
  | 5 => hF_in4 m c 5 rfl (by decide)
  | 6 => hF_in4 m c 6 rfl (by decide)
  | 7 => (Vout_4_7 m c).symm
  | 8 => (Vout_4_8 m c).symm
  | 9 => (Vout_4_9 m c).symm
  | ⟨_ + 10, h⟩ => absurd h (Nat.not_lt.2 (Nat.le_add_left _ _))
/-- At region 4's exit every buffer that is no array of it holds what it held at entry. -/
theorem hrest_4 (c : Dev nD) : ∀ b, b ∉ Finset.univ.image (Pipeline.arrRef spec4) → Vout4 m c b = Vin4 m c b :=
  fun b hb => GenP.V10_of m (outs m) c b fun h => hb <| by
    simp only [List.mem_cons, List.mem_nil_iff, or_false] at h
    rcases h with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩

/-! ### Region 5 -/

/-- An input array of region 5 is never written back into, and the update at the output arrays misses it. -/
theorem hF_in5 (c : Dev nD) (w : Fin cfg5.W) (hin : (cfg5.win w).isOut = false)
    (hr : Pipeline.arrRef spec5 w ∉ ([main_v115_0, main_v115_1] : List (Ref sig .tc))) :
    (dat5 (fun c b => Vin5 m c b) c).arrAt w cfg5.N = Vout5 m c (Pipeline.arrRef spec5 w) :=
  ((dat5 (fun c b => Vin5 m c b) c).arrAt_in w hin _).trans
    ((A_eq5 (fun c b => Vin5 m c b) c w).trans (GenP.V12_of m (outs m) c _ hr).symm)
/-- Output window 6 of region 5: its array `main_v115_0` at the exit holds the write-backs folded over all grid points. -/
theorem Vout_5_6 (c : Dev nD) : Vout5 m c (Pipeline.arrRef spec5 6) = (dat5 (fun c b => Vin5 m c b) c).arrAt 6 cfg5.N := by
  have h : Vout5 m c (Pipeline.arrRef spec5 6) = outs m 12 main_v115_0 c := upd2_fst (by decide)
  rw [h, outs_at5, Vin5_eq]
  exact Pipeline.withArrays_arr spec5 launch5.win.arr_inj c _ _ 6
/-- Output window 7 of region 5: its array `main_v115_1` at the exit holds the write-backs folded over all grid points. -/
theorem Vout_5_7 (c : Dev nD) : Vout5 m c (Pipeline.arrRef spec5 7) = (dat5 (fun c b => Vin5 m c b) c).arrAt 7 cfg5.N := by
  have h : Vout5 m c (Pipeline.arrRef spec5 7) = outs m 12 main_v115_1 c := Function.update_self _ _ _
  rw [h, outs_at5, Vin5_eq]
  exact Pipeline.withArrays_arr spec5 launch5.win.arr_inj c _ _ 7
/-- At region 5's exit every array of it holds what the pipeline leaves. -/
theorem hF_5 (c : Dev nD) : ∀ w : Fin cfg5.W,
    (dat5 (fun c b => Vin5 m c b) c).arrAt w cfg5.N = Vout5 m c (Pipeline.arrRef spec5 w)
  | 0 => hF_in5 m c 0 rfl (by decide)
  | 1 => hF_in5 m c 1 rfl (by decide)
  | 2 => hF_in5 m c 2 rfl (by decide)
  | 3 => hF_in5 m c 3 rfl (by decide)
  | 4 => hF_in5 m c 4 rfl (by decide)
  | 5 => hF_in5 m c 5 rfl (by decide)
  | 6 => (Vout_5_6 m c).symm
  | 7 => (Vout_5_7 m c).symm
  | ⟨_ + 8, h⟩ => absurd h (Nat.not_lt.2 (Nat.le_add_left _ _))
/-- At region 5's exit every buffer that is no array of it holds what it held at entry. -/
theorem hrest_5 (c : Dev nD) : ∀ b, b ∉ Finset.univ.image (Pipeline.arrRef spec5) → Vout5 m c b = Vin5 m c b :=
  fun b hb => GenP.V12_of m (outs m) c b fun h => hb <| by
    simp only [List.mem_cons, List.mem_nil_iff, or_false] at h
    rcases h with rfl | rfl
    · exact Finset.mem_image.mpr ⟨6, Finset.mem_univ _, rfl⟩
    · exact Finset.mem_image.mpr ⟨7, Finset.mem_univ _, rfl⟩

/-! ### Region 6 -/

/-- An input array of region 6 is never written back into, and the update at the output arrays misses it. -/
theorem hF_in6 (c : Dev nD) (w : Fin cfg6.W) (hin : (cfg6.win w).isOut = false)
    (hr : Pipeline.arrRef spec6 w ∉ ([main_v148_0, main_v148_1, main_v148_2] : List (Ref sig .tc))) :
    (dat6 (fun c b => Vin6 m c b) c).arrAt w cfg6.N = Vout6 m c (Pipeline.arrRef spec6 w) :=
  ((dat6 (fun c b => Vin6 m c b) c).arrAt_in w hin _).trans
    ((A_eq6 (fun c b => Vin6 m c b) c w).trans (GenP.V14_of m (outs m) c _ hr).symm)
/-- Output window 4 of region 6: its array `main_v148_0` at the exit holds the write-backs folded over all grid points. -/
theorem Vout_6_4 (c : Dev nD) : Vout6 m c (Pipeline.arrRef spec6 4) = (dat6 (fun c b => Vin6 m c b) c).arrAt 4 cfg6.N := by
  have h : Vout6 m c (Pipeline.arrRef spec6 4) = outs m 14 main_v148_0 c := upd3_fst (by decide) (by decide)
  rw [h, outs_at6, Vin6_eq]
  exact Pipeline.withArrays_arr spec6 launch6.win.arr_inj c _ _ 4
/-- Output window 5 of region 6: its array `main_v148_1` at the exit holds the write-backs folded over all grid points. -/
theorem Vout_6_5 (c : Dev nD) : Vout6 m c (Pipeline.arrRef spec6 5) = (dat6 (fun c b => Vin6 m c b) c).arrAt 5 cfg6.N := by
  have h : Vout6 m c (Pipeline.arrRef spec6 5) = outs m 14 main_v148_1 c := upd2_fst (by decide)
  rw [h, outs_at6, Vin6_eq]
  exact Pipeline.withArrays_arr spec6 launch6.win.arr_inj c _ _ 5
/-- Output window 6 of region 6: its array `main_v148_2` at the exit holds the write-backs folded over all grid points. -/
theorem Vout_6_6 (c : Dev nD) : Vout6 m c (Pipeline.arrRef spec6 6) = (dat6 (fun c b => Vin6 m c b) c).arrAt 6 cfg6.N := by
  have h : Vout6 m c (Pipeline.arrRef spec6 6) = outs m 14 main_v148_2 c := Function.update_self _ _ _
  rw [h, outs_at6, Vin6_eq]
  exact Pipeline.withArrays_arr spec6 launch6.win.arr_inj c _ _ 6
/-- At region 6's exit every array of it holds what the pipeline leaves. -/
theorem hF_6 (c : Dev nD) : ∀ w : Fin cfg6.W,
    (dat6 (fun c b => Vin6 m c b) c).arrAt w cfg6.N = Vout6 m c (Pipeline.arrRef spec6 w)
  | 0 => hF_in6 m c 0 rfl (by decide)
  | 1 => hF_in6 m c 1 rfl (by decide)
  | 2 => hF_in6 m c 2 rfl (by decide)
  | 3 => hF_in6 m c 3 rfl (by decide)
  | 4 => (Vout_6_4 m c).symm
  | 5 => (Vout_6_5 m c).symm
  | 6 => (Vout_6_6 m c).symm
  | ⟨_ + 7, h⟩ => absurd h (Nat.not_lt.2 (Nat.le_add_left _ _))
/-- At region 6's exit every buffer that is no array of it holds what it held at entry. -/
theorem hrest_6 (c : Dev nD) : ∀ b, b ∉ Finset.univ.image (Pipeline.arrRef spec6) → Vout6 m c b = Vin6 m c b :=
  fun b hb => GenP.V14_of m (outs m) c b fun h => hb <| by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩

/-! ### Region 7 -/

/-- An input array of region 7 is never written back into, and the update at the output arrays misses it. -/
theorem hF_in7 (c : Dev nD) (w : Fin cfg7.W) (hin : (cfg7.win w).isOut = false)
    (hr : Pipeline.arrRef spec7 w ∉ ([main_v160_0, main_v160_1, main_v160_2] : List (Ref sig .tc))) :
    (dat7 (fun c b => Vin7 m c b) c).arrAt w cfg7.N = Vout7 m c (Pipeline.arrRef spec7 w) :=
  ((dat7 (fun c b => Vin7 m c b) c).arrAt_in w hin _).trans
    ((A_eq7 (fun c b => Vin7 m c b) c w).trans (GenP.V16_of m (outs m) c _ hr).symm)
/-- Output window 7 of region 7: its array `main_v160_0` at the exit holds the write-backs folded over all grid points. -/
theorem Vout_7_7 (c : Dev nD) : Vout7 m c (Pipeline.arrRef spec7 7) = (dat7 (fun c b => Vin7 m c b) c).arrAt 7 cfg7.N := by
  have h : Vout7 m c (Pipeline.arrRef spec7 7) = outs m 16 main_v160_0 c := upd3_fst (by decide) (by decide)
  rw [h, outs_at7, Vin7_eq]
  exact Pipeline.withArrays_arr spec7 launch7.win.arr_inj c _ _ 7
/-- Output window 8 of region 7: its array `main_v160_1` at the exit holds the write-backs folded over all grid points. -/
theorem Vout_7_8 (c : Dev nD) : Vout7 m c (Pipeline.arrRef spec7 8) = (dat7 (fun c b => Vin7 m c b) c).arrAt 8 cfg7.N := by
  have h : Vout7 m c (Pipeline.arrRef spec7 8) = outs m 16 main_v160_1 c := upd2_fst (by decide)
  rw [h, outs_at7, Vin7_eq]
  exact Pipeline.withArrays_arr spec7 launch7.win.arr_inj c _ _ 8
/-- Output window 9 of region 7: its array `main_v160_2` at the exit holds the write-backs folded over all grid points. -/
theorem Vout_7_9 (c : Dev nD) : Vout7 m c (Pipeline.arrRef spec7 9) = (dat7 (fun c b => Vin7 m c b) c).arrAt 9 cfg7.N := by
  have h : Vout7 m c (Pipeline.arrRef spec7 9) = outs m 16 main_v160_2 c := Function.update_self _ _ _
  rw [h, outs_at7, Vin7_eq]
  exact Pipeline.withArrays_arr spec7 launch7.win.arr_inj c _ _ 9
/-- At region 7's exit every array of it holds what the pipeline leaves. -/
theorem hF_7 (c : Dev nD) : ∀ w : Fin cfg7.W,
    (dat7 (fun c b => Vin7 m c b) c).arrAt w cfg7.N = Vout7 m c (Pipeline.arrRef spec7 w)
  | 0 => hF_in7 m c 0 rfl (by decide)
  | 1 => hF_in7 m c 1 rfl (by decide)
  | 2 => hF_in7 m c 2 rfl (by decide)
  | 3 => hF_in7 m c 3 rfl (by decide)
  | 4 => hF_in7 m c 4 rfl (by decide)
  | 5 => hF_in7 m c 5 rfl (by decide)
  | 6 => hF_in7 m c 6 rfl (by decide)
  | 7 => (Vout_7_7 m c).symm
  | 8 => (Vout_7_8 m c).symm
  | 9 => (Vout_7_9 m c).symm
  | ⟨_ + 10, h⟩ => absurd h (Nat.not_lt.2 (Nat.le_add_left _ _))
/-- At region 7's exit every buffer that is no array of it holds what it held at entry. -/
theorem hrest_7 (c : Dev nD) : ∀ b, b ∉ Finset.univ.image (Pipeline.arrRef spec7) → Vout7 m c b = Vin7 m c b :=
  fun b hb => GenP.V16_of m (outs m) c b fun h => hb <| by
    simp only [List.mem_cons, List.mem_nil_iff, or_false] at h
    rcases h with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩

/-! ### Region 8 -/

/-- An input array of region 8 is never written back into, and the update at the output arrays misses it. -/
theorem hF_in8 (c : Dev nD) (w : Fin cfg8.W) (hin : (cfg8.win w).isOut = false)
    (hr : Pipeline.arrRef spec8 w ∉ ([main_v171_0, main_v171_1] : List (Ref sig .tc))) :
    (dat8 (fun c b => Vin8 m c b) c).arrAt w cfg8.N = Vout8 m c (Pipeline.arrRef spec8 w) :=
  ((dat8 (fun c b => Vin8 m c b) c).arrAt_in w hin _).trans
    ((A_eq8 (fun c b => Vin8 m c b) c w).trans (GenP.V18_of m (outs m) c _ hr).symm)
/-- Output window 6 of region 8: its array `main_v171_0` at the exit holds the write-backs folded over all grid points. -/
theorem Vout_8_6 (c : Dev nD) : Vout8 m c (Pipeline.arrRef spec8 6) = (dat8 (fun c b => Vin8 m c b) c).arrAt 6 cfg8.N := by
  have h : Vout8 m c (Pipeline.arrRef spec8 6) = outs m 18 main_v171_0 c := upd2_fst (by decide)
  rw [h, outs_at8, Vin8_eq]
  exact Pipeline.withArrays_arr spec8 launch8.win.arr_inj c _ _ 6
/-- Output window 7 of region 8: its array `main_v171_1` at the exit holds the write-backs folded over all grid points. -/
theorem Vout_8_7 (c : Dev nD) : Vout8 m c (Pipeline.arrRef spec8 7) = (dat8 (fun c b => Vin8 m c b) c).arrAt 7 cfg8.N := by
  have h : Vout8 m c (Pipeline.arrRef spec8 7) = outs m 18 main_v171_1 c := Function.update_self _ _ _
  rw [h, outs_at8, Vin8_eq]
  exact Pipeline.withArrays_arr spec8 launch8.win.arr_inj c _ _ 7
/-- At region 8's exit every array of it holds what the pipeline leaves. -/
theorem hF_8 (c : Dev nD) : ∀ w : Fin cfg8.W,
    (dat8 (fun c b => Vin8 m c b) c).arrAt w cfg8.N = Vout8 m c (Pipeline.arrRef spec8 w)
  | 0 => hF_in8 m c 0 rfl (by decide)
  | 1 => hF_in8 m c 1 rfl (by decide)
  | 2 => hF_in8 m c 2 rfl (by decide)
  | 3 => hF_in8 m c 3 rfl (by decide)
  | 4 => hF_in8 m c 4 rfl (by decide)
  | 5 => hF_in8 m c 5 rfl (by decide)
  | 6 => (Vout_8_6 m c).symm
  | 7 => (Vout_8_7 m c).symm
  | ⟨_ + 8, h⟩ => absurd h (Nat.not_lt.2 (Nat.le_add_left _ _))
/-- At region 8's exit every buffer that is no array of it holds what it held at entry. -/
theorem hrest_8 (c : Dev nD) : ∀ b, b ∉ Finset.univ.image (Pipeline.arrRef spec8) → Vout8 m c b = Vin8 m c b :=
  fun b hb => GenP.V18_of m (outs m) c b fun h => hb <| by
    simp only [List.mem_cons, List.mem_nil_iff, or_false] at h
    rcases h with rfl | rfl
    · exact Finset.mem_image.mpr ⟨6, Finset.mem_univ _, rfl⟩
    · exact Finset.mem_image.mpr ⟨7, Finset.mem_univ _, rfl⟩

/-! ### Region 9 -/

/-- An input array of region 9 is never written back into, and the update at the output arrays misses it. -/
theorem hF_in9 (c : Dev nD) (w : Fin cfg9.W) (hin : (cfg9.win w).isOut = false)
    (hr : Pipeline.arrRef spec9 w ∉ ([main_v204_0, main_v204_1, main_v204_2] : List (Ref sig .tc))) :
    (dat9 (fun c b => Vin9 m c b) c).arrAt w cfg9.N = Vout9 m c (Pipeline.arrRef spec9 w) :=
  ((dat9 (fun c b => Vin9 m c b) c).arrAt_in w hin _).trans
    ((A_eq9 (fun c b => Vin9 m c b) c w).trans (GenP.V20_of m (outs m) c _ hr).symm)
/-- Output window 4 of region 9: its array `main_v204_0` at the exit holds the write-backs folded over all grid points. -/
theorem Vout_9_4 (c : Dev nD) : Vout9 m c (Pipeline.arrRef spec9 4) = (dat9 (fun c b => Vin9 m c b) c).arrAt 4 cfg9.N := by
  have h : Vout9 m c (Pipeline.arrRef spec9 4) = outs m 20 main_v204_0 c := upd3_fst (by decide) (by decide)
  rw [h, outs_at9, Vin9_eq]
  exact Pipeline.withArrays_arr spec9 launch9.win.arr_inj c _ _ 4
/-- Output window 5 of region 9: its array `main_v204_1` at the exit holds the write-backs folded over all grid points. -/
theorem Vout_9_5 (c : Dev nD) : Vout9 m c (Pipeline.arrRef spec9 5) = (dat9 (fun c b => Vin9 m c b) c).arrAt 5 cfg9.N := by
  have h : Vout9 m c (Pipeline.arrRef spec9 5) = outs m 20 main_v204_1 c := upd2_fst (by decide)
  rw [h, outs_at9, Vin9_eq]
  exact Pipeline.withArrays_arr spec9 launch9.win.arr_inj c _ _ 5
/-- Output window 6 of region 9: its array `main_v204_2` at the exit holds the write-backs folded over all grid points. -/
theorem Vout_9_6 (c : Dev nD) : Vout9 m c (Pipeline.arrRef spec9 6) = (dat9 (fun c b => Vin9 m c b) c).arrAt 6 cfg9.N := by
  have h : Vout9 m c (Pipeline.arrRef spec9 6) = outs m 20 main_v204_2 c := Function.update_self _ _ _
  rw [h, outs_at9, Vin9_eq]
  exact Pipeline.withArrays_arr spec9 launch9.win.arr_inj c _ _ 6
/-- At region 9's exit every array of it holds what the pipeline leaves. -/
theorem hF_9 (c : Dev nD) : ∀ w : Fin cfg9.W,
    (dat9 (fun c b => Vin9 m c b) c).arrAt w cfg9.N = Vout9 m c (Pipeline.arrRef spec9 w)
  | 0 => hF_in9 m c 0 rfl (by decide)
  | 1 => hF_in9 m c 1 rfl (by decide)
  | 2 => hF_in9 m c 2 rfl (by decide)
  | 3 => hF_in9 m c 3 rfl (by decide)
  | 4 => (Vout_9_4 m c).symm
  | 5 => (Vout_9_5 m c).symm
  | 6 => (Vout_9_6 m c).symm
  | ⟨_ + 7, h⟩ => absurd h (Nat.not_lt.2 (Nat.le_add_left _ _))
/-- At region 9's exit every buffer that is no array of it holds what it held at entry. -/
theorem hrest_9 (c : Dev nD) : ∀ b, b ∉ Finset.univ.image (Pipeline.arrRef spec9) → Vout9 m c b = Vin9 m c b :=
  fun b hb => GenP.V20_of m (outs m) c b fun h => hb <| by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩

/-! ### Region 10 -/

/-- An input array of region 10 is never written back into, and the update at the output arrays misses it. -/
theorem hF_in10 (c : Dev nD) (w : Fin cfg10.W) (hin : (cfg10.win w).isOut = false)
    (hr : Pipeline.arrRef spec10 w ∉ ([main_v216_0, main_v216_1, main_v216_2] : List (Ref sig .tc))) :
    (dat10 (fun c b => Vin10 m c b) c).arrAt w cfg10.N = Vout10 m c (Pipeline.arrRef spec10 w) :=
  ((dat10 (fun c b => Vin10 m c b) c).arrAt_in w hin _).trans
    ((A_eq10 (fun c b => Vin10 m c b) c w).trans (GenP.V22_of m (outs m) c _ hr).symm)
/-- Output window 7 of region 10: its array `main_v216_0` at the exit holds the write-backs folded over all grid points. -/
theorem Vout_10_7 (c : Dev nD) : Vout10 m c (Pipeline.arrRef spec10 7) = (dat10 (fun c b => Vin10 m c b) c).arrAt 7 cfg10.N := by
  have h : Vout10 m c (Pipeline.arrRef spec10 7) = outs m 22 main_v216_0 c := upd3_fst (by decide) (by decide)
  rw [h, outs_at10, Vin10_eq]
  exact Pipeline.withArrays_arr spec10 launch10.win.arr_inj c _ _ 7
/-- Output window 8 of region 10: its array `main_v216_1` at the exit holds the write-backs folded over all grid points. -/
theorem Vout_10_8 (c : Dev nD) : Vout10 m c (Pipeline.arrRef spec10 8) = (dat10 (fun c b => Vin10 m c b) c).arrAt 8 cfg10.N := by
  have h : Vout10 m c (Pipeline.arrRef spec10 8) = outs m 22 main_v216_1 c := upd2_fst (by decide)
  rw [h, outs_at10, Vin10_eq]
  exact Pipeline.withArrays_arr spec10 launch10.win.arr_inj c _ _ 8
/-- Output window 9 of region 10: its array `main_v216_2` at the exit holds the write-backs folded over all grid points. -/
theorem Vout_10_9 (c : Dev nD) : Vout10 m c (Pipeline.arrRef spec10 9) = (dat10 (fun c b => Vin10 m c b) c).arrAt 9 cfg10.N := by
  have h : Vout10 m c (Pipeline.arrRef spec10 9) = outs m 22 main_v216_2 c := Function.update_self _ _ _
  rw [h, outs_at10, Vin10_eq]
  exact Pipeline.withArrays_arr spec10 launch10.win.arr_inj c _ _ 9
/-- At region 10's exit every array of it holds what the pipeline leaves. -/
theorem hF_10 (c : Dev nD) : ∀ w : Fin cfg10.W,
    (dat10 (fun c b => Vin10 m c b) c).arrAt w cfg10.N = Vout10 m c (Pipeline.arrRef spec10 w)
  | 0 => hF_in10 m c 0 rfl (by decide)
  | 1 => hF_in10 m c 1 rfl (by decide)
  | 2 => hF_in10 m c 2 rfl (by decide)
  | 3 => hF_in10 m c 3 rfl (by decide)
  | 4 => hF_in10 m c 4 rfl (by decide)
  | 5 => hF_in10 m c 5 rfl (by decide)
  | 6 => hF_in10 m c 6 rfl (by decide)
  | 7 => (Vout_10_7 m c).symm
  | 8 => (Vout_10_8 m c).symm
  | 9 => (Vout_10_9 m c).symm
  | ⟨_ + 10, h⟩ => absurd h (Nat.not_lt.2 (Nat.le_add_left _ _))
/-- At region 10's exit every buffer that is no array of it holds what it held at entry. -/
theorem hrest_10 (c : Dev nD) : ∀ b, b ∉ Finset.univ.image (Pipeline.arrRef spec10) → Vout10 m c b = Vin10 m c b :=
  fun b hb => GenP.V22_of m (outs m) c b fun h => hb <| by
    simp only [List.mem_cons, List.mem_nil_iff, or_false] at h
    rcases h with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩

/-! ### Region 11 -/

/-- An input array of region 11 is never written back into, and the update at the output arrays misses it. -/
theorem hF_in11 (c : Dev nD) (w : Fin cfg11.W) (hin : (cfg11.win w).isOut = false)
    (hr : Pipeline.arrRef spec11 w ∉ ([main_v227_0, main_v227_1] : List (Ref sig .tc))) :
    (dat11 (fun c b => Vin11 m c b) c).arrAt w cfg11.N = Vout11 m c (Pipeline.arrRef spec11 w) :=
  ((dat11 (fun c b => Vin11 m c b) c).arrAt_in w hin _).trans
    ((A_eq11 (fun c b => Vin11 m c b) c w).trans (GenP.V24_of m (outs m) c _ hr).symm)
/-- Output window 6 of region 11: its array `main_v227_0` at the exit holds the write-backs folded over all grid points. -/
theorem Vout_11_6 (c : Dev nD) : Vout11 m c (Pipeline.arrRef spec11 6) = (dat11 (fun c b => Vin11 m c b) c).arrAt 6 cfg11.N := by
  have h : Vout11 m c (Pipeline.arrRef spec11 6) = outs m 24 main_v227_0 c := upd2_fst (by decide)
  rw [h, outs_at11, Vin11_eq]
  exact Pipeline.withArrays_arr spec11 launch11.win.arr_inj c _ _ 6
/-- Output window 7 of region 11: its array `main_v227_1` at the exit holds the write-backs folded over all grid points. -/
theorem Vout_11_7 (c : Dev nD) : Vout11 m c (Pipeline.arrRef spec11 7) = (dat11 (fun c b => Vin11 m c b) c).arrAt 7 cfg11.N := by
  have h : Vout11 m c (Pipeline.arrRef spec11 7) = outs m 24 main_v227_1 c := Function.update_self _ _ _
  rw [h, outs_at11, Vin11_eq]
  exact Pipeline.withArrays_arr spec11 launch11.win.arr_inj c _ _ 7
/-- At region 11's exit every array of it holds what the pipeline leaves. -/
theorem hF_11 (c : Dev nD) : ∀ w : Fin cfg11.W,
    (dat11 (fun c b => Vin11 m c b) c).arrAt w cfg11.N = Vout11 m c (Pipeline.arrRef spec11 w)
  | 0 => hF_in11 m c 0 rfl (by decide)
  | 1 => hF_in11 m c 1 rfl (by decide)
  | 2 => hF_in11 m c 2 rfl (by decide)
  | 3 => hF_in11 m c 3 rfl (by decide)
  | 4 => hF_in11 m c 4 rfl (by decide)
  | 5 => hF_in11 m c 5 rfl (by decide)
  | 6 => (Vout_11_6 m c).symm
  | 7 => (Vout_11_7 m c).symm
  | ⟨_ + 8, h⟩ => absurd h (Nat.not_lt.2 (Nat.le_add_left _ _))
/-- At region 11's exit every buffer that is no array of it holds what it held at entry. -/
theorem hrest_11 (c : Dev nD) : ∀ b, b ∉ Finset.univ.image (Pipeline.arrRef spec11) → Vout11 m c b = Vin11 m c b :=
  fun b hb => GenP.V24_of m (outs m) c b fun h => hb <| by
    simp only [List.mem_cons, List.mem_nil_iff, or_false] at h
    rcases h with rfl | rfl
    · exact Finset.mem_image.mpr ⟨6, Finset.mem_univ _, rfl⟩
    · exact Finset.mem_image.mpr ⟨7, Finset.mem_univ _, rfl⟩

/-! ### Region 12 -/

/-- An input array of region 12 is never written back into, and the update at the output arrays misses it. -/
theorem hF_in12 (c : Dev nD) (w : Fin cfg12.W) (hin : (cfg12.win w).isOut = false)
    (hr : Pipeline.arrRef spec12 w ∉ ([main_v260_0, main_v260_1, main_v260_2] : List (Ref sig .tc))) :
    (dat12 (fun c b => Vin12 m c b) c).arrAt w cfg12.N = Vout12 m c (Pipeline.arrRef spec12 w) :=
  ((dat12 (fun c b => Vin12 m c b) c).arrAt_in w hin _).trans
    ((A_eq12 (fun c b => Vin12 m c b) c w).trans (GenP.V26_of m (outs m) c _ hr).symm)
/-- Output window 4 of region 12: its array `main_v260_0` at the exit holds the write-backs folded over all grid points. -/
theorem Vout_12_4 (c : Dev nD) : Vout12 m c (Pipeline.arrRef spec12 4) = (dat12 (fun c b => Vin12 m c b) c).arrAt 4 cfg12.N := by
  have h : Vout12 m c (Pipeline.arrRef spec12 4) = outs m 26 main_v260_0 c := upd3_fst (by decide) (by decide)
  rw [h, outs_at12, Vin12_eq]
  exact Pipeline.withArrays_arr spec12 launch12.win.arr_inj c _ _ 4
/-- Output window 5 of region 12: its array `main_v260_1` at the exit holds the write-backs folded over all grid points. -/
theorem Vout_12_5 (c : Dev nD) : Vout12 m c (Pipeline.arrRef spec12 5) = (dat12 (fun c b => Vin12 m c b) c).arrAt 5 cfg12.N := by
  have h : Vout12 m c (Pipeline.arrRef spec12 5) = outs m 26 main_v260_1 c := upd2_fst (by decide)
  rw [h, outs_at12, Vin12_eq]
  exact Pipeline.withArrays_arr spec12 launch12.win.arr_inj c _ _ 5
/-- Output window 6 of region 12: its array `main_v260_2` at the exit holds the write-backs folded over all grid points. -/
theorem Vout_12_6 (c : Dev nD) : Vout12 m c (Pipeline.arrRef spec12 6) = (dat12 (fun c b => Vin12 m c b) c).arrAt 6 cfg12.N := by
  have h : Vout12 m c (Pipeline.arrRef spec12 6) = outs m 26 main_v260_2 c := Function.update_self _ _ _
  rw [h, outs_at12, Vin12_eq]
  exact Pipeline.withArrays_arr spec12 launch12.win.arr_inj c _ _ 6
/-- At region 12's exit every array of it holds what the pipeline leaves. -/
theorem hF_12 (c : Dev nD) : ∀ w : Fin cfg12.W,
    (dat12 (fun c b => Vin12 m c b) c).arrAt w cfg12.N = Vout12 m c (Pipeline.arrRef spec12 w)
  | 0 => hF_in12 m c 0 rfl (by decide)
  | 1 => hF_in12 m c 1 rfl (by decide)
  | 2 => hF_in12 m c 2 rfl (by decide)
  | 3 => hF_in12 m c 3 rfl (by decide)
  | 4 => (Vout_12_4 m c).symm
  | 5 => (Vout_12_5 m c).symm
  | 6 => (Vout_12_6 m c).symm
  | ⟨_ + 7, h⟩ => absurd h (Nat.not_lt.2 (Nat.le_add_left _ _))
/-- At region 12's exit every buffer that is no array of it holds what it held at entry. -/
theorem hrest_12 (c : Dev nD) : ∀ b, b ∉ Finset.univ.image (Pipeline.arrRef spec12) → Vout12 m c b = Vin12 m c b :=
  fun b hb => GenP.V26_of m (outs m) c b fun h => hb <| by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩

/-! ### Region 13 -/

/-- An input array of region 13 is never written back into, and the update at the output arrays misses it. -/
theorem hF_in13 (c : Dev nD) (w : Fin cfg13.W) (hin : (cfg13.win w).isOut = false)
    (hr : Pipeline.arrRef spec13 w ∉ ([main_v272_0, main_v272_1, main_v272_2] : List (Ref sig .tc))) :
    (dat13 (fun c b => Vin13 m c b) c).arrAt w cfg13.N = Vout13 m c (Pipeline.arrRef spec13 w) :=
  ((dat13 (fun c b => Vin13 m c b) c).arrAt_in w hin _).trans
    ((A_eq13 (fun c b => Vin13 m c b) c w).trans (GenP.V28_of m (outs m) c _ hr).symm)
/-- Output window 7 of region 13: its array `main_v272_0` at the exit holds the write-backs folded over all grid points. -/
theorem Vout_13_7 (c : Dev nD) : Vout13 m c (Pipeline.arrRef spec13 7) = (dat13 (fun c b => Vin13 m c b) c).arrAt 7 cfg13.N := by
  have h : Vout13 m c (Pipeline.arrRef spec13 7) = outs m 28 main_v272_0 c := upd3_fst (by decide) (by decide)
  rw [h, outs_at13, Vin13_eq]
  exact Pipeline.withArrays_arr spec13 launch13.win.arr_inj c _ _ 7
/-- Output window 8 of region 13: its array `main_v272_1` at the exit holds the write-backs folded over all grid points. -/
theorem Vout_13_8 (c : Dev nD) : Vout13 m c (Pipeline.arrRef spec13 8) = (dat13 (fun c b => Vin13 m c b) c).arrAt 8 cfg13.N := by
  have h : Vout13 m c (Pipeline.arrRef spec13 8) = outs m 28 main_v272_1 c := upd2_fst (by decide)
  rw [h, outs_at13, Vin13_eq]
  exact Pipeline.withArrays_arr spec13 launch13.win.arr_inj c _ _ 8
/-- Output window 9 of region 13: its array `main_v272_2` at the exit holds the write-backs folded over all grid points. -/
theorem Vout_13_9 (c : Dev nD) : Vout13 m c (Pipeline.arrRef spec13 9) = (dat13 (fun c b => Vin13 m c b) c).arrAt 9 cfg13.N := by
  have h : Vout13 m c (Pipeline.arrRef spec13 9) = outs m 28 main_v272_2 c := Function.update_self _ _ _
  rw [h, outs_at13, Vin13_eq]
  exact Pipeline.withArrays_arr spec13 launch13.win.arr_inj c _ _ 9
/-- At region 13's exit every array of it holds what the pipeline leaves. -/
theorem hF_13 (c : Dev nD) : ∀ w : Fin cfg13.W,
    (dat13 (fun c b => Vin13 m c b) c).arrAt w cfg13.N = Vout13 m c (Pipeline.arrRef spec13 w)
  | 0 => hF_in13 m c 0 rfl (by decide)
  | 1 => hF_in13 m c 1 rfl (by decide)
  | 2 => hF_in13 m c 2 rfl (by decide)
  | 3 => hF_in13 m c 3 rfl (by decide)
  | 4 => hF_in13 m c 4 rfl (by decide)
  | 5 => hF_in13 m c 5 rfl (by decide)
  | 6 => hF_in13 m c 6 rfl (by decide)
  | 7 => (Vout_13_7 m c).symm
  | 8 => (Vout_13_8 m c).symm
  | 9 => (Vout_13_9 m c).symm
  | ⟨_ + 10, h⟩ => absurd h (Nat.not_lt.2 (Nat.le_add_left _ _))
/-- At region 13's exit every buffer that is no array of it holds what it held at entry. -/
theorem hrest_13 (c : Dev nD) : ∀ b, b ∉ Finset.univ.image (Pipeline.arrRef spec13) → Vout13 m c b = Vin13 m c b :=
  fun b hb => GenP.V28_of m (outs m) c b fun h => hb <| by
    simp only [List.mem_cons, List.mem_nil_iff, or_false] at h
    rcases h with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩

/-! ### Region 14 -/

/-- An input array of region 14 is never written back into, and the update at the output arrays misses it. -/
theorem hF_in14 (c : Dev nD) (w : Fin cfg14.W) (hin : (cfg14.win w).isOut = false)
    (hr : Pipeline.arrRef spec14 w ∉ ([main_v283_0, main_v283_1] : List (Ref sig .tc))) :
    (dat14 (fun c b => Vin14 m c b) c).arrAt w cfg14.N = Vout14 m c (Pipeline.arrRef spec14 w) :=
  ((dat14 (fun c b => Vin14 m c b) c).arrAt_in w hin _).trans
    ((A_eq14 (fun c b => Vin14 m c b) c w).trans (GenP.V30_of m (outs m) c _ hr).symm)
/-- Output window 6 of region 14: its array `main_v283_0` at the exit holds the write-backs folded over all grid points. -/
theorem Vout_14_6 (c : Dev nD) : Vout14 m c (Pipeline.arrRef spec14 6) = (dat14 (fun c b => Vin14 m c b) c).arrAt 6 cfg14.N := by
  have h : Vout14 m c (Pipeline.arrRef spec14 6) = outs m 30 main_v283_0 c := upd2_fst (by decide)
  rw [h, outs_at14, Vin14_eq]
  exact Pipeline.withArrays_arr spec14 launch14.win.arr_inj c _ _ 6
/-- Output window 7 of region 14: its array `main_v283_1` at the exit holds the write-backs folded over all grid points. -/
theorem Vout_14_7 (c : Dev nD) : Vout14 m c (Pipeline.arrRef spec14 7) = (dat14 (fun c b => Vin14 m c b) c).arrAt 7 cfg14.N := by
  have h : Vout14 m c (Pipeline.arrRef spec14 7) = outs m 30 main_v283_1 c := Function.update_self _ _ _
  rw [h, outs_at14, Vin14_eq]
  exact Pipeline.withArrays_arr spec14 launch14.win.arr_inj c _ _ 7
/-- At region 14's exit every array of it holds what the pipeline leaves. -/
theorem hF_14 (c : Dev nD) : ∀ w : Fin cfg14.W,
    (dat14 (fun c b => Vin14 m c b) c).arrAt w cfg14.N = Vout14 m c (Pipeline.arrRef spec14 w)
  | 0 => hF_in14 m c 0 rfl (by decide)
  | 1 => hF_in14 m c 1 rfl (by decide)
  | 2 => hF_in14 m c 2 rfl (by decide)
  | 3 => hF_in14 m c 3 rfl (by decide)
  | 4 => hF_in14 m c 4 rfl (by decide)
  | 5 => hF_in14 m c 5 rfl (by decide)
  | 6 => (Vout_14_6 m c).symm
  | 7 => (Vout_14_7 m c).symm
  | ⟨_ + 8, h⟩ => absurd h (Nat.not_lt.2 (Nat.le_add_left _ _))
/-- At region 14's exit every buffer that is no array of it holds what it held at entry. -/
theorem hrest_14 (c : Dev nD) : ∀ b, b ∉ Finset.univ.image (Pipeline.arrRef spec14) → Vout14 m c b = Vin14 m c b :=
  fun b hb => GenP.V30_of m (outs m) c b fun h => hb <| by
    simp only [List.mem_cons, List.mem_nil_iff, or_false] at h
    rcases h with rfl | rfl
    · exact Finset.mem_image.mpr ⟨6, Finset.mem_univ _, rfl⟩
    · exact Finset.mem_image.mpr ⟨7, Finset.mem_univ _, rfl⟩

/-! ## The proof data family and what rides beside the buffers -/

/-- Every pipeline's proof data, each at its region's entry contents: a literal match, so that the family at a numeral
    is that region's data by unfolding. -/
def pdats : (p : Fin 15) → (c : Dev nD) → Dat τ (Elt F) Unit ℕ (Pipeline.UD sig nD τ) ℕ (cfgs p) c
  | ⟨0, _⟩ => fun c => dat0 (fun c b => Vin0 m c b) c
  | ⟨1, _⟩ => fun c => dat1 (fun c b => Vin1 m c b) c
  | ⟨2, _⟩ => fun c => dat2 (fun c b => Vin2 m c b) c
  | ⟨3, _⟩ => fun c => dat3 (fun c b => Vin3 m c b) c
  | ⟨4, _⟩ => fun c => dat4 (fun c b => Vin4 m c b) c
  | ⟨5, _⟩ => fun c => dat5 (fun c b => Vin5 m c b) c
  | ⟨6, _⟩ => fun c => dat6 (fun c b => Vin6 m c b) c
  | ⟨7, _⟩ => fun c => dat7 (fun c b => Vin7 m c b) c
  | ⟨8, _⟩ => fun c => dat8 (fun c b => Vin8 m c b) c
  | ⟨9, _⟩ => fun c => dat9 (fun c b => Vin9 m c b) c
  | ⟨10, _⟩ => fun c => dat10 (fun c b => Vin10 m c b) c
  | ⟨11, _⟩ => fun c => dat11 (fun c b => Vin11 m c b) c
  | ⟨12, _⟩ => fun c => dat12 (fun c b => Vin12 m c b) c
  | ⟨13, _⟩ => fun c => dat13 (fun c b => Vin13 m c b) c
  | ⟨14, _⟩ => fun c => dat14 (fun c b => Vin14 m c b) c
  | ⟨_ + 15, h⟩ => absurd h (Nat.not_lt.2 (Nat.le_add_left _ _))

/-- No variant is assigned. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's invariant
    takes it in and gives it back) and the core owing nothing. -/
abbrev R (c : Dev nD) : sProp 𝕄 := iprop((∃ r, prngReg c r) ∗ ∃ W, owes (c : Thread nD τ) (0 : CellTallies nD τ sig Unit) W)

/-- The pipeline indices of the fifteen regions, by name. -/
abbrev pix0 : Fin 15 := 0
abbrev pix1 : Fin 15 := 1
abbrev pix2 : Fin 15 := 2
abbrev pix3 : Fin 15 := 3
abbrev pix4 : Fin 15 := 4
abbrev pix5 : Fin 15 := 5
abbrev pix6 : Fin 15 := 6
abbrev pix7 : Fin 15 := 7
abbrev pix8 : Fin 15 := 8
abbrev pix9 : Fin 15 := 9
abbrev pix10 : Fin 15 := 10
abbrev pix11 : Fin 15 := 11
abbrev pix12 : Fin 15 := 12
abbrev pix13 : Fin 15 := 13
abbrev pix14 : Fin 15 := 14

end Cert.Kernel.Hand

end
-- ==== Proof.K.Seg0.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin0` and left at `Vout0`. -/
def reg0 : Pipeline.RegionSeg (pcfgs (F := F)) GenP.adm (pdats m) () defs₀ 𝒱₀ L lv pix0 where
  win := launch0.win.to₀
  block_pos := launch0.block_pos
  stage_whole := launch0.stage_whole
  K := PEmpty
  osem k := k.elim
  ho := Pipeline.OwnSemFacts.none _
  hbody c := (body_obligation0 (fun c b => Vin0 m c b) c).loose
  hwaits := Pipeline.hwaits_of_owed_zero _ _ _ _ L lv pix0 fun _ _ => rfl
  pre c := iprop(StableHlo.held (c : Thread nD τ) (Pipeline.ucRefs τ sig) (Vin0 m c) ∗ R c)
  post c := iprop(StableHlo.held (c : Thread nD τ) (Pipeline.ucRefs τ sig) (Vout0 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (fun b => Vin0 m c b)
  hentry c := by
    rw [Pipeline.ownSems0_none]
    have hsplit := Pipeline.arrays_of_unscopedBufs (p := pix0) (pcfgs (F := F)) GenP.adm (pdats m) launch0.win launch0.arr_whole c
      ((pdats m pix0 c).share_full fun _ => rfl) (fun b => Vin0 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m pix0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := pix0) (pcfgs (F := F)) GenP.adm (Ix := Unit) (Name := ℕ) (U := Pipeline.UD sig nD τ) (Lvl := ℕ)
      launch0.win launch0.arr_whole c (pdats m) ((pdats m pix0 c).share_full fun _ => rfl)
      (fun b => Vin0 m c b) (fun b => Vout0 m c b) ((pdats m pix0 c).arrAt · cfg0.N) (hF_0 m c) (hrest_0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin1` and left at `Vout1`. -/
def reg1 : Pipeline.RegionSeg (pcfgs (F := F)) GenP.adm (pdats m) () defs₀ 𝒱₀ L lv pix1 where
  win := launch1.win.to₀
  block_pos := launch1.block_pos
  stage_whole := launch1.stage_whole
  K := PEmpty
  osem k := k.elim
  ho := Pipeline.OwnSemFacts.none _
  hbody c := (body_obligation1 (fun c b => Vin1 m c b) c).loose
  hwaits := Pipeline.hwaits_of_owed_zero _ _ _ _ L lv pix1 fun _ _ => rfl
  pre c := iprop(StableHlo.held (c : Thread nD τ) (Pipeline.ucRefs τ sig) (Vin1 m c) ∗ R c)
  post c := iprop(StableHlo.held (c : Thread nD τ) (Pipeline.ucRefs τ sig) (Vout1 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (fun b => Vin1 m c b)
  hentry c := by
    rw [Pipeline.ownSems0_none]
    have hsplit := Pipeline.arrays_of_unscopedBufs (p := pix1) (pcfgs (F := F)) GenP.adm (pdats m) launch1.win launch1.arr_whole c
      ((pdats m pix1 c).share_full fun _ => rfl) (fun b => Vin1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m pix1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := pix1) (pcfgs (F := F)) GenP.adm (Ix := Unit) (Name := ℕ) (U := Pipeline.UD sig nD τ) (Lvl := ℕ)
      launch1.win launch1.arr_whole c (pdats m) ((pdats m pix1 c).share_full fun _ => rfl)
      (fun b => Vin1 m c b) (fun b => Vout1 m c b) ((pdats m pix1 c).arrAt · cfg1.N) (hF_1 m c) (hrest_1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin2` and left at `Vout2`. -/
def reg2 : Pipeline.RegionSeg (pcfgs (F := F)) GenP.adm (pdats m) () defs₀ 𝒱₀ L lv pix2 where
  win := launch2.win.to₀
  block_pos := launch2.block_pos
  stage_whole := launch2.stage_whole
  K := PEmpty
  osem k := k.elim
  ho := Pipeline.OwnSemFacts.none _
  hbody c := (body_obligation2 (fun c b => Vin2 m c b) c).loose
  hwaits := Pipeline.hwaits_of_owed_zero _ _ _ _ L lv pix2 fun _ _ => rfl
  pre c := iprop(StableHlo.held (c : Thread nD τ) (Pipeline.ucRefs τ sig) (Vin2 m c) ∗ R c)
  post c := iprop(StableHlo.held (c : Thread nD τ) (Pipeline.ucRefs τ sig) (Vout2 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (fun b => Vin2 m c b)
  hentry c := by
    rw [Pipeline.ownSems0_none]
    have hsplit := Pipeline.arrays_of_unscopedBufs (p := pix2) (pcfgs (F := F)) GenP.adm (pdats m) launch2.win launch2.arr_whole c
      ((pdats m pix2 c).share_full fun _ => rfl) (fun b => Vin2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m pix2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := pix2) (pcfgs (F := F)) GenP.adm (Ix := Unit) (Name := ℕ) (U := Pipeline.UD sig nD τ) (Lvl := ℕ)
      launch2.win launch2.arr_whole c (pdats m) ((pdats m pix2 c).share_full fun _ => rfl)
      (fun b => Vin2 m c b) (fun b => Vout2 m c b) ((pdats m pix2 c).arrAt · cfg2.N) (hF_2 m c) (hrest_2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin3` and left at `Vout3`. -/
def reg3 : Pipeline.RegionSeg (pcfgs (F := F)) GenP.adm (pdats m) () defs₀ 𝒱₀ L lv pix3 where
  win := launch3.win.to₀
  block_pos := launch3.block_pos
  stage_whole := launch3.stage_whole
  K := PEmpty
  osem k := k.elim
  ho := Pipeline.OwnSemFacts.none _
  hbody c := (body_obligation3 (fun c b => Vin3 m c b) c).loose
  hwaits := Pipeline.hwaits_of_owed_zero _ _ _ _ L lv pix3 fun _ _ => rfl
  pre c := iprop(StableHlo.held (c : Thread nD τ) (Pipeline.ucRefs τ sig) (Vin3 m c) ∗ R c)
  post c := iprop(StableHlo.held (c : Thread nD τ) (Pipeline.ucRefs τ sig) (Vout3 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (fun b => Vin3 m c b)
  hentry c := by
    rw [Pipeline.ownSems0_none]
    have hsplit := Pipeline.arrays_of_unscopedBufs (p := pix3) (pcfgs (F := F)) GenP.adm (pdats m) launch3.win launch3.arr_whole c
      ((pdats m pix3 c).share_full fun _ => rfl) (fun b => Vin3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m pix3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := pix3) (pcfgs (F := F)) GenP.adm (Ix := Unit) (Name := ℕ) (U := Pipeline.UD sig nD τ) (Lvl := ℕ)
      launch3.win launch3.arr_whole c (pdats m) ((pdats m pix3 c).share_full fun _ => rfl)
      (fun b => Vin3 m c b) (fun b => Vout3 m c b) ((pdats m pix3 c).arrAt · cfg3.N) (hF_3 m c) (hrest_3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin4` and left at `Vout4`. -/
def reg4 : Pipeline.RegionSeg (pcfgs (F := F)) GenP.adm (pdats m) () defs₀ 𝒱₀ L lv pix4 where
  win := launch4.win.to₀
  block_pos := launch4.block_pos
  stage_whole := launch4.stage_whole
  K := PEmpty
  osem k := k.elim
  ho := Pipeline.OwnSemFacts.none _
  hbody c := (body_obligation4 (fun c b => Vin4 m c b) c).loose
  hwaits := Pipeline.hwaits_of_owed_zero _ _ _ _ L lv pix4 fun _ _ => rfl
  pre c := iprop(StableHlo.held (c : Thread nD τ) (Pipeline.ucRefs τ sig) (Vin4 m c) ∗ R c)
  post c := iprop(StableHlo.held (c : Thread nD τ) (Pipeline.ucRefs τ sig) (Vout4 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (fun b => Vin4 m c b)
  hentry c := by
    rw [Pipeline.ownSems0_none]
    have hsplit := Pipeline.arrays_of_unscopedBufs (p := pix4) (pcfgs (F := F)) GenP.adm (pdats m) launch4.win launch4.arr_whole c
      ((pdats m pix4 c).share_full fun _ => rfl) (fun b => Vin4 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m pix4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := pix4) (pcfgs (F := F)) GenP.adm (Ix := Unit) (Name := ℕ) (U := Pipeline.UD sig nD τ) (Lvl := ℕ)
      launch4.win launch4.arr_whole c (pdats m) ((pdats m pix4 c).share_full fun _ => rfl)
      (fun b => Vin4 m c b) (fun b => Vout4 m c b) ((pdats m pix4 c).arrAt · cfg4.N) (hF_4 m c) (hrest_4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin5` and left at `Vout5`. -/
def reg5 : Pipeline.RegionSeg (pcfgs (F := F)) GenP.adm (pdats m) () defs₀ 𝒱₀ L lv pix5 where
  win := launch5.win.to₀
  block_pos := launch5.block_pos
  stage_whole := launch5.stage_whole
  K := PEmpty
  osem k := k.elim
  ho := Pipeline.OwnSemFacts.none _
  hbody c := (body_obligation5 (fun c b => Vin5 m c b) c).loose
  hwaits := Pipeline.hwaits_of_owed_zero _ _ _ _ L lv pix5 fun _ _ => rfl
  pre c := iprop(StableHlo.held (c : Thread nD τ) (Pipeline.ucRefs τ sig) (Vin5 m c) ∗ R c)
  post c := iprop(StableHlo.held (c : Thread nD τ) (Pipeline.ucRefs τ sig) (Vout5 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (fun b => Vin5 m c b)
  hentry c := by
    rw [Pipeline.ownSems0_none]
    have hsplit := Pipeline.arrays_of_unscopedBufs (p := pix5) (pcfgs (F := F)) GenP.adm (pdats m) launch5.win launch5.arr_whole c
      ((pdats m pix5 c).share_full fun _ => rfl) (fun b => Vin5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m pix5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := pix5) (pcfgs (F := F)) GenP.adm (Ix := Unit) (Name := ℕ) (U := Pipeline.UD sig nD τ) (Lvl := ℕ)
      launch5.win launch5.arr_whole c (pdats m) ((pdats m pix5 c).share_full fun _ => rfl)
      (fun b => Vin5 m c b) (fun b => Vout5 m c b) ((pdats m pix5 c).arrAt · cfg5.N) (hF_5 m c) (hrest_5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg6.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin6` and left at `Vout6`. -/
def reg6 : Pipeline.RegionSeg (pcfgs (F := F)) GenP.adm (pdats m) () defs₀ 𝒱₀ L lv pix6 where
  win := launch6.win.to₀
  block_pos := launch6.block_pos
  stage_whole := launch6.stage_whole
  K := PEmpty
  osem k := k.elim
  ho := Pipeline.OwnSemFacts.none _
  hbody c := (body_obligation6 (fun c b => Vin6 m c b) c).loose
  hwaits := Pipeline.hwaits_of_owed_zero _ _ _ _ L lv pix6 fun _ _ => rfl
  pre c := iprop(StableHlo.held (c : Thread nD τ) (Pipeline.ucRefs τ sig) (Vin6 m c) ∗ R c)
  post c := iprop(StableHlo.held (c : Thread nD τ) (Pipeline.ucRefs τ sig) (Vout6 m c) ∗ R c)
  X c := iprop(∃ r, prngReg c r)
  Y c := iprop(∃ r, prngReg c r)
  Z c := Pipeline.unscopedRest (Ix := Unit) (Name := ℕ) (U := Pipeline.UD sig nD τ) (Lvl := ℕ) spec6 c (fun b => Vin6 m c b)
  hentry c := by
    rw [Pipeline.ownSems0_none]
    have hsplit := Pipeline.arrays_of_unscopedBufs (p := pix6) (pcfgs (F := F)) GenP.adm (pdats m) launch6.win launch6.arr_whole c
      ((pdats m pix6 c).share_full fun _ => rfl) (fun b => Vin6 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m pix6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := pix6) (pcfgs (F := F)) GenP.adm (Ix := Unit) (Name := ℕ) (U := Pipeline.UD sig nD τ) (Lvl := ℕ)
      launch6.win launch6.arr_whole c (pdats m) ((pdats m pix6 c).share_full fun _ => rfl)
      (fun b => Vin6 m c b) (fun b => Vout6 m c b) ((pdats m pix6 c).arrAt · cfg6.N) (hF_6 m c) (hrest_6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg7.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin7` and left at `Vout7`. -/
def reg7 : Pipeline.RegionSeg (pcfgs (F := F)) GenP.adm (pdats m) () defs₀ 𝒱₀ L lv pix7 where
  win := launch7.win.to₀
  block_pos := launch7.block_pos
  stage_whole := launch7.stage_whole
  K := PEmpty
  osem k := k.elim
  ho := Pipeline.OwnSemFacts.none _
  hbody c := (body_obligation7 (fun c b => Vin7 m c b) c).loose
  hwaits := Pipeline.hwaits_of_owed_zero _ _ _ _ L lv pix7 fun _ _ => rfl
  pre c := iprop(StableHlo.held (c : Thread nD τ) (Pipeline.ucRefs τ sig) (Vin7 m c) ∗ R c)
  post c := iprop(StableHlo.held (c : Thread nD τ) (Pipeline.ucRefs τ sig) (Vout7 m c) ∗ R c)
  X c := iprop(∃ r, prngReg c r)
  Y c := iprop(∃ r, prngReg c r)
  Z c := Pipeline.unscopedRest (Ix := Unit) (Name := ℕ) (U := Pipeline.UD sig nD τ) (Lvl := ℕ) spec7 c (fun b => Vin7 m c b)
  hentry c := by
    rw [Pipeline.ownSems0_none]
    have hsplit := Pipeline.arrays_of_unscopedBufs (p := pix7) (pcfgs (F := F)) GenP.adm (pdats m) launch7.win launch7.arr_whole c
      ((pdats m pix7 c).share_full fun _ => rfl) (fun b => Vin7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m pix7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := pix7) (pcfgs (F := F)) GenP.adm (Ix := Unit) (Name := ℕ) (U := Pipeline.UD sig nD τ) (Lvl := ℕ)
      launch7.win launch7.arr_whole c (pdats m) ((pdats m pix7 c).share_full fun _ => rfl)
      (fun b => Vin7 m c b) (fun b => Vout7 m c b) ((pdats m pix7 c).arrAt · cfg7.N) (hF_7 m c) (hrest_7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg8.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin8` and left at `Vout8`. -/
def reg8 : Pipeline.RegionSeg (pcfgs (F := F)) GenP.adm (pdats m) () defs₀ 𝒱₀ L lv pix8 where
  win := launch8.win.to₀
  block_pos := launch8.block_pos
  stage_whole := launch8.stage_whole
  K := PEmpty
  osem k := k.elim
  ho := Pipeline.OwnSemFacts.none _
  hbody c := (body_obligation8 (fun c b => Vin8 m c b) c).loose
  hwaits := Pipeline.hwaits_of_owed_zero _ _ _ _ L lv pix8 fun _ _ => rfl
  pre c := iprop(StableHlo.held (c : Thread nD τ) (Pipeline.ucRefs τ sig) (Vin8 m c) ∗ R c)
  post c := iprop(StableHlo.held (c : Thread nD τ) (Pipeline.ucRefs τ sig) (Vout8 m c) ∗ R c)
  X c := iprop(∃ r, prngReg c r)
  Y c := iprop(∃ r, prngReg c r)
  Z c := Pipeline.unscopedRest (Ix := Unit) (Name := ℕ) (U := Pipeline.UD sig nD τ) (Lvl := ℕ) spec8 c (fun b => Vin8 m c b)
  hentry c := by
    rw [Pipeline.ownSems0_none]
    have hsplit := Pipeline.arrays_of_unscopedBufs (p := pix8) (pcfgs (F := F)) GenP.adm (pdats m) launch8.win launch8.arr_whole c
      ((pdats m pix8 c).share_full fun _ => rfl) (fun b => Vin8 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m pix8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := pix8) (pcfgs (F := F)) GenP.adm (Ix := Unit) (Name := ℕ) (U := Pipeline.UD sig nD τ) (Lvl := ℕ)
      launch8.win launch8.arr_whole c (pdats m) ((pdats m pix8 c).share_full fun _ => rfl)
      (fun b => Vin8 m c b) (fun b => Vout8 m c b) ((pdats m pix8 c).arrAt · cfg8.N) (hF_8 m c) (hrest_8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg9.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin9` and left at `Vout9`. -/
def reg9 : Pipeline.RegionSeg (pcfgs (F := F)) GenP.adm (pdats m) () defs₀ 𝒱₀ L lv pix9 where
  win := launch9.win.to₀
  block_pos := launch9.block_pos
  stage_whole := launch9.stage_whole
  K := PEmpty
  osem k := k.elim
  ho := Pipeline.OwnSemFacts.none _
  hbody c := (body_obligation9 (fun c b => Vin9 m c b) c).loose
  hwaits := Pipeline.hwaits_of_owed_zero _ _ _ _ L lv pix9 fun _ _ => rfl
  pre c := iprop(StableHlo.held (c : Thread nD τ) (Pipeline.ucRefs τ sig) (Vin9 m c) ∗ R c)
  post c := iprop(StableHlo.held (c : Thread nD τ) (Pipeline.ucRefs τ sig) (Vout9 m c) ∗ R c)
  X c := iprop(∃ r, prngReg c r)
  Y c := iprop(∃ r, prngReg c r)
  Z c := Pipeline.unscopedRest (Ix := Unit) (Name := ℕ) (U := Pipeline.UD sig nD τ) (Lvl := ℕ) spec9 c (fun b => Vin9 m c b)
  hentry c := by
    rw [Pipeline.ownSems0_none]
    have hsplit := Pipeline.arrays_of_unscopedBufs (p := pix9) (pcfgs (F := F)) GenP.adm (pdats m) launch9.win launch9.arr_whole c
      ((pdats m pix9 c).share_full fun _ => rfl) (fun b => Vin9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m pix9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := pix9) (pcfgs (F := F)) GenP.adm (Ix := Unit) (Name := ℕ) (U := Pipeline.UD sig nD τ) (Lvl := ℕ)
      launch9.win launch9.arr_whole c (pdats m) ((pdats m pix9 c).share_full fun _ => rfl)
      (fun b => Vin9 m c b) (fun b => Vout9 m c b) ((pdats m pix9 c).arrAt · cfg9.N) (hF_9 m c) (hrest_9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg10.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin10` and left at `Vout10`. -/
def reg10 : Pipeline.RegionSeg (pcfgs (F := F)) GenP.adm (pdats m) () defs₀ 𝒱₀ L lv pix10 where
  win := launch10.win.to₀
  block_pos := launch10.block_pos
  stage_whole := launch10.stage_whole
  K := PEmpty
  osem k := k.elim
  ho := Pipeline.OwnSemFacts.none _
  hbody c := (body_obligation10 (fun c b => Vin10 m c b) c).loose
  hwaits := Pipeline.hwaits_of_owed_zero _ _ _ _ L lv pix10 fun _ _ => rfl
  pre c := iprop(StableHlo.held (c : Thread nD τ) (Pipeline.ucRefs τ sig) (Vin10 m c) ∗ R c)
  post c := iprop(StableHlo.held (c : Thread nD τ) (Pipeline.ucRefs τ sig) (Vout10 m c) ∗ R c)
  X c := iprop(∃ r, prngReg c r)
  Y c := iprop(∃ r, prngReg c r)
  Z c := Pipeline.unscopedRest (Ix := Unit) (Name := ℕ) (U := Pipeline.UD sig nD τ) (Lvl := ℕ) spec10 c (fun b => Vin10 m c b)
  hentry c := by
    rw [Pipeline.ownSems0_none]
    have hsplit := Pipeline.arrays_of_unscopedBufs (p := pix10) (pcfgs (F := F)) GenP.adm (pdats m) launch10.win launch10.arr_whole c
      ((pdats m pix10 c).share_full fun _ => rfl) (fun b => Vin10 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m pix10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := pix10) (pcfgs (F := F)) GenP.adm (Ix := Unit) (Name := ℕ) (U := Pipeline.UD sig nD τ) (Lvl := ℕ)
      launch10.win launch10.arr_whole c (pdats m) ((pdats m pix10 c).share_full fun _ => rfl)
      (fun b => Vin10 m c b) (fun b => Vout10 m c b) ((pdats m pix10 c).arrAt · cfg10.N) (hF_10 m c) (hrest_10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg11.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin11` and left at `Vout11`. -/
def reg11 : Pipeline.RegionSeg (pcfgs (F := F)) GenP.adm (pdats m) () defs₀ 𝒱₀ L lv pix11 where
  win := launch11.win.to₀
  block_pos := launch11.block_pos
  stage_whole := launch11.stage_whole
  K := PEmpty
  osem k := k.elim
  ho := Pipeline.OwnSemFacts.none _
  hbody c := (body_obligation11 (fun c b => Vin11 m c b) c).loose
  hwaits := Pipeline.hwaits_of_owed_zero _ _ _ _ L lv pix11 fun _ _ => rfl
  pre c := iprop(StableHlo.held (c : Thread nD τ) (Pipeline.ucRefs τ sig) (Vin11 m c) ∗ R c)
  post c := iprop(StableHlo.held (c : Thread nD τ) (Pipeline.ucRefs τ sig) (Vout11 m c) ∗ R c)
  X c := iprop(∃ r, prngReg c r)
  Y c := iprop(∃ r, prngReg c r)
  Z c := Pipeline.unscopedRest (Ix := Unit) (Name := ℕ) (U := Pipeline.UD sig nD τ) (Lvl := ℕ) spec11 c (fun b => Vin11 m c b)
  hentry c := by
    rw [Pipeline.ownSems0_none]
    have hsplit := Pipeline.arrays_of_unscopedBufs (p := pix11) (pcfgs (F := F)) GenP.adm (pdats m) launch11.win launch11.arr_whole c
      ((pdats m pix11 c).share_full fun _ => rfl) (fun b => Vin11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m pix11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := pix11) (pcfgs (F := F)) GenP.adm (Ix := Unit) (Name := ℕ) (U := Pipeline.UD sig nD τ) (Lvl := ℕ)
      launch11.win launch11.arr_whole c (pdats m) ((pdats m pix11 c).share_full fun _ => rfl)
      (fun b => Vin11 m c b) (fun b => Vout11 m c b) ((pdats m pix11 c).arrAt · cfg11.N) (hF_11 m c) (hrest_11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg12.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin12` and left at `Vout12`. -/
def reg12 : Pipeline.RegionSeg (pcfgs (F := F)) GenP.adm (pdats m) () defs₀ 𝒱₀ L lv pix12 where
  win := launch12.win.to₀
  block_pos := launch12.block_pos
  stage_whole := launch12.stage_whole
  K := PEmpty
  osem k := k.elim
  ho := Pipeline.OwnSemFacts.none _
  hbody c := (body_obligation12 (fun c b => Vin12 m c b) c).loose
  hwaits := Pipeline.hwaits_of_owed_zero _ _ _ _ L lv pix12 fun _ _ => rfl
  pre c := iprop(StableHlo.held (c : Thread nD τ) (Pipeline.ucRefs τ sig) (Vin12 m c) ∗ R c)
  post c := iprop(StableHlo.held (c : Thread nD τ) (Pipeline.ucRefs τ sig) (Vout12 m c) ∗ R c)
  X c := iprop(∃ r, prngReg c r)
  Y c := iprop(∃ r, prngReg c r)
  Z c := Pipeline.unscopedRest (Ix := Unit) (Name := ℕ) (U := Pipeline.UD sig nD τ) (Lvl := ℕ) spec12 c (fun b => Vin12 m c b)
  hentry c := by
    rw [Pipeline.ownSems0_none]
    have hsplit := Pipeline.arrays_of_unscopedBufs (p := pix12) (pcfgs (F := F)) GenP.adm (pdats m) launch12.win launch12.arr_whole c
      ((pdats m pix12 c).share_full fun _ => rfl) (fun b => Vin12 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m pix12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := pix12) (pcfgs (F := F)) GenP.adm (Ix := Unit) (Name := ℕ) (U := Pipeline.UD sig nD τ) (Lvl := ℕ)
      launch12.win launch12.arr_whole c (pdats m) ((pdats m pix12 c).share_full fun _ => rfl)
      (fun b => Vin12 m c b) (fun b => Vout12 m c b) ((pdats m pix12 c).arrAt · cfg12.N) (hF_12 m c) (hrest_12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg13.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin13` and left at `Vout13`. -/
def reg13 : Pipeline.RegionSeg (pcfgs (F := F)) GenP.adm (pdats m) () defs₀ 𝒱₀ L lv pix13 where
  win := launch13.win.to₀
  block_pos := launch13.block_pos
  stage_whole := launch13.stage_whole
  K := PEmpty
  osem k := k.elim
  ho := Pipeline.OwnSemFacts.none _
  hbody c := (body_obligation13 (fun c b => Vin13 m c b) c).loose
  hwaits := Pipeline.hwaits_of_owed_zero _ _ _ _ L lv pix13 fun _ _ => rfl
  pre c := iprop(StableHlo.held (c : Thread nD τ) (Pipeline.ucRefs τ sig) (Vin13 m c) ∗ R c)
  post c := iprop(StableHlo.held (c : Thread nD τ) (Pipeline.ucRefs τ sig) (Vout13 m c) ∗ R c)
  X c := iprop(∃ r, prngReg c r)
  Y c := iprop(∃ r, prngReg c r)
  Z c := Pipeline.unscopedRest (Ix := Unit) (Name := ℕ) (U := Pipeline.UD sig nD τ) (Lvl := ℕ) spec13 c (fun b => Vin13 m c b)
  hentry c := by
    rw [Pipeline.ownSems0_none]
    have hsplit := Pipeline.arrays_of_unscopedBufs (p := pix13) (pcfgs (F := F)) GenP.adm (pdats m) launch13.win launch13.arr_whole c
      ((pdats m pix13 c).share_full fun _ => rfl) (fun b => Vin13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m pix13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := pix13) (pcfgs (F := F)) GenP.adm (Ix := Unit) (Name := ℕ) (U := Pipeline.UD sig nD τ) (Lvl := ℕ)
      launch13.win launch13.arr_whole c (pdats m) ((pdats m pix13 c).share_full fun _ => rfl)
      (fun b => Vin13 m c b) (fun b => Vout13 m c b) ((pdats m pix13 c).arrAt · cfg13.N) (hF_13 m c) (hrest_13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg14.lean ====
import proofs.«422260_j36421322670663_2_alg».proof.Proof.K.Chain

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin14` and left at `Vout14`. -/
def reg14 : Pipeline.RegionSeg (pcfgs (F := F)) GenP.adm (pdats m) () defs₀ 𝒱₀ L lv pix14 where
  win := launch14.win.to₀
  block_pos := launch14.block_pos
  stage_whole := launch14.stage_whole
  K := PEmpty
  osem k := k.elim
  ho := Pipeline.OwnSemFacts.none _
  hbody c := (body_obligation14 (fun c b => Vin14 m c b) c).loose
  hwaits := Pipeline.hwaits_of_owed_zero _ _ _ _ L lv pix14 fun _ _ => rfl
  pre c := iprop(StableHlo.held (c : Thread nD τ) (Pipeline.ucRefs τ sig) (Vin14 m c) ∗ R c)
  post c := iprop(StableHlo.held (c : Thread nD τ) (Pipeline.ucRefs τ sig) (Vout14 m c) ∗ R c)
  X c := iprop(∃ r, prngReg c r)
  Y c := iprop(∃ r, prngReg c r)
  Z c := Pipeline.unscopedRest (Ix := Unit) (Name := ℕ) (U := Pipeline.UD sig nD τ) (Lvl := ℕ) spec14 c (fun b => Vin14 m c b)
  hentry c := by
    rw [Pipeline.ownSems0_none]
    have hsplit := Pipeline.arrays_of_unscopedBufs (p := pix14) (pcfgs (F := F)) GenP.adm (pdats m) launch14.win launch14.arr_whole c
      ((pdats m pix14 c).share_full fun _ => rfl) (fun b => Vin14 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m pix14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := pix14) (pcfgs (F := F)) GenP.adm (Ix := Unit) (Name := ℕ) (U := Pipeline.UD sig nD τ) (Lvl := ℕ)
      launch14.win launch14.arr_whole c (pdats m) ((pdats m pix14 c).share_full fun _ => rfl)
      (fun b => Vin14 m c b) (fun b => Vout14 m c b) ((pdats m pix14 c).arrAt · cfg14.N) (hF_14 m c) (hrest_14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
import proofs.«422260_j36421322670663_2_alg».proof.Proof.K.Seg0
import proofs.«422260_j36421322670663_2_alg».proof.Proof.K.Seg1
import proofs.«422260_j36421322670663_2_alg».proof.Proof.K.Seg2
import proofs.«422260_j36421322670663_2_alg».proof.Proof.K.Seg3
import proofs.«422260_j36421322670663_2_alg».proof.Proof.K.Seg4
import proofs.«422260_j36421322670663_2_alg».proof.Proof.K.Seg5
import proofs.«422260_j36421322670663_2_alg».proof.Proof.K.Seg6
import proofs.«422260_j36421322670663_2_alg».proof.Proof.K.Seg7
import proofs.«422260_j36421322670663_2_alg».proof.Proof.K.Seg8
import proofs.«422260_j36421322670663_2_alg».proof.Proof.K.Seg9
import proofs.«422260_j36421322670663_2_alg».proof.Proof.K.Seg10
import proofs.«422260_j36421322670663_2_alg».proof.Proof.K.Seg11
import proofs.«422260_j36421322670663_2_alg».proof.Proof.K.Seg12
import proofs.«422260_j36421322670663_2_alg».proof.Proof.K.Seg13
import proofs.«422260_j36421322670663_2_alg».proof.Proof.K.Seg14

-- decided inequalities among the program's 597 references recurse past the default depth
set_option maxRecDepth 2900

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-! # The launch: @main's thirty-three items run from the launch memory

Every host stretch is a segment over the unscoped buffers at the valuation before it, every kernel region the segment
record of its module; consecutive thread states agree by name. At the launch each core holds its unscoped buffers at the
launch memory, its generator register and owes nothing; at the end the last valuation is read off the final memory. -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What rides beside the buffers ends owing nothing. -/
theorem R_owes (c : Dev nD) : (R c : sProp 𝕄) ⊢ iprop(∃ W, owes (c : Thread nD τ) (0 : CellTallies nD τ sig Unit) W) := by
  iintro ⟨-, HO⟩; iexact HO

-- the launch theorem's implicit arguments are found by unifying its conclusion with this one, which takes unfolding
-- plain definitions in a metavariable's type
set_option backward.isDefEq.respectTransparency.types false in
/-- THE RUN. Every weakly fair execution of @main from memory `m` with zero counters terminates, and any property of the
    final memory that follows from "every unscoped buffer of every core holds the last valuation" holds of it. -/
theorem run_post (ρ : Dev nD → PrngReg) {Q : PUnit × MemSt nD τ sig (Elt F) → Prop}
    (hQ : ∀ s : MemSt nD τ sig (Elt F),
      (∀ c : Dev nD, ∀ b ∈ Pipeline.ucRefs τ sig, s.mem (((c : Thread nD τ)).1, b) = GenP.V33 m (outs m) c b) → Q (⟨⟩, s)) :
    θ_run defs (onTc (τ := τ) (main (F := F))) ⟨m, fun _ => 0, ρ⟩ Q := by
  refine Pipeline.θ_run_regions_kit_dev (pcfgs (F := F)) GenP.adm (pdats m) () cellOf_inj embL defs₀ 𝒱₀ L lv m ρ main
    (GenP.segs m (outs m) 𝒱₀ L lv (fun _ => R) () (pdats m) (reg0 m) (reg1 m) (reg2 m) (reg3 m) (reg4 m) (reg5 m) (reg6 m) (reg7 m) (reg8 m) (reg9 m) (reg10 m) (reg11 m) (reg12 m) (reg13 m) (reg14 m))
    (fun c Q => by
      rewrite [main_chain c, Seg.run_eq_chain,
        show (GenP.segs m (outs m) 𝒱₀ L lv (fun _ => R) () (pdats m) (reg0 m) (reg1 m) (reg2 m) (reg3 m) (reg4 m) (reg5 m) (reg6 m) (reg7 m) (reg8 m) (reg9 m) (reg10 m) (reg11 m) (reg12 m) (reg13 m) (reg14 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          StableHlo.seq hostOps15_1,
          StableHlo.seq hostOps15_2 ] from rfl]
      with_reducible exact .rfl)
    (fun c => by simp only [GenP.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := ?_)
    (T₀ := fun c => iprop(StableHlo.held (c : Thread nD τ) (Pipeline.ucRefs τ sig) (GenP.V0 m c) ∗ R c))
    (Tₙ := fun c => StableHlo.held (c : Thread nD τ) (Pipeline.ucRefs τ sig) (GenP.V33 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (R_owes c)⟩)
    (hinit := ?_)
    (QY := fun c s => ∀ b ∈ Pipeline.ucRefs τ sig, s.mem (((c : Thread nD τ)).1, b) = GenP.V33 m (outs m) c b)
    (hfin := fun c s' => ?_) (hQ := hQ)
  · -- the launch element is the pipelines' beside a unit; no core needs a ghost resource of its own
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · -- the first thread state, core by core: the buffers at the launch memory, the register, nothing owed
    refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · -- the end: the last valuation read off the final memory
    iintro ⟨Hh, HSI⟩
    unfold StableHlo.held
    imodintro
    iapply (pointsTo_read_all (Pipeline.ucRefs τ sig) (fun b => (((c : Thread nD τ)).1, b)) (GenP.V33 m (outs m) c) s')
    isplitl [Hh] <;> iassumption

/-- Every unscoped buffer of every core ends at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = GenP.V33 m (outs m) c b) :=
  run_post m ρ fun _ h => h

/-- THE FRAME: every argument array ends holding its launch contents (no item of @main writes an argument). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_post m ρ fun s h c =>
    ⟨(h c _ (mem_uc main_arg0 (by decide))).trans (GenP.V33_main_arg0 m (outs m) c),
      (h c _ (mem_uc main_arg1 (by decide))).trans (GenP.V33_main_arg1 m (outs m) c),
      (h c _ (mem_uc main_arg2 (by decide))).trans (GenP.V33_main_arg2 m (outs m) c),
      (h c _ (mem_uc main_arg3 (by decide))).trans (GenP.V33_main_arg3 m (outs m) c),
      (h c _ (mem_uc main_arg4 (by decide))).trans (GenP.V33_main_arg4 m (outs m) c),
      (h c _ (mem_uc main_arg5 (by decide))).trans (GenP.V33_main_arg5 m (outs m) c),
      (h c _ (mem_uc main_arg6 (by decide))).trans (GenP.V33_main_arg6 m (outs m) c),
      (h c _ (mem_uc main_arg7 (by decide))).trans (GenP.V33_main_arg7 m (outs m) c),
      (h c _ (mem_uc main_arg8 (by decide))).trans (GenP.V33_main_arg8 m (outs m) c),
      (h c _ (mem_uc main_arg9 (by decide))).trans (GenP.V33_main_arg9 m (outs m) c),
      (h c _ (mem_uc main_arg10 (by decide))).trans (GenP.V33_main_arg10 m (outs m) c),
      (h c _ (mem_uc main_arg11 (by decide))).trans (GenP.V33_main_arg11 m (outs m) c),
      (h c _ (mem_uc main_arg12 (by decide))).trans (GenP.V33_main_arg12 m (outs m) c),
      (h c _ (mem_uc main_arg13 (by decide))).trans (GenP.V33_main_arg13 m (outs m) c),
      (h c _ (mem_uc main_arg14 (by decide))).trans (GenP.V33_main_arg14 m (outs m) c)⟩

/-- The result array ends at the last valuation's contents, beside the frame. -/
theorem result_at (ρ : Dev nD → PrngReg) :
    θ_run defs (onTc (τ := τ) (main (F := F))) ⟨m, fun _ => 0, ρ⟩ (fun r => ∀ c : Dev nD,
      r.2.mem ((c.tc : Thread nD τ).loc main_v294) = GenP.V33 m (outs m) c main_v294
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_post m ρ fun s h c =>
    ⟨h c _ (mem_uc main_v294 (by decide)),
      (h c _ (mem_uc main_arg0 (by decide))).trans (GenP.V33_main_arg0 m (outs m) c),
      (h c _ (mem_uc main_arg1 (by decide))).trans (GenP.V33_main_arg1 m (outs m) c),
      (h c _ (mem_uc main_arg2 (by decide))).trans (GenP.V33_main_arg2 m (outs m) c),
      (h c _ (mem_uc main_arg3 (by decide))).trans (GenP.V33_main_arg3 m (outs m) c),
      (h c _ (mem_uc main_arg4 (by decide))).trans (GenP.V33_main_arg4 m (outs m) c),
      (h c _ (mem_uc main_arg5 (by decide))).trans (GenP.V33_main_arg5 m (outs m) c),
      (h c _ (mem_uc main_arg6 (by decide))).trans (GenP.V33_main_arg6 m (outs m) c),
      (h c _ (mem_uc main_arg7 (by decide))).trans (GenP.V33_main_arg7 m (outs m) c),
      (h c _ (mem_uc main_arg8 (by decide))).trans (GenP.V33_main_arg8 m (outs m) c),
      (h c _ (mem_uc main_arg9 (by decide))).trans (GenP.V33_main_arg9 m (outs m) c),
      (h c _ (mem_uc main_arg10 (by decide))).trans (GenP.V33_main_arg10 m (outs m) c),
      (h c _ (mem_uc main_arg11 (by decide))).trans (GenP.V33_main_arg11 m (outs m) c),
      (h c _ (mem_uc main_arg12 (by decide))).trans (GenP.V33_main_arg12 m (outs m) c),
      (h c _ (mem_uc main_arg13 (by decide))).trans (GenP.V33_main_arg13 m (outs m) c),
      (h c _ (mem_uc main_arg14 (by decide))).trans (GenP.V33_main_arg14 m (outs m) c)⟩

end Cert.Kernel.Hand

end
-- ==== Proof.KI.Reg0.lean ====
/- The frame half of one TensorCore region of @main: the launch, over a grid of row blocks, of the kernel computing a layer's first affine map.
   Everything here is stated at a PARAMETER `V`, the TensorCore's buffer contents when the region is entered: each
   window's block at a grid point, what the kernel body leaves in each output window's staging buffer as a function
   of the input blocks, the body's Hoare triple on whole staging memrefs, the pipeline's proof data over the class's
   invariant, and the body obligation at every grid point. The kernel is of the plainest kind: every operand is a
   pipeline window, every block is loaded whole and every output block is stored whole. -/
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has thousands of coordinates: the structural check recurses once per
-- coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each staging buffer is read and written as one whole rectangle -/

/-- The whole of a row block of features. -/
abbrev r0_0 : Rect S5000x128 := Rect.unit (s := S5000x128) ![0, 0] S5000x128.size inb_S5000x128_S5000x128_0_0
/-- The whole of the weight matrix. -/
abbrev r0_1 : Rect S128x128 := Rect.unit (s := S128x128) ![0, 0] S128x128.size inb_S128x128_S128x128_0_0
/-- The whole of the bias row. -/
abbrev r0_2 : Rect S1x128 := Rect.unit (s := S1x128) ![0, 0] S1x128.size inb_S1x128_S1x128_0_0
/-- The whole of one block's row of column sums. -/
abbrev r0_3 : Rect S1x1x128 := Rect.unit (s := S1x1x128) ![0, 0, 0] S1x1x128.size inb_S1x1x128_S1x1x128_0_0_0

/-! ## What the body leaves in each output window's buffer

Each output buffer receives exactly one store, of the whole buffer; its contents afterwards are that store's payload,
a function of the four input blocks alone (whatever the buffer held before is overwritten). -/

/-- The affine image of the block: the sum of the two feature blocks, times the weights, plus the bias. -/
def out0_4 (x0 : Vec F S5000x128 .f32) (x1 : Vec F S5000x128 .f32) (x2 : Vec F S128x128 .f32) (x3 : Vec F S1x128 .f32) : Vec F S5000x128 .f32 :=
  View.canon [⟨r0_0, k0_pay1 (View.ld x0 r0_0) (View.ld x1 r0_0) (View.ld x2 r0_1) (View.ld x3 r0_2)⟩]

/-- The column sums of that image over the block's rows. -/
def out0_5 (x0 : Vec F S5000x128 .f32) (x1 : Vec F S5000x128 .f32) (x2 : Vec F S128x128 .f32) (x3 : Vec F S1x128 .f32) : Vec F S1x1x128 .f32 :=
  View.canon [⟨r0_3, k0_pay2 (View.ld x0 r0_0) (View.ld x1 r0_0) (View.ld x2 r0_1) (View.ld x3 r0_2)⟩]

/-- The column sums of its squares over the block's rows. -/
def out0_6 (x0 : Vec F S5000x128 .f32) (x1 : Vec F S5000x128 .f32) (x2 : Vec F S128x128 .f32) (x3 : Vec F S1x128 .f32) : Vec F S1x1x128 .f32 :=
  View.canon [⟨r0_3, k0_pay3 (View.ld x0 r0_0) (View.ld x1 r0_0) (View.ld x2 r0_1) (View.ld x3 r0_2)⟩]

/-- A single store of the whole buffer tiles it, so it covers every index. -/
theorem cover0_4 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

theorem cover0_5 (p0 : Vec F S1x1x128 .f32) (y : S1x1x128.Idx) :
    ∃ pc ∈ ([⟨r0_3, p0⟩] : List (View.Piece (Elt F) S1x1x128 .f32)), y ∈ pc.1.set :=
  View.cover_of_tiled [⟨r0_3, p0⟩] S1x1x128.size (by rfl) y

theorem cover0_6 (p0 : Vec F S1x1x128 .f32) (y : S1x1x128.Idx) :
    ∃ pc ∈ ([⟨r0_3, p0⟩] : List (View.Piece (Elt F) S1x1x128 .f32)), y ∈ pc.1.set :=
  View.cover_of_tiled [⟨r0_3, p0⟩] S1x1x128.size (by rfl) y

/-! ## An input window's staging buffer holds its block at every point

For ANY proof data whose array is the region-entry contents and whose body leaves the input's block in place, the
window's current staging buffer holds the block of the point, whether the pipeline fetched it there or not: where it
did not, the block index has not moved since the point before (the weights and the bias, whose index map is constant,
are fetched at the first point only). The windows are uncut and never idle. -/

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 4000000 in
/-- The kernel body on whole staging memrefs, the four inputs' at given read contents and the three outputs' at
    anything, runs to the continuation holding the inputs' as they were and each output's at its closed form in the
    inputs'. The printed function is its skeleton: four whole loads, then per output a load of whatever the buffer
    holds (its value is never used) and one whole store. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x1x128 .f32) (harg6 : arg6.IsWhole)
    (arg7 : Memref sig .tc .vmem S1x1x128 .f32) (harg7 : arg7.IsWhole)
    (x0 : Vec F S5000x128 .f32) (x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (out0_5 x0 x1 x2 x3)
            ∗ owns (c : Thread nD τ) arg7 fullShare (out0_6 x0 x1 x2 x3)) -∗ K ⟨⟩))
      ⊢ wp frame (wpE (defs₀ (F := F)) Variants.none c none) E (cc0__mm1_kernel i arg1 harg1 arg2 harg2 arg3 harg3 arg4 harg4 arg5 harg5 arg6 harg6 arg7 harg7) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the region's pipeline on core `c`: the arrays as the region finds them; after the body at point
    `t` each input's buffer at its block and each output's at its closed form in the four input blocks; the invariant
    the class's (the scoped rest and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' staging buffers hold their blocks, so the kernel's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand
-- ==== Proof.KI.Reg1.lean ====
/- The frame half of one kernel region of @main: the batch-normalisation / rectifier / second matrix product kernel
   of a layer, as ONE pipelined launch over ten row blocks. Everything is stated at a PARAMETER `V`, the TensorCore's
   buffer contents when the region is entered: each window's block at a grid point, what the body leaves in each output
   window's staging buffer as a function of the input blocks, the body's Hoare triple on whole staging memrefs, the
   pipeline's proof data and the body obligation at every grid point. Generic in the float interpretation. -/
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a five-thousand-row axis is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and every store takes a whole staging buffer -/

/-- the whole of a row block of activations, -/
abbrev r1_0 : Rect S5000x128 := Rect.unit (s := S5000x128) ![0, 0] S5000x128.size inb_S5000x128_S5000x128_0_0
/-- the whole of a per-feature row (mean, variance, scale, shift, bias), -/
abbrev r1_1 : Rect S1x128 := Rect.unit (s := S1x128) ![0, 0] S1x128.size inb_S1x128_S1x128_0_0
/-- the whole of the square weight matrix, -/
abbrev r1_2 : Rect S128x128 := Rect.unit (s := S128x128) ![0, 0] S128x128.size inb_S128x128_S128x128_0_0
/-- the whole of a per-block row of column statistics. -/
abbrev r1_3 : Rect S1x1x128 := Rect.unit (s := S1x1x128) ![0, 0, 0] S1x1x128.size inb_S1x1x128_S1x1x128_0_0_0

/-! ## What the body leaves in each output window's buffer

The inputs in window order: `x0` the block of pre-activations, `x1` their mean, `x2` their variance, `x3` the scale,
`x4` the shift, `x5` the weight matrix, `x6` the bias. The body reads the variance before the mean, which is the order
the payload of the product takes them in. -/

/-- The block of the layer's second affine map: normalise, scale, shift, rectify, multiply by the weights, add the bias. -/
def out1_7 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S5000x128 .f32 :=
  View.canon [⟨r1_0, k1_pay3 (View.ld x0 r1_0) (View.ld x2 r1_1) (View.ld x1 r1_1) (View.ld x3 r1_1) (View.ld x4 r1_1)
    (View.ld x5 r1_2) (View.ld x6 r1_1)⟩]

/-- The column sums of that block, as a one-by-one-by-features row. -/
def out1_8 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r1_3, k1_pay1 (k1_pay4 (View.ld x0 r1_0) (View.ld x2 r1_1) (View.ld x1 r1_1) (View.ld x3 r1_1) (View.ld x4 r1_1)
    (View.ld x5 r1_2) (View.ld x6 r1_1))⟩]

/-- The column sums of the squares of that block, in the same form. -/
def out1_9 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r1_3, k1_pay2 (k1_pay5 (View.ld x0 r1_0) (View.ld x2 r1_1) (View.ld x1 r1_1) (View.ld x3 r1_1) (View.ld x4 r1_1)
    (View.ld x5 r1_2) (View.ld x6 r1_1))⟩]

/-- Each output's single store tiles its buffer, so it covers it. -/
theorem cover1_7 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y
theorem cover1_8 (p0 : Vec F S1x1x128 .f32) (y : S1x1x128.Idx) :
    ∃ pc ∈ ([⟨r1_3, p0⟩] : List (View.Piece (Elt F) S1x1x128 .f32)), y ∈ pc.1.set :=
  View.cover_of_tiled [⟨r1_3, p0⟩] S1x1x128.size (by rfl) y

/-! ## An input window's current staging buffer holds its block at every grid point

Fetched there or not: a window whose block index does not move between two points is not fetched again, and its buffer
still holds the earlier point's block, which is this point's. True of ANY proof data whose array is the region-entry
contents and whose body leaves the block in place; all the input windows are uncut and never idle. -/

/-- Window 0 (the block of pre-activations). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the mean row). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the variance row). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (the scale row). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 (the shift row). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Window 5 (the weight matrix). -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Window 6 (the bias row). -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 4000000 in
/-- The kernel body on whole staging memrefs, the inputs' at read contents `x0 … x6` and the outputs' at anything, runs to
    the continuation holding the inputs' as they were and each output's at its `out` of the inputs'. The printed
    function and its first part are their skeletons of loads and stores over payloads; the three loads of output buffers
    read whatever is there and their values are never used. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6)) -∗ K ⟨⟩))
      ⊢ wp frame (wpE (defs₀ (F := F)) Variants.none c none) E (cc1__bn_relu_mm2_kernel i arg1 harg1 arg2 harg2 arg3 harg3 arg4 harg4 arg5 harg5 arg6 harg6 arg7 harg7 arg8 harg8 arg9 harg9 arg10 harg10) K := by
  simp only [cc1__bn_relu_mm2_kernel_eq_skeleton]; unfold cc1__bn_relu_mm2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  isplitl [H8]
  · iexists _; isplitr
    swap; · iexact H8
    ipureintro
    try dsimp only
    exact View.read_writes_eq_canon _ _ _ (cover1_8 _)
  iexists _; isplitr
  swap; · iexact H9
  ipureintro
  try dsimp only
  exact View.read_writes_eq_canon _ _ _ (cover1_8 _)

/-! ## The pipeline's proof data -/

/-- The proof data of the pipeline on core `c`: the arrays as the region finds them; after the body at point `t` each
    input's buffer at its block and each output's at its `out` of the input blocks there; the invariant is the
    untouched rest (scoped buffers and the generator register); nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One launch of the normalise-rectify-pool kernel, seen from the buffers the TensorCore holds when the launch
    begins (a parameter `V`): what every window's block is at a grid point, what the kernel body does to whole
    staging buffers, and the per-point obligation the pipeline theorem asks of the body.

    The kernel reads a block of 5000 rows of 128 features, four rows of 128 numbers (mean, variance, scale, shift)
    and the 5000 graph numbers of the rows; it writes the rectified normalised block and a 256-by-128 table of
    per-graph column sums of that block. Every operand is a pipeline window read or written whole. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the rows of its array, as the launch finds the array, that the window's
    index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The whole-buffer rectangles the body reads and writes -/

/-- all of a 5000-by-128 buffer (the feature block read, and the feature block written), -/
abbrev r2_0 : Rect S5000x128 := Rect.unit (s := S5000x128) ![0, 0] S5000x128.size inb_S5000x128_S5000x128_0_0
/-- all of a 1-by-128 buffer (mean, variance, scale, shift), -/
abbrev r2_1 : Rect S1x128 := Rect.unit (s := S1x128) ![0, 0] S1x128.size inb_S1x128_S1x128_0_0
/-- all of the 5000-by-1 buffer of graph numbers, -/
abbrev r2_5 : Rect S5000x1 := Rect.unit (s := S5000x1) ![0, 0] S5000x1.size inb_S5000x1_S5000x1_0_0
/-- all of the 1-by-256-by-128 buffer of pooled sums. -/
abbrev r2_7 : Rect S1x256x128 := Rect.unit (s := S1x256x128) ![0, 0, 0] S1x256x128.size inb_S1x256x128_S1x256x128_0_0_0

/-! ## What the body leaves in each output buffer, as a function of the six input blocks

The six inputs, in window order: the feature block `xZ`, the mean row `xM`, the variance row `xV`, the scale row `xG`,
the shift row `xB`, the graph numbers `xI`. -/

/-- The feature output: one whole-buffer store of the rectified normalised block. The payload takes the variance
    row before the mean row, which is the order in which the body reads them. -/
def out2_6 (xZ : Vec F S5000x128 .f32) (xM : Vec F S1x128 .f32) (xV : Vec F S1x128 .f32) (xG : Vec F S1x128 .f32) (xB : Vec F S1x128 .f32) (xI : Vec F S5000x1 .i32) : Vec F S5000x128 .f32 :=
  View.canon [⟨r2_0, k2_pay1 (View.ld xZ r2_0) (View.ld xV r2_1) (View.ld xM r2_1) (View.ld xG r2_1) (View.ld xB r2_1)⟩]

/-- The pooled output: one whole-buffer store of the per-graph column sums of that same block. -/
def out2_7 (xZ : Vec F S5000x128 .f32) (xM : Vec F S1x128 .f32) (xV : Vec F S1x128 .f32) (xG : Vec F S1x128 .f32) (xB : Vec F S1x128 .f32) (xI : Vec F S5000x1 .i32) : Vec F S1x256x128 .f32 :=
  View.canon [⟨r2_7, k2_pay2 (View.ld xZ r2_0) (View.ld xV r2_1) (View.ld xM r2_1) (View.ld xG r2_1) (View.ld xB r2_1) (View.ld xI r2_5)⟩]

/-- A single whole-buffer store covers the buffer: the feature output, -/
theorem cover2_6 (pH : Vec F S5000x128 .f32) (y : S5000x128.Idx) :
    ∃ pc ∈ ([⟨r2_0, pH⟩] : List (View.Piece (Elt F) S5000x128 .f32)), y ∈ pc.1.set :=
  View.cover_of_tiled [⟨r2_0, pH⟩] S5000x128.size (by rfl) y

/-- and the pooled output. -/
theorem cover2_7 (pP : Vec F S1x256x128 .f32) (y : S1x256x128.Idx) :
    ∃ pc ∈ ([⟨r2_7, pP⟩] : List (View.Piece (Elt F) S1x256x128 .f32)), y ∈ pc.1.set :=
  View.cover_of_tiled [⟨r2_7, pP⟩] S1x256x128.size (by rfl) y

/-! ## An input's staging buffer holds its block at every point -/

/-- For any proof data over the launch's arrays whose body leaves an input's block in place, the body finds that
    block in the window's current staging buffer at every point. Where the pipeline fetched it there, that is what
    the fetch brought; where it did not (the four 1-by-128 rows are fetched at the first point only), the block
    index has not moved since, so the buffer still holds the same block. One statement per input window. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 4000000 in
/-- The kernel body run on whole staging buffers: the six inputs hold the contents `xZ … xI`, the two outputs hold
    anything. It ends with the inputs unchanged, the feature output at `out2_6` and the pooled output at `out2_7` of
    the inputs. The body is a sequence of loads and stores over named payloads, all of them in its one part, and the
    triple follows that sequence step by step; each output is loaded once before it is stored, a value nothing uses,
    so what the buffer held beforehand does not matter. -/
theorem sound_kernel2 (c : Dev nD) (E : Set ℕ) (i : grid2.Coords) (aZ : Memref sig .tc .vmem S5000x128 .f32) (haZ : aZ.IsWhole) (aM : Memref sig .tc .vmem S1x128 .f32) (haM : aM.IsWhole) (aV : Memref sig .tc .vmem S1x128 .f32) (haV : aV.IsWhole) (aG : Memref sig .tc .vmem S1x128 .f32) (haG : aG.IsWhole) (aB : Memref sig .tc .vmem S1x128 .f32) (haB : aB.IsWhole) (aI : Memref sig .tc .vmem S5000x1 .i32) (haI : aI.IsWhole) (aH : Memref sig .tc .vmem S5000x128 .f32) (haH : aH.IsWhole) (aP : Memref sig .tc .vmem S1x256x128 .f32) (haP : aP.IsWhole)
    (xZ : Vec F S5000x128 .f32) (xM : Vec F S1x128 .f32) (xV : Vec F S1x128 .f32) (xG : Vec F S1x128 .f32) (xB : Vec F S1x128 .f32) (xI : Vec F S5000x1 .i32)
    (K : PUnit → sProp 𝕄) :
    iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
        ∗ (∃ d, owns (c : Thread nD τ) aH fullShare d) ∗ (∃ d, owns (c : Thread nD τ) aP fullShare d)
        ∗ (iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
            ∗ owns (c : Thread nD τ) aH fullShare (out2_6 xZ xM xV xG xB xI) ∗ owns (c : Thread nD τ) aP fullShare (out2_7 xZ xM xV xG xB xI)) -∗ K ⟨⟩))
      ⊢ wp frame (wpE (defs₀ (F := F)) Variants.none c none) E (cc2__bn_relu_pool_kernel i aZ haZ aM haM aV haV aG haG aB haB aI haI aH haH aP haP) K := by
  simp only [cc2__bn_relu_pool_kernel_eq_skeleton]; unfold cc2__bn_relu_pool_kernel_skel
  simp only [k2_part1_eq_skeleton]; unfold k2_part1_skel
  unfold owns
  iintro ⟨⟨%fZ, %hfZ, HZ⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
  subst hfZ hfM hfV hfG hfB hfI
  sl_exec
  sl_step
  iapply Hk
  isplitl [HZ]
  · iexists fZ; isplitr; · ipureintro; rfl
    iexact HZ
  isplitl [HM]
  · iexists fM; isplitr; · ipureintro; rfl
    iexact HM
  isplitl [HV]
  · iexists fV; isplitr; · ipureintro; rfl
    iexact HV
  isplitl [HG]
  · iexists fG; isplitr; · ipureintro; rfl
    iexact HG
  isplitl [HB]
  · iexists fB; isplitr; · ipureintro; rfl
    iexact HB
  isplitl [HI]
  · iexists fI; isplitr; · ipureintro; rfl
    iexact HI
  isplitl [HH]
  · iexists _; isplitr
    swap; · iexact HH
    ipureintro
    try dsimp only
    exact View.read_writes_eq_canon _ _ _ (cover2_6 _)
  iexists _; isplitr
  swap; · iexact HP
  ipureintro
  try dsimp only
  exact View.read_writes_eq_canon _ _ _ (cover2_7 _)

/-! ## The pipeline's proof data -/

/-- The proof data of this launch on core `c`. The arrays are as the launch finds them (`V`). After the body at point
    `t` an input's buffer holds its block and an output's holds `out2_6` or `out2_7` of the six input blocks at `t`.
    The invariant is the class's own (everything the launch does not name stays as it was); nothing is owed; every
    share is full. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the launch's. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

/-- Each input's current staging buffer holds its block at every point, for this proof data. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is handed at point `t`: the invariant, the core's dues, and each window's current staging buffer
    at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: every input's buffer holds its block (`before2_0` … `before2_5`), so the body's triple applies;
    the invariant and the core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%dZ, HZ⟩, ⟨%dM, HM⟩, ⟨%dV, HV⟩, ⟨%dG, HG⟩, ⟨%dB, HB⟩, ⟨%dI, HI⟩, ⟨%dH, HH⟩, ⟨%dP, HP⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [HZ]; · iexact HZ
  isplitl [HM]; · iexact HM
  isplitl [HV]; · iexact HV
  isplitl [HG]; · iexact HG
  isplitl [HB]; · iexact HB
  isplitl [HI]; · iexact HI
  isplitl [HH]; · iexists _; iexact HH
  isplitl [HP]; · iexists _; iexact HP
  iintro ⟨HZ, HM, HV, HG, HB, HI, HH, HP⟩
  isplitl [HΦ]; · iexact HΦ
  isplitl [Ho]; · iexact Ho
  isplitl [HZ]; · iexact HZ
  isplitl [HM]; · iexact HM
  isplitl [HV]; · iexact HV
  isplitl [HG]; · iexact HG
  isplitl [HB]; · iexact HB
  isplitl [HI]; · iexact HI
  isplitl [HH]; · iexact HH
  iexact HP

/-- The pipeline theorem's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- The frame half of one TensorCore region of @main: the launch, over a grid of row blocks, of the kernel computing a layer's first affine map.
   Everything here is stated at a PARAMETER `V`, the TensorCore's buffer contents when the region is entered: each
   window's block at a grid point, what the kernel body leaves in each output window's staging buffer as a function
   of the input blocks, the body's Hoare triple on whole staging memrefs, the pipeline's proof data over the class's
   invariant, and the body obligation at every grid point. The kernel is of the plainest kind: every operand is a
   pipeline window, every block is loaded whole and every output block is stored whole. -/
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has thousands of coordinates: the structural check recurses once per
-- coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each staging buffer is read and written as one whole rectangle -/

/-- The whole of a row block of features. -/
abbrev r3_0 : Rect S5000x128 := Rect.unit (s := S5000x128) ![0, 0] S5000x128.size inb_S5000x128_S5000x128_0_0
/-- The whole of the weight matrix. -/
abbrev r3_1 : Rect S128x128 := Rect.unit (s := S128x128) ![0, 0] S128x128.size inb_S128x128_S128x128_0_0
/-- The whole of the bias row. -/
abbrev r3_2 : Rect S1x128 := Rect.unit (s := S1x128) ![0, 0] S1x128.size inb_S1x128_S1x128_0_0
/-- The whole of one block's row of column sums. -/
abbrev r3_3 : Rect S1x1x128 := Rect.unit (s := S1x1x128) ![0, 0, 0] S1x1x128.size inb_S1x1x128_S1x1x128_0_0_0

/-! ## What the body leaves in each output window's buffer

Each output buffer receives exactly one store, of the whole buffer; its contents afterwards are that store's payload,
a function of the four input blocks alone (whatever the buffer held before is overwritten). -/

/-- The affine image of the block: the sum of the two feature blocks, times the weights, plus the bias. -/
def out3_4 (x0 : Vec F S5000x128 .f32) (x1 : Vec F S5000x128 .f32) (x2 : Vec F S128x128 .f32) (x3 : Vec F S1x128 .f32) : Vec F S5000x128 .f32 :=
  View.canon [⟨r3_0, k3_pay1 (View.ld x0 r3_0) (View.ld x1 r3_0) (View.ld x2 r3_1) (View.ld x3 r3_2)⟩]

/-- The column sums of that image over the block's rows. -/
def out3_5 (x0 : Vec F S5000x128 .f32) (x1 : Vec F S5000x128 .f32) (x2 : Vec F S128x128 .f32) (x3 : Vec F S1x128 .f32) : Vec F S1x1x128 .f32 :=
  View.canon [⟨r3_3, k3_pay2 (View.ld x0 r3_0) (View.ld x1 r3_0) (View.ld x2 r3_1) (View.ld x3 r3_2)⟩]

/-- The column sums of its squares over the block's rows. -/
def out3_6 (x0 : Vec F S5000x128 .f32) (x1 : Vec F S5000x128 .f32) (x2 : Vec F S128x128 .f32) (x3 : Vec F S1x128 .f32) : Vec F S1x1x128 .f32 :=
  View.canon [⟨r3_3, k3_pay3 (View.ld x0 r3_0) (View.ld x1 r3_0) (View.ld x2 r3_1) (View.ld x3 r3_2)⟩]

/-- A single store of the whole buffer tiles it, so it covers every index. -/
theorem cover3_4 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

theorem cover3_5 (p0 : Vec F S1x1x128 .f32) (y : S1x1x128.Idx) :
    ∃ pc ∈ ([⟨r3_3, p0⟩] : List (View.Piece (Elt F) S1x1x128 .f32)), y ∈ pc.1.set :=
  View.cover_of_tiled [⟨r3_3, p0⟩] S1x1x128.size (by rfl) y

theorem cover3_6 (p0 : Vec F S1x1x128 .f32) (y : S1x1x128.Idx) :
    ∃ pc ∈ ([⟨r3_3, p0⟩] : List (View.Piece (Elt F) S1x1x128 .f32)), y ∈ pc.1.set :=
  View.cover_of_tiled [⟨r3_3, p0⟩] S1x1x128.size (by rfl) y

/-! ## An input window's staging buffer holds its block at every point

For ANY proof data whose array is the region-entry contents and whose body leaves the input's block in place, the
window's current staging buffer holds the block of the point, whether the pipeline fetched it there or not: where it
did not, the block index has not moved since the point before (the weights and the bias, whose index map is constant,
are fetched at the first point only). The windows are uncut and never idle. -/

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's triple -/

set_option maxHeartbeats 4000000 in
/-- The kernel body on whole staging memrefs, the four inputs' at given read contents and the three outputs' at
    anything, runs to the continuation holding the inputs' as they were and each output's at its closed form in the
    inputs'. The printed function is its skeleton: four whole loads, then per output a load of whatever the buffer
    holds (its value is never used) and one whole store. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x1x128 .f32) (harg6 : arg6.IsWhole)
    (arg7 : Memref sig .tc .vmem S1x1x128 .f32) (harg7 : arg7.IsWhole)
    (x0 : Vec F S5000x128 .f32) (x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)
            ∗ owns (c : Thread nD τ) arg6 fullShare (out3_5 x0 x1 x2 x3)
            ∗ owns (c : Thread nD τ) arg7 fullShare (out3_6 x0 x1 x2 x3)) -∗ K ⟨⟩))
      ⊢ wp frame (wpE (defs₀ (F := F)) Variants.none c none) E (cc3__mm1_kernel i arg1 harg1 arg2 harg2 arg3 harg3 arg4 harg4 arg5 harg5 arg6 harg6 arg7 harg7) K := by
  simp only [cc3__mm1_kernel_eq_skeleton]; unfold cc3__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of the region's pipeline on core `c`: the arrays as the region finds them; after the body at point
    `t` each input's buffer at its block and each output's at its closed form in the four input blocks; the invariant
    the class's (the scoped rest and the generator register, untouched); nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
    | ⟨6, _⟩ => out3_6 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]
theorem after3_6 (c : Dev nD) (t : Fin cfg3.N) : (dat3 V c).after 6 t = out3_6 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`: the invariant, what the core owes, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' staging buffers hold their blocks, so the kernel's triple applies; the
    invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand
-- ==== Proof.KI.Reg4.lean ====
/- The frame half of one kernel region of @main: the batch-normalisation / rectifier / second matrix product kernel
   of a layer, as ONE pipelined launch over ten row blocks. Everything is stated at a PARAMETER `V`, the TensorCore's
   buffer contents when the region is entered: each window's block at a grid point, what the body leaves in each output
   window's staging buffer as a function of the input blocks, the body's Hoare triple on whole staging memrefs, the
   pipeline's proof data and the body obligation at every grid point. Generic in the float interpretation. -/
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a five-thousand-row axis is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and every store takes a whole staging buffer -/

/-- the whole of a row block of activations, -/
abbrev r4_0 : Rect S5000x128 := Rect.unit (s := S5000x128) ![0, 0] S5000x128.size inb_S5000x128_S5000x128_0_0
/-- the whole of a per-feature row (mean, variance, scale, shift, bias), -/
abbrev r4_1 : Rect S1x128 := Rect.unit (s := S1x128) ![0, 0] S1x128.size inb_S1x128_S1x128_0_0
/-- the whole of the square weight matrix, -/
abbrev r4_2 : Rect S128x128 := Rect.unit (s := S128x128) ![0, 0] S128x128.size inb_S128x128_S128x128_0_0
/-- the whole of a per-block row of column statistics. -/
abbrev r4_3 : Rect S1x1x128 := Rect.unit (s := S1x1x128) ![0, 0, 0] S1x1x128.size inb_S1x1x128_S1x1x128_0_0_0

/-! ## What the body leaves in each output window's buffer

The inputs in window order: `x0` the block of pre-activations, `x1` their mean, `x2` their variance, `x3` the scale,
`x4` the shift, `x5` the weight matrix, `x6` the bias. The body reads the variance before the mean, which is the order
the payload of the product takes them in. -/

/-- The block of the layer's second affine map: normalise, scale, shift, rectify, multiply by the weights, add the bias. -/
def out4_7 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S5000x128 .f32 :=
  View.canon [⟨r4_0, k4_pay3 (View.ld x0 r4_0) (View.ld x2 r4_1) (View.ld x1 r4_1) (View.ld x3 r4_1) (View.ld x4 r4_1)
    (View.ld x5 r4_2) (View.ld x6 r4_1)⟩]

/-- The column sums of that block, as a one-by-one-by-features row. -/
def out4_8 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r4_3, k4_pay1 (k4_pay4 (View.ld x0 r4_0) (View.ld x2 r4_1) (View.ld x1 r4_1) (View.ld x3 r4_1) (View.ld x4 r4_1)
    (View.ld x5 r4_2) (View.ld x6 r4_1))⟩]

/-- The column sums of the squares of that block, in the same form. -/
def out4_9 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r4_3, k4_pay2 (k4_pay5 (View.ld x0 r4_0) (View.ld x2 r4_1) (View.ld x1 r4_1) (View.ld x3 r4_1) (View.ld x4 r4_1)
    (View.ld x5 r4_2) (View.ld x6 r4_1))⟩]

/-- Each output's single store tiles its buffer, so it covers it. -/
theorem cover4_7 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y
theorem cover4_8 (p0 : Vec F S1x1x128 .f32) (y : S1x1x128.Idx) :
    ∃ pc ∈ ([⟨r4_3, p0⟩] : List (View.Piece (Elt F) S1x1x128 .f32)), y ∈ pc.1.set :=
  View.cover_of_tiled [⟨r4_3, p0⟩] S1x1x128.size (by rfl) y

/-! ## An input window's current staging buffer holds its block at every grid point

Fetched there or not: a window whose block index does not move between two points is not fetched again, and its buffer
still holds the earlier point's block, which is this point's. True of ANY proof data whose array is the region-entry
contents and whose body leaves the block in place; all the input windows are uncut and never idle. -/

/-- Window 0 (the block of pre-activations). -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1 (the mean row). -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2 (the variance row). -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Window 3 (the scale row). -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Window 4 (the shift row). -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Window 5 (the weight matrix). -/
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Window 6 (the bias row). -/
theorem before4_6_of {c : Dev nD} (dat : Dat τ (Elt F) Unit ℕ (Pipeline.UD sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's triple -/

set_option maxHeartbeats 4000000 in
/-- The kernel body on whole staging memrefs, the inputs' at read contents `x0 … x6` and the outputs' at anything, runs to
    the continuation holding the inputs' as they were and each output's at its `out` of the inputs'. The printed
    function and its first part are their skeletons of loads and stores over payloads; the three loads of output buffers
    read whatever is there and their values are never used. -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out4_7 x0 x1 x2 x3 x4 x5 x6) ∗ owns (c : Thread nD τ) arg9 fullShare (out4_8 x0 x1 x2 x3 x4 x5 x6) ∗ owns (c : Thread nD τ) arg10 fullShare (out4_9 x0 x1 x2 x3 x4 x5 x6)) -∗ K ⟨⟩))
      ⊢ wp frame (wpE (defs₀ (F := F)) Variants.none c none) E (cc4__bn_relu_mm2_kernel i arg1 harg1 arg2 harg2 arg3 harg3 arg4 harg4 arg5 harg5 arg6 harg6 arg7 harg7 arg8 harg8 arg9 harg9 arg10 harg10) K := by
  simp only [cc4__bn_relu_mm2_kernel_eq_skeleton]; unfold cc4__bn_relu_mm2_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover4_7 _)
  isplitl [H8]
  · iexists _; isplitr
    swap; · iexact H8
    ipureintro
    try dsimp only
    exact View.read_writes_eq_canon _ _ _ (cover4_8 _)
  iexists _; isplitr
  swap; · iexact H9
  ipureintro
  try dsimp only
  exact View.read_writes_eq_canon _ _ _ (cover4_8 _)

/-! ## The pipeline's proof data -/

/-- The proof data of the pipeline on core `c`: the arrays as the region finds them; after the body at point `t` each
    input's buffer at its block and each output's at its `out` of the input blocks there; the invariant is the
    untouched rest (scoped buffers and the generator register); nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
    | ⟨8, _⟩ => out4_8 (iblk4 V c 0 t) (iblk4 V c 1 t) (iblk4 V c 2 t) (iblk4 V c 3 t) (iblk4 V c 4 t) (iblk4 V c 5 t) (iblk4 V c 6 t)
    | ⟨9, _⟩ => out4_9 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

set_option maxHeartbeats 1000000 in
/-- The body at any point: the inputs' memrefs hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One launch of the normalise-rectify-pool kernel, seen from the buffers the TensorCore holds when the launch
    begins (a parameter `V`): what every window's block is at a grid point, what the kernel body does to whole
    staging buffers, and the per-point obligation the pipeline theorem asks of the body.

    The kernel reads a block of 5000 rows of 128 features, four rows of 128 numbers (mean, variance, scale, shift)
    and the 5000 graph numbers of the rows; it writes the rectified normalised block and a 256-by-128 table of
    per-graph column sums of that block. Every operand is a pipeline window read or written whole. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the rows of its array, as the launch finds the array, that the window's
    index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The whole-buffer rectangles the body reads and writes -/

/-- all of a 5000-by-128 buffer (the feature block read, and the feature block written), -/
abbrev r5_0 : Rect S5000x128 := Rect.unit (s := S5000x128) ![0, 0] S5000x128.size inb_S5000x128_S5000x128_0_0
/-- all of a 1-by-128 buffer (mean, variance, scale, shift), -/
abbrev r5_1 : Rect S1x128 := Rect.unit (s := S1x128) ![0, 0] S1x128.size inb_S1x128_S1x128_0_0
/-- all of the 5000-by-1 buffer of graph numbers, -/
abbrev r5_5 : Rect S5000x1 := Rect.unit (s := S5000x1) ![0, 0] S5000x1.size inb_S5000x1_S5000x1_0_0
/-- all of the 1-by-256-by-128 buffer of pooled sums. -/
abbrev r5_7 : Rect S1x256x128 := Rect.unit (s := S1x256x128) ![0, 0, 0] S1x256x128.size inb_S1x256x128_S1x256x128_0_0_0

/-! ## What the body leaves in each output buffer, as a function of the six input blocks

The six inputs, in window order: the feature block `xZ`, the mean row `xM`, the variance row `xV`, the scale row `xG`,
the shift row `xB`, the graph numbers `xI`. -/

/-- The feature output: one whole-buffer store of the rectified normalised block. The payload takes the variance
    row before the mean row, which is the order in which the body reads them. -/
def out5_6 (xZ : Vec F S5000x128 .f32) (xM : Vec F S1x128 .f32) (xV : Vec F S1x128 .f32) (xG : Vec F S1x128 .f32) (xB : Vec F S1x128 .f32) (xI : Vec F S5000x1 .i32) : Vec F S5000x128 .f32 :=
  View.canon [⟨r5_0, k5_pay1 (View.ld xZ r5_0) (View.ld xV r5_1) (View.ld xM r5_1) (View.ld xG r5_1) (View.ld xB r5_1)⟩]

/-- The pooled output: one whole-buffer store of the per-graph column sums of that same block. -/
def out5_7 (xZ : Vec F S5000x128 .f32) (xM : Vec F S1x128 .f32) (xV : Vec F S1x128 .f32) (xG : Vec F S1x128 .f32) (xB : Vec F S1x128 .f32) (xI : Vec F S5000x1 .i32) : Vec F S1x256x128 .f32 :=
  View.canon [⟨r5_7, k5_pay2 (View.ld xZ r5_0) (View.ld xV r5_1) (View.ld xM r5_1) (View.ld xG r5_1) (View.ld xB r5_1) (View.ld xI r5_5)⟩]

/-- A single whole-buffer store covers the buffer: the feature output, -/
theorem cover5_6 (pH : Vec F S5000x128 .f32) (y : S5000x128.Idx) :
    ∃ pc ∈ ([⟨r5_0, pH⟩] : List (View.Piece (Elt F) S5000x128 .f32)), y ∈ pc.1.set :=
  View.cover_of_tiled [⟨r5_0, pH⟩] S5000x128.size (by rfl) y

/-- and the pooled output. -/
theorem cover5_7 (pP : Vec F S1x256x128 .f32) (y : S1x256x128.Idx) :
    ∃ pc ∈ ([⟨r5_7, pP⟩] : List (View.Piece (Elt F) S1x256x128 .f32)), y ∈ pc.1.set :=
  View.cover_of_tiled [⟨r5_7, pP⟩] S1x256x128.size (by rfl) y

/-! ## An input's staging buffer holds its block at every point -/

/-- For any proof data over the launch's arrays whose body leaves an input's block in place, the body finds that
    block in the window's current staging buffer at every point. Where the pipeline fetched it there, that is what
    the fetch brought; where it did not (the four 1-by-128 rows are fetched at the first point only), the block
    index has not moved since, so the buffer still holds the same block. One statement per input window. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (Pipeline.UD sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's triple -/

set_option maxHeartbeats 4000000 in
/-- The kernel body run on whole staging buffers: the six inputs hold the contents `xZ … xI`, the two outputs hold
    anything. It ends with the inputs unchanged, the feature output at `out5_6` and the pooled output at `out5_7` of
    the inputs. The body is a sequence of loads and stores over named payloads, all of them in its one part, and the
    triple follows that sequence step by step; each output is loaded once before it is stored, a value nothing uses,
    so what the buffer held beforehand does not matter. -/
theorem sound_kernel5 (c : Dev nD) (E : Set ℕ) (i : grid5.Coords) (aZ : Memref sig .tc .vmem S5000x128 .f32) (haZ : aZ.IsWhole) (aM : Memref sig .tc .vmem S1x128 .f32) (haM : aM.IsWhole) (aV : Memref sig .tc .vmem S1x128 .f32) (haV : aV.IsWhole) (aG : Memref sig .tc .vmem S1x128 .f32) (haG : aG.IsWhole) (aB : Memref sig .tc .vmem S1x128 .f32) (haB : aB.IsWhole) (aI : Memref sig .tc .vmem S5000x1 .i32) (haI : aI.IsWhole) (aH : Memref sig .tc .vmem S5000x128 .f32) (haH : aH.IsWhole) (aP : Memref sig .tc .vmem S1x256x128 .f32) (haP : aP.IsWhole)
    (xZ : Vec F S5000x128 .f32) (xM : Vec F S1x128 .f32) (xV : Vec F S1x128 .f32) (xG : Vec F S1x128 .f32) (xB : Vec F S1x128 .f32) (xI : Vec F S5000x1 .i32)
    (K : PUnit → sProp 𝕄) :
    iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
        ∗ (∃ d, owns (c : Thread nD τ) aH fullShare d) ∗ (∃ d, owns (c : Thread nD τ) aP fullShare d)
        ∗ (iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
            ∗ owns (c : Thread nD τ) aH fullShare (out5_6 xZ xM xV xG xB xI) ∗ owns (c : Thread nD τ) aP fullShare (out5_7 xZ xM xV xG xB xI)) -∗ K ⟨⟩))
      ⊢ wp frame (wpE (defs₀ (F := F)) Variants.none c none) E (cc5__bn_relu_pool_kernel i aZ haZ aM haM aV haV aG haG aB haB aI haI aH haH aP haP) K := by
  simp only [cc5__bn_relu_pool_kernel_eq_skeleton]; unfold cc5__bn_relu_pool_kernel_skel
  simp only [k5_part1_eq_skeleton]; unfold k5_part1_skel
  unfold owns
  iintro ⟨⟨%fZ, %hfZ, HZ⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
  subst hfZ hfM hfV hfG hfB hfI
  sl_exec
  sl_step
  iapply Hk
  isplitl [HZ]
  · iexists fZ; isplitr; · ipureintro; rfl
    iexact HZ
  isplitl [HM]
  · iexists fM; isplitr; · ipureintro; rfl
    iexact HM
  isplitl [HV]
  · iexists fV; isplitr; · ipureintro; rfl
    iexact HV
  isplitl [HG]
  · iexists fG; isplitr; · ipureintro; rfl
    iexact HG
  isplitl [HB]
  · iexists fB; isplitr; · ipureintro; rfl
    iexact HB
  isplitl [HI]
  · iexists fI; isplitr; · ipureintro; rfl
    iexact HI
  isplitl [HH]
  · iexists _; isplitr
    swap; · iexact HH
    ipureintro
    try dsimp only
    exact View.read_writes_eq_canon _ _ _ (cover5_6 _)
  iexists _; isplitr
  swap; · iexact HP
  ipureintro
  try dsimp only
  exact View.read_writes_eq_canon _ _ _ (cover5_7 _)

/-! ## The pipeline's proof data -/

/-- The proof data of this launch on core `c`. The arrays are as the launch finds them (`V`). After the body at point
    `t` an input's buffer holds its block and an output's holds `out5_6` or `out5_7` of the six input blocks at `t`.
    The invariant is the class's own (everything the launch does not name stays as it was); nothing is owed; every
    share is full. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
    | ⟨7, _⟩ => out5_7 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the launch's. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) := by dsimp only [dat5]

/-- Each input's current staging buffer holds its block at every point, for this proof data. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is handed at point `t`: the invariant, the core's dues, and each window's current staging buffer
    at what the pipeline left in it, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 1000000 in
/-- The body at any point: every input's buffer holds its block (`before5_0` … `before5_5`), so the body's triple applies;
    the invariant and the core's dues pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%dZ, HZ⟩, ⟨%dM, HM⟩, ⟨%dV, HV⟩, ⟨%dG, HG⟩, ⟨%dB, HB⟩, ⟨%dI, HI⟩, ⟨%dH, HH⟩, ⟨%dP, HP⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) _)
  isplitl [HZ]; · iexact HZ
  isplitl [HM]; · iexact HM
  isplitl [HV]; · iexact HV
  isplitl [HG]; · iexact HG
  isplitl [HB]; · iexact HB
  isplitl [HI]; · iexact HI
  isplitl [HH]; · iexists _; iexact HH
  isplitl [HP]; · iexists _; iexact HP
  iintro ⟨HZ, HM, HV, HG, HB, HI, HH, HP⟩
  isplitl [HΦ]; · iexact HΦ
  isplitl [Ho]; · iexact Ho
  isplitl [HZ]; · iexact HZ
  isplitl [HM]; · iexact HM
  isplitl [HV]; · iexact HV
  isplitl [HG]; · iexact HG
  isplitl [HB]; · iexact HB
  isplitl [HI]; · iexact HI
  isplitl [HH]; · iexact HH
  iexact HP

/-- The pipeline theorem's obligation on the body, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/- The frame half of one TensorCore region of @main: the launch, over a grid of row blocks, of the kernel computing a layer's first affine map.
   Everything here is stated at a PARAMETER `V`, the TensorCore's buffer contents when the region is entered: each
   window's block at a grid point, what the kernel body leaves in each output window's staging buffer as a function
   of the input blocks, the body's Hoare triple on whole staging memrefs, the pipeline's proof data over the class's
   invariant, and the body obligation at every grid point. The kernel is of the plainest kind: every operand is a
   pipeline window, every block is loaded whole and every output block is stored whole. -/
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has thousands of coordinates: the structural check recurses once per
-- coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: each staging buffer is read and written as one whole rectangle -/

/-- The whole of a row block of features. -/
abbrev r6_0 : Rect S5000x128 := Rect.unit (s := S5000x128) ![0, 0] S5000x128.size inb_S5000x128_S5000x128_0_0
/-- The whole of the weight matrix. -/
abbrev r6_1 : Rect S128x128 := Rect.unit (s := S128x128) ![0, 0] S128x128.size inb_S128x128_S128x128_0_0
/-- The whole of the bias row. -/
abbrev r6_2 : Rect S1x128 := Rect.unit (s := S1x128) ![0, 0] S1x128.size inb_S1x128_S1x128_0_0
/-- The whole of one block's row of column sums. -/
abbrev r6_3 : Rect S1x1x128 := Rect.unit (s := S1x1x128) ![0, 0, 0] S1x1x128.size inb_S1x1x128_S1x1x128_0_0_0

/-! ## What the body leaves in each output window's buffer

Each output buffer receives exactly one store, of the whole buffer; its contents afterwards are that store's payload,
a function of the four input blocks alone (whatever the buffer held before is overwritten). -/

/-- The affine image of the block: the sum of the two feature blocks, times the weights, plus the bias. -/
def out6_4 (x0 : Vec F S5000x128 .f32) (x1 : Vec F S5000x128 .f32) (x2 : Vec F S128x128 .f32) (x3 : Vec F S1x128 .f32) : Vec F S5000x128 .f32 :=
  View.canon [⟨r6_0, k6_pay1 (View.ld x0 r6_0) (View.ld x1 r6_0) (View.ld x2 r6_1) (View.ld x3 r6_2)⟩]

/-- The column sums of that image over the block's rows. -/
def out6_5 (x0 : Vec F S5000x128 .f32) (x1 : Vec F S5000x128 .f32) (x2 : Vec F S128x128 .f32) (x3 : Vec F S1x128 .f32) : Vec F S1x1x128 .f32 :=
  View.canon [⟨r6_3, k6_pay2 (View.ld x0 r6_0) (View.ld x1 r6_0) (View.ld x2 r6_1) (View.ld x3 r6_2)⟩]

/-- The column sums of its squares over the block's rows. -/
def out6_6 (x0 : Vec F S5000x128 .f32) (x1 : Vec F S5000x128 .f32) (x2 : Vec F S128x128 .f32) (x3 : Vec F S1x128 .f32) : Vec F S1x1x128 .f32 :=
  View.canon [⟨r6_3, k6_pay3 (View.ld x0 r6_0) (View.ld x1 r6_0) (View.ld x2 r6_1) (View.ld x3 r6_2)⟩]

/-- A single store of the whole buffer tiles it, so it covers every index. -/
theorem cover6_4 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

theorem cover6_5 (p0 : Vec F S1x1x128 .f32) (y : S1x1x128.Idx) :
    ∃ pc ∈ ([⟨r6_3, p0⟩] : List (View.Piece (Elt F) S1x1x128 .f32)), y ∈ pc.1.set :=
  View.cover_of_tiled [⟨r6_3, p0⟩] S1x1x128.size (by rfl) y

theorem cover6_6 (p0 : Vec F S1x1x128 .f32) (y : S1x1x128.Idx) :
    ∃ pc ∈ ([⟨r6_3, p0⟩] : List (View.Piece (Elt F) S1x1x128 .f32)), y ∈ pc.1.set :=
  View.cover_of_tiled [⟨r6_3, p0⟩] S1x1x128.size (by rfl) y

/-! ## An input window's staging buffer holds its block at every point

For ANY proof data whose array is the region-entry contents and whose body leaves the input's block in place, the
window's current staging buffer holds the block of the point, whether the pipeline fetched it there or not: where it
did not, the block index has not moved since the point before (the weights and the bias, whose index map is constant,
are fetched at the first point only). The windows are uncut and never idle. -/

theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (Pipeline.UD sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's triple -/

set_option maxHeartbeats 4000000 in
/-- The kernel body on whole staging memrefs, the four inputs' at given read contents and the three outputs' at
    anything, runs to the continuation holding the inputs' as they were and each output's at its closed form in the
    inputs'. The printed function is its skeleton: four whole loads, then per output a load of whatever the buffer
    holds (its value is never used) and one whole store. -/
theorem sound_kernel6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x1x128 .f32) (harg6 : arg6.IsWhole)
    (arg7 : Memref sig .tc .vmem S1x1x128 .f32) (harg7 : arg7.IsWhole)
    (x0 : Vec F S5000x128 .f32) (x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out6_4 x0 x1 x2 x3)
            ∗ owns (c : Thread nD τ) arg6 fullShare (out6_5 x0 x1 x2 x3)
            ∗ owns (c : Thread nD τ) arg7 fullShare (out6_6 x0 x1 x2 x3)) -∗ K ⟨⟩))
      ⊢ wp frame (wpE (defs₀ (F := F)) Variants.none c none) E (cc6__mm1_kernel i arg1 harg1 arg2 harg2 arg3 harg3 arg4 harg4 arg5 harg5 arg6 harg6 arg7 harg7) K := by
  simp only [cc6__mm1_kernel_eq_skeleton]; unfold cc6__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover6_4 _)
  isplitl [H5]
  · iexists _; isplitr
    swap; · iexact H5
    ipureintro
    exact View.read_writes_eq_canon _ _ _ (cover6_5 _)
  iexists _; isplitr
  swap; · iexact H6
  ipureintro
  exact View.read_writes_eq_canon _ _ _ (cover6_6 _)

/-! ## The pipeline's proof data -/

/-- The proof data of the region's pipeline on core `c`: the arrays as the region finds them; after the body at point
    `t` each input's buffer at its block and each output's at its closed form in the four input blocks; the invariant
    the class's (the scoped rest and the generator register, untouched); nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
    | ⟨5, _⟩ => out6_5 (iblk6 V c 0 t) (iblk6 V c 1 t) (iblk6 V c 2 t) (iblk6 V c 3 t)
    | ⟨6, _⟩ => out6_6 (iblk6 V c 0 t) (iblk6 V c 1 t) (iblk6 V c 2 t) (iblk6 V c 3 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]
theorem after6_6 (c : Dev nD) (t : Fin cfg6.N) : (dat6 V c).after 6 t = out6_6 (iblk6 V c 0 t) (iblk6 V c 1 t) (iblk6 V c 2 t) (iblk6 V c 3 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`: the invariant, what the core owes, and each window's current staging
    buffer at what the pipeline left in it, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

set_option maxHeartbeats 1000000 in
/-- The body at any point: the inputs' staging buffers hold their blocks, so the kernel's triple applies; the
    invariant and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _
    (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region

end Cert.KernelIdeal.Hand
-- ==== Proof.KI.Reg7.lean ====
/- The frame half of one kernel region of @main: the batch-normalisation / rectifier / second matrix product kernel
   of a layer, as ONE pipelined launch over ten row blocks. Everything is stated at a PARAMETER `V`, the TensorCore's
   buffer contents when the region is entered: each window's block at a grid point, what the body leaves in each output
   window's staging buffer as a function of the input blocks, the body's Hoare triple on whole staging memrefs, the
   pipeline's proof data and the body obligation at every grid point. Generic in the float interpretation. -/
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a five-thousand-row axis is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: every load and every store takes a whole staging buffer -/

/-- the whole of a row block of activations, -/
abbrev r7_0 : Rect S5000x128 := Rect.unit (s := S5000x128) ![0, 0] S5000x128.size inb_S5000x128_S5000x128_0_0
/-- the whole of a per-feature row (mean, variance, scale, shift, bias), -/
abbrev r7_1 : Rect S1x128 := Rect.unit (s := S1x128) ![0, 0] S1x128.size inb_S1x128_S1x128_0_0
/-- the whole of the square weight matrix, -/
abbrev r7_2 : Rect S128x128 := Rect.unit (s := S128x128) ![0, 0] S128x128.size inb_S128x128_S128x128_0_0
/-- the whole of a per-block row of column statistics. -/
abbrev r7_3 : Rect S1x1x128 := Rect.unit (s := S1x1x128) ![0, 0, 0] S1x1x128.size inb_S1x1x128_S1x1x128_0_0_0

/-! ## What the body leaves in each output window's buffer

The inputs in window order: `x0` the block of pre-activations, `x1` their mean, `x2` their variance, `x3` the scale,
`x4` the shift, `x5` the weight matrix, `x6` the bias. The body reads the variance before the mean, which is the order
the payload of the product takes them in. -/

/-- The block of the layer's second affine map: normalise, scale, shift, rectify, multiply by the weights, add the bias. -/
def out7_7 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S5000x128 .f32 :=
  View.canon [⟨r7_0, k7_pay3 (View.ld x0 r7_0) (View.ld x2 r7_1) (View.ld x1 r7_1) (View.ld x3 r7_1) (View.ld x4 r7_1)
    (View.ld x5 r7_2) (View.ld x6 r7_1)⟩]

/-- The column sums of that block, as a one-by-one-by-features row. -/
def out7_8 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r7_3, k7_pay1 (k7_pay4 (View.ld x0 r7_0) (View.ld x2 r7_1) (View.ld x1 r7_1) (View.ld x3 r7_1) (View.ld x4 r7_1)
    (View.ld x5 r7_2) (View.ld x6 r7_1))⟩]

/-- The column sums of the squares of that block, in the same form. -/
def out7_9 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r7_3, k7_pay2 (k7_pay5 (View.ld x0 r7_0) (View.ld x2 r7_1) (View.ld x1 r7_1) (View.ld x3 r7_1) (View.ld x4 r7_1)
    (View.ld x5 r7_2) (View.ld x6 r7_1))⟩]

/-- Each output's single store tiles its buffer, so it covers it. -/
theorem cover7_7 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y
theorem cover7_8 (p0 : Vec F S1x1x128 .f32) (y : S1x1x128.Idx) :
    ∃ pc ∈ ([⟨r7_3, p0⟩] : List (View.Piece (Elt F) S1x1x128 .f32)), y ∈ pc.1.set :=
  View.cover_of_tiled [⟨r7_3, p0⟩] S1x1x128.size (by rfl) y

/-! ## An input window's current staging buffer holds its block at every grid point

Fetched there or not: a window whose block index does not move between two points is not fetched again, and its buffer
still holds the earlier point's block, which is this point's. True of ANY proof data whose array is the region-entry
contents and whose body leaves the block in place; all the input windows are uncut and never idle. -/

/-- Window 0 (the block of pre-activations). -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Window 1 (the mean row). -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Window 2 (the variance row). -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Window 3 (the scale row). -/
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Window 4 (the shift row). -/
theorem before7_4_of {c : Dev nD} (dat : Dat τ (Elt F) Unit ℕ (Pipeline.UD sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Window 5 (the weight matrix). -/
theorem before7_5_of {c : Dev nD} (dat : Dat τ (Elt F) Unit ℕ (Pipeline.UD sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Window 6 (the bias row). -/
theorem before7_6_of {c : Dev nD} (dat : Dat τ (Elt F) Unit ℕ (Pipeline.UD sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The body's triple -/

set_option maxHeartbeats 4000000 in
/-- The kernel body on whole staging memrefs, the inputs' at read contents `x0 … x6` and the outputs' at anything, runs to
    the continuation holding the inputs' as they were and each output's at its `out` of the inputs'. The printed
    function and its first part are their skeletons of loads and stores over payloads; the three loads of output buffers
    read whatever is there and their values are never used. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out7_7 x0 x1 x2 x3 x4 x5 x6) ∗ owns (c : Thread nD τ) arg9 fullShare (out7_8 x0 x1 x2 x3 x4 x5 x6) ∗ owns (c : Thread nD τ) arg10 fullShare (out7_9 x0 x1 x2 x3 x4 x5 x6)) -∗ K ⟨⟩))
      ⊢ wp frame (wpE (defs₀ (F := F)) Variants.none c none) E (cc7__bn_relu_mm2_kernel i arg1 harg1 arg2 harg2 arg3 harg3 arg4 harg4 arg5 harg5 arg6 harg6 arg7 harg7 arg8 harg8 arg9 harg9 arg10 harg10) K := by
  simp only [cc7__bn_relu_mm2_kernel_eq_skeleton]; unfold cc7__bn_relu_mm2_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover7_7 _)
  isplitl [H8]
  · iexists _; isplitr
    swap; · iexact H8
    ipureintro
    try dsimp only
    exact View.read_writes_eq_canon _ _ _ (cover7_8 _)
  iexists _; isplitr
  swap; · iexact H9
  ipureintro
  try dsimp only
  exact View.read_writes_eq_canon _ _ _ (cover7_8 _)

/-! ## The pipeline's proof data -/

/-- The proof data of the pipeline on core `c`: the arrays as the region finds them; after the body at point `t` each
    input's buffer at its block and each output's at its `out` of the input blocks there; the invariant is the
    untouched rest (scoped buffers and the generator register); nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
    | ⟨8, _⟩ => out7_8 (iblk7 V c 0 t) (iblk7 V c 1 t) (iblk7 V c 2 t) (iblk7 V c 3 t) (iblk7 V c 4 t) (iblk7 V c 5 t) (iblk7 V c 6 t)
    | ⟨9, _⟩ => out7_9 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) (iblk7 V c 6 t) := by dsimp only [dat7]
theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t))

set_option maxHeartbeats 1000000 in
/-- The body at any point: the inputs' memrefs hold their blocks, so the body's triple applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ (grid7.coords t) _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One launch of the normalise-rectify-pool kernel, seen from the buffers the TensorCore holds when the launch
    begins (a parameter `V`): what every window's block is at a grid point, what the kernel body does to whole
    staging buffers, and the per-point obligation the pipeline theorem asks of the body.

    The kernel reads a block of 5000 rows of 128 features, four rows of 128 numbers (mean, variance, scale, shift)
    and the 5000 graph numbers of the rows; it writes the rectified normalised block and a 256-by-128 table of
    per-graph column sums of that block. Every operand is a pipeline window read or written whole. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the rows of its array, as the launch finds the array, that the window's
    index map selects at `t`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The whole-buffer rectangles the body reads and writes -/

/-- all of a 5000-by-128 buffer (the feature block read, and the feature block written), -/
abbrev r8_0 : Rect S5000x128 := Rect.unit (s := S5000x128) ![0, 0] S5000x128.size inb_S5000x128_S5000x128_0_0
/-- all of a 1-by-128 buffer (mean, variance, scale, shift), -/
abbrev r8_1 : Rect S1x128 := Rect.unit (s := S1x128) ![0, 0] S1x128.size inb_S1x128_S1x128_0_0
/-- all of the 5000-by-1 buffer of graph numbers, -/
abbrev r8_5 : Rect S5000x1 := Rect.unit (s := S5000x1) ![0, 0] S5000x1.size inb_S5000x1_S5000x1_0_0
/-- all of the 1-by-256-by-128 buffer of pooled sums. -/
abbrev r8_7 : Rect S1x256x128 := Rect.unit (s := S1x256x128) ![0, 0, 0] S1x256x128.size inb_S1x256x128_S1x256x128_0_0_0

/-! ## What the body leaves in each output buffer, as a function of the six input blocks

The six inputs, in window order: the feature block `xZ`, the mean row `xM`, the variance row `xV`, the scale row `xG`,
the shift row `xB`, the graph numbers `xI`. -/

/-- The feature output: one whole-buffer store of the rectified normalised block. The payload takes the variance
    row before the mean row, which is the order in which the body reads them. -/
def out8_6 (xZ : Vec F S5000x128 .f32) (xM : Vec F S1x128 .f32) (xV : Vec F S1x128 .f32) (xG : Vec F S1x128 .f32) (xB : Vec F S1x128 .f32) (xI : Vec F S5000x1 .i32) : Vec F S5000x128 .f32 :=
  View.canon [⟨r8_0, k8_pay1 (View.ld xZ r8_0) (View.ld xV r8_1) (View.ld xM r8_1) (View.ld xG r8_1) (View.ld xB r8_1)⟩]

/-- The pooled output: one whole-buffer store of the per-graph column sums of that same block. -/
def out8_7 (xZ : Vec F S5000x128 .f32) (xM : Vec F S1x128 .f32) (xV : Vec F S1x128 .f32) (xG : Vec F S1x128 .f32) (xB : Vec F S1x128 .f32) (xI : Vec F S5000x1 .i32) : Vec F S1x256x128 .f32 :=
  View.canon [⟨r8_7, k8_pay2 (View.ld xZ r8_0) (View.ld xV r8_1) (View.ld xM r8_1) (View.ld xG r8_1) (View.ld xB r8_1) (View.ld xI r8_5)⟩]

/-- A single whole-buffer store covers the buffer: the feature output, -/
theorem cover8_6 (pH : Vec F S5000x128 .f32) (y : S5000x128.Idx) :
    ∃ pc ∈ ([⟨r8_0, pH⟩] : List (View.Piece (Elt F) S5000x128 .f32)), y ∈ pc.1.set :=
  View.cover_of_tiled [⟨r8_0, pH⟩] S5000x128.size (by rfl) y

/-- and the pooled output. -/
theorem cover8_7 (pP : Vec F S1x256x128 .f32) (y : S1x256x128.Idx) :
    ∃ pc ∈ ([⟨r8_7, pP⟩] : List (View.Piece (Elt F) S1x256x128 .f32)), y ∈ pc.1.set :=
  View.cover_of_tiled [⟨r8_7, pP⟩] S1x256x128.size (by rfl) y

/-! ## An input's staging buffer holds its block at every point -/

/-- For any proof data over the launch's arrays whose body leaves an input's block in place, the body finds that
    block in the window's current staging buffer at every point. Where the pipeline fetched it there, that is what
    the fetch brought; where it did not (the four 1-by-128 rows are fetched at the first point only), the block
    index has not moved since, so the buffer still holds the same block. One statement per input window. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (Pipeline.UD sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (Pipeline.UD sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

theorem before8_5_of {c : Dev nD} (dat : Dat τ (Elt F) Unit ℕ (Pipeline.UD sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's triple -/

set_option maxHeartbeats 4000000 in
/-- The kernel body run on whole staging buffers: the six inputs hold the contents `xZ … xI`, the two outputs hold
    anything. It ends with the inputs unchanged, the feature output at `out8_6` and the pooled output at `out8_7` of
    the inputs. The body is a sequence of loads and stores over named payloads, all of them in its one part, and the
    triple follows that sequence step by step; each output is loaded once before it is stored, a value nothing uses,
    so what the buffer held beforehand does not matter. -/
theorem sound_kernel8 (c : Dev nD) (E : Set ℕ) (i : grid8.Coords) (aZ : Memref sig .tc .vmem S5000x128 .f32) (haZ : aZ.IsWhole) (aM : Memref sig .tc .vmem S1x128 .f32) (haM : aM.IsWhole) (aV : Memref sig .tc .vmem S1x128 .f32) (haV : aV.IsWhole) (aG : Memref sig .tc .vmem S1x128 .f32) (haG : aG.IsWhole) (aB : Memref sig .tc .vmem S1x128 .f32) (haB : aB.IsWhole) (aI : Memref sig .tc .vmem S5000x1 .i32) (haI : aI.IsWhole) (aH : Memref sig .tc .vmem S5000x128 .f32) (haH : aH.IsWhole) (aP : Memref sig .tc .vmem S1x256x128 .f32) (haP : aP.IsWhole)
    (xZ : Vec F S5000x128 .f32) (xM : Vec F S1x128 .f32) (xV : Vec F S1x128 .f32) (xG : Vec F S1x128 .f32) (xB : Vec F S1x128 .f32) (xI : Vec F S5000x1 .i32)
    (K : PUnit → sProp 𝕄) :
    iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
        ∗ (∃ d, owns (c : Thread nD τ) aH fullShare d) ∗ (∃ d, owns (c : Thread nD τ) aP fullShare d)
        ∗ (iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
            ∗ owns (c : Thread nD τ) aH fullShare (out8_6 xZ xM xV xG xB xI) ∗ owns (c : Thread nD τ) aP fullShare (out8_7 xZ xM xV xG xB xI)) -∗ K ⟨⟩))
      ⊢ wp frame (wpE (defs₀ (F := F)) Variants.none c none) E (cc8__bn_relu_pool_kernel i aZ haZ aM haM aV haV aG haG aB haB aI haI aH haH aP haP) K := by
  simp only [cc8__bn_relu_pool_kernel_eq_skeleton]; unfold cc8__bn_relu_pool_kernel_skel
  simp only [k8_part1_eq_skeleton]; unfold k8_part1_skel
  unfold owns
  iintro ⟨⟨%fZ, %hfZ, HZ⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
  subst hfZ hfM hfV hfG hfB hfI
  sl_exec
  sl_step
  iapply Hk
  isplitl [HZ]
  · iexists fZ; isplitr; · ipureintro; rfl
    iexact HZ
  isplitl [HM]
  · iexists fM; isplitr; · ipureintro; rfl
    iexact HM
  isplitl [HV]
  · iexists fV; isplitr; · ipureintro; rfl
    iexact HV
  isplitl [HG]
  · iexists fG; isplitr; · ipureintro; rfl
    iexact HG
  isplitl [HB]
  · iexists fB; isplitr; · ipureintro; rfl
    iexact HB
  isplitl [HI]
  · iexists fI; isplitr; · ipureintro; rfl
    iexact HI
  isplitl [HH]
  · iexists _; isplitr
    swap; · iexact HH
    ipureintro
    try dsimp only
    exact View.read_writes_eq_canon _ _ _ (cover8_6 _)
  iexists _; isplitr
  swap; · iexact HP
  ipureintro
  try dsimp only
  exact View.read_writes_eq_canon _ _ _ (cover8_7 _)

/-! ## The pipeline's proof data -/

/-- The proof data of this launch on core `c`. The arrays are as the launch finds them (`V`). After the body at point
    `t` an input's buffer holds its block and an output's holds `out8_6` or `out8_7` of the six input blocks at `t`.
    The invariant is the class's own (everything the launch does not name stays as it was); nothing is owed; every
    share is full. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
    | ⟨7, _⟩ => out8_7 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the launch's. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) := by dsimp only [dat8]

/-- Each input's current staging buffer holds its block at every point, for this proof data. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is handed at point `t`: the invariant, the core's dues, and each window's current staging buffer
    at what the pipeline left in it, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it hands back. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

set_option maxHeartbeats 1000000 in
/-- The body at any point: every input's buffer holds its block (`before8_0` … `before8_5`), so the body's triple applies;
    the invariant and the core's dues pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%dZ, HZ⟩, ⟨%dM, HM⟩, ⟨%dV, HV⟩, ⟨%dG, HG⟩, ⟨%dB, HB⟩, ⟨%dI, HI⟩, ⟨%dH, HH⟩, ⟨%dP, HP⟩⟩
  iapply (sound_kernel8 c Set.univ (grid8.coords t) _ _ _ _ _ _ _ _ _ _ _ _ _ _ _ _ (iblk8 V c 0 t) (iblk8 V c 1 t) (iblk8 V c 2 t) (iblk8 V c 3 t) (iblk8 V c 4 t) (iblk8 V c 5 t) _)
  isplitl [HZ]; · iexact HZ
  isplitl [HM]; · iexact HM
  isplitl [HV]; · iexact HV
  isplitl [HG]; · iexact HG
  isplitl [HB]; · iexact HB
  isplitl [HI]; · iexact HI
  isplitl [HH]; · iexists _; iexact HH
  isplitl [HP]; · iexists _; iexact HP
  iintro ⟨HZ, HM, HV, HG, HB, HI, HH, HP⟩
  isplitl [HΦ]; · iexact HΦ
  isplitl [Ho]; · iexact Ho
  isplitl [HZ]; · iexact HZ
  isplitl [HM]; · iexact HM
  isplitl [HV]; · iexact HV
  isplitl [HG]; · iexact HG
  isplitl [HB]; · iexact HB
  isplitl [HI]; · iexact HI
  isplitl [HH]; · iexact HH
  iexact HP

/-- The pipeline theorem's obligation on the body, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
/- The frame half of one TensorCore region of @main: the launch, over a grid of row blocks, of the kernel computing a layer's first affine map.
   Everything here is stated at a PARAMETER `V`, the TensorCore's buffer contents when the region is entered: each
   window's block at a grid point, what the kernel body leaves in each output window's staging buffer as a function
   of the input blocks, the body's Hoare triple on whole staging memrefs, the pipeline's proof data over the class's
   invariant, and the body obligation at every grid point. The kernel is of the plainest kind: every operand is a
   pipeline window, every block is loaded whole and every output block is stored whole. -/
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has thousands of coordinates: the structural check recurses once per
-- coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The body's accesses: each staging buffer is read and written as one whole rectangle -/

/-- The whole of a row block of features. -/
abbrev r9_0 : Rect S5000x128 := Rect.unit (s := S5000x128) ![0, 0] S5000x128.size inb_S5000x128_S5000x128_0_0
/-- The whole of the weight matrix. -/
abbrev r9_1 : Rect S128x128 := Rect.unit (s := S128x128) ![0, 0] S128x128.size inb_S128x128_S128x128_0_0
/-- The whole of the bias row. -/
abbrev r9_2 : Rect S1x128 := Rect.unit (s := S1x128) ![0, 0] S1x128.size inb_S1x128_S1x128_0_0
/-- The whole of one block's row of column sums. -/
abbrev r9_3 : Rect S1x1x128 := Rect.unit (s := S1x1x128) ![0, 0, 0] S1x1x128.size inb_S1x1x128_S1x1x128_0_0_0

/-! ## What the body leaves in each output window's buffer

Each output buffer receives exactly one store, of the whole buffer; its contents afterwards are that store's payload,
a function of the four input blocks alone (whatever the buffer held before is overwritten). -/

/-- The affine image of the block: the sum of the two feature blocks, times the weights, plus the bias. -/
def out9_4 (x0 : Vec F S5000x128 .f32) (x1 : Vec F S5000x128 .f32) (x2 : Vec F S128x128 .f32) (x3 : Vec F S1x128 .f32) : Vec F S5000x128 .f32 :=
  View.canon [⟨r9_0, k9_pay1 (View.ld x0 r9_0) (View.ld x1 r9_0) (View.ld x2 r9_1) (View.ld x3 r9_2)⟩]

/-- The column sums of that image over the block's rows. -/
def out9_5 (x0 : Vec F S5000x128 .f32) (x1 : Vec F S5000x128 .f32) (x2 : Vec F S128x128 .f32) (x3 : Vec F S1x128 .f32) : Vec F S1x1x128 .f32 :=
  View.canon [⟨r9_3, k9_pay2 (View.ld x0 r9_0) (View.ld x1 r9_0) (View.ld x2 r9_1) (View.ld x3 r9_2)⟩]

/-- The column sums of its squares over the block's rows. -/
def out9_6 (x0 : Vec F S5000x128 .f32) (x1 : Vec F S5000x128 .f32) (x2 : Vec F S128x128 .f32) (x3 : Vec F S1x128 .f32) : Vec F S1x1x128 .f32 :=
  View.canon [⟨r9_3, k9_pay3 (View.ld x0 r9_0) (View.ld x1 r9_0) (View.ld x2 r9_1) (View.ld x3 r9_2)⟩]

/-- A single store of the whole buffer tiles it, so it covers every index. -/
theorem cover9_4 (p0 : Vec F S5000x128 .f32) (y : S5000x128.Idx) :
    ∃ pc ∈ ([⟨r9_0, p0⟩] : List (View.Piece (Elt F) S5000x128 .f32)), y ∈ pc.1.set :=
  View.cover_of_tiled [⟨r9_0, p0⟩] S5000x128.size (by rfl) y

theorem cover9_5 (p0 : Vec F S1x1x128 .f32) (y : S1x1x128.Idx) :
    ∃ pc ∈ ([⟨r9_3, p0⟩] : List (View.Piece (Elt F) S1x1x128 .f32)), y ∈ pc.1.set :=
  View.cover_of_tiled [⟨r9_3, p0⟩] S1x1x128.size (by rfl) y

theorem cover9_6 (p0 : Vec F S1x1x128 .f32) (y : S1x1x128.Idx) :
    ∃ pc ∈ ([⟨r9_3, p0⟩] : List (View.Piece (Elt F) S1x1x128 .f32)), y ∈ pc.1.set :=
  View.cover_of_tiled [⟨r9_3, p0⟩] S1x1x128.size (by rfl) y

/-! ## An input window's staging buffer holds its block at every point

For ANY proof data whose array is the region-entry contents and whose body leaves the input's block in place, the
window's current staging buffer holds the block of the point, whether the pipeline fetched it there or not: where it
did not, the block index has not moved since the point before (the weights and the bias, whose index map is constant,
are fetched at the first point only). The windows are uncut and never idle. -/

theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's triple -/

set_option maxHeartbeats 4000000 in
/-- The kernel body on whole staging memrefs, the four inputs' at given read contents and the three outputs' at
    anything, runs to the continuation holding the inputs' as they were and each output's at its closed form in the
    inputs'. The printed function is its skeleton: four whole loads, then per output a load of whatever the buffer
    holds (its value is never used) and one whole store. -/
theorem sound_kernel9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x1x128 .f32) (harg6 : arg6.IsWhole)
    (arg7 : Memref sig .tc .vmem S1x1x128 .f32) (harg7 : arg7.IsWhole)
    (x0 : Vec F S5000x128 .f32) (x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out9_4 x0 x1 x2 x3)
            ∗ owns (c : Thread nD τ) arg6 fullShare (out9_5 x0 x1 x2 x3)
            ∗ owns (c : Thread nD τ) arg7 fullShare (out9_6 x0 x1 x2 x3)) -∗ K ⟨⟩))
      ⊢ wp frame (wpE (defs₀ (F := F)) Variants.none c none) E (cc9__mm1_kernel i arg1 harg1 arg2 harg2 arg3 harg3 arg4 harg4 arg5 harg5 arg6 harg6 arg7 harg7) K := by
  simp only [cc9__mm1_kernel_eq_skeleton]; unfold cc9__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover9_4 _)
  isplitl [H5]
  · iexists _; isplitr
    swap; · iexact H5
    ipureintro
    exact View.read_writes_eq_canon _ _ _ (cover9_5 _)
  iexists _; isplitr
  swap; · iexact H6
  ipureintro
  exact View.read_writes_eq_canon _ _ _ (cover9_6 _)

/-! ## The pipeline's proof data -/

/-- The proof data of the region's pipeline on core `c`: the arrays as the region finds them; after the body at point
    `t` each input's buffer at its block and each output's at its closed form in the four input blocks; the invariant
    the class's (the scoped rest and the generator register, untouched); nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
    | ⟨5, _⟩ => out9_5 (iblk9 V c 0 t) (iblk9 V c 1 t) (iblk9 V c 2 t) (iblk9 V c 3 t)
    | ⟨6, _⟩ => out9_6 (iblk9 V c 0 t) (iblk9 V c 1 t) (iblk9 V c 2 t) (iblk9 V c 3 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]
theorem after9_5 (c : Dev nD) (t : Fin cfg9.N) : (dat9 V c).after 5 t = out9_5 (iblk9 V c 0 t) (iblk9 V c 1 t) (iblk9 V c 2 t) (iblk9 V c 3 t) := by dsimp only [dat9]
theorem after9_6 (c : Dev nD) (t : Fin cfg9.N) : (dat9 V c).after 6 t = out9_6 (iblk9 V c 0 t) (iblk9 V c 1 t) (iblk9 V c 2 t) (iblk9 V c 3 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`: the invariant, what the core owes, and each window's current staging
    buffer at what the pipeline left in it, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

set_option maxHeartbeats 1000000 in
/-- The body at any point: the inputs' staging buffers hold their blocks, so the kernel's triple applies; the
    invariant and what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _
    (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region

end Cert.KernelIdeal.Hand
-- ==== Proof.KI.Reg10.lean ====
/- The frame half of one kernel region of @main: the batch-normalisation / rectifier / second matrix product kernel
   of a layer, as ONE pipelined launch over ten row blocks. Everything is stated at a PARAMETER `V`, the TensorCore's
   buffer contents when the region is entered: each window's block at a grid point, what the body leaves in each output
   window's staging buffer as a function of the input blocks, the body's Hoare triple on whole staging memrefs, the
   pipeline's proof data and the body obligation at every grid point. Generic in the float interpretation. -/
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a five-thousand-row axis is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The body's accesses: every load and every store takes a whole staging buffer -/

/-- the whole of a row block of activations, -/
abbrev r10_0 : Rect S5000x128 := Rect.unit (s := S5000x128) ![0, 0] S5000x128.size inb_S5000x128_S5000x128_0_0
/-- the whole of a per-feature row (mean, variance, scale, shift, bias), -/
abbrev r10_1 : Rect S1x128 := Rect.unit (s := S1x128) ![0, 0] S1x128.size inb_S1x128_S1x128_0_0
/-- the whole of the square weight matrix, -/
abbrev r10_2 : Rect S128x128 := Rect.unit (s := S128x128) ![0, 0] S128x128.size inb_S128x128_S128x128_0_0
/-- the whole of a per-block row of column statistics. -/
abbrev r10_3 : Rect S1x1x128 := Rect.unit (s := S1x1x128) ![0, 0, 0] S1x1x128.size inb_S1x1x128_S1x1x128_0_0_0

/-! ## What the body leaves in each output window's buffer

The inputs in window order: `x0` the block of pre-activations, `x1` their mean, `x2` their variance, `x3` the scale,
`x4` the shift, `x5` the weight matrix, `x6` the bias. The body reads the variance before the mean, which is the order
the payload of the product takes them in. -/

/-- The block of the layer's second affine map: normalise, scale, shift, rectify, multiply by the weights, add the bias. -/
def out10_7 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S5000x128 .f32 :=
  View.canon [⟨r10_0, k10_pay3 (View.ld x0 r10_0) (View.ld x2 r10_1) (View.ld x1 r10_1) (View.ld x3 r10_1) (View.ld x4 r10_1)
    (View.ld x5 r10_2) (View.ld x6 r10_1)⟩]

/-- The column sums of that block, as a one-by-one-by-features row. -/
def out10_8 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r10_3, k10_pay1 (k10_pay4 (View.ld x0 r10_0) (View.ld x2 r10_1) (View.ld x1 r10_1) (View.ld x3 r10_1) (View.ld x4 r10_1)
    (View.ld x5 r10_2) (View.ld x6 r10_1))⟩]

/-- The column sums of the squares of that block, in the same form. -/
def out10_9 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r10_3, k10_pay2 (k10_pay5 (View.ld x0 r10_0) (View.ld x2 r10_1) (View.ld x1 r10_1) (View.ld x3 r10_1) (View.ld x4 r10_1)
    (View.ld x5 r10_2) (View.ld x6 r10_1))⟩]

/-- Each output's single store tiles its buffer, so it covers it. -/
theorem cover10_7 (p0 : Vec F S5000x128 .f32) (y : S5000x128.Idx) :
    ∃ pc ∈ ([⟨r10_0, p0⟩] : List (View.Piece (Elt F) S5000x128 .f32)), y ∈ pc.1.set :=
  View.cover_of_tiled [⟨r10_0, p0⟩] S5000x128.size (by rfl) y
theorem cover10_8 (p0 : Vec F S1x1x128 .f32) (y : S1x1x128.Idx) :
    ∃ pc ∈ ([⟨r10_3, p0⟩] : List (View.Piece (Elt F) S1x1x128 .f32)), y ∈ pc.1.set :=
  View.cover_of_tiled [⟨r10_3, p0⟩] S1x1x128.size (by rfl) y

/-! ## An input window's current staging buffer holds its block at every grid point

Fetched there or not: a window whose block index does not move between two points is not fetched again, and its buffer
still holds the earlier point's block, which is this point's. True of ANY proof data whose array is the region-entry
contents and whose body leaves the block in place; all the input windows are uncut and never idle. -/

/-- Window 0 (the block of pre-activations). -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Window 1 (the mean row). -/
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Window 2 (the variance row). -/
theorem before10_2_of {c : Dev nD} (dat : Dat τ (Elt F) Unit ℕ (Pipeline.UD sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Window 3 (the scale row). -/
theorem before10_3_of {c : Dev nD} (dat : Dat τ (Elt F) Unit ℕ (Pipeline.UD sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Window 4 (the shift row). -/
theorem before10_4_of {c : Dev nD} (dat : Dat τ (Elt F) Unit ℕ (Pipeline.UD sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Window 5 (the weight matrix). -/
theorem before10_5_of {c : Dev nD} (dat : Dat τ (Elt F) Unit ℕ (Pipeline.UD sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Window 6 (the bias row). -/
theorem before10_6_of {c : Dev nD} (dat : Dat τ (Elt F) Unit ℕ (Pipeline.UD sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The body's triple -/

set_option maxHeartbeats 4000000 in
/-- The kernel body on whole staging memrefs, the inputs' at read contents `x0 … x6` and the outputs' at anything, runs to
    the continuation holding the inputs' as they were and each output's at its `out` of the inputs'. The printed
    function and its first part are their skeletons of loads and stores over payloads; the three loads of output buffers
    read whatever is there and their values are never used. -/
theorem sound_kernel10 (c : Dev nD) (E : Set ℕ) (i : grid10.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out10_7 x0 x1 x2 x3 x4 x5 x6) ∗ owns (c : Thread nD τ) arg9 fullShare (out10_8 x0 x1 x2 x3 x4 x5 x6) ∗ owns (c : Thread nD τ) arg10 fullShare (out10_9 x0 x1 x2 x3 x4 x5 x6)) -∗ K ⟨⟩))
      ⊢ wp frame (wpE (defs₀ (F := F)) Variants.none c none) E (cc10__bn_relu_mm2_kernel i arg1 harg1 arg2 harg2 arg3 harg3 arg4 harg4 arg5 harg5 arg6 harg6 arg7 harg7 arg8 harg8 arg9 harg9 arg10 harg10) K := by
  simp only [cc10__bn_relu_mm2_kernel_eq_skeleton]; unfold cc10__bn_relu_mm2_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover10_7 _)
  isplitl [H8]
  · iexists _; isplitr
    swap; · iexact H8
    ipureintro
    try dsimp only
    exact View.read_writes_eq_canon _ _ _ (cover10_8 _)
  iexists _; isplitr
  swap; · iexact H9
  ipureintro
  try dsimp only
  exact View.read_writes_eq_canon _ _ _ (cover10_8 _)

/-! ## The pipeline's proof data -/

/-- The proof data of the pipeline on core `c`: the arrays as the region finds them; after the body at point `t` each
    input's buffer at its block and each output's at its `out` of the input blocks there; the invariant is the
    untouched rest (scoped buffers and the generator register); nothing owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
    | ⟨8, _⟩ => out10_8 (iblk10 V c 0 t) (iblk10 V c 1 t) (iblk10 V c 2 t) (iblk10 V c 3 t) (iblk10 V c 4 t) (iblk10 V c 5 t) (iblk10 V c 6 t)
    | ⟨9, _⟩ => out10_9 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]
theorem after10_8 (c : Dev nD) (t : Fin cfg10.N) : (dat10 V c).after 8 t = out10_8 (iblk10 V c 0 t) (iblk10 V c 1 t) (iblk10 V c 2 t) (iblk10 V c 3 t) (iblk10 V c 4 t) (iblk10 V c 5 t) (iblk10 V c 6 t) := by dsimp only [dat10]
theorem after10_9 (c : Dev nD) (t : Fin cfg10.N) : (dat10 V c).after 9 t = out10_9 (iblk10 V c 0 t) (iblk10 V c 1 t) (iblk10 V c 2 t) (iblk10 V c 3 t) (iblk10 V c 4 t) (iblk10 V c 5 t) (iblk10 V c 6 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t))

set_option maxHeartbeats 1000000 in
/-- The body at any point: the inputs' memrefs hold their blocks, so the body's triple applies; the invariant and the
    core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel10 c Set.univ (grid10.coords t) _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Reg11.lean ====
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One launch of the normalise-rectify-pool kernel, seen from the buffers the TensorCore holds when the launch
    begins (a parameter `V`): what every window's block is at a grid point, what the kernel body does to whole
    staging buffers, and the per-point obligation the pipeline theorem asks of the body.

    The kernel reads a block of 5000 rows of 128 features, four rows of 128 numbers (mean, variance, scale, shift)
    and the 5000 graph numbers of the rows; it writes the rectified normalised block and a 256-by-128 table of
    per-graph column sums of that block. Every operand is a pipeline window read or written whole. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the rows of its array, as the launch finds the array, that the window's
    index map selects at `t`. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The whole-buffer rectangles the body reads and writes -/

/-- all of a 5000-by-128 buffer (the feature block read, and the feature block written), -/
abbrev r11_0 : Rect S5000x128 := Rect.unit (s := S5000x128) ![0, 0] S5000x128.size inb_S5000x128_S5000x128_0_0
/-- all of a 1-by-128 buffer (mean, variance, scale, shift), -/
abbrev r11_1 : Rect S1x128 := Rect.unit (s := S1x128) ![0, 0] S1x128.size inb_S1x128_S1x128_0_0
/-- all of the 5000-by-1 buffer of graph numbers, -/
abbrev r11_5 : Rect S5000x1 := Rect.unit (s := S5000x1) ![0, 0] S5000x1.size inb_S5000x1_S5000x1_0_0
/-- all of the 1-by-256-by-128 buffer of pooled sums. -/
abbrev r11_7 : Rect S1x256x128 := Rect.unit (s := S1x256x128) ![0, 0, 0] S1x256x128.size inb_S1x256x128_S1x256x128_0_0_0

/-! ## What the body leaves in each output buffer, as a function of the six input blocks

The six inputs, in window order: the feature block `xZ`, the mean row `xM`, the variance row `xV`, the scale row `xG`,
the shift row `xB`, the graph numbers `xI`. -/

/-- The feature output: one whole-buffer store of the rectified normalised block. The payload takes the variance
    row before the mean row, which is the order in which the body reads them. -/
def out11_6 (xZ : Vec F S5000x128 .f32) (xM : Vec F S1x128 .f32) (xV : Vec F S1x128 .f32) (xG : Vec F S1x128 .f32) (xB : Vec F S1x128 .f32) (xI : Vec F S5000x1 .i32) : Vec F S5000x128 .f32 :=
  View.canon [⟨r11_0, k11_pay1 (View.ld xZ r11_0) (View.ld xV r11_1) (View.ld xM r11_1) (View.ld xG r11_1) (View.ld xB r11_1)⟩]

/-- The pooled output: one whole-buffer store of the per-graph column sums of that same block. -/
def out11_7 (xZ : Vec F S5000x128 .f32) (xM : Vec F S1x128 .f32) (xV : Vec F S1x128 .f32) (xG : Vec F S1x128 .f32) (xB : Vec F S1x128 .f32) (xI : Vec F S5000x1 .i32) : Vec F S1x256x128 .f32 :=
  View.canon [⟨r11_7, k11_pay2 (View.ld xZ r11_0) (View.ld xV r11_1) (View.ld xM r11_1) (View.ld xG r11_1) (View.ld xB r11_1) (View.ld xI r11_5)⟩]

/-- A single whole-buffer store covers the buffer: the feature output, -/
theorem cover11_6 (pH : Vec F S5000x128 .f32) (y : S5000x128.Idx) :
    ∃ pc ∈ ([⟨r11_0, pH⟩] : List (View.Piece (Elt F) S5000x128 .f32)), y ∈ pc.1.set :=
  View.cover_of_tiled [⟨r11_0, pH⟩] S5000x128.size (by rfl) y

/-- and the pooled output. -/
theorem cover11_7 (pP : Vec F S1x256x128 .f32) (y : S1x256x128.Idx) :
    ∃ pc ∈ ([⟨r11_7, pP⟩] : List (View.Piece (Elt F) S1x256x128 .f32)), y ∈ pc.1.set :=
  View.cover_of_tiled [⟨r11_7, pP⟩] S1x256x128.size (by rfl) y

/-! ## An input's staging buffer holds its block at every point -/

/-- For any proof data over the launch's arrays whose body leaves an input's block in place, the body finds that
    block in the window's current staging buffer at every point. Where the pipeline fetched it there, that is what
    the fetch brought; where it did not (the four 1-by-128 rows are fetched at the first point only), the block
    index has not moved since, so the buffer still holds the same block. One statement per input window. -/
theorem before11_0_of {c : Dev nD} (dat : Dat τ (Elt F) Unit ℕ (Pipeline.UD sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (Pipeline.UD sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (Pipeline.UD sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (Pipeline.UD sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (Pipeline.UD sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

theorem before11_5_of {c : Dev nD} (dat : Dat τ (Elt F) Unit ℕ (Pipeline.UD sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's triple -/

set_option maxHeartbeats 4000000 in
/-- The kernel body run on whole staging buffers: the six inputs hold the contents `xZ … xI`, the two outputs hold
    anything. It ends with the inputs unchanged, the feature output at `out11_6` and the pooled output at `out11_7` of
    the inputs. The body is a sequence of loads and stores over named payloads, all of them in its one part, and the
    triple follows that sequence step by step; each output is loaded once before it is stored, a value nothing uses,
    so what the buffer held beforehand does not matter. -/
theorem sound_kernel11 (c : Dev nD) (E : Set ℕ) (i : grid11.Coords) (aZ : Memref sig .tc .vmem S5000x128 .f32) (haZ : aZ.IsWhole) (aM : Memref sig .tc .vmem S1x128 .f32) (haM : aM.IsWhole) (aV : Memref sig .tc .vmem S1x128 .f32) (haV : aV.IsWhole) (aG : Memref sig .tc .vmem S1x128 .f32) (haG : aG.IsWhole) (aB : Memref sig .tc .vmem S1x128 .f32) (haB : aB.IsWhole) (aI : Memref sig .tc .vmem S5000x1 .i32) (haI : aI.IsWhole) (aH : Memref sig .tc .vmem S5000x128 .f32) (haH : aH.IsWhole) (aP : Memref sig .tc .vmem S1x256x128 .f32) (haP : aP.IsWhole)
    (xZ : Vec F S5000x128 .f32) (xM : Vec F S1x128 .f32) (xV : Vec F S1x128 .f32) (xG : Vec F S1x128 .f32) (xB : Vec F S1x128 .f32) (xI : Vec F S5000x1 .i32)
    (K : PUnit → sProp 𝕄) :
    iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
        ∗ (∃ d, owns (c : Thread nD τ) aH fullShare d) ∗ (∃ d, owns (c : Thread nD τ) aP fullShare d)
        ∗ (iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
            ∗ owns (c : Thread nD τ) aH fullShare (out11_6 xZ xM xV xG xB xI) ∗ owns (c : Thread nD τ) aP fullShare (out11_7 xZ xM xV xG xB xI)) -∗ K ⟨⟩))
      ⊢ wp frame (wpE (defs₀ (F := F)) Variants.none c none) E (cc11__bn_relu_pool_kernel i aZ haZ aM haM aV haV aG haG aB haB aI haI aH haH aP haP) K := by
  simp only [cc11__bn_relu_pool_kernel_eq_skeleton]; unfold cc11__bn_relu_pool_kernel_skel
  simp only [k11_part1_eq_skeleton]; unfold k11_part1_skel
  unfold owns
  iintro ⟨⟨%fZ, %hfZ, HZ⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
  subst hfZ hfM hfV hfG hfB hfI
  sl_exec
  sl_step
  iapply Hk
  isplitl [HZ]
  · iexists fZ; isplitr; · ipureintro; rfl
    iexact HZ
  isplitl [HM]
  · iexists fM; isplitr; · ipureintro; rfl
    iexact HM
  isplitl [HV]
  · iexists fV; isplitr; · ipureintro; rfl
    iexact HV
  isplitl [HG]
  · iexists fG; isplitr; · ipureintro; rfl
    iexact HG
  isplitl [HB]
  · iexists fB; isplitr; · ipureintro; rfl
    iexact HB
  isplitl [HI]
  · iexists fI; isplitr; · ipureintro; rfl
    iexact HI
  isplitl [HH]
  · iexists _; isplitr
    swap; · iexact HH
    ipureintro
    try dsimp only
    exact View.read_writes_eq_canon _ _ _ (cover11_6 _)
  iexists _; isplitr
  swap; · iexact HP
  ipureintro
  try dsimp only
  exact View.read_writes_eq_canon _ _ _ (cover11_7 _)

/-! ## The pipeline's proof data -/

/-- The proof data of this launch on core `c`. The arrays are as the launch finds them (`V`). After the body at point
    `t` an input's buffer holds its block and an output's holds `out11_6` or `out11_7` of the six input blocks at `t`.
    The invariant is the class's own (everything the launch does not name stays as it was); nothing is owed; every
    share is full. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
    | ⟨7, _⟩ => out11_7 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the launch's. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]
theorem after11_7 (c : Dev nD) (t : Fin cfg11.N) : (dat11 V c).after 7 t = out11_7 (iblk11 V c 0 t) (iblk11 V c 1 t) (iblk11 V c 2 t) (iblk11 V c 3 t) (iblk11 V c 4 t) (iblk11 V c 5 t) := by dsimp only [dat11]

/-- Each input's current staging buffer holds its block at every point, for this proof data. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is handed at point `t`: the invariant, the core's dues, and each window's current staging buffer
    at what the pipeline left in it, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d)))

/-- and what it hands back. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t))

set_option maxHeartbeats 1000000 in
/-- The body at any point: every input's buffer holds its block (`before11_0` … `before11_5`), so the body's triple applies;
    the invariant and the core's dues pass through untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7]
  iintro ⟨HΦ, Ho, ⟨%dZ, HZ⟩, ⟨%dM, HM⟩, ⟨%dV, HV⟩, ⟨%dG, HG⟩, ⟨%dB, HB⟩, ⟨%dI, HI⟩, ⟨%dH, HH⟩, ⟨%dP, HP⟩⟩
  iapply (sound_kernel11 c Set.univ (grid11.coords t) _ _ _ _ _ _ _ _ _ _ _ _ _ _ _ _ (iblk11 V c 0 t) (iblk11 V c 1 t) (iblk11 V c 2 t) (iblk11 V c 3 t) (iblk11 V c 4 t) (iblk11 V c 5 t) _)
  isplitl [HZ]; · iexact HZ
  isplitl [HM]; · iexact HM
  isplitl [HV]; · iexact HV
  isplitl [HG]; · iexact HG
  isplitl [HB]; · iexact HB
  isplitl [HI]; · iexact HI
  isplitl [HH]; · iexists _; iexact HH
  isplitl [HP]; · iexists _; iexact HP
  iintro ⟨HZ, HM, HV, HG, HB, HI, HH, HP⟩
  isplitl [HΦ]; · iexact HΦ
  isplitl [Ho]; · iexact Ho
  isplitl [HZ]; · iexact HZ
  isplitl [HM]; · iexact HM
  isplitl [HV]; · iexact HV
  isplitl [HG]; · iexact HG
  isplitl [HB]; · iexact HB
  isplitl [HI]; · iexact HI
  isplitl [HH]; · iexact HH
  iexact HP

/-- The pipeline theorem's obligation on the body, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Reg12.lean ====
/- The frame half of one TensorCore region of @main: the launch, over a grid of row blocks, of the kernel computing a layer's first affine map.
   Everything here is stated at a PARAMETER `V`, the TensorCore's buffer contents when the region is entered: each
   window's block at a grid point, what the kernel body leaves in each output window's staging buffer as a function
   of the input blocks, the body's Hoare triple on whole staging memrefs, the pipeline's proof data over the class's
   invariant, and the body obligation at every grid point. The kernel is of the plainest kind: every operand is a
   pipeline window, every block is loaded whole and every output block is stored whole. -/
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has thousands of coordinates: the structural check recurses once per
-- coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The body's accesses: each staging buffer is read and written as one whole rectangle -/

/-- The whole of a row block of features. -/
abbrev r12_0 : Rect S5000x128 := Rect.unit (s := S5000x128) ![0, 0] S5000x128.size inb_S5000x128_S5000x128_0_0
/-- The whole of the weight matrix. -/
abbrev r12_1 : Rect S128x128 := Rect.unit (s := S128x128) ![0, 0] S128x128.size inb_S128x128_S128x128_0_0
/-- The whole of the bias row. -/
abbrev r12_2 : Rect S1x128 := Rect.unit (s := S1x128) ![0, 0] S1x128.size inb_S1x128_S1x128_0_0
/-- The whole of one block's row of column sums. -/
abbrev r12_3 : Rect S1x1x128 := Rect.unit (s := S1x1x128) ![0, 0, 0] S1x1x128.size inb_S1x1x128_S1x1x128_0_0_0

/-! ## What the body leaves in each output window's buffer

Each output buffer receives exactly one store, of the whole buffer; its contents afterwards are that store's payload,
a function of the four input blocks alone (whatever the buffer held before is overwritten). -/

/-- The affine image of the block: the sum of the two feature blocks, times the weights, plus the bias. -/
def out12_4 (x0 : Vec F S5000x128 .f32) (x1 : Vec F S5000x128 .f32) (x2 : Vec F S128x128 .f32) (x3 : Vec F S1x128 .f32) : Vec F S5000x128 .f32 :=
  View.canon [⟨r12_0, k12_pay1 (View.ld x0 r12_0) (View.ld x1 r12_0) (View.ld x2 r12_1) (View.ld x3 r12_2)⟩]

/-- The column sums of that image over the block's rows. -/
def out12_5 (x0 : Vec F S5000x128 .f32) (x1 : Vec F S5000x128 .f32) (x2 : Vec F S128x128 .f32) (x3 : Vec F S1x128 .f32) : Vec F S1x1x128 .f32 :=
  View.canon [⟨r12_3, k12_pay2 (View.ld x0 r12_0) (View.ld x1 r12_0) (View.ld x2 r12_1) (View.ld x3 r12_2)⟩]

/-- The column sums of its squares over the block's rows. -/
def out12_6 (x0 : Vec F S5000x128 .f32) (x1 : Vec F S5000x128 .f32) (x2 : Vec F S128x128 .f32) (x3 : Vec F S1x128 .f32) : Vec F S1x1x128 .f32 :=
  View.canon [⟨r12_3, k12_pay3 (View.ld x0 r12_0) (View.ld x1 r12_0) (View.ld x2 r12_1) (View.ld x3 r12_2)⟩]

/-- A single store of the whole buffer tiles it, so it covers every index. -/
theorem cover12_4 (p0 : Vec F S5000x128 .f32) (y : S5000x128.Idx) :
    ∃ pc ∈ ([⟨r12_0, p0⟩] : List (View.Piece (Elt F) S5000x128 .f32)), y ∈ pc.1.set :=
  View.cover_of_tiled [⟨r12_0, p0⟩] S5000x128.size (by rfl) y

theorem cover12_5 (p0 : Vec F S1x1x128 .f32) (y : S1x1x128.Idx) :
    ∃ pc ∈ ([⟨r12_3, p0⟩] : List (View.Piece (Elt F) S1x1x128 .f32)), y ∈ pc.1.set :=
  View.cover_of_tiled [⟨r12_3, p0⟩] S1x1x128.size (by rfl) y

theorem cover12_6 (p0 : Vec F S1x1x128 .f32) (y : S1x1x128.Idx) :
    ∃ pc ∈ ([⟨r12_3, p0⟩] : List (View.Piece (Elt F) S1x1x128 .f32)), y ∈ pc.1.set :=
  View.cover_of_tiled [⟨r12_3, p0⟩] S1x1x128.size (by rfl) y

/-! ## An input window's staging buffer holds its block at every point

For ANY proof data whose array is the region-entry contents and whose body leaves the input's block in place, the
window's current staging buffer holds the block of the point, whether the pipeline fetched it there or not: where it
did not, the block index has not moved since the point before (the weights and the bias, whose index map is constant,
are fetched at the first point only). The windows are uncut and never idle. -/

theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (Pipeline.UD sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of {c : Dev nD} (dat : Dat τ (Elt F) Unit ℕ (Pipeline.UD sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-! ## The body's triple -/

set_option maxHeartbeats 4000000 in
/-- The kernel body on whole staging memrefs, the four inputs' at given read contents and the three outputs' at
    anything, runs to the continuation holding the inputs' as they were and each output's at its closed form in the
    inputs'. The printed function is its skeleton: four whole loads, then per output a load of whatever the buffer
    holds (its value is never used) and one whole store. -/
theorem sound_kernel12 (c : Dev nD) (E : Set ℕ) (i : grid12.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x1x128 .f32) (harg6 : arg6.IsWhole)
    (arg7 : Memref sig .tc .vmem S1x1x128 .f32) (harg7 : arg7.IsWhole)
    (x0 : Vec F S5000x128 .f32) (x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out12_4 x0 x1 x2 x3)
            ∗ owns (c : Thread nD τ) arg6 fullShare (out12_5 x0 x1 x2 x3)
            ∗ owns (c : Thread nD τ) arg7 fullShare (out12_6 x0 x1 x2 x3)) -∗ K ⟨⟩))
      ⊢ wp frame (wpE (defs₀ (F := F)) Variants.none c none) E (cc12__mm1_kernel i arg1 harg1 arg2 harg2 arg3 harg3 arg4 harg4 arg5 harg5 arg6 harg6 arg7 harg7) K := by
  simp only [cc12__mm1_kernel_eq_skeleton]; unfold cc12__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover12_4 _)
  isplitl [H5]
  · iexists _; isplitr
    swap; · iexact H5
    ipureintro
    exact View.read_writes_eq_canon _ _ _ (cover12_5 _)
  iexists _; isplitr
  swap; · iexact H6
  ipureintro
  exact View.read_writes_eq_canon _ _ _ (cover12_6 _)

/-! ## The pipeline's proof data -/

/-- The proof data of the region's pipeline on core `c`: the arrays as the region finds them; after the body at point
    `t` each input's buffer at its block and each output's at its closed form in the four input blocks; the invariant
    the class's (the scoped rest and the generator register, untouched); nothing owed; full shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
    | ⟨5, _⟩ => out12_5 (iblk12 V c 0 t) (iblk12 V c 1 t) (iblk12 V c 2 t) (iblk12 V c 3 t)
    | ⟨6, _⟩ => out12_6 (iblk12 V c 0 t) (iblk12 V c 1 t) (iblk12 V c 2 t) (iblk12 V c 3 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = out12_4 (iblk12 V c 0 t) (iblk12 V c 1 t) (iblk12 V c 2 t) (iblk12 V c 3 t) := by dsimp only [dat12]
theorem after12_5 (c : Dev nD) (t : Fin cfg12.N) : (dat12 V c).after 5 t = out12_5 (iblk12 V c 0 t) (iblk12 V c 1 t) (iblk12 V c 2 t) (iblk12 V c 3 t) := by dsimp only [dat12]
theorem after12_6 (c : Dev nD) (t : Fin cfg12.N) : (dat12 V c).after 6 t = out12_6 (iblk12 V c 0 t) (iblk12 V c 1 t) (iblk12 V c 2 t) (iblk12 V c 3 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-! ## The body obligation, at a generic point -/

/-- What the body is called with at point `t`: the invariant, what the core owes, and each window's current staging
    buffer at what the pipeline left in it, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

set_option maxHeartbeats 1000000 in
/-- The body at any point: the inputs' staging buffers hold their blocks, so the kernel's triple applies; the
    invariant and what the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel12 c Set.univ (grid12.coords t) _ _ _ _ _ _ _ _ _ _ _ _ _ _
    (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation12 (c : Dev nD) : BodyObligation (dat12 (F := F) V c) (defs₀ (F := F)) Variants.none () Set.univ := fun t => by
  rw [bigSep_W12, bigSep_W12]
  exact sound_body12 V c t

end Region

end Cert.KernelIdeal.Hand
-- ==== Proof.KI.Reg13.lean ====
/- The frame half of one kernel region of @main: the batch-normalisation / rectifier / second matrix product kernel
   of a layer, as ONE pipelined launch over ten row blocks. Everything is stated at a PARAMETER `V`, the TensorCore's
   buffer contents when the region is entered: each window's block at a grid point, what the body leaves in each output
   window's staging buffer as a function of the input blocks, the body's Hoare triple on whole staging memrefs, the
   pipeline's proof data and the body obligation at every grid point. Generic in the float interpretation. -/
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a five-thousand-row axis is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The body's accesses: every load and every store takes a whole staging buffer -/

/-- the whole of a row block of activations, -/
abbrev r13_0 : Rect S5000x128 := Rect.unit (s := S5000x128) ![0, 0] S5000x128.size inb_S5000x128_S5000x128_0_0
/-- the whole of a per-feature row (mean, variance, scale, shift, bias), -/
abbrev r13_1 : Rect S1x128 := Rect.unit (s := S1x128) ![0, 0] S1x128.size inb_S1x128_S1x128_0_0
/-- the whole of the square weight matrix, -/
abbrev r13_2 : Rect S128x128 := Rect.unit (s := S128x128) ![0, 0] S128x128.size inb_S128x128_S128x128_0_0
/-- the whole of a per-block row of column statistics. -/
abbrev r13_3 : Rect S1x1x128 := Rect.unit (s := S1x1x128) ![0, 0, 0] S1x1x128.size inb_S1x1x128_S1x1x128_0_0_0

/-! ## What the body leaves in each output window's buffer

The inputs in window order: `x0` the block of pre-activations, `x1` their mean, `x2` their variance, `x3` the scale,
`x4` the shift, `x5` the weight matrix, `x6` the bias. The body reads the variance before the mean, which is the order
the payload of the product takes them in. -/

/-- The block of the layer's second affine map: normalise, scale, shift, rectify, multiply by the weights, add the bias. -/
def out13_7 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S5000x128 .f32 :=
  View.canon [⟨r13_0, k13_pay3 (View.ld x0 r13_0) (View.ld x2 r13_1) (View.ld x1 r13_1) (View.ld x3 r13_1) (View.ld x4 r13_1)
    (View.ld x5 r13_2) (View.ld x6 r13_1)⟩]

/-- The column sums of that block, as a one-by-one-by-features row. -/
def out13_8 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r13_3, k13_pay1 (k13_pay4 (View.ld x0 r13_0) (View.ld x2 r13_1) (View.ld x1 r13_1) (View.ld x3 r13_1) (View.ld x4 r13_1)
    (View.ld x5 r13_2) (View.ld x6 r13_1))⟩]

/-- The column sums of the squares of that block, in the same form. -/
def out13_9 (x0 : Vec F S5000x128 .f32) (x1 : Vec F S1x128 .f32) (x2 : Vec F S1x128 .f32) (x3 : Vec F S1x128 .f32)
    (x4 : Vec F S1x128 .f32) (x5 : Vec F S128x128 .f32) (x6 : Vec F S1x128 .f32) : Vec F S1x1x128 .f32 :=
  View.canon [⟨r13_3, k13_pay2 (k13_pay5 (View.ld x0 r13_0) (View.ld x2 r13_1) (View.ld x1 r13_1) (View.ld x3 r13_1) (View.ld x4 r13_1)
    (View.ld x5 r13_2) (View.ld x6 r13_1))⟩]

/-- Each output's single store tiles its buffer, so it covers it. -/
theorem cover13_7 (p0 : Vec F S5000x128 .f32) (y : S5000x128.Idx) :
    ∃ pc ∈ ([⟨r13_0, p0⟩] : List (View.Piece (Elt F) S5000x128 .f32)), y ∈ pc.1.set :=
  View.cover_of_tiled [⟨r13_0, p0⟩] S5000x128.size (by rfl) y
theorem cover13_8 (p0 : Vec F S1x1x128 .f32) (y : S1x1x128.Idx) :
    ∃ pc ∈ ([⟨r13_3, p0⟩] : List (View.Piece (Elt F) S1x1x128 .f32)), y ∈ pc.1.set :=
  View.cover_of_tiled [⟨r13_3, p0⟩] S1x1x128.size (by rfl) y

/-! ## An input window's current staging buffer holds its block at every grid point

Fetched there or not: a window whose block index does not move between two points is not fetched again, and its buffer
still holds the earlier point's block, which is this point's. True of ANY proof data whose array is the region-entry
contents and whose body leaves the block in place; all the input windows are uncut and never idle. -/

/-- Window 0 (the block of pre-activations). -/
theorem before13_0_of {c : Dev nD} (dat : Dat τ (Elt F) Unit ℕ (Pipeline.UD sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Window 1 (the mean row). -/
theorem before13_1_of {c : Dev nD} (dat : Dat τ (Elt F) Unit ℕ (Pipeline.UD sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Window 2 (the variance row). -/
theorem before13_2_of {c : Dev nD} (dat : Dat τ (Elt F) Unit ℕ (Pipeline.UD sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Window 3 (the scale row). -/
theorem before13_3_of {c : Dev nD} (dat : Dat τ (Elt F) Unit ℕ (Pipeline.UD sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Window 4 (the shift row). -/
theorem before13_4_of {c : Dev nD} (dat : Dat τ (Elt F) Unit ℕ (Pipeline.UD sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Window 5 (the weight matrix). -/
theorem before13_5_of {c : Dev nD} (dat : Dat τ (Elt F) Unit ℕ (Pipeline.UD sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- Window 6 (the bias row). -/
theorem before13_6_of {c : Dev nD} (dat : Dat τ (Elt F) Unit ℕ (Pipeline.UD sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-! ## The body's triple -/

set_option maxHeartbeats 4000000 in
/-- The kernel body on whole staging memrefs, the inputs' at read contents `x0 … x6` and the outputs' at anything, runs to
    the continuation holding the inputs' as they were and each output's at its `out` of the inputs'. The printed
    function and its first part are their skeletons of loads and stores over payloads; the three loads of output buffers
    read whatever is there and their values are never used. -/
theorem sound_kernel13 (c : Dev nD) (E : Set ℕ) (i : grid13.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out13_7 x0 x1 x2 x3 x4 x5 x6) ∗ owns (c : Thread nD τ) arg9 fullShare (out13_8 x0 x1 x2 x3 x4 x5 x6) ∗ owns (c : Thread nD τ) arg10 fullShare (out13_9 x0 x1 x2 x3 x4 x5 x6)) -∗ K ⟨⟩))
      ⊢ wp frame (wpE (defs₀ (F := F)) Variants.none c none) E (cc13__bn_relu_mm2_kernel i arg1 harg1 arg2 harg2 arg3 harg3 arg4 harg4 arg5 harg5 arg6 harg6 arg7 harg7 arg8 harg8 arg9 harg9 arg10 harg10) K := by
  simp only [cc13__bn_relu_mm2_kernel_eq_skeleton]; unfold cc13__bn_relu_mm2_kernel_skel
  simp only [k13_part1_eq_skeleton]; unfold k13_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover13_7 _)
  isplitl [H8]
  · iexists _; isplitr
    swap; · iexact H8
    ipureintro
    try dsimp only
    exact View.read_writes_eq_canon _ _ _ (cover13_8 _)
  iexists _; isplitr
  swap; · iexact H9
  ipureintro
  try dsimp only
  exact View.read_writes_eq_canon _ _ _ (cover13_8 _)

/-! ## The pipeline's proof data -/

/-- The proof data of the pipeline on core `c`: the arrays as the region finds them; after the body at point `t` each
    input's buffer at its block and each output's at its `out` of the input blocks there; the invariant is the
    untouched rest (scoped buffers and the generator register); nothing owed; full shares. -/
def dat13 (c : Dev nD) : Dat τ (Elt F) Unit ℕ (Pipeline.UD sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => out13_7 (iblk13 V c 0 t) (iblk13 V c 1 t) (iblk13 V c 2 t) (iblk13 V c 3 t) (iblk13 V c 4 t) (iblk13 V c 5 t) (iblk13 V c 6 t)
    | ⟨8, _⟩ => out13_8 (iblk13 V c 0 t) (iblk13 V c 1 t) (iblk13 V c 2 t) (iblk13 V c 3 t) (iblk13 V c 4 t) (iblk13 V c 5 t) (iblk13 V c 6 t)
    | ⟨9, _⟩ => out13_9 (iblk13 V c 0 t) (iblk13 V c 1 t) (iblk13 V c 2 t) (iblk13 V c 3 t) (iblk13 V c 4 t) (iblk13 V c 5 t) (iblk13 V c 6 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = out13_7 (iblk13 V c 0 t) (iblk13 V c 1 t) (iblk13 V c 2 t) (iblk13 V c 3 t) (iblk13 V c 4 t) (iblk13 V c 5 t) (iblk13 V c 6 t) := by dsimp only [dat13]
theorem after13_8 (c : Dev nD) (t : Fin cfg13.N) : (dat13 V c).after 8 t = out13_8 (iblk13 V c 0 t) (iblk13 V c 1 t) (iblk13 V c 2 t) (iblk13 V c 3 t) (iblk13 V c 4 t) (iblk13 V c 5 t) (iblk13 V c 6 t) := by dsimp only [dat13]
theorem after13_9 (c : Dev nD) (t : Fin cfg13.N) : (dat13 V c).after 9 t = out13_9 (iblk13 V c 0 t) (iblk13 V c 1 t) (iblk13 V c 2 t) (iblk13 V c 3 t) (iblk13 V c 4 t) (iblk13 V c 5 t) (iblk13 V c 6 t) := by dsimp only [dat13]

/-- Each input's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d))
    ∗ (∃ d, owns (c : Thread nD τ) (st13_8 t) fullShare ((dat13 V c).before 8 t d))
    ∗ (∃ d, owns (c : Thread nD τ) (st13_9 t) fullShare ((dat13 V c).before 9 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t)
    ∗ owns (c : Thread nD τ) (st13_8 t) fullShare ((dat13 V c).after 8 t)
    ∗ owns (c : Thread nD τ) (st13_9 t) fullShare ((dat13 V c).after 9 t))

set_option maxHeartbeats 1000000 in
/-- The body at any point: the inputs' memrefs hold their blocks, so the body's triple applies; the invariant and the
    core's debts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7, after13_8, after13_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel13 c Set.univ (grid13.coords t) _ _ _ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.Reg14.lean ====
import proofs.«422260_j36421322670663_2_alg».proof.Proof.Gen.KernelIdeal.Launch
import proofs.«422260_j36421322670663_2_alg».proof.Proof.Gen.KernelIdeal.Skeleton
import proofs.«422260_j36421322670663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One launch of the normalise-rectify-pool kernel, seen from the buffers the TensorCore holds when the launch
    begins (a parameter `V`): what every window's block is at a grid point, what the kernel body does to whole
    staging buffers, and the per-point obligation the pipeline theorem asks of the body.

    The kernel reads a block of 5000 rows of 128 features, four rows of 128 numbers (mean, variance, scale, shift)
    and the 5000 graph numbers of the rows; it writes the rectified normalised block and a 256-by-128 table of
    per-graph column sums of that block. Every operand is a pipeline window read or written whole. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the rows of its array, as the launch finds the array, that the window's
    index map selects at `t`. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The whole-buffer rectangles the body reads and writes -/

/-- all of a 5000-by-128 buffer (the feature block read, and the feature block written), -/
abbrev r14_0 : Rect S5000x128 := Rect.unit (s := S5000x128) ![0, 0] S5000x128.size inb_S5000x128_S5000x128_0_0
/-- all of a 1-by-128 buffer (mean, variance, scale, shift), -/
abbrev r14_1 : Rect S1x128 := Rect.unit (s := S1x128) ![0, 0] S1x128.size inb_S1x128_S1x128_0_0
/-- all of the 5000-by-1 buffer of graph numbers, -/
abbrev r14_5 : Rect S5000x1 := Rect.unit (s := S5000x1) ![0, 0] S5000x1.size inb_S5000x1_S5000x1_0_0
/-- all of the 1-by-256-by-128 buffer of pooled sums. -/
abbrev r14_7 : Rect S1x256x128 := Rect.unit (s := S1x256x128) ![0, 0, 0] S1x256x128.size inb_S1x256x128_S1x256x128_0_0_0

/-! ## What the body leaves in each output buffer, as a function of the six input blocks

The six inputs, in window order: the feature block `xZ`, the mean row `xM`, the variance row `xV`, the scale row `xG`,
the shift row `xB`, the graph numbers `xI`. -/

/-- The feature output: one whole-buffer store of the rectified normalised block. The payload takes the variance
    row before the mean row, which is the order in which the body reads them. -/
def out14_6 (xZ : Vec F S5000x128 .f32) (xM : Vec F S1x128 .f32) (xV : Vec F S1x128 .f32) (xG : Vec F S1x128 .f32) (xB : Vec F S1x128 .f32) (xI : Vec F S5000x1 .i32) : Vec F S5000x128 .f32 :=
  View.canon [⟨r14_0, k14_pay1 (View.ld xZ r14_0) (View.ld xV r14_1) (View.ld xM r14_1) (View.ld xG r14_1) (View.ld xB r14_1)⟩]

/-- The pooled output: one whole-buffer store of the per-graph column sums of that same block. -/
def out14_7 (xZ : Vec F S5000x128 .f32) (xM : Vec F S1x128 .f32) (xV : Vec F S1x128 .f32) (xG : Vec F S1x128 .f32) (xB : Vec F S1x128 .f32) (xI : Vec F S5000x1 .i32) : Vec F S1x256x128 .f32 :=
  View.canon [⟨r14_7, k14_pay2 (View.ld xZ r14_0) (View.ld xV r14_1) (View.ld xM r14_1) (View.ld xG r14_1) (View.ld xB r14_1) (View.ld xI r14_5)⟩]

/-- A single whole-buffer store covers the buffer: the feature output, -/
theorem cover14_6 (pH : Vec F S5000x128 .f32) (y : S5000x128.Idx) :
    ∃ pc ∈ ([⟨r14_0, pH⟩] : List (View.Piece (Elt F) S5000x128 .f32)), y ∈ pc.1.set :=
  View.cover_of_tiled [⟨r14_0, pH⟩] S5000x128.size (by rfl) y

/-- and the pooled output. -/
theorem cover14_7 (pP : Vec F S1x256x128 .f32) (y : S1x256x128.Idx) :
    ∃ pc ∈ ([⟨r14_7, pP⟩] : List (View.Piece (Elt F) S1x256x128 .f32)), y ∈ pc.1.set :=
  View.cover_of_tiled [⟨r14_7, pP⟩] S1x256x128.size (by rfl) y

/-! ## An input's staging buffer holds its block at every point -/

/-- For any proof data over the launch's arrays whose body leaves an input's block in place, the body finds that
    block in the window's current staging buffer at every point. Where the pipeline fetched it there, that is what
    the fetch brought; where it did not (the four 1-by-128 rows are fetched at the first point only), the block
    index has not moved since, so the buffer still holds the same block. One statement per input window. -/
theorem before14_0_of {c : Dev nD} (dat : Dat τ (Elt F) Unit ℕ (Pipeline.UD sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (Pipeline.UD sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (Pipeline.UD sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

theorem before14_3_of {c : Dev nD} (dat : Dat τ (Elt F) Unit ℕ (Pipeline.UD sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

theorem before14_4_of {c : Dev nD} (dat : Dat τ (Elt F) Unit ℕ (Pipeline.UD sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

theorem before14_5_of {c : Dev nD} (dat : Dat τ (Elt F) Unit ℕ (Pipeline.UD sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-! ## The body's triple -/

set_option maxHeartbeats 4000000 in
/-- The kernel body run on whole staging buffers: the six inputs hold the contents `xZ … xI`, the two outputs hold
    anything. It ends with the inputs unchanged, the feature output at `out14_6` and the pooled output at `out14_7` of
    the inputs. The body is a sequence of loads and stores over named payloads, all of them in its one part, and the
    triple follows that sequence step by step; each output is loaded once before it is stored, a value nothing uses,
    so what the buffer held beforehand does not matter. -/
theorem sound_kernel14 (c : Dev nD) (E : Set ℕ) (i : grid14.Coords) (aZ : Memref sig .tc .vmem S5000x128 .f32) (haZ : aZ.IsWhole) (aM : Memref sig .tc .vmem S1x128 .f32) (haM : aM.IsWhole) (aV : Memref sig .tc .vmem S1x128 .f32) (haV : aV.IsWhole) (aG : Memref sig .tc .vmem S1x128 .f32) (haG : aG.IsWhole) (aB : Memref sig .tc .vmem S1x128 .f32) (haB : aB.IsWhole) (aI : Memref sig .tc .vmem S5000x1 .i32) (haI : aI.IsWhole) (aH : Memref sig .tc .vmem S5000x128 .f32) (haH : aH.IsWhole) (aP : Memref sig .tc .vmem S1x256x128 .f32) (haP : aP.IsWhole)
    (xZ : Vec F S5000x128 .f32) (xM : Vec F S1x128 .f32) (xV : Vec F S1x128 .f32) (xG : Vec F S1x128 .f32) (xB : Vec F S1x128 .f32) (xI : Vec F S5000x1 .i32)
    (K : PUnit → sProp 𝕄) :
    iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
        ∗ (∃ d, owns (c : Thread nD τ) aH fullShare d) ∗ (∃ d, owns (c : Thread nD τ) aP fullShare d)
        ∗ (iprop(owns (c : Thread nD τ) aZ fullShare xZ ∗ owns (c : Thread nD τ) aM fullShare xM ∗ owns (c : Thread nD τ) aV fullShare xV ∗ owns (c : Thread nD τ) aG fullShare xG ∗ owns (c : Thread nD τ) aB fullShare xB ∗ owns (c : Thread nD τ) aI fullShare xI
            ∗ owns (c : Thread nD τ) aH fullShare (out14_6 xZ xM xV xG xB xI) ∗ owns (c : Thread nD τ) aP fullShare (out14_7 xZ xM xV xG xB xI)) -∗ K ⟨⟩))
      ⊢ wp frame (wpE (defs₀ (F := F)) Variants.none c none) E (cc14__bn_relu_pool_kernel i aZ haZ aM haM aV haV aG haG aB haB aI haI aH haH aP haP) K := by
  simp only [cc14__bn_relu_pool_kernel_eq_skeleton]; unfold cc14__bn_relu_pool_kernel_skel
  simp only [k14_part1_eq_skeleton]; unfold k14_part1_skel
  unfold owns
  iintro ⟨⟨%fZ, %hfZ, HZ⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
  subst hfZ hfM hfV hfG hfB hfI
  sl_exec
  sl_step
  iapply Hk
  isplitl [HZ]
  · iexists fZ; isplitr; · ipureintro; rfl
    iexact HZ
  isplitl [HM]
  · iexists fM; isplitr; · ipureintro; rfl
    iexact HM
  isplitl [HV]
  · iexists fV; isplitr; · ipureintro; rfl
    iexact HV
  isplitl [HG]
  · iexists fG; isplitr; · ipureintro; rfl
    iexact HG
  isplitl [HB]
  · iexists fB; isplitr; · ipureintro; rfl
    iexact HB
  isplitl [HI]
  · iexists fI; isplitr; · ipureintro; rfl
    iexact HI
  isplitl [HH]
  · iexists _; isplitr
    swap; · iexact HH
    ipureintro
    try dsimp only
    exact View.read_writes_eq_canon _ _ _ (cover14_6 _)
  iexists _; isplitr
  swap; · iexact HP
  ipureintro
  try dsimp only
  exact View.read_writes_eq_canon _ _ _ (cover14_7 _)

/-! ## The pipeline's proof data -/

/-- The proof data of this launch on core `c`. The arrays are as the launch finds them (`V`). After the body at point
    `t` an input's buffer holds its block and an output's holds `out14_6` or `out14_7` of the six input blocks at `t`.
    The invariant is the class's own (everything the launch does not name stays as it was); nothing is owed; every
    share is full. -/
def dat14 (c : Dev nD) : Dat τ (Elt F) Unit ℕ (Pipeline.UD sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
    | ⟨7, _⟩ => out14_7 (iblk14 V c 0 t) (iblk14 V c 1 t) (iblk14 V c 2 t) (iblk14 V c 3 t) (iblk14 V c 4 t) (iblk14 V c 5 t)
  Φ _ := Pipeline.ΦA spec14 c
  q _ := fullShare
  owed _ := 0

/-- The proof data's arrays are the launch's. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) (iblk14 V c 5 t) := by dsimp only [dat14]
theorem after14_7 (c : Dev nD) (t : Fin cfg14.N) : (dat14 V c).after 7 t = out14_7 (iblk14 V c 0 t) (iblk14 V c 1 t) (iblk14 V c 2 t) (iblk14 V c 3 t) (iblk14 V c 4 t) (iblk14 V c 5 t) := by dsimp only [dat14]

/-- Each input's current staging buffer holds its block at every point, for this proof data. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-! ## The body obligation, at a generic point -/

/-- What the body is handed at point `t`: the invariant, the core's dues, and each window's current staging buffer
    at what the pipeline left in it, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d)))

/-- and what it hands back. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t))

set_option maxHeartbeats 1000000 in
/-- The body at any point: every input's buffer holds its block (`before14_0` … `before14_5`), so the body's triple applies;
    the invariant and the core's dues pass through untouched. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7]
  iintro ⟨HΦ, Ho, ⟨%dZ, HZ⟩, ⟨%dM, HM⟩, ⟨%dV, HV⟩, ⟨%dG, HG⟩, ⟨%dB, HB⟩, ⟨%dI, HI⟩, ⟨%dH, HH⟩, ⟨%dP, HP⟩⟩
  iapply (sound_kernel14 c Set.univ (grid14.coords t) _ _ _ _ _ _ _ _ _ _ _ _ _ _ _ _ (iblk14 V c 0 t) (iblk14 V c 1 t) (iblk14 V c 2 t) (iblk14 V c 3 t) (iblk14 V c 4 t) (iblk14 V c 5 t) _)
  isplitl [HZ]; · iexact HZ
  isplitl [HM]; · iexact HM
  isplitl [HV]; · iexact HV
  isplitl [HG]; · iexact HG
  isplitl [HB]; · iexact HB
  isplitl [HI]; · iexact HI
  isplitl [HH]; · iexists _; iexact HH
  isplitl [HP]; · iexists _; iexact HP
  iintro ⟨HZ, HM, HV, HG, HB, HI, HH, HP⟩
  isplitl [HΦ]; · iexact HΦ
  isplitl [Ho]; · iexact Ho
  isplitl [HZ]; · iexact HZ
  isplitl [HM]; · iexact HM
  isplitl [HV]; · iexact HV
  isplitl [HG]; · iexact HG
  isplitl [HB]; · iexact HB
  isplitl [HI]; · iexact HI
  isplitl [HH]; · iexact HH
  iexact HP

/-- The pipeline theorem's obligation on the body, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.Chain.lean ====
import proofs.«422260_j36421322670663_2_alg».proof.Proof.KI.RegionsP
import proofs.«422260_j36421322670663_2_alg».proof.Proof.KI.Reg0
import proofs.«422260_j36421322670663_2_alg».proof.Proof.KI.Reg1
import proofs.«422260_j36421322670663_2_alg».proof.Proof.KI.Reg2
import proofs.«422260_j36421322670663_2_alg».proof.Proof.KI.Reg3
import proofs.«422260_j36421322670663_2_alg».proof.Proof.KI.Reg4
import proofs.«422260_j36421322670663_2_alg».proof.Proof.KI.Reg5
import proofs.«422260_j36421322670663_2_alg».proof.Proof.KI.Reg6
import proofs.«422260_j36421322670663_2_alg».proof.Proof.KI.Reg7
import proofs.«422260_j36421322670663_2_alg».proof.Proof.KI.Reg8
import proofs.«422260_j36421322670663_2_alg».proof.Proof.KI.Reg9
import proofs.«422260_j36421322670663_2_alg».proof.Proof.KI.Reg10
import proofs.«422260_j36421322670663_2_alg».proof.Proof.KI.Reg11
import proofs.«422260_j36421322670663_2_alg».proof.Proof.KI.Reg12
import proofs.«422260_j36421322670663_2_alg».proof.Proof.KI.Reg13
import proofs.«422260_j36421322670663_2_alg».proof.Proof.KI.Reg14
import Idealize.ShloMosaic.Lib.Pipeline.FrameSuffix
import Idealize.ShloMosaic.Lib.Pipeline.RegionsLoop

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # What every unscoped buffer holds between @main's items

The conditional frame is written over unknown contents `outs J r c` that a kernel region leaves in its output arrays.
Here those unknowns are pinned, region by region, in program order: region K is entered at the valuation made from
the launch memory and the contents pinned for the regions before it; it leaves each of its arrays at what the
pipeline's write-backs have folded into it after the last grid point, and every other buffer as entered. Nothing is
circular: the entry valuation of region K reads `outs` only at items before K. -/

/-- A valuation updated at three references, read at the first of them. -/
theorem upd3_fst {V : Valuation τ sig (Elt F)} {a b d : DevRef τ sig} {x : a.ty.Contents (Elt F)} {y : b.ty.Contents (Elt F)}
    {z : d.ty.Contents (Elt F)} (hab : a ≠ b) (had : a ≠ d) :
    Function.update (Function.update (Function.update V a x) b y) d z a = x := by
  rw [Function.update_of_ne had, Function.update_of_ne hab, Function.update_self]
/-- A valuation updated at two or more references, read at the one before the last. -/
theorem upd2_fst {V : Valuation τ sig (Elt F)} {a b : DevRef τ sig} {x : a.ty.Contents (Elt F)} {y : b.ty.Contents (Elt F)}
    (hab : a ≠ b) : Function.update (Function.update V a x) b y a = x := by
  rw [Function.update_of_ne hab, Function.update_self]

/-! ## The valuations read the unknowns only at earlier items

Two families of unknowns that agree at every item up to a region's exit give the same valuation there, and the same
valuation after the host stretch that follows: one step per item of @main. -/

section Congr
variable {o o' : GenP.Outs (F := F)} (c : Dev nD)

theorem V2_congr (h : ∀ J, J ≤ 2 → ∀ r, o J r c = o' J r c) : GenP.V2 m o c = GenP.V2 m o' c := by
  unfold GenP.V2
  rw [h 2 le_rfl main_v36_0, h 2 le_rfl main_v36_1, h 2 le_rfl main_v36_2]
theorem V3_congr (h : ∀ J, J ≤ 2 → ∀ r, o J r c = o' J r c) : GenP.V3 m o c = GenP.V3 m o' c :=
  congrArg (StableHlo.after hostOps1) (V2_congr m c h)

theorem V4_congr (h : ∀ J, J ≤ 4 → ∀ r, o J r c = o' J r c) : GenP.V4 m o c = GenP.V4 m o' c := by
  unfold GenP.V4
  rw [V3_congr m c (fun J hJ => h J (hJ.trans (by decide))), h 4 le_rfl main_v48_0, h 4 le_rfl main_v48_1, h 4 le_rfl main_v48_2]
theorem V5_congr (h : ∀ J, J ≤ 4 → ∀ r, o J r c = o' J r c) : GenP.V5 m o c = GenP.V5 m o' c :=
  congrArg (StableHlo.after hostOps2) (V4_congr m c h)

theorem V6_congr (h : ∀ J, J ≤ 6 → ∀ r, o J r c = o' J r c) : GenP.V6 m o c = GenP.V6 m o' c := by
  unfold GenP.V6
  rw [V5_congr m c (fun J hJ => h J (hJ.trans (by decide))), h 6 le_rfl main_v59_0, h 6 le_rfl main_v59_1]
theorem V7_congr (h : ∀ J, J ≤ 6 → ∀ r, o J r c = o' J r c) : GenP.V7 m o c = GenP.V7 m o' c :=
  congrArg (StableHlo.after hostOps3) (V6_congr m c h)

theorem V8_congr (h : ∀ J, J ≤ 8 → ∀ r, o J r c = o' J r c) : GenP.V8 m o c = GenP.V8 m o' c := by
  unfold GenP.V8
  rw [V7_congr m c (fun J hJ => h J (hJ.trans (by decide))), h 8 le_rfl main_v92_0, h 8 le_rfl main_v92_1, h 8 le_rfl main_v92_2]
theorem V9_congr (h : ∀ J, J ≤ 8 → ∀ r, o J r c = o' J r c) : GenP.V9 m o c = GenP.V9 m o' c :=
  congrArg (StableHlo.after hostOps4) (V8_congr m c h)

theorem V10_congr (h : ∀ J, J ≤ 10 → ∀ r, o J r c = o' J r c) : GenP.V10 m o c = GenP.V10 m o' c := by
  unfold GenP.V10
  rw [V9_congr m c (fun J hJ => h J (hJ.trans (by decide))), h 10 le_rfl main_v104_0, h 10 le_rfl main_v104_1, h 10 le_rfl main_v104_2]
theorem V11_congr (h : ∀ J, J ≤ 10 → ∀ r, o J r c = o' J r c) : GenP.V11 m o c = GenP.V11 m o' c :=
  congrArg (StableHlo.after hostOps5) (V10_congr m c h)

theorem V12_congr (h : ∀ J, J ≤ 12 → ∀ r, o J r c = o' J r c) : GenP.V12 m o c = GenP.V12 m o' c := by
  unfold GenP.V12
  rw [V11_congr m c (fun J hJ => h J (hJ.trans (by decide))), h 12 le_rfl main_v115_0, h 12 le_rfl main_v115_1]
theorem V13_congr (h : ∀ J, J ≤ 12 → ∀ r, o J r c = o' J r c) : GenP.V13 m o c = GenP.V13 m o' c :=
  congrArg (StableHlo.after hostOps6) (V12_congr m c h)

theorem V14_congr (h : ∀ J, J ≤ 14 → ∀ r, o J r c = o' J r c) : GenP.V14 m o c = GenP.V14 m o' c := by
  unfold GenP.V14
  rw [V13_congr m c (fun J hJ => h J (hJ.trans (by decide))), h 14 le_rfl main_v148_0, h 14 le_rfl main_v148_1, h 14 le_rfl main_v148_2]
theorem V15_congr (h : ∀ J, J ≤ 14 → ∀ r, o J r c = o' J r c) : GenP.V15 m o c = GenP.V15 m o' c :=
  congrArg (StableHlo.after hostOps7) (V14_congr m c h)

theorem V16_congr (h : ∀ J, J ≤ 16 → ∀ r, o J r c = o' J r c) : GenP.V16 m o c = GenP.V16 m o' c := by
  unfold GenP.V16
  rw [V15_congr m c (fun J hJ => h J (hJ.trans (by decide))), h 16 le_rfl main_v160_0, h 16 le_rfl main_v160_1, h 16 le_rfl main_v160_2]
theorem V17_congr (h : ∀ J, J ≤ 16 → ∀ r, o J r c = o' J r c) : GenP.V17 m o c = GenP.V17 m o' c :=
  congrArg (StableHlo.after hostOps8) (V16_congr m c h)

theorem V18_congr (h : ∀ J, J ≤ 18 → ∀ r, o J r c = o' J r c) : GenP.V18 m o c = GenP.V18 m o' c := by
  unfold GenP.V18
  rw [V17_congr m c (fun J hJ => h J (hJ.trans (by decide))), h 18 le_rfl main_v171_0, h 18 le_rfl main_v171_1]
theorem V19_congr (h : ∀ J, J ≤ 18 → ∀ r, o J r c = o' J r c) : GenP.V19 m o c = GenP.V19 m o' c :=
  congrArg (StableHlo.after hostOps9) (V18_congr m c h)

theorem V20_congr (h : ∀ J, J ≤ 20 → ∀ r, o J r c = o' J r c) : GenP.V20 m o c = GenP.V20 m o' c := by
  unfold GenP.V20
  rw [V19_congr m c (fun J hJ => h J (hJ.trans (by decide))), h 20 le_rfl main_v204_0, h 20 le_rfl main_v204_1, h 20 le_rfl main_v204_2]
theorem V21_congr (h : ∀ J, J ≤ 20 → ∀ r, o J r c = o' J r c) : GenP.V21 m o c = GenP.V21 m o' c :=
  congrArg (StableHlo.after hostOps10) (V20_congr m c h)

theorem V22_congr (h : ∀ J, J ≤ 22 → ∀ r, o J r c = o' J r c) : GenP.V22 m o c = GenP.V22 m o' c := by
  unfold GenP.V22
  rw [V21_congr m c (fun J hJ => h J (hJ.trans (by decide))), h 22 le_rfl main_v216_0, h 22 le_rfl main_v216_1, h 22 le_rfl main_v216_2]
theorem V23_congr (h : ∀ J, J ≤ 22 → ∀ r, o J r c = o' J r c) : GenP.V23 m o c = GenP.V23 m o' c :=
  congrArg (StableHlo.after hostOps11) (V22_congr m c h)

theorem V24_congr (h : ∀ J, J ≤ 24 → ∀ r, o J r c = o' J r c) : GenP.V24 m o c = GenP.V24 m o' c := by
  unfold GenP.V24
  rw [V23_congr m c (fun J hJ => h J (hJ.trans (by decide))), h 24 le_rfl main_v227_0, h 24 le_rfl main_v227_1]
theorem V25_congr (h : ∀ J, J ≤ 24 → ∀ r, o J r c = o' J r c) : GenP.V25 m o c = GenP.V25 m o' c :=
  congrArg (StableHlo.after hostOps12) (V24_congr m c h)

theorem V26_congr (h : ∀ J, J ≤ 26 → ∀ r, o J r c = o' J r c) : GenP.V26 m o c = GenP.V26 m o' c := by
  unfold GenP.V26
  rw [V25_congr m c (fun J hJ => h J (hJ.trans (by decide))), h 26 le_rfl main_v260_0, h 26 le_rfl main_v260_1, h 26 le_rfl main_v260_2]
theorem V27_congr (h : ∀ J, J ≤ 26 → ∀ r, o J r c = o' J r c) : GenP.V27 m o c = GenP.V27 m o' c :=
  congrArg (StableHlo.after hostOps13) (V26_congr m c h)

theorem V28_congr (h : ∀ J, J ≤ 28 → ∀ r, o J r c = o' J r c) : GenP.V28 m o c = GenP.V28 m o' c := by
  unfold GenP.V28
  rw [V27_congr m c (fun J hJ => h J (hJ.trans (by decide))), h 28 le_rfl main_v272_0, h 28 le_rfl main_v272_1, h 28 le_rfl main_v272_2]
theorem V29_congr (h : ∀ J, J ≤ 28 → ∀ r, o J r c = o' J r c) : GenP.V29 m o c = GenP.V29 m o' c :=
  congrArg (StableHlo.after hostOps14) (V28_congr m c h)

theorem V30_congr (h : ∀ J, J ≤ 30 → ∀ r, o J r c = o' J r c) : GenP.V30 m o c = GenP.V30 m o' c := by
  unfold GenP.V30
  rw [V29_congr m c (fun J hJ => h J (hJ.trans (by decide))), h 30 le_rfl main_v283_0, h 30 le_rfl main_v283_1]
theorem V31_congr (h : ∀ J, J ≤ 30 → ∀ r, o J r c = o' J r c) : GenP.V31 m o c = GenP.V31 m o' c :=
  congrArg (StableHlo.after hostOps15) (V30_congr m c h)

end Congr

/-! ## Region 0 (item 1) -/

/-- Region 0's entry contents, over the contents pinned for the regions before it. -/
abbrev En0 (c : Dev nD) : Valuation τ sig (Elt F) := GenP.V1 m c
/-- Region 0's exit contents: each of its arrays at what the write-backs of all grid points leave there (an input
    array as entered), every other buffer as entered. -/
def Ex0 (c : Dev nD) : Valuation τ sig (Elt F) :=
  Pipeline.withArrays spec0 c (En0 m c) fun w => (dat0 (fun c b => En0 m c b) c).arrAt w cfg0.N
/-- The contents pinned up to region 0: at items up to 0 those pinned before, from item 2 on region 0's exit contents. -/
def pin0 : GenP.Outs (F := F) := fun J r c =>
  (Ex0 m c r : Buf (Elt F) ((c : Thread nD τ).loc r))

/-! ## Region 1 (item 3) -/

/-- Region 1's entry contents, over the contents pinned for the regions before it. -/
abbrev En1 (c : Dev nD) : Valuation τ sig (Elt F) := GenP.V3 m (pin0 m) c
/-- Region 1's exit contents: each of its arrays at what the write-backs of all grid points leave there (an input
    array as entered), every other buffer as entered. -/
def Ex1 (c : Dev nD) : Valuation τ sig (Elt F) :=
  Pipeline.withArrays spec1 c (En1 m c) fun w => (dat1 (fun c b => En1 m c b) c).arrAt w cfg1.N
/-- The contents pinned up to region 1: at items up to 2 those pinned before, from item 4 on region 1's exit contents. -/
def pin1 : GenP.Outs (F := F) := fun J r c =>
  if J ≤ 2 then pin0 m J r c else (Ex1 m c r : Buf (Elt F) ((c : Thread nD τ).loc r))
theorem pin1_le (J : ℕ) (hJ : J ≤ 2) (r : Ref sig .tc) (c : Dev nD) : pin1 m J r c = pin0 m J r c := if_pos hJ
theorem pin1_gt (J : ℕ) (hJ : ¬ J ≤ 2) (r : Ref sig .tc) (c : Dev nD) :
    pin1 m J r c = (Ex1 m c r : Buf (Elt F) ((c : Thread nD τ).loc r)) := if_neg hJ

/-! ## Region 2 (item 5) -/

/-- Region 2's entry contents, over the contents pinned for the regions before it. -/
abbrev En2 (c : Dev nD) : Valuation τ sig (Elt F) := GenP.V5 m (pin1 m) c
/-- Region 2's exit contents: each of its arrays at what the write-backs of all grid points leave there (an input
    array as entered), every other buffer as entered. -/
def Ex2 (c : Dev nD) : Valuation τ sig (Elt F) :=
  Pipeline.withArrays spec2 c (En2 m c) fun w => (dat2 (fun c b => En2 m c b) c).arrAt w cfg2.N
/-- The contents pinned up to region 2: at items up to 4 those pinned before, from item 6 on region 2's exit contents. -/
def pin2 : GenP.Outs (F := F) := fun J r c =>
  if J ≤ 4 then pin1 m J r c else (Ex2 m c r : Buf (Elt F) ((c : Thread nD τ).loc r))
theorem pin2_le (J : ℕ) (hJ : J ≤ 4) (r : Ref sig .tc) (c : Dev nD) : pin2 m J r c = pin1 m J r c := if_pos hJ
theorem pin2_gt (J : ℕ) (hJ : ¬ J ≤ 4) (r : Ref sig .tc) (c : Dev nD) :
    pin2 m J r c = (Ex2 m c r : Buf (Elt F) ((c : Thread nD τ).loc r)) := if_neg hJ

/-! ## Region 3 (item 7) -/

/-- Region 3's entry contents, over the contents pinned for the regions before it. -/
abbrev En3 (c : Dev nD) : Valuation τ sig (Elt F) := GenP.V7 m (pin2 m) c
/-- Region 3's exit contents: each of its arrays at what the write-backs of all grid points leave there (an input
    array as entered), every other buffer as entered. -/
def Ex3 (c : Dev nD) : Valuation τ sig (Elt F) :=
  Pipeline.withArrays spec3 c (En3 m c) fun w => (dat3 (fun c b => En3 m c b) c).arrAt w cfg3.N
/-- The contents pinned up to region 3: at items up to 6 those pinned before, from item 8 on region 3's exit contents. -/
def pin3 : GenP.Outs (F := F) := fun J r c =>
  if J ≤ 6 then pin2 m J r c else (Ex3 m c r : Buf (Elt F) ((c : Thread nD τ).loc r))
theorem pin3_le (J : ℕ) (hJ : J ≤ 6) (r : Ref sig .tc) (c : Dev nD) : pin3 m J r c = pin2 m J r c := if_pos hJ
theorem pin3_gt (J : ℕ) (hJ : ¬ J ≤ 6) (r : Ref sig .tc) (c : Dev nD) :
    pin3 m J r c = (Ex3 m c r : Buf (Elt F) ((c : Thread nD τ).loc r)) := if_neg hJ

/-! ## Region 4 (item 9) -/

/-- Region 4's entry contents, over the contents pinned for the regions before it. -/
abbrev En4 (c : Dev nD) : Valuation τ sig (Elt F) := GenP.V9 m (pin3 m) c
/-- Region 4's exit contents: each of its arrays at what the write-backs of all grid points leave there (an input
    array as entered), every other buffer as entered. -/
def Ex4 (c : Dev nD) : Valuation τ sig (Elt F) :=
  Pipeline.withArrays spec4 c (En4 m c) fun w => (dat4 (fun c b => En4 m c b) c).arrAt w cfg4.N
/-- The contents pinned up to region 4: at items up to 8 those pinned before, from item 10 on region 4's exit contents. -/
def pin4 : GenP.Outs (F := F) := fun J r c =>
  if J ≤ 8 then pin3 m J r c else (Ex4 m c r : Buf (Elt F) ((c : Thread nD τ).loc r))
theorem pin4_le (J : ℕ) (hJ : J ≤ 8) (r : Ref sig .tc) (c : Dev nD) : pin4 m J r c = pin3 m J r c := if_pos hJ
theorem pin4_gt (J : ℕ) (hJ : ¬ J ≤ 8) (r : Ref sig .tc) (c : Dev nD) :
    pin4 m J r c = (Ex4 m c r : Buf (Elt F) ((c : Thread nD τ).loc r)) := if_neg hJ

/-! ## Region 5 (item 11) -/

/-- Region 5's entry contents, over the contents pinned for the regions before it. -/
abbrev En5 (c : Dev nD) : Valuation τ sig (Elt F) := GenP.V11 m (pin4 m) c
/-- Region 5's exit contents: each of its arrays at what the write-backs of all grid points leave there (an input
    array as entered), every other buffer as entered. -/
def Ex5 (c : Dev nD) : Valuation τ sig (Elt F) :=
  Pipeline.withArrays spec5 c (En5 m c) fun w => (dat5 (fun c b => En5 m c b) c).arrAt w cfg5.N
/-- The contents pinned up to region 5: at items up to 10 those pinned before, from item 12 on region 5's exit contents. -/
def pin5 : GenP.Outs (F := F) := fun J r c =>
  if J ≤ 10 then pin4 m J r c else (Ex5 m c r : Buf (Elt F) ((c : Thread nD τ).loc r))
theorem pin5_le (J : ℕ) (hJ : J ≤ 10) (r : Ref sig .tc) (c : Dev nD) : pin5 m J r c = pin4 m J r c := if_pos hJ
theorem pin5_gt (J : ℕ) (hJ : ¬ J ≤ 10) (r : Ref sig .tc) (c : Dev nD) :
    pin5 m J r c = (Ex5 m c r : Buf (Elt F) ((c : Thread nD τ).loc r)) := if_neg hJ

/-! ## Region 6 (item 13) -/

/-- Region 6's entry contents, over the contents pinned for the regions before it. -/
abbrev En6 (c : Dev nD) : Valuation τ sig (Elt F) := GenP.V13 m (pin5 m) c
/-- Region 6's exit contents: each of its arrays at what the write-backs of all grid points leave there (an input
    array as entered), every other buffer as entered. -/
def Ex6 (c : Dev nD) : Valuation τ sig (Elt F) :=
  Pipeline.withArrays spec6 c (En6 m c) fun w => (dat6 (fun c b => En6 m c b) c).arrAt w cfg6.N
/-- The contents pinned up to region 6: at items up to 12 those pinned before, from item 14 on region 6's exit contents. -/
def pin6 : GenP.Outs (F := F) := fun J r c =>
  if J ≤ 12 then pin5 m J r c else (Ex6 m c r : Buf (Elt F) ((c : Thread nD τ).loc r))
theorem pin6_le (J : ℕ) (hJ : J ≤ 12) (r : Ref sig .tc) (c : Dev nD) : pin6 m J r c = pin5 m J r c := if_pos hJ
theorem pin6_gt (J : ℕ) (hJ : ¬ J ≤ 12) (r : Ref sig .tc) (c : Dev nD) :
    pin6 m J r c = (Ex6 m c r : Buf (Elt F) ((c : Thread nD τ).loc r)) := if_neg hJ

/-! ## Region 7 (item 15) -/

/-- Region 7's entry contents, over the contents pinned for the regions before it. -/
abbrev En7 (c : Dev nD) : Valuation τ sig (Elt F) := GenP.V15 m (pin6 m) c
/-- Region 7's exit contents: each of its arrays at what the write-backs of all grid points leave there (an input
    array as entered), every other buffer as entered. -/
def Ex7 (c : Dev nD) : Valuation τ sig (Elt F) :=
  Pipeline.withArrays spec7 c (En7 m c) fun w => (dat7 (fun c b => En7 m c b) c).arrAt w cfg7.N
/-- The contents pinned up to region 7: at items up to 14 those pinned before, from item 16 on region 7's exit contents. -/
def pin7 : GenP.Outs (F := F) := fun J r c =>
  if J ≤ 14 then pin6 m J r c else (Ex7 m c r : Buf (Elt F) ((c : Thread nD τ).loc r))
theorem pin7_le (J : ℕ) (hJ : J ≤ 14) (r : Ref sig .tc) (c : Dev nD) : pin7 m J r c = pin6 m J r c := if_pos hJ
theorem pin7_gt (J : ℕ) (hJ : ¬ J ≤ 14) (r : Ref sig .tc) (c : Dev nD) :
    pin7 m J r c = (Ex7 m c r : Buf (Elt F) ((c : Thread nD τ).loc r)) := if_neg hJ

/-! ## Region 8 (item 17) -/

/-- Region 8's entry contents, over the contents pinned for the regions before it. -/
abbrev En8 (c : Dev nD) : Valuation τ sig (Elt F) := GenP.V17 m (pin7 m) c
/-- Region 8's exit contents: each of its arrays at what the write-backs of all grid points leave there (an input
    array as entered), every other buffer as entered. -/
def Ex8 (c : Dev nD) : Valuation τ sig (Elt F) :=
  Pipeline.withArrays spec8 c (En8 m c) fun w => (dat8 (fun c b => En8 m c b) c).arrAt w cfg8.N
/-- The contents pinned up to region 8: at items up to 16 those pinned before, from item 18 on region 8's exit contents. -/
def pin8 : GenP.Outs (F := F) := fun J r c =>
  if J ≤ 16 then pin7 m J r c else (Ex8 m c r : Buf (Elt F) ((c : Thread nD τ).loc r))
theorem pin8_le (J : ℕ) (hJ : J ≤ 16) (r : Ref sig .tc) (c : Dev nD) : pin8 m J r c = pin7 m J r c := if_pos hJ
theorem pin8_gt (J : ℕ) (hJ : ¬ J ≤ 16) (r : Ref sig .tc) (c : Dev nD) :
    pin8 m J r c = (Ex8 m c r : Buf (Elt F) ((c : Thread nD τ).loc r)) := if_neg hJ

/-! ## Region 9 (item 19) -/

/-- Region 9's entry contents, over the contents pinned for the regions before it. -/
abbrev En9 (c : Dev nD) : Valuation τ sig (Elt F) := GenP.V19 m (pin8 m) c
/-- Region 9's exit contents: each of its arrays at what the write-backs of all grid points leave there (an input
    array as entered), every other buffer as entered. -/
def Ex9 (c : Dev nD) : Valuation τ sig (Elt F) :=
  Pipeline.withArrays spec9 c (En9 m c) fun w => (dat9 (fun c b => En9 m c b) c).arrAt w cfg9.N
/-- The contents pinned up to region 9: at items up to 18 those pinned before, from item 20 on region 9's exit contents. -/
def pin9 : GenP.Outs (F := F) := fun J r c =>
  if J ≤ 18 then pin8 m J r c else (Ex9 m c r : Buf (Elt F) ((c : Thread nD τ).loc r))
theorem pin9_le (J : ℕ) (hJ : J ≤ 18) (r : Ref sig .tc) (c : Dev nD) : pin9 m J r c = pin8 m J r c := if_pos hJ
theorem pin9_gt (J : ℕ) (hJ : ¬ J ≤ 18) (r : Ref sig .tc) (c : Dev nD) :
    pin9 m J r c = (Ex9 m c r : Buf (Elt F) ((c : Thread nD τ).loc r)) := if_neg hJ

/-! ## Region 10 (item 21) -/

/-- Region 10's entry contents, over the contents pinned for the regions before it. -/
abbrev En10 (c : Dev nD) : Valuation τ sig (Elt F) := GenP.V21 m (pin9 m) c
/-- Region 10's exit contents: each of its arrays at what the write-backs of all grid points leave there (an input
    array as entered), every other buffer as entered. -/
def Ex10 (c : Dev nD) : Valuation τ sig (Elt F) :=
  Pipeline.withArrays spec10 c (En10 m c) fun w => (dat10 (fun c b => En10 m c b) c).arrAt w cfg10.N
/-- The contents pinned up to region 10: at items up to 20 those pinned before, from item 22 on region 10's exit contents. -/
def pin10 : GenP.Outs (F := F) := fun J r c =>
  if J ≤ 20 then pin9 m J r c else (Ex10 m c r : Buf (Elt F) ((c : Thread nD τ).loc r))
theorem pin10_le (J : ℕ) (hJ : J ≤ 20) (r : Ref sig .tc) (c : Dev nD) : pin10 m J r c = pin9 m J r c := if_pos hJ
theorem pin10_gt (J : ℕ) (hJ : ¬ J ≤ 20) (r : Ref sig .tc) (c : Dev nD) :
    pin10 m J r c = (Ex10 m c r : Buf (Elt F) ((c : Thread nD τ).loc r)) := if_neg hJ

/-! ## Region 11 (item 23) -/

/-- Region 11's entry contents, over the contents pinned for the regions before it. -/
abbrev En11 (c : Dev nD) : Valuation τ sig (Elt F) := GenP.V23 m (pin10 m) c
/-- Region 11's exit contents: each of its arrays at what the write-backs of all grid points leave there (an input
    array as entered), every other buffer as entered. -/
def Ex11 (c : Dev nD) : Valuation τ sig (Elt F) :=
  Pipeline.withArrays spec11 c (En11 m c) fun w => (dat11 (fun c b => En11 m c b) c).arrAt w cfg11.N
/-- The contents pinned up to region 11: at items up to 22 those pinned before, from item 24 on region 11's exit contents. -/
def pin11 : GenP.Outs (F := F) := fun J r c =>
  if J ≤ 22 then pin10 m J r c else (Ex11 m c r : Buf (Elt F) ((c : Thread nD τ).loc r))
theorem pin11_le (J : ℕ) (hJ : J ≤ 22) (r : Ref sig .tc) (c : Dev nD) : pin11 m J r c = pin10 m J r c := if_pos hJ
theorem pin11_gt (J : ℕ) (hJ : ¬ J ≤ 22) (r : Ref sig .tc) (c : Dev nD) :
    pin11 m J r c = (Ex11 m c r : Buf (Elt F) ((c : Thread nD τ).loc r)) := if_neg hJ

/-! ## Region 12 (item 25) -/

/-- Region 12's entry contents, over the contents pinned for the regions before it. -/
abbrev En12 (c : Dev nD) : Valuation τ sig (Elt F) := GenP.V25 m (pin11 m) c
/-- Region 12's exit contents: each of its arrays at what the write-backs of all grid points leave there (an input
    array as entered), every other buffer as entered. -/
def Ex12 (c : Dev nD) : Valuation τ sig (Elt F) :=
  Pipeline.withArrays spec12 c (En12 m c) fun w => (dat12 (fun c b => En12 m c b) c).arrAt w cfg12.N
/-- The contents pinned up to region 12: at items up to 24 those pinned before, from item 26 on region 12's exit contents. -/
def pin12 : GenP.Outs (F := F) := fun J r c =>
  if J ≤ 24 then pin11 m J r c else (Ex12 m c r : Buf (Elt F) ((c : Thread nD τ).loc r))
theorem pin12_le (J : ℕ) (hJ : J ≤ 24) (r : Ref sig .tc) (c : Dev nD) : pin12 m J r c = pin11 m J r c := if_pos hJ
theorem pin12_gt (J : ℕ) (hJ : ¬ J ≤ 24) (r : Ref sig .tc) (c : Dev nD) :
    pin12 m J r c = (Ex12 m c r : Buf (Elt F) ((c : Thread nD τ).loc r)) := if_neg hJ

/-! ## Region 13 (item 27) -/

/-- Region 13's entry contents, over the contents pinned for the regions before it. -/
abbrev En13 (c : Dev nD) : Valuation τ sig (Elt F) := GenP.V27 m (pin12 m) c
/-- Region 13's exit contents: each of its arrays at what the write-backs of all grid points leave there (an input
    array as entered), every other buffer as entered. -/
def Ex13 (c : Dev nD) : Valuation τ sig (Elt F) :=
  Pipeline.withArrays spec13 c (En13 m c) fun w => (dat13 (fun c b => En13 m c b) c).arrAt w cfg13.N
/-- The contents pinned up to region 13: at items up to 26 those pinned before, from item 28 on region 13's exit contents. -/
def pin13 : GenP.Outs (F := F) := fun J r c =>
  if J ≤ 26 then pin12 m J r c else (Ex13 m c r : Buf (Elt F) ((c : Thread nD τ).loc r))
theorem pin13_le (J : ℕ) (hJ : J ≤ 26) (r : Ref sig .tc) (c : Dev nD) : pin13 m J r c = pin12 m J r c := if_pos hJ
theorem pin13_gt (J : ℕ) (hJ : ¬ J ≤ 26) (r : Ref sig .tc) (c : Dev nD) :
    pin13 m J r c = (Ex13 m c r : Buf (Elt F) ((c : Thread nD τ).loc r)) := if_neg hJ

/-! ## Region 14 (item 29) -/

/-- Region 14's entry contents, over the contents pinned for the regions before it. -/
abbrev En14 (c : Dev nD) : Valuation τ sig (Elt F) := GenP.V29 m (pin13 m) c
/-- Region 14's exit contents: each of its arrays at what the write-backs of all grid points leave there (an input
    array as entered), every other buffer as entered. -/
def Ex14 (c : Dev nD) : Valuation τ sig (Elt F) :=
  Pipeline.withArrays spec14 c (En14 m c) fun w => (dat14 (fun c b => En14 m c b) c).arrAt w cfg14.N
/-- The contents pinned up to region 14: at items up to 28 those pinned before, from item 30 on region 14's exit contents. -/
def pin14 : GenP.Outs (F := F) := fun J r c =>
  if J ≤ 28 then pin13 m J r c else (Ex14 m c r : Buf (Elt F) ((c : Thread nD τ).loc r))
theorem pin14_le (J : ℕ) (hJ : J ≤ 28) (r : Ref sig .tc) (c : Dev nD) : pin14 m J r c = pin13 m J r c := if_pos hJ
theorem pin14_gt (J : ℕ) (hJ : ¬ J ≤ 28) (r : Ref sig .tc) (c : Dev nD) :
    pin14 m J r c = (Ex14 m c r : Buf (Elt F) ((c : Thread nD τ).loc r)) := if_neg hJ

/-! ## The pinned contents, and the valuations at each region's entry and exit -/

/-- What every region leaves in its output arrays. -/
def outs : GenP.Outs (F := F) := pin14 m

/-! At items up to a region's entry the pinned contents are those pinned before it; at its exit, its exit contents. -/
theorem outs_le14 (J : ℕ) (hJ : J ≤ 28) (r : Ref sig .tc) (c : Dev nD) : outs m J r c = pin13 m J r c :=
  pin14_le m J hJ r c
theorem outs_le13 (J : ℕ) (hJ : J ≤ 26) (r : Ref sig .tc) (c : Dev nD) : outs m J r c = pin12 m J r c :=
  (outs_le14 m J (hJ.trans (by decide)) r c).trans (pin13_le m J hJ r c)
theorem outs_le12 (J : ℕ) (hJ : J ≤ 24) (r : Ref sig .tc) (c : Dev nD) : outs m J r c = pin11 m J r c :=
  (outs_le13 m J (hJ.trans (by decide)) r c).trans (pin12_le m J hJ r c)
theorem outs_le11 (J : ℕ) (hJ : J ≤ 22) (r : Ref sig .tc) (c : Dev nD) : outs m J r c = pin10 m J r c :=
  (outs_le12 m J (hJ.trans (by decide)) r c).trans (pin11_le m J hJ r c)
theorem outs_le10 (J : ℕ) (hJ : J ≤ 20) (r : Ref sig .tc) (c : Dev nD) : outs m J r c = pin9 m J r c :=
  (outs_le11 m J (hJ.trans (by decide)) r c).trans (pin10_le m J hJ r c)
theorem outs_le9 (J : ℕ) (hJ : J ≤ 18) (r : Ref sig .tc) (c : Dev nD) : outs m J r c = pin8 m J r c :=
  (outs_le10 m J (hJ.trans (by decide)) r c).trans (pin9_le m J hJ r c)
theorem outs_le8 (J : ℕ) (hJ : J ≤ 16) (r : Ref sig .tc) (c : Dev nD) : outs m J r c = pin7 m J r c :=
  (outs_le9 m J (hJ.trans (by decide)) r c).trans (pin8_le m J hJ r c)
theorem outs_le7 (J : ℕ) (hJ : J ≤ 14) (r : Ref sig .tc) (c : Dev nD) : outs m J r c = pin6 m J r c :=
  (outs_le8 m J (hJ.trans (by decide)) r c).trans (pin7_le m J hJ r c)
theorem outs_le6 (J : ℕ) (hJ : J ≤ 12) (r : Ref sig .tc) (c : Dev nD) : outs m J r c = pin5 m J r c :=
  (outs_le7 m J (hJ.trans (by decide)) r c).trans (pin6_le m J hJ r c)
theorem outs_le5 (J : ℕ) (hJ : J ≤ 10) (r : Ref sig .tc) (c : Dev nD) : outs m J r c = pin4 m J r c :=
  (outs_le6 m J (hJ.trans (by decide)) r c).trans (pin5_le m J hJ r c)
theorem outs_le4 (J : ℕ) (hJ : J ≤ 8) (r : Ref sig .tc) (c : Dev nD) : outs m J r c = pin3 m J r c :=
  (outs_le5 m J (hJ.trans (by decide)) r c).trans (pin4_le m J hJ r c)
theorem outs_le3 (J : ℕ) (hJ : J ≤ 6) (r : Ref sig .tc) (c : Dev nD) : outs m J r c = pin2 m J r c :=
  (outs_le4 m J (hJ.trans (by decide)) r c).trans (pin3_le m J hJ r c)
theorem outs_le2 (J : ℕ) (hJ : J ≤ 4) (r : Ref sig .tc) (c : Dev nD) : outs m J r c = pin1 m J r c :=
  (outs_le3 m J (hJ.trans (by decide)) r c).trans (pin2_le m J hJ r c)
theorem outs_le1 (J : ℕ) (hJ : J ≤ 2) (r : Ref sig .tc) (c : Dev nD) : outs m J r c = pin0 m J r c :=
  (outs_le2 m J (hJ.trans (by decide)) r c).trans (pin1_le m J hJ r c)
theorem outs_at0 (r : Ref sig .tc) (c : Dev nD) : outs m 2 r c = (Ex0 m c r : Buf (Elt F) ((c : Thread nD τ).loc r)) :=
  outs_le1 m 2 le_rfl r c
theorem outs_at1 (r : Ref sig .tc) (c : Dev nD) : outs m 4 r c = (Ex1 m c r : Buf (Elt F) ((c : Thread nD τ).loc r)) :=
  (outs_le2 m 4 le_rfl r c).trans (pin1_gt m 4 (by decide) r c)
theorem outs_at2 (r : Ref sig .tc) (c : Dev nD) : outs m 6 r c = (Ex2 m c r : Buf (Elt F) ((c : Thread nD τ).loc r)) :=
  (outs_le3 m 6 le_rfl r c).trans (pin2_gt m 6 (by decide) r c)
theorem outs_at3 (r : Ref sig .tc) (c : Dev nD) : outs m 8 r c = (Ex3 m c r : Buf (Elt F) ((c : Thread nD τ).loc r)) :=
  (outs_le4 m 8 le_rfl r c).trans (pin3_gt m 8 (by decide) r c)
theorem outs_at4 (r : Ref sig .tc) (c : Dev nD) : outs m 10 r c = (Ex4 m c r : Buf (Elt F) ((c : Thread nD τ).loc r)) :=
  (outs_le5 m 10 le_rfl r c).trans (pin4_gt m 10 (by decide) r c)
theorem outs_at5 (r : Ref sig .tc) (c : Dev nD) : outs m 12 r c = (Ex5 m c r : Buf (Elt F) ((c : Thread nD τ).loc r)) :=
  (outs_le6 m 12 le_rfl r c).trans (pin5_gt m 12 (by decide) r c)
theorem outs_at6 (r : Ref sig .tc) (c : Dev nD) : outs m 14 r c = (Ex6 m c r : Buf (Elt F) ((c : Thread nD τ).loc r)) :=
  (outs_le7 m 14 le_rfl r c).trans (pin6_gt m 14 (by decide) r c)
theorem outs_at7 (r : Ref sig .tc) (c : Dev nD) : outs m 16 r c = (Ex7 m c r : Buf (Elt F) ((c : Thread nD τ).loc r)) :=
  (outs_le8 m 16 le_rfl r c).trans (pin7_gt m 16 (by decide) r c)
theorem outs_at8 (r : Ref sig .tc) (c : Dev nD) : outs m 18 r c = (Ex8 m c r : Buf (Elt F) ((c : Thread nD τ).loc r)) :=
  (outs_le9 m 18 le_rfl r c).trans (pin8_gt m 18 (by decide) r c)
theorem outs_at9 (r : Ref sig .tc) (c : Dev nD) : outs m 20 r c = (Ex9 m c r : Buf (Elt F) ((c : Thread nD τ).loc r)) :=
  (outs_le10 m 20 le_rfl r c).trans (pin9_gt m 20 (by decide) r c)
theorem outs_at10 (r : Ref sig .tc) (c : Dev nD) : outs m 22 r c = (Ex10 m c r : Buf (Elt F) ((c : Thread nD τ).loc r)) :=
  (outs_le11 m 22 le_rfl r c).trans (pin10_gt m 22 (by decide) r c)
theorem outs_at11 (r : Ref sig .tc) (c : Dev nD) : outs m 24 r c = (Ex11 m c r : Buf (Elt F) ((c : Thread nD τ).loc r)) :=
  (outs_le12 m 24 le_rfl r c).trans (pin11_gt m 24 (by decide) r c)
theorem outs_at12 (r : Ref sig .tc) (c : Dev nD) : outs m 26 r c = (Ex12 m c r : Buf (Elt F) ((c : Thread nD τ).loc r)) :=
  (outs_le13 m 26 le_rfl r c).trans (pin12_gt m 26 (by decide) r c)
theorem outs_at13 (r : Ref sig .tc) (c : Dev nD) : outs m 28 r c = (Ex13 m c r : Buf (Elt F) ((c : Thread nD τ).loc r)) :=
  (outs_le14 m 28 le_rfl r c).trans (pin13_gt m 28 (by decide) r c)
theorem outs_at14 (r : Ref sig .tc) (c : Dev nD) : outs m 30 r c = (Ex14 m c r : Buf (Elt F) ((c : Thread nD τ).loc r)) :=
  pin14_gt m 30 (by decide) r c

/-- Core `c`'s unscoped buffers when region 0 is entered, -/
abbrev Vin0 (c : Dev nD) : Valuation τ sig (Elt F) := GenP.V1 m c
/-- and when it is left. -/
abbrev Vout0 (c : Dev nD) : Valuation τ sig (Elt F) := GenP.V2 m (outs m) c

/-- Core `c`'s unscoped buffers when region 1 is entered, -/
abbrev Vin1 (c : Dev nD) : Valuation τ sig (Elt F) := GenP.V3 m (outs m) c
/-- and when it is left. -/
abbrev Vout1 (c : Dev nD) : Valuation τ sig (Elt F) := GenP.V4 m (outs m) c
/-- The entry contents read the pinned contents only at earlier items, where `outs` is `pin0`. -/
theorem Vin1_eq : Vin1 m = En1 m := funext fun c => V3_congr m c fun J hJ r => outs_le1 m J hJ r c

/-- Core `c`'s unscoped buffers when region 2 is entered, -/
abbrev Vin2 (c : Dev nD) : Valuation τ sig (Elt F) := GenP.V5 m (outs m) c
/-- and when it is left. -/
abbrev Vout2 (c : Dev nD) : Valuation τ sig (Elt F) := GenP.V6 m (outs m) c
/-- The entry contents read the pinned contents only at earlier items, where `outs` is `pin1`. -/
theorem Vin2_eq : Vin2 m = En2 m := funext fun c => V5_congr m c fun J hJ r => outs_le2 m J hJ r c

/-- Core `c`'s unscoped buffers when region 3 is entered, -/
abbrev Vin3 (c : Dev nD) : Valuation τ sig (Elt F) := GenP.V7 m (outs m) c
/-- and when it is left. -/
abbrev Vout3 (c : Dev nD) : Valuation τ sig (Elt F) := GenP.V8 m (outs m) c
/-- The entry contents read the pinned contents only at earlier items, where `outs` is `pin2`. -/
theorem Vin3_eq : Vin3 m = En3 m := funext fun c => V7_congr m c fun J hJ r => outs_le3 m J hJ r c

/-- Core `c`'s unscoped buffers when region 4 is entered, -/
abbrev Vin4 (c : Dev nD) : Valuation τ sig (Elt F) := GenP.V9 m (outs m) c
/-- and when it is left. -/
abbrev Vout4 (c : Dev nD) : Valuation τ sig (Elt F) := GenP.V10 m (outs m) c
/-- The entry contents read the pinned contents only at earlier items, where `outs` is `pin3`. -/
theorem Vin4_eq : Vin4 m = En4 m := funext fun c => V9_congr m c fun J hJ r => outs_le4 m J hJ r c

/-- Core `c`'s unscoped buffers when region 5 is entered, -/
abbrev Vin5 (c : Dev nD) : Valuation τ sig (Elt F) := GenP.V11 m (outs m) c
/-- and when it is left. -/
abbrev Vout5 (c : Dev nD) : Valuation τ sig (Elt F) := GenP.V12 m (outs m) c
/-- The entry contents read the pinned contents only at earlier items, where `outs` is `pin4`. -/
theorem Vin5_eq : Vin5 m = En5 m := funext fun c => V11_congr m c fun J hJ r => outs_le5 m J hJ r c

/-- Core `c`'s unscoped buffers when region 6 is entered, -/
abbrev Vin6 (c : Dev nD) : Valuation τ sig (Elt F) := GenP.V13 m (outs m) c
/-- and when it is left. -/
abbrev Vout6 (c : Dev nD) : Valuation τ sig (Elt F) := GenP.V14 m (outs m) c
/-- The entry contents read the pinned contents only at earlier items, where `outs` is `pin5`. -/
theorem Vin6_eq : Vin6 m = En6 m := funext fun c => V13_congr m c fun J hJ r => outs_le6 m J hJ r c

/-- Core `c`'s unscoped buffers when region 7 is entered, -/
abbrev Vin7 (c : Dev nD) : Valuation τ sig (Elt F) := GenP.V15 m (outs m) c
/-- and when it is left. -/
abbrev Vout7 (c : Dev nD) : Valuation τ sig (Elt F) := GenP.V16 m (outs m) c
/-- The entry contents read the pinned contents only at earlier items, where `outs` is `pin6`. -/
theorem Vin7_eq : Vin7 m = En7 m := funext fun c => V15_congr m c fun J hJ r => outs_le7 m J hJ r c

/-- Core `c`'s unscoped buffers when region 8 is entered, -/
abbrev Vin8 (c : Dev nD) : Valuation τ sig (Elt F) := GenP.V17 m (outs m) c
/-- and when it is left. -/
abbrev Vout8 (c : Dev nD) : Valuation τ sig (Elt F) := GenP.V18 m (outs m) c
/-- The entry contents read the pinned contents only at earlier items, where `outs` is `pin7`. -/
theorem Vin8_eq : Vin8 m = En8 m := funext fun c => V17_congr m c fun J hJ r => outs_le8 m J hJ r c

/-- Core `c`'s unscoped buffers when region 9 is entered, -/
abbrev Vin9 (c : Dev nD) : Valuation τ sig (Elt F) := GenP.V19 m (outs m) c
/-- and when it is left. -/
abbrev Vout9 (c : Dev nD) : Valuation τ sig (Elt F) := GenP.V20 m (outs m) c
/-- The entry contents read the pinned contents only at earlier items, where `outs` is `pin8`. -/
theorem Vin9_eq : Vin9 m = En9 m := funext fun c => V19_congr m c fun J hJ r => outs_le9 m J hJ r c

/-- Core `c`'s unscoped buffers when region 10 is entered, -/
abbrev Vin10 (c : Dev nD) : Valuation τ sig (Elt F) := GenP.V21 m (outs m) c
/-- and when it is left. -/
abbrev Vout10 (c : Dev nD) : Valuation τ sig (Elt F) := GenP.V22 m (outs m) c
/-- The entry contents read the pinned contents only at earlier items, where `outs` is `pin9`. -/
theorem Vin10_eq : Vin10 m = En10 m := funext fun c => V21_congr m c fun J hJ r => outs_le10 m J hJ r c

/-- Core `c`'s unscoped buffers when region 11 is entered, -/
abbrev Vin11 (c : Dev nD) : Valuation τ sig (Elt F) := GenP.V23 m (outs m) c
/-- and when it is left. -/
abbrev Vout11 (c : Dev nD) : Valuation τ sig (Elt F) := GenP.V24 m (outs m) c
/-- The entry contents read the pinned contents only at earlier items, where `outs` is `pin10`. -/
theorem Vin11_eq : Vin11 m = En11 m := funext fun c => V23_congr m c fun J hJ r => outs_le11 m J hJ r c

/-- Core `c`'s unscoped buffers when region 12 is entered, -/
abbrev Vin12 (c : Dev nD) : Valuation τ sig (Elt F) := GenP.V25 m (outs m) c
/-- and when it is left. -/
abbrev Vout12 (c : Dev nD) : Valuation τ sig (Elt F) := GenP.V26 m (outs m) c
/-- The entry contents read the pinned contents only at earlier items, where `outs` is `pin11`. -/
theorem Vin12_eq : Vin12 m = En12 m := funext fun c => V25_congr m c fun J hJ r => outs_le12 m J hJ r c

/-- Core `c`'s unscoped buffers when region 13 is entered, -/
abbrev Vin13 (c : Dev nD) : Valuation τ sig (Elt F) := GenP.V27 m (outs m) c
/-- and when it is left. -/
abbrev Vout13 (c : Dev nD) : Valuation τ sig (Elt F) := GenP.V28 m (outs m) c
/-- The entry contents read the pinned contents only at earlier items, where `outs` is `pin12`. -/
theorem Vin13_eq : Vin13 m = En13 m := funext fun c => V27_congr m c fun J hJ r => outs_le13 m J hJ r c

/-- Core `c`'s unscoped buffers when region 14 is entered, -/
abbrev Vin14 (c : Dev nD) : Valuation τ sig (Elt F) := GenP.V29 m (outs m) c
/-- and when it is left. -/
abbrev Vout14 (c : Dev nD) : Valuation τ sig (Elt F) := GenP.V30 m (outs m) c
/-- The entry contents read the pinned contents only at earlier items, where `outs` is `pin13`. -/
theorem Vin14_eq : Vin14 m = En14 m := funext fun c => V29_congr m c fun J hJ r => outs_le14 m J hJ r c

/-! ## The two exit facts of every region

At a region's exit each of its arrays holds what the pipeline leaves there — an output array what `outs` pins, which
is that by definition; an input array what it held at entry, which no write-back touches and the update at the
output arrays misses — and every buffer that is no array of the region holds what it held at entry. -/

/-! ### Region 0 -/

/-- An input array of region 0 is never written back into, and the update at the output arrays misses it. -/
theorem hF_in0 (c : Dev nD) (w : Fin cfg0.W) (hin : (cfg0.win w).isOut = false)
    (hr : Pipeline.arrRef spec0 w ∉ ([main_v36_0, main_v36_1, main_v36_2] : List (Ref sig .tc))) :
    (dat0 (fun c b => Vin0 m c b) c).arrAt w cfg0.N = Vout0 m c (Pipeline.arrRef spec0 w) :=
  ((dat0 (fun c b => Vin0 m c b) c).arrAt_in w hin _).trans
    ((A_eq0 (fun c b => Vin0 m c b) c w).trans (GenP.V2_of m (outs m) c _ hr).symm)
/-- Output window 4 of region 0: its array `main_v36_0` at the exit holds the write-backs folded over all grid points. -/
theorem Vout_0_4 (c : Dev nD) : Vout0 m c (Pipeline.arrRef spec0 4) = (dat0 (fun c b => Vin0 m c b) c).arrAt 4 cfg0.N := by
  have h : Vout0 m c (Pipeline.arrRef spec0 4) = outs m 2 main_v36_0 c := upd3_fst (by decide) (by decide)
  rw [h, outs_at0]
  exact Pipeline.withArrays_arr spec0 launch0.win.arr_inj c _ _ 4
/-- Output window 5 of region 0: its array `main_v36_1` at the exit holds the write-backs folded over all grid points. -/
theorem Vout_0_5 (c : Dev nD) : Vout0 m c (Pipeline.arrRef spec0 5) = (dat0 (fun c b => Vin0 m c b) c).arrAt 5 cfg0.N := by
  have h : Vout0 m c (Pipeline.arrRef spec0 5) = outs m 2 main_v36_1 c := upd2_fst (by decide)
  rw [h, outs_at0]
  exact Pipeline.withArrays_arr spec0 launch0.win.arr_inj c _ _ 5
/-- Output window 6 of region 0: its array `main_v36_2` at the exit holds the write-backs folded over all grid points. -/
theorem Vout_0_6 (c : Dev nD) : Vout0 m c (Pipeline.arrRef spec0 6) = (dat0 (fun c b => Vin0 m c b) c).arrAt 6 cfg0.N := by
  have h : Vout0 m c (Pipeline.arrRef spec0 6) = outs m 2 main_v36_2 c := Function.update_self _ _ _
  rw [h, outs_at0]
  exact Pipeline.withArrays_arr spec0 launch0.win.arr_inj c _ _ 6
/-- At region 0's exit every array of it holds what the pipeline leaves. -/
theorem hF_0 (c : Dev nD) : ∀ w : Fin cfg0.W,
    (dat0 (fun c b => Vin0 m c b) c).arrAt w cfg0.N = Vout0 m c (Pipeline.arrRef spec0 w)
  | 0 => hF_in0 m c 0 rfl (by decide)
  | 1 => hF_in0 m c 1 rfl (by decide)
  | 2 => hF_in0 m c 2 rfl (by decide)
  | 3 => hF_in0 m c 3 rfl (by decide)
  | 4 => (Vout_0_4 m c).symm
  | 5 => (Vout_0_5 m c).symm
  | 6 => (Vout_0_6 m c).symm
  | ⟨_ + 7, h⟩ => absurd h (Nat.not_lt.2 (Nat.le_add_left _ _))
/-- At region 0's exit every buffer that is no array of it holds what it held at entry. -/
theorem hrest_0 (c : Dev nD) : ∀ b, b ∉ Finset.univ.image (Pipeline.arrRef spec0) → Vout0 m c b = Vin0 m c b :=
  fun b hb => GenP.V2_of m (outs m) c b fun h => hb <| by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩

/-! ### Region 1 -/

/-- An input array of region 1 is never written back into, and the update at the output arrays misses it. -/
theorem hF_in1 (c : Dev nD) (w : Fin cfg1.W) (hin : (cfg1.win w).isOut = false)
    (hr : Pipeline.arrRef spec1 w ∉ ([main_v48_0, main_v48_1, main_v48_2] : List (Ref sig .tc))) :
    (dat1 (fun c b => Vin1 m c b) c).arrAt w cfg1.N = Vout1 m c (Pipeline.arrRef spec1 w) :=
  ((dat1 (fun c b => Vin1 m c b) c).arrAt_in w hin _).trans
    ((A_eq1 (fun c b => Vin1 m c b) c w).trans (GenP.V4_of m (outs m) c _ hr).symm)
/-- Output window 7 of region 1: its array `main_v48_0` at the exit holds the write-backs folded over all grid points. -/
theorem Vout_1_7 (c : Dev nD) : Vout1 m c (Pipeline.arrRef spec1 7) = (dat1 (fun c b => Vin1 m c b) c).arrAt 7 cfg1.N := by
  have h : Vout1 m c (Pipeline.arrRef spec1 7) = outs m 4 main_v48_0 c := upd3_fst (by decide) (by decide)
  rw [h, outs_at1, Vin1_eq]
  exact Pipeline.withArrays_arr spec1 launch1.win.arr_inj c _ _ 7
/-- Output window 8 of region 1: its array `main_v48_1` at the exit holds the write-backs folded over all grid points. -/
theorem Vout_1_8 (c : Dev nD) : Vout1 m c (Pipeline.arrRef spec1 8) = (dat1 (fun c b => Vin1 m c b) c).arrAt 8 cfg1.N := by
  have h : Vout1 m c (Pipeline.arrRef spec1 8) = outs m 4 main_v48_1 c := upd2_fst (by decide)
  rw [h, outs_at1, Vin1_eq]
  exact Pipeline.withArrays_arr spec1 launch1.win.arr_inj c _ _ 8
/-- Output window 9 of region 1: its array `main_v48_2` at the exit holds the write-backs folded over all grid points. -/
theorem Vout_1_9 (c : Dev nD) : Vout1 m c (Pipeline.arrRef spec1 9) = (dat1 (fun c b => Vin1 m c b) c).arrAt 9 cfg1.N := by
  have h : Vout1 m c (Pipeline.arrRef spec1 9) = outs m 4 main_v48_2 c := Function.update_self _ _ _
  rw [h, outs_at1, Vin1_eq]
  exact Pipeline.withArrays_arr spec1 launch1.win.arr_inj c _ _ 9
/-- At region 1's exit every array of it holds what the pipeline leaves. -/
theorem hF_1 (c : Dev nD) : ∀ w : Fin cfg1.W,
    (dat1 (fun c b => Vin1 m c b) c).arrAt w cfg1.N = Vout1 m c (Pipeline.arrRef spec1 w)
  | 0 => hF_in1 m c 0 rfl (by decide)
  | 1 => hF_in1 m c 1 rfl (by decide)
  | 2 => hF_in1 m c 2 rfl (by decide)
  | 3 => hF_in1 m c 3 rfl (by decide)
  | 4 => hF_in1 m c 4 rfl (by decide)
  | 5 => hF_in1 m c 5 rfl (by decide)
  | 6 => hF_in1 m c 6 rfl (by decide)
  | 7 => (Vout_1_7 m c).symm
  | 8 => (Vout_1_8 m c).symm
  | 9 => (Vout_1_9 m c).symm
  | ⟨_ + 10, h⟩ => absurd h (Nat.not_lt.2 (Nat.le_add_left _ _))
/-- At region 1's exit every buffer that is no array of it holds what it held at entry. -/
theorem hrest_1 (c : Dev nD) : ∀ b, b ∉ Finset.univ.image (Pipeline.arrRef spec1) → Vout1 m c b = Vin1 m c b :=
  fun b hb => GenP.V4_of m (outs m) c b fun h => hb <| by
    simp only [List.mem_cons, List.mem_nil_iff, or_false] at h
    rcases h with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩

/-! ### Region 2 -/

/-- An input array of region 2 is never written back into, and the update at the output arrays misses it. -/
theorem hF_in2 (c : Dev nD) (w : Fin cfg2.W) (hin : (cfg2.win w).isOut = false)
    (hr : Pipeline.arrRef spec2 w ∉ ([main_v59_0, main_v59_1] : List (Ref sig .tc))) :
    (dat2 (fun c b => Vin2 m c b) c).arrAt w cfg2.N = Vout2 m c (Pipeline.arrRef spec2 w) :=
  ((dat2 (fun c b => Vin2 m c b) c).arrAt_in w hin _).trans
    ((A_eq2 (fun c b => Vin2 m c b) c w).trans (GenP.V6_of m (outs m) c _ hr).symm)
/-- Output window 6 of region 2: its array `main_v59_0` at the exit holds the write-backs folded over all grid points. -/
theorem Vout_2_6 (c : Dev nD) : Vout2 m c (Pipeline.arrRef spec2 6) = (dat2 (fun c b => Vin2 m c b) c).arrAt 6 cfg2.N := by
  have h : Vout2 m c (Pipeline.arrRef spec2 6) = outs m 6 main_v59_0 c := upd2_fst (by decide)
  rw [h, outs_at2, Vin2_eq]
  exact Pipeline.withArrays_arr spec2 launch2.win.arr_inj c _ _ 6
/-- Output window 7 of region 2: its array `main_v59_1` at the exit holds the write-backs folded over all grid points. -/
theorem Vout_2_7 (c : Dev nD) : Vout2 m c (Pipeline.arrRef spec2 7) = (dat2 (fun c b => Vin2 m c b) c).arrAt 7 cfg2.N := by
  have h : Vout2 m c (Pipeline.arrRef spec2 7) = outs m 6 main_v59_1 c := Function.update_self _ _ _
  rw [h, outs_at2, Vin2_eq]
  exact Pipeline.withArrays_arr spec2 launch2.win.arr_inj c _ _ 7
/-- At region 2's exit every array of it holds what the pipeline leaves. -/
theorem hF_2 (c : Dev nD) : ∀ w : Fin cfg2.W,
    (dat2 (fun c b => Vin2 m c b) c).arrAt w cfg2.N = Vout2 m c (Pipeline.arrRef spec2 w)
  | 0 => hF_in2 m c 0 rfl (by decide)
  | 1 => hF_in2 m c 1 rfl (by decide)
  | 2 => hF_in2 m c 2 rfl (by decide)
  | 3 => hF_in2 m c 3 rfl (by decide)
  | 4 => hF_in2 m c 4 rfl (by decide)
  | 5 => hF_in2 m c 5 rfl (by decide)
  | 6 => (Vout_2_6 m c).symm
  | 7 => (Vout_2_7 m c).symm
  | ⟨_ + 8, h⟩ => absurd h (Nat.not_lt.2 (Nat.le_add_left _ _))
/-- At region 2's exit every buffer that is no array of it holds what it held at entry. -/
theorem hrest_2 (c : Dev nD) : ∀ b, b ∉ Finset.univ.image (Pipeline.arrRef spec2) → Vout2 m c b = Vin2 m c b :=
  fun b hb => GenP.V6_of m (outs m) c b fun h => hb <| by
    simp only [List.mem_cons, List.mem_nil_iff, or_false] at h
    rcases h with rfl | rfl
    · exact Finset.mem_image.mpr ⟨6, Finset.mem_univ _, rfl⟩
    · exact Finset.mem_image.mpr ⟨7, Finset.mem_univ _, rfl⟩

/-! ### Region 3 -/

/-- An input array of region 3 is never written back into, and the update at the output arrays misses it. -/
theorem hF_in3 (c : Dev nD) (w : Fin cfg3.W) (hin : (cfg3.win w).isOut = false)
    (hr : Pipeline.arrRef spec3 w ∉ ([main_v92_0, main_v92_1, main_v92_2] : List (Ref sig .tc))) :
    (dat3 (fun c b => Vin3 m c b) c).arrAt w cfg3.N = Vout3 m c (Pipeline.arrRef spec3 w) :=
  ((dat3 (fun c b => Vin3 m c b) c).arrAt_in w hin _).trans
    ((A_eq3 (fun c b => Vin3 m c b) c w).trans (GenP.V8_of m (outs m) c _ hr).symm)
/-- Output window 4 of region 3: its array `main_v92_0` at the exit holds the write-backs folded over all grid points. -/
theorem Vout_3_4 (c : Dev nD) : Vout3 m c (Pipeline.arrRef spec3 4) = (dat3 (fun c b => Vin3 m c b) c).arrAt 4 cfg3.N := by
  have h : Vout3 m c (Pipeline.arrRef spec3 4) = outs m 8 main_v92_0 c := upd3_fst (by decide) (by decide)
  rw [h, outs_at3, Vin3_eq]
  exact Pipeline.withArrays_arr spec3 launch3.win.arr_inj c _ _ 4
/-- Output window 5 of region 3: its array `main_v92_1` at the exit holds the write-backs folded over all grid points. -/
theorem Vout_3_5 (c : Dev nD) : Vout3 m c (Pipeline.arrRef spec3 5) = (dat3 (fun c b => Vin3 m c b) c).arrAt 5 cfg3.N := by
  have h : Vout3 m c (Pipeline.arrRef spec3 5) = outs m 8 main_v92_1 c := upd2_fst (by decide)
  rw [h, outs_at3, Vin3_eq]
  exact Pipeline.withArrays_arr spec3 launch3.win.arr_inj c _ _ 5
/-- Output window 6 of region 3: its array `main_v92_2` at the exit holds the write-backs folded over all grid points. -/
theorem Vout_3_6 (c : Dev nD) : Vout3 m c (Pipeline.arrRef spec3 6) = (dat3 (fun c b => Vin3 m c b) c).arrAt 6 cfg3.N := by
  have h : Vout3 m c (Pipeline.arrRef spec3 6) = outs m 8 main_v92_2 c := Function.update_self _ _ _
  rw [h, outs_at3, Vin3_eq]
  exact Pipeline.withArrays_arr spec3 launch3.win.arr_inj c _ _ 6
/-- At region 3's exit every array of it holds what the pipeline leaves. -/
theorem hF_3 (c : Dev nD) : ∀ w : Fin cfg3.W,
    (dat3 (fun c b => Vin3 m c b) c).arrAt w cfg3.N = Vout3 m c (Pipeline.arrRef spec3 w)
  | 0 => hF_in3 m c 0 rfl (by decide)
  | 1 => hF_in3 m c 1 rfl (by decide)
  | 2 => hF_in3 m c 2 rfl (by decide)
  | 3 => hF_in3 m c 3 rfl (by decide)
  | 4 => (Vout_3_4 m c).symm
  | 5 => (Vout_3_5 m c).symm
  | 6 => (Vout_3_6 m c).symm
  | ⟨_ + 7, h⟩ => absurd h (Nat.not_lt.2 (Nat.le_add_left _ _))
/-- At region 3's exit every buffer that is no array of it holds what it held at entry. -/
theorem hrest_3 (c : Dev nD) : ∀ b, b ∉ Finset.univ.image (Pipeline.arrRef spec3) → Vout3 m c b = Vin3 m c b :=
  fun b hb => GenP.V8_of m (outs m) c b fun h => hb <| by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩

/-! ### Region 4 -/

/-- An input array of region 4 is never written back into, and the update at the output arrays misses it. -/
theorem hF_in4 (c : Dev nD) (w : Fin cfg4.W) (hin : (cfg4.win w).isOut = false)
    (hr : Pipeline.arrRef spec4 w ∉ ([main_v104_0, main_v104_1, main_v104_2] : List (Ref sig .tc))) :
    (dat4 (fun c b => Vin4 m c b) c).arrAt w cfg4.N = Vout4 m c (Pipeline.arrRef spec4 w) :=
  ((dat4 (fun c b => Vin4 m c b) c).arrAt_in w hin _).trans
    ((A_eq4 (fun c b => Vin4 m c b) c w).trans (GenP.V10_of m (outs m) c _ hr).symm)
/-- Output window 7 of region 4: its array `main_v104_0` at the exit holds the write-backs folded over all grid points. -/
theorem Vout_4_7 (c : Dev nD) : Vout4 m c (Pipeline.arrRef spec4 7) = (dat4 (fun c b => Vin4 m c b) c).arrAt 7 cfg4.N := by
  have h : Vout4 m c (Pipeline.arrRef spec4 7) = outs m 10 main_v104_0 c := upd3_fst (by decide) (by decide)
  rw [h, outs_at4, Vin4_eq]
  exact Pipeline.withArrays_arr spec4 launch4.win.arr_inj c _ _ 7
/-- Output window 8 of region 4: its array `main_v104_1` at the exit holds the write-backs folded over all grid points. -/
theorem Vout_4_8 (c : Dev nD) : Vout4 m c (Pipeline.arrRef spec4 8) = (dat4 (fun c b => Vin4 m c b) c).arrAt 8 cfg4.N := by
  have h : Vout4 m c (Pipeline.arrRef spec4 8) = outs m 10 main_v104_1 c := upd2_fst (by decide)
  rw [h, outs_at4, Vin4_eq]
  exact Pipeline.withArrays_arr spec4 launch4.win.arr_inj c _ _ 8
/-- Output window 9 of region 4: its array `main_v104_2` at the exit holds the write-backs folded over all grid points. -/
theorem Vout_4_9 (c : Dev nD) : Vout4 m c (Pipeline.arrRef spec4 9) = (dat4 (fun c b => Vin4 m c b) c).arrAt 9 cfg4.N := by
  have h : Vout4 m c (Pipeline.arrRef spec4 9) = outs m 10 main_v104_2 c := Function.update_self _ _ _
  rw [h, outs_at4, Vin4_eq]
  exact Pipeline.withArrays_arr spec4 launch4.win.arr_inj c _ _ 9
/-- At region 4's exit every array of it holds what the pipeline leaves. -/
theorem hF_4 (c : Dev nD) : ∀ w : Fin cfg4.W,
    (dat4 (fun c b => Vin4 m c b) c).arrAt w cfg4.N = Vout4 m c (Pipeline.arrRef spec4 w)
  | 0 => hF_in4 m c 0 rfl (by decide)
  | 1 => hF_in4 m c 1 rfl (by decide)
  | 2 => hF_in4 m c 2 rfl (by decide)
  | 3 => hF_in4 m c 3 rfl (by decide)
  | 4 => hF_in4 m c 4 rfl (by decide)
  | 5 => hF_in4 m c 5 rfl (by decide)
  | 6 => hF_in4 m c 6 rfl (by decide)
  | 7 => (Vout_4_7 m c).symm
  | 8 => (Vout_4_8 m c).symm
  | 9 => (Vout_4_9 m c).symm
  | ⟨_ + 10, h⟩ => absurd h (Nat.not_lt.2 (Nat.le_add_left _ _))
/-- At region 4's exit every buffer that is no array of it holds what it held at entry. -/
theorem hrest_4 (c : Dev nD) : ∀ b, b ∉ Finset.univ.image (Pipeline.arrRef spec4) → Vout4 m c b = Vin4 m c b :=
  fun b hb => GenP.V10_of m (outs m) c b fun h => hb <| by
    simp only [List.mem_cons, List.mem_nil_iff, or_false] at h
    rcases h with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩

/-! ### Region 5 -/

/-- An input array of region 5 is never written back into, and the update at the output arrays misses it. -/
theorem hF_in5 (c : Dev nD) (w : Fin cfg5.W) (hin : (cfg5.win w).isOut = false)
    (hr : Pipeline.arrRef spec5 w ∉ ([main_v115_0, main_v115_1] : List (Ref sig .tc))) :
    (dat5 (fun c b => Vin5 m c b) c).arrAt w cfg5.N = Vout5 m c (Pipeline.arrRef spec5 w) :=
  ((dat5 (fun c b => Vin5 m c b) c).arrAt_in w hin _).trans
    ((A_eq5 (fun c b => Vin5 m c b) c w).trans (GenP.V12_of m (outs m) c _ hr).symm)
/-- Output window 6 of region 5: its array `main_v115_0` at the exit holds the write-backs folded over all grid points. -/
theorem Vout_5_6 (c : Dev nD) : Vout5 m c (Pipeline.arrRef spec5 6) = (dat5 (fun c b => Vin5 m c b) c).arrAt 6 cfg5.N := by
  have h : Vout5 m c (Pipeline.arrRef spec5 6) = outs m 12 main_v115_0 c := upd2_fst (by decide)
  rw [h, outs_at5, Vin5_eq]
  exact Pipeline.withArrays_arr spec5 launch5.win.arr_inj c _ _ 6
/-- Output window 7 of region 5: its array `main_v115_1` at the exit holds the write-backs folded over all grid points. -/
theorem Vout_5_7 (c : Dev nD) : Vout5 m c (Pipeline.arrRef spec5 7) = (dat5 (fun c b => Vin5 m c b) c).arrAt 7 cfg5.N := by
  have h : Vout5 m c (Pipeline.arrRef spec5 7) = outs m 12 main_v115_1 c := Function.update_self _ _ _
  rw [h, outs_at5, Vin5_eq]
  exact Pipeline.withArrays_arr spec5 launch5.win.arr_inj c _ _ 7
/-- At region 5's exit every array of it holds what the pipeline leaves. -/
theorem hF_5 (c : Dev nD) : ∀ w : Fin cfg5.W,
    (dat5 (fun c b => Vin5 m c b) c).arrAt w cfg5.N = Vout5 m c (Pipeline.arrRef spec5 w)
  | 0 => hF_in5 m c 0 rfl (by decide)
  | 1 => hF_in5 m c 1 rfl (by decide)
  | 2 => hF_in5 m c 2 rfl (by decide)
  | 3 => hF_in5 m c 3 rfl (by decide)
  | 4 => hF_in5 m c 4 rfl (by decide)
  | 5 => hF_in5 m c 5 rfl (by decide)
  | 6 => (Vout_5_6 m c).symm
  | 7 => (Vout_5_7 m c).symm
  | ⟨_ + 8, h⟩ => absurd h (Nat.not_lt.2 (Nat.le_add_left _ _))
/-- At region 5's exit every buffer that is no array of it holds what it held at entry. -/
theorem hrest_5 (c : Dev nD) : ∀ b, b ∉ Finset.univ.image (Pipeline.arrRef spec5) → Vout5 m c b = Vin5 m c b :=
  fun b hb => GenP.V12_of m (outs m) c b fun h => hb <| by
    simp only [List.mem_cons, List.mem_nil_iff, or_false] at h
    rcases h with rfl | rfl
    · exact Finset.mem_image.mpr ⟨6, Finset.mem_univ _, rfl⟩
    · exact Finset.mem_image.mpr ⟨7, Finset.mem_univ _, rfl⟩

/-! ### Region 6 -/

/-- An input array of region 6 is never written back into, and the update at the output arrays misses it. -/
theorem hF_in6 (c : Dev nD) (w : Fin cfg6.W) (hin : (cfg6.win w).isOut = false)
    (hr : Pipeline.arrRef spec6 w ∉ ([main_v148_0, main_v148_1, main_v148_2] : List (Ref sig .tc))) :
    (dat6 (fun c b => Vin6 m c b) c).arrAt w cfg6.N = Vout6 m c (Pipeline.arrRef spec6 w) :=
  ((dat6 (fun c b => Vin6 m c b) c).arrAt_in w hin _).trans
    ((A_eq6 (fun c b => Vin6 m c b) c w).trans (GenP.V14_of m (outs m) c _ hr).symm)
/-- Output window 4 of region 6: its array `main_v148_0` at the exit holds the write-backs folded over all grid points. -/
theorem Vout_6_4 (c : Dev nD) : Vout6 m c (Pipeline.arrRef spec6 4) = (dat6 (fun c b => Vin6 m c b) c).arrAt 4 cfg6.N := by
  have h : Vout6 m c (Pipeline.arrRef spec6 4) = outs m 14 main_v148_0 c := upd3_fst (by decide) (by decide)
  rw [h, outs_at6, Vin6_eq]
  exact Pipeline.withArrays_arr spec6 launch6.win.arr_inj c _ _ 4
/-- Output window 5 of region 6: its array `main_v148_1` at the exit holds the write-backs folded over all grid points. -/
theorem Vout_6_5 (c : Dev nD) : Vout6 m c (Pipeline.arrRef spec6 5) = (dat6 (fun c b => Vin6 m c b) c).arrAt 5 cfg6.N := by
  have h : Vout6 m c (Pipeline.arrRef spec6 5) = outs m 14 main_v148_1 c := upd2_fst (by decide)
  rw [h, outs_at6, Vin6_eq]
  exact Pipeline.withArrays_arr spec6 launch6.win.arr_inj c _ _ 5
/-- Output window 6 of region 6: its array `main_v148_2` at the exit holds the write-backs folded over all grid points. -/
theorem Vout_6_6 (c : Dev nD) : Vout6 m c (Pipeline.arrRef spec6 6) = (dat6 (fun c b => Vin6 m c b) c).arrAt 6 cfg6.N := by
  have h : Vout6 m c (Pipeline.arrRef spec6 6) = outs m 14 main_v148_2 c := Function.update_self _ _ _
  rw [h, outs_at6, Vin6_eq]
  exact Pipeline.withArrays_arr spec6 launch6.win.arr_inj c _ _ 6
/-- At region 6's exit every array of it holds what the pipeline leaves. -/
theorem hF_6 (c : Dev nD) : ∀ w : Fin cfg6.W,
    (dat6 (fun c b => Vin6 m c b) c).arrAt w cfg6.N = Vout6 m c (Pipeline.arrRef spec6 w)
  | 0 => hF_in6 m c 0 rfl (by decide)
  | 1 => hF_in6 m c 1 rfl (by decide)
  | 2 => hF_in6 m c 2 rfl (by decide)
  | 3 => hF_in6 m c 3 rfl (by decide)
  | 4 => (Vout_6_4 m c).symm
  | 5 => (Vout_6_5 m c).symm
  | 6 => (Vout_6_6 m c).symm
  | ⟨_ + 7, h⟩ => absurd h (Nat.not_lt.2 (Nat.le_add_left _ _))
/-- At region 6's exit every buffer that is no array of it holds what it held at entry. -/
theorem hrest_6 (c : Dev nD) : ∀ b, b ∉ Finset.univ.image (Pipeline.arrRef spec6) → Vout6 m c b = Vin6 m c b :=
  fun b hb => GenP.V14_of m (outs m) c b fun h => hb <| by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩

/-! ### Region 7 -/

/-- An input array of region 7 is never written back into, and the update at the output arrays misses it. -/
theorem hF_in7 (c : Dev nD) (w : Fin cfg7.W) (hin : (cfg7.win w).isOut = false)
    (hr : Pipeline.arrRef spec7 w ∉ ([main_v160_0, main_v160_1, main_v160_2] : List (Ref sig .tc))) :
    (dat7 (fun c b => Vin7 m c b) c).arrAt w cfg7.N = Vout7 m c (Pipeline.arrRef spec7 w) :=
  ((dat7 (fun c b => Vin7 m c b) c).arrAt_in w hin _).trans
    ((A_eq7 (fun c b => Vin7 m c b) c w).trans (GenP.V16_of m (outs m) c _ hr).symm)
/-- Output window 7 of region 7: its array `main_v160_0` at the exit holds the write-backs folded over all grid points. -/
theorem Vout_7_7 (c : Dev nD) : Vout7 m c (Pipeline.arrRef spec7 7) = (dat7 (fun c b => Vin7 m c b) c).arrAt 7 cfg7.N := by
  have h : Vout7 m c (Pipeline.arrRef spec7 7) = outs m 16 main_v160_0 c := upd3_fst (by decide) (by decide)
  rw [h, outs_at7, Vin7_eq]
  exact Pipeline.withArrays_arr spec7 launch7.win.arr_inj c _ _ 7
/-- Output window 8 of region 7: its array `main_v160_1` at the exit holds the write-backs folded over all grid points. -/
theorem Vout_7_8 (c : Dev nD) : Vout7 m c (Pipeline.arrRef spec7 8) = (dat7 (fun c b => Vin7 m c b) c).arrAt 8 cfg7.N := by
  have h : Vout7 m c (Pipeline.arrRef spec7 8) = outs m 16 main_v160_1 c := upd2_fst (by decide)
  rw [h, outs_at7, Vin7_eq]
  exact Pipeline.withArrays_arr spec7 launch7.win.arr_inj c _ _ 8
/-- Output window 9 of region 7: its array `main_v160_2` at the exit holds the write-backs folded over all grid points. -/
theorem Vout_7_9 (c : Dev nD) : Vout7 m c (Pipeline.arrRef spec7 9) = (dat7 (fun c b => Vin7 m c b) c).arrAt 9 cfg7.N := by
  have h : Vout7 m c (Pipeline.arrRef spec7 9) = outs m 16 main_v160_2 c := Function.update_self _ _ _
  rw [h, outs_at7, Vin7_eq]
  exact Pipeline.withArrays_arr spec7 launch7.win.arr_inj c _ _ 9
/-- At region 7's exit every array of it holds what the pipeline leaves. -/
theorem hF_7 (c : Dev nD) : ∀ w : Fin cfg7.W,
    (dat7 (fun c b => Vin7 m c b) c).arrAt w cfg7.N = Vout7 m c (Pipeline.arrRef spec7 w)
  | 0 => hF_in7 m c 0 rfl (by decide)
  | 1 => hF_in7 m c 1 rfl (by decide)
  | 2 => hF_in7 m c 2 rfl (by decide)
  | 3 => hF_in7 m c 3 rfl (by decide)
  | 4 => hF_in7 m c 4 rfl (by decide)
  | 5 => hF_in7 m c 5 rfl (by decide)
  | 6 => hF_in7 m c 6 rfl (by decide)
  | 7 => (Vout_7_7 m c).symm
  | 8 => (Vout_7_8 m c).symm
  | 9 => (Vout_7_9 m c).symm
  | ⟨_ + 10, h⟩ => absurd h (Nat.not_lt.2 (Nat.le_add_left _ _))
/-- At region 7's exit every buffer that is no array of it holds what it held at entry. -/
theorem hrest_7 (c : Dev nD) : ∀ b, b ∉ Finset.univ.image (Pipeline.arrRef spec7) → Vout7 m c b = Vin7 m c b :=
  fun b hb => GenP.V16_of m (outs m) c b fun h => hb <| by
    simp only [List.mem_cons, List.mem_nil_iff, or_false] at h
    rcases h with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩

/-! ### Region 8 -/

/-- An input array of region 8 is never written back into, and the update at the output arrays misses it. -/
theorem hF_in8 (c : Dev nD) (w : Fin cfg8.W) (hin : (cfg8.win w).isOut = false)
    (hr : Pipeline.arrRef spec8 w ∉ ([main_v171_0, main_v171_1] : List (Ref sig .tc))) :
    (dat8 (fun c b => Vin8 m c b) c).arrAt w cfg8.N = Vout8 m c (Pipeline.arrRef spec8 w) :=
  ((dat8 (fun c b => Vin8 m c b) c).arrAt_in w hin _).trans
    ((A_eq8 (fun c b => Vin8 m c b) c w).trans (GenP.V18_of m (outs m) c _ hr).symm)
/-- Output window 6 of region 8: its array `main_v171_0` at the exit holds the write-backs folded over all grid points. -/
theorem Vout_8_6 (c : Dev nD) : Vout8 m c (Pipeline.arrRef spec8 6) = (dat8 (fun c b => Vin8 m c b) c).arrAt 6 cfg8.N := by
  have h : Vout8 m c (Pipeline.arrRef spec8 6) = outs m 18 main_v171_0 c := upd2_fst (by decide)
  rw [h, outs_at8, Vin8_eq]
  exact Pipeline.withArrays_arr spec8 launch8.win.arr_inj c _ _ 6
/-- Output window 7 of region 8: its array `main_v171_1` at the exit holds the write-backs folded over all grid points. -/
theorem Vout_8_7 (c : Dev nD) : Vout8 m c (Pipeline.arrRef spec8 7) = (dat8 (fun c b => Vin8 m c b) c).arrAt 7 cfg8.N := by
  have h : Vout8 m c (Pipeline.arrRef spec8 7) = outs m 18 main_v171_1 c := Function.update_self _ _ _
  rw [h, outs_at8, Vin8_eq]
  exact Pipeline.withArrays_arr spec8 launch8.win.arr_inj c _ _ 7
/-- At region 8's exit every array of it holds what the pipeline leaves. -/
theorem hF_8 (c : Dev nD) : ∀ w : Fin cfg8.W,
    (dat8 (fun c b => Vin8 m c b) c).arrAt w cfg8.N = Vout8 m c (Pipeline.arrRef spec8 w)
  | 0 => hF_in8 m c 0 rfl (by decide)
  | 1 => hF_in8 m c 1 rfl (by decide)
  | 2 => hF_in8 m c 2 rfl (by decide)
  | 3 => hF_in8 m c 3 rfl (by decide)
  | 4 => hF_in8 m c 4 rfl (by decide)
  | 5 => hF_in8 m c 5 rfl (by decide)
  | 6 => (Vout_8_6 m c).symm
  | 7 => (Vout_8_7 m c).symm
  | ⟨_ + 8, h⟩ => absurd h (Nat.not_lt.2 (Nat.le_add_left _ _))
/-- At region 8's exit every buffer that is no array of it holds what it held at entry. -/
theorem hrest_8 (c : Dev nD) : ∀ b, b ∉ Finset.univ.image (Pipeline.arrRef spec8) → Vout8 m c b = Vin8 m c b :=
  fun b hb => GenP.V18_of m (outs m) c b fun h => hb <| by
    simp only [List.mem_cons, List.mem_nil_iff, or_false] at h
    rcases h with rfl | rfl
    · exact Finset.mem_image.mpr ⟨6, Finset.mem_univ _, rfl⟩
    · exact Finset.mem_image.mpr ⟨7, Finset.mem_univ _, rfl⟩

/-! ### Region 9 -/

/-- An input array of region 9 is never written back into, and the update at the output arrays misses it. -/
theorem hF_in9 (c : Dev nD) (w : Fin cfg9.W) (hin : (cfg9.win w).isOut = false)
    (hr : Pipeline.arrRef spec9 w ∉ ([main_v204_0, main_v204_1, main_v204_2] : List (Ref sig .tc))) :
    (dat9 (fun c b => Vin9 m c b) c).arrAt w cfg9.N = Vout9 m c (Pipeline.arrRef spec9 w) :=
  ((dat9 (fun c b => Vin9 m c b) c).arrAt_in w hin _).trans
    ((A_eq9 (fun c b => Vin9 m c b) c w).trans (GenP.V20_of m (outs m) c _ hr).symm)
/-- Output window 4 of region 9: its array `main_v204_0` at the exit holds the write-backs folded over all grid points. -/
theorem Vout_9_4 (c : Dev nD) : Vout9 m c (Pipeline.arrRef spec9 4) = (dat9 (fun c b => Vin9 m c b) c).arrAt 4 cfg9.N := by
  have h : Vout9 m c (Pipeline.arrRef spec9 4) = outs m 20 main_v204_0 c := upd3_fst (by decide) (by decide)
  rw [h, outs_at9, Vin9_eq]
  exact Pipeline.withArrays_arr spec9 launch9.win.arr_inj c _ _ 4
/-- Output window 5 of region 9: its array `main_v204_1` at the exit holds the write-backs folded over all grid points. -/
theorem Vout_9_5 (c : Dev nD) : Vout9 m c (Pipeline.arrRef spec9 5) = (dat9 (fun c b => Vin9 m c b) c).arrAt 5 cfg9.N := by
  have h : Vout9 m c (Pipeline.arrRef spec9 5) = outs m 20 main_v204_1 c := upd2_fst (by decide)
  rw [h, outs_at9, Vin9_eq]
  exact Pipeline.withArrays_arr spec9 launch9.win.arr_inj c _ _ 5
/-- Output window 6 of region 9: its array `main_v204_2` at the exit holds the write-backs folded over all grid points. -/
theorem Vout_9_6 (c : Dev nD) : Vout9 m c (Pipeline.arrRef spec9 6) = (dat9 (fun c b => Vin9 m c b) c).arrAt 6 cfg9.N := by
  have h : Vout9 m c (Pipeline.arrRef spec9 6) = outs m 20 main_v204_2 c := Function.update_self _ _ _
  rw [h, outs_at9, Vin9_eq]
  exact Pipeline.withArrays_arr spec9 launch9.win.arr_inj c _ _ 6
/-- At region 9's exit every array of it holds what the pipeline leaves. -/
theorem hF_9 (c : Dev nD) : ∀ w : Fin cfg9.W,
    (dat9 (fun c b => Vin9 m c b) c).arrAt w cfg9.N = Vout9 m c (Pipeline.arrRef spec9 w)
  | 0 => hF_in9 m c 0 rfl (by decide)
  | 1 => hF_in9 m c 1 rfl (by decide)
  | 2 => hF_in9 m c 2 rfl (by decide)
  | 3 => hF_in9 m c 3 rfl (by decide)
  | 4 => (Vout_9_4 m c).symm
  | 5 => (Vout_9_5 m c).symm
  | 6 => (Vout_9_6 m c).symm
  | ⟨_ + 7, h⟩ => absurd h (Nat.not_lt.2 (Nat.le_add_left _ _))
/-- At region 9's exit every buffer that is no array of it holds what it held at entry. -/
theorem hrest_9 (c : Dev nD) : ∀ b, b ∉ Finset.univ.image (Pipeline.arrRef spec9) → Vout9 m c b = Vin9 m c b :=
  fun b hb => GenP.V20_of m (outs m) c b fun h => hb <| by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩

/-! ### Region 10 -/

/-- An input array of region 10 is never written back into, and the update at the output arrays misses it. -/
theorem hF_in10 (c : Dev nD) (w : Fin cfg10.W) (hin : (cfg10.win w).isOut = false)
    (hr : Pipeline.arrRef spec10 w ∉ ([main_v216_0, main_v216_1, main_v216_2] : List (Ref sig .tc))) :
    (dat10 (fun c b => Vin10 m c b) c).arrAt w cfg10.N = Vout10 m c (Pipeline.arrRef spec10 w) :=
  ((dat10 (fun c b => Vin10 m c b) c).arrAt_in w hin _).trans
    ((A_eq10 (fun c b => Vin10 m c b) c w).trans (GenP.V22_of m (outs m) c _ hr).symm)
/-- Output window 7 of region 10: its array `main_v216_0` at the exit holds the write-backs folded over all grid points. -/
theorem Vout_10_7 (c : Dev nD) : Vout10 m c (Pipeline.arrRef spec10 7) = (dat10 (fun c b => Vin10 m c b) c).arrAt 7 cfg10.N := by
  have h : Vout10 m c (Pipeline.arrRef spec10 7) = outs m 22 main_v216_0 c := upd3_fst (by decide) (by decide)
  rw [h, outs_at10, Vin10_eq]
  exact Pipeline.withArrays_arr spec10 launch10.win.arr_inj c _ _ 7
/-- Output window 8 of region 10: its array `main_v216_1` at the exit holds the write-backs folded over all grid points. -/
theorem Vout_10_8 (c : Dev nD) : Vout10 m c (Pipeline.arrRef spec10 8) = (dat10 (fun c b => Vin10 m c b) c).arrAt 8 cfg10.N := by
  have h : Vout10 m c (Pipeline.arrRef spec10 8) = outs m 22 main_v216_1 c := upd2_fst (by decide)
  rw [h, outs_at10, Vin10_eq]
  exact Pipeline.withArrays_arr spec10 launch10.win.arr_inj c _ _ 8
/-- Output window 9 of region 10: its array `main_v216_2` at the exit holds the write-backs folded over all grid points. -/
theorem Vout_10_9 (c : Dev nD) : Vout10 m c (Pipeline.arrRef spec10 9) = (dat10 (fun c b => Vin10 m c b) c).arrAt 9 cfg10.N := by
  have h : Vout10 m c (Pipeline.arrRef spec10 9) = outs m 22 main_v216_2 c := Function.update_self _ _ _
  rw [h, outs_at10, Vin10_eq]
  exact Pipeline.withArrays_arr spec10 launch10.win.arr_inj c _ _ 9
/-- At region 10's exit every array of it holds what the pipeline leaves. -/
theorem hF_10 (c : Dev nD) : ∀ w : Fin cfg10.W,
    (dat10 (fun c b => Vin10 m c b) c).arrAt w cfg10.N = Vout10 m c (Pipeline.arrRef spec10 w)
  | 0 => hF_in10 m c 0 rfl (by decide)
  | 1 => hF_in10 m c 1 rfl (by decide)
  | 2 => hF_in10 m c 2 rfl (by decide)
  | 3 => hF_in10 m c 3 rfl (by decide)
  | 4 => hF_in10 m c 4 rfl (by decide)
  | 5 => hF_in10 m c 5 rfl (by decide)
  | 6 => hF_in10 m c 6 rfl (by decide)
  | 7 => (Vout_10_7 m c).symm
  | 8 => (Vout_10_8 m c).symm
  | 9 => (Vout_10_9 m c).symm
  | ⟨_ + 10, h⟩ => absurd h (Nat.not_lt.2 (Nat.le_add_left _ _))
/-- At region 10's exit every buffer that is no array of it holds what it held at entry. -/
theorem hrest_10 (c : Dev nD) : ∀ b, b ∉ Finset.univ.image (Pipeline.arrRef spec10) → Vout10 m c b = Vin10 m c b :=
  fun b hb => GenP.V22_of m (outs m) c b fun h => hb <| by
    simp only [List.mem_cons, List.mem_nil_iff, or_false] at h
    rcases h with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩

/-! ### Region 11 -/

/-- An input array of region 11 is never written back into, and the update at the output arrays misses it. -/
theorem hF_in11 (c : Dev nD) (w : Fin cfg11.W) (hin : (cfg11.win w).isOut = false)
    (hr : Pipeline.arrRef spec11 w ∉ ([main_v227_0, main_v227_1] : List (Ref sig .tc))) :
    (dat11 (fun c b => Vin11 m c b) c).arrAt w cfg11.N = Vout11 m c (Pipeline.arrRef spec11 w) :=
  ((dat11 (fun c b => Vin11 m c b) c).arrAt_in w hin _).trans
    ((A_eq11 (fun c b => Vin11 m c b) c w).trans (GenP.V24_of m (outs m) c _ hr).symm)
/-- Output window 6 of region 11: its array `main_v227_0` at the exit holds the write-backs folded over all grid points. -/
theorem Vout_11_6 (c : Dev nD) : Vout11 m c (Pipeline.arrRef spec11 6) = (dat11 (fun c b => Vin11 m c b) c).arrAt 6 cfg11.N := by
  have h : Vout11 m c (Pipeline.arrRef spec11 6) = outs m 24 main_v227_0 c := upd2_fst (by decide)
  rw [h, outs_at11, Vin11_eq]
  exact Pipeline.withArrays_arr spec11 launch11.win.arr_inj c _ _ 6
/-- Output window 7 of region 11: its array `main_v227_1` at the exit holds the write-backs folded over all grid points. -/
theorem Vout_11_7 (c : Dev nD) : Vout11 m c (Pipeline.arrRef spec11 7) = (dat11 (fun c b => Vin11 m c b) c).arrAt 7 cfg11.N := by
  have h : Vout11 m c (Pipeline.arrRef spec11 7) = outs m 24 main_v227_1 c := Function.update_self _ _ _
  rw [h, outs_at11, Vin11_eq]
  exact Pipeline.withArrays_arr spec11 launch11.win.arr_inj c _ _ 7
/-- At region 11's exit every array of it holds what the pipeline leaves. -/
theorem hF_11 (c : Dev nD) : ∀ w : Fin cfg11.W,
    (dat11 (fun c b => Vin11 m c b) c).arrAt w cfg11.N = Vout11 m c (Pipeline.arrRef spec11 w)
  | 0 => hF_in11 m c 0 rfl (by decide)
  | 1 => hF_in11 m c 1 rfl (by decide)
  | 2 => hF_in11 m c 2 rfl (by decide)
  | 3 => hF_in11 m c 3 rfl (by decide)
  | 4 => hF_in11 m c 4 rfl (by decide)
  | 5 => hF_in11 m c 5 rfl (by decide)
  | 6 => (Vout_11_6 m c).symm
  | 7 => (Vout_11_7 m c).symm
  | ⟨_ + 8, h⟩ => absurd h (Nat.not_lt.2 (Nat.le_add_left _ _))
/-- At region 11's exit every buffer that is no array of it holds what it held at entry. -/
theorem hrest_11 (c : Dev nD) : ∀ b, b ∉ Finset.univ.image (Pipeline.arrRef spec11) → Vout11 m c b = Vin11 m c b :=
  fun b hb => GenP.V24_of m (outs m) c b fun h => hb <| by
    simp only [List.mem_cons, List.mem_nil_iff, or_false] at h
    rcases h with rfl | rfl
    · exact Finset.mem_image.mpr ⟨6, Finset.mem_univ _, rfl⟩
    · exact Finset.mem_image.mpr ⟨7, Finset.mem_univ _, rfl⟩

/-! ### Region 12 -/

/-- An input array of region 12 is never written back into, and the update at the output arrays misses it. -/
theorem hF_in12 (c : Dev nD) (w : Fin cfg12.W) (hin : (cfg12.win w).isOut = false)
    (hr : Pipeline.arrRef spec12 w ∉ ([main_v260_0, main_v260_1, main_v260_2] : List (Ref sig .tc))) :
    (dat12 (fun c b => Vin12 m c b) c).arrAt w cfg12.N = Vout12 m c (Pipeline.arrRef spec12 w) :=
  ((dat12 (fun c b => Vin12 m c b) c).arrAt_in w hin _).trans
    ((A_eq12 (fun c b => Vin12 m c b) c w).trans (GenP.V26_of m (outs m) c _ hr).symm)
/-- Output window 4 of region 12: its array `main_v260_0` at the exit holds the write-backs folded over all grid points. -/
theorem Vout_12_4 (c : Dev nD) : Vout12 m c (Pipeline.arrRef spec12 4) = (dat12 (fun c b => Vin12 m c b) c).arrAt 4 cfg12.N := by
  have h : Vout12 m c (Pipeline.arrRef spec12 4) = outs m 26 main_v260_0 c := upd3_fst (by decide) (by decide)
  rw [h, outs_at12, Vin12_eq]
  exact Pipeline.withArrays_arr spec12 launch12.win.arr_inj c _ _ 4
/-- Output window 5 of region 12: its array `main_v260_1` at the exit holds the write-backs folded over all grid points. -/
theorem Vout_12_5 (c : Dev nD) : Vout12 m c (Pipeline.arrRef spec12 5) = (dat12 (fun c b => Vin12 m c b) c).arrAt 5 cfg12.N := by
  have h : Vout12 m c (Pipeline.arrRef spec12 5) = outs m 26 main_v260_1 c := upd2_fst (by decide)
  rw [h, outs_at12, Vin12_eq]
  exact Pipeline.withArrays_arr spec12 launch12.win.arr_inj c _ _ 5
/-- Output window 6 of region 12: its array `main_v260_2` at the exit holds the write-backs folded over all grid points. -/
theorem Vout_12_6 (c : Dev nD) : Vout12 m c (Pipeline.arrRef spec12 6) = (dat12 (fun c b => Vin12 m c b) c).arrAt 6 cfg12.N := by
  have h : Vout12 m c (Pipeline.arrRef spec12 6) = outs m 26 main_v260_2 c := Function.update_self _ _ _
  rw [h, outs_at12, Vin12_eq]
  exact Pipeline.withArrays_arr spec12 launch12.win.arr_inj c _ _ 6
/-- At region 12's exit every array of it holds what the pipeline leaves. -/
theorem hF_12 (c : Dev nD) : ∀ w : Fin cfg12.W,
    (dat12 (fun c b => Vin12 m c b) c).arrAt w cfg12.N = Vout12 m c (Pipeline.arrRef spec12 w)
  | 0 => hF_in12 m c 0 rfl (by decide)
  | 1 => hF_in12 m c 1 rfl (by decide)
  | 2 => hF_in12 m c 2 rfl (by decide)
  | 3 => hF_in12 m c 3 rfl (by decide)
  | 4 => (Vout_12_4 m c).symm
  | 5 => (Vout_12_5 m c).symm
  | 6 => (Vout_12_6 m c).symm
  | ⟨_ + 7, h⟩ => absurd h (Nat.not_lt.2 (Nat.le_add_left _ _))
/-- At region 12's exit every buffer that is no array of it holds what it held at entry. -/
theorem hrest_12 (c : Dev nD) : ∀ b, b ∉ Finset.univ.image (Pipeline.arrRef spec12) → Vout12 m c b = Vin12 m c b :=
  fun b hb => GenP.V26_of m (outs m) c b fun h => hb <| by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩

/-! ### Region 13 -/

/-- An input array of region 13 is never written back into, and the update at the output arrays misses it. -/
theorem hF_in13 (c : Dev nD) (w : Fin cfg13.W) (hin : (cfg13.win w).isOut = false)
    (hr : Pipeline.arrRef spec13 w ∉ ([main_v272_0, main_v272_1, main_v272_2] : List (Ref sig .tc))) :
    (dat13 (fun c b => Vin13 m c b) c).arrAt w cfg13.N = Vout13 m c (Pipeline.arrRef spec13 w) :=
  ((dat13 (fun c b => Vin13 m c b) c).arrAt_in w hin _).trans
    ((A_eq13 (fun c b => Vin13 m c b) c w).trans (GenP.V28_of m (outs m) c _ hr).symm)
/-- Output window 7 of region 13: its array `main_v272_0` at the exit holds the write-backs folded over all grid points. -/
theorem Vout_13_7 (c : Dev nD) : Vout13 m c (Pipeline.arrRef spec13 7) = (dat13 (fun c b => Vin13 m c b) c).arrAt 7 cfg13.N := by
  have h : Vout13 m c (Pipeline.arrRef spec13 7) = outs m 28 main_v272_0 c := upd3_fst (by decide) (by decide)
  rw [h, outs_at13, Vin13_eq]
  exact Pipeline.withArrays_arr spec13 launch13.win.arr_inj c _ _ 7
/-- Output window 8 of region 13: its array `main_v272_1` at the exit holds the write-backs folded over all grid points. -/
theorem Vout_13_8 (c : Dev nD) : Vout13 m c (Pipeline.arrRef spec13 8) = (dat13 (fun c b => Vin13 m c b) c).arrAt 8 cfg13.N := by
  have h : Vout13 m c (Pipeline.arrRef spec13 8) = outs m 28 main_v272_1 c := upd2_fst (by decide)
  rw [h, outs_at13, Vin13_eq]
  exact Pipeline.withArrays_arr spec13 launch13.win.arr_inj c _ _ 8
/-- Output window 9 of region 13: its array `main_v272_2` at the exit holds the write-backs folded over all grid points. -/
theorem Vout_13_9 (c : Dev nD) : Vout13 m c (Pipeline.arrRef spec13 9) = (dat13 (fun c b => Vin13 m c b) c).arrAt 9 cfg13.N := by
  have h : Vout13 m c (Pipeline.arrRef spec13 9) = outs m 28 main_v272_2 c := Function.update_self _ _ _
  rw [h, outs_at13, Vin13_eq]
  exact Pipeline.withArrays_arr spec13 launch13.win.arr_inj c _ _ 9
/-- At region 13's exit every array of it holds what the pipeline leaves. -/
theorem hF_13 (c : Dev nD) : ∀ w : Fin cfg13.W,
    (dat13 (fun c b => Vin13 m c b) c).arrAt w cfg13.N = Vout13 m c (Pipeline.arrRef spec13 w)
  | 0 => hF_in13 m c 0 rfl (by decide)
  | 1 => hF_in13 m c 1 rfl (by decide)
  | 2 => hF_in13 m c 2 rfl (by decide)
  | 3 => hF_in13 m c 3 rfl (by decide)
  | 4 => hF_in13 m c 4 rfl (by decide)
  | 5 => hF_in13 m c 5 rfl (by decide)
  | 6 => hF_in13 m c 6 rfl (by decide)
  | 7 => (Vout_13_7 m c).symm
  | 8 => (Vout_13_8 m c).symm
  | 9 => (Vout_13_9 m c).symm
  | ⟨_ + 10, h⟩ => absurd h (Nat.not_lt.2 (Nat.le_add_left _ _))
/-- At region 13's exit every buffer that is no array of it holds what it held at entry. -/
theorem hrest_13 (c : Dev nD) : ∀ b, b ∉ Finset.univ.image (Pipeline.arrRef spec13) → Vout13 m c b = Vin13 m c b :=
  fun b hb => GenP.V28_of m (outs m) c b fun h => hb <| by
    simp only [List.mem_cons, List.mem_nil_iff, or_false] at h
    rcases h with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩

/-! ### Region 14 -/

/-- An input array of region 14 is never written back into, and the update at the output arrays misses it. -/
theorem hF_in14 (c : Dev nD) (w : Fin cfg14.W) (hin : (cfg14.win w).isOut = false)
    (hr : Pipeline.arrRef spec14 w ∉ ([main_v283_0, main_v283_1] : List (Ref sig .tc))) :
    (dat14 (fun c b => Vin14 m c b) c).arrAt w cfg14.N = Vout14 m c (Pipeline.arrRef spec14 w) :=
  ((dat14 (fun c b => Vin14 m c b) c).arrAt_in w hin _).trans
    ((A_eq14 (fun c b => Vin14 m c b) c w).trans (GenP.V30_of m (outs m) c _ hr).symm)
/-- Output window 6 of region 14: its array `main_v283_0` at the exit holds the write-backs folded over all grid points. -/
theorem Vout_14_6 (c : Dev nD) : Vout14 m c (Pipeline.arrRef spec14 6) = (dat14 (fun c b => Vin14 m c b) c).arrAt 6 cfg14.N := by
  have h : Vout14 m c (Pipeline.arrRef spec14 6) = outs m 30 main_v283_0 c := upd2_fst (by decide)
  rw [h, outs_at14, Vin14_eq]
  exact Pipeline.withArrays_arr spec14 launch14.win.arr_inj c _ _ 6
/-- Output window 7 of region 14: its array `main_v283_1` at the exit holds the write-backs folded over all grid points. -/
theorem Vout_14_7 (c : Dev nD) : Vout14 m c (Pipeline.arrRef spec14 7) = (dat14 (fun c b => Vin14 m c b) c).arrAt 7 cfg14.N := by
  have h : Vout14 m c (Pipeline.arrRef spec14 7) = outs m 30 main_v283_1 c := Function.update_self _ _ _
  rw [h, outs_at14, Vin14_eq]
  exact Pipeline.withArrays_arr spec14 launch14.win.arr_inj c _ _ 7
/-- At region 14's exit every array of it holds what the pipeline leaves. -/
theorem hF_14 (c : Dev nD) : ∀ w : Fin cfg14.W,
    (dat14 (fun c b => Vin14 m c b) c).arrAt w cfg14.N = Vout14 m c (Pipeline.arrRef spec14 w)
  | 0 => hF_in14 m c 0 rfl (by decide)
  | 1 => hF_in14 m c 1 rfl (by decide)
  | 2 => hF_in14 m c 2 rfl (by decide)
  | 3 => hF_in14 m c 3 rfl (by decide)
  | 4 => hF_in14 m c 4 rfl (by decide)
  | 5 => hF_in14 m c 5 rfl (by decide)
  | 6 => (Vout_14_6 m c).symm
  | 7 => (Vout_14_7 m c).symm
  | ⟨_ + 8, h⟩ => absurd h (Nat.not_lt.2 (Nat.le_add_left _ _))
/-- At region 14's exit every buffer that is no array of it holds what it held at entry. -/
theorem hrest_14 (c : Dev nD) : ∀ b, b ∉ Finset.univ.image (Pipeline.arrRef spec14) → Vout14 m c b = Vin14 m c b :=
  fun b hb => GenP.V30_of m (outs m) c b fun h => hb <| by
    simp only [List.mem_cons, List.mem_nil_iff, or_false] at h
    rcases h with rfl | rfl
    · exact Finset.mem_image.mpr ⟨6, Finset.mem_univ _, rfl⟩
    · exact Finset.mem_image.mpr ⟨7, Finset.mem_univ _, rfl⟩

/-! ## The proof data family and what rides beside the buffers -/

/-- Every pipeline's proof data, each at its region's entry contents: a literal match, so that the family at a numeral
    is that region's data by unfolding. -/
def pdats : (p : Fin 15) → (c : Dev nD) → Dat τ (Elt F) Unit ℕ (Pipeline.UD sig nD τ) ℕ (cfgs p) c
  | ⟨0, _⟩ => fun c => dat0 (fun c b => Vin0 m c b) c
  | ⟨1, _⟩ => fun c => dat1 (fun c b => Vin1 m c b) c
  | ⟨2, _⟩ => fun c => dat2 (fun c b => Vin2 m c b) c
  | ⟨3, _⟩ => fun c => dat3 (fun c b => Vin3 m c b) c
  | ⟨4, _⟩ => fun c => dat4 (fun c b => Vin4 m c b) c
  | ⟨5, _⟩ => fun c => dat5 (fun c b => Vin5 m c b) c
  | ⟨6, _⟩ => fun c => dat6 (fun c b => Vin6 m c b) c
  | ⟨7, _⟩ => fun c => dat7 (fun c b => Vin7 m c b) c
  | ⟨8, _⟩ => fun c => dat8 (fun c b => Vin8 m c b) c
  | ⟨9, _⟩ => fun c => dat9 (fun c b => Vin9 m c b) c
  | ⟨10, _⟩ => fun c => dat10 (fun c b => Vin10 m c b) c
  | ⟨11, _⟩ => fun c => dat11 (fun c b => Vin11 m c b) c
  | ⟨12, _⟩ => fun c => dat12 (fun c b => Vin12 m c b) c
  | ⟨13, _⟩ => fun c => dat13 (fun c b => Vin13 m c b) c
  | ⟨14, _⟩ => fun c => dat14 (fun c b => Vin14 m c b) c
  | ⟨_ + 15, h⟩ => absurd h (Nat.not_lt.2 (Nat.le_add_left _ _))

/-- No variant is assigned. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's invariant
    takes it in and gives it back) and the core owing nothing. -/
abbrev R (c : Dev nD) : sProp 𝕄 := iprop((∃ r, prngReg c r) ∗ ∃ W, owes (c : Thread nD τ) (0 : CellTallies nD τ sig Unit) W)

/-- The pipeline indices of the fifteen regions, by name. -/
abbrev pix0 : Fin 15 := 0
abbrev pix1 : Fin 15 := 1
abbrev pix2 : Fin 15 := 2
abbrev pix3 : Fin 15 := 3
abbrev pix4 : Fin 15 := 4
abbrev pix5 : Fin 15 := 5
abbrev pix6 : Fin 15 := 6
abbrev pix7 : Fin 15 := 7
abbrev pix8 : Fin 15 := 8
abbrev pix9 : Fin 15 := 9
abbrev pix10 : Fin 15 := 10
abbrev pix11 : Fin 15 := 11
abbrev pix12 : Fin 15 := 12
abbrev pix13 : Fin 15 := 13
abbrev pix14 : Fin 15 := 14

end Cert.KernelIdeal.Hand

end
-- ==== Proof.KI.Seg0.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin0` and left at `Vout0`. -/
def reg0 : Pipeline.RegionSeg (pcfgs (F := F)) GenP.adm (pdats m) () defs₀ 𝒱₀ L lv pix0 where
  win := launch0.win.to₀
  block_pos := launch0.block_pos
  stage_whole := launch0.stage_whole
  K := PEmpty
  osem k := k.elim
  ho := Pipeline.OwnSemFacts.none _
  hbody c := (body_obligation0 (fun c b => Vin0 m c b) c).loose
  hwaits := Pipeline.hwaits_of_owed_zero _ _ _ _ L lv pix0 fun _ _ => rfl
  pre c := iprop(StableHlo.held (c : Thread nD τ) (Pipeline.ucRefs τ sig) (Vin0 m c) ∗ R c)
  post c := iprop(StableHlo.held (c : Thread nD τ) (Pipeline.ucRefs τ sig) (Vout0 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (fun b => Vin0 m c b)
  hentry c := by
    rw [Pipeline.ownSems0_none]
    have hsplit := Pipeline.arrays_of_unscopedBufs (p := pix0) (pcfgs (F := F)) GenP.adm (pdats m) launch0.win launch0.arr_whole c
      ((pdats m pix0 c).share_full fun _ => rfl) (fun b => Vin0 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m pix0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := pix0) (pcfgs (F := F)) GenP.adm (Ix := Unit) (Name := ℕ) (U := Pipeline.UD sig nD τ) (Lvl := ℕ)
      launch0.win launch0.arr_whole c (pdats m) ((pdats m pix0 c).share_full fun _ => rfl)
      (fun b => Vin0 m c b) (fun b => Vout0 m c b) ((pdats m pix0 c).arrAt · cfg0.N) (hF_0 m c) (hrest_0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin1` and left at `Vout1`. -/
def reg1 : Pipeline.RegionSeg (pcfgs (F := F)) GenP.adm (pdats m) () defs₀ 𝒱₀ L lv pix1 where
  win := launch1.win.to₀
  block_pos := launch1.block_pos
  stage_whole := launch1.stage_whole
  K := PEmpty
  osem k := k.elim
  ho := Pipeline.OwnSemFacts.none _
  hbody c := (body_obligation1 (fun c b => Vin1 m c b) c).loose
  hwaits := Pipeline.hwaits_of_owed_zero _ _ _ _ L lv pix1 fun _ _ => rfl
  pre c := iprop(StableHlo.held (c : Thread nD τ) (Pipeline.ucRefs τ sig) (Vin1 m c) ∗ R c)
  post c := iprop(StableHlo.held (c : Thread nD τ) (Pipeline.ucRefs τ sig) (Vout1 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (fun b => Vin1 m c b)
  hentry c := by
    rw [Pipeline.ownSems0_none]
    have hsplit := Pipeline.arrays_of_unscopedBufs (p := pix1) (pcfgs (F := F)) GenP.adm (pdats m) launch1.win launch1.arr_whole c
      ((pdats m pix1 c).share_full fun _ => rfl) (fun b => Vin1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m pix1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := pix1) (pcfgs (F := F)) GenP.adm (Ix := Unit) (Name := ℕ) (U := Pipeline.UD sig nD τ) (Lvl := ℕ)
      launch1.win launch1.arr_whole c (pdats m) ((pdats m pix1 c).share_full fun _ => rfl)
      (fun b => Vin1 m c b) (fun b => Vout1 m c b) ((pdats m pix1 c).arrAt · cfg1.N) (hF_1 m c) (hrest_1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin2` and left at `Vout2`. -/
def reg2 : Pipeline.RegionSeg (pcfgs (F := F)) GenP.adm (pdats m) () defs₀ 𝒱₀ L lv pix2 where
  win := launch2.win.to₀
  block_pos := launch2.block_pos
  stage_whole := launch2.stage_whole
  K := PEmpty
  osem k := k.elim
  ho := Pipeline.OwnSemFacts.none _
  hbody c := (body_obligation2 (fun c b => Vin2 m c b) c).loose
  hwaits := Pipeline.hwaits_of_owed_zero _ _ _ _ L lv pix2 fun _ _ => rfl
  pre c := iprop(StableHlo.held (c : Thread nD τ) (Pipeline.ucRefs τ sig) (Vin2 m c) ∗ R c)
  post c := iprop(StableHlo.held (c : Thread nD τ) (Pipeline.ucRefs τ sig) (Vout2 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (fun b => Vin2 m c b)
  hentry c := by
    rw [Pipeline.ownSems0_none]
    have hsplit := Pipeline.arrays_of_unscopedBufs (p := pix2) (pcfgs (F := F)) GenP.adm (pdats m) launch2.win launch2.arr_whole c
      ((pdats m pix2 c).share_full fun _ => rfl) (fun b => Vin2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m pix2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := pix2) (pcfgs (F := F)) GenP.adm (Ix := Unit) (Name := ℕ) (U := Pipeline.UD sig nD τ) (Lvl := ℕ)
      launch2.win launch2.arr_whole c (pdats m) ((pdats m pix2 c).share_full fun _ => rfl)
      (fun b => Vin2 m c b) (fun b => Vout2 m c b) ((pdats m pix2 c).arrAt · cfg2.N) (hF_2 m c) (hrest_2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin3` and left at `Vout3`. -/
def reg3 : Pipeline.RegionSeg (pcfgs (F := F)) GenP.adm (pdats m) () defs₀ 𝒱₀ L lv pix3 where
  win := launch3.win.to₀
  block_pos := launch3.block_pos
  stage_whole := launch3.stage_whole
  K := PEmpty
  osem k := k.elim
  ho := Pipeline.OwnSemFacts.none _
  hbody c := (body_obligation3 (fun c b => Vin3 m c b) c).loose
  hwaits := Pipeline.hwaits_of_owed_zero _ _ _ _ L lv pix3 fun _ _ => rfl
  pre c := iprop(StableHlo.held (c : Thread nD τ) (Pipeline.ucRefs τ sig) (Vin3 m c) ∗ R c)
  post c := iprop(StableHlo.held (c : Thread nD τ) (Pipeline.ucRefs τ sig) (Vout3 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (fun b => Vin3 m c b)
  hentry c := by
    rw [Pipeline.ownSems0_none]
    have hsplit := Pipeline.arrays_of_unscopedBufs (p := pix3) (pcfgs (F := F)) GenP.adm (pdats m) launch3.win launch3.arr_whole c
      ((pdats m pix3 c).share_full fun _ => rfl) (fun b => Vin3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m pix3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := pix3) (pcfgs (F := F)) GenP.adm (Ix := Unit) (Name := ℕ) (U := Pipeline.UD sig nD τ) (Lvl := ℕ)
      launch3.win launch3.arr_whole c (pdats m) ((pdats m pix3 c).share_full fun _ => rfl)
      (fun b => Vin3 m c b) (fun b => Vout3 m c b) ((pdats m pix3 c).arrAt · cfg3.N) (hF_3 m c) (hrest_3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin4` and left at `Vout4`. -/
def reg4 : Pipeline.RegionSeg (pcfgs (F := F)) GenP.adm (pdats m) () defs₀ 𝒱₀ L lv pix4 where
  win := launch4.win.to₀
  block_pos := launch4.block_pos
  stage_whole := launch4.stage_whole
  K := PEmpty
  osem k := k.elim
  ho := Pipeline.OwnSemFacts.none _
  hbody c := (body_obligation4 (fun c b => Vin4 m c b) c).loose
  hwaits := Pipeline.hwaits_of_owed_zero _ _ _ _ L lv pix4 fun _ _ => rfl
  pre c := iprop(StableHlo.held (c : Thread nD τ) (Pipeline.ucRefs τ sig) (Vin4 m c) ∗ R c)
  post c := iprop(StableHlo.held (c : Thread nD τ) (Pipeline.ucRefs τ sig) (Vout4 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (fun b => Vin4 m c b)
  hentry c := by
    rw [Pipeline.ownSems0_none]
    have hsplit := Pipeline.arrays_of_unscopedBufs (p := pix4) (pcfgs (F := F)) GenP.adm (pdats m) launch4.win launch4.arr_whole c
      ((pdats m pix4 c).share_full fun _ => rfl) (fun b => Vin4 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m pix4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := pix4) (pcfgs (F := F)) GenP.adm (Ix := Unit) (Name := ℕ) (U := Pipeline.UD sig nD τ) (Lvl := ℕ)
      launch4.win launch4.arr_whole c (pdats m) ((pdats m pix4 c).share_full fun _ => rfl)
      (fun b => Vin4 m c b) (fun b => Vout4 m c b) ((pdats m pix4 c).arrAt · cfg4.N) (hF_4 m c) (hrest_4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin5` and left at `Vout5`. -/
def reg5 : Pipeline.RegionSeg (pcfgs (F := F)) GenP.adm (pdats m) () defs₀ 𝒱₀ L lv pix5 where
  win := launch5.win.to₀
  block_pos := launch5.block_pos
  stage_whole := launch5.stage_whole
  K := PEmpty
  osem k := k.elim
  ho := Pipeline.OwnSemFacts.none _
  hbody c := (body_obligation5 (fun c b => Vin5 m c b) c).loose
  hwaits := Pipeline.hwaits_of_owed_zero _ _ _ _ L lv pix5 fun _ _ => rfl
  pre c := iprop(StableHlo.held (c : Thread nD τ) (Pipeline.ucRefs τ sig) (Vin5 m c) ∗ R c)
  post c := iprop(StableHlo.held (c : Thread nD τ) (Pipeline.ucRefs τ sig) (Vout5 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (fun b => Vin5 m c b)
  hentry c := by
    rw [Pipeline.ownSems0_none]
    have hsplit := Pipeline.arrays_of_unscopedBufs (p := pix5) (pcfgs (F := F)) GenP.adm (pdats m) launch5.win launch5.arr_whole c
      ((pdats m pix5 c).share_full fun _ => rfl) (fun b => Vin5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m pix5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := pix5) (pcfgs (F := F)) GenP.adm (Ix := Unit) (Name := ℕ) (U := Pipeline.UD sig nD τ) (Lvl := ℕ)
      launch5.win launch5.arr_whole c (pdats m) ((pdats m pix5 c).share_full fun _ => rfl)
      (fun b => Vin5 m c b) (fun b => Vout5 m c b) ((pdats m pix5 c).arrAt · cfg5.N) (hF_5 m c) (hrest_5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin6` and left at `Vout6`. -/
def reg6 : Pipeline.RegionSeg (pcfgs (F := F)) GenP.adm (pdats m) () defs₀ 𝒱₀ L lv pix6 where
  win := launch6.win.to₀
  block_pos := launch6.block_pos
  stage_whole := launch6.stage_whole
  K := PEmpty
  osem k := k.elim
  ho := Pipeline.OwnSemFacts.none _
  hbody c := (body_obligation6 (fun c b => Vin6 m c b) c).loose
  hwaits := Pipeline.hwaits_of_owed_zero _ _ _ _ L lv pix6 fun _ _ => rfl
  pre c := iprop(StableHlo.held (c : Thread nD τ) (Pipeline.ucRefs τ sig) (Vin6 m c) ∗ R c)
  post c := iprop(StableHlo.held (c : Thread nD τ) (Pipeline.ucRefs τ sig) (Vout6 m c) ∗ R c)
  X c := iprop(∃ r, prngReg c r)
  Y c := iprop(∃ r, prngReg c r)
  Z c := Pipeline.unscopedRest (Ix := Unit) (Name := ℕ) (U := Pipeline.UD sig nD τ) (Lvl := ℕ) spec6 c (fun b => Vin6 m c b)
  hentry c := by
    rw [Pipeline.ownSems0_none]
    have hsplit := Pipeline.arrays_of_unscopedBufs (p := pix6) (pcfgs (F := F)) GenP.adm (pdats m) launch6.win launch6.arr_whole c
      ((pdats m pix6 c).share_full fun _ => rfl) (fun b => Vin6 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m pix6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := pix6) (pcfgs (F := F)) GenP.adm (Ix := Unit) (Name := ℕ) (U := Pipeline.UD sig nD τ) (Lvl := ℕ)
      launch6.win launch6.arr_whole c (pdats m) ((pdats m pix6 c).share_full fun _ => rfl)
      (fun b => Vin6 m c b) (fun b => Vout6 m c b) ((pdats m pix6 c).arrAt · cfg6.N) (hF_6 m c) (hrest_6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin7` and left at `Vout7`. -/
def reg7 : Pipeline.RegionSeg (pcfgs (F := F)) GenP.adm (pdats m) () defs₀ 𝒱₀ L lv pix7 where
  win := launch7.win.to₀
  block_pos := launch7.block_pos
  stage_whole := launch7.stage_whole
  K := PEmpty
  osem k := k.elim
  ho := Pipeline.OwnSemFacts.none _
  hbody c := (body_obligation7 (fun c b => Vin7 m c b) c).loose
  hwaits := Pipeline.hwaits_of_owed_zero _ _ _ _ L lv pix7 fun _ _ => rfl
  pre c := iprop(StableHlo.held (c : Thread nD τ) (Pipeline.ucRefs τ sig) (Vin7 m c) ∗ R c)
  post c := iprop(StableHlo.held (c : Thread nD τ) (Pipeline.ucRefs τ sig) (Vout7 m c) ∗ R c)
  X c := iprop(∃ r, prngReg c r)
  Y c := iprop(∃ r, prngReg c r)
  Z c := Pipeline.unscopedRest (Ix := Unit) (Name := ℕ) (U := Pipeline.UD sig nD τ) (Lvl := ℕ) spec7 c (fun b => Vin7 m c b)
  hentry c := by
    rw [Pipeline.ownSems0_none]
    have hsplit := Pipeline.arrays_of_unscopedBufs (p := pix7) (pcfgs (F := F)) GenP.adm (pdats m) launch7.win launch7.arr_whole c
      ((pdats m pix7 c).share_full fun _ => rfl) (fun b => Vin7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m pix7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := pix7) (pcfgs (F := F)) GenP.adm (Ix := Unit) (Name := ℕ) (U := Pipeline.UD sig nD τ) (Lvl := ℕ)
      launch7.win launch7.arr_whole c (pdats m) ((pdats m pix7 c).share_full fun _ => rfl)
      (fun b => Vin7 m c b) (fun b => Vout7 m c b) ((pdats m pix7 c).arrAt · cfg7.N) (hF_7 m c) (hrest_7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin8` and left at `Vout8`. -/
def reg8 : Pipeline.RegionSeg (pcfgs (F := F)) GenP.adm (pdats m) () defs₀ 𝒱₀ L lv pix8 where
  win := launch8.win.to₀
  block_pos := launch8.block_pos
  stage_whole := launch8.stage_whole
  K := PEmpty
  osem k := k.elim
  ho := Pipeline.OwnSemFacts.none _
  hbody c := (body_obligation8 (fun c b => Vin8 m c b) c).loose
  hwaits := Pipeline.hwaits_of_owed_zero _ _ _ _ L lv pix8 fun _ _ => rfl
  pre c := iprop(StableHlo.held (c : Thread nD τ) (Pipeline.ucRefs τ sig) (Vin8 m c) ∗ R c)
  post c := iprop(StableHlo.held (c : Thread nD τ) (Pipeline.ucRefs τ sig) (Vout8 m c) ∗ R c)
  X c := iprop(∃ r, prngReg c r)
  Y c := iprop(∃ r, prngReg c r)
  Z c := Pipeline.unscopedRest (Ix := Unit) (Name := ℕ) (U := Pipeline.UD sig nD τ) (Lvl := ℕ) spec8 c (fun b => Vin8 m c b)
  hentry c := by
    rw [Pipeline.ownSems0_none]
    have hsplit := Pipeline.arrays_of_unscopedBufs (p := pix8) (pcfgs (F := F)) GenP.adm (pdats m) launch8.win launch8.arr_whole c
      ((pdats m pix8 c).share_full fun _ => rfl) (fun b => Vin8 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m pix8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := pix8) (pcfgs (F := F)) GenP.adm (Ix := Unit) (Name := ℕ) (U := Pipeline.UD sig nD τ) (Lvl := ℕ)
      launch8.win launch8.arr_whole c (pdats m) ((pdats m pix8 c).share_full fun _ => rfl)
      (fun b => Vin8 m c b) (fun b => Vout8 m c b) ((pdats m pix8 c).arrAt · cfg8.N) (hF_8 m c) (hrest_8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg9.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin9` and left at `Vout9`. -/
def reg9 : Pipeline.RegionSeg (pcfgs (F := F)) GenP.adm (pdats m) () defs₀ 𝒱₀ L lv pix9 where
  win := launch9.win.to₀
  block_pos := launch9.block_pos
  stage_whole := launch9.stage_whole
  K := PEmpty
  osem k := k.elim
  ho := Pipeline.OwnSemFacts.none _
  hbody c := (body_obligation9 (fun c b => Vin9 m c b) c).loose
  hwaits := Pipeline.hwaits_of_owed_zero _ _ _ _ L lv pix9 fun _ _ => rfl
  pre c := iprop(StableHlo.held (c : Thread nD τ) (Pipeline.ucRefs τ sig) (Vin9 m c) ∗ R c)
  post c := iprop(StableHlo.held (c : Thread nD τ) (Pipeline.ucRefs τ sig) (Vout9 m c) ∗ R c)
  X c := iprop(∃ r, prngReg c r)
  Y c := iprop(∃ r, prngReg c r)
  Z c := Pipeline.unscopedRest (Ix := Unit) (Name := ℕ) (U := Pipeline.UD sig nD τ) (Lvl := ℕ) spec9 c (fun b => Vin9 m c b)
  hentry c := by
    rw [Pipeline.ownSems0_none]
    have hsplit := Pipeline.arrays_of_unscopedBufs (p := pix9) (pcfgs (F := F)) GenP.adm (pdats m) launch9.win launch9.arr_whole c
      ((pdats m pix9 c).share_full fun _ => rfl) (fun b => Vin9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m pix9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := pix9) (pcfgs (F := F)) GenP.adm (Ix := Unit) (Name := ℕ) (U := Pipeline.UD sig nD τ) (Lvl := ℕ)
      launch9.win launch9.arr_whole c (pdats m) ((pdats m pix9 c).share_full fun _ => rfl)
      (fun b => Vin9 m c b) (fun b => Vout9 m c b) ((pdats m pix9 c).arrAt · cfg9.N) (hF_9 m c) (hrest_9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg10.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin10` and left at `Vout10`. -/
def reg10 : Pipeline.RegionSeg (pcfgs (F := F)) GenP.adm (pdats m) () defs₀ 𝒱₀ L lv pix10 where
  win := launch10.win.to₀
  block_pos := launch10.block_pos
  stage_whole := launch10.stage_whole
  K := PEmpty
  osem k := k.elim
  ho := Pipeline.OwnSemFacts.none _
  hbody c := (body_obligation10 (fun c b => Vin10 m c b) c).loose
  hwaits := Pipeline.hwaits_of_owed_zero _ _ _ _ L lv pix10 fun _ _ => rfl
  pre c := iprop(StableHlo.held (c : Thread nD τ) (Pipeline.ucRefs τ sig) (Vin10 m c) ∗ R c)
  post c := iprop(StableHlo.held (c : Thread nD τ) (Pipeline.ucRefs τ sig) (Vout10 m c) ∗ R c)
  X c := iprop(∃ r, prngReg c r)
  Y c := iprop(∃ r, prngReg c r)
  Z c := Pipeline.unscopedRest (Ix := Unit) (Name := ℕ) (U := Pipeline.UD sig nD τ) (Lvl := ℕ) spec10 c (fun b => Vin10 m c b)
  hentry c := by
    rw [Pipeline.ownSems0_none]
    have hsplit := Pipeline.arrays_of_unscopedBufs (p := pix10) (pcfgs (F := F)) GenP.adm (pdats m) launch10.win launch10.arr_whole c
      ((pdats m pix10 c).share_full fun _ => rfl) (fun b => Vin10 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m pix10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := pix10) (pcfgs (F := F)) GenP.adm (Ix := Unit) (Name := ℕ) (U := Pipeline.UD sig nD τ) (Lvl := ℕ)
      launch10.win launch10.arr_whole c (pdats m) ((pdats m pix10 c).share_full fun _ => rfl)
      (fun b => Vin10 m c b) (fun b => Vout10 m c b) ((pdats m pix10 c).arrAt · cfg10.N) (hF_10 m c) (hrest_10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg11.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin11` and left at `Vout11`. -/
def reg11 : Pipeline.RegionSeg (pcfgs (F := F)) GenP.adm (pdats m) () defs₀ 𝒱₀ L lv pix11 where
  win := launch11.win.to₀
  block_pos := launch11.block_pos
  stage_whole := launch11.stage_whole
  K := PEmpty
  osem k := k.elim
  ho := Pipeline.OwnSemFacts.none _
  hbody c := (body_obligation11 (fun c b => Vin11 m c b) c).loose
  hwaits := Pipeline.hwaits_of_owed_zero _ _ _ _ L lv pix11 fun _ _ => rfl
  pre c := iprop(StableHlo.held (c : Thread nD τ) (Pipeline.ucRefs τ sig) (Vin11 m c) ∗ R c)
  post c := iprop(StableHlo.held (c : Thread nD τ) (Pipeline.ucRefs τ sig) (Vout11 m c) ∗ R c)
  X c := iprop(∃ r, prngReg c r)
  Y c := iprop(∃ r, prngReg c r)
  Z c := Pipeline.unscopedRest (Ix := Unit) (Name := ℕ) (U := Pipeline.UD sig nD τ) (Lvl := ℕ) spec11 c (fun b => Vin11 m c b)
  hentry c := by
    rw [Pipeline.ownSems0_none]
    have hsplit := Pipeline.arrays_of_unscopedBufs (p := pix11) (pcfgs (F := F)) GenP.adm (pdats m) launch11.win launch11.arr_whole c
      ((pdats m pix11 c).share_full fun _ => rfl) (fun b => Vin11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m pix11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := pix11) (pcfgs (F := F)) GenP.adm (Ix := Unit) (Name := ℕ) (U := Pipeline.UD sig nD τ) (Lvl := ℕ)
      launch11.win launch11.arr_whole c (pdats m) ((pdats m pix11 c).share_full fun _ => rfl)
      (fun b => Vin11 m c b) (fun b => Vout11 m c b) ((pdats m pix11 c).arrAt · cfg11.N) (hF_11 m c) (hrest_11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg12.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin12` and left at `Vout12`. -/
def reg12 : Pipeline.RegionSeg (pcfgs (F := F)) GenP.adm (pdats m) () defs₀ 𝒱₀ L lv pix12 where
  win := launch12.win.to₀
  block_pos := launch12.block_pos
  stage_whole := launch12.stage_whole
  K := PEmpty
  osem k := k.elim
  ho := Pipeline.OwnSemFacts.none _
  hbody c := (body_obligation12 (fun c b => Vin12 m c b) c).loose
  hwaits := Pipeline.hwaits_of_owed_zero _ _ _ _ L lv pix12 fun _ _ => rfl
  pre c := iprop(StableHlo.held (c : Thread nD τ) (Pipeline.ucRefs τ sig) (Vin12 m c) ∗ R c)
  post c := iprop(StableHlo.held (c : Thread nD τ) (Pipeline.ucRefs τ sig) (Vout12 m c) ∗ R c)
  X c := iprop(∃ r, prngReg c r)
  Y c := iprop(∃ r, prngReg c r)
  Z c := Pipeline.unscopedRest (Ix := Unit) (Name := ℕ) (U := Pipeline.UD sig nD τ) (Lvl := ℕ) spec12 c (fun b => Vin12 m c b)
  hentry c := by
    rw [Pipeline.ownSems0_none]
    have hsplit := Pipeline.arrays_of_unscopedBufs (p := pix12) (pcfgs (F := F)) GenP.adm (pdats m) launch12.win launch12.arr_whole c
      ((pdats m pix12 c).share_full fun _ => rfl) (fun b => Vin12 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m pix12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := pix12) (pcfgs (F := F)) GenP.adm (Ix := Unit) (Name := ℕ) (U := Pipeline.UD sig nD τ) (Lvl := ℕ)
      launch12.win launch12.arr_whole c (pdats m) ((pdats m pix12 c).share_full fun _ => rfl)
      (fun b => Vin12 m c b) (fun b => Vout12 m c b) ((pdats m pix12 c).arrAt · cfg12.N) (hF_12 m c) (hrest_12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg13.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin13` and left at `Vout13`. -/
def reg13 : Pipeline.RegionSeg (pcfgs (F := F)) GenP.adm (pdats m) () defs₀ 𝒱₀ L lv pix13 where
  win := launch13.win.to₀
  block_pos := launch13.block_pos
  stage_whole := launch13.stage_whole
  K := PEmpty
  osem k := k.elim
  ho := Pipeline.OwnSemFacts.none _
  hbody c := (body_obligation13 (fun c b => Vin13 m c b) c).loose
  hwaits := Pipeline.hwaits_of_owed_zero _ _ _ _ L lv pix13 fun _ _ => rfl
  pre c := iprop(StableHlo.held (c : Thread nD τ) (Pipeline.ucRefs τ sig) (Vin13 m c) ∗ R c)
  post c := iprop(StableHlo.held (c : Thread nD τ) (Pipeline.ucRefs τ sig) (Vout13 m c) ∗ R c)
  X c := iprop(∃ r, prngReg c r)
  Y c := iprop(∃ r, prngReg c r)
  Z c := Pipeline.unscopedRest (Ix := Unit) (Name := ℕ) (U := Pipeline.UD sig nD τ) (Lvl := ℕ) spec13 c (fun b => Vin13 m c b)
  hentry c := by
    rw [Pipeline.ownSems0_none]
    have hsplit := Pipeline.arrays_of_unscopedBufs (p := pix13) (pcfgs (F := F)) GenP.adm (pdats m) launch13.win launch13.arr_whole c
      ((pdats m pix13 c).share_full fun _ => rfl) (fun b => Vin13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m pix13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := pix13) (pcfgs (F := F)) GenP.adm (Ix := Unit) (Name := ℕ) (U := Pipeline.UD sig nD τ) (Lvl := ℕ)
      launch13.win launch13.arr_whole c (pdats m) ((pdats m pix13 c).share_full fun _ => rfl)
      (fun b => Vin13 m c b) (fun b => Vout13 m c b) ((pdats m pix13 c).arrAt · cfg13.N) (hF_13 m c) (hrest_13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg14.lean ====
import proofs.«422260_j36421322670663_2_alg».proof.Proof.KI.Chain

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! # One kernel region as a segment of @main

The kernel region over the thread state "every unscoped buffer at the valuation of this point of @main, the generator
register at some state, nothing owed". At entry the region's arrays are split out of the unscoped buffers, at exit they
are put back at the exit valuation, which has each array at what the pipeline leaves and every other buffer as entered;
the generator register goes into the pipeline's invariant and comes back; the kernel has no semaphore of its own. -/

-- the library's lemmas are stated over the pinned configuration, which is the printed one only after unfolding
set_option backward.isDefEq.respectTransparency.types false in
/-- The region as a segment, entered from the unscoped buffers at `Vin14` and left at `Vout14`. -/
def reg14 : Pipeline.RegionSeg (pcfgs (F := F)) GenP.adm (pdats m) () defs₀ 𝒱₀ L lv pix14 where
  win := launch14.win.to₀
  block_pos := launch14.block_pos
  stage_whole := launch14.stage_whole
  K := PEmpty
  osem k := k.elim
  ho := Pipeline.OwnSemFacts.none _
  hbody c := (body_obligation14 (fun c b => Vin14 m c b) c).loose
  hwaits := Pipeline.hwaits_of_owed_zero _ _ _ _ L lv pix14 fun _ _ => rfl
  pre c := iprop(StableHlo.held (c : Thread nD τ) (Pipeline.ucRefs τ sig) (Vin14 m c) ∗ R c)
  post c := iprop(StableHlo.held (c : Thread nD τ) (Pipeline.ucRefs τ sig) (Vout14 m c) ∗ R c)
  X c := iprop(∃ r, prngReg c r)
  Y c := iprop(∃ r, prngReg c r)
  Z c := Pipeline.unscopedRest (Ix := Unit) (Name := ℕ) (U := Pipeline.UD sig nD τ) (Lvl := ℕ) spec14 c (fun b => Vin14 m c b)
  hentry c := by
    rw [Pipeline.ownSems0_none]
    have hsplit := Pipeline.arrays_of_unscopedBufs (p := pix14) (pcfgs (F := F)) GenP.adm (pdats m) launch14.win launch14.arr_whole c
      ((pdats m pix14 c).share_full fun _ => rfl) (fun b => Vin14 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m pix14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := pix14) (pcfgs (F := F)) GenP.adm (Ix := Unit) (Name := ℕ) (U := Pipeline.UD sig nD τ) (Lvl := ℕ)
      launch14.win launch14.arr_whole c (pdats m) ((pdats m pix14 c).share_full fun _ => rfl)
      (fun b => Vin14 m c b) (fun b => Vout14 m c b) ((pdats m pix14 c).arrAt · cfg14.N) (hF_14 m c) (hrest_14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
import proofs.«422260_j36421322670663_2_alg».proof.Proof.KI.Seg0
import proofs.«422260_j36421322670663_2_alg».proof.Proof.KI.Seg1
import proofs.«422260_j36421322670663_2_alg».proof.Proof.KI.Seg2
import proofs.«422260_j36421322670663_2_alg».proof.Proof.KI.Seg3
import proofs.«422260_j36421322670663_2_alg».proof.Proof.KI.Seg4
import proofs.«422260_j36421322670663_2_alg».proof.Proof.KI.Seg5
import proofs.«422260_j36421322670663_2_alg».proof.Proof.KI.Seg6
import proofs.«422260_j36421322670663_2_alg».proof.Proof.KI.Seg7
import proofs.«422260_j36421322670663_2_alg».proof.Proof.KI.Seg8
import proofs.«422260_j36421322670663_2_alg».proof.Proof.KI.Seg9
import proofs.«422260_j36421322670663_2_alg».proof.Proof.KI.Seg10
import proofs.«422260_j36421322670663_2_alg».proof.Proof.KI.Seg11
import proofs.«422260_j36421322670663_2_alg».proof.Proof.KI.Seg12
import proofs.«422260_j36421322670663_2_alg».proof.Proof.KI.Seg13
import proofs.«422260_j36421322670663_2_alg».proof.Proof.KI.Seg14

-- decided inequalities among the program's 597 references recurse past the default depth
set_option maxRecDepth 2900

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-! # The launch: @main's thirty-three items run from the launch memory

Every host stretch is a segment over the unscoped buffers at the valuation before it, every kernel region the segment
record of its module; consecutive thread states agree by name. At the launch each core holds its unscoped buffers at the
launch memory, its generator register and owes nothing; at the end the last valuation is read off the final memory. -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What rides beside the buffers ends owing nothing. -/
theorem R_owes (c : Dev nD) : (R c : sProp 𝕄) ⊢ iprop(∃ W, owes (c : Thread nD τ) (0 : CellTallies nD τ sig Unit) W) := by
  iintro ⟨-, HO⟩; iexact HO

-- the launch theorem's implicit arguments are found by unifying its conclusion with this one, which takes unfolding
-- plain definitions in a metavariable's type
set_option backward.isDefEq.respectTransparency.types false in
/-- THE RUN. Every weakly fair execution of @main from memory `m` with zero counters terminates, and any property of the
    final memory that follows from "every unscoped buffer of every core holds the last valuation" holds of it. -/
theorem run_post (ρ : Dev nD → PrngReg) {Q : PUnit × MemSt nD τ sig (Elt F) → Prop}
    (hQ : ∀ s : MemSt nD τ sig (Elt F),
      (∀ c : Dev nD, ∀ b ∈ Pipeline.ucRefs τ sig, s.mem (((c : Thread nD τ)).1, b) = GenP.V33 m (outs m) c b) → Q (⟨⟩, s)) :
    θ_run defs (onTc (τ := τ) (main (F := F))) ⟨m, fun _ => 0, ρ⟩ Q := by
  refine Pipeline.θ_run_regions_kit_dev (pcfgs (F := F)) GenP.adm (pdats m) () cellOf_inj embL defs₀ 𝒱₀ L lv m ρ main
    (GenP.segs m (outs m) 𝒱₀ L lv (fun _ => R) () (pdats m) (reg0 m) (reg1 m) (reg2 m) (reg3 m) (reg4 m) (reg5 m) (reg6 m) (reg7 m) (reg8 m) (reg9 m) (reg10 m) (reg11 m) (reg12 m) (reg13 m) (reg14 m))
    (fun c Q => by
      rewrite [main_chain c, Seg.run_eq_chain,
        show (GenP.segs m (outs m) 𝒱₀ L lv (fun _ => R) () (pdats m) (reg0 m) (reg1 m) (reg2 m) (reg3 m) (reg4 m) (reg5 m) (reg6 m) (reg7 m) (reg8 m) (reg9 m) (reg10 m) (reg11 m) (reg12 m) (reg13 m) (reg14 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          StableHlo.seq hostOps15_1,
          StableHlo.seq hostOps15_2 ] from rfl]
      with_reducible exact .rfl)
    (fun c => by simp only [GenP.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := ?_)
    (T₀ := fun c => iprop(StableHlo.held (c : Thread nD τ) (Pipeline.ucRefs τ sig) (GenP.V0 m c) ∗ R c))
    (Tₙ := fun c => StableHlo.held (c : Thread nD τ) (Pipeline.ucRefs τ sig) (GenP.V33 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (R_owes c)⟩)
    (hinit := ?_)
    (QY := fun c s => ∀ b ∈ Pipeline.ucRefs τ sig, s.mem (((c : Thread nD τ)).1, b) = GenP.V33 m (outs m) c b)
    (hfin := fun c s' => ?_) (hQ := hQ)
  · -- the launch element is the pipelines' beside a unit; no core needs a ghost resource of its own
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · -- the first thread state, core by core: the buffers at the launch memory, the register, nothing owed
    refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · -- the end: the last valuation read off the final memory
    iintro ⟨Hh, HSI⟩
    unfold StableHlo.held
    imodintro
    iapply (pointsTo_read_all (Pipeline.ucRefs τ sig) (fun b => (((c : Thread nD τ)).1, b)) (GenP.V33 m (outs m) c) s')
    isplitl [Hh] <;> iassumption

/-- Every unscoped buffer of every core ends at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = GenP.V33 m (outs m) c b) :=
  run_post m ρ fun _ h => h

/-- THE FRAME: every argument array ends holding its launch contents (no item of @main writes an argument). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_post m ρ fun s h c =>
    ⟨(h c _ (mem_uc main_arg0 (by decide))).trans (GenP.V33_main_arg0 m (outs m) c),
      (h c _ (mem_uc main_arg1 (by decide))).trans (GenP.V33_main_arg1 m (outs m) c),
      (h c _ (mem_uc main_arg2 (by decide))).trans (GenP.V33_main_arg2 m (outs m) c),
      (h c _ (mem_uc main_arg3 (by decide))).trans (GenP.V33_main_arg3 m (outs m) c),
      (h c _ (mem_uc main_arg4 (by decide))).trans (GenP.V33_main_arg4 m (outs m) c),
      (h c _ (mem_uc main_arg5 (by decide))).trans (GenP.V33_main_arg5 m (outs m) c),
      (h c _ (mem_uc main_arg6 (by decide))).trans (GenP.V33_main_arg6 m (outs m) c),
      (h c _ (mem_uc main_arg7 (by decide))).trans (GenP.V33_main_arg7 m (outs m) c),
      (h c _ (mem_uc main_arg8 (by decide))).trans (GenP.V33_main_arg8 m (outs m) c),
      (h c _ (mem_uc main_arg9 (by decide))).trans (GenP.V33_main_arg9 m (outs m) c),
      (h c _ (mem_uc main_arg10 (by decide))).trans (GenP.V33_main_arg10 m (outs m) c),
      (h c _ (mem_uc main_arg11 (by decide))).trans (GenP.V33_main_arg11 m (outs m) c),
      (h c _ (mem_uc main_arg12 (by decide))).trans (GenP.V33_main_arg12 m (outs m) c),
      (h c _ (mem_uc main_arg13 (by decide))).trans (GenP.V33_main_arg13 m (outs m) c),
      (h c _ (mem_uc main_arg14 (by decide))).trans (GenP.V33_main_arg14 m (outs m) c)⟩

/-- The result array ends at the last valuation's contents, beside the frame. -/
theorem result_at (ρ : Dev nD → PrngReg) :
    θ_run defs (onTc (τ := τ) (main (F := F))) ⟨m, fun _ => 0, ρ⟩ (fun r => ∀ c : Dev nD,
      r.2.mem ((c.tc : Thread nD τ).loc main_v294) = GenP.V33 m (outs m) c main_v294
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_post m ρ fun s h c =>
    ⟨h c _ (mem_uc main_v294 (by decide)),
      (h c _ (mem_uc main_arg0 (by decide))).trans (GenP.V33_main_arg0 m (outs m) c),
      (h c _ (mem_uc main_arg1 (by decide))).trans (GenP.V33_main_arg1 m (outs m) c),
      (h c _ (mem_uc main_arg2 (by decide))).trans (GenP.V33_main_arg2 m (outs m) c),
      (h c _ (mem_uc main_arg3 (by decide))).trans (GenP.V33_main_arg3 m (outs m) c),
      (h c _ (mem_uc main_arg4 (by decide))).trans (GenP.V33_main_arg4 m (outs m) c),
      (h c _ (mem_uc main_arg5 (by decide))).trans (GenP.V33_main_arg5 m (outs m) c),
      (h c _ (mem_uc main_arg6 (by decide))).trans (GenP.V33_main_arg6 m (outs m) c),
      (h c _ (mem_uc main_arg7 (by decide))).trans (GenP.V33_main_arg7 m (outs m) c),
      (h c _ (mem_uc main_arg8 (by decide))).trans (GenP.V33_main_arg8 m (outs m) c),
      (h c _ (mem_uc main_arg9 (by decide))).trans (GenP.V33_main_arg9 m (outs m) c),
      (h c _ (mem_uc main_arg10 (by decide))).trans (GenP.V33_main_arg10 m (outs m) c),
      (h c _ (mem_uc main_arg11 (by decide))).trans (GenP.V33_main_arg11 m (outs m) c),
      (h c _ (mem_uc main_arg12 (by decide))).trans (GenP.V33_main_arg12 m (outs m) c),
      (h c _ (mem_uc main_arg13 (by decide))).trans (GenP.V33_main_arg13 m (outs m) c),
      (h c _ (mem_uc main_arg14 (by decide))).trans (GenP.V33_main_arg14 m (outs m) c)⟩

end Cert.KernelIdeal.Hand

end
-- ==== Proof.Ref.Base.lean ====
/- Which buffers the reference's operations can write: @main's fifteen arguments are the first fifteen buffers of the
   signature, and every operation writes one buffer, a later one. So an argument is written by no operation. -/
import proofs.«422260_j36421322670663_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {Val : EltTy → Type}

/-- Whether a TensorCore reference is among the first fifteen buffers: @main's arguments. -/
def isArg (r : Ref sig .tc) : Bool := decide (r.idx.val < 15)

/-- An argument is not a buffer that is not one. -/
theorem ne_of_isArg {r y : Ref sig .tc} (hy : isArg y = false) (h : isArg r = true) : r ≠ y :=
  fun e => by rw [e, hy] at h; exact Bool.noConfusion h

section
variable {x a b c y : Ref sig .tc}

/-- An operation whose result buffer is no argument writes no argument: one lemma per arity. -/
theorem notw_nullary {v : y.ty.Contents Val} {hy} (h : isArg y = false) :
    ∀ r : Ref sig .tc, isArg r = true → (r : DevRef τ sig) ∉ (nullary (τ := τ) y v hy).writes := fun r hr => by
  rw [nullary_writes, Finset.mem_singleton]; exact devRef_ne_of_ne (ne_of_isArg h hr)
theorem notw_unary {f : x.ty.Contents Val → y.ty.Contents Val} {hx hy} (h : isArg y = false) :
    ∀ r : Ref sig .tc, isArg r = true → (r : DevRef τ sig) ∉ (unary (τ := τ) x y f hx hy).writes := fun r hr => by
  rw [unary_writes, Finset.mem_singleton]; exact devRef_ne_of_ne (ne_of_isArg h hr)
theorem notw_binary {f : a.ty.Contents Val → b.ty.Contents Val → y.ty.Contents Val} {ha hb hy} (h : isArg y = false) :
    ∀ r : Ref sig .tc, isArg r = true → (r : DevRef τ sig) ∉ (binary (τ := τ) a b y f ha hb hy).writes := fun r hr => by
  rw [binary_writes, Finset.mem_singleton]; exact devRef_ne_of_ne (ne_of_isArg h hr)
theorem notw_ternary {f : c.ty.Contents Val → a.ty.Contents Val → b.ty.Contents Val → y.ty.Contents Val} {hc ha hb hy}
    (h : isArg y = false) :
    ∀ r : Ref sig .tc, isArg r = true → (r : DevRef τ sig) ∉ (ternary (τ := τ) c a b y f hc ha hb hy).writes := fun r hr => by
  rw [ternary_writes, Finset.mem_singleton]; exact devRef_ne_of_ne (ne_of_isArg h hr)
theorem notw_reshape {he hn hx hy} (h : isArg y = false) :
    ∀ r : Ref sig .tc, isArg r = true → (r : DevRef τ sig) ∉ (reshape (τ := τ) (Val := Val) x y he hn hx hy).writes := fun r hr => by
  rw [reshape_writes, Finset.mem_singleton]; exact devRef_ne_of_ne (ne_of_isArg h hr)
theorem notw_nary {n : Nat} {xs : Fin n → Ref sig .tc} {f : ((k : Fin n) → (xs k).ty.Contents Val) → y.ty.Contents Val} {hxs hy}
    (h : isArg y = false) :
    ∀ r : Ref sig .tc, isArg r = true → (r : DevRef τ sig) ∉ (nary (τ := τ) xs y f hxs hy).writes := fun r hr => by
  rw [nary_writes, Finset.mem_singleton]; exact devRef_ne_of_ne (ne_of_isArg h hr)
end

/-- What the run asks of each operation, and what keeps the arguments: it touches TensorCore references only, it determines
    its results, and it writes no argument. -/
abbrev OpOk (op : HloOp τ sig Val) : Prop :=
  op.bufs ⊆ tcRefs τ sig ∧ op.fresh = ∅ ∧ ∀ r : Ref sig .tc, isArg r = true → (r : DevRef τ sig) ∉ op.writes

end Cert.ReferenceIdeal.Hand

end
-- ==== Proof.Ref.Ops.lean ====
/- The reference's @main as ONE straight line of host operations: the prologue, the five layers and the epilogue in
   order. @main is printed in eight consecutive parts whose ends do not fall on layer ends; each part is the line of
   the stretches it covers (the called functions' bodies unfolded at their calls, sequencing re-associated: a
   computation), and the parts in order are the whole line, the two groupings of the same stretches differing only
   in how the concatenation is bracketed. -/
import proofs.«422260_j36421322670663_2_alg».proof.Proof.Ref.Ops0
import proofs.«422260_j36421322670663_2_alg».proof.Proof.Ref.Ops1
import proofs.«422260_j36421322670663_2_alg».proof.Proof.Ref.Ops2
import proofs.«422260_j36421322670663_2_alg».proof.Proof.Ref.Ops3
import proofs.«422260_j36421322670663_2_alg».proof.Proof.Ref.Ops4

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-- @main's operations in program order. -/
abbrev ops : List (HloOp τ sig (Elt F)) := opsPre ++ opsL0 ++ opsL1 ++ opsL2 ++ opsL3 ++ opsL4 ++ opsTail

/-- The stretches @main's part 0 covers. -/
def win0 : List (HloOp τ sig (Elt F)) := opsPre ++ (opsL0a ++ (opsL0b))

/-- The stretches @main's part 1 covers. -/
def win1 : List (HloOp τ sig (Elt F)) := opsL0c ++ (opsL0d ++ (opsL1a))

/-- The stretches @main's part 2 covers. -/
def win2 : List (HloOp τ sig (Elt F)) := opsL1b ++ (opsL1c)

/-- The stretches @main's part 3 covers. -/
def win3 : List (HloOp τ sig (Elt F)) := opsL1d ++ (opsL2a ++ (opsL2b))

/-- The stretches @main's part 4 covers. -/
def win4 : List (HloOp τ sig (Elt F)) := opsL2c ++ (opsL2d ++ (opsL3a))

/-- The stretches @main's part 5 covers. -/
def win5 : List (HloOp τ sig (Elt F)) := opsL3b ++ (opsL3c)

/-- The stretches @main's part 6 covers. -/
def win6 : List (HloOp τ sig (Elt F)) := opsL3d ++ (opsL4a ++ (opsL4b))

/-- The stretches @main's part 7 covers. -/
def win7 : List (HloOp τ sig (Elt F)) := opsL4c ++ (opsL4d ++ (opsTail))

set_option maxRecDepth 4096 in
/-- Part 0 of @main is the line of its stretches: both sides are one chain of steps, by computation. -/
theorem main_part0_eq (c : Dev nD) : main_part0 (F := F) c = seq win0 := rfl

set_option maxRecDepth 4096 in
/-- Part 1 of @main is the line of its stretches: both sides are one chain of steps, by computation. -/
theorem main_part1_eq (c : Dev nD) : main_part1 (F := F) c = seq win1 := rfl

set_option maxRecDepth 4096 in
/-- Part 2 of @main is the line of its stretches: both sides are one chain of steps, by computation. -/
theorem main_part2_eq (c : Dev nD) : main_part2 (F := F) c = seq win2 := rfl

set_option maxRecDepth 4096 in
/-- Part 3 of @main is the line of its stretches: both sides are one chain of steps, by computation. -/
theorem main_part3_eq (c : Dev nD) : main_part3 (F := F) c = seq win3 := rfl

set_option maxRecDepth 4096 in
/-- Part 4 of @main is the line of its stretches: both sides are one chain of steps, by computation. -/
theorem main_part4_eq (c : Dev nD) : main_part4 (F := F) c = seq win4 := rfl

set_option maxRecDepth 4096 in
/-- Part 5 of @main is the line of its stretches: both sides are one chain of steps, by computation. -/
theorem main_part5_eq (c : Dev nD) : main_part5 (F := F) c = seq win5 := rfl

set_option maxRecDepth 4096 in
/-- Part 6 of @main is the line of its stretches: both sides are one chain of steps, by computation. -/
theorem main_part6_eq (c : Dev nD) : main_part6 (F := F) c = seq win6 := rfl

set_option maxRecDepth 4096 in
/-- Part 7 of @main is the line of its stretches: both sides are one chain of steps, by computation. -/
theorem main_part7_eq (c : Dev nD) : main_part7 (F := F) c = seq win7 := rfl

/-- The whole line, bracketed part by part. -/
theorem ops_eq_wins : (ops : List (HloOp τ sig (Elt F))) = win0 ++ (win1 ++ (win2 ++ (win3 ++ (win4 ++ (win5 ++ (win6 ++ (win7))))))) := by
  simp only [ops, opsL0, opsL1, opsL2, opsL3, opsL4, win0, win1, win2, win3, win4, win5, win6, win7, List.append_assoc]

/-- @main is the straight line of its operations. -/
theorem main_eq (c : Dev nD) : main (F := F) c = seq ops := by
  rw [ops_eq_wins]
  simp only [seq_append]
  rw [← main_part0_eq c, ← main_part1_eq c, ← main_part2_eq c, ← main_part3_eq c, ← main_part4_eq c, ← main_part5_eq c, ← main_part6_eq c, ← main_part7_eq c]
  rfl

/-- Every operation of the line touches TensorCore references only, determines its results and writes no argument. -/
theorem ops_ok : (ops : List (HloOp τ sig (Elt F))).Forall OpOk := by
  simp only [ops, opsL0, opsL1, opsL2, opsL3, opsL4, List.forall_append]
  exact ⟨⟨⟨⟨⟨⟨opsPre_ok, ⟨⟨⟨opsL0a_ok, opsL0b_ok⟩, opsL0c_ok⟩, opsL0d_ok⟩⟩, ⟨⟨⟨opsL1a_ok, opsL1b_ok⟩, opsL1c_ok⟩, opsL1d_ok⟩⟩, ⟨⟨⟨opsL2a_ok, opsL2b_ok⟩, opsL2c_ok⟩, opsL2d_ok⟩⟩, ⟨⟨⟨opsL3a_ok, opsL3b_ok⟩, opsL3c_ok⟩, opsL3d_ok⟩⟩, ⟨⟨⟨opsL4a_ok, opsL4b_ok⟩, opsL4c_ok⟩, opsL4d_ok⟩⟩, opsTail_ok⟩

theorem ops_sub : (ops : List (HloOp τ sig (Elt F))).Forall fun op => op.bufs ⊆ tcRefs τ sig :=
  ops_ok.imp fun _ h => h.1

theorem ops_fresh : ∀ op ∈ (ops : List (HloOp τ sig (Elt F))), op.fresh = ∅ :=
  fun op h => (List.forall_iff_forall_mem.1 ops_ok op h).2.1

end Cert.ReferenceIdeal.Hand

end
-- ==== Proof.Ref.Run.lean ====
/- The reference's run: @main is a straight line of host operations on a signature that scopes nothing, so from any memory
   with zero counters every weakly fair execution terminates and each TensorCore buffer ends at the fold of the
   operations' results over the launch contents. No operation writes an argument, so the fifteen arguments end as
   launched; the result buffer ends at the fold read at the result reference. -/
import proofs.«422260_j36421322670663_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
theorem scopedRefs_eq : (Finset.univ.filter fun b : Ref sig .tc => b.isScoped) = ∅ := by decide

theorem scopedSems_eq : (Finset.univ.filter fun sm : SemLoc sig => sm.isScoped .tc) = ∅ := by decide

/-- On every device, for any float values, from any memory with zero counters: every weakly fair execution of @main
    terminates, and every TensorCore buffer ends at the operations' fold over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The line leaves an argument's buffer as it was: no operation writes it. -/
theorem arg_keep (V : Valuation τ sig (Elt F)) {r : Ref sig .tc} (h : isArg r = true) :
    after ops V (r : DevRef τ sig) = V (r : DevRef τ sig) :=
  after_of_forall_not_mem ops V fun op hop => (List.forall_iff_forall_mem.1 ops_ok op hop).2.2 r h

/-- The frame: @main runs to its end and the fifteen argument arrays end as launched. -/
theorem frame_ref (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_arg0).trans (arg_keep _ rfl),
      (h c main_arg1).trans (arg_keep _ rfl),
      (h c main_arg2).trans (arg_keep _ rfl),
      (h c main_arg3).trans (arg_keep _ rfl),
      (h c main_arg4).trans (arg_keep _ rfl),
      (h c main_arg5).trans (arg_keep _ rfl),
      (h c main_arg6).trans (arg_keep _ rfl),
      (h c main_arg7).trans (arg_keep _ rfl),
      (h c main_arg8).trans (arg_keep _ rfl),
      (h c main_arg9).trans (arg_keep _ rfl),
      (h c main_arg10).trans (arg_keep _ rfl),
      (h c main_arg11).trans (arg_keep _ rfl),
      (h c main_arg12).trans (arg_keep _ rfl),
      (h c main_arg13).trans (arg_keep _ rfl),
      (h c main_arg14).trans (arg_keep _ rfl)⟩)
    (run m ρ)

/-- The result: @main runs to its end with the result buffer at the fold read at the result reference, and the
    arguments as launched. -/
theorem result_ref (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v403) = after ops (launchContents m c) (main_v403 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨h c main_v403,
      (h c main_arg0).trans (arg_keep _ rfl),
      (h c main_arg1).trans (arg_keep _ rfl),
      (h c main_arg2).trans (arg_keep _ rfl),
      (h c main_arg3).trans (arg_keep _ rfl),
      (h c main_arg4).trans (arg_keep _ rfl),
      (h c main_arg5).trans (arg_keep _ rfl),
      (h c main_arg6).trans (arg_keep _ rfl),
      (h c main_arg7).trans (arg_keep _ rfl),
      (h c main_arg8).trans (arg_keep _ rfl),
      (h c main_arg9).trans (arg_keep _ rfl),
      (h c main_arg10).trans (arg_keep _ rfl),
      (h c main_arg11).trans (arg_keep _ rfl),
      (h c main_arg12).trans (arg_keep _ rfl),
      (h c main_arg13).trans (arg_keep _ rfl),
      (h c main_arg14).trans (arg_keep _ rfl)⟩)
    (run m ρ)

end Cert.ReferenceIdeal.Hand

end
-- ==== Proof.Spec.lean ====
/-
  The mathematics both programs compute, over curried arrays of extended reals: one layer of the network is
  a linear map of the node features plus their neighbourhood sums, a batch normalisation over the node axis,
  a rectifier, a second linear map, a second normalisation and rectifier, and a sum of the resulting rows by
  graph. The kernel takes the normalisation's moments from per-block sums and sums of squares
  (mean of squares minus squared mean, cut at zero); the reference takes the centred second moment. The
  kernel pools with a 0/1 matrix product block by block; the reference sums the rows whose graph number is g.
-/
import Idealize.ShloMosaic.PureOps.Ideal
import Idealize.ShloMosaic.Lib.ValueIdx

noncomputable section

namespace Cert.Spec

open Idealize.ShloMosaic

/-- A matrix and a vector of extended reals, by coordinates. -/
abbrev Mat (a b : ℕ) := Fin a → Fin b → EReal
abbrev Vc (a : ℕ) := Fin a → EReal

/-- An array of a literal rank-2 (rank-1) shape read by coordinates. -/
def cur2 {a b : ℕ} (x : (⟨2, ![a, b]⟩ : Shape).Idx → EReal) : Mat a b := fun r c => x (ValueIdx.ix2 r c)
def cur1 {a : ℕ} (x : (⟨1, ![a]⟩ : Shape).Idx → EReal) : Vc a := fun r => x (ValueIdx.ix1 r)
/-- Slice i of a stack of matrices (of vectors). -/
def sl3 {n a b : ℕ} (x : (⟨3, ![n, a, b]⟩ : Shape).Idx → EReal) (i : Fin n) : Mat a b := fun r c => x (ValueIdx.ix3 i r c)
def sl2 {n a : ℕ} (x : (⟨2, ![n, a]⟩ : Shape).Idx → EReal) (i : Fin n) : Vc a := fun r => x (ValueIdx.ix2 i r)

/-- The number of nodes, 50000, and the variance offset, as the programs' float words. -/
def cN : EReal := Ideal.ofBits .f32 0x47435000#32
def eps : EReal := Ideal.ofBits .f32 0x3727C5AC#32

/-- Row y of block t (ten blocks of 5000 rows). -/
def brow (t : Fin 10) (y : Fin 5000) : Fin 50000 := ⟨t.val * 5000 + y.val, by omega⟩

/-- u · W + b. -/
def lin {n k o : ℕ} (u : Mat n k) (W : Mat k o) (b : Vc o) : Mat n o := fun r c => (∑ j : Fin k, u r j * W j c) + b c

/-- Normalise column-wise with the given moments, scale, shift, cut at zero. -/
def bnrelu (z : Mat 50000 128) (mean var g be : Vc 128) : Mat 50000 128 :=
  fun r c => max ((z r c - mean c) * Ideal.rsqrt (var c + eps) * g c + be c) 0

/-! ## The kernel's moments: from per-block column sums -/
def ksum (z : Mat 50000 128) (t : Fin 10) : Vc 128 := fun c => ∑ y : Fin 5000, z (brow t y) c
def ksq (z : Mat 50000 128) (t : Fin 10) : Vc 128 := fun c => ∑ y : Fin 5000, z (brow t y) c * z (brow t y) c
def kmean (z : Mat 50000 128) : Vc 128 := fun c => Ideal.div (∑ t : Fin 10, ksum z t c) cN
def kmsq (z : Mat 50000 128) : Vc 128 := fun c => Ideal.div (∑ t : Fin 10, ksq z t c) cN
def kvar (z : Mat 50000 128) : Vc 128 := fun c => max (kmsq z c - kmean z c * kmean z c) 0

/-! ## The reference's moments: the mean, and the centred second moment -/
def rmean (z : Mat 50000 128) : Vc 128 := fun c => Ideal.div (∑ r : Fin 50000, z r c) cN
def rvar (z : Mat 50000 128) : Vc 128 :=
  fun c => Ideal.div (∑ r : Fin 50000, (z r c - rmean z c) * (z r c - rmean z c)) cN

/-- One layer's weights. -/
structure LayerP where
  W1 : Mat 128 128
  b1 : Vc 128
  g1 : Vc 128
  be1 : Vc 128
  W2 : Mat 128 128
  b2 : Vc 128
  g2 : Vc 128
  be2 : Vc 128

/-- The first linear map of h plus its neighbourhood sums. -/
def z1 (h agg : Mat 50000 128) (p : LayerP) : Mat 50000 128 := lin (fun r k => h r k + agg r k) p.W1 p.b1

/-- The kernel's layer: the node features it hands on. -/
def ka (h agg : Mat 50000 128) (p : LayerP) : Mat 50000 128 := bnrelu (z1 h agg p) (kmean (z1 h agg p)) (kvar (z1 h agg p)) p.g1 p.be1
def kz2 (h agg : Mat 50000 128) (p : LayerP) : Mat 50000 128 := lin (ka h agg p) p.W2 p.b2
def kh (h agg : Mat 50000 128) (p : LayerP) : Mat 50000 128 := bnrelu (kz2 h agg p) (kmean (kz2 h agg p)) (kvar (kz2 h agg p)) p.g2 p.be2

/-- The reference's layer. -/
def ra (h agg : Mat 50000 128) (p : LayerP) : Mat 50000 128 := bnrelu (z1 h agg p) (rmean (z1 h agg p)) (rvar (z1 h agg p)) p.g1 p.be1
def rz2 (h agg : Mat 50000 128) (p : LayerP) : Mat 50000 128 := lin (ra h agg p) p.W2 p.b2
def rh (h agg : Mat 50000 128) (p : LayerP) : Mat 50000 128 := bnrelu (rz2 h agg p) (rmean (rz2 h agg p)) (rvar (rz2 h agg p)) p.g2 p.be2

/-! ## Pooling by graph number (bw: the graph number words, read signed) -/
def poolK (bw : Fin 50000 → BitVec 32) (h : Mat 50000 128) : Mat 256 128 :=
  fun g c => ∑ t : Fin 10, ∑ y : Fin 5000, (if (bw (brow t y)).toInt = (g.val : ℤ) then (1 : EReal) else 0) * h (brow t y) c
def poolR (bw : Fin 50000 → BitVec 32) (h : Mat 50000 128) : Mat 256 128 :=
  fun g c => ∑ r ∈ Finset.univ.filter (fun r : Fin 50000 => (bw r).toInt = (g.val : ℤ)), h r c

/-- Every entry is a real number. -/
def Fin2 {a b : ℕ} (x : Mat a b) : Prop := ∀ r c, ∃ v : ℝ, x r c = (v : EReal)
def Fin1 {a : ℕ} (x : Vc a) : Prop := ∀ r, ∃ v : ℝ, x r = (v : EReal)
def LayerP.Fin (p : LayerP) : Prop := Fin2 p.W1 ∧ Fin1 p.b1 ∧ Fin1 p.g1 ∧ Fin1 p.be1 ∧ Fin2 p.W2 ∧ Fin1 p.b2 ∧ Fin1 p.g2 ∧ Fin1 p.be2

end Cert.Spec

end
-- ==== Proof.AggSpec.lean ====
/-
  The neighbourhood sum both programs take on the host, as one function of the node features and the two
  index columns: row e of the gathered array is row src e of the features (a negative index counted from the
  end, then clamped by the gather), and row e is added into row dst e of a zero array (an index outside the
  array adds nothing). Both programs print exactly these operations; stated once here so that the two sides
  meet in one term.
-/
import Idealize.ShloMosaic.PureOps.Ideal
import Idealize.ShloMosaic.PureOps.Contract
import Idealize.ShloMosaic.PureOps.ShapeOps

noncomputable section

namespace Cert.Spec

open Idealize.ShloMosaic

abbrev S0 : Shape := ⟨0, ![]⟩
abbrev SE : Shape := ⟨1, ![800000]⟩
abbrev SE1 : Shape := ⟨2, ![800000, 1]⟩
abbrev SEH : Shape := ⟨2, ![800000, 128]⟩
abbrev SNH : Shape := ⟨2, ![50000, 128]⟩

/-- The source column: a negative node number has 50000 added, then the column is laid out as 800000 × 1. -/
def srcCol (w0 : S0.BroadcastsInDim SE (![] : Fin 0 → Fin SE.rank)) (w1 : SE.BroadcastsInDim SE1 (![0] : Fin 1 → Fin SE1.rank))
    (src : SE.Idx → BitVec 32) : SE1.Idx → BitVec 32 :=
  broadcastInDim SE1 ![0] w1
    (select (cmpi .slt src (broadcastInDim SE ![] w0 (constantI S0 32 0#32)))
      (addi src (broadcastInDim SE ![] w0 (constantI S0 32 50000#32))) src)

/-- The destination column laid out as 800000 × 1. -/
def dstCol (w1 : SE.BroadcastsInDim SE1 (![0] : Fin 1 → Fin SE1.rank)) (dst : SE.Idx → BitVec 32) : SE1.Idx → BitVec 32 :=
  broadcastInDim SE1 ![0] w1 dst

/-- The neighbourhood sums: the gathered rows added into a zero array at the destination rows. -/
def aggA (gd : GatherDims SNH SE1 SEH) (sd : ScatterDims SNH SE1 SEH) (w2 : S0.BroadcastsInDim SNH (![] : Fin 0 → Fin SNH.rank))
    (h : SNH.Idx → EReal) (srcC dstC : SE1.Idx → BitVec 32) : SNH.Idx → EReal :=
  Host.scatterAdd (F := Ideal) (φ := .f32) sd (broadcastInDim SNH ![] w2 (constant (F := Ideal) S0 .f32 0x00000000#32)) dstC
    (Host.gather gd h srcC)

end Cert.Spec

end
-- ==== Proof.TailSpec.lean ====
/-
  The readout both programs take on the host after the last layer, as one function of the five pooled matrices
  and the four readout parameters: the pooled matrices set side by side (256 × 640), a linear map to 128
  columns plus its bias, the rectifier, and a second linear map to 10 columns plus its bias. Both programs print
  exactly these operations; stated once here so that the two sides meet in one term.
-/
import Idealize.ShloMosaic.PureOps.Ideal
import Idealize.ShloMosaic.PureOps.Contract
import Idealize.ShloMosaic.PureOps.ShapeOps

noncomputable section

namespace Cert.Spec

open Idealize.ShloMosaic

abbrev ST0 : Shape := ⟨0, ![]⟩
abbrev SP : Shape := ⟨2, ![256, 128]⟩
abbrev SC : Shape := ⟨2, ![256, 640]⟩
abbrev SW1 : Shape := ⟨2, ![640, 128]⟩
abbrev SB1 : Shape := ⟨1, ![128]⟩
abbrev SB1r : Shape := ⟨2, ![1, 128]⟩
abbrev SW2 : Shape := ⟨2, ![128, 10]⟩
abbrev SB2 : Shape := ⟨1, ![10]⟩
abbrev SB2r : Shape := ⟨2, ![1, 10]⟩
abbrev SO : Shape := ⟨2, ![256, 10]⟩

/-- The hidden readout: the pooled matrices side by side times the first readout matrix, plus the first readout
    bias on every row. -/
def tailHid (cw : Shape.Concatenates [SP, SP, SP, SP, SP] SC 1) (d1 : DotDims SC SW1 SP)
    (w128 : SB1.BroadcastsInDim SB1r (![1] : Fin 1 → Fin SB1r.rank))
    (wP : SB1r.BroadcastsInDim SP (![0, 1] : Fin 2 → Fin SP.rank))
    (P0 P1 P2 P3 P4 : SP.Idx → EReal) (A9 : SW1.Idx → EReal) (A10 : SB1.Idx → EReal) : SP.Idx → EReal :=
  addf (φ := .f32)
    (Host.dotGeneral (F := Ideal) (φ₁ := .f32) (φ₂ := .f32) d1 none
      (concatenate SC 1 [⟨SP, P0⟩, ⟨SP, P1⟩, ⟨SP, P2⟩, ⟨SP, P3⟩, ⟨SP, P4⟩] cw) A9)
    (broadcastInDim SP ![0, 1] wP (broadcastInDim SB1r ![1] w128 A10))

/-- The rectifier: the maximum with a zero array. -/
def tailRelu (w0 : ST0.BroadcastsInDim SP (![] : Fin 0 → Fin SP.rank)) (x : SP.Idx → EReal) : SP.Idx → EReal :=
  maximumf (φ := .f32) x (broadcastInDim SP ![] w0 (constant (F := Ideal) ST0 .f32 0x00000000#32))

/-- The output: the rectified hidden readout times the second readout matrix, plus the second readout bias on
    every row. -/
def tailOut (d2 : DotDims SP SW2 SO) (w10 : SB2.BroadcastsInDim SB2r (![1] : Fin 1 → Fin SB2r.rank))
    (wO : SB2r.BroadcastsInDim SO (![0, 1] : Fin 2 → Fin SO.rank))
    (x : SP.Idx → EReal) (A11 : SW2.Idx → EReal) (A12 : SB2.Idx → EReal) : SO.Idx → EReal :=
  addf (φ := .f32) (Host.dotGeneral (F := Ideal) (φ₁ := .f32) (φ₂ := .f32) d2 none x A11)
    (broadcastInDim SO ![0, 1] wO (broadcastInDim SB2r ![1] w10 A12))

/-- The whole readout. -/
def tailA (cw : Shape.Concatenates [SP, SP, SP, SP, SP] SC 1) (d1 : DotDims SC SW1 SP) (d2 : DotDims SP SW2 SO)
    (w128 : SB1.BroadcastsInDim SB1r (![1] : Fin 1 → Fin SB1r.rank))
    (wP : SB1r.BroadcastsInDim SP (![0, 1] : Fin 2 → Fin SP.rank))
    (w0 : ST0.BroadcastsInDim SP (![] : Fin 0 → Fin SP.rank))
    (w10 : SB2.BroadcastsInDim SB2r (![1] : Fin 1 → Fin SB2r.rank))
    (wO : SB2r.BroadcastsInDim SO (![0, 1] : Fin 2 → Fin SO.rank))
    (P0 P1 P2 P3 P4 : SP.Idx → EReal) (A9 : SW1.Idx → EReal) (A10 : SB1.Idx → EReal)
    (A11 : SW2.Idx → EReal) (A12 : SB2.Idx → EReal) : SO.Idx → EReal :=
  tailOut d2 w10 wO (tailRelu w0 (tailHid cw d1 w128 wP P0 P1 P2 P3 P4 A9 A10)) A11 A12

end Cert.Spec

end
-- ==== Proof.Math.Consts.lean ====
/-
  The two float words the programs spell, as the extended reals they denote: the node count 50000 and the
  variance offset, a positive real (about 1e-5). With them, division by the node count on real arguments.
-/
import Idealize.ShloMosaic.PureOps.Ideal
import proofs.«422260_j36421322670663_2_alg».proof.Proof.Spec

noncomputable section

namespace Cert.Spec

open Idealize.ShloMosaic

/-- The word 0x47435000 has sign 0, exponent field 142 and fraction field 4411392:
    (2^23 + 4411392) · 2^(142 − 127 − 23) = 12800000 / 256 = 50000. -/
theorem cN_eq : cN = ((50000 : ℝ) : EReal) := by
  simp [cN, Ideal.ofBits, Ideal.ieee, -EReal.coe_mul]; norm_num

/-- The word 0x3727C5AC has sign 0, exponent field 110 and fraction field 2606508:
    (2^23 + 2606508) · 2^(110 − 127 − 23) = 10995116 · 2^(−40), a positive real. -/
theorem eps_eq : eps = ((10995116 * (2 : ℝ) ^ (-40 : ℤ) : ℝ) : EReal) := by
  simp [eps, Ideal.ofBits, Ideal.ieee, -EReal.coe_mul]

theorem eps_pos : ∃ e : ℝ, 0 < e ∧ eps = (e : EReal) :=
  ⟨10995116 * (2 : ℝ) ^ (-40 : ℤ), by positivity, eps_eq⟩

/-- Dividing a real by the node count. -/
theorem div_cN (x : ℝ) : Ideal.div (x : EReal) cN = ((x / 50000 : ℝ) : EReal) := by
  rw [cN_eq, Ideal.div_coe (by norm_num : (50000 : ℝ) ≠ 0), ← EReal.coe_mul]
  congr 1
  ring

end Cert.Spec

end
-- ==== Proof.Math.Blocks.lean ====
/-
  The ten blocks of 5000 rows partition the 50000 rows: (t, y) ↦ 5000·t + y is a bijection of
  Fin 10 × Fin 5000 with Fin 50000 (quotient and remainder by 5000 invert it), so a sum taken block by block
  is the sum over all rows. Also: the coercion of the reals into the extended reals commutes with finite sums.
-/
import proofs.«422260_j36421322670663_2_alg».proof.Proof.Spec

noncomputable section

namespace Cert.Spec

open Idealize.ShloMosaic

/-- Block number and row within the block, against the row number. -/
def browEquiv : Fin 10 × Fin 5000 ≃ Fin 50000 where
  toFun p := brow p.1 p.2
  invFun r := (⟨r.val / 5000, by omega⟩, ⟨r.val % 5000, by omega⟩)
  left_inv := by
    rintro ⟨t, y⟩
    refine Prod.ext (Fin.ext ?_) (Fin.ext ?_)
    · show (t.val * 5000 + y.val) / 5000 = t.val
      omega
    · show (t.val * 5000 + y.val) % 5000 = y.val
      omega
  right_inv := by
    intro r
    refine Fin.ext ?_
    show r.val / 5000 * 5000 + r.val % 5000 = r.val
    omega

/-- A sum over the blocks of the sums over each block's rows is the sum over all rows. -/
theorem sum_brow {M : Type*} [AddCommMonoid M] (f : Fin 50000 → M) :
    ∑ t : Fin 10, ∑ y : Fin 5000, f (brow t y) = ∑ r : Fin 50000, f r := by
  rw [← Equiv.sum_comp browEquiv f, Fintype.sum_prod_type]
  rfl

/-- The coercion commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Spec

end
-- ==== Proof.Math.Moments.lean ====
/-
  The normalisation's moments of a real-valued array, taken the kernel's way and the reference's way.
  The means agree for every array: the block sums add up to the column sum. For a real-valued array the
  mean m is real, and the mean of the squares minus m² equals the mean of the squared deviations from m:
  Σ(v − m)² = Σv² − 2m·Σv + N·m² = Σv² − N·m², since Σv = N·m. That common value is nonnegative, so the
  kernel's cut at zero changes nothing.
-/
import proofs.«422260_j36421322670663_2_alg».proof.Proof.Math.Consts
import proofs.«422260_j36421322670663_2_alg».proof.Proof.Math.Blocks

noncomputable section

namespace Cert.Spec

open Idealize.ShloMosaic

/-- The kernel's mean is the reference's, for every array. -/
theorem kmean_eq (z : Mat 50000 128) : kmean z = rmean z := by
  funext c
  show Ideal.div (∑ t : Fin 10, ∑ y : Fin 5000, z (brow t y) c) cN = Ideal.div (∑ r : Fin 50000, z r c) cN
  rw [sum_brow (fun r => z r c)]

/-- The kernel's mean of squares is the mean of the squares over all rows. -/
theorem kmsq_eq (z : Mat 50000 128) (c : Fin 128) :
    kmsq z c = Ideal.div (∑ r : Fin 50000, z r c * z r c) cN := by
  show Ideal.div (∑ t : Fin 10, ∑ y : Fin 5000, z (brow t y) c * z (brow t y) c) cN = _
  rw [sum_brow (fun r => z r c * z r c)]

/-- The moments of a real-valued column, as reals. -/
theorem rmean_coe (v : Fin 50000 → Fin 128 → ℝ) (c : Fin 128) :
    rmean (fun r c => ((v r c : ℝ) : EReal)) c = (((∑ r : Fin 50000, v r c) / 50000 : ℝ) : EReal) := by
  show Ideal.div (∑ r : Fin 50000, ((v r c : ℝ) : EReal)) cN = _
  rw [coe_sum, div_cN]

theorem kmsq_coe (v : Fin 50000 → Fin 128 → ℝ) (c : Fin 128) :
    kmsq (fun r c => ((v r c : ℝ) : EReal)) c = (((∑ r : Fin 50000, v r c * v r c) / 50000 : ℝ) : EReal) := by
  rw [kmsq_eq]
  show Ideal.div (∑ r : Fin 50000, ((v r c : ℝ) : EReal) * ((v r c : ℝ) : EReal)) cN = _
  simp_rw [← EReal.coe_mul]
  rw [coe_sum, div_cN]

theorem rvar_coe (v : Fin 50000 → Fin 128 → ℝ) (c : Fin 128) :
    rvar (fun r c => ((v r c : ℝ) : EReal)) c =
      (((∑ r : Fin 50000, (v r c - (∑ r : Fin 50000, v r c) / 50000) * (v r c - (∑ r : Fin 50000, v r c) / 50000))
          / 50000 : ℝ) : EReal) := by
  show Ideal.div (∑ r : Fin 50000, (((v r c : ℝ) : EReal) - rmean (fun r c => ((v r c : ℝ) : EReal)) c)
      * (((v r c : ℝ) : EReal) - rmean (fun r c => ((v r c : ℝ) : EReal)) c)) cN = _
  rw [rmean_coe]
  simp_rw [← EReal.coe_sub, ← EReal.coe_mul]
  rw [coe_sum, div_cN]

/-- The sum of squared deviations from any m, expanded. -/
theorem sum_sq_dev (u : Fin 50000 → ℝ) (m : ℝ) :
    ∑ r : Fin 50000, (u r - m) * (u r - m)
      = (∑ r : Fin 50000, u r * u r) - 2 * m * (∑ r : Fin 50000, u r) + 50000 * (m * m) := by
  have hexp : ∀ r : Fin 50000, (u r - m) * (u r - m) = u r * u r - (2 * m) * u r + m * m := fun r => by ring
  simp_rw [hexp]
  rw [Finset.sum_add_distrib, Finset.sum_sub_distrib, ← Finset.mul_sum, Finset.sum_const, Finset.card_univ,
    Fintype.card_fin, nsmul_eq_mul]
  push_cast
  ring

/-- The variance identity over the reals, for N = 50000 summands: with m the mean, N·m is the sum. -/
theorem var_identity (u : Fin 50000 → ℝ) :
    (∑ r : Fin 50000, u r * u r) / 50000 - (∑ r : Fin 50000, u r) / 50000 * ((∑ r : Fin 50000, u r) / 50000)
      = (∑ r : Fin 50000, (u r - (∑ r : Fin 50000, u r) / 50000) * (u r - (∑ r : Fin 50000, u r) / 50000)) / 50000 := by
  rw [sum_sq_dev]
  ring

/-- The mean of squared deviations is nonnegative. -/
theorem var_nonneg (u : Fin 50000 → ℝ) (m : ℝ) : 0 ≤ (∑ r : Fin 50000, (u r - m) * (u r - m)) / 50000 :=
  div_nonneg (Finset.sum_nonneg (fun r _ => mul_self_nonneg _)) (by norm_num)

/-- The reference's variance of a real-valued array is a nonnegative real. -/
theorem rvar_real (z : Mat 50000 128) (hz : Fin2 z) (c : Fin 128) : ∃ w : ℝ, 0 ≤ w ∧ rvar z c = (w : EReal) := by
  choose v hv using hz
  obtain rfl : z = fun r c => ((v r c : ℝ) : EReal) := funext fun r => funext fun c => hv r c
  exact ⟨_, var_nonneg (fun r => v r c) _, rvar_coe v c⟩

theorem rvar_nonneg (z : Mat 50000 128) (hz : Fin2 z) (c : Fin 128) : 0 ≤ rvar z c := by
  obtain ⟨w, hw, e⟩ := rvar_real z hz c
  rw [e]
  exact_mod_cast hw

theorem rvar_fin (z : Mat 50000 128) (hz : Fin2 z) : Fin1 (rvar z) := fun c => by
  obtain ⟨w, _, e⟩ := rvar_real z hz c
  exact ⟨w, e⟩

theorem rmean_fin (z : Mat 50000 128) (hz : Fin2 z) : Fin1 (rmean z) := fun c => by
  choose v hv using hz
  obtain rfl : z = fun r c => ((v r c : ℝ) : EReal) := funext fun r => funext fun c => hv r c
  exact ⟨_, rmean_coe v c⟩

theorem kmean_fin (z : Mat 50000 128) (hz : Fin2 z) : Fin1 (kmean z) := by
  rw [kmean_eq]; exact rmean_fin z hz

/-- The kernel's variance of a real-valued array is the reference's. -/
theorem kvar_eq (z : Mat 50000 128) (hz : Fin2 z) : kvar z = rvar z := by
  funext c
  choose v hv using hz
  obtain rfl : z = fun r c => ((v r c : ℝ) : EReal) := funext fun r => funext fun c => hv r c
  show max (kmsq (fun r c => ((v r c : ℝ) : EReal)) c
      - kmean (fun r c => ((v r c : ℝ) : EReal)) c * kmean (fun r c => ((v r c : ℝ) : EReal)) c) 0 = _
  rw [kmean_eq, kmsq_coe, rmean_coe, rvar_coe, ← EReal.coe_mul, ← EReal.coe_sub, var_identity (fun r => v r c)]
  exact max_eq_left (by exact_mod_cast var_nonneg (fun r => v r c) _)

theorem kvar_fin (z : Mat 50000 128) (hz : Fin2 z) : Fin1 (kvar z) := by
  rw [kvar_eq z hz]; exact rvar_fin z hz

end Cert.Spec

end
-- ==== Proof.Math.Layer.lean ====
/-
  One layer on real-valued inputs: the kernel's form and the reference's form are the same array, and that
  array is real-valued. A linear map of real arrays is real (finite sums and products of reals). The
  normalisation of a real array with a real mean and a real nonnegative variance is real: the variance plus
  the positive offset is a positive real, whose reciprocal square root is a real; differences, products,
  sums and the cut at zero of reals are reals. With the moments of the previous module the two forms then
  agree stage by stage: same first linear map, same moments of it, same normalised array, same second
  linear map, same moments, same result.
-/
import proofs.«422260_j36421322670663_2_alg».proof.Proof.Math.Moments

noncomputable section

namespace Cert.Spec

open Idealize.ShloMosaic

/-- The cut at zero of a real is a real. -/
theorem max_zero_real (y : ℝ) : ∃ v : ℝ, max (y : EReal) 0 = (v : EReal) := by
  rcases le_total 0 y with h | h
  · exact ⟨y, max_eq_left (by exact_mod_cast h)⟩
  · exact ⟨0, by rw [max_eq_right (by exact_mod_cast h), EReal.coe_zero]⟩

/-- The entrywise sum of two real arrays is real. -/
theorem add_fin {a b : ℕ} (x y : Mat a b) (hx : Fin2 x) (hy : Fin2 y) : Fin2 (fun r k => x r k + y r k) := by
  intro r k
  obtain ⟨u, hu⟩ := hx r k
  obtain ⟨v, hv⟩ := hy r k
  refine ⟨u + v, ?_⟩
  show x r k + y r k = _
  rw [hu, hv, EReal.coe_add]

/-- A linear map with real coefficients takes real arrays to real arrays. -/
theorem lin_fin {n k o : ℕ} (u : Mat n k) (W : Mat k o) (b : Vc o) (hu : Fin2 u) (hW : Fin2 W) (hb : Fin1 b) :
    Fin2 (lin u W b) := by
  intro r c
  choose a ha using hu
  choose w hw using hW
  obtain ⟨β, hβ⟩ := hb c
  refine ⟨(∑ j : Fin k, a r j * w j c) + β, ?_⟩
  show (∑ j : Fin k, u r j * W j c) + b c = _
  have hterm : ∀ j : Fin k, u r j * W j c = ((a r j * w j c : ℝ) : EReal) := fun j => by
    rw [ha, hw, EReal.coe_mul]
  rw [Finset.sum_congr rfl (fun j _ => hterm j), coe_sum, hβ, EReal.coe_add]

/-- Normalising a real array with real moments, the variance nonnegative, gives a real array. -/
theorem bnrelu_fin (z : Mat 50000 128) (mean var g be : Vc 128) (hz : Fin2 z) (hm : Fin1 mean)
    (hv : ∀ c, ∃ w : ℝ, 0 ≤ w ∧ var c = (w : EReal)) (hg : Fin1 g) (hbe : Fin1 be) :
    Fin2 (bnrelu z mean var g be) := by
  intro r c
  obtain ⟨x, hx⟩ := hz r c
  obtain ⟨m, hm'⟩ := hm c
  obtain ⟨w, hw0, hw⟩ := hv c
  obtain ⟨γ, hγ⟩ := hg c
  obtain ⟨β, hβ⟩ := hbe c
  obtain ⟨e, he0, he⟩ := eps_pos
  have hpos : 0 < w + e := by linarith
  have hrs : Ideal.rsqrt (var c + eps) = (((Real.sqrt (w + e))⁻¹ : ℝ) : EReal) := by
    rw [hw, he, ← EReal.coe_add, Ideal.rsqrt_coe, if_neg (not_lt.mpr hpos.le), if_neg hpos.ne']
  show ∃ v : ℝ, max ((z r c - mean c) * Ideal.rsqrt (var c + eps) * g c + be c) 0 = (v : EReal)
  rw [hrs, hx, hm', hγ, hβ, ← EReal.coe_sub, ← EReal.coe_mul, ← EReal.coe_mul, ← EReal.coe_add]
  exact max_zero_real _

section layer
variable (h agg : Mat 50000 128) (p : LayerP) (hh : Fin2 h) (ha : Fin2 agg) (hp : p.Fin)
include hh ha hp

theorem z1_fin : Fin2 (z1 h agg p) :=
  lin_fin _ _ _ (add_fin h agg hh ha) hp.1 hp.2.1

theorem ka_eq : ka h agg p = ra h agg p := by
  unfold ka ra
  rw [kmean_eq, kvar_eq _ (z1_fin h agg p hh ha hp)]

theorem ra_fin : Fin2 (ra h agg p) :=
  bnrelu_fin _ _ _ _ _ (z1_fin h agg p hh ha hp) (rmean_fin _ (z1_fin h agg p hh ha hp))
    (rvar_real _ (z1_fin h agg p hh ha hp)) hp.2.2.1 hp.2.2.2.1

theorem kz2_eq : kz2 h agg p = rz2 h agg p := by
  unfold kz2 rz2
  rw [ka_eq h agg p hh ha hp]

theorem rz2_fin : Fin2 (rz2 h agg p) :=
  lin_fin _ _ _ (ra_fin h agg p hh ha hp) hp.2.2.2.2.1 hp.2.2.2.2.2.1

/-- The kernel's layer and the reference's layer are the same array. -/
theorem layer_eq : kh h agg p = rh h agg p := by
  unfold kh rh
  rw [kz2_eq h agg p hh ha hp, kmean_eq, kvar_eq _ (rz2_fin h agg p hh ha hp)]

/-- The layer's result is real-valued. -/
theorem layer_fin : Fin2 (rh h agg p) :=
  bnrelu_fin _ _ _ _ _ (rz2_fin h agg p hh ha hp) (rmean_fin _ (rz2_fin h agg p hh ha hp))
    (rvar_real _ (rz2_fin h agg p hh ha hp)) hp.2.2.2.2.2.2.1 hp.2.2.2.2.2.2.2

end layer

end Cert.Spec

end
-- ==== Proof.Math.Pool.lean ====
/-
  The two poolings agree for every array, finite or not: a 0/1 factor times x is x or 0 in the extended
  reals whatever x is, the block-by-block double sum is the sum over all rows, and a sum of
  "x if the row belongs to graph g, else 0" is the sum over the rows of graph g.
-/
import proofs.«422260_j36421322670663_2_alg».proof.Proof.Math.Blocks

noncomputable section

namespace Cert.Spec

open Idealize.ShloMosaic

theorem pool_eq (bw : Fin 50000 → BitVec 32) (h : Mat 50000 128) : poolK bw h = poolR bw h := by
  funext g c
  show (∑ t : Fin 10, ∑ y : Fin 5000,
      (if (bw (brow t y)).toInt = (g.val : ℤ) then (1 : EReal) else 0) * h (brow t y) c) = _
  rw [sum_brow (fun r => (if (bw r).toInt = (g.val : ℤ) then (1 : EReal) else 0) * h r c)]
  unfold poolR
  rw [Finset.sum_filter]
  refine Finset.sum_congr rfl (fun r _ => ?_)
  by_cases hr : (bw r).toInt = (g.val : ℤ)
  · rw [if_pos hr, if_pos hr, one_mul]
  · rw [if_neg hr, if_neg hr, zero_mul]

end Cert.Spec

end
-- ==== Proof.Math.Net.lean ====
/-
  The layers in sequence. Starting from real-valued node features, with real weights in every layer and a
  neighbourhood-sum operator that keeps arrays real-valued, the kernel's features and the reference's
  features after any number of layers are the same real-valued array (induction on the number of layers:
  each step is one layer on real inputs), and so their poolings agree. Also the passage between an array
  indexed by index tuples and its curried form, and real-valuedness of slices and curried forms of
  real-valued arrays.
-/
import proofs.«422260_j36421322670663_2_alg».proof.Proof.Math.Layer
import proofs.«422260_j36421322670663_2_alg».proof.Proof.Math.Pool

noncomputable section

namespace Cert.Spec

open Idealize.ShloMosaic

/-- A curried matrix as an array over rank-2 index tuples. -/
def uncur2 {a b : ℕ} (H : Mat a b) : (⟨2, ![a, b]⟩ : Shape).Idx → EReal := fun j => H (j 0) (j 1)

theorem cur2_uncur2 {a b : ℕ} (H : Mat a b) : cur2 (uncur2 H) = H := by
  funext r c
  rfl

theorem uncur2_cur2 {a b : ℕ} (x : (⟨2, ![a, b]⟩ : Shape).Idx → EReal) : uncur2 (cur2 x) = x := by
  funext j
  exact congrArg x (ValueIdx.eq_ix2 j).symm

/-- The node features after i layers, the kernel's way: layer i takes the features and their
    neighbourhood sums. -/
def hKn (aggf : Mat 50000 128 → Mat 50000 128) (P : ℕ → LayerP) (x : Mat 50000 128) : ℕ → Mat 50000 128
  | 0 => x
  | i + 1 => kh (hKn aggf P x i) (aggf (hKn aggf P x i)) (P i)

/-- The same, the reference's way. -/
def hRn (aggf : Mat 50000 128 → Mat 50000 128) (P : ℕ → LayerP) (x : Mat 50000 128) : ℕ → Mat 50000 128
  | 0 => x
  | i + 1 => rh (hRn aggf P x i) (aggf (hRn aggf P x i)) (P i)

/-- After any number of layers the two agree and are real-valued. -/
theorem net_eq (aggf : Mat 50000 128 → Mat 50000 128) (P : ℕ → LayerP) (x : Mat 50000 128) (hx : Fin2 x)
    (hP : ∀ i, (P i).Fin) (hagg : ∀ H, Fin2 H → Fin2 (aggf H)) :
    ∀ i, hKn aggf P x i = hRn aggf P x i ∧ Fin2 (hRn aggf P x i) := by
  intro i
  induction i with
  | zero => exact ⟨rfl, hx⟩
  | succ i ih =>
    obtain ⟨e, f⟩ := ih
    show kh (hKn aggf P x i) (aggf (hKn aggf P x i)) (P i) = rh (hRn aggf P x i) (aggf (hRn aggf P x i)) (P i)
      ∧ Fin2 (rh (hRn aggf P x i) (aggf (hRn aggf P x i)) (P i))
    rw [e]
    exact ⟨layer_eq _ _ _ f (hagg _ f) (hP i), layer_fin _ _ _ f (hagg _ f) (hP i)⟩

/-- The poolings of the two agree after every layer. -/
theorem pool_net (aggf : Mat 50000 128 → Mat 50000 128) (P : ℕ → LayerP) (x : Mat 50000 128) (hx : Fin2 x)
    (hP : ∀ i, (P i).Fin) (hagg : ∀ H, Fin2 H → Fin2 (aggf H)) (bw : Fin 50000 → BitVec 32) (i : ℕ) :
    poolK bw (hKn aggf P x (i + 1)) = poolR bw (hRn aggf P x (i + 1)) := by
  rw [(net_eq aggf P x hx hP hagg (i + 1)).1, pool_eq]

/-! Curried forms and slices of a real-valued array are real-valued: each entry is an entry of the array. -/

theorem cur2_fin {a b : ℕ} (x : (⟨2, ![a, b]⟩ : Shape).Idx → EReal) (hx : ∀ j, ∃ v : ℝ, x j = (v : EReal)) :
    Fin2 (cur2 x) := fun r c => hx (ValueIdx.ix2 r c)

theorem cur1_fin {a : ℕ} (x : (⟨1, ![a]⟩ : Shape).Idx → EReal) (hx : ∀ j, ∃ v : ℝ, x j = (v : EReal)) :
    Fin1 (cur1 x) := fun r => hx (ValueIdx.ix1 r)

theorem sl3_fin {n a b : ℕ} (x : (⟨3, ![n, a, b]⟩ : Shape).Idx → EReal) (hx : ∀ j, ∃ v : ℝ, x j = (v : EReal))
    (i : Fin n) : Fin2 (sl3 x i) := fun r c => hx (ValueIdx.ix3 i r c)

theorem sl2_fin {n a : ℕ} (x : (⟨2, ![n, a]⟩ : Shape).Idx → EReal) (hx : ∀ j, ∃ v : ℝ, x j = (v : EReal))
    (i : Fin n) : Fin1 (sl2 x i) := fun r => hx (ValueIdx.ix2 i r)

/-- The curried form's real-valuedness gives back the array's. -/
theorem uncur2_fin {a b : ℕ} (H : Mat a b) (hH : Fin2 H) : ∀ j, ∃ v : ℝ, uncur2 H j = (v : EReal) :=
  fun j => hH (j 0) (j 1)

end Cert.Spec

end
-- ==== Proof.Math.Scatter.lean ====
/-
  The host's gather and accumulating scatter over the extended reals. First: the neighbourhood sums of an
  array of real numbers are real numbers, because every gathered entry is an entry of the operand, the array
  added into holds the real zero everywhere, and each result entry is that zero plus a finite sum of gathered
  entries. Second: the scatter that adds the rows of a 50000 × 128 array into the rows of a 256 × 128 array
  named by a column of signed row numbers, read at one entry, is the sum over the rows carrying that number.
-/
import Idealize.ShloMosaic.PureOps.Ideal
import Idealize.ShloMosaic.PureOps.Contract
import Idealize.ShloMosaic.PureOps.ShapeOps
import Idealize.ShloMosaic.PureOps.Dims
import Idealize.ShloMosaic.Lib.ValueIdx
import proofs.«422260_j36421322670663_2_alg».proof.Proof.Spec
import proofs.«422260_j36421322670663_2_alg».proof.Proof.AggSpec

noncomputable section

open scoped BigOperators

namespace Cert.Spec

open Idealize.ShloMosaic
open Idealize.ShloMosaic.ValueIdx

/-- A finite sum of real numbers, taken in the extended reals, is the real sum. -/
theorem sum_coe_real {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is a real number is a real number. -/
theorem sum_real {ι : Type*} (s : Finset ι) (f : ι → EReal) (hf : ∀ i, ∃ v : ℝ, f i = (v : EReal)) :
    ∃ v : ℝ, (∑ i ∈ s, f i) = (v : EReal) := by
  choose g hg using hf
  exact ⟨∑ i ∈ s, g i, by rw [← sum_coe_real]; exact Finset.sum_congr rfl fun i _ => hg i⟩

/-- A real number plus a finite sum of real numbers is a real number. -/
private theorem add_sum_real {ι : Type*} (a : EReal) (ha : ∃ v : ℝ, a = (v : EReal)) (s : Finset ι) (f : ι → EReal)
    (hf : ∀ i, ∃ v : ℝ, f i = (v : EReal)) : ∃ v : ℝ, a + (∑ i ∈ s, f i) = (v : EReal) := by
  obtain ⟨x, hx⟩ := ha
  obtain ⟨y, hy⟩ := sum_real s f hf
  exact ⟨x + y, by rw [hx, hy, EReal.coe_add]⟩

/-- The float word of zero is the real zero. -/
theorem ofBits_zero_word : Ideal.ofBits .f32 0x00000000#32 = ((0 : ℝ) : EReal) := by
  simp [Ideal.ofBits, Ideal.ieee]

/-- The accumulating scatter of real updates into a real array is a real array, at every shape. -/
private theorem scatterAdd_real {s si u : Shape} (d : ScatterDims s si u) {w : Nat} (x : s.Idx → EReal) (idx : IVec si w)
    (upd : u.Idx → EReal) (hx : ∀ i, ∃ v : ℝ, x i = (v : EReal)) (hu : ∀ j, ∃ v : ℝ, upd j = (v : EReal)) :
    ∀ i, ∃ v : ℝ, Host.scatterAdd (F := Ideal) (φ := .f32) d x idx upd i = (v : EReal) := by
  intro i
  show ∃ v : ℝ, Ideal.hostScatterAdd d x idx upd i = (v : EReal)
  unfold Ideal.hostScatterAdd
  exact add_sum_real _ (hx i) _ _ hu

/-- An entry of the zero array is the real zero. -/
private theorem zero_entry {T : Shape} (w2 : S0.BroadcastsInDim T (![] : Fin 0 → Fin T.rank)) (i : T.Idx) :
    broadcastInDim T ![] w2 (constant (F := Ideal) S0 .f32 0x00000000#32) i = ((0 : ℝ) : EReal) := by
  unfold broadcastInDim
  rw [constant_apply]
  exact ofBits_zero_word

/-- Every gathered entry is an entry of the operand. -/
private theorem gather_real {s si t : Shape} (d : GatherDims s si t) {w : Nat} (x : s.Idx → EReal) (idx : IVec si w)
    (hx : ∀ i, ∃ v : ℝ, x i = (v : EReal)) : ∀ j, ∃ v : ℝ, Host.gather d x idx j = (v : EReal) :=
  fun j => hx (d.operandIdx j idx)

/-- The neighbourhood sums of real features are real. -/
theorem aggA_fin (gd : GatherDims SNH SE1 SEH) (sd : ScatterDims SNH SE1 SEH)
    (w2 : S0.BroadcastsInDim SNH (![] : Fin 0 → Fin SNH.rank)) (h : SNH.Idx → EReal)
    (srcC dstC : SE1.Idx → BitVec 32) (hh : ∀ i, ∃ v : ℝ, h i = (v : EReal)) :
    ∀ i, ∃ v : ℝ, aggA gd sd w2 h srcC dstC i = (v : EReal) :=
  scatterAdd_real sd _ dstC _ (fun i => ⟨0, zero_entry w2 i⟩) (gather_real gd h srcC hh)

/-- The same, for the arrays read by coordinates. -/
theorem aggA_fin2 (gd : GatherDims SNH SE1 SEH) (sd : ScatterDims SNH SE1 SEH)
    (w2 : S0.BroadcastsInDim SNH (![] : Fin 0 → Fin SNH.rank)) (h : SNH.Idx → EReal)
    (srcC dstC : SE1.Idx → BitVec 32) :
    Fin2 (cur2 h) → Fin2 (cur2 (aggA gd sd w2 h srcC dstC)) := by
  intro hh r c
  have hall : ∀ i, ∃ v : ℝ, h i = (v : EReal) := by
    intro i
    rw [eq_ix2 i]
    exact hh (i 0) (i 1)
  exact aggA_fin gd sd w2 h srcC dstC hall (ix2 r c)

/-! ## The row scatter read at an index

  The operand has G rows and C columns, the updates N rows and C columns, and a column of N signed numbers
  says which operand row each update row is added into. Stated at every size; the dimension record is a
  variable and its printed fields are hypotheses. -/

section RowScatter

/-- The only position of a list of one element holds that element. -/
private theorem getElem_one {β : Type} {l : List β} {b : β} (hl : l = [b]) (k : Nat) (hk : k < l.length) :
    l[k] = b := by
  subst hl
  obtain rfl : k = 0 := by simpa using hk
  rfl

/-- An index read on one axis written two ways. -/
private theorem idx_axis {s : Shape} (j : s.Idx) {a b : Fin s.rank} (hab : a = b) : (j a).val = (j b).val := by
  rw [hab]

variable {G C N : Nat} (d : ScatterDims ⟨2, ![G, C]⟩ ⟨2, ![N, 1]⟩ ⟨2, ![N, C]⟩)

/-- On the row axis the window starts at the signed number the update's row carries. -/
private theorem start_row (h1 : d.updateWindowDims = [1]) (h3 : d.scatterDimsToOperandDims = [0])
    (h4 : d.indexVectorDim = 1) (idx : (⟨2, ![N, 1]⟩ : Shape).Idx → BitVec 32) (j : (⟨2, ![N, C]⟩ : Shape).Idx) :
    d.start j idx 0 = (idx (ix2 (j 0) 0)).toInt := by
  unfold ScatterDims.start
  rw [dif_pos (by rw [h3]; simp)]
  congr 2
  funext b
  match b with
  | ⟨0, _⟩ =>
    unfold ScatterDims.siIdx
    rw [dif_neg (by rw [h4]; simp)]
    unfold ScatterDims.siCoord
    apply Fin.ext
    simp only [Fin.val_cast]
    have hus : d.uScatter = [0] := by
      show Shape.kept _ d.updateWindowDims = [0]
      rw [h1]; rfl
    exact idx_axis j (getElem_one hus _ _)
  | ⟨1, _⟩ =>
    unfold ScatterDims.siIdx
    rw [dif_pos (by rw [h4])]
    apply Fin.ext
    show List.idxOf (0 : Fin 2) d.scatterDimsToOperandDims = 0
    rw [h3]; rfl

/-- On the column axis the window starts at 0. -/
private theorem start_col (h3 : d.scatterDimsToOperandDims = [0]) (idx : (⟨2, ![N, 1]⟩ : Shape).Idx → BitVec 32)
    (j : (⟨2, ![N, C]⟩ : Shape).Idx) : d.start j idx 1 = 0 := by
  unfold ScatterDims.start
  rw [dif_neg (by rw [h3]; simp)]

/-- The row axis is inserted: no window coordinate there. -/
private theorem window_row (h2 : d.insertedWindowDims = [0]) (j : (⟨2, ![N, C]⟩ : Shape).Idx) : d.window j 0 = 0 := by
  unfold ScatterDims.window
  have hk : d.sKept = [1] := by
    show Shape.kept _ d.insertedWindowDims = [1]
    rw [h2]; rfl
  rw [dif_neg (by rw [hk]; simp)]

/-- On the column axis the window coordinate is the update's column. -/
private theorem window_col (h1 : d.updateWindowDims = [1]) (h2 : d.insertedWindowDims = [0])
    (j : (⟨2, ![N, C]⟩ : Shape).Idx) : d.window j 1 = (j 1).val := by
  unfold ScatterDims.window
  have hk : d.sKept = [1] := by
    show Shape.kept _ d.insertedWindowDims = [1]
    rw [h2]; rfl
  rw [dif_pos (by rw [hk]; simp)]
  exact idx_axis j (getElem_one h1 _ _)

/-- Update entry (r, c') lands on entry (g, c) exactly when row r carries the number g and the columns agree. -/
theorem resultIdx_row_gen (h1 : d.updateWindowDims = [1]) (h2 : d.insertedWindowDims = [0])
    (h3 : d.scatterDimsToOperandDims = [0]) (h4 : d.indexVectorDim = 1)
    (idx : (⟨2, ![N, 1]⟩ : Shape).Idx → BitVec 32) (r : Fin N) (c' c : Fin C) (g : Fin G) :
    d.resultIdx? (ix2 r c') idx = some (ix2 g c) ↔ ((idx (ix2 r 0)).toInt = (g.val : ℤ) ∧ c' = c) := by
  have e0 : d.start (ix2 r c') idx 0 + (d.window (ix2 r c') 0 : ℤ) = (idx (ix2 r 0)).toInt := by
    rw [start_row d h1 h3 h4, window_row d h2]
    show (idx (ix2 r 0)).toInt + ((0 : ℕ) : ℤ) = _
    simp
  have e1 : d.start (ix2 r c') idx 1 + (d.window (ix2 r c') 1 : ℤ) = (c'.val : ℤ) := by
    rw [start_col d h3, window_col d h1 h2]
    show (0 : ℤ) + ((c'.val : ℕ) : ℤ) = _
    simp
  have z0 : (⟨2, ![G, C]⟩ : Shape).size 0 = G := rfl
  have z1 : (⟨2, ![G, C]⟩ : Shape).size 1 = C := rfl
  unfold ScatterDims.resultIdx?
  split
  · rename_i hin
    constructor
    · intro he
      have he' := Option.some.inj he
      have q0 := congrArg (fun f => (f 0).val) he'
      have q1 := congrArg (fun f => (f 1).val) he'
      simp only at q0 q1
      have b0 := hin 0
      have b1 := hin 1
      rw [e0] at q0 b0
      rw [e1] at q1 b1
      refine ⟨?_, Fin.ext ?_⟩
      · have q0' : (idx (ix2 r 0)).toInt.toNat = g.val := q0
        omega
      · have q1' : ((c'.val : ℤ)).toNat = c.val := q1
        omega
    · rintro ⟨hg, hc⟩
      congr 1
      funext a
      apply Fin.ext
      match a with
      | ⟨0, _⟩ =>
        show (d.start (ix2 r c') idx 0 + (d.window (ix2 r c') 0 : ℤ)).toNat = g.val
        rw [e0, hg]; simp
      | ⟨1, _⟩ =>
        show (d.start (ix2 r c') idx 1 + (d.window (ix2 r c') 1 : ℤ)).toNat = c.val
        rw [e1, hc]; simp
  · rename_i hout
    constructor
    · intro he; cases he
    · rintro ⟨hg, hc⟩
      exfalso
      apply hout
      intro a
      match a with
      | ⟨0, _⟩ =>
        show 0 ≤ d.start (ix2 r c') idx 0 + (d.window (ix2 r c') 0 : ℤ)
          ∧ d.start (ix2 r c') idx 0 + (d.window (ix2 r c') 0 : ℤ) < (((⟨2, ![G, C]⟩ : Shape).size 0 : ℕ) : ℤ)
        rw [e0, hg, z0]
        have := g.isLt
        omega
      | ⟨1, _⟩ =>
        show 0 ≤ d.start (ix2 r c') idx 1 + (d.window (ix2 r c') 1 : ℤ)
          ∧ d.start (ix2 r c') idx 1 + (d.window (ix2 r c') 1 : ℤ) < (((⟨2, ![G, C]⟩ : Shape).size 1 : ℕ) : ℤ)
        rw [e1, z1]
        have := c'.isLt
        omega

/-- The accumulating row scatter read at entry (g, c): the operand's entry plus the sum, over the update rows
    that carry the number g, of their entries in column c. -/
theorem scatter_rows_apply (h1 : d.updateWindowDims = [1]) (h2 : d.insertedWindowDims = [0])
    (h3 : d.scatterDimsToOperandDims = [0]) (h4 : d.indexVectorDim = 1)
    (idx : (⟨2, ![N, 1]⟩ : Shape).Idx → BitVec 32) (upd : (⟨2, ![N, C]⟩ : Shape).Idx → EReal)
    (z : (⟨2, ![G, C]⟩ : Shape).Idx → EReal) (g : Fin G) (c : Fin C) :
    Ideal.hostScatterAdd d z idx upd (ix2 g c)
      = z (ix2 g c) + ∑ r ∈ Finset.univ.filter (fun r : Fin N => (idx (ix2 r 0)).toInt = (g.val : ℤ)), upd (ix2 r c) := by
  unfold Ideal.hostScatterAdd
  congr 1
  rw [Finset.sum_filter, Finset.sum_filter, sum_idx2]
  refine Finset.sum_congr rfl fun r _ => ?_
  simp only [resultIdx_row_gen d h1 h2 h3 h4]
  by_cases hq : (idx (ix2 r 0)).toInt = (g.val : ℤ)
  · simp [hq]
  · simp [hq]

end RowScatter

/-! ## At the sizes of the pooling scatter: 50000 update rows, 256 operand rows, 128 columns -/

section Pool

variable (d : ScatterDims ⟨2, ![256, 128]⟩ ⟨2, ![50000, 1]⟩ ⟨2, ![50000, 128]⟩)

/-- Update entry (r, c') lands on entry (g, c) exactly when row r carries the number g and the columns agree. -/
theorem resultIdx_row (h1 : d.updateWindowDims = [1]) (h2 : d.insertedWindowDims = [0])
    (h3 : d.scatterDimsToOperandDims = [0]) (h4 : d.indexVectorDim = 1)
    (idx : (⟨2, ![50000, 1]⟩ : Shape).Idx → BitVec 32) (r : Fin 50000) (c' c : Fin 128) (g : Fin 256) :
    d.resultIdx? (ix2 r c') idx = some (ix2 g c) ↔ ((idx (ix2 r 0)).toInt = (g.val : ℤ) ∧ c' = c) :=
  resultIdx_row_gen d h1 h2 h3 h4 idx r c' c g

/-- Added into a zero array, the rows pool by the number they carry: entry (g, c) is the sum of column c over
    the rows whose number is g. -/
theorem pool_scatter (h1 : d.updateWindowDims = [1]) (h2 : d.insertedWindowDims = [0])
    (h3 : d.scatterDimsToOperandDims = [0]) (h4 : d.indexVectorDim = 1)
    (idx : (⟨2, ![50000, 1]⟩ : Shape).Idx → BitVec 32) (upd : (⟨2, ![50000, 128]⟩ : Shape).Idx → EReal)
    (z : (⟨2, ![256, 128]⟩ : Shape).Idx → EReal) (hz : ∀ i, z i = 0) (g : Fin 256) (c : Fin 128) :
    Ideal.hostScatterAdd d z idx upd (ix2 g c) = poolR (fun r => idx (ix2 r 0)) (cur2 upd) g c := by
  have e := scatter_rows_apply d h1 h2 h3 h4 idx upd z g c
  rw [hz, zero_add] at e
  exact e

end Pool

end Cert.Spec

end
-- ==== Proof.PreFin.lean ====
/-
  From the printed finiteness predicate to "every float input is a real number", at the extended reals.

  The predicate takes, for each of the thirteen float arguments, the conjunction over all entries of
  |x| < +∞ (the word 0x7F800000 is +∞), and conjoins the thirteen answers. If the whole is true, each
  conjunct is true, so each entry x satisfies max x (-x) < ⊤; an extended real with that property is
  neither ⊥ nor ⊤, hence the image of a real number.
-/
import proofs.«422260_j36421322670663_2_alg».proof.Pre_finite_inputs
import proofs.«422260_j36421322670663_2_alg».proof.Proof.Gen.Pre_finite_inputs
import Idealize.ShloMosaic.PureOps.Ideal
import Idealize.ShloMosaic.Lib.ReduceAll
import Idealize.ShloMosaic.Lib.ValueIdx

noncomputable section

namespace Cert.PreFin

open Idealize.ShloMosaic Idealize.ShloMosaic.ValueIdx Cert.Pre_finite_inputs

/-- The scalar shape has exactly one index. -/
instance subsingleton_scalar_idx : Subsingleton S_.Idx := ⟨fun a b => funext fun d => d.elim0⟩

/-- The single-precision word with all exponent bits set and a zero significand denotes +∞. -/
theorem inf_word : Ideal.ofBits .f32 0x7F800000#32 = (⊤ : EReal) := by
  simp [Ideal.ofBits, Ideal.ieee]

/-- An extended real whose absolute value lies strictly below +∞ is a real number:
    for ⊥ the absolute value is ⊤, for ⊤ likewise, and ⊤ < ⊤ is absurd. -/
theorem real_of_abs_lt_top (x : EReal) (h : max x (-x) < ⊤) : ∃ v : ℝ, x = (v : EReal) := by
  induction x using EReal.rec with
  | bot => simp at h
  | coe r => exact ⟨r, rfl⟩
  | top => simp at h

/-- The ordered comparison "less than" answering true means the strict inequality of the extended reals. -/
theorem lt_of_cmp_olt (a b : EReal) (h : Ideal.cmp .olt a b = 1#1) : a < b := by
  by_contra hn
  have h0 : Ideal.cmp .olt a b = 0#1 := by
    show BitVec.ofBool (decide (a < b)) = 0#1
    rw [decide_eq_false hn]; rfl
  rw [h0] at h
  exact absurd h (by decide)

/-- One conjunct of the predicate, for an array of any shape: if the conjunction over all entries of
    |x| < +∞ is true, then every entry of x is a real number. -/
theorem real_of_all {S : Shape} {axes : List (Fin S.rank)}
    (hb : S_.BroadcastsInDim S (![] : Fin 0 → Fin S.rank)) (hr : S.ReducesTo axes S_) (hu : 0 < S_.numel)
    (x : FVec Ideal S .f32) (init : IVec S_ 1)
    (e : Host.reduce IntOp.andi
          (cmpf .olt (Host.absf x) (broadcastInDim S ![] hb (constant S_ .f32 0x7F800000#32))) init hr hu ix0 = 1#1) :
    ∀ j, ∃ v : ℝ, x j = (v : EReal) := by
  intro j
  have hj := Host.reduce_andi_all _ init hr hu ix0 e j
  have hj' : Ideal.cmp .olt (max (x j) (-(x j))) (Ideal.ofBits .f32 0x7F800000#32) = 1#1 := hj
  rw [inf_word] at hj'
  exact real_of_abs_lt_top (x j) (lt_of_cmp_olt _ _ hj')

/-- The printed predicate being true makes each of the thirteen float arguments an array of real numbers. -/
theorem fin_of_pre [Cert.Pre_finite_inputs.Facts]
    (a0 : FVec Ideal S50000x128 .f32) (a1 : FVec Ideal S5x128x128 .f32) (a2 : FVec Ideal S5x128 .f32)
    (a3 : FVec Ideal S5x128 .f32) (a4 : FVec Ideal S5x128 .f32) (a5 : FVec Ideal S5x128x128 .f32)
    (a6 : FVec Ideal S5x128 .f32) (a7 : FVec Ideal S5x128 .f32) (a8 : FVec Ideal S5x128 .f32)
    (a9 : FVec Ideal S640x128 .f32) (a10 : FVec Ideal S128 .f32) (a11 : FVec Ideal S128x10 .f32)
    (a12 : FVec Ideal S10 .f32) (a13 : IVec S2x800000 32) (a14 : IVec S50000 32)
    (h : Cert.Pre_finite_inputs.fn (F := Ideal) a0 a1 a2 a3 a4 a5 a6 a7 a8 a9 a10 a11 a12 a13 a14 = fun _ => 1#1) :
    (∀ j, ∃ v : ℝ, a0 j = (v : EReal)) ∧ (∀ j, ∃ v : ℝ, a1 j = (v : EReal)) ∧
    (∀ j, ∃ v : ℝ, a2 j = (v : EReal)) ∧ (∀ j, ∃ v : ℝ, a3 j = (v : EReal)) ∧
    (∀ j, ∃ v : ℝ, a4 j = (v : EReal)) ∧ (∀ j, ∃ v : ℝ, a5 j = (v : EReal)) ∧
    (∀ j, ∃ v : ℝ, a6 j = (v : EReal)) ∧ (∀ j, ∃ v : ℝ, a7 j = (v : EReal)) ∧
    (∀ j, ∃ v : ℝ, a8 j = (v : EReal)) ∧ (∀ j, ∃ v : ℝ, a9 j = (v : EReal)) ∧
    (∀ j, ∃ v : ℝ, a10 j = (v : EReal)) ∧ (∀ j, ∃ v : ℝ, a11 j = (v : EReal)) ∧
    (∀ j, ∃ v : ℝ, a12 j = (v : EReal)) := by
  have h0 := congrFun h ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨real_of_all _ _ _ a0 _ e0, real_of_all _ _ _ a1 _ e1, real_of_all _ _ _ a2 _ e2,
    real_of_all _ _ _ a3 _ e3, real_of_all _ _ _ a4 _ e4, real_of_all _ _ _ a5 _ e5,
    real_of_all _ _ _ a6 _ e6, real_of_all _ _ _ a7 _ e7, real_of_all _ _ _ a8 _ e8,
    real_of_all _ _ _ a9 _ e9, real_of_all _ _ _ a10 _ e10, real_of_all _ _ _ a11 _ e11,
    real_of_all _ _ _ a12 _ e12⟩

end Cert.PreFin

end
-- ==== Proof.SpecPool.lean ====
/-
  Two readings the value lemmas share: a 1 × 128 row as a vector, and one block's share of the pooling
  (the 0/1-weighted sum of the block's 5000 rows); the pooling is the sum of the ten shares.
-/
import proofs.«422260_j36421322670663_2_alg».proof.Proof.Spec

noncomputable section

namespace Cert.Spec

open Idealize.ShloMosaic

/-- A 1 × n array read as a vector. -/
def row0 {n : ℕ} (x : (⟨2, ![1, n]⟩ : Shape).Idx → EReal) : Vc n := fun k => x (ValueIdx.ix2 0 k)

/-- Block t's share of the pooling. -/
def poolKpart (bw : Fin 50000 → BitVec 32) (h : Mat 50000 128) (t : Fin 10) : Mat 256 128 :=
  fun g c => ∑ y : Fin 5000, (if (bw (brow t y)).toInt = (g.val : ℤ) then (1 : EReal) else 0) * h (brow t y) c

theorem poolK_eq_sum_parts (bw : Fin 50000 → BitVec 32) (h : Mat 50000 128) (g : Fin 256) (c : Fin 128) :
    poolK bw h g c = ∑ t : Fin 10, poolKpart bw h t g c := rfl

end Cert.Spec

end
-- ==== Proof.KI.NetDefs.lean ====
/-
  The network's data as the kernel program reads them from the launch memory: the weights of layer i as the
  i-th slices of the eight weight stacks, the neighbourhood-sum operator over the program's two edge columns,
  and the graph-number words.
-/
import proofs.«422260_j36421322670663_2_alg».proof.Proof.KI.RegionsP
import proofs.«422260_j36421322670663_2_alg».proof.Proof.Spec
import proofs.«422260_j36421322670663_2_alg».proof.Proof.SpecPool
import proofs.«422260_j36421322670663_2_alg».proof.Proof.AggSpec

noncomputable section

namespace Cert.KernelIdeal.Hand

open Cert.KernelIdeal Cert.KernelIdeal.Gen Cert.Spec
open Idealize.ShloMosaic Idealize.ShloMosaic.TcCoe

-- the launch memory
variable (m : (ℓ : Loc nD τ sig) → Buf (Elt Ideal) ℓ)

/-- The weights of layer i: slice i of each of the eight stacks the program is launched with. -/
abbrev kP (c : Dev nD) (i : Fin 5) : LayerP :=
  ⟨sl3 (m ((c : Thread nD τ).loc main_arg1) : S5x128x128.Idx → EReal) i,
   sl2 (m ((c : Thread nD τ).loc main_arg2) : S5x128.Idx → EReal) i,
   sl2 (m ((c : Thread nD τ).loc main_arg3) : S5x128.Idx → EReal) i,
   sl2 (m ((c : Thread nD τ).loc main_arg4) : S5x128.Idx → EReal) i,
   sl3 (m ((c : Thread nD τ).loc main_arg5) : S5x128x128.Idx → EReal) i,
   sl2 (m ((c : Thread nD τ).loc main_arg6) : S5x128.Idx → EReal) i,
   sl2 (m ((c : Thread nD τ).loc main_arg7) : S5x128.Idx → EReal) i,
   sl2 (m ((c : Thread nD τ).loc main_arg8) : S5x128.Idx → EReal) i⟩

/-- The neighbourhood sums of an array of node features, over the two edge columns the first host stretch
    cuts out of the edge list. -/
abbrev kAgg (c : Dev nD) (x : SNH.Idx → EReal) : SNH.Idx → EReal :=
  aggA gather_S50000x128_S800000x1_S800000x128_1_0_n_n_0_1_1128 scatter_S50000x128_S800000x1_S800000x128_1_0_0_1
    bcast_S_S50000x128 x
    (srcCol bcast_S_S800000 bcast_S800000_S800000x1_0 (GenP.V1 m c main_v1))
    (dstCol bcast_S800000_S800000x1_0 (GenP.V1 m c main_v3))

/-- The graph number of every node, as the launched words. -/
abbrev kBw (c : Dev nD) : Fin 50000 → BitVec 32 :=
  fun r => (m ((c : Thread nD τ).loc main_arg14) : S50000.Idx → BitVec 32) (ValueIdx.ix1 r)

end Cert.KernelIdeal.Hand

end
-- ==== Proof.KI.Val0Pay.lean ====
/-
  What the first linear map's kernel body computes from its four loaded blocks, entry by entry, over the extended
  reals: the block's affine image (the sum of the two feature blocks times the weights, plus the bias row), the
  column sums of that image over the block's rows, and the column sums of its squares. The roundings to the
  narrower format are the identity on extended reals, the accumulator of the matrix product is zero, and the sums
  over a whole axis are plain finite sums.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen Cert.Spec

/-! ## The matrix product's operand indices -/

private theorem lhs_row (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

private theorem lhs_shared (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single (cl := 1) rfl j k

private theorem rhs_shared (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single (cr := 0) rfl j k

private theorem rhs_col (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

/-- The product of a 5000 × 128 by a 128 × 128 matrix into the zero accumulator, at (p, q): the sum over the shared
    coordinate of the products of the entries. -/
private theorem mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have hl : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => exact lhs_row _ _
    | ⟨1, _⟩ => exact (lhs_shared _ _).trans hc
  have hr : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => exact (rhs_shared _ _).trans hc
    | ⟨1, _⟩ => exact rhs_col _ _
  rw [hl, hr]

/-! ## The row sums' index, and the casts between a vector, a row and a one-row stack -/

/-- A vector's coordinate put back under row p of the block. -/
private theorem lift_rows (h : S5000x128.Reduces [0] S128) (q : Fin 128) (p : Fin 5000) :
    h.lift (ix1 q) p = ix2 p q := by
  funext ax; apply Fin.ext
  match ax with
  | ⟨0, _⟩ => rfl
  | ⟨1, _⟩ => rfl

/-- The sum over the rows of a block, kept as a 1 × 1 × 128 stack, at column q. -/
private theorem colsum_apply (z : FVec Ideal S5000x128 .f32) (q : Fin 128) :
    shapeCast S1x1x128 (shapeCast S1x128
        (multiReduction (F := Ideal) .add [0] S128 z 0x00000000#32 reduces_S5000x128_S128 (.inl rfl) rfl)
        shapeCasts_S128_S1x128) shapeCasts_S1x128_S1x1x128 (ix3 0 0 q)
      = ∑ p : Fin 5000, z (ix2 p q) := by
  refine (shapeCast_ab_1ab_apply _ _ 0 0 q).trans ?_
  refine (shapeCast_a_1a_apply _ _ 0 q).trans ?_
  refine (Ideal.multiReduction_add_single z 0x00000000#32 reduces_S5000x128_S128 (.inl rfl) rfl (ix1 q)).trans ?_
  exact Finset.sum_congr rfl fun p _ => congrArg z (lift_rows _ q p)

/-! ## The three payloads at an index -/

/-- The block's affine image at (p, q): row p of the sum of the two feature blocks against column q of the weights,
    plus the bias at q. -/
theorem k0_pay1_apply (x0 x1 : Vec Ideal S5000x128 .f32) (x2 : Vec Ideal S128x128 .f32) (x3 : Vec Ideal S1x128 .f32)
    (p : Fin 5000) (q : Fin 128) :
    k0_pay1 x0 x1 x2 x3 (ix2 p q)
      = (∑ k : Fin 128, (x0 (ix2 p k) + x1 (ix2 p k)) * x2 (ix2 k q)) + x3 (ix2 0 q) := by
  unfold k0_pay1
  refine (addf_apply _ _ _).trans ?_
  refine congr (congrArg HAdd.hAdd ?_) ?_
  · refine (mm_apply _ _ p q).trans (Finset.sum_congr rfl fun k _ => ?_)
    simp only [shapeCast_self]
    all_goals rfl
  · refine (broadcastTo_1b_ab_apply _ _ p q).trans ?_
    exact congrFun (shapeCast_self x3 _) _

/-- The column sums of the block's affine image. -/
theorem k0_pay2_apply (x0 x1 : Vec Ideal S5000x128 .f32) (x2 : Vec Ideal S128x128 .f32) (x3 : Vec Ideal S1x128 .f32)
    (q : Fin 128) :
    k0_pay2 x0 x1 x2 x3 (ix3 0 0 q)
      = ∑ p : Fin 5000, ((∑ k : Fin 128, (x0 (ix2 p k) + x1 (ix2 p k)) * x2 (ix2 k q)) + x3 (ix2 0 q)) := by
  unfold k0_pay2
  refine (colsum_apply _ q).trans ?_
  exact Finset.sum_congr rfl fun p _ => k0_pay1_apply x0 x1 x2 x3 p q

/-- The column sums of the squares of the block's affine image. -/
theorem k0_pay3_apply (x0 x1 : Vec Ideal S5000x128 .f32) (x2 : Vec Ideal S128x128 .f32) (x3 : Vec Ideal S1x128 .f32)
    (q : Fin 128) :
    k0_pay3 x0 x1 x2 x3 (ix3 0 0 q)
      = ∑ p : Fin 5000, ((∑ k : Fin 128, (x0 (ix2 p k) + x1 (ix2 p k)) * x2 (ix2 k q)) + x3 (ix2 0 q))
          * ((∑ k : Fin 128, (x0 (ix2 p k) + x1 (ix2 p k)) * x2 (ix2 k q)) + x3 (ix2 0 q)) := by
  unfold k0_pay3
  refine (colsum_apply _ q).trans ?_
  refine Finset.sum_congr rfl fun p _ => ?_
  refine (mulf_apply _ _ _).trans ?_
  rw [k0_pay1_apply]

end Cert.KernelIdeal.Hand

end
-- ==== Proof.KI.Val0.lean ====
/-
  The three arrays the first linear map's region leaves, over the extended reals, as functions of the four arrays it
  reads: the affine image of the whole feature arrays (the sum of the features and their neighbourhood sums, times the
  weights, plus the bias); for each of the ten row blocks the column sums of that image over the block's rows; and
  the column sums of its squares. Each grid point computes its own block of these from its own blocks of the inputs —
  a block's entry sits in the array at (block number × block size + the coordinate inside the block) — and the
  blocks of the ten points tile the arrays.
-/
import proofs.«422260_j36421322670663_2_alg».proof.Proof.KI.Reg0
import proofs.«422260_j36421322670663_2_alg».proof.Proof.KI.Val0Pay
import proofs.«422260_j36421322670663_2_alg».proof.Proof.Gen.KernelIdeal.Points
import proofs.«422260_j36421322670663_2_alg».proof.Proof.Spec
import proofs.«422260_j36421322670663_2_alg».proof.Proof.SpecPool
import Idealize.ShloMosaic.Lib.ValueIdx
import Idealize.ShloMosaic.Lib.Pipeline.Value

noncomputable section

namespace Cert.KernelIdeal.Hand

open Idealize.ShloMosaic Idealize.ShloMosaic.ValueIdx Idealize.ShloMosaic.TcCoe Idealize.SL.Sem
open Cert.KernelIdeal Cert.KernelIdeal.Gen Cert.Spec

section Arrays
variable (V : (c : Dev nD) → (b : Ref sig .tc) → Buf (Elt Ideal) ((c : Thread nD τ).loc b)) (c : Dev nD)

/-! ## The whole arrays the three outputs end holding -/

/-- The affine image of the whole feature arrays: every row of their sum against the weights, plus the bias. -/
def lin0 : Mat 50000 128 :=
  Spec.lin (fun r k => cur2 (V c (Pipeline.arrRef spec0 0) : S50000x128.Idx → EReal) r k
      + cur2 (V c (Pipeline.arrRef spec0 1) : S50000x128.Idx → EReal) r k)
    (cur2 (V c (Pipeline.arrRef spec0 2) : S128x128.Idx → EReal))
    (row0 (V c (Pipeline.arrRef spec0 3) : S1x128.Idx → EReal))

/-- The image, as an array. -/
def arr0_4 : S50000x128.Idx → EReal := fun i => lin0 V c (i 0) (i 1)
/-- Its column sums block by block, as an array. -/
def arr0_5 : S10x1x128.Idx → EReal := fun i => Spec.ksum (lin0 V c) (i 0) (i 2)
/-- The column sums of its squares block by block, as an array. -/
def arr0_6 : S10x1x128.Idx → EReal := fun i => Spec.ksq (lin0 V c) (i 0) (i 2)

/-! ## Where a block's entry sits in its array -/

/-- The printed index maps over the ten grid points: the two feature windows and the image's window sit at the
    point's own row block, the weights and the bias at the one block there is, the two sums' windows at the point's
    own slice. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The grid point as a block number. -/
def pt0 (t : Fin cfg0.N) : Fin 10 := Fin.cast N_0 t

/-- Entry (p, k) of a feature block is entry (block's first row + p, k) of the array. -/
theorem emb0_0 (t : Fin cfg0.N) (p : Fin 5000) (k : Fin 128) :
    ((cfg0.win 0).blk t).view.emb (ix2 p k) = (ix2 (brow (pt0 t) p) k : S50000x128.Idx) := by
  obtain ⟨e0, e1, -⟩ := idx0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb0_1 (t : Fin cfg0.N) (p : Fin 5000) (k : Fin 128) :
    ((cfg0.win 1).blk t).view.emb (ix2 p k) = (ix2 (brow (pt0 t) p) k : S50000x128.Idx) := by
  obtain ⟨-, -, e0, e1, -⟩ := idx0 t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- The weights' and the bias's one block is the array. -/
theorem emb0_2 (t : Fin cfg0.N) (k q : Fin 128) :
    ((cfg0.win 2).blk t).view.emb (ix2 k q) = (ix2 k q : S128x128.Idx) := by
  obtain ⟨-, -, -, -, e0, e1, -⟩ := idx0 t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem emb0_3 (t : Fin cfg0.N) (u : Fin 1) (q : Fin 128) :
    ((cfg0.win 3).blk t).view.emb (ix2 u q) = (ix2 u q : S1x128.Idx) := by
  obtain ⟨-, -, -, -, -, -, e0, e1, -⟩ := idx0 t
  funext a; apply Fin.ext
  match a with
  | ⟨0, _⟩ => show win0_3.index t (0 : Fin 2) * 1 + 1 * u.val = u.val; omega
  | ⟨1, _⟩ => show win0_3.index t (1 : Fin 2) * 128 + 1 * q.val = q.val; omega

theorem emb0_4 (t : Fin cfg0.N) (p : Fin 5000) (q : Fin 128) :
    ((cfg0.win 4).blk t).view.emb (ix2 p q) = (ix2 (brow (pt0 t) p) q : S50000x128.Idx) := by
  obtain ⟨-, -, -, -, -, -, -, -, e0, e1, -⟩ := idx0 t
  funext a; apply Fin.ext
  match a with
  | ⟨0, _⟩ => show win0_4.index t (0 : Fin 2) * 5000 + 1 * p.val = t.val * 5000 + p.val; omega
  | ⟨1, _⟩ => show win0_4.index t (1 : Fin 2) * 128 + 1 * q.val = q.val; omega

/-- The one row of a block of sums is slice number (the point) of the stack. -/
theorem emb0_5 (t : Fin cfg0.N) (u v : Fin 1) (q : Fin 128) :
    ((cfg0.win 5).blk t).view.emb (ix3 u v q) = (ix3 (pt0 t) v q : S10x1x128.Idx) := by
  obtain ⟨-, -, -, -, -, -, -, -, -, -, e0, e1, e2, -⟩ := idx0 t
  funext a; apply Fin.ext
  match a with
  | ⟨0, _⟩ => show win0_5.index t (0 : Fin 3) * 1 + 1 * u.val = t.val; omega
  | ⟨1, _⟩ => show win0_5.index t (1 : Fin 3) * 1 + 1 * v.val = v.val; omega
  | ⟨2, _⟩ => show win0_5.index t (2 : Fin 3) * 128 + 1 * q.val = q.val; omega

theorem emb0_6 (t : Fin cfg0.N) (u v : Fin 1) (q : Fin 128) :
    ((cfg0.win 6).blk t).view.emb (ix3 u v q) = (ix3 (pt0 t) v q : S10x1x128.Idx) := by
  obtain ⟨-, -, -, -, -, -, -, -, -, -, -, -, -, e0, e1, e2⟩ := idx0 t
  funext a; apply Fin.ext
  match a with
  | ⟨0, _⟩ => show win0_6.index t (0 : Fin 3) * 1 + 1 * u.val = t.val; omega
  | ⟨1, _⟩ => show win0_6.index t (1 : Fin 3) * 1 + 1 * v.val = v.val; omega
  | ⟨2, _⟩ => show win0_6.index t (2 : Fin 3) * 128 + 1 * q.val = q.val; omega

/-! ## What a grid point's body computes is its block of the whole arrays -/

/-- One entry of the image computed from the point's four blocks is the whole image at the block's row. -/
theorem cell0 (t : Fin cfg0.N) (p : Fin 5000) (q : Fin 128)
    (x0 x1 : Vec Ideal S5000x128 .f32) (x2 : Vec Ideal S128x128 .f32) (x3 : Vec Ideal S1x128 .f32)
    (h0 : x0 = iblk0 V c 0 t) (h1 : x1 = iblk0 V c 1 t) (h2 : x2 = iblk0 V c 2 t) (h3 : x3 = iblk0 V c 3 t) :
    (∑ k : Fin 128, (x0 (ix2 p k) + x1 (ix2 p k)) * x2 (ix2 k q)) + x3 (ix2 0 q)
      = lin0 V c (brow (pt0 t) p) q := by
  subst h0 h1 h2 h3
  have a0 : ∀ k : Fin 128, iblk0 V c 0 t (ix2 p k)
      = (V c (Pipeline.arrRef spec0 0) : S50000x128.Idx → EReal) (ix2 (brow (pt0 t) p) k) :=
    fun k => congrArg (V c (Pipeline.arrRef spec0 0)) (emb0_0 t p k)
  have a1 : ∀ k : Fin 128, iblk0 V c 1 t (ix2 p k)
      = (V c (Pipeline.arrRef spec0 1) : S50000x128.Idx → EReal) (ix2 (brow (pt0 t) p) k) :=
    fun k => congrArg (V c (Pipeline.arrRef spec0 1)) (emb0_1 t p k)
  have a2 : ∀ k : Fin 128, iblk0 V c 2 t (ix2 k q)
      = (V c (Pipeline.arrRef spec0 2) : S128x128.Idx → EReal) (ix2 k q) :=
    fun k => congrArg (V c (Pipeline.arrRef spec0 2)) (emb0_2 t k q)
  have a3 : iblk0 V c 3 t (ix2 0 q) = (V c (Pipeline.arrRef spec0 3) : S1x128.Idx → EReal) (ix2 0 q) :=
    congrArg (V c (Pipeline.arrRef spec0 3)) (emb0_3 t 0 q)
  unfold lin0 Spec.lin cur2 row0
  refine congr (congrArg HAdd.hAdd (Finset.sum_congr rfl fun k _ => ?_)) a3
  exact congr (congrArg HMul.hMul (congr (congrArg HAdd.hAdd (a0 k)) (a1 k))) (a2 k)

end Arrays

section Blocks
variable (V : (c : Dev nD) → (b : Ref sig .tc) → Buf (Elt Ideal) ((c : Thread nD τ).loc b)) (c : Dev nD)

/-- The image's block at a point is the point's block of the whole image. -/
theorem blk0_4 (t : Fin cfg0.N) :
    k0_pay1 (iblk0 V c 0 t) (iblk0 V c 1 t) (iblk0 V c 2 t) (iblk0 V c 3 t)
      = ((cfg0.win 4).blk t).view.read (Elt Ideal) (arr0_4 V c) := by
  funext j
  obtain ⟨p, q, rfl⟩ : ∃ (p : Fin 5000) (q : Fin 128), j = ix2 p q := ⟨j 0, j 1, eq_ix2 j⟩
  refine (k0_pay1_apply _ _ _ _ p q).trans ?_
  refine (cell0 V c t p q _ _ _ _ rfl rfl rfl rfl).trans ?_
  exact (congrArg (arr0_4 V c) (emb0_4 t p q)).symm

/-- The column sums a point computes are the point's slice of the blockwise column sums of the whole image. -/
theorem blk0_5 (t : Fin cfg0.N) :
    k0_pay2 (iblk0 V c 0 t) (iblk0 V c 1 t) (iblk0 V c 2 t) (iblk0 V c 3 t)
      = ((cfg0.win 5).blk t).view.read (Elt Ideal) (arr0_5 V c) := by
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (k0_pay2_apply _ _ _ _ q).trans ?_
  refine (Finset.sum_congr rfl fun p _ => cell0 V c t p q _ _ _ _ rfl rfl rfl rfl).trans ?_
  exact (congrArg (arr0_5 V c) (emb0_5 t 0 0 q)).symm

/-- Likewise the column sums of squares. -/
theorem blk0_6 (t : Fin cfg0.N) :
    k0_pay3 (iblk0 V c 0 t) (iblk0 V c 1 t) (iblk0 V c 2 t) (iblk0 V c 3 t)
      = ((cfg0.win 6).blk t).view.read (Elt Ideal) (arr0_6 V c) := by
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (k0_pay3_apply _ _ _ _ q).trans ?_
  refine (Finset.sum_congr rfl fun p _ => by rw [cell0 V c t p q _ _ _ _ rfl rfl rfl rfl]).trans ?_
  exact (congrArg (arr0_6 V c) (emb0_6 t 0 0 q)).symm

end Blocks

section Final
variable (V : (c : Dev nD) → (b : Ref sig .tc) → Buf (Elt Ideal) ((c : Thread nD τ).loc b)) (c : Dev nD)

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## What each point writes back is its block of the whole array -/

theorem flushed0_4 (t : Fin cfg0.N) :
    (dat0 V c).flushed 4 t = ((cfg0.win 4).blk t).view.read (Elt Ideal) (arr0_4 V c) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S128x128) hz2,
    View.ld_unit_zero (S := S1x128) hz2]
  exact blk0_4 V c t

theorem flushed0_5 (t : Fin cfg0.N) :
    (dat0 V c).flushed 5 t = ((cfg0.win 5).blk t).view.read (Elt Ideal) (arr0_5 V c) := by
  show (cfg0.win 5).cut (grid0.coords t) ((dat0 V c).after 5 t) = _
  rw [after0_5]
  unfold out0_5
  rw [View.canon_unit_zero hz3]
  simp only [View.ld_unit_zero (S := S5000x128) hz2, View.ld_unit_zero (S := S128x128) hz2,
    View.ld_unit_zero (S := S1x128) hz2]
  exact blk0_5 V c t

theorem flushed0_6 (t : Fin cfg0.N) :
    (dat0 V c).flushed 6 t = ((cfg0.win 6).blk t).view.read (Elt Ideal) (arr0_6 V c) := by
  show (cfg0.win 6).cut (grid0.coords t) ((dat0 V c).after 6 t) = _
  rw [after0_6]
  unfold out0_6
  rw [View.canon_unit_zero hz3]
  simp only [View.ld_unit_zero (S := S5000x128) hz2, View.ld_unit_zero (S := S128x128) hz2,
    View.ld_unit_zero (S := S1x128) hz2]
  exact blk0_6 V c t

/-! ## The blocks tile the arrays -/

/-- An index is in a point's block when each coordinate is in the block's range on its axis. -/
theorem mem0_4 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole (Pipeline.arrRef spec0 4)).slice (win0_4.rect t)).set ↔ _
  rw [View.set_slice_whole, Rect.mem_set_unit]
  exact Iff.rfl

theorem mem0_5 (t : Fin cfg0.N) (i : S10x1x128.Idx) :
    i ∈ ((cfg0.win 5).blk t).view.set ↔ ∀ a : Fin 3, win0_5.index t a * S1x1x128.size a ≤ (i a).val
      ∧ (i a).val < win0_5.index t a * S1x1x128.size a + S1x1x128.size a := by
  show i ∈ ((View.whole (Pipeline.arrRef spec0 5)).slice (win0_5.rect t)).set ↔ _
  rw [View.set_slice_whole, Rect.mem_set_unit]
  exact Iff.rfl

theorem mem0_6 (t : Fin cfg0.N) (i : S10x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole (Pipeline.arrRef spec0 6)).slice (win0_6.rect t)).set ↔ _
  rw [View.set_slice_whole, Rect.mem_set_unit]
  exact Iff.rfl

/-- Row r of the image is in the block of point r / 5000. -/
theorem tile0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  refine ⟨t, flush0_4 t, ?_⟩
  rw [mem0_4]
  obtain ⟨-, -, -, -, -, -, -, -, e0, e1, -⟩ := idx0 t
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- Slice s of a stack of sums is the block of point s. -/
theorem tile0_5 (i : S10x1x128.Idx) :
    ∃ t : Fin cfg0.N, (cfg0.win 5).flush t = true ∧ i ∈ ((cfg0.win 5).blk t).view.set := by
  have hi0 : (i 0).val < 10 := (i 0).isLt
  have hi1 : (i 1).val < 1 := (i 1).isLt
  have hi2 : (i 2).val < 128 := (i 2).isLt
  obtain ⟨t, ht⟩ : ∃ t : Fin cfg0.N, t.val = (i 0).val :=
    ⟨⟨(i 0).val, by show _ < grid0.N; rw [N_0]; omega⟩, rfl⟩
  refine ⟨t, flush0_5 t, ?_⟩
  rw [mem0_5]
  obtain ⟨-, -, -, -, -, -, -, -, -, -, e0, e1, e2, -⟩ := idx0 t
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1 ≤ (i 1).val ∧ (i 1).val < win0_5.index t (1 : Fin 3) * 1 + 1
    omega
  | ⟨2, _⟩ =>
    show win0_5.index t (2 : Fin 3) * 128 ≤ (i 2).val ∧ (i 2).val < win0_5.index t (2 : Fin 3) * 128 + 128
    omega

theorem tile0_6 (i : S10x1x128.Idx) :
    ∃ t : Fin cfg0.N, (cfg0.win 6).flush t = true ∧ i ∈ ((cfg0.win 6).blk t).view.set := by
  have hi0 : (i 0).val < 10 := (i 0).isLt
  have hi1 : (i 1).val < 1 := (i 1).isLt
  have hi2 : (i 2).val < 128 := (i 2).isLt
  obtain ⟨t, ht⟩ : ∃ t : Fin cfg0.N, t.val = (i 0).val :=
    ⟨⟨(i 0).val, by show _ < grid0.N; rw [N_0]; omega⟩, rfl⟩
  refine ⟨t, flush0_6 t, ?_⟩
  rw [mem0_6]
  obtain ⟨-, -, -, -, -, -, -, -, -, -, -, -, -, e0, e1, e2⟩ := idx0 t
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1 ≤ (i 1).val ∧ (i 1).val < win0_6.index t (1 : Fin 3) * 1 + 1
    omega
  | ⟨2, _⟩ =>
    show win0_6.index t (2 : Fin 3) * 128 ≤ (i 2).val ∧ (i 2).val < win0_6.index t (2 : Fin 3) * 128 + 128
    omega

/-! ## The three arrays after the region -/

theorem final0_4 : (dat0 V c).arrAt 4 cfg0.N = arr0_4 V c :=
  (dat0 V c).arrAt_eq_of_cover 4 (arr0_4 V c) (fun t _ => flushed0_4 V c t) tile0_4

theorem final0_5 : (dat0 V c).arrAt 5 cfg0.N = arr0_5 V c :=
  (dat0 V c).arrAt_eq_of_cover 5 (arr0_5 V c) (fun t _ => flushed0_5 V c t) tile0_5

theorem final0_6 : (dat0 V c).arrAt 6 cfg0.N = arr0_6 V c :=
  (dat0 V c).arrAt_eq_of_cover 6 (arr0_6 V c) (fun t _ => flushed0_6 V c t) tile0_6

/-- The image window ends holding the first linear map of the sum of the two feature arrays. -/
theorem val0_4 :
    cur2 ((dat0 V c).arrAt 4 cfg0.N : S50000x128.Idx → EReal)
      = Spec.lin (fun r k => cur2 (V c (Pipeline.arrRef spec0 0)) r k + cur2 (V c (Pipeline.arrRef spec0 1)) r k)
          (cur2 (V c (Pipeline.arrRef spec0 2))) (row0 (V c (Pipeline.arrRef spec0 3))) := by
  rw [final0_4]
  rfl

/-- The second output holds, slice by slice, the column sums of that image over the block's rows. -/
theorem val0_5 (t : Fin 10) (k : Fin 128) :
    ((dat0 V c).arrAt 5 cfg0.N : S10x1x128.Idx → EReal) (ValueIdx.ix3 t 0 k)
      = Spec.ksum (Spec.lin (fun r k => cur2 (V c (Pipeline.arrRef spec0 0)) r k + cur2 (V c (Pipeline.arrRef spec0 1)) r k)
          (cur2 (V c (Pipeline.arrRef spec0 2))) (row0 (V c (Pipeline.arrRef spec0 3)))) t k := by
  rw [final0_5]
  rfl

/-- The third holds the column sums of its squares. -/
theorem val0_6 (t : Fin 10) (k : Fin 128) :
    ((dat0 V c).arrAt 6 cfg0.N : S10x1x128.Idx → EReal) (ValueIdx.ix3 t 0 k)
      = Spec.ksq (Spec.lin (fun r k => cur2 (V c (Pipeline.arrRef spec0 0)) r k + cur2 (V c (Pipeline.arrRef spec0 1)) r k)
          (cur2 (V c (Pipeline.arrRef spec0 2))) (row0 (V c (Pipeline.arrRef spec0 3)))) t k := by
  rw [final0_6]
  rfl

end Final

end Cert.KernelIdeal.Hand

end
-- ==== Proof.KI.Val1Pay.lean ====
/-
  What the payloads of the batch-normalisation / rectifier / second-product kernel are at an index, over the
  extended reals: the block of the second affine map is, entry by entry, the sum over the features of the rectified
  normalised pre-activation times the weight, plus the bias; the two statistics rows are the column sums of that
  block and of its squares.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.Hand

open Cert.KernelIdeal Cert.KernelIdeal.Gen Cert.Spec
open Idealize.ShloMosaic Idealize.ShloMosaic.ValueIdx

/-! ## The matrix product's operand indices, coordinate by coordinate -/

theorem mmlrow1 (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
theorem mmlcol1 (j : S5000x128.Idx) (k : dot_S5000x128_S128x128_S5000x128_1_0_0_1_n_n.contr.Idx) :
    (dot_S5000x128_S128x128_S5000x128_1_0_0_1_n_n.lhsIdx j k 1 : ℕ) = k ⟨0, by decide⟩ := by
  simp [DotDims.lhsIdx, dot_S5000x128_S128x128_S5000x128_1_0_0_1_n_n]; rfl
theorem mmrrow1 (j : S5000x128.Idx) (k : dot_S5000x128_S128x128_S5000x128_1_0_0_1_n_n.contr.Idx) :
    (dot_S5000x128_S128x128_S5000x128_1_0_0_1_n_n.rhsIdx j k 0 : ℕ) = k ⟨0, by decide⟩ := by
  simp [DotDims.rhsIdx, dot_S5000x128_S128x128_S5000x128_1_0_0_1_n_n]; rfl
theorem mmrcol1 (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-- The product into the zero block, at row p and column q: the sum over the 128 features. -/
theorem mmat1 (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hl : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact mmlrow1 _ _
      | ⟨1, _⟩ => exact (mmlcol1 _ _).trans (contrEquiv1_symm_val _ 128 rfl rfl k))
  have hr : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (mmrrow1 _ _).trans (contrEquiv1_symm_val _ 128 rfl rfl k)
      | ⟨1, _⟩ => exact mmrcol1 _ _)
  rw [hl, hr]

/-- The sum over the 5000 rows of a block, at column q. -/
theorem rsum1 (src : FVec Ideal S5000x128 .f32) (hφ : FKind.Formats .f32) (hacc : (0x00000000#32 : BitVec 32) = 0x00000000#32)
    (q : Fin 128) :
    multiReduction (F := Ideal) .add [0] S128 src 0x00000000#32 reduces_S5000x128_S128 hφ hacc (ix1 q)
      = ∑ p : Fin 5000, src (ix2 p q) := by
  refine (Ideal.multiReduction_add_single src 0x00000000#32 reduces_S5000x128_S128 hφ hacc (ix1 q)).trans ?_
  refine Finset.sum_congr rfl fun p _ => congrArg src (funext fun ax => Fin.ext ?_)
  match ax with
  | ⟨0, _⟩ => rfl
  | ⟨1, _⟩ => rfl

/-! ## The payloads at an index -/

/-- The block of the second affine map at row p and column q. The inputs are named in the kernel's window order:
    the pre-activations, their mean, their variance, the scale, the shift, the weights, the bias. -/
theorem payz1 (xz : Vec Ideal S5000x128 .f32) (xm xv xg xb : Vec Ideal S1x128 .f32) (xw : Vec Ideal S128x128 .f32)
    (xc : Vec Ideal S1x128 .f32) (p : Fin 5000) (q : Fin 128) :
    k1_pay3 xz xv xm xg xb xw xc (ix2 p q)
      = (∑ k : Fin 128, max ((xz (ix2 p k) - xm (ix2 0 k)) * Ideal.rsqrt (xv (ix2 0 k) + eps) * xg (ix2 0 k) + xb (ix2 0 k)) 0
            * xw (ix2 k q)) + xc (ix2 0 q) := by
  unfold k1_pay3
  refine (congrArg₂ (· + ·) (mmat1 _ _ p q) (broadcastTo_1b_ab_apply _ _ p q)).trans ?_
  simp only [shapeCast_self]
  refine congrArg (· + xc (ix2 0 q)) (Finset.sum_congr rfl fun k _ => ?_)
  simp only [truncf_apply, maximumf_apply, addf_apply, mulf_apply, subf_apply, broadcast_apply, broadcastTo_1b_ab_apply]
  have hzero : (FloatOps.ofBits (F := Ideal) .f32 0x00000000#32) = 0 := Ideal.ofBits_zero_f32
  rw [hzero]
  rfl

/-- The row of column sums the kernel stores: at column q, the sum of the block's entries down the 5000 rows. -/
theorem paysum1 (xz : Vec Ideal S5000x128 .f32) (xm xv xg xb : Vec Ideal S1x128 .f32) (xw : Vec Ideal S128x128 .f32)
    (xc : Vec Ideal S1x128 .f32) (u v : Fin 1) (q : Fin 128) :
    k1_pay1 (k1_pay4 xz xv xm xg xb xw xc) (ix3 u v q) = ∑ p : Fin 5000, k1_pay3 xz xv xm xg xb xw xc (ix2 p q) := by
  unfold k1_pay1 k1_pay4
  refine (shapeCast_ab_1ab_apply _ _ u v q).trans ?_
  refine (shapeCast_a_1a_apply _ _ v q).trans ?_
  exact rsum1 _ _ _ q

/-- The row of column sums of squares: at column q, the sum of the squared entries down the rows. -/
theorem paysq1 (xz : Vec Ideal S5000x128 .f32) (xm xv xg xb : Vec Ideal S1x128 .f32) (xw : Vec Ideal S128x128 .f32)
    (xc : Vec Ideal S1x128 .f32) (u v : Fin 1) (q : Fin 128) :
    k1_pay2 (k1_pay5 xz xv xm xg xb xw xc) (ix3 u v q)
      = ∑ p : Fin 5000, k1_pay3 xz xv xm xg xb xw xc (ix2 p q) * k1_pay3 xz xv xm xg xb xw xc (ix2 p q) := by
  unfold k1_pay2 k1_pay5
  refine (shapeCast_ab_1ab_apply _ _ u v q).trans ?_
  refine (shapeCast_a_1a_apply _ _ v q).trans ?_
  exact rsum1 _ _ _ q

end Cert.KernelIdeal.Hand

end
-- ==== Proof.KI.Val1Blk.lean ====
/-
  Where the blocks of the batch-normalisation / rectifier / second-product kernel sit in their arrays: at grid point t
  the block of pre-activations and the block of results are rows 5000·t … 5000·t + 4999, the per-feature rows and the
  weights are whole arrays, and the two statistics rows are row t of their ten-row arrays; the result blocks cover
  their arrays. Also the layer's second affine map of whole arrays, as one function.
-/
import proofs.«422260_j36421322670663_2_alg».proof.Proof.Gen.KernelIdeal.Launch
import proofs.«422260_j36421322670663_2_alg».proof.Proof.Gen.KernelIdeal.Points
import proofs.«422260_j36421322670663_2_alg».proof.Proof.Spec
import proofs.«422260_j36421322670663_2_alg».proof.Proof.SpecPool
import Idealize.ShloMosaic.Lib.ValueIdx
import Idealize.ShloMosaic.Lib.Pipeline.Value

set_option pp.maxSteps 5000
set_option pp.deepTerms false

noncomputable section

namespace Cert.KernelIdeal.Hand

open Cert.KernelIdeal Cert.KernelIdeal.Gen Cert.Spec
open Idealize.ShloMosaic Idealize.ShloMosaic.ValueIdx Idealize.ShloMosaic.TcCoe

/-- The second affine map of the rectified normalised pre-activations, from whole arrays. -/
def gz1 (az : S50000x128.Idx → EReal) (am av ag ab : S1x128.Idx → EReal) (aw : S128x128.Idx → EReal)
    (ac : S1x128.Idx → EReal) : Mat 50000 128 :=
  Spec.lin (Spec.bnrelu (cur2 az) (row0 am) (row0 av) (row0 ag) (row0 ab)) (cur2 aw) (row0 ac)

/-- A grid point as a block number. -/
def tblk1 (t : Fin cfg1.N) : Fin 10 := Fin.cast N_1 t

theorem tblk1_val (t : Fin cfg1.N) : (tblk1 t).val = t.val := rfl

/-- The block indices at every grid point. -/
theorem blkidx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 3) = t.val ∧ win1_8.index t (1 : Fin 3) = 0 ∧ win1_8.index t (2 : Fin 3) = 0
    ∧ win1_9.index t (0 : Fin 3) = t.val ∧ win1_9.index t (1 : Fin 3) = 0 ∧ win1_9.index t (2 : Fin 3) = 0 :=
  (by decide +kernel : ∀ t : Fin grid1.N, _)

/-! ## Where a block's entry sits in its array -/

theorem embz1 (t : Fin cfg1.N) (p : Fin 5000) (k : Fin 128) :
    ((cfg1.win 0).blk t).view.emb (ix2 p k) = ix2 (brow (tblk1 t) p) k := by
  have e := blkidx1 t
  funext a; apply Fin.ext
  match a with
  | ⟨0, _⟩ => show win1_0.index t (0 : Fin 2) * 5000 + 1 * p.val = t.val * 5000 + p.val; rw [e.1]; omega
  | ⟨1, _⟩ => show win1_0.index t (1 : Fin 2) * 128 + 1 * k.val = k.val; rw [e.2.1]; omega

theorem embm1 (t : Fin cfg1.N) (u : Fin 1) (k : Fin 128) :
    ((cfg1.win 1).blk t).view.emb (ix2 u k) = ix2 0 k := by
  have e := blkidx1 t
  funext a; apply Fin.ext
  match a with
  | ⟨0, _⟩ => show win1_1.index t (0 : Fin 2) * 1 + 1 * u.val = 0; rw [e.2.2.1]; omega
  | ⟨1, _⟩ => show win1_1.index t (1 : Fin 2) * 128 + 1 * k.val = k.val; rw [e.2.2.2.1]; omega

theorem embv1 (t : Fin cfg1.N) (u : Fin 1) (k : Fin 128) :
    ((cfg1.win 2).blk t).view.emb (ix2 u k) = ix2 0 k := by
  have e := blkidx1 t
  funext a; apply Fin.ext
  match a with
  | ⟨0, _⟩ => show win1_2.index t (0 : Fin 2) * 1 + 1 * u.val = 0; rw [e.2.2.2.2.1]; omega
  | ⟨1, _⟩ => show win1_2.index t (1 : Fin 2) * 128 + 1 * k.val = k.val; rw [e.2.2.2.2.2.1]; omega

theorem embg1 (t : Fin cfg1.N) (u : Fin 1) (k : Fin 128) :
    ((cfg1.win 3).blk t).view.emb (ix2 u k) = ix2 0 k := by
  have e := blkidx1 t
  funext a; apply Fin.ext
  match a with
  | ⟨0, _⟩ => show win1_3.index t (0 : Fin 2) * 1 + 1 * u.val = 0; rw [e.2.2.2.2.2.2.1]; omega
  | ⟨1, _⟩ => show win1_3.index t (1 : Fin 2) * 128 + 1 * k.val = k.val; rw [e.2.2.2.2.2.2.2.1]; omega

theorem embb1 (t : Fin cfg1.N) (u : Fin 1) (k : Fin 128) :
    ((cfg1.win 4).blk t).view.emb (ix2 u k) = ix2 0 k := by
  have e := blkidx1 t
  funext a; apply Fin.ext
  match a with
  | ⟨0, _⟩ => show win1_4.index t (0 : Fin 2) * 1 + 1 * u.val = 0; rw [e.2.2.2.2.2.2.2.2.1]; omega
  | ⟨1, _⟩ => show win1_4.index t (1 : Fin 2) * 128 + 1 * k.val = k.val; rw [e.2.2.2.2.2.2.2.2.2.1]; omega

theorem embw1 (t : Fin cfg1.N) (k q : Fin 128) :
    ((cfg1.win 5).blk t).view.emb (ix2 k q) = ix2 k q := by
  have e := blkidx1 t
  funext a; apply Fin.ext
  match a with
  | ⟨0, _⟩ => show win1_5.index t (0 : Fin 2) * 128 + 1 * k.val = k.val; rw [e.2.2.2.2.2.2.2.2.2.2.1]; omega
  | ⟨1, _⟩ => show win1_5.index t (1 : Fin 2) * 128 + 1 * q.val = q.val; rw [e.2.2.2.2.2.2.2.2.2.2.2.1]; omega

theorem embc1 (t : Fin cfg1.N) (u : Fin 1) (k : Fin 128) :
    ((cfg1.win 6).blk t).view.emb (ix2 u k) = ix2 0 k := by
  have e := blkidx1 t
  funext a; apply Fin.ext
  match a with
  | ⟨0, _⟩ => show win1_6.index t (0 : Fin 2) * 1 + 1 * u.val = 0; rw [e.2.2.2.2.2.2.2.2.2.2.2.2.1]; omega
  | ⟨1, _⟩ => show win1_6.index t (1 : Fin 2) * 128 + 1 * k.val = k.val; rw [e.2.2.2.2.2.2.2.2.2.2.2.2.2.1]; omega

theorem embo1_7 (t : Fin cfg1.N) (p : Fin 5000) (q : Fin 128) :
    ((cfg1.win 7).blk t).view.emb (ix2 p q) = ix2 (brow (tblk1 t) p) q := by
  have e := blkidx1 t
  funext a; apply Fin.ext
  match a with
  | ⟨0, _⟩ => show win1_7.index t (0 : Fin 2) * 5000 + 1 * p.val = t.val * 5000 + p.val; rw [e.2.2.2.2.2.2.2.2.2.2.2.2.2.2.1]; omega
  | ⟨1, _⟩ => show win1_7.index t (1 : Fin 2) * 128 + 1 * q.val = q.val; rw [e.2.2.2.2.2.2.2.2.2.2.2.2.2.2.2.1]; omega

theorem embo1_8 (t : Fin cfg1.N) (u v : Fin 1) (q : Fin 128) :
    ((cfg1.win 8).blk t).view.emb (ix3 u v q) = ix3 (tblk1 t) 0 q := by
  obtain ⟨-, -, -, -, -, -, -, -, -, -, -, -, -, -, -, -, e0, e1, e2, -⟩ := blkidx1 t
  funext a; apply Fin.ext
  match a with
  | ⟨0, _⟩ => show win1_8.index t (0 : Fin 3) * 1 + 1 * u.val = t.val; rw [e0]; omega
  | ⟨1, _⟩ => show win1_8.index t (1 : Fin 3) * 1 + 1 * v.val = 0; rw [e1]; omega
  | ⟨2, _⟩ => show win1_8.index t (2 : Fin 3) * 128 + 1 * q.val = q.val; rw [e2]; omega

theorem embo1_9 (t : Fin cfg1.N) (u v : Fin 1) (q : Fin 128) :
    ((cfg1.win 9).blk t).view.emb (ix3 u v q) = ix3 (tblk1 t) 0 q := by
  obtain ⟨-, -, -, -, -, -, -, -, -, -, -, -, -, -, -, -, -, -, -, e0, e1, e2⟩ := blkidx1 t
  funext a; apply Fin.ext
  match a with
  | ⟨0, _⟩ => show win1_9.index t (0 : Fin 3) * 1 + 1 * u.val = t.val; rw [e0]; omega
  | ⟨1, _⟩ => show win1_9.index t (1 : Fin 3) * 1 + 1 * v.val = 0; rw [e1]; omega
  | ⟨2, _⟩ => show win1_9.index t (2 : Fin 3) * 128 + 1 * q.val = q.val; rw [e2]; omega

/-! ## The result blocks cover their arrays -/

/-- Every entry of the array of results lies in the block of the point its row belongs to. -/
theorem cover1_7w (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  obtain ⟨-, -, -, -, -, -, -, -, -, -, -, -, -, -, e0, e1, -⟩ := blkidx1 t
  refine ⟨t, flush1_7 t, ?_⟩
  show i ∈ ((View.whole (Pipeline.arrRef spec1 7)).slice (win1_7.rect t)).set
  rw [View.set_slice_whole, Rect.mem_set_unit]
  intro a
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 128 ≤ (i 1).val ∧ (i 1).val < win1_7.index t (1 : Fin 2) * 128 + 128; rw [e1]; omega

/-- Every entry of the ten rows of column sums lies in the block of its row's point. -/
theorem cover1_8w (i : S10x1x128.Idx) :
    ∃ t : Fin cfg1.N, (cfg1.win 8).flush t = true ∧ i ∈ ((cfg1.win 8).blk t).view.set := by
  have hi0 : (i 0).val < 10 := (i 0).isLt
  have hi1 : (i 1).val < 1 := (i 1).isLt
  have hi2 : (i 2).val < 128 := (i 2).isLt
  have hN : cfg1.N = 10 := N_1
  let t : Fin cfg1.N := ⟨(i 0).val, by rw [hN]; omega⟩
  have ht : t.val = (i 0).val := rfl
  obtain ⟨-, -, -, -, -, -, -, -, -, -, -, -, -, -, -, -, e0, e1, e2, -⟩ := blkidx1 t
  refine ⟨t, flush1_8 t, ?_⟩
  show i ∈ ((View.whole (Pipeline.arrRef spec1 8)).slice (win1_8.rect t)).set
  rw [View.set_slice_whole, Rect.mem_set_unit]
  intro a
  match a with
  | ⟨0, _⟩ => show win1_8.index t (0 : Fin 3) * 1 ≤ (i 0).val ∧ (i 0).val < win1_8.index t (0 : Fin 3) * 1 + 1; rw [e0, ht]; omega
  | ⟨1, _⟩ => show win1_8.index t (1 : Fin 3) * 1 ≤ (i 1).val ∧ (i 1).val < win1_8.index t (1 : Fin 3) * 1 + 1; rw [e1]; omega
  | ⟨2, _⟩ => show win1_8.index t (2 : Fin 3) * 128 ≤ (i 2).val ∧ (i 2).val < win1_8.index t (2 : Fin 3) * 128 + 128; rw [e2]; omega

/-- The same for the ten rows of column sums of squares. -/
theorem cover1_9w (i : S10x1x128.Idx) :
    ∃ t : Fin cfg1.N, (cfg1.win 9).flush t = true ∧ i ∈ ((cfg1.win 9).blk t).view.set := by
  have hi0 : (i 0).val < 10 := (i 0).isLt
  have hi1 : (i 1).val < 1 := (i 1).isLt
  have hi2 : (i 2).val < 128 := (i 2).isLt
  have hN : cfg1.N = 10 := N_1
  let t : Fin cfg1.N := ⟨(i 0).val, by rw [hN]; omega⟩
  have ht : t.val = (i 0).val := rfl
  obtain ⟨-, -, -, -, -, -, -, -, -, -, -, -, -, -, -, -, -, -, -, e0, e1, e2⟩ := blkidx1 t
  refine ⟨t, flush1_9 t, ?_⟩
  show i ∈ ((View.whole (Pipeline.arrRef spec1 9)).slice (win1_9.rect t)).set
  rw [View.set_slice_whole, Rect.mem_set_unit]
  intro a
  match a with
  | ⟨0, _⟩ => show win1_9.index t (0 : Fin 3) * 1 ≤ (i 0).val ∧ (i 0).val < win1_9.index t (0 : Fin 3) * 1 + 1; rw [e0, ht]; omega
  | ⟨1, _⟩ => show win1_9.index t (1 : Fin 3) * 1 ≤ (i 1).val ∧ (i 1).val < win1_9.index t (1 : Fin 3) * 1 + 1; rw [e1]; omega
  | ⟨2, _⟩ => show win1_9.index t (2 : Fin 3) * 128 ≤ (i 2).val ∧ (i 2).val < win1_9.index t (2 : Fin 3) * 128 + 128; rw [e2]; omega

end Cert.KernelIdeal.Hand

end
-- ==== Proof.KI.Val1.lean ====
/-
  What the batch-normalisation / rectifier / second-product kernel leaves in its three result arrays, over the extended
  reals: the array of the second affine map is that map of the whole input arrays, and row t of the two statistics
  arrays holds the column sums, and the column sums of squares, of rows 5000·t … 5000·t + 4999 of it.
-/
import proofs.«422260_j36421322670663_2_alg».proof.Proof.KI.Reg1
import proofs.«422260_j36421322670663_2_alg».proof.Proof.KI.Val1Pay
import proofs.«422260_j36421322670663_2_alg».proof.Proof.KI.Val1Blk

set_option pp.maxSteps 5000
set_option pp.deepTerms false

noncomputable section

namespace Cert.KernelIdeal.Hand

open Cert.KernelIdeal Cert.KernelIdeal.Gen Cert.Spec
open Idealize.ShloMosaic Idealize.ShloMosaic.ValueIdx Idealize.ShloMosaic.TcCoe
open Idealize.SL.Sem
open Idealize.ShloMosaic.Pipeline (Dat Cfg Window)

-- the contents of every array when the region is entered
variable (V : (c : Dev nD) → (b : Ref sig .tc) → Buf (Elt Ideal) ((c : Thread nD τ).loc b))

theorem hzz1 : (![0, 0] : Fin 2 → Nat) = fun _ => 0 := funext fun a => by fin_cases a <;> rfl
theorem hzzz1 : (![0, 0, 0] : Fin 3 → Nat) = fun _ => 0 := funext fun a => by fin_cases a <;> rfl

/-- The second affine map of the arrays as the region finds them. -/
abbrev garr1 (c : Dev nD) : Mat 50000 128 :=
  gz1 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6))

/-! ## One entry of a block's result, from blocks that are parts of arrays -/

/-- If row p of the block of pre-activations is row r of their array and the other blocks are their arrays, the
    block's result at (p, q) is the array's second affine map at (r, q). -/
theorem ptz1 (az : S50000x128.Idx → EReal) (am av ag ab : S1x128.Idx → EReal) (aw : S128x128.Idx → EReal)
    (ac : S1x128.Idx → EReal)
    (xz : Vec Ideal S5000x128 .f32) (xm xv xg xb : Vec Ideal S1x128 .f32) (xw : Vec Ideal S128x128 .f32)
    (xc : Vec Ideal S1x128 .f32) (r : Fin 50000) (p : Fin 5000) (q : Fin 128)
    (hz : ∀ k : Fin 128, xz (ix2 p k) = az (ix2 r k))
    (hm : ∀ k : Fin 128, xm (ix2 0 k) = am (ix2 0 k)) (hv : ∀ k : Fin 128, xv (ix2 0 k) = av (ix2 0 k))
    (hg : ∀ k : Fin 128, xg (ix2 0 k) = ag (ix2 0 k)) (hb : ∀ k : Fin 128, xb (ix2 0 k) = ab (ix2 0 k))
    (hw : ∀ k : Fin 128, xw (ix2 k q) = aw (ix2 k q)) (hc : xc (ix2 0 q) = ac (ix2 0 q)) :
    k1_pay3 xz xv xm xg xb xw xc (ix2 p q) = gz1 az am av ag ab aw ac r q := by
  rw [payz1]
  simp only [gz1, Spec.lin, Spec.bnrelu, cur2, row0, hz, hm, hv, hg, hb, hw, hc]

/-- Each input block read at an entry is its array read where the block sits. -/
theorem iblkz1 (c : Dev nD) (t : Fin cfg1.N) (p : Fin 5000) (k : Fin 128) :
    (iblk1 V c 0 t : Vec Ideal S5000x128 .f32) (ix2 p k)
      = (V c (Pipeline.arrRef spec1 0) : S50000x128.Idx → EReal) (ix2 (brow (tblk1 t) p) k) := by
  show (V c (Pipeline.arrRef spec1 0) : S50000x128.Idx → EReal) (((cfg1.win 0).blk t).view.emb (ix2 p k)) = _
  rw [embz1]
theorem iblkm1 (c : Dev nD) (t : Fin cfg1.N) (k : Fin 128) :
    (iblk1 V c 1 t : Vec Ideal S1x128 .f32) (ix2 0 k) = (V c (Pipeline.arrRef spec1 1) : S1x128.Idx → EReal) (ix2 0 k) := by
  show (V c (Pipeline.arrRef spec1 1) : S1x128.Idx → EReal) (((cfg1.win 1).blk t).view.emb (ix2 0 k)) = _
  rw [embm1]
theorem iblkv1 (c : Dev nD) (t : Fin cfg1.N) (k : Fin 128) :
    (iblk1 V c 2 t : Vec Ideal S1x128 .f32) (ix2 0 k) = (V c (Pipeline.arrRef spec1 2) : S1x128.Idx → EReal) (ix2 0 k) := by
  show (V c (Pipeline.arrRef spec1 2) : S1x128.Idx → EReal) (((cfg1.win 2).blk t).view.emb (ix2 0 k)) = _
  rw [embv1]
theorem iblkg1 (c : Dev nD) (t : Fin cfg1.N) (k : Fin 128) :
    (iblk1 V c 3 t : Vec Ideal S1x128 .f32) (ix2 0 k) = (V c (Pipeline.arrRef spec1 3) : S1x128.Idx → EReal) (ix2 0 k) := by
  show (V c (Pipeline.arrRef spec1 3) : S1x128.Idx → EReal) (((cfg1.win 3).blk t).view.emb (ix2 0 k)) = _
  rw [embg1]
theorem iblkb1 (c : Dev nD) (t : Fin cfg1.N) (k : Fin 128) :
    (iblk1 V c 4 t : Vec Ideal S1x128 .f32) (ix2 0 k) = (V c (Pipeline.arrRef spec1 4) : S1x128.Idx → EReal) (ix2 0 k) := by
  show (V c (Pipeline.arrRef spec1 4) : S1x128.Idx → EReal) (((cfg1.win 4).blk t).view.emb (ix2 0 k)) = _
  rw [embb1]
theorem iblkw1 (c : Dev nD) (t : Fin cfg1.N) (k q : Fin 128) :
    (iblk1 V c 5 t : Vec Ideal S128x128 .f32) (ix2 k q) = (V c (Pipeline.arrRef spec1 5) : S128x128.Idx → EReal) (ix2 k q) := by
  show (V c (Pipeline.arrRef spec1 5) : S128x128.Idx → EReal) (((cfg1.win 5).blk t).view.emb (ix2 k q)) = _
  rw [embw1]
theorem iblkc1 (c : Dev nD) (t : Fin cfg1.N) (k : Fin 128) :
    (iblk1 V c 6 t : Vec Ideal S1x128 .f32) (ix2 0 k) = (V c (Pipeline.arrRef spec1 6) : S1x128.Idx → EReal) (ix2 0 k) := by
  show (V c (Pipeline.arrRef spec1 6) : S1x128.Idx → EReal) (((cfg1.win 6).blk t).view.emb (ix2 0 k)) = _
  rw [embc1]

/-- The result of point t's blocks at (p, q) is the arrays' second affine map at row 5000·t + p. -/
theorem blkpt1 (c : Dev nD) (t : Fin cfg1.N) (p : Fin 5000) (q : Fin 128) :
    k1_pay3 (iblk1 V c 0 t : Vec Ideal S5000x128 .f32) (iblk1 V c 2 t : Vec Ideal S1x128 .f32)
        (iblk1 V c 1 t : Vec Ideal S1x128 .f32) (iblk1 V c 3 t : Vec Ideal S1x128 .f32)
        (iblk1 V c 4 t : Vec Ideal S1x128 .f32) (iblk1 V c 5 t : Vec Ideal S128x128 .f32)
        (iblk1 V c 6 t : Vec Ideal S1x128 .f32) (ix2 p q)
      = garr1 V c (brow (tblk1 t) p) q :=
  ptz1 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6))
    (iblk1 V c 0 t) (iblk1 V c 1 t) (iblk1 V c 2 t) (iblk1 V c 3 t) (iblk1 V c 4 t) (iblk1 V c 5 t) (iblk1 V c 6 t)
    (brow (tblk1 t) p) p q
    (fun k => iblkz1 V c t p k) (fun k => iblkm1 V c t k) (fun k => iblkv1 V c t k) (fun k => iblkg1 V c t k)
    (fun k => iblkb1 V c t k) (fun k => iblkw1 V c t k q) (iblkc1 V c t q)

/-! ## What each point writes back is its block of one whole-array function -/

theorem flushed1_7 (c : Dev nD) (t : Fin cfg1.N) :
    (dat1 V c).flushed 7 t = ((cfg1.win 7).blk t).view.read (Elt Ideal)
      (fun i : S50000x128.Idx => garr1 V c (i 0) (i 1)) := by
  show (cfg1.win 7).cut (grid1.coords t) ((dat1 V c).after 7 t) = _
  rw [after1_7]
  unfold out1_7
  rw [View.canon_unit_zero hzz1]
  simp only [View.ld_unit_zero (S := S5000x128) hzz1, View.ld_unit_zero (S := S1x128) hzz1,
    View.ld_unit_zero (S := S128x128) hzz1]
  funext j
  obtain ⟨p, q, rfl⟩ : ∃ (p : Fin 5000) (q : Fin 128), j = ix2 p q := ⟨j 0, j 1, eq_ix2 j⟩
  show k1_pay3 (iblk1 V c 0 t : Vec Ideal S5000x128 .f32) (iblk1 V c 2 t : Vec Ideal S1x128 .f32)
        (iblk1 V c 1 t : Vec Ideal S1x128 .f32) (iblk1 V c 3 t : Vec Ideal S1x128 .f32)
        (iblk1 V c 4 t : Vec Ideal S1x128 .f32) (iblk1 V c 5 t : Vec Ideal S128x128 .f32)
        (iblk1 V c 6 t : Vec Ideal S1x128 .f32) (ix2 p q)
      = garr1 V c ((((cfg1.win 7).blk t).view.emb (ix2 p q)) 0) ((((cfg1.win 7).blk t).view.emb (ix2 p q)) 1)
  rw [embo1_7 t p q]
  exact blkpt1 V c t p q

theorem flushed1_8 (c : Dev nD) (t : Fin cfg1.N) :
    (dat1 V c).flushed 8 t = ((cfg1.win 8).blk t).view.read (Elt Ideal)
      (fun i : S10x1x128.Idx => Spec.ksum (garr1 V c) (i 0) (i 2)) := by
  show (cfg1.win 8).cut (grid1.coords t) ((dat1 V c).after 8 t) = _
  rw [after1_8]
  unfold out1_8
  rw [View.canon_unit_zero hzzz1]
  simp only [View.ld_unit_zero (S := S5000x128) hzz1, View.ld_unit_zero (S := S1x128) hzz1,
    View.ld_unit_zero (S := S128x128) hzz1]
  funext j
  obtain ⟨u, v, q, rfl⟩ : ∃ (u v : Fin 1) (q : Fin 128), j = ix3 u v q := ⟨j 0, j 1, j 2, eq_ix3 j⟩
  show k1_pay1 (k1_pay4 (iblk1 V c 0 t : Vec Ideal S5000x128 .f32) (iblk1 V c 2 t : Vec Ideal S1x128 .f32)
        (iblk1 V c 1 t : Vec Ideal S1x128 .f32) (iblk1 V c 3 t : Vec Ideal S1x128 .f32)
        (iblk1 V c 4 t : Vec Ideal S1x128 .f32) (iblk1 V c 5 t : Vec Ideal S128x128 .f32)
        (iblk1 V c 6 t : Vec Ideal S1x128 .f32)) (ix3 u v q)
      = Spec.ksum (garr1 V c) ((((cfg1.win 8).blk t).view.emb (ix3 u v q)) 0) ((((cfg1.win 8).blk t).view.emb (ix3 u v q)) 2)
  rw [embo1_8 t u v q]
  refine (paysum1 _ _ _ _ _ _ _ u v q).trans ?_
  exact Finset.sum_congr rfl fun p _ => blkpt1 V c t p q

theorem flushed1_9 (c : Dev nD) (t : Fin cfg1.N) :
    (dat1 V c).flushed 9 t = ((cfg1.win 9).blk t).view.read (Elt Ideal)
      (fun i : S10x1x128.Idx => Spec.ksq (garr1 V c) (i 0) (i 2)) := by
  show (cfg1.win 9).cut (grid1.coords t) ((dat1 V c).after 9 t) = _
  rw [after1_9]
  unfold out1_9
  rw [View.canon_unit_zero hzzz1]
  simp only [View.ld_unit_zero (S := S5000x128) hzz1, View.ld_unit_zero (S := S1x128) hzz1,
    View.ld_unit_zero (S := S128x128) hzz1]
  funext j
  obtain ⟨u, v, q, rfl⟩ : ∃ (u v : Fin 1) (q : Fin 128), j = ix3 u v q := ⟨j 0, j 1, j 2, eq_ix3 j⟩
  show k1_pay2 (k1_pay5 (iblk1 V c 0 t : Vec Ideal S5000x128 .f32) (iblk1 V c 2 t : Vec Ideal S1x128 .f32)
        (iblk1 V c 1 t : Vec Ideal S1x128 .f32) (iblk1 V c 3 t : Vec Ideal S1x128 .f32)
        (iblk1 V c 4 t : Vec Ideal S1x128 .f32) (iblk1 V c 5 t : Vec Ideal S128x128 .f32)
        (iblk1 V c 6 t : Vec Ideal S1x128 .f32)) (ix3 u v q)
      = Spec.ksq (garr1 V c) ((((cfg1.win 9).blk t).view.emb (ix3 u v q)) 0) ((((cfg1.win 9).blk t).view.emb (ix3 u v q)) 2)
  rw [embo1_9 t u v q]
  refine (paysq1 _ _ _ _ _ _ _ u v q).trans ?_
  exact Finset.sum_congr rfl fun p _ => congrArg₂ (· * ·) (blkpt1 V c t p q) (blkpt1 V c t p q)

/-! ## The arrays after the region -/

theorem arr1_7 (c : Dev nD) :
    ((dat1 V c).arrAt 7 cfg1.N : S50000x128.Idx → EReal) = fun i : S50000x128.Idx => garr1 V c (i 0) (i 1) :=
  (dat1 V c).arrAt_eq_of_cover 7 (fun i : S50000x128.Idx => garr1 V c (i 0) (i 1)) (fun t _ => flushed1_7 V c t) cover1_7w

theorem arr1_8 (c : Dev nD) :
    ((dat1 V c).arrAt 8 cfg1.N : S10x1x128.Idx → EReal) = fun i : S10x1x128.Idx => Spec.ksum (garr1 V c) (i 0) (i 2) :=
  (dat1 V c).arrAt_eq_of_cover 8 (fun i : S10x1x128.Idx => Spec.ksum (garr1 V c) (i 0) (i 2)) (fun t _ => flushed1_8 V c t) cover1_8w

theorem arr1_9 (c : Dev nD) :
    ((dat1 V c).arrAt 9 cfg1.N : S10x1x128.Idx → EReal) = fun i : S10x1x128.Idx => Spec.ksq (garr1 V c) (i 0) (i 2) :=
  (dat1 V c).arrAt_eq_of_cover 9 (fun i : S10x1x128.Idx => Spec.ksq (garr1 V c) (i 0) (i 2)) (fun t _ => flushed1_9 V c t) cover1_9w

/-- The array of the second affine map after the region: that map of the arrays the region found. -/
theorem val1_7 (c : Dev nD) :
    cur2 ((dat1 V c).arrAt 7 cfg1.N : S50000x128.Idx → EReal)
      = Spec.lin (Spec.bnrelu (cur2 (V c (Pipeline.arrRef spec1 0))) (row0 (V c (Pipeline.arrRef spec1 1)))
          (row0 (V c (Pipeline.arrRef spec1 2))) (row0 (V c (Pipeline.arrRef spec1 3)))
          (row0 (V c (Pipeline.arrRef spec1 4)))) (cur2 (V c (Pipeline.arrRef spec1 5)))
          (row0 (V c (Pipeline.arrRef spec1 6))) :=
  funext fun r => funext fun k => congrFun (arr1_7 V c) (ix2 r k)

/-- Row t of the column sums after the region. -/
theorem val1_8 (c : Dev nD) (t : Fin 10) (k : Fin 128) :
    ((dat1 V c).arrAt 8 cfg1.N : S10x1x128.Idx → EReal) (ValueIdx.ix3 t 0 k)
      = Spec.ksum (Spec.lin (Spec.bnrelu (cur2 (V c (Pipeline.arrRef spec1 0))) (row0 (V c (Pipeline.arrRef spec1 1)))
          (row0 (V c (Pipeline.arrRef spec1 2))) (row0 (V c (Pipeline.arrRef spec1 3)))
          (row0 (V c (Pipeline.arrRef spec1 4)))) (cur2 (V c (Pipeline.arrRef spec1 5)))
          (row0 (V c (Pipeline.arrRef spec1 6)))) t k :=
  congrFun (arr1_8 V c) (ix3 t 0 k)

/-- Row t of the column sums of squares after the region. -/
theorem val1_9 (c : Dev nD) (t : Fin 10) (k : Fin 128) :
    ((dat1 V c).arrAt 9 cfg1.N : S10x1x128.Idx → EReal) (ValueIdx.ix3 t 0 k)
      = Spec.ksq (Spec.lin (Spec.bnrelu (cur2 (V c (Pipeline.arrRef spec1 0))) (row0 (V c (Pipeline.arrRef spec1 1)))
          (row0 (V c (Pipeline.arrRef spec1 2))) (row0 (V c (Pipeline.arrRef spec1 3)))
          (row0 (V c (Pipeline.arrRef spec1 4)))) (cur2 (V c (Pipeline.arrRef spec1 5)))
          (row0 (V c (Pipeline.arrRef spec1 6)))) t k :=
  congrFun (arr1_9 V c) (ix3 t 0 k)

end Cert.KernelIdeal.Hand

end
-- ==== Proof.KI.Val2Pay.lean ====
/-
  What the third kernel of a layer computes from its input blocks, read at one coordinate over the extended reals:
  the normalised, scaled, shifted and rectified features, and one block's pooled share as a 0/1-weighted sum of rows.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Spec
open Idealize.ShloMosaic Idealize.ShloMosaic.ValueIdx

/-- The rectified normalisation at row p, column q of a block: the block's entry minus the column's mean, times the
    reciprocal root of the column's variance plus the offset, times the scale, plus the shift, cut at zero. -/
theorem k2_pay1_apply (x0 : Vec Ideal S5000x128 .f32) (xv xm xg xb : Vec Ideal S1x128 .f32) (p : Fin 5000) (q : Fin 128) :
    k2_pay1 x0 xv xm xg xb (ix2 p q)
      = max (((x0 (ix2 p q) - xm (ix2 0 q)) * Ideal.rsqrt (xv (ix2 0 q) + eps)) * xg (ix2 0 q) + xb (ix2 0 q)) 0 := by
  unfold k2_pay1
  simp only [shapeCast_self, maximumf_apply, addf_apply, mulf_apply, subf_apply, broadcastTo_1b_ab_apply, broadcast_apply]
  show max (((x0 (ix2 p q) - xm (ix2 0 q)) * Ideal.rsqrt (xv (ix2 0 q) + eps)) * xg (ix2 0 q) + xb (ix2 0 q))
      (Ideal.ofBits .f32 0x00000000#32) = _
  rw [Ideal.ofBits_zero_f32]

/-- One column spread over many: a [a, 1] array broadcast to [a, b] reads, at (p, c), the column's entry at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word is the g-th counting word (g below 256) exactly when its signed value is g. -/
private theorem word_eq_ofNat_iff (w : BitVec 32) (g : Fin 256) : w = BitVec.ofNat 32 g.val ↔ w.toInt = (g.val : ℤ) := by
  have hg := g.isLt
  have hw := w.isLt
  rw [BitVec.toInt_eq_toNat_cond]
  constructor
  · intro h
    have hn : w.toNat = g.val := by rw [h, BitVec.toNat_ofNat]; omega
    rw [hn]; split <;> omega
  · intro h
    apply BitVec.eq_of_toNat_eq
    rw [BitVec.toNat_ofNat]
    split at h <;> omega

/-- The equality comparison of two words answers the one-bit word 1 exactly when they are equal. -/
private theorem cmpi_eq_one_iff (a b : BitVec 32) : IntOp.cmpi .eq a b = 1#1 ↔ a = b := by
  have hb : ∀ c : Bool, BitVec.ofBool c = 1#1 ↔ c = true := fun c => by cases c <;> decide
  show BitVec.ofBool (a == b) = 1#1 ↔ a = b
  rw [hb, beq_iff_eq]

/-- The comparison bit of a word with the g-th counting word, widened to 32 bits and read as a number, is the
    indicator of "the word's signed value is g". -/
private theorem onehot_word (w : BitVec 32) (g : Fin 256) :
    ((((IntOp.cmpi .eq w (BitVec.ofNat 32 g.val)).setWidth 32).toInt : ℝ) : EReal)
      = if w.toInt = (g.val : ℤ) then (1 : EReal) else 0 := by
  by_cases h : w = BitVec.ofNat 32 g.val
  · have h1 : IntOp.cmpi .eq w (BitVec.ofNat 32 g.val) = 1#1 := (cmpi_eq_one_iff _ _).mpr h
    rw [h1, if_pos ((word_eq_ofNat_iff w g).mp h)]
    have : ((1#1 : BitVec 1).setWidth 32).toInt = 1 := by decide
    rw [this]; simp
  · have h0 : IntOp.cmpi .eq w (BitVec.ofNat 32 g.val) = 0#1 :=
      eq_zero_of_ne_one fun hh => h ((cmpi_eq_one_iff _ _).mp hh)
    rw [h0, if_neg (fun hh => h ((word_eq_ofNat_iff w g).mpr hh))]
    have : ((0#1 : BitVec 1).setWidth 32).toInt = 0 := by decide
    rw [this]; simp

/-- The pooling product read at (g, q): the sum over the block's rows of the two factors. -/
private theorem matmul_pool_apply {φ₁ φ₂ : FTy} (A : FVec Ideal S256x5000 φ₁) (B : FVec Ideal S5000x128 φ₂) (g : Fin 256) (q : Fin 128) :
    matmul dot_S256x5000_S5000x128_S256x128_1_0_0_1_n_n none A B (constant S256x128 .f32 0x00000000#32) (ix2 g q)
      = ∑ p : Fin 5000, A (ix2 g p) * B (ix2 p q) := by
  show FloatOps.matmul _ none A B _ (ix2 g q) = _
  rw [Ideal.matmul_constant_zero_apply,
    ← Equiv.sum_comp (contrEquiv1 dot_S256x5000_S5000x128_S256x128_1_0_0_1_n_n 5000 rfl rfl).symm]
  refine Finset.sum_congr rfl fun p _ => ?_
  have hc := contrEquiv1_symm_val dot_S256x5000_S5000x128_S256x128_1_0_0_1_n_n 5000 rfl rfl p
  have hl : dot_S256x5000_S5000x128_S256x128_1_0_0_1_n_n.lhsIdx (ix2 g q) ((contrEquiv1 _ 5000 rfl rfl).symm p) = ix2 g p := by
    funext ax; apply Fin.ext
    match ax with
    | ⟨0, _⟩ => simp [DotDims.lhsIdx, dot_S256x5000_S5000x128_S256x128_1_0_0_1_n_n]; rfl
    | ⟨1, _⟩ => simp [DotDims.lhsIdx, dot_S256x5000_S5000x128_S256x128_1_0_0_1_n_n]; exact hc
  have hr : dot_S256x5000_S5000x128_S256x128_1_0_0_1_n_n.rhsIdx (ix2 g q) ((contrEquiv1 _ 5000 rfl rfl).symm p) = ix2 p q := by
    funext ax; apply Fin.ext
    match ax with
    | ⟨0, _⟩ => simp [DotDims.rhsIdx, dot_S256x5000_S5000x128_S256x128_1_0_0_1_n_n]; exact hc
    | ⟨1, _⟩ => simp [DotDims.rhsIdx, dot_S256x5000_S5000x128_S256x128_1_0_0_1_n_n]; rfl
  rw [hl, hr]

/-- One block's pooled share at (g, q): the sum over the block's rows p of the indicator "row p's graph number is g"
    times the row's rectified normalised feature. -/
theorem k2_pay2_apply_pay1 (x0 : Vec Ideal S5000x128 .f32) (xv xm xg xb : Vec Ideal S1x128 .f32) (x5 : Vec Ideal S5000x1 .i32)
    (g : Fin 256) (q : Fin 128) :
    k2_pay2 x0 xv xm xg xb x5 (ix3 0 g q)
      = ∑ p : Fin 5000, (if (x5 (ix2 p 0)).toInt = (g.val : ℤ) then (1 : EReal) else 0) * k2_pay1 x0 xv xm xg xb (ix2 p q) := by
  unfold k2_pay2
  refine (shapeCast_ab_1ab_apply _ _ 0 g q).trans ?_
  refine (matmul_pool_apply _ _ g q).trans ?_
  refine Finset.sum_congr rfl fun p _ => ?_
  refine congrArg₂ (· * ·) ?_ rfl
  refine (transpose_ix2_apply _ _ g p).trans ?_
  show ((((IntOp.cmpi .eq (broadcastTo S5000x256 (shapeCast S5000x1 x5 shapeCasts_S5000x1_S5000x1) broadcasts_S5000x1_S5000x256 (ix2 p g))
      (iota .tc S5000x256 32 [1] iota_S5000x256_d1_w32 (ix2 p g))).setWidth 32).toInt : ℝ) : EReal) = _
  rw [broadcastTo_a1_ab_apply, iota_single_apply, shapeCast_self]
  exact onehot_word _ g

theorem k2_pay2_apply (x0 : Vec Ideal S5000x128 .f32) (xv xm xg xb : Vec Ideal S1x128 .f32) (x5 : Vec Ideal S5000x1 .i32)
    (g : Fin 256) (q : Fin 128) :
    k2_pay2 x0 xv xm xg xb x5 (ix3 0 g q)
      = ∑ p : Fin 5000, (if (x5 (ix2 p 0)).toInt = (g.val : ℤ) then (1 : EReal) else 0)
          * max (((x0 (ix2 p q) - xm (ix2 0 q)) * Ideal.rsqrt (xv (ix2 0 q) + eps)) * xg (ix2 0 q) + xb (ix2 0 q)) 0 := by
  rw [k2_pay2_apply_pay1]
  exact Finset.sum_congr rfl fun p _ => by rw [k2_pay1_apply]

end Cert.KernelIdeal.Hand

end
-- ==== Proof.KI.Val2.lean ====
/-
  What the third kernel of a layer leaves in its two output arrays. Block by block it writes the rectified
  normalisation of the input rows, and per block the sums of those rows weighted by the 0/1 indicator of each graph
  number; the blocks tile the arrays, so each output array is one function of the input arrays.
-/
import proofs.«422260_j36421322670663_2_alg».proof.Proof.KI.Reg2
import proofs.«422260_j36421322670663_2_alg».proof.Proof.KI.Val2Pay
import proofs.«422260_j36421322670663_2_alg».proof.Proof.Spec
import proofs.«422260_j36421322670663_2_alg».proof.Proof.SpecPool
import Idealize.ShloMosaic.Lib.ValueIdx
import Idealize.ShloMosaic.Lib.Pipeline.Value

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The arrays the launch finds, and the arrays it leaves, as functions -/

/-- The launch's six input arrays at their literal shapes: the features, the column means, the column variances, the
    scale, the shift, and the rows' graph numbers. -/
def inp2_0 (c : Dev nD) : S50000x128.Idx → EReal := V c (Pipeline.arrRef spec2 0)
def inp2_1 (c : Dev nD) : S1x128.Idx → EReal := V c (Pipeline.arrRef spec2 1)
def inp2_2 (c : Dev nD) : S1x128.Idx → EReal := V c (Pipeline.arrRef spec2 2)
def inp2_3 (c : Dev nD) : S1x128.Idx → EReal := V c (Pipeline.arrRef spec2 3)
def inp2_4 (c : Dev nD) : S1x128.Idx → EReal := V c (Pipeline.arrRef spec2 4)
def inp2_5 (c : Dev nD) : S50000x1.Idx → BitVec 32 := V c (Pipeline.arrRef spec2 5)

/-- The rectified normalisation of the whole feature array. -/
def feat2 (c : Dev nD) : Mat 50000 128 :=
  Spec.bnrelu (cur2 (inp2_0 V c)) (row0 (inp2_1 V c)) (row0 (inp2_2 V c)) (row0 (inp2_3 V c)) (row0 (inp2_4 V c))

/-- The first output array: that matrix, index by index. -/
def arr2_6 (c : Dev nD) : S50000x128.Idx → EReal := fun i => feat2 V c (i 0) (i 1)

/-- The second output array: slab t is block t's pooled share of that matrix. -/
def arr2_7 (c : Dev nD) : S10x256x128.Idx → EReal :=
  fun i => Spec.poolKpart (fun r => inp2_5 V c (ix2 r 0)) (feat2 V c) (i 0) (i 1) (i 2)

/-- A grid point as a block number. -/
def blkOf2 (t : Fin cfg2.N) : Fin 10 := ⟨t.val, lt_of_lt_of_eq t.isLt N_2⟩

private theorem zeroPair : (![0, 0] : Fin 2 → Nat) = fun _ => 0 := funext fun a => by fin_cases a <;> rfl
private theorem zeroTriple : (![0, 0, 0] : Fin 3 → Nat) = fun _ => 0 := funext fun a => by fin_cases a <;> rfl

/-- The six input windows' blocks at a grid point, at their literal shapes. -/
def blk2_0 (c : Dev nD) (t : Fin cfg2.N) : Vec Ideal S5000x128 .f32 := iblk2 V c 0 t
def blk2_1 (c : Dev nD) (t : Fin cfg2.N) : Vec Ideal S1x128 .f32 := iblk2 V c 1 t
def blk2_2 (c : Dev nD) (t : Fin cfg2.N) : Vec Ideal S1x128 .f32 := iblk2 V c 2 t
def blk2_3 (c : Dev nD) (t : Fin cfg2.N) : Vec Ideal S1x128 .f32 := iblk2 V c 3 t
def blk2_4 (c : Dev nD) (t : Fin cfg2.N) : Vec Ideal S1x128 .f32 := iblk2 V c 4 t
def blk2_5 (c : Dev nD) (t : Fin cfg2.N) : Vec Ideal S5000x1 .i32 := iblk2 V c 5 t

/-! ## Where each window's block lies -/

/-- The block index of every window at every grid point: the row-blocked windows move with the point along the rows,
    the four parameter rows stay, the pooled output moves along its slabs. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0 :=
  (by decide +kernel : ∀ t : Fin grid2.N, _)

/-- The feature window's block at point t, at (p, q), is the feature array at row t · 5000 + p, column q. -/
theorem blk2_0_apply (c : Dev nD) (t : Fin cfg2.N) (p : Fin 5000) (q : Fin 128) (r : Fin 50000)
    (hr : r.val = t.val * 5000 + p.val) :
    blk2_0 V c t (ix2 p q) = inp2_0 V c (ix2 r q) := by
  obtain ⟨e0, e1, -⟩ := idx_facts2 t
  unfold blk2_0 iblk2 inp2_0
  rw [View.read_apply]
  show V c (Pipeline.arrRef spec2 0) _ = V c (Pipeline.arrRef spec2 0) _
  congr 1
  funext a; apply Fin.ext
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

/-- A parameter row's block is the row itself, at every point: the means, -/
theorem blk2_1_apply (c : Dev nD) (t : Fin cfg2.N) (q : Fin 128) :
    blk2_1 V c t (ix2 0 q) = inp2_1 V c (ix2 0 q) := by
  obtain ⟨-, -, e0, e1, -⟩ := idx_facts2 t
  unfold blk2_1 iblk2 inp2_1
  rw [View.read_apply]
  show V c (Pipeline.arrRef spec2 1) _ = V c (Pipeline.arrRef spec2 1) _
  congr 1
  funext a; apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

/-- the variances, -/
theorem blk2_2_apply (c : Dev nD) (t : Fin cfg2.N) (q : Fin 128) :
    blk2_2 V c t (ix2 0 q) = inp2_2 V c (ix2 0 q) := by
  obtain ⟨-, -, -, -, e0, e1, -⟩ := idx_facts2 t
  unfold blk2_2 iblk2 inp2_2
  rw [View.read_apply]
  show V c (Pipeline.arrRef spec2 2) _ = V c (Pipeline.arrRef spec2 2) _
  congr 1
  funext a; apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- the scale, -/
theorem blk2_3_apply (c : Dev nD) (t : Fin cfg2.N) (q : Fin 128) :
    blk2_3 V c t (ix2 0 q) = inp2_3 V c (ix2 0 q) := by
  obtain ⟨-, -, -, -, -, -, e0, e1, -⟩ := idx_facts2 t
  unfold blk2_3 iblk2 inp2_3
  rw [View.read_apply]
  show V c (Pipeline.arrRef spec2 3) _ = V c (Pipeline.arrRef spec2 3) _
  congr 1
  funext a; apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- the shift. -/
theorem blk2_4_apply (c : Dev nD) (t : Fin cfg2.N) (q : Fin 128) :
    blk2_4 V c t (ix2 0 q) = inp2_4 V c (ix2 0 q) := by
  obtain ⟨-, -, -, -, -, -, -, -, e0, e1, -⟩ := idx_facts2 t
  unfold blk2_4 iblk2 inp2_4
  rw [View.read_apply]
  show V c (Pipeline.arrRef spec2 4) _ = V c (Pipeline.arrRef spec2 4) _
  congr 1
  funext a; apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-- The graph-number window's block at point t, at row p, is the graph number of row t · 5000 + p. -/
theorem blk2_5_apply (c : Dev nD) (t : Fin cfg2.N) (p : Fin 5000) (r : Fin 50000) (hr : r.val = t.val * 5000 + p.val) :
    blk2_5 V c t (ix2 p 0) = inp2_5 V c (ix2 r 0) := by
  obtain ⟨-, -, -, -, -, -, -, -, -, -, e0, e1, -⟩ := idx_facts2 t
  unfold blk2_5 iblk2 inp2_5
  rw [View.read_apply]
  show V c (Pipeline.arrRef spec2 5) _ = V c (Pipeline.arrRef spec2 5) _
  congr 1
  funext a; apply Fin.ext
  match a with
  | ⟨0, _⟩ => show win2_5.index t (0 : Fin 2) * 5000 + 1 * p.val = r.val; rw [e0, hr]; omega
  | ⟨1, _⟩ => show win2_5.index t (1 : Fin 2) * 1 + 1 * 0 = 0; rw [e1]

/-- The rectified normalisation computed from the blocks at point t, at (p, q), is that of the whole array at row
    t · 5000 + p, column q. -/
theorem feat2_row (c : Dev nD) (t : Fin cfg2.N) (p : Fin 5000) (q : Fin 128) (r : Fin 50000) (hr : r.val = t.val * 5000 + p.val) :
    max (((blk2_0 V c t (ix2 p q) - blk2_1 V c t (ix2 0 q)) * Ideal.rsqrt (blk2_2 V c t (ix2 0 q) + eps))
        * blk2_3 V c t (ix2 0 q) + blk2_4 V c t (ix2 0 q)) 0 = feat2 V c r q := by
  rw [blk2_0_apply V c t p q r hr, blk2_1_apply V c t q, blk2_2_apply V c t q, blk2_3_apply V c t q, blk2_4_apply V c t q]
  rfl

/-! ## The first output: the rectified normalised features -/

/-- What point t writes back is block t of the whole normalised array. -/
theorem flushed2_6 (c : Dev nD) (t : Fin cfg2.N) :
    (dat2 V c).flushed 6 t = ((cfg2.win 6).blk t).view.read (Elt Ideal) (arr2_6 V c) := by
  show (cfg2.win 6).cut (grid2.coords t) ((dat2 V c).after 6 t) = _
  rw [after2_6]
  unfold out2_6
  rw [View.canon_unit_zero zeroPair]
  simp only [View.ld_unit_zero (S := S5000x128) zeroPair, View.ld_unit_zero (S := S1x128) zeroPair]
  obtain ⟨-, -, -, -, -, -, -, -, -, -, -, -, e0, e1, -⟩ := idx_facts2 t
  funext j
  obtain ⟨p, q, rfl⟩ : ∃ (p : Fin 5000) (q : Fin 128), j = ix2 p q := ⟨j 0, j 1, eq_ix2 j⟩
  show k2_pay1 (blk2_0 V c t) (blk2_2 V c t) (blk2_1 V c t) (blk2_3 V c t) (blk2_4 V c t) (ix2 p q)
      = arr2_6 V c (((cfg2.win 6).blk t).view.emb (ix2 p q))
  have h0 : (((cfg2.win 6).blk t).view.emb (ix2 p q)) (0 : Fin 2) = brow (blkOf2 t) p :=
    Fin.ext (by show win2_6.index t (0 : Fin 2) * 5000 + 1 * p.val = t.val * 5000 + p.val; rw [e0]; omega)
  have h1 : (((cfg2.win 6).blk t).view.emb (ix2 p q)) (1 : Fin 2) = q :=
    Fin.ext (by show win2_6.index t (1 : Fin 2) * 128 + 1 * q.val = q.val; rw [e1]; omega)
  refine (k2_pay1_apply _ _ _ _ _ p q).trans ?_
  refine (feat2_row V c t p q (brow (blkOf2 t) p) rfl).trans ?_
  exact (congr (congrArg (feat2 V c) h0) h1).symm

/-- An index lies in point t's block exactly when each coordinate is in the block's range. -/
theorem mem_blk2_6 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- The ten blocks tile the array: row r lies in block r / 5000. -/
theorem tiles2_6 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, e0, e1, -⟩ := idx_facts2 t
  refine ⟨t, flush2_6 t, ?_⟩
  rw [mem_blk2_6]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 128 ≤ (i 1).val ∧ (i 1).val < win2_6.index t (1 : Fin 2) * 128 + 128
    rw [e1]; omega

/-- So the first output array ends as the whole normalised array. -/
theorem final2_6 (c : Dev nD) : (dat2 V c).arrAt 6 cfg2.N = arr2_6 V c :=
  (dat2 V c).arrAt_eq_of_cover 6 (arr2_6 V c) (fun t _ => flushed2_6 V c t) tiles2_6

/-- The first output array, by coordinates: the rectified normalisation of the input features with the given
    moments, scale and shift. -/
theorem val2_6 (c : Dev nD) :
    cur2 ((dat2 V c).arrAt 6 cfg2.N : S50000x128.Idx → EReal)
      = Spec.bnrelu (cur2 (V c (Pipeline.arrRef spec2 0) : S50000x128.Idx → EReal))
          (row0 (V c (Pipeline.arrRef spec2 1) : S1x128.Idx → EReal)) (row0 (V c (Pipeline.arrRef spec2 2) : S1x128.Idx → EReal))
          (row0 (V c (Pipeline.arrRef spec2 3) : S1x128.Idx → EReal)) (row0 (V c (Pipeline.arrRef spec2 4) : S1x128.Idx → EReal)) := by
  rw [final2_6]
  rfl

/-! ## The second output: the blocks' pooled shares -/

/-- What point t writes back is slab t of the array of pooled shares. -/
theorem flushed2_7 (c : Dev nD) (t : Fin cfg2.N) :
    (dat2 V c).flushed 7 t = ((cfg2.win 7).blk t).view.read (Elt Ideal) (arr2_7 V c) := by
  show (cfg2.win 7).cut (grid2.coords t) ((dat2 V c).after 7 t) = _
  rw [after2_7]
  unfold out2_7
  rw [View.canon_unit_zero zeroTriple]
  simp only [View.ld_unit_zero (S := S5000x128) zeroPair, View.ld_unit_zero (S := S1x128) zeroPair,
    View.ld_unit_zero (S := S5000x1) zeroPair]
  obtain ⟨-, -, -, -, -, -, -, -, -, -, -, -, -, -, e0, e1, e2⟩ := idx_facts2 t
  funext j
  obtain ⟨u, g, q, rfl⟩ : ∃ (u : Fin 1) (g : Fin 256) (q : Fin 128), j = ix3 u g q := ⟨j 0, j 1, j 2, eq_ix3 j⟩
  obtain rfl : u = 0 := Subsingleton.elim _ _
  show k2_pay2 (blk2_0 V c t) (blk2_2 V c t) (blk2_1 V c t) (blk2_3 V c t) (blk2_4 V c t) (blk2_5 V c t) (ix3 0 g q)
      = arr2_7 V c (((cfg2.win 7).blk t).view.emb (ix3 0 g q))
  have h0 : (((cfg2.win 7).blk t).view.emb (ix3 0 g q)) (0 : Fin 3) = blkOf2 t :=
    Fin.ext (by show win2_7.index t (0 : Fin 3) * 1 + 1 * 0 = t.val; rw [e0]; omega)
  have h1 : (((cfg2.win 7).blk t).view.emb (ix3 0 g q)) (1 : Fin 3) = g :=
    Fin.ext (by show win2_7.index t (1 : Fin 3) * 256 + 1 * g.val = g.val; rw [e1]; omega)
  have h2 : (((cfg2.win 7).blk t).view.emb (ix3 0 g q)) (2 : Fin 3) = q :=
    Fin.ext (by show win2_7.index t (2 : Fin 3) * 128 + 1 * q.val = q.val; rw [e2]; omega)
  have hR : arr2_7 V c (((cfg2.win 7).blk t).view.emb (ix3 0 g q))
      = Spec.poolKpart (fun r => inp2_5 V c (ix2 r 0)) (feat2 V c) (blkOf2 t) g q :=
    congr (congr (congrArg (Spec.poolKpart (fun r => inp2_5 V c (ix2 r 0)) (feat2 V c)) h0) h1) h2
  refine (k2_pay2_apply _ _ _ _ _ _ g q).trans ?_
  refine Eq.trans ?_ hR.symm
  show _ = ∑ y : Fin 5000, (if (inp2_5 V c (ix2 (brow (blkOf2 t) y) 0)).toInt = (g.val : ℤ) then (1 : EReal) else 0)
      * feat2 V c (brow (blkOf2 t) y) q
  refine Finset.sum_congr rfl fun p _ => ?_
  exact congrArg₂ (· * ·)
    (congrArg (fun w : BitVec 32 => if w.toInt = (g.val : ℤ) then (1 : EReal) else 0) (blk2_5_apply V c t p (brow (blkOf2 t) p) rfl))
    (feat2_row V c t p q (brow (blkOf2 t) p) rfl)

/-- An index lies in point t's slab exactly when each coordinate is in the slab's range. -/
theorem mem_blk2_7 (t : Fin cfg2.N) (i : S10x256x128.Idx) :
    i ∈ ((cfg2.win 7).blk t).view.set ↔ ∀ a : Fin 3, win2_7.index t a * S1x256x128.size a ≤ (i a).val
      ∧ (i a).val < win2_7.index t a * S1x256x128.size a + S1x256x128.size a := by
  show i ∈ ((View.whole (Pipeline.arrRef spec2 7)).slice (win2_7.rect t)).set ↔ _
  rw [View.set_slice_whole, Rect.mem_set_unit]
  exact Iff.rfl

/-- The ten slabs tile the array: slab number s is point s's. -/
theorem tiles2_7 (i : S10x256x128.Idx) :
    ∃ t : Fin cfg2.N, (cfg2.win 7).flush t = true ∧ i ∈ ((cfg2.win 7).blk t).view.set := by
  have hi0 : (i 0).val < 10 := (i 0).isLt
  have hi1 : (i 1).val < 256 := (i 1).isLt
  have hi2 : (i 2).val < 128 := (i 2).isLt
  have hN : cfg2.N = 10 := N_2
  obtain ⟨t, ht⟩ : ∃ t : Fin cfg2.N, t.val = (i 0).val := ⟨⟨(i 0).val, by rw [hN]; omega⟩, rfl⟩
  obtain ⟨-, -, -, -, -, -, -, -, -, -, -, -, -, -, e0, e1, e2⟩ := idx_facts2 t
  refine ⟨t, flush2_7 t, ?_⟩
  rw [mem_blk2_7]
  intro a
  match a with
  | ⟨0, _⟩ =>
    show win2_7.index t (0 : Fin 3) * 1 ≤ (i 0).val ∧ (i 0).val < win2_7.index t (0 : Fin 3) * 1 + 1
    rw [e0, ht]; omega
  | ⟨1, _⟩ =>
    show win2_7.index t (1 : Fin 3) * 256 ≤ (i 1).val ∧ (i 1).val < win2_7.index t (1 : Fin 3) * 256 + 256
    rw [e1]; omega
  | ⟨2, _⟩ =>
    show win2_7.index t (2 : Fin 3) * 128 ≤ (i 2).val ∧ (i 2).val < win2_7.index t (2 : Fin 3) * 128 + 128
    rw [e2]; omega

/-- So the second output array ends as the array of pooled shares. -/
theorem final2_7 (c : Dev nD) : (dat2 V c).arrAt 7 cfg2.N = arr2_7 V c :=
  (dat2 V c).arrAt_eq_of_cover 7 (arr2_7 V c) (fun t _ => flushed2_7 V c t) tiles2_7

/-- The second output array at (t, g, k): block t's share of the pooling of the rectified normalised features by the
    rows' graph numbers. -/
theorem val2_7 (c : Dev nD) (t : Fin 10) (g : Fin 256) (k : Fin 128) :
    ((dat2 V c).arrAt 7 cfg2.N : S10x256x128.Idx → EReal) (ix3 t g k)
      = Spec.poolKpart (fun r => (V c (Pipeline.arrRef spec2 5) : S50000x1.Idx → BitVec 32) (ix2 r 0))
          (Spec.bnrelu (cur2 (V c (Pipeline.arrRef spec2 0) : S50000x128.Idx → EReal))
            (row0 (V c (Pipeline.arrRef spec2 1) : S1x128.Idx → EReal)) (row0 (V c (Pipeline.arrRef spec2 2) : S1x128.Idx → EReal))
            (row0 (V c (Pipeline.arrRef spec2 3) : S1x128.Idx → EReal)) (row0 (V c (Pipeline.arrRef spec2 4) : S1x128.Idx → EReal)))
          t g k := by
  rw [final2_7]
  rfl

end Cert.KernelIdeal.Hand

end
-- ==== Proof.KI.HostLib.lean ====
/-
  Readings the host stretches share: the ten per-block rows of a column sum added up from a zero word and
  divided by the node count; the variance as the mean of squares minus the squared mean, cut at zero; a
  vector laid out as one row; slice i of a stack of matrices or of vectors with its unit axis dropped; the
  ten per-block pooled matrices added up.
-/
import proofs.«422260_j36421322670663_2_alg».proof.Proof.Gen.KernelIdeal.Launch
import proofs.«422260_j36421322670663_2_alg».proof.Proof.Spec
import proofs.«422260_j36421322670663_2_alg».proof.Proof.SpecPool
import proofs.«422260_j36421322670663_2_alg».proof.Proof.AggSpec
import Idealize.ShloMosaic.Lib.StableHlo.Run
import Idealize.ShloMosaic.Lib.IdealHost
import Idealize.ShloMosaic.Lib.ValueLayout

noncomputable section

namespace Cert.KernelIdeal.Hand

open Cert.KernelIdeal Cert.KernelIdeal.Gen Cert.Spec
open Idealize.ShloMosaic Idealize.ShloMosaic.TcCoe Idealize.ShloMosaic.ValueIdx

/-! ## The moments from the block sums -/

/-- The block axis put back in front of a row index: block t, the unit row, column k. -/
theorem lift_blockRow (h : S10x1x128.Reduces [0] S1x128) (u : Fin 1) (k : Fin 128) (t : Fin 10) :
    h.lift (ix2 u k) t = ix3 t 0 k := by
  funext a
  match a with
  | ⟨0, _⟩ => exact Fin.ext rfl
  | ⟨1, _⟩ => exact Fin.ext (by show (u : ℕ) = 0; omega)
  | ⟨2, _⟩ => exact Fin.ext rfl

/-- The ten block rows added up from a zero word, over the node count. -/
abbrev blockDiv (x : FVec Ideal S10x1x128 .f32) (hr : S10x1x128.ReducesTo [0] S1x128) (hu : 0 < S_.numel)
    (hb : S_.BroadcastsInDim S1x128 (![] : Fin 0 → Fin S1x128.rank)) : FVec Ideal S1x128 .f32 :=
  Host.divf (Host.reduceAdd x (constant (F := Ideal) S_ .f32 0x00000000#32) hr hu)
    (broadcastInDim S1x128 ![] hb (constant (F := Ideal) S_ .f32 0x47435000#32))

/-- At column k it is the sum of the ten entries divided by the node count: the zero word adds nothing. -/
theorem blockDiv_apply (x : FVec Ideal S10x1x128 .f32) (hr : S10x1x128.ReducesTo [0] S1x128) (hu : 0 < S_.numel)
    (hb : S_.BroadcastsInDim S1x128 (![] : Fin 0 → Fin S1x128.rank)) (k : Fin 128) :
    blockDiv x hr hu hb (ix2 0 k) = Ideal.div (∑ t : Fin 10, x (ix3 t 0 k)) cN := by
  unfold blockDiv
  rw [hostDivf_apply, hostReduceAdd_apply, Ideal.hostReduceAdd_single hr (by decide : S10x1x128.Reduces [0] S1x128),
    constant_apply, Ideal.ofBits_zero_f32, zero_add, broadcastInDim_scalar_apply, constant_apply]
  refine congrArg (fun s => Ideal.div s cN) (Finset.sum_congr rfl fun t _ => congrArg x ?_)
  exact lift_blockRow _ 0 k t

/-- The mean of the squares minus the squared mean, cut at zero. -/
abbrev blockVar (xs xq : FVec Ideal S10x1x128 .f32) (hr : S10x1x128.ReducesTo [0] S1x128) (hu : 0 < S_.numel)
    (hb : S_.BroadcastsInDim S1x128 (![] : Fin 0 → Fin S1x128.rank)) : FVec Ideal S1x128 .f32 :=
  maximumf (subf (blockDiv xq hr hu hb) (mulf (blockDiv xs hr hu hb) (blockDiv xs hr hu hb)))
    (broadcastInDim S1x128 ![] hb (constant (F := Ideal) S_ .f32 0x00000000#32))

theorem blockVar_apply (xs xq : FVec Ideal S10x1x128 .f32) (hr : S10x1x128.ReducesTo [0] S1x128) (hu : 0 < S_.numel)
    (hb : S_.BroadcastsInDim S1x128 (![] : Fin 0 → Fin S1x128.rank)) (k : Fin 128) :
    blockVar xs xq hr hu hb (ix2 0 k)
      = max (Ideal.div (∑ t : Fin 10, xq (ix3 t 0 k)) cN
          - Ideal.div (∑ t : Fin 10, xs (ix3 t 0 k)) cN * Ideal.div (∑ t : Fin 10, xs (ix3 t 0 k)) cN) 0 := by
  unfold blockVar
  rw [maximumf_apply, subf_apply, mulf_apply, blockDiv_apply, blockDiv_apply, broadcastInDim_scalar_apply,
    constant_apply, Ideal.ofBits_zero_f32]

/-- The kernel's mean from block sums that are the blocks' column sums. -/
theorem blockDiv_kmean (x : FVec Ideal S10x1x128 .f32) (hr : S10x1x128.ReducesTo [0] S1x128) (hu : 0 < S_.numel)
    (hb : S_.BroadcastsInDim S1x128 (![] : Fin 0 → Fin S1x128.rank)) (Z : Mat 50000 128)
    (hs : ∀ t k, x (ix3 t 0 k) = ksum Z t k) : row0 (blockDiv x hr hu hb) = kmean Z := by
  funext k
  show blockDiv x hr hu hb (ix2 0 k) = kmean Z k
  rw [blockDiv_apply]
  unfold kmean
  simp only [hs]

/-- The kernel's variance likewise. -/
theorem blockVar_kvar (xs xq : FVec Ideal S10x1x128 .f32) (hr : S10x1x128.ReducesTo [0] S1x128) (hu : 0 < S_.numel)
    (hb : S_.BroadcastsInDim S1x128 (![] : Fin 0 → Fin S1x128.rank)) (Z : Mat 50000 128)
    (hs : ∀ t k, xs (ix3 t 0 k) = ksum Z t k) (hq : ∀ t k, xq (ix3 t 0 k) = ksq Z t k) :
    row0 (blockVar xs xq hr hu hb) = kvar Z := by
  funext k
  show blockVar xs xq hr hu hb (ix2 0 k) = kvar Z k
  rw [blockVar_apply]
  unfold kvar kmsq kmean
  simp only [hs, hq]

/-! ## Rows, and slices of the weight stacks -/

/-- A vector laid out as one row reads the vector. -/
theorem row0_shapeCast (x : FVec Ideal S128 .f32) (h : S128.ShapeCasts S1x128) :
    row0 (shapeCast S1x128 x h) = cur1 x := by
  funext k
  exact shapeCast_a_1a_apply x h 0 k

/-- Slice i of a stack of five 128 × 128 matrices, its unit axis dropped. -/
theorem cur2_sliceMat (X : FVec Ideal S5x128x128 .f32) (o : ℕ) (hsl : S5x128x128.Slices ![o, 0, 0] S1x128x128)
    (hc : S1x128x128.ShapeCasts S128x128) (i : Fin 5) (hi : i.val = o) :
    cur2 (shapeCast S128x128 (extractStridedSlice S1x128x128 ![o, 0, 0] X hsl) hc) = sl3 X i := by
  funext r c
  show shapeCast S128x128 (extractStridedSlice S1x128x128 ![o, 0, 0] X hsl) hc (ix2 r c) = X (ix3 i r c)
  rw [shapeCast_1ab_ab_apply]
  refine extractStridedSlice_apply _ _ _ _ _ (fun a => ?_)
  match a with
  | ⟨0, _⟩ => exact hi.trans (Nat.add_zero o).symm
  | ⟨1, _⟩ => exact (Nat.zero_add _).symm
  | ⟨2, _⟩ => exact (Nat.zero_add _).symm

/-- Slice i of a stack of five vectors, its unit axis dropped. -/
theorem cur1_sliceVec (X : FVec Ideal S5x128 .f32) (o : ℕ) (hsl : S5x128.Slices ![o, 0] S1x128)
    (h1 : S1x128.ShapeCasts S128) (i : Fin 5) (hi : i.val = o) :
    cur1 (shapeCast S128 (extractStridedSlice S1x128 ![o, 0] X hsl) h1) = sl2 X i := by
  funext k
  show shapeCast S128 (extractStridedSlice S1x128 ![o, 0] X hsl) h1 (ix1 k) = X (ix2 i k)
  rw [shapeCast_1a_a_apply]
  exact slice2_axis0_apply o X hsl 0 k i (hi.trans (Nat.add_zero o).symm)

/-- The same slice laid out as one row again. -/
theorem row0_sliceVec (X : FVec Ideal S5x128 .f32) (o : ℕ) (hsl : S5x128.Slices ![o, 0] S1x128)
    (h1 : S1x128.ShapeCasts S128) (h2 : S128.ShapeCasts S1x128) (i : Fin 5) (hi : i.val = o) :
    row0 (shapeCast S1x128 (shapeCast S128 (extractStridedSlice S1x128 ![o, 0] X hsl) h1) h2) = sl2 X i := by
  rw [row0_shapeCast]
  exact cur1_sliceVec X o hsl h1 i hi

/-- A vector of 50000 words laid out as a column reads the vector. -/
theorem col_shapeCast {α : Type} (x : S50000.Idx → α) (h : S50000.ShapeCasts S50000x1) (r : Fin 50000) (u : Fin 1) :
    shapeCast S50000x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The three readings above, for any array that is such a slice: the offset and the shape facts are read off
    the array's own term. -/
theorem cur2_sliceMat_of (X : FVec Ideal S5x128x128 .f32) (i : Fin 5) (Y : S128x128.Idx → EReal) (o : ℕ)
    (hsl : S5x128x128.Slices ![o, 0, 0] S1x128x128) (hc : S1x128x128.ShapeCasts S128x128)
    (hY : Y = shapeCast S128x128 (extractStridedSlice S1x128x128 ![o, 0, 0] X hsl) hc) (hi : i.val = o) :
    cur2 Y = sl3 X i := by
  rw [hY]
  exact cur2_sliceMat X o hsl hc i hi

theorem cur1_sliceVec_of (X : FVec Ideal S5x128 .f32) (i : Fin 5) (Y : S128.Idx → EReal) (o : ℕ)
    (hsl : S5x128.Slices ![o, 0] S1x128) (h1 : S1x128.ShapeCasts S128)
    (hY : Y = shapeCast S128 (extractStridedSlice S1x128 ![o, 0] X hsl) h1) (hi : i.val = o) :
    cur1 Y = sl2 X i := by
  rw [hY]
  exact cur1_sliceVec X o hsl h1 i hi

theorem row0_sliceVec_of (X : FVec Ideal S5x128 .f32) (i : Fin 5) (Y : S1x128.Idx → EReal) (o : ℕ)
    (hsl : S5x128.Slices ![o, 0] S1x128) (h1 : S1x128.ShapeCasts S128) (h2 : S128.ShapeCasts S1x128)
    (hY : Y = shapeCast S1x128 (shapeCast S128 (extractStridedSlice S1x128 ![o, 0] X hsl) h1) h2) (hi : i.val = o) :
    row0 Y = sl2 X i := by
  rw [hY]
  exact row0_sliceVec X o hsl h1 h2 i hi

/-! ## The pooled sums -/

/-- The block axis put back in front of a matrix index. -/
theorem lift_blockMat (h : S10x256x128.Reduces [0] S256x128) (g : Fin 256) (k : Fin 128) (t : Fin 10) :
    h.lift (ix2 g k) t = ix3 t g k := by
  funext a
  match a with
  | ⟨0, _⟩ => exact Fin.ext rfl
  | ⟨1, _⟩ => exact Fin.ext rfl
  | ⟨2, _⟩ => exact Fin.ext rfl

/-- The ten per-block pooled matrices added up from a zero word. -/
theorem poolSum_apply (x : FVec Ideal S10x256x128 .f32) (hr : S10x256x128.ReducesTo [0] S256x128) (hu : 0 < S_.numel)
    (g : Fin 256) (k : Fin 128) :
    Host.reduceAdd x (constant (F := Ideal) S_ .f32 0x00000000#32) hr hu (ix2 g k) = ∑ t : Fin 10, x (ix3 t g k) := by
  rw [hostReduceAdd_apply, Ideal.hostReduceAdd_single hr (by decide : S10x256x128.Reduces [0] S256x128),
    constant_apply, Ideal.ofBits_zero_f32, zero_add]
  exact Finset.sum_congr rfl fun t _ => congrArg x (lift_blockMat _ g k t)

/-- When each block's matrix is that block's share, the sum is the pooling. -/
theorem poolSum_poolK (x : FVec Ideal S10x256x128 .f32) (hr : S10x256x128.ReducesTo [0] S256x128) (hu : 0 < S_.numel)
    (bw : Fin 50000 → BitVec 32) (H : Mat 50000 128) (hp : ∀ t g k, x (ix3 t g k) = poolKpart bw H t g k) :
    cur2 (Host.reduceAdd x (constant (F := Ideal) S_ .f32 0x00000000#32) hr hu) = poolK bw H := by
  funext g k
  show Host.reduceAdd x (constant (F := Ideal) S_ .f32 0x00000000#32) hr hu (ix2 g k) = poolK bw H g k
  rw [poolSum_apply, poolK_eq_sum_parts]
  simp only [hp]

end Cert.KernelIdeal.Hand

end
-- ==== Proof.KI.Host0.lean ====
/-
  The host stretch before the first kernel: the two rows of the edge list, the graph numbers as a column, the
  neighbourhood sums of the input features, and slice 0 of every weight stack.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The sources: row 0 of the edge list. -/
theorem host0_src :
    (StableHlo.after hostOps0 W main_v1 : S800000.Idx → BitVec 32)
      = shapeCast S800000 (extractStridedSlice S1x800000 ![0, 0] (W main_arg13 : S2x800000.Idx → BitVec 32)
          slices_S2x800000_S1x800000_0_0) shapeCasts_S1x800000_S800000 := by
  after_results
  rfl

/-- The destinations: row 1 of the edge list. -/
theorem host0_dst :
    (StableHlo.after hostOps0 W main_v3 : S800000.Idx → BitVec 32)
      = shapeCast S800000 (extractStridedSlice S1x800000 ![1, 0] (W main_arg13 : S2x800000.Idx → BitVec 32)
          slices_S2x800000_S1x800000_1_0) shapeCasts_S1x800000_S800000 := by
  after_results
  rfl

/-- The graph numbers as a column. -/
theorem host0_graph (r : Fin 50000) (u : Fin 1) :
    (StableHlo.after hostOps0 W main_v4 : S50000x1.Idx → BitVec 32) (ix2 r u)
      = (W main_arg14 : S50000.Idx → BitVec 32) (ix1 r) := by
  have e : (StableHlo.after hostOps0 W main_v4 : S50000x1.Idx → BitVec 32)
      = shapeCast S50000x1 (W main_arg14 : S50000.Idx → BitVec 32) shapeCasts_S50000_S50000x1 := by
    after_results
    rfl
  rw [e]
  exact col_shapeCast _ _ r u

/-- The neighbourhood sums of the input features. -/
theorem host0_agg :
    (StableHlo.after hostOps0 W main_v14 : S50000x128.Idx → EReal)
      = aggA gather_S50000x128_S800000x1_S800000x128_1_0_n_n_0_1_1128 scatter_S50000x128_S800000x1_S800000x128_1_0_0_1
          bcast_S_S50000x128 (W main_arg0)
          (srcCol bcast_S_S800000 bcast_S800000_S800000x1_0 (StableHlo.after hostOps0 W main_v1))
          (dstCol bcast_S800000_S800000x1_0 (StableHlo.after hostOps0 W main_v3)) := by
  rw [host0_src, host0_dst]
  after_results
  rfl

/-- The first weight matrix of layer 0. -/
theorem host0_W1 : cur2 (StableHlo.after hostOps0 W main_v16 : S128x128.Idx → EReal) = sl3 (W main_arg1 : S5x128x128.Idx → EReal) 0 := by
  have e : (StableHlo.after hostOps0 W main_v16 : S128x128.Idx → EReal)
      = shapeCast S128x128 (extractStridedSlice S1x128x128 ![0, 0, 0] (W main_arg1 : S5x128x128.Idx → EReal)
          slices_S5x128x128_S1x128x128_0_0_0) shapeCasts_S1x128x128_S128x128 := by
    after_results
    rfl
  rw [e]
  exact cur2_sliceMat _ 0 _ _ 0 rfl

/-- The first bias of layer 0, as a row. -/
theorem host0_b1 : row0 (StableHlo.after hostOps0 W main_v35 : S1x128.Idx → EReal) = sl2 (W main_arg2 : S5x128.Idx → EReal) 0 := by
  have e : (StableHlo.after hostOps0 W main_v35 : S1x128.Idx → EReal)
      = shapeCast S1x128 (shapeCast S128 (extractStridedSlice S1x128 ![0, 0] (W main_arg2 : S5x128.Idx → EReal)
          slices_S5x128_S1x128_0_0) shapeCasts_S1x128_S128) shapeCasts_S128_S1x128 := by
    after_results
    rfl
  rw [e]
  exact row0_sliceVec _ 0 _ _ _ 0 rfl

/-- The first scale of layer 0, as a row. -/
theorem host0_g1 : row0 (StableHlo.after hostOps0 W main_v21 : S1x128.Idx → EReal) = sl2 (W main_arg3 : S5x128.Idx → EReal) 0 := by
  have e : (StableHlo.after hostOps0 W main_v21 : S1x128.Idx → EReal)
      = shapeCast S1x128 (shapeCast S128 (extractStridedSlice S1x128 ![0, 0] (W main_arg3 : S5x128.Idx → EReal)
          slices_S5x128_S1x128_0_0) shapeCasts_S1x128_S128) shapeCasts_S128_S1x128 := by
    after_results
    rfl
  rw [e]
  exact row0_sliceVec _ 0 _ _ _ 0 rfl

/-- The first shift of layer 0, as a row. -/
theorem host0_be1 : row0 (StableHlo.after hostOps0 W main_v24 : S1x128.Idx → EReal) = sl2 (W main_arg4 : S5x128.Idx → EReal) 0 := by
  have e : (StableHlo.after hostOps0 W main_v24 : S1x128.Idx → EReal)
      = shapeCast S1x128 (shapeCast S128 (extractStridedSlice S1x128 ![0, 0] (W main_arg4 : S5x128.Idx → EReal)
          slices_S5x128_S1x128_0_0) shapeCasts_S1x128_S128) shapeCasts_S128_S1x128 := by
    after_results
    rfl
  rw [e]
  exact row0_sliceVec _ 0 _ _ _ 0 rfl

/-- The second weight matrix of layer 0. -/
theorem host0_W2 : cur2 (StableHlo.after hostOps0 W main_v26 : S128x128.Idx → EReal) = sl3 (W main_arg5 : S5x128x128.Idx → EReal) 0 := by
  have e : (StableHlo.after hostOps0 W main_v26 : S128x128.Idx → EReal)
      = shapeCast S128x128 (extractStridedSlice S1x128x128 ![0, 0, 0] (W main_arg5 : S5x128x128.Idx → EReal)
          slices_S5x128x128_S1x128x128_0_0_0) shapeCasts_S1x128x128_S128x128 := by
    after_results
    rfl
  rw [e]
  exact cur2_sliceMat _ 0 _ _ 0 rfl

/-- The second bias of layer 0, as a vector. -/
theorem host0_b2 : cur1 (StableHlo.after hostOps0 W main_v28 : S128.Idx → EReal) = sl2 (W main_arg6 : S5x128.Idx → EReal) 0 := by
  have e : (StableHlo.after hostOps0 W main_v28 : S128.Idx → EReal)
      = shapeCast S128 (extractStridedSlice S1x128 ![0, 0] (W main_arg6 : S5x128.Idx → EReal)
          slices_S5x128_S1x128_0_0) shapeCasts_S1x128_S128 := by
    after_results
    rfl
  rw [e]
  exact cur1_sliceVec _ 0 _ _ 0 rfl

/-- The second scale of layer 0, as a row. -/
theorem host0_g2 : row0 (StableHlo.after hostOps0 W main_v31 : S1x128.Idx → EReal) = sl2 (W main_arg7 : S5x128.Idx → EReal) 0 := by
  have e : (StableHlo.after hostOps0 W main_v31 : S1x128.Idx → EReal)
      = shapeCast S1x128 (shapeCast S128 (extractStridedSlice S1x128 ![0, 0] (W main_arg7 : S5x128.Idx → EReal)
          slices_S5x128_S1x128_0_0) shapeCasts_S1x128_S128) shapeCasts_S128_S1x128 := by
    after_results
    rfl
  rw [e]
  exact row0_sliceVec _ 0 _ _ _ 0 rfl

/-- The second shift of layer 0, as a row. -/
theorem host0_be2 : row0 (StableHlo.after hostOps0 W main_v34 : S1x128.Idx → EReal) = sl2 (W main_arg8 : S5x128.Idx → EReal) 0 := by
  have e : (StableHlo.after hostOps0 W main_v34 : S1x128.Idx → EReal)
      = shapeCast S1x128 (shapeCast S128 (extractStridedSlice S1x128 ![0, 0] (W main_arg8 : S5x128.Idx → EReal)
          slices_S5x128_S1x128_0_0) shapeCasts_S1x128_S128) shapeCasts_S128_S1x128 := by
    after_results
    rfl
  rw [e]
  exact row0_sliceVec _ 0 _ _ _ 0 rfl

end Cert.KernelIdeal.Hand

end
-- ==== Proof.KI.Host1.lean ====
/-
  The host stretch after a layer's first kernel: the mean and the variance of the first linear map's output
  from its per-block column sums and sums of squares, and the second bias laid out as a row.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The mean: the block sums added up and divided by the node count. -/
theorem host1_mean (Z : Mat 50000 128)
    (hs : ∀ t k, (W main_v36_1 : S10x1x128.Idx → EReal) (ix3 t 0 k) = ksum Z t k) :
    row0 (StableHlo.after hostOps1 W main_v39 : S1x128.Idx → EReal) = kmean Z := by
  have e : (StableHlo.after hostOps1 W main_v39 : S1x128.Idx → EReal)
      = blockDiv (W main_v36_1) reducesTo_S10x1x128_S1x128_d0 h_S_ bcast_S_S1x128 := by
    after_results
  rw [e]
  exact blockDiv_kmean _ _ _ _ Z hs

/-- The variance: the mean of the squares minus the squared mean, cut at zero. -/
theorem host1_var (Z : Mat 50000 128)
    (hs : ∀ t k, (W main_v36_1 : S10x1x128.Idx → EReal) (ix3 t 0 k) = ksum Z t k)
    (hq : ∀ t k, (W main_v36_2 : S10x1x128.Idx → EReal) (ix3 t 0 k) = ksq Z t k) :
    row0 (StableHlo.after hostOps1 W main_v46 : S1x128.Idx → EReal) = kvar Z := by
  have e : (StableHlo.after hostOps1 W main_v46 : S1x128.Idx → EReal)
      = blockVar (W main_v36_1) (W main_v36_2) reducesTo_S10x1x128_S1x128_d0 h_S_ bcast_S_S1x128 := by
    after_results
  rw [e]
  exact blockVar_kvar _ _ _ _ _ Z hs hq

/-- The second bias as a row. -/
theorem host1_bias :
    row0 (StableHlo.after hostOps1 W main_v47 : S1x128.Idx → EReal) = cur1 (W main_v28 : S128.Idx → EReal) := by
  have e : (StableHlo.after hostOps1 W main_v47 : S1x128.Idx → EReal)
      = shapeCast S1x128 (W main_v28 : S128.Idx → EReal) shapeCasts_S128_S1x128 := by
    after_results
    rfl
  rw [e]
  exact row0_shapeCast _ _

end Cert.KernelIdeal.Hand

end
-- ==== Proof.KI.Host2.lean ====
/-
  The host stretch after a layer's second kernel: the mean and the variance of the second linear map's output
  from its per-block column sums and sums of squares.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The mean: the block sums added up and divided by the node count. -/
theorem host2_mean (Z : Mat 50000 128)
    (hs : ∀ t k, (W main_v48_1 : S10x1x128.Idx → EReal) (ix3 t 0 k) = ksum Z t k) :
    row0 (StableHlo.after hostOps2 W main_v51 : S1x128.Idx → EReal) = kmean Z := by
  have e : (StableHlo.after hostOps2 W main_v51 : S1x128.Idx → EReal)
      = blockDiv (W main_v48_1) reducesTo_S10x1x128_S1x128_d0 h_S_ bcast_S_S1x128 := by
    after_results
  rw [e]
  exact blockDiv_kmean _ _ _ _ Z hs

/-- The variance: the mean of the squares minus the squared mean, cut at zero. -/
theorem host2_var (Z : Mat 50000 128)
    (hs : ∀ t k, (W main_v48_1 : S10x1x128.Idx → EReal) (ix3 t 0 k) = ksum Z t k)
    (hq : ∀ t k, (W main_v48_2 : S10x1x128.Idx → EReal) (ix3 t 0 k) = ksq Z t k) :
    row0 (StableHlo.after hostOps2 W main_v58 : S1x128.Idx → EReal) = kvar Z := by
  have e : (StableHlo.after hostOps2 W main_v58 : S1x128.Idx → EReal)
      = blockVar (W main_v48_1) (W main_v48_2) reducesTo_S10x1x128_S1x128_d0 h_S_ bcast_S_S1x128 := by
    after_results
  rw [e]
  exact blockVar_kvar _ _ _ _ _ Z hs hq

end Cert.KernelIdeal.Hand

end
-- ==== Proof.KI.Host3.lean ====
/-
  The host stretch before a later layer's first kernel: the previous layer's pooled matrix as the sum of its ten
  per-block shares, the neighbourhood sums of the previous layer's features, and the layer's slice of every
  weight stack.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The layer this stretch prepares: the slice it takes of every weight stack. -/
abbrev host3_layer : Fin 5 := 1

/-- The previous layer's pooled matrix: the ten per-block shares added up. -/
theorem host3_pool (bw : Fin 50000 → BitVec 32) (H : Mat 50000 128)
    (hp : ∀ t g k, (W main_v59_1 : S10x256x128.Idx → EReal) (ix3 t g k) = poolKpart bw H t g k) :
    cur2 (StableHlo.after hostOps3 W main_v60 : S256x128.Idx → EReal) = poolK bw H := by
  have e : (StableHlo.after hostOps3 W main_v60 : S256x128.Idx → EReal)
      = Host.reduceAdd (W main_v59_1 : S10x256x128.Idx → EReal) (constant (F := Ideal) S_ .f32 0x00000000#32)
          reducesTo_S10x256x128_S256x128_d0 h_S_ := by
    after_results
  rw [e]
  exact poolSum_poolK _ _ _ bw H hp

/-- The neighbourhood sums of the previous layer's features. -/
theorem host3_agg :
    (StableHlo.after hostOps3 W main_v70 : S50000x128.Idx → EReal)
      = aggA gather_S50000x128_S800000x1_S800000x128_1_0_n_n_0_1_1128 scatter_S50000x128_S800000x1_S800000x128_1_0_0_1
          bcast_S_S50000x128 (W main_v59_0)
          (srcCol bcast_S_S800000 bcast_S800000_S800000x1_0 (W main_v1))
          (dstCol bcast_S800000_S800000x1_0 (W main_v3)) := by
  after_results_simp
  rfl

/-- The layer's first weight matrix. -/
theorem host3_W1 :
    cur2 (StableHlo.after hostOps3 W main_v72 : S128x128.Idx → EReal) = sl3 (W main_arg1 : S5x128x128.Idx → EReal) host3_layer :=
  cur2_sliceMat_of _ host3_layer _ _ _ _ (by after_results_simp; rfl) (by rfl)

/-- The layer's first bias, as a row. -/
theorem host3_b1 :
    row0 (StableHlo.after hostOps3 W main_v91 : S1x128.Idx → EReal) = sl2 (W main_arg2 : S5x128.Idx → EReal) host3_layer :=
  row0_sliceVec_of _ host3_layer _ _ _ _ _ (by after_results_simp; rfl) (by rfl)

/-- The layer's first scale, as a row. -/
theorem host3_g1 :
    row0 (StableHlo.after hostOps3 W main_v77 : S1x128.Idx → EReal) = sl2 (W main_arg3 : S5x128.Idx → EReal) host3_layer :=
  row0_sliceVec_of _ host3_layer _ _ _ _ _ (by after_results_simp; rfl) (by rfl)

/-- The layer's first shift, as a row. -/
theorem host3_be1 :
    row0 (StableHlo.after hostOps3 W main_v80 : S1x128.Idx → EReal) = sl2 (W main_arg4 : S5x128.Idx → EReal) host3_layer :=
  row0_sliceVec_of _ host3_layer _ _ _ _ _ (by after_results_simp; rfl) (by rfl)

/-- The layer's second weight matrix. -/
theorem host3_W2 :
    cur2 (StableHlo.after hostOps3 W main_v82 : S128x128.Idx → EReal) = sl3 (W main_arg5 : S5x128x128.Idx → EReal) host3_layer :=
  cur2_sliceMat_of _ host3_layer _ _ _ _ (by after_results_simp; rfl) (by rfl)

/-- The layer's second bias, as a vector. -/
theorem host3_b2 :
    cur1 (StableHlo.after hostOps3 W main_v84 : S128.Idx → EReal) = sl2 (W main_arg6 : S5x128.Idx → EReal) host3_layer :=
  cur1_sliceVec_of _ host3_layer _ _ _ _ (by after_results_simp; rfl) (by rfl)

/-- The layer's second scale, as a row. -/
theorem host3_g2 :
    row0 (StableHlo.after hostOps3 W main_v87 : S1x128.Idx → EReal) = sl2 (W main_arg7 : S5x128.Idx → EReal) host3_layer :=
  row0_sliceVec_of _ host3_layer _ _ _ _ _ (by after_results_simp; rfl) (by rfl)

/-- The layer's second shift, as a row. -/
theorem host3_be2 :
    row0 (StableHlo.after hostOps3 W main_v90 : S1x128.Idx → EReal) = sl2 (W main_arg8 : S5x128.Idx → EReal) host3_layer :=
  row0_sliceVec_of _ host3_layer _ _ _ _ _ (by after_results_simp; rfl) (by rfl)

end Cert.KernelIdeal.Hand

end
-- ==== Proof.KI.Layer0.lean ====
/-
  The kernel program's value through one layer of the network, over the extended reals: from the launch memory,
  the host stretch before the layer's kernels cuts the layer's weights out of the stacks and takes the
  neighbourhood sums of the node features; the layer's first kernel leaves the first linear map of the features
  plus their neighbourhood sums, with its per-block column sums and sums of squares; the host turns those into the
  mean and the variance; the second kernel normalises, rectifies and applies the second linear map, again with the
  per-block sums; the host again takes the moments; the third kernel normalises and rectifies, which gives the
  features handed on, and leaves every block's share of their pooling by graph; the host adds the shares up.
  Each step reads what the step before left: a reference nobody wrote in between still holds its earlier contents.
-/
import proofs.«422260_j36421322670663_2_alg».proof.Proof.KI.Chain
import proofs.«422260_j36421322670663_2_alg».proof.Proof.KI.Val0
import proofs.«422260_j36421322670663_2_alg».proof.Proof.KI.Val1
import proofs.«422260_j36421322670663_2_alg».proof.Proof.KI.Val2
import proofs.«422260_j36421322670663_2_alg».proof.Proof.KI.Host0
import proofs.«422260_j36421322670663_2_alg».proof.Proof.KI.Host1
import proofs.«422260_j36421322670663_2_alg».proof.Proof.KI.Host2
import proofs.«422260_j36421322670663_2_alg».proof.Proof.KI.Host3
import proofs.«422260_j36421322670663_2_alg».proof.Proof.KI.NetDefs
import proofs.«422260_j36421322670663_2_alg».proof.Proof.Math.Net

-- deciding that a reference is not among the many a host stretch writes recurses past the default depth
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

-- the launch memory
variable (m : (ℓ : Loc nD τ sig) → Buf (Elt Ideal) ℓ)

/-! ## What survives from one kernel's entry to the next kernel's entry

A reference written neither by the kernel's result arrays nor by the host stretch after it holds the same
contents at the next kernel's entry. -/

theorem keep0_1 (c : Dev nD) (r : Ref sig .tc) (h1 : r ∉ GenP.hostOps1_W)
    (h0 : r ∉ ([main_v36_0, main_v36_1, main_v36_2] : List (Ref sig .tc))) : Vin1 m c r = Vin0 m c r :=
  (GenP.V3_of m (outs m) c r h1).trans (GenP.V2_of m (outs m) c r h0)

theorem keep1_2 (c : Dev nD) (r : Ref sig .tc) (h1 : r ∉ GenP.hostOps2_W)
    (h0 : r ∉ ([main_v48_0, main_v48_1, main_v48_2] : List (Ref sig .tc))) : Vin2 m c r = Vin1 m c r :=
  (GenP.V5_of m (outs m) c r h1).trans (GenP.V4_of m (outs m) c r h0)

theorem keep2_3 (c : Dev nD) (r : Ref sig .tc) (h1 : r ∉ GenP.hostOps3_W)
    (h0 : r ∉ ([main_v59_0, main_v59_1] : List (Ref sig .tc))) : Vin3 m c r = Vin2 m c r :=
  (GenP.V7_of m (outs m) c r h1).trans (GenP.V6_of m (outs m) c r h0)

/-! ## What the host stretch before the layer hands the layer's first kernel -/

/-- The node features are the launched ones. -/
theorem in0_x (c : Dev nD) :
    (Vin0 m c main_arg0 : S50000x128.Idx → EReal) = m ((c : Thread nD τ).loc main_arg0) :=
  GenP.V1_of m c main_arg0 (by decide)

/-- Their neighbourhood sums. -/
theorem in0_agg (c : Dev nD) :
    (Vin0 m c main_v14 : S50000x128.Idx → EReal) = kAgg m c (m ((c : Thread nD τ).loc main_arg0)) :=
  host0_agg (GenP.V0 m c)

/-- The first weight matrix and the first bias of the layer. -/
theorem in0_W (c : Dev nD) : cur2 (Vin0 m c main_v16 : S128x128.Idx → EReal) = (kP m c 0).W1 :=
  host0_W1 (GenP.V0 m c)

theorem in0_b (c : Dev nD) : row0 (Vin0 m c main_v35 : S1x128.Idx → EReal) = (kP m c 0).b1 :=
  host0_b1 (GenP.V0 m c)

/-- The first linear map's output, as mathematics. -/
abbrev Z1 (c : Dev nD) : Mat 50000 128 :=
  Spec.z1 (cur2 (m ((c : Thread nD τ).loc main_arg0) : S50000x128.Idx → EReal))
    (cur2 (kAgg m c (m ((c : Thread nD τ).loc main_arg0)))) (kP m c 0)

/-- The second linear map's output, as mathematics. -/
abbrev Z2 (c : Dev nD) : Mat 50000 128 :=
  Spec.kz2 (cur2 (m ((c : Thread nD τ).loc main_arg0) : S50000x128.Idx → EReal))
    (cur2 (kAgg m c (m ((c : Thread nD τ).loc main_arg0)))) (kP m c 0)

/-! ## The result arrays of the layer's first kernel -/

theorem lin0_eq (c : Dev nD) :
    Spec.lin (fun r k => cur2 (Vin0 m c (Pipeline.arrRef spec0 0)) r k + cur2 (Vin0 m c (Pipeline.arrRef spec0 1)) r k)
        (cur2 (Vin0 m c (Pipeline.arrRef spec0 2))) (row0 (Vin0 m c (Pipeline.arrRef spec0 3))) = Z1 m c := by
  show Spec.lin (fun r k => cur2 (Vin0 m c main_arg0 : S50000x128.Idx → EReal) r k
        + cur2 (Vin0 m c main_v14 : S50000x128.Idx → EReal) r k)
      (cur2 (Vin0 m c main_v16 : S128x128.Idx → EReal)) (row0 (Vin0 m c main_v35 : S1x128.Idx → EReal)) = _
  rw [in0_x, in0_agg, in0_W, in0_b]
  rfl

theorem out0_z (c : Dev nD) : cur2 (Vout0 m c main_v36_0 : S50000x128.Idx → EReal) = Z1 m c := by
  have e : (Vout0 m c main_v36_0 : S50000x128.Idx → EReal)
      = (dat0 (fun c b => Vin0 m c b) c).arrAt 4 cfg0.N := (hF_0 m c 4).symm
  rw [e, val0_4]
  exact lin0_eq m c

theorem out0_s (c : Dev nD) (t : Fin 10) (k : Fin 128) :
    (Vout0 m c main_v36_1 : S10x1x128.Idx → EReal) (ix3 t 0 k) = ksum (Z1 m c) t k := by
  have e : (Vout0 m c main_v36_1 : S10x1x128.Idx → EReal)
      = (dat0 (fun c b => Vin0 m c b) c).arrAt 5 cfg0.N := (hF_0 m c 5).symm
  rw [e, val0_5]
  exact congrArg (fun Z => ksum Z t k) (lin0_eq m c)

theorem out0_q (c : Dev nD) (t : Fin 10) (k : Fin 128) :
    (Vout0 m c main_v36_2 : S10x1x128.Idx → EReal) (ix3 t 0 k) = ksq (Z1 m c) t k := by
  have e : (Vout0 m c main_v36_2 : S10x1x128.Idx → EReal)
      = (dat0 (fun c b => Vin0 m c b) c).arrAt 6 cfg0.N := (hF_0 m c 6).symm
  rw [e, val0_6]
  exact congrArg (fun Z => ksq Z t k) (lin0_eq m c)

/-! ## What the layer's second kernel is entered with -/

theorem in1_z (c : Dev nD) : cur2 (Vin1 m c main_v36_0 : S50000x128.Idx → EReal) = Z1 m c := by
  have e : (Vin1 m c main_v36_0 : S50000x128.Idx → EReal) = Vout0 m c main_v36_0 :=
    GenP.V3_of m (outs m) c main_v36_0 (by decide)
  rw [e]
  exact out0_z m c

theorem in1_mean (c : Dev nD) : row0 (Vin1 m c main_v39 : S1x128.Idx → EReal) = kmean (Z1 m c) :=
  host1_mean (Vout0 m c) (Z1 m c) (out0_s m c)

theorem in1_var (c : Dev nD) : row0 (Vin1 m c main_v46 : S1x128.Idx → EReal) = kvar (Z1 m c) :=
  host1_var (Vout0 m c) (Z1 m c) (out0_s m c) (out0_q m c)

theorem in1_g (c : Dev nD) : row0 (Vin1 m c main_v21 : S1x128.Idx → EReal) = (kP m c 0).g1 := by
  have e : (Vin1 m c main_v21 : S1x128.Idx → EReal) = Vin0 m c main_v21 :=
    keep0_1 m c main_v21 (by decide) (by decide)
  rw [e]
  exact host0_g1 (GenP.V0 m c)

theorem in1_be (c : Dev nD) : row0 (Vin1 m c main_v24 : S1x128.Idx → EReal) = (kP m c 0).be1 := by
  have e : (Vin1 m c main_v24 : S1x128.Idx → EReal) = Vin0 m c main_v24 :=
    keep0_1 m c main_v24 (by decide) (by decide)
  rw [e]
  exact host0_be1 (GenP.V0 m c)

theorem in1_W (c : Dev nD) : cur2 (Vin1 m c main_v26 : S128x128.Idx → EReal) = (kP m c 0).W2 := by
  have e : (Vin1 m c main_v26 : S128x128.Idx → EReal) = Vin0 m c main_v26 :=
    keep0_1 m c main_v26 (by decide) (by decide)
  rw [e]
  exact host0_W2 (GenP.V0 m c)

theorem in1_b (c : Dev nD) : row0 (Vin1 m c main_v47 : S1x128.Idx → EReal) = (kP m c 0).b2 := by
  have e : (Vout0 m c main_v28 : S128.Idx → EReal) = Vin0 m c main_v28 :=
    GenP.V2_of m (outs m) c main_v28 (by decide)
  have h := host1_bias (Vout0 m c)
  rw [e] at h
  exact h.trans (host0_b2 (GenP.V0 m c))

/-! ## The result arrays of the layer's second kernel -/

theorem lin1_eq (c : Dev nD) :
    Spec.lin (Spec.bnrelu (cur2 (Vin1 m c (Pipeline.arrRef spec1 0))) (row0 (Vin1 m c (Pipeline.arrRef spec1 1)))
          (row0 (Vin1 m c (Pipeline.arrRef spec1 2))) (row0 (Vin1 m c (Pipeline.arrRef spec1 3)))
          (row0 (Vin1 m c (Pipeline.arrRef spec1 4)))) (cur2 (Vin1 m c (Pipeline.arrRef spec1 5)))
          (row0 (Vin1 m c (Pipeline.arrRef spec1 6))) = Z2 m c := by
  show Spec.lin (Spec.bnrelu (cur2 (Vin1 m c main_v36_0 : S50000x128.Idx → EReal))
          (row0 (Vin1 m c main_v39 : S1x128.Idx → EReal)) (row0 (Vin1 m c main_v46 : S1x128.Idx → EReal))
          (row0 (Vin1 m c main_v21 : S1x128.Idx → EReal)) (row0 (Vin1 m c main_v24 : S1x128.Idx → EReal)))
        (cur2 (Vin1 m c main_v26 : S128x128.Idx → EReal)) (row0 (Vin1 m c main_v47 : S1x128.Idx → EReal)) = _
  rw [in1_z, in1_mean, in1_var, in1_g, in1_be, in1_W, in1_b]
  rfl

theorem out1_z (c : Dev nD) : cur2 (Vout1 m c main_v48_0 : S50000x128.Idx → EReal) = Z2 m c := by
  have e : (Vout1 m c main_v48_0 : S50000x128.Idx → EReal)
      = (dat1 (fun c b => Vin1 m c b) c).arrAt 7 cfg1.N := (hF_1 m c 7).symm
  rw [e, val1_7]
  exact lin1_eq m c

theorem out1_s (c : Dev nD) (t : Fin 10) (k : Fin 128) :
    (Vout1 m c main_v48_1 : S10x1x128.Idx → EReal) (ix3 t 0 k) = ksum (Z2 m c) t k := by
  have e : (Vout1 m c main_v48_1 : S10x1x128.Idx → EReal)
      = (dat1 (fun c b => Vin1 m c b) c).arrAt 8 cfg1.N := (hF_1 m c 8).symm
  rw [e, val1_8]
  exact congrArg (fun Z => ksum Z t k) (lin1_eq m c)

theorem out1_q (c : Dev nD) (t : Fin 10) (k : Fin 128) :
    (Vout1 m c main_v48_2 : S10x1x128.Idx → EReal) (ix3 t 0 k) = ksq (Z2 m c) t k := by
  have e : (Vout1 m c main_v48_2 : S10x1x128.Idx → EReal)
      = (dat1 (fun c b => Vin1 m c b) c).arrAt 9 cfg1.N := (hF_1 m c 9).symm
  rw [e, val1_9]
  exact congrArg (fun Z => ksq Z t k) (lin1_eq m c)

/-! ## What the layer's third kernel is entered with -/

theorem in2_z (c : Dev nD) : cur2 (Vin2 m c main_v48_0 : S50000x128.Idx → EReal) = Z2 m c := by
  have e : (Vin2 m c main_v48_0 : S50000x128.Idx → EReal) = Vout1 m c main_v48_0 :=
    GenP.V5_of m (outs m) c main_v48_0 (by decide)
  rw [e]
  exact out1_z m c

theorem in2_mean (c : Dev nD) : row0 (Vin2 m c main_v51 : S1x128.Idx → EReal) = kmean (Z2 m c) :=
  host2_mean (Vout1 m c) (Z2 m c) (out1_s m c)

theorem in2_var (c : Dev nD) : row0 (Vin2 m c main_v58 : S1x128.Idx → EReal) = kvar (Z2 m c) :=
  host2_var (Vout1 m c) (Z2 m c) (out1_s m c) (out1_q m c)

theorem in2_g (c : Dev nD) : row0 (Vin2 m c main_v31 : S1x128.Idx → EReal) = (kP m c 0).g2 := by
  have e : (Vin2 m c main_v31 : S1x128.Idx → EReal) = Vin0 m c main_v31 :=
    (keep1_2 m c main_v31 (by decide) (by decide)).trans (keep0_1 m c main_v31 (by decide) (by decide))
  rw [e]
  exact host0_g2 (GenP.V0 m c)

theorem in2_be (c : Dev nD) : row0 (Vin2 m c main_v34 : S1x128.Idx → EReal) = (kP m c 0).be2 := by
  have e : (Vin2 m c main_v34 : S1x128.Idx → EReal) = Vin0 m c main_v34 :=
    (keep1_2 m c main_v34 (by decide) (by decide)).trans (keep0_1 m c main_v34 (by decide) (by decide))
  rw [e]
  exact host0_be2 (GenP.V0 m c)

/-- The graph numbers the layer's third kernel reads are the launched words. -/
theorem in2_bw (c : Dev nD) :
    (fun r : Fin 50000 => (Vin2 m c main_v4 : S50000x1.Idx → BitVec 32) (ix2 r 0)) = kBw m c := by
  have e : (Vin2 m c main_v4 : S50000x1.Idx → BitVec 32) = Vin0 m c main_v4 :=
    (keep1_2 m c main_v4 (by decide) (by decide)).trans (keep0_1 m c main_v4 (by decide) (by decide))
  rw [e]
  funext r
  exact host0_graph (GenP.V0 m c) r 0

/-! ## The result arrays of the layer's third kernel -/

theorem bn2_eq (c : Dev nD) :
    Spec.bnrelu (cur2 (Vin2 m c (Pipeline.arrRef spec2 0))) (row0 (Vin2 m c (Pipeline.arrRef spec2 1)))
          (row0 (Vin2 m c (Pipeline.arrRef spec2 2))) (row0 (Vin2 m c (Pipeline.arrRef spec2 3)))
          (row0 (Vin2 m c (Pipeline.arrRef spec2 4)))
      = Spec.kh (cur2 (m ((c : Thread nD τ).loc main_arg0) : S50000x128.Idx → EReal))
          (cur2 (kAgg m c (m ((c : Thread nD τ).loc main_arg0)))) (kP m c 0) := by
  show Spec.bnrelu (cur2 (Vin2 m c main_v48_0 : S50000x128.Idx → EReal))
          (row0 (Vin2 m c main_v51 : S1x128.Idx → EReal)) (row0 (Vin2 m c main_v58 : S1x128.Idx → EReal))
          (row0 (Vin2 m c main_v31 : S1x128.Idx → EReal)) (row0 (Vin2 m c main_v34 : S1x128.Idx → EReal)) = _
  rw [in2_z, in2_mean, in2_var, in2_g, in2_be]
  rfl

/-- The node features the layer hands on. -/
theorem layer0_h (c : Dev nD) :
    cur2 (Vout2 m c main_v59_0 : S50000x128.Idx → EReal)
      = Spec.kh (cur2 (m ((c : Thread nD τ).loc main_arg0) : S50000x128.Idx → EReal))
          (cur2 (kAgg m c (m ((c : Thread nD τ).loc main_arg0)))) (kP m c 0) := by
  have e : (Vout2 m c main_v59_0 : S50000x128.Idx → EReal)
      = (dat2 (fun c b => Vin2 m c b) c).arrAt 6 cfg2.N := (hF_2 m c 6).symm
  rw [e, val2_6]
  exact bn2_eq m c

/-- Every block's share of the pooling of those features. -/
theorem out2_p (c : Dev nD) (t : Fin 10) (g : Fin 256) (k : Fin 128) :
    (Vout2 m c main_v59_1 : S10x256x128.Idx → EReal) (ix3 t g k)
      = poolKpart (kBw m c) (cur2 (Vout2 m c main_v59_0 : S50000x128.Idx → EReal)) t g k := by
  have e : (Vout2 m c main_v59_1 : S10x256x128.Idx → EReal)
      = (dat2 (fun c b => Vin2 m c b) c).arrAt 7 cfg2.N := (hF_2 m c 7).symm
  rw [e, val2_7, layer0_h, bn2_eq]
  show poolKpart (fun r : Fin 50000 => (Vin2 m c main_v4 : S50000x1.Idx → BitVec 32) (ix2 r 0)) _ t g k = _
  rw [in2_bw]

/-- The pooled features after the layer. -/
theorem layer0_pool (c : Dev nD) :
    cur2 (Vin3 m c main_v60 : S256x128.Idx → EReal)
      = Spec.poolK (kBw m c) (cur2 (Vout2 m c main_v59_0 : S50000x128.Idx → EReal)) :=
  host3_pool (Vout2 m c) (kBw m c) (cur2 (Vout2 m c main_v59_0 : S50000x128.Idx → EReal)) (out2_p m c)

/-! ## What the next layer finds unchanged -/

theorem keep3_h (c : Dev nD) : Vin3 m c main_v59_0 = Vout2 m c main_v59_0 :=
  GenP.V7_of m (outs m) c main_v59_0 (by decide)

/-- A reference that no kernel of the layer and no host stretch between or after them writes holds at the next
    layer's entry what the host stretch before the layer left in it. -/
theorem keep0_3 (c : Dev nD) (r : Ref sig .tc) (h1 : r ∉ GenP.hostOps1_W) (h2 : r ∉ GenP.hostOps2_W)
    (h3 : r ∉ GenP.hostOps3_W)
    (o0 : r ∉ ([main_v36_0, main_v36_1, main_v36_2] : List (Ref sig .tc)))
    (o1 : r ∉ ([main_v48_0, main_v48_1, main_v48_2] : List (Ref sig .tc)))
    (o2 : r ∉ ([main_v59_0, main_v59_1] : List (Ref sig .tc))) : Vin3 m c r = GenP.V1 m c r :=
  (keep2_3 m c r h3 o2).trans ((keep1_2 m c r h2 o1).trans (keep0_1 m c r h1 o0))

/-- If moreover the host stretch before the layer does not write it, that is its launch contents. -/
theorem keep3_launch (c : Dev nD) (r : Ref sig .tc) (h0 : r ∉ GenP.hostOps0_W) (h1 : r ∉ GenP.hostOps1_W)
    (h2 : r ∉ GenP.hostOps2_W) (h3 : r ∉ GenP.hostOps3_W)
    (o0 : r ∉ ([main_v36_0, main_v36_1, main_v36_2] : List (Ref sig .tc)))
    (o1 : r ∉ ([main_v48_0, main_v48_1, main_v48_2] : List (Ref sig .tc)))
    (o2 : r ∉ ([main_v59_0, main_v59_1] : List (Ref sig .tc))) : Vin3 m c r = m ((c : Thread nD τ).loc r) :=
  (keep0_3 m c r h1 h2 h3 o0 o1 o2).trans (GenP.V1_of m c r h0)

/-- The two edge columns and the graph-number column. -/
theorem keep3_src (c : Dev nD) : Vin3 m c main_v1 = GenP.V1 m c main_v1 :=
  keep0_3 m c main_v1 (by decide) (by decide) (by decide) (by decide) (by decide) (by decide)
theorem keep3_dst (c : Dev nD) : Vin3 m c main_v3 = GenP.V1 m c main_v3 :=
  keep0_3 m c main_v3 (by decide) (by decide) (by decide) (by decide) (by decide) (by decide)
theorem keep3_graph (c : Dev nD) : Vin3 m c main_v4 = GenP.V1 m c main_v4 :=
  keep0_3 m c main_v4 (by decide) (by decide) (by decide) (by decide) (by decide) (by decide)

end Cert.KernelIdeal.Hand
end
-- ==== Proof.KI.Base.lean ====
/-
  The arrays every layer of the network reads and no layer writes: the two columns of edge endpoints, the column
  of graph numbers, and the eight stacks of weights. After the first layer's three kernels they are still what the
  first host stretch (for the columns) and the launch (for the stacks) made them, because none of the kernels and
  none of the host stretches between them writes any of them. The same fact, carried through a later layer, is
  what lets that layer's neighbourhood sums, weights and pooling be read as functions of the launch's data.
-/
import proofs.«422260_j36421322670663_2_alg».proof.Proof.KI.Chain
import proofs.«422260_j36421322670663_2_alg».proof.Proof.KI.NetDefs
import proofs.«422260_j36421322670663_2_alg».proof.Proof.KI.Host0

-- deciding that a reference is none of the several dozen a host stretch writes recurses once per reference
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- The arrays every layer reads that no layer writes: the two edge columns, the graph column and the eight weight
    stacks, still as the first host stretch (for the columns) and the launch (for the stacks) left them. -/
structure Base (c : Dev nD) (W : Valuation τ sig (Elt Ideal)) : Prop where
  v1 : W main_v1 = GenP.V1 m c main_v1
  v3 : W main_v3 = GenP.V1 m c main_v3
  v4 : W main_v4 = GenP.V1 m c main_v4
  a1 : W main_arg1 = GenP.V0 m c main_arg1
  a2 : W main_arg2 = GenP.V0 m c main_arg2
  a3 : W main_arg3 = GenP.V0 m c main_arg3
  a4 : W main_arg4 = GenP.V0 m c main_arg4
  a5 : W main_arg5 = GenP.V0 m c main_arg5
  a6 : W main_arg6 = GenP.V0 m c main_arg6
  a7 : W main_arg7 = GenP.V0 m c main_arg7
  a8 : W main_arg8 = GenP.V0 m c main_arg8

/-- An array none of the first three kernels and none of the host stretches around them writes is, after the third
    kernel, as the first host stretch left it. -/
theorem keep_launch (c : Dev nD) (r : Ref sig .tc)
    (h2 : r ∉ ([main_v36_0, main_v36_1, main_v36_2] : List (Ref sig .tc))) (h3 : r ∉ GenP.hostOps1_W)
    (h4 : r ∉ ([main_v48_0, main_v48_1, main_v48_2] : List (Ref sig .tc))) (h5 : r ∉ GenP.hostOps2_W)
    (h6 : r ∉ ([main_v59_0, main_v59_1] : List (Ref sig .tc))) :
    Vout2 m c r = GenP.V1 m c r :=
  (GenP.V6_of m (outs m) c r h6).trans <| (GenP.V5_of m (outs m) c r h5).trans <|
    (GenP.V4_of m (outs m) c r h4).trans <| (GenP.V3_of m (outs m) c r h3).trans (GenP.V2_of m (outs m) c r h2)

/-- The base facts hold when the second layer is entered. -/
theorem base2 (c : Dev nD) : Base m c (Vout2 m c) where
  v1 := keep_launch m c _ (by decide) (by decide) (by decide) (by decide) (by decide)
  v3 := keep_launch m c _ (by decide) (by decide) (by decide) (by decide) (by decide)
  v4 := keep_launch m c _ (by decide) (by decide) (by decide) (by decide) (by decide)
  a1 := (keep_launch m c _ (by decide) (by decide) (by decide) (by decide) (by decide)).trans (GenP.V1_of m c _ (by decide))
  a2 := (keep_launch m c _ (by decide) (by decide) (by decide) (by decide) (by decide)).trans (GenP.V1_of m c _ (by decide))
  a3 := (keep_launch m c _ (by decide) (by decide) (by decide) (by decide) (by decide)).trans (GenP.V1_of m c _ (by decide))
  a4 := (keep_launch m c _ (by decide) (by decide) (by decide) (by decide) (by decide)).trans (GenP.V1_of m c _ (by decide))
  a5 := (keep_launch m c _ (by decide) (by decide) (by decide) (by decide) (by decide)).trans (GenP.V1_of m c _ (by decide))
  a6 := (keep_launch m c _ (by decide) (by decide) (by decide) (by decide) (by decide)).trans (GenP.V1_of m c _ (by decide))
  a7 := (keep_launch m c _ (by decide) (by decide) (by decide) (by decide) (by decide)).trans (GenP.V1_of m c _ (by decide))
  a8 := (keep_launch m c _ (by decide) (by decide) (by decide) (by decide) (by decide)).trans (GenP.V1_of m c _ (by decide))

/-- The graph column the first host stretch lays out holds the launch's graph numbers. -/
theorem graph_launch (c : Dev nD) (r : Fin 50000) (u : Fin 1) :
    (GenP.V1 m c main_v4 : S50000x1.Idx → BitVec 32) (ix2 r u) = kBw m c r :=
  host0_graph (GenP.V0 m c) r u

end Cert.KernelIdeal.Hand

end
-- ==== Proof.KI.Val3Pay.lean ====
/-
  What the first linear map's kernel body computes from its four loaded blocks, entry by entry, over the extended
  reals: the block's affine image (the sum of the two feature blocks times the weights, plus the bias row), the
  column sums of that image over the block's rows, and the column sums of its squares. The roundings to the
  narrower format are the identity on extended reals, the accumulator of the matrix product is zero, and the sums
  over a whole axis are plain finite sums.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen Cert.Spec

/-! ## The matrix product's operand indices -/

private theorem lhs_row (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

private theorem lhs_shared (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single (cl := 1) rfl j k

private theorem rhs_shared (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single (cr := 0) rfl j k

private theorem rhs_col (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

/-- The product of a 5000 × 128 by a 128 × 128 matrix into the zero accumulator, at (p, q): the sum over the shared
    coordinate of the products of the entries. -/
private theorem mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have hl : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => exact lhs_row _ _
    | ⟨1, _⟩ => exact (lhs_shared _ _).trans hc
  have hr : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => exact (rhs_shared _ _).trans hc
    | ⟨1, _⟩ => exact rhs_col _ _
  rw [hl, hr]

/-! ## The row sums' index, and the casts between a vector, a row and a one-row stack -/

/-- A vector's coordinate put back under row p of the block. -/
private theorem lift_rows (h : S5000x128.Reduces [0] S128) (q : Fin 128) (p : Fin 5000) :
    h.lift (ix1 q) p = ix2 p q := by
  funext ax; apply Fin.ext
  match ax with
  | ⟨0, _⟩ => rfl
  | ⟨1, _⟩ => rfl

/-- The sum over the rows of a block, kept as a 1 × 1 × 128 stack, at column q. -/
private theorem colsum_apply (z : FVec Ideal S5000x128 .f32) (q : Fin 128) :
    shapeCast S1x1x128 (shapeCast S1x128
        (multiReduction (F := Ideal) .add [0] S128 z 0x00000000#32 reduces_S5000x128_S128 (.inl rfl) rfl)
        shapeCasts_S128_S1x128) shapeCasts_S1x128_S1x1x128 (ix3 0 0 q)
      = ∑ p : Fin 5000, z (ix2 p q) := by
  refine (shapeCast_ab_1ab_apply _ _ 0 0 q).trans ?_
  refine (shapeCast_a_1a_apply _ _ 0 q).trans ?_
  refine (Ideal.multiReduction_add_single z 0x00000000#32 reduces_S5000x128_S128 (.inl rfl) rfl (ix1 q)).trans ?_
  exact Finset.sum_congr rfl fun p _ => congrArg z (lift_rows _ q p)

/-! ## The three payloads at an index -/

/-- The block's affine image at (p, q): row p of the sum of the two feature blocks against column q of the weights,
    plus the bias at q. -/
theorem k3_pay1_apply (x0 x1 : Vec Ideal S5000x128 .f32) (x2 : Vec Ideal S128x128 .f32) (x3 : Vec Ideal S1x128 .f32)
    (p : Fin 5000) (q : Fin 128) :
    k3_pay1 x0 x1 x2 x3 (ix2 p q)
      = (∑ k : Fin 128, (x0 (ix2 p k) + x1 (ix2 p k)) * x2 (ix2 k q)) + x3 (ix2 0 q) := by
  unfold k3_pay1
  refine (addf_apply _ _ _).trans ?_
  refine congr (congrArg HAdd.hAdd ?_) ?_
  · refine (mm_apply _ _ p q).trans (Finset.sum_congr rfl fun k _ => ?_)
    simp only [shapeCast_self]
    all_goals rfl
  · refine (broadcastTo_1b_ab_apply _ _ p q).trans ?_
    exact congrFun (shapeCast_self x3 _) _

/-- The column sums of the block's affine image. -/
theorem k3_pay2_apply (x0 x1 : Vec Ideal S5000x128 .f32) (x2 : Vec Ideal S128x128 .f32) (x3 : Vec Ideal S1x128 .f32)
    (q : Fin 128) :
    k3_pay2 x0 x1 x2 x3 (ix3 0 0 q)
      = ∑ p : Fin 5000, ((∑ k : Fin 128, (x0 (ix2 p k) + x1 (ix2 p k)) * x2 (ix2 k q)) + x3 (ix2 0 q)) := by
  unfold k3_pay2
  refine (colsum_apply _ q).trans ?_
  exact Finset.sum_congr rfl fun p _ => k3_pay1_apply x0 x1 x2 x3 p q

/-- The column sums of the squares of the block's affine image. -/
theorem k3_pay3_apply (x0 x1 : Vec Ideal S5000x128 .f32) (x2 : Vec Ideal S128x128 .f32) (x3 : Vec Ideal S1x128 .f32)
    (q : Fin 128) :
    k3_pay3 x0 x1 x2 x3 (ix3 0 0 q)
      = ∑ p : Fin 5000, ((∑ k : Fin 128, (x0 (ix2 p k) + x1 (ix2 p k)) * x2 (ix2 k q)) + x3 (ix2 0 q))
          * ((∑ k : Fin 128, (x0 (ix2 p k) + x1 (ix2 p k)) * x2 (ix2 k q)) + x3 (ix2 0 q)) := by
  unfold k3_pay3
  refine (colsum_apply _ q).trans ?_
  refine Finset.sum_congr rfl fun p _ => ?_
  refine (mulf_apply _ _ _).trans ?_
  rw [k3_pay1_apply]

end Cert.KernelIdeal.Hand

end
-- ==== Proof.KI.Val3.lean ====
/-
  The three arrays the first linear map's region leaves, over the extended reals, as functions of the four arrays it
  reads: the affine image of the whole feature arrays (the sum of the features and their neighbourhood sums, times the
  weights, plus the bias); for each of the ten row blocks the column sums of that image over the block's rows; and
  the column sums of its squares. Each grid point computes its own block of these from its own blocks of the inputs —
  a block's entry sits in the array at (block number × block size + the coordinate inside the block) — and the
  blocks of the ten points tile the arrays.
-/
import proofs.«422260_j36421322670663_2_alg».proof.Proof.KI.Reg3
import proofs.«422260_j36421322670663_2_alg».proof.Proof.KI.Val3Pay
import proofs.«422260_j36421322670663_2_alg».proof.Proof.Gen.KernelIdeal.Points
import proofs.«422260_j36421322670663_2_alg».proof.Proof.Spec
import proofs.«422260_j36421322670663_2_alg».proof.Proof.SpecPool
import Idealize.ShloMosaic.Lib.ValueIdx
import Idealize.ShloMosaic.Lib.Pipeline.Value

noncomputable section

namespace Cert.KernelIdeal.Hand

open Idealize.ShloMosaic Idealize.ShloMosaic.ValueIdx Idealize.ShloMosaic.TcCoe Idealize.SL.Sem
open Cert.KernelIdeal Cert.KernelIdeal.Gen Cert.Spec

section Arrays
variable (V : (c : Dev nD) → (b : Ref sig .tc) → Buf (Elt Ideal) ((c : Thread nD τ).loc b)) (c : Dev nD)

/-! ## The whole arrays the three outputs end holding -/

/-- The affine image of the whole feature arrays: every row of their sum against the weights, plus the bias. -/
def lin3 : Mat 50000 128 :=
  Spec.lin (fun r k => cur2 (V c (Pipeline.arrRef spec3 0) : S50000x128.Idx → EReal) r k
      + cur2 (V c (Pipeline.arrRef spec3 1) : S50000x128.Idx → EReal) r k)
    (cur2 (V c (Pipeline.arrRef spec3 2) : S128x128.Idx → EReal))
    (row0 (V c (Pipeline.arrRef spec3 3) : S1x128.Idx → EReal))

/-- The image, as an array. -/
def arr3_4 : S50000x128.Idx → EReal := fun i => lin3 V c (i 0) (i 1)
/-- Its column sums block by block, as an array. -/
def arr3_5 : S10x1x128.Idx → EReal := fun i => Spec.ksum (lin3 V c) (i 0) (i 2)
/-- The column sums of its squares block by block, as an array. -/
def arr3_6 : S10x1x128.Idx → EReal := fun i => Spec.ksq (lin3 V c) (i 0) (i 2)

/-! ## Where a block's entry sits in its array -/

/-- The printed index maps over the ten grid points: the two feature windows and the image's window sit at the
    point's own row block, the weights and the bias at the one block there is, the two sums' windows at the point's
    own slice. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 3) = t.val ∧ win3_5.index t (1 : Fin 3) = 0 ∧ win3_5.index t (2 : Fin 3) = 0
    ∧ win3_6.index t (0 : Fin 3) = t.val ∧ win3_6.index t (1 : Fin 3) = 0 ∧ win3_6.index t (2 : Fin 3) = 0 :=
  (by decide +kernel : ∀ t : Fin grid3.N, _)

/-- The grid point as a block number. -/
def pt3 (t : Fin cfg3.N) : Fin 10 := Fin.cast N_3 t

/-- Entry (p, k) of a feature block is entry (block's first row + p, k) of the array. -/
theorem emb3_0 (t : Fin cfg3.N) (p : Fin 5000) (k : Fin 128) :
    ((cfg3.win 0).blk t).view.emb (ix2 p k) = (ix2 (brow (pt3 t) p) k : S50000x128.Idx) := by
  obtain ⟨e0, e1, -⟩ := idx3 t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

theorem emb3_1 (t : Fin cfg3.N) (p : Fin 5000) (k : Fin 128) :
    ((cfg3.win 1).blk t).view.emb (ix2 p k) = (ix2 (brow (pt3 t) p) k : S50000x128.Idx) := by
  obtain ⟨-, -, e0, e1, -⟩ := idx3 t
  funext a; apply Fin.ext
  match a with
  | ⟨0, _⟩ => show win3_1.index t (0 : Fin 2) * 5000 + 1 * p.val = t.val * 5000 + p.val; omega
  | ⟨1, _⟩ => show win3_1.index t (1 : Fin 2) * 128 + 1 * k.val = k.val; omega

/-- The weights' and the bias's one block is the array. -/
theorem emb3_2 (t : Fin cfg3.N) (k q : Fin 128) :
    ((cfg3.win 2).blk t).view.emb (ix2 k q) = (ix2 k q : S128x128.Idx) := by
  obtain ⟨-, -, -, -, e0, e1, -⟩ := idx3 t
  funext a; apply Fin.ext
  match a with
  | ⟨0, _⟩ => show win3_2.index t (0 : Fin 2) * 128 + 1 * k.val = k.val; omega
  | ⟨1, _⟩ => show win3_2.index t (1 : Fin 2) * 128 + 1 * q.val = q.val; omega

theorem emb3_3 (t : Fin cfg3.N) (u : Fin 1) (q : Fin 128) :
    ((cfg3.win 3).blk t).view.emb (ix2 u q) = (ix2 u q : S1x128.Idx) := by
  obtain ⟨-, -, -, -, -, -, e0, e1, -⟩ := idx3 t
  funext a; apply Fin.ext
  match a with
  | ⟨0, _⟩ => show win3_3.index t (0 : Fin 2) * 1 + 1 * u.val = u.val; omega
  | ⟨1, _⟩ => show win3_3.index t (1 : Fin 2) * 128 + 1 * q.val = q.val; omega

theorem emb3_4 (t : Fin cfg3.N) (p : Fin 5000) (q : Fin 128) :
    ((cfg3.win 4).blk t).view.emb (ix2 p q) = (ix2 (brow (pt3 t) p) q : S50000x128.Idx) := by
  obtain ⟨-, -, -, -, -, -, -, -, e0, e1, -⟩ := idx3 t
  funext a; apply Fin.ext
  match a with
  | ⟨0, _⟩ => show win3_4.index t (0 : Fin 2) * 5000 + 1 * p.val = t.val * 5000 + p.val; omega
  | ⟨1, _⟩ => show win3_4.index t (1 : Fin 2) * 128 + 1 * q.val = q.val; omega

/-- The one row of a block of sums is slice number (the point) of the stack. -/
theorem emb3_5 (t : Fin cfg3.N) (u v : Fin 1) (q : Fin 128) :
    ((cfg3.win 5).blk t).view.emb (ix3 u v q) = (ix3 (pt3 t) v q : S10x1x128.Idx) := by
  obtain ⟨-, -, -, -, -, -, -, -, -, -, e0, e1, e2, -⟩ := idx3 t
  funext a; apply Fin.ext
  match a with
  | ⟨0, _⟩ => show win3_5.index t (0 : Fin 3) * 1 + 1 * u.val = t.val; omega
  | ⟨1, _⟩ => show win3_5.index t (1 : Fin 3) * 1 + 1 * v.val = v.val; omega
  | ⟨2, _⟩ => show win3_5.index t (2 : Fin 3) * 128 + 1 * q.val = q.val; omega

theorem emb3_6 (t : Fin cfg3.N) (u v : Fin 1) (q : Fin 128) :
    ((cfg3.win 6).blk t).view.emb (ix3 u v q) = (ix3 (pt3 t) v q : S10x1x128.Idx) := by
  obtain ⟨-, -, -, -, -, -, -, -, -, -, -, -, -, e0, e1, e2⟩ := idx3 t
  funext a; apply Fin.ext
  match a with
  | ⟨0, _⟩ => show win3_6.index t (0 : Fin 3) * 1 + 1 * u.val = t.val; omega
  | ⟨1, _⟩ => show win3_6.index t (1 : Fin 3) * 1 + 1 * v.val = v.val; omega
  | ⟨2, _⟩ => show win3_6.index t (2 : Fin 3) * 128 + 1 * q.val = q.val; omega

/-! ## What a grid point's body computes is its block of the whole arrays -/

/-- One entry of the image computed from the point's four blocks is the whole image at the block's row. -/
theorem cell3 (t : Fin cfg3.N) (p : Fin 5000) (q : Fin 128)
    (x0 x1 : Vec Ideal S5000x128 .f32) (x2 : Vec Ideal S128x128 .f32) (x3 : Vec Ideal S1x128 .f32)
    (h0 : x0 = iblk3 V c 0 t) (h1 : x1 = iblk3 V c 1 t) (h2 : x2 = iblk3 V c 2 t) (h3 : x3 = iblk3 V c 3 t) :
    (∑ k : Fin 128, (x0 (ix2 p k) + x1 (ix2 p k)) * x2 (ix2 k q)) + x3 (ix2 0 q)
      = lin3 V c (brow (pt3 t) p) q := by
  subst h0 h1 h2 h3
  have a0 : ∀ k : Fin 128, iblk3 V c 0 t (ix2 p k)
      = (V c (Pipeline.arrRef spec3 0) : S50000x128.Idx → EReal) (ix2 (brow (pt3 t) p) k) :=
    fun k => congrArg (V c (Pipeline.arrRef spec3 0)) (emb3_0 t p k)
  have a1 : ∀ k : Fin 128, iblk3 V c 1 t (ix2 p k)
      = (V c (Pipeline.arrRef spec3 1) : S50000x128.Idx → EReal) (ix2 (brow (pt3 t) p) k) :=
    fun k => congrArg (V c (Pipeline.arrRef spec3 1)) (emb3_1 t p k)
  have a2 : ∀ k : Fin 128, iblk3 V c 2 t (ix2 k q)
      = (V c (Pipeline.arrRef spec3 2) : S128x128.Idx → EReal) (ix2 k q) :=
    fun k => congrArg (V c (Pipeline.arrRef spec3 2)) (emb3_2 t k q)
  have a3 : iblk3 V c 3 t (ix2 0 q) = (V c (Pipeline.arrRef spec3 3) : S1x128.Idx → EReal) (ix2 0 q) :=
    congrArg (V c (Pipeline.arrRef spec3 3)) (emb3_3 t 0 q)
  unfold lin3 Spec.lin cur2 row0
  refine congr (congrArg HAdd.hAdd (Finset.sum_congr rfl fun k _ => ?_)) a3
  exact congr (congrArg HMul.hMul (congr (congrArg HAdd.hAdd (a0 k)) (a1 k))) (a2 k)

end Arrays

section Blocks
variable (V : (c : Dev nD) → (b : Ref sig .tc) → Buf (Elt Ideal) ((c : Thread nD τ).loc b)) (c : Dev nD)

/-- The image's block at a point is the point's block of the whole image. -/
theorem blk3_4 (t : Fin cfg3.N) :
    k3_pay1 (iblk3 V c 0 t) (iblk3 V c 1 t) (iblk3 V c 2 t) (iblk3 V c 3 t)
      = ((cfg3.win 4).blk t).view.read (Elt Ideal) (arr3_4 V c) := by
  funext j
  obtain ⟨p, q, rfl⟩ : ∃ (p : Fin 5000) (q : Fin 128), j = ix2 p q := ⟨j 0, j 1, eq_ix2 j⟩
  refine (k3_pay1_apply _ _ _ _ p q).trans ?_
  refine (cell3 V c t p q _ _ _ _ rfl rfl rfl rfl).trans ?_
  exact (congrArg (arr3_4 V c) (emb3_4 t p q)).symm

/-- The column sums a point computes are the point's slice of the blockwise column sums of the whole image. -/
theorem blk3_5 (t : Fin cfg3.N) :
    k3_pay2 (iblk3 V c 0 t) (iblk3 V c 1 t) (iblk3 V c 2 t) (iblk3 V c 3 t)
      = ((cfg3.win 5).blk t).view.read (Elt Ideal) (arr3_5 V c) := by
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (k3_pay2_apply _ _ _ _ q).trans ?_
  refine (Finset.sum_congr rfl fun p _ => cell3 V c t p q _ _ _ _ rfl rfl rfl rfl).trans ?_
  exact (congrArg (arr3_5 V c) (emb3_5 t 0 0 q)).symm

/-- Likewise the column sums of squares. -/
theorem blk3_6 (t : Fin cfg3.N) :
    k3_pay3 (iblk3 V c 0 t) (iblk3 V c 1 t) (iblk3 V c 2 t) (iblk3 V c 3 t)
      = ((cfg3.win 6).blk t).view.read (Elt Ideal) (arr3_6 V c) := by
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (k3_pay3_apply _ _ _ _ q).trans ?_
  refine (Finset.sum_congr rfl fun p _ => by rw [cell3 V c t p q _ _ _ _ rfl rfl rfl rfl]).trans ?_
  exact (congrArg (arr3_6 V c) (emb3_6 t 0 0 q)).symm

end Blocks

section Final
variable (V : (c : Dev nD) → (b : Ref sig .tc) → Buf (Elt Ideal) ((c : Thread nD τ).loc b)) (c : Dev nD)

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## What each point writes back is its block of the whole array -/

theorem flushed3_4 (t : Fin cfg3.N) :
    (dat3 V c).flushed 4 t = ((cfg3.win 4).blk t).view.read (Elt Ideal) (arr3_4 V c) := by
  show (cfg3.win 4).cut (grid3.coords t) ((dat3 V c).after 4 t) = _
  rw [after3_4]
  unfold out3_4
  rw [View.canon_unit_zero hz2]
  simp only [View.ld_unit_zero (S := S5000x128) hz2, View.ld_unit_zero (S := S128x128) hz2,
    View.ld_unit_zero (S := S1x128) hz2]
  exact blk3_4 V c t

theorem flushed3_5 (t : Fin cfg3.N) :
    (dat3 V c).flushed 5 t = ((cfg3.win 5).blk t).view.read (Elt Ideal) (arr3_5 V c) := by
  show (cfg3.win 5).cut (grid3.coords t) ((dat3 V c).after 5 t) = _
  rw [after3_5]
  unfold out3_5
  rw [View.canon_unit_zero hz3]
  simp only [View.ld_unit_zero (S := S5000x128) hz2, View.ld_unit_zero (S := S128x128) hz2,
    View.ld_unit_zero (S := S1x128) hz2]
  exact blk3_5 V c t

theorem flushed3_6 (t : Fin cfg3.N) :
    (dat3 V c).flushed 6 t = ((cfg3.win 6).blk t).view.read (Elt Ideal) (arr3_6 V c) := by
  show (cfg3.win 6).cut (grid3.coords t) ((dat3 V c).after 6 t) = _
  rw [after3_6]
  unfold out3_6
  rw [View.canon_unit_zero hz3]
  simp only [View.ld_unit_zero (S := S5000x128) hz2, View.ld_unit_zero (S := S128x128) hz2,
    View.ld_unit_zero (S := S1x128) hz2]
  exact blk3_6 V c t

/-! ## The blocks tile the arrays -/

/-- An index is in a point's block when each coordinate is in the block's range on its axis. -/
theorem mem3_4 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole (Pipeline.arrRef spec3 4)).slice (win3_4.rect t)).set ↔ _
  rw [View.set_slice_whole, Rect.mem_set_unit]
  exact Iff.rfl

theorem mem3_5 (t : Fin cfg3.N) (i : S10x1x128.Idx) :
    i ∈ ((cfg3.win 5).blk t).view.set ↔ ∀ a : Fin 3, win3_5.index t a * S1x1x128.size a ≤ (i a).val
      ∧ (i a).val < win3_5.index t a * S1x1x128.size a + S1x1x128.size a := by
  show i ∈ ((View.whole (Pipeline.arrRef spec3 5)).slice (win3_5.rect t)).set ↔ _
  rw [View.set_slice_whole, Rect.mem_set_unit]
  exact Iff.rfl

theorem mem3_6 (t : Fin cfg3.N) (i : S10x1x128.Idx) :
    i ∈ ((cfg3.win 6).blk t).view.set ↔ ∀ a : Fin 3, win3_6.index t a * S1x1x128.size a ≤ (i a).val
      ∧ (i a).val < win3_6.index t a * S1x1x128.size a + S1x1x128.size a := by
  show i ∈ ((View.whole (Pipeline.arrRef spec3 6)).slice (win3_6.rect t)).set ↔ _
  rw [View.set_slice_whole, Rect.mem_set_unit]
  exact Iff.rfl

/-- Row r of the image is in the block of point r / 5000. -/
theorem tile3_4 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by show _ < grid3.N; rw [N_3]; omega⟩, rfl⟩
  refine ⟨t, flush3_4 t, ?_⟩
  rw [mem3_4]
  obtain ⟨-, -, -, -, -, -, -, -, e0, e1, -⟩ := idx3 t
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- Slice s of a stack of sums is the block of point s. -/
theorem tile3_5 (i : S10x1x128.Idx) :
    ∃ t : Fin cfg3.N, (cfg3.win 5).flush t = true ∧ i ∈ ((cfg3.win 5).blk t).view.set := by
  have hi0 : (i 0).val < 10 := (i 0).isLt
  have hi1 : (i 1).val < 1 := (i 1).isLt
  have hi2 : (i 2).val < 128 := (i 2).isLt
  obtain ⟨t, ht⟩ : ∃ t : Fin cfg3.N, t.val = (i 0).val :=
    ⟨⟨(i 0).val, by show _ < grid3.N; rw [N_3]; omega⟩, rfl⟩
  refine ⟨t, flush3_5 t, ?_⟩
  rw [mem3_5]
  obtain ⟨-, -, -, -, -, -, -, -, -, -, e0, e1, e2, -⟩ := idx3 t
  intro a
  match a with
  | ⟨0, _⟩ =>
    show win3_5.index t (0 : Fin 3) * 1 ≤ (i 0).val ∧ (i 0).val < win3_5.index t (0 : Fin 3) * 1 + 1
    omega
  | ⟨1, _⟩ =>
    show win3_5.index t (1 : Fin 3) * 1 ≤ (i 1).val ∧ (i 1).val < win3_5.index t (1 : Fin 3) * 1 + 1
    omega
  | ⟨2, _⟩ =>
    show win3_5.index t (2 : Fin 3) * 128 ≤ (i 2).val ∧ (i 2).val < win3_5.index t (2 : Fin 3) * 128 + 128
    omega

theorem tile3_6 (i : S10x1x128.Idx) :
    ∃ t : Fin cfg3.N, (cfg3.win 6).flush t = true ∧ i ∈ ((cfg3.win 6).blk t).view.set := by
  have hi0 : (i 0).val < 10 := (i 0).isLt
  have hi1 : (i 1).val < 1 := (i 1).isLt
  have hi2 : (i 2).val < 128 := (i 2).isLt
  obtain ⟨t, ht⟩ : ∃ t : Fin cfg3.N, t.val = (i 0).val :=
    ⟨⟨(i 0).val, by show _ < grid3.N; rw [N_3]; omega⟩, rfl⟩
  refine ⟨t, flush3_6 t, ?_⟩
  rw [mem3_6]
  obtain ⟨-, -, -, -, -, -, -, -, -, -, -, -, -, e0, e1, e2⟩ := idx3 t
  intro a
  match a with
  | ⟨0, _⟩ =>
    show win3_6.index t (0 : Fin 3) * 1 ≤ (i 0).val ∧ (i 0).val < win3_6.index t (0 : Fin 3) * 1 + 1
    omega
  | ⟨1, _⟩ =>
    show win3_6.index t (1 : Fin 3) * 1 ≤ (i 1).val ∧ (i 1).val < win3_6.index t (1 : Fin 3) * 1 + 1
    omega
  | ⟨2, _⟩ =>
    show win3_6.index t (2 : Fin 3) * 128 ≤ (i 2).val ∧ (i 2).val < win3_6.index t (2 : Fin 3) * 128 + 128
    omega

/-! ## The three arrays after the region -/

theorem final3_4 : (dat3 V c).arrAt 4 cfg3.N = arr3_4 V c :=
  (dat3 V c).arrAt_eq_of_cover 4 (arr3_4 V c) (fun t _ => flushed3_4 V c t) tile3_4

theorem final3_5 : (dat3 V c).arrAt 5 cfg3.N = arr3_5 V c :=
  (dat3 V c).arrAt_eq_of_cover 5 (arr3_5 V c) (fun t _ => flushed3_5 V c t) tile3_5

theorem final3_6 : (dat3 V c).arrAt 6 cfg3.N = arr3_6 V c :=
  (dat3 V c).arrAt_eq_of_cover 6 (arr3_6 V c) (fun t _ => flushed3_6 V c t) tile3_6

/-- The image window ends holding the first linear map of the sum of the two feature arrays. -/
theorem val3_4 :
    cur2 ((dat3 V c).arrAt 4 cfg3.N : S50000x128.Idx → EReal)
      = Spec.lin (fun r k => cur2 (V c (Pipeline.arrRef spec3 0)) r k + cur2 (V c (Pipeline.arrRef spec3 1)) r k)
          (cur2 (V c (Pipeline.arrRef spec3 2))) (row0 (V c (Pipeline.arrRef spec3 3))) := by
  rw [final3_4]
  rfl

/-- The second output holds, slice by slice, the column sums of that image over the block's rows. -/
theorem val3_5 (t : Fin 10) (k : Fin 128) :
    ((dat3 V c).arrAt 5 cfg3.N : S10x1x128.Idx → EReal) (ValueIdx.ix3 t 0 k)
      = Spec.ksum (Spec.lin (fun r k => cur2 (V c (Pipeline.arrRef spec3 0)) r k + cur2 (V c (Pipeline.arrRef spec3 1)) r k)
          (cur2 (V c (Pipeline.arrRef spec3 2))) (row0 (V c (Pipeline.arrRef spec3 3)))) t k := by
  rw [final3_5]
  rfl

/-- The third holds the column sums of its squares. -/
theorem val3_6 (t : Fin 10) (k : Fin 128) :
    ((dat3 V c).arrAt 6 cfg3.N : S10x1x128.Idx → EReal) (ValueIdx.ix3 t 0 k)
      = Spec.ksq (Spec.lin (fun r k => cur2 (V c (Pipeline.arrRef spec3 0)) r k + cur2 (V c (Pipeline.arrRef spec3 1)) r k)
          (cur2 (V c (Pipeline.arrRef spec3 2))) (row0 (V c (Pipeline.arrRef spec3 3)))) t k := by
  rw [final3_6]
  rfl

end Final

end Cert.KernelIdeal.Hand

end
-- ==== Proof.KI.Val4Pay.lean ====
/-
  What the payloads of the batch-normalisation / rectifier / second-product kernel are at an index, over the
  extended reals: the block of the second affine map is, entry by entry, the sum over the features of the rectified
  normalised pre-activation times the weight, plus the bias; the two statistics rows are the column sums of that
  block and of its squares.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.Hand

open Cert.KernelIdeal Cert.KernelIdeal.Gen Cert.Spec
open Idealize.ShloMosaic Idealize.ShloMosaic.ValueIdx

/-! ## The matrix product's operand indices, coordinate by coordinate -/

theorem mmlrow4 (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
theorem mmlcol4 (j : S5000x128.Idx) (k : dot_S5000x128_S128x128_S5000x128_1_0_0_1_n_n.contr.Idx) :
    (dot_S5000x128_S128x128_S5000x128_1_0_0_1_n_n.lhsIdx j k 1 : ℕ) = k ⟨0, by decide⟩ := by
  simp [DotDims.lhsIdx, dot_S5000x128_S128x128_S5000x128_1_0_0_1_n_n]; rfl
theorem mmrrow4 (j : S5000x128.Idx) (k : dot_S5000x128_S128x128_S5000x128_1_0_0_1_n_n.contr.Idx) :
    (dot_S5000x128_S128x128_S5000x128_1_0_0_1_n_n.rhsIdx j k 0 : ℕ) = k ⟨0, by decide⟩ := by
  simp [DotDims.rhsIdx, dot_S5000x128_S128x128_S5000x128_1_0_0_1_n_n]; rfl
theorem mmrcol4 (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-- The product into the zero block, at row p and column q: the sum over the 128 features. -/
theorem mmat4 (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hl : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact mmlrow4 _ _
      | ⟨1, _⟩ => exact (mmlcol4 _ _).trans (contrEquiv1_symm_val _ 128 rfl rfl k))
  have hr : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (mmrrow4 _ _).trans (contrEquiv1_symm_val _ 128 rfl rfl k)
      | ⟨1, _⟩ => exact mmrcol4 _ _)
  rw [hl, hr]

/-- The sum over the 5000 rows of a block, at column q. -/
theorem rsum4 (src : FVec Ideal S5000x128 .f32) (hφ : FKind.Formats .f32) (hacc : (0x00000000#32 : BitVec 32) = 0x00000000#32)
    (q : Fin 128) :
    multiReduction (F := Ideal) .add [0] S128 src 0x00000000#32 reduces_S5000x128_S128 hφ hacc (ix1 q)
      = ∑ p : Fin 5000, src (ix2 p q) := by
  refine (Ideal.multiReduction_add_single src 0x00000000#32 reduces_S5000x128_S128 hφ hacc (ix1 q)).trans ?_
  refine Finset.sum_congr rfl fun p _ => congrArg src (funext fun ax => Fin.ext ?_)
  match ax with
  | ⟨0, _⟩ => rfl
  | ⟨1, _⟩ => rfl

/-! ## The payloads at an index -/

/-- The block of the second affine map at row p and column q. The inputs are named in the kernel's window order:
    the pre-activations, their mean, their variance, the scale, the shift, the weights, the bias. -/
theorem payz4 (xz : Vec Ideal S5000x128 .f32) (xm xv xg xb : Vec Ideal S1x128 .f32) (xw : Vec Ideal S128x128 .f32)
    (xc : Vec Ideal S1x128 .f32) (p : Fin 5000) (q : Fin 128) :
    k4_pay3 xz xv xm xg xb xw xc (ix2 p q)
      = (∑ k : Fin 128, max ((xz (ix2 p k) - xm (ix2 0 k)) * Ideal.rsqrt (xv (ix2 0 k) + eps) * xg (ix2 0 k) + xb (ix2 0 k)) 0
            * xw (ix2 k q)) + xc (ix2 0 q) := by
  unfold k4_pay3
  refine (congrArg₂ (· + ·) (mmat4 _ _ p q) (broadcastTo_1b_ab_apply _ _ p q)).trans ?_
  simp only [shapeCast_self]
  refine congrArg (· + xc (ix2 0 q)) (Finset.sum_congr rfl fun k _ => ?_)
  simp only [truncf_apply, maximumf_apply, addf_apply, mulf_apply, subf_apply, broadcast_apply, broadcastTo_1b_ab_apply]
  have hzero : (FloatOps.ofBits (F := Ideal) .f32 0x00000000#32) = 0 := Ideal.ofBits_zero_f32
  rw [hzero]
  rfl

/-- The row of column sums the kernel stores: at column q, the sum of the block's entries down the 5000 rows. -/
theorem paysum4 (xz : Vec Ideal S5000x128 .f32) (xm xv xg xb : Vec Ideal S1x128 .f32) (xw : Vec Ideal S128x128 .f32)
    (xc : Vec Ideal S1x128 .f32) (u v : Fin 1) (q : Fin 128) :
    k4_pay1 (k4_pay4 xz xv xm xg xb xw xc) (ix3 u v q) = ∑ p : Fin 5000, k4_pay3 xz xv xm xg xb xw xc (ix2 p q) := by
  unfold k4_pay1 k4_pay4
  refine (shapeCast_ab_1ab_apply _ _ u v q).trans ?_
  refine (shapeCast_a_1a_apply _ _ v q).trans ?_
  exact rsum4 _ _ _ q

/-- The row of column sums of squares: at column q, the sum of the squared entries down the rows. -/
theorem paysq4 (xz : Vec Ideal S5000x128 .f32) (xm xv xg xb : Vec Ideal S1x128 .f32) (xw : Vec Ideal S128x128 .f32)
    (xc : Vec Ideal S1x128 .f32) (u v : Fin 1) (q : Fin 128) :
    k4_pay2 (k4_pay5 xz xv xm xg xb xw xc) (ix3 u v q)
      = ∑ p : Fin 5000, k4_pay3 xz xv xm xg xb xw xc (ix2 p q) * k4_pay3 xz xv xm xg xb xw xc (ix2 p q) := by
  unfold k4_pay2 k4_pay5
  refine (shapeCast_ab_1ab_apply _ _ u v q).trans ?_
  refine (shapeCast_a_1a_apply _ _ v q).trans ?_
  exact rsum4 _ _ _ q

end Cert.KernelIdeal.Hand

end
-- ==== Proof.KI.Val4Blk.lean ====
/-
  Where the blocks of the batch-normalisation / rectifier / second-product kernel sit in their arrays: at grid point t
  the block of pre-activations and the block of results are rows 5000·t … 5000·t + 4999, the per-feature rows and the
  weights are whole arrays, and the two statistics rows are row t of their ten-row arrays; the result blocks cover
  their arrays. Also the layer's second affine map of whole arrays, as one function.
-/
import proofs.«422260_j36421322670663_2_alg».proof.Proof.Gen.KernelIdeal.Launch
import proofs.«422260_j36421322670663_2_alg».proof.Proof.Gen.KernelIdeal.Points
import proofs.«422260_j36421322670663_2_alg».proof.Proof.Spec
import proofs.«422260_j36421322670663_2_alg».proof.Proof.SpecPool
import Idealize.ShloMosaic.Lib.ValueIdx
import Idealize.ShloMosaic.Lib.Pipeline.Value

set_option pp.maxSteps 5000
set_option pp.deepTerms false

noncomputable section

namespace Cert.KernelIdeal.Hand

open Cert.KernelIdeal Cert.KernelIdeal.Gen Cert.Spec
open Idealize.ShloMosaic Idealize.ShloMosaic.ValueIdx Idealize.ShloMosaic.TcCoe

/-- The second affine map of the rectified normalised pre-activations, from whole arrays. -/
def gz4 (az : S50000x128.Idx → EReal) (am av ag ab : S1x128.Idx → EReal) (aw : S128x128.Idx → EReal)
    (ac : S1x128.Idx → EReal) : Mat 50000 128 :=
  Spec.lin (Spec.bnrelu (cur2 az) (row0 am) (row0 av) (row0 ag) (row0 ab)) (cur2 aw) (row0 ac)

/-- A grid point as a block number. -/
def tblk4 (t : Fin cfg4.N) : Fin 10 := Fin.cast N_4 t

theorem tblk4_val (t : Fin cfg4.N) : (tblk4 t).val = t.val := rfl

/-- The block indices at every grid point. -/
theorem blkidx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ win4_8.index t (0 : Fin 3) = t.val ∧ win4_8.index t (1 : Fin 3) = 0 ∧ win4_8.index t (2 : Fin 3) = 0
    ∧ win4_9.index t (0 : Fin 3) = t.val ∧ win4_9.index t (1 : Fin 3) = 0 ∧ win4_9.index t (2 : Fin 3) = 0 :=
  (by decide +kernel : ∀ t : Fin grid4.N, _)

/-! ## Where a block's entry sits in its array -/

theorem embz4 (t : Fin cfg4.N) (p : Fin 5000) (k : Fin 128) :
    ((cfg4.win 0).blk t).view.emb (ix2 p k) = ix2 (brow (tblk4 t) p) k := by
  have e := blkidx4 t
  funext a; apply Fin.ext
  match a with
  | ⟨0, _⟩ => show win4_0.index t (0 : Fin 2) * 5000 + 1 * p.val = t.val * 5000 + p.val; rw [e.1]; omega
  | ⟨1, _⟩ => show win4_0.index t (1 : Fin 2) * 128 + 1 * k.val = k.val; rw [e.2.1]; omega

theorem embm4 (t : Fin cfg4.N) (u : Fin 1) (k : Fin 128) :
    ((cfg4.win 1).blk t).view.emb (ix2 u k) = ix2 0 k := by
  have e := blkidx4 t
  funext a; apply Fin.ext
  match a with
  | ⟨0, _⟩ => show win4_1.index t (0 : Fin 2) * 1 + 1 * u.val = 0; rw [e.2.2.1]; omega
  | ⟨1, _⟩ => show win4_1.index t (1 : Fin 2) * 128 + 1 * k.val = k.val; rw [e.2.2.2.1]; omega

theorem embv4 (t : Fin cfg4.N) (u : Fin 1) (k : Fin 128) :
    ((cfg4.win 2).blk t).view.emb (ix2 u k) = ix2 0 k := by
  have e := blkidx4 t
  funext a; apply Fin.ext
  match a with
  | ⟨0, _⟩ => show win4_2.index t (0 : Fin 2) * 1 + 1 * u.val = 0; rw [e.2.2.2.2.1]; omega
  | ⟨1, _⟩ => show win4_2.index t (1 : Fin 2) * 128 + 1 * k.val = k.val; rw [e.2.2.2.2.2.1]; omega

theorem embg4 (t : Fin cfg4.N) (u : Fin 1) (k : Fin 128) :
    ((cfg4.win 3).blk t).view.emb (ix2 u k) = ix2 0 k := by
  have e := blkidx4 t
  funext a; apply Fin.ext
  match a with
  | ⟨0, _⟩ => show win4_3.index t (0 : Fin 2) * 1 + 1 * u.val = 0; rw [e.2.2.2.2.2.2.1]; omega
  | ⟨1, _⟩ => show win4_3.index t (1 : Fin 2) * 128 + 1 * k.val = k.val; rw [e.2.2.2.2.2.2.2.1]; omega

theorem embb4 (t : Fin cfg4.N) (u : Fin 1) (k : Fin 128) :
    ((cfg4.win 4).blk t).view.emb (ix2 u k) = ix2 0 k := by
  have e := blkidx4 t
  funext a; apply Fin.ext
  match a with
  | ⟨0, _⟩ => show win4_4.index t (0 : Fin 2) * 1 + 1 * u.val = 0; rw [e.2.2.2.2.2.2.2.2.1]; omega
  | ⟨1, _⟩ => show win4_4.index t (1 : Fin 2) * 128 + 1 * k.val = k.val; rw [e.2.2.2.2.2.2.2.2.2.1]; omega

theorem embw4 (t : Fin cfg4.N) (k q : Fin 128) :
    ((cfg4.win 5).blk t).view.emb (ix2 k q) = ix2 k q := by
  have e := blkidx4 t
  funext a; apply Fin.ext
  match a with
  | ⟨0, _⟩ => show win4_5.index t (0 : Fin 2) * 128 + 1 * k.val = k.val; rw [e.2.2.2.2.2.2.2.2.2.2.1]; omega
  | ⟨1, _⟩ => show win4_5.index t (1 : Fin 2) * 128 + 1 * q.val = q.val; rw [e.2.2.2.2.2.2.2.2.2.2.2.1]; omega

theorem embc4 (t : Fin cfg4.N) (u : Fin 1) (k : Fin 128) :
    ((cfg4.win 6).blk t).view.emb (ix2 u k) = ix2 0 k := by
  have e := blkidx4 t
  funext a; apply Fin.ext
  match a with
  | ⟨0, _⟩ => show win4_6.index t (0 : Fin 2) * 1 + 1 * u.val = 0; rw [e.2.2.2.2.2.2.2.2.2.2.2.2.1]; omega
  | ⟨1, _⟩ => show win4_6.index t (1 : Fin 2) * 128 + 1 * k.val = k.val; rw [e.2.2.2.2.2.2.2.2.2.2.2.2.2.1]; omega

theorem embo4_7 (t : Fin cfg4.N) (p : Fin 5000) (q : Fin 128) :
    ((cfg4.win 7).blk t).view.emb (ix2 p q) = ix2 (brow (tblk4 t) p) q := by
  have e := blkidx4 t
  funext a; apply Fin.ext
  match a with
  | ⟨0, _⟩ => show win4_7.index t (0 : Fin 2) * 5000 + 1 * p.val = t.val * 5000 + p.val; rw [e.2.2.2.2.2.2.2.2.2.2.2.2.2.2.1]; omega
  | ⟨1, _⟩ => show win4_7.index t (1 : Fin 2) * 128 + 1 * q.val = q.val; rw [e.2.2.2.2.2.2.2.2.2.2.2.2.2.2.2.1]; omega

theorem embo4_8 (t : Fin cfg4.N) (u v : Fin 1) (q : Fin 128) :
    ((cfg4.win 8).blk t).view.emb (ix3 u v q) = ix3 (tblk4 t) 0 q := by
  obtain ⟨-, -, -, -, -, -, -, -, -, -, -, -, -, -, -, -, e0, e1, e2, -⟩ := blkidx4 t
  funext a; apply Fin.ext
  match a with
  | ⟨0, _⟩ => show win4_8.index t (0 : Fin 3) * 1 + 1 * u.val = t.val; rw [e0]; omega
  | ⟨1, _⟩ => show win4_8.index t (1 : Fin 3) * 1 + 1 * v.val = 0; rw [e1]; omega
  | ⟨2, _⟩ => show win4_8.index t (2 : Fin 3) * 128 + 1 * q.val = q.val; rw [e2]; omega

theorem embo4_9 (t : Fin cfg4.N) (u v : Fin 1) (q : Fin 128) :
    ((cfg4.win 9).blk t).view.emb (ix3 u v q) = ix3 (tblk4 t) 0 q := by
  obtain ⟨-, -, -, -, -, -, -, -, -, -, -, -, -, -, -, -, -, -, -, e0, e1, e2⟩ := blkidx4 t
  funext a; apply Fin.ext
  match a with
  | ⟨0, _⟩ => show win4_9.index t (0 : Fin 3) * 1 + 1 * u.val = t.val; rw [e0]; omega
  | ⟨1, _⟩ => show win4_9.index t (1 : Fin 3) * 1 + 1 * v.val = 0; rw [e1]; omega
  | ⟨2, _⟩ => show win4_9.index t (2 : Fin 3) * 128 + 1 * q.val = q.val; rw [e2]; omega

/-! ## The result blocks cover their arrays -/

/-- Every entry of the array of results lies in the block of the point its row belongs to. -/
theorem cover4_7w (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  have ht : t.val = (i 0).val / 5000 := rfl
  obtain ⟨-, -, -, -, -, -, -, -, -, -, -, -, -, -, e0, e1, -⟩ := blkidx4 t
  refine ⟨t, flush4_7 t, ?_⟩
  show i ∈ ((View.whole (Pipeline.arrRef spec4 7)).slice (win4_7.rect t)).set
  rw [View.set_slice_whole, Rect.mem_set_unit]
  intro a
  match a with
  | ⟨0, _⟩ => show win4_7.index t (0 : Fin 2) * 5000 ≤ (i 0).val ∧ (i 0).val < win4_7.index t (0 : Fin 2) * 5000 + 5000; rw [e0, ht]; omega
  | ⟨1, _⟩ => show win4_7.index t (1 : Fin 2) * 128 ≤ (i 1).val ∧ (i 1).val < win4_7.index t (1 : Fin 2) * 128 + 128; rw [e1]; omega

/-- Every entry of the ten rows of column sums lies in the block of its row's point. -/
theorem cover4_8w (i : S10x1x128.Idx) :
    ∃ t : Fin cfg4.N, (cfg4.win 8).flush t = true ∧ i ∈ ((cfg4.win 8).blk t).view.set := by
  have hi0 : (i 0).val < 10 := (i 0).isLt
  have hi1 : (i 1).val < 1 := (i 1).isLt
  have hi2 : (i 2).val < 128 := (i 2).isLt
  have hN : cfg4.N = 10 := N_4
  let t : Fin cfg4.N := ⟨(i 0).val, by rw [hN]; omega⟩
  have ht : t.val = (i 0).val := rfl
  obtain ⟨-, -, -, -, -, -, -, -, -, -, -, -, -, -, -, -, e0, e1, e2, -⟩ := blkidx4 t
  refine ⟨t, flush4_8 t, ?_⟩
  show i ∈ ((View.whole (Pipeline.arrRef spec4 8)).slice (win4_8.rect t)).set
  rw [View.set_slice_whole, Rect.mem_set_unit]
  intro a
  match a with
  | ⟨0, _⟩ => show win4_8.index t (0 : Fin 3) * 1 ≤ (i 0).val ∧ (i 0).val < win4_8.index t (0 : Fin 3) * 1 + 1; rw [e0, ht]; omega
  | ⟨1, _⟩ => show win4_8.index t (1 : Fin 3) * 1 ≤ (i 1).val ∧ (i 1).val < win4_8.index t (1 : Fin 3) * 1 + 1; rw [e1]; omega
  | ⟨2, _⟩ => show win4_8.index t (2 : Fin 3) * 128 ≤ (i 2).val ∧ (i 2).val < win4_8.index t (2 : Fin 3) * 128 + 128; rw [e2]; omega

/-- The same for the ten rows of column sums of squares. -/
theorem cover4_9w (i : S10x1x128.Idx) :
    ∃ t : Fin cfg4.N, (cfg4.win 9).flush t = true ∧ i ∈ ((cfg4.win 9).blk t).view.set := by
  have hi0 : (i 0).val < 10 := (i 0).isLt
  have hi1 : (i 1).val < 1 := (i 1).isLt
  have hi2 : (i 2).val < 128 := (i 2).isLt
  have hN : cfg4.N = 10 := N_4
  let t : Fin cfg4.N := ⟨(i 0).val, by rw [hN]; omega⟩
  have ht : t.val = (i 0).val := rfl
  obtain ⟨-, -, -, -, -, -, -, -, -, -, -, -, -, -, -, -, -, -, -, e0, e1, e2⟩ := blkidx4 t
  refine ⟨t, flush4_9 t, ?_⟩
  show i ∈ ((View.whole (Pipeline.arrRef spec4 9)).slice (win4_9.rect t)).set
  rw [View.set_slice_whole, Rect.mem_set_unit]
  intro a
  match a with
  | ⟨0, _⟩ => show win4_9.index t (0 : Fin 3) * 1 ≤ (i 0).val ∧ (i 0).val < win4_9.index t (0 : Fin 3) * 1 + 1; rw [e0, ht]; omega
  | ⟨1, _⟩ => show win4_9.index t (1 : Fin 3) * 1 ≤ (i 1).val ∧ (i 1).val < win4_9.index t (1 : Fin 3) * 1 + 1; rw [e1]; omega
  | ⟨2, _⟩ => show win4_9.index t (2 : Fin 3) * 128 ≤ (i 2).val ∧ (i 2).val < win4_9.index t (2 : Fin 3) * 128 + 128; rw [e2]; omega

end Cert.KernelIdeal.Hand

end
-- ==== Proof.KI.Val4.lean ====
/-
  What the batch-normalisation / rectifier / second-product kernel leaves in its three result arrays, over the extended
  reals: the array of the second affine map is that map of the whole input arrays, and row t of the two statistics
  arrays holds the column sums, and the column sums of squares, of rows 5000·t … 5000·t + 4999 of it.
-/
import proofs.«422260_j36421322670663_2_alg».proof.Proof.KI.Reg4
import proofs.«422260_j36421322670663_2_alg».proof.Proof.KI.Val4Pay
import proofs.«422260_j36421322670663_2_alg».proof.Proof.KI.Val4Blk

set_option pp.maxSteps 5000
set_option pp.deepTerms false

noncomputable section

namespace Cert.KernelIdeal.Hand

open Cert.KernelIdeal Cert.KernelIdeal.Gen Cert.Spec
open Idealize.ShloMosaic Idealize.ShloMosaic.ValueIdx Idealize.ShloMosaic.TcCoe
open Idealize.SL.Sem
open Idealize.ShloMosaic.Pipeline (Dat Cfg Window)

-- the contents of every array when the region is entered
variable (V : (c : Dev nD) → (b : Ref sig .tc) → Buf (Elt Ideal) ((c : Thread nD τ).loc b))

theorem hzz4 : (![0, 0] : Fin 2 → Nat) = fun _ => 0 := funext fun a => by fin_cases a <;> rfl
theorem hzzz4 : (![0, 0, 0] : Fin 3 → Nat) = fun _ => 0 := funext fun a => by fin_cases a <;> rfl

/-- The second affine map of the arrays as the region finds them. -/
abbrev garr4 (c : Dev nD) : Mat 50000 128 :=
  gz4 (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6))

/-! ## One entry of a block's result, from blocks that are parts of arrays -/

/-- If row p of the block of pre-activations is row r of their array and the other blocks are their arrays, the
    block's result at (p, q) is the array's second affine map at (r, q). -/
theorem ptz4 (az : S50000x128.Idx → EReal) (am av ag ab : S1x128.Idx → EReal) (aw : S128x128.Idx → EReal)
    (ac : S1x128.Idx → EReal)
    (xz : Vec Ideal S5000x128 .f32) (xm xv xg xb : Vec Ideal S1x128 .f32) (xw : Vec Ideal S128x128 .f32)
    (xc : Vec Ideal S1x128 .f32) (r : Fin 50000) (p : Fin 5000) (q : Fin 128)
    (hz : ∀ k : Fin 128, xz (ix2 p k) = az (ix2 r k))
    (hm : ∀ k : Fin 128, xm (ix2 0 k) = am (ix2 0 k)) (hv : ∀ k : Fin 128, xv (ix2 0 k) = av (ix2 0 k))
    (hg : ∀ k : Fin 128, xg (ix2 0 k) = ag (ix2 0 k)) (hb : ∀ k : Fin 128, xb (ix2 0 k) = ab (ix2 0 k))
    (hw : ∀ k : Fin 128, xw (ix2 k q) = aw (ix2 k q)) (hc : xc (ix2 0 q) = ac (ix2 0 q)) :
    k4_pay3 xz xv xm xg xb xw xc (ix2 p q) = gz4 az am av ag ab aw ac r q := by
  rw [payz4]
  simp only [gz4, Spec.lin, Spec.bnrelu, cur2, row0, hz, hm, hv, hg, hb, hw, hc]

/-- Each input block read at an entry is its array read where the block sits. -/
theorem iblkz4 (c : Dev nD) (t : Fin cfg4.N) (p : Fin 5000) (k : Fin 128) :
    (iblk4 V c 0 t : Vec Ideal S5000x128 .f32) (ix2 p k)
      = (V c (Pipeline.arrRef spec4 0) : S50000x128.Idx → EReal) (ix2 (brow (tblk4 t) p) k) := by
  show (V c (Pipeline.arrRef spec4 0) : S50000x128.Idx → EReal) (((cfg4.win 0).blk t).view.emb (ix2 p k)) = _
  rw [embz4]
theorem iblkm4 (c : Dev nD) (t : Fin cfg4.N) (k : Fin 128) :
    (iblk4 V c 1 t : Vec Ideal S1x128 .f32) (ix2 0 k) = (V c (Pipeline.arrRef spec4 1) : S1x128.Idx → EReal) (ix2 0 k) := by
  show (V c (Pipeline.arrRef spec4 1) : S1x128.Idx → EReal) (((cfg4.win 1).blk t).view.emb (ix2 0 k)) = _
  rw [embm4]
theorem iblkv4 (c : Dev nD) (t : Fin cfg4.N) (k : Fin 128) :
    (iblk4 V c 2 t : Vec Ideal S1x128 .f32) (ix2 0 k) = (V c (Pipeline.arrRef spec4 2) : S1x128.Idx → EReal) (ix2 0 k) := by
  show (V c (Pipeline.arrRef spec4 2) : S1x128.Idx → EReal) (((cfg4.win 2).blk t).view.emb (ix2 0 k)) = _
  rw [embv4]
theorem iblkg4 (c : Dev nD) (t : Fin cfg4.N) (k : Fin 128) :
    (iblk4 V c 3 t : Vec Ideal S1x128 .f32) (ix2 0 k) = (V c (Pipeline.arrRef spec4 3) : S1x128.Idx → EReal) (ix2 0 k) := by
  show (V c (Pipeline.arrRef spec4 3) : S1x128.Idx → EReal) (((cfg4.win 3).blk t).view.emb (ix2 0 k)) = _
  rw [embg4]
theorem iblkb4 (c : Dev nD) (t : Fin cfg4.N) (k : Fin 128) :
    (iblk4 V c 4 t : Vec Ideal S1x128 .f32) (ix2 0 k) = (V c (Pipeline.arrRef spec4 4) : S1x128.Idx → EReal) (ix2 0 k) := by
  show (V c (Pipeline.arrRef spec4 4) : S1x128.Idx → EReal) (((cfg4.win 4).blk t).view.emb (ix2 0 k)) = _
  rw [embb4]
theorem iblkw4 (c : Dev nD) (t : Fin cfg4.N) (k q : Fin 128) :
    (iblk4 V c 5 t : Vec Ideal S128x128 .f32) (ix2 k q) = (V c (Pipeline.arrRef spec4 5) : S128x128.Idx → EReal) (ix2 k q) := by
  show (V c (Pipeline.arrRef spec4 5) : S128x128.Idx → EReal) (((cfg4.win 5).blk t).view.emb (ix2 k q)) = _
  rw [embw4]
theorem iblkc4 (c : Dev nD) (t : Fin cfg4.N) (k : Fin 128) :
    (iblk4 V c 6 t : Vec Ideal S1x128 .f32) (ix2 0 k) = (V c (Pipeline.arrRef spec4 6) : S1x128.Idx → EReal) (ix2 0 k) := by
  show (V c (Pipeline.arrRef spec4 6) : S1x128.Idx → EReal) (((cfg4.win 6).blk t).view.emb (ix2 0 k)) = _
  rw [embc4]

/-- The result of point t's blocks at (p, q) is the arrays' second affine map at row 5000·t + p. -/
theorem blkpt4 (c : Dev nD) (t : Fin cfg4.N) (p : Fin 5000) (q : Fin 128) :
    k4_pay3 (iblk4 V c 0 t : Vec Ideal S5000x128 .f32) (iblk4 V c 2 t : Vec Ideal S1x128 .f32)
        (iblk4 V c 1 t : Vec Ideal S1x128 .f32) (iblk4 V c 3 t : Vec Ideal S1x128 .f32)
        (iblk4 V c 4 t : Vec Ideal S1x128 .f32) (iblk4 V c 5 t : Vec Ideal S128x128 .f32)
        (iblk4 V c 6 t : Vec Ideal S1x128 .f32) (ix2 p q)
      = garr4 V c (brow (tblk4 t) p) q :=
  ptz4 (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6))
    (iblk4 V c 0 t) (iblk4 V c 1 t) (iblk4 V c 2 t) (iblk4 V c 3 t) (iblk4 V c 4 t) (iblk4 V c 5 t) (iblk4 V c 6 t)
    (brow (tblk4 t) p) p q
    (fun k => iblkz4 V c t p k) (fun k => iblkm4 V c t k) (fun k => iblkv4 V c t k) (fun k => iblkg4 V c t k)
    (fun k => iblkb4 V c t k) (fun k => iblkw4 V c t k q) (iblkc4 V c t q)

/-! ## What each point writes back is its block of one whole-array function -/

theorem flushed4_7 (c : Dev nD) (t : Fin cfg4.N) :
    (dat4 V c).flushed 7 t = ((cfg4.win 7).blk t).view.read (Elt Ideal)
      (fun i : S50000x128.Idx => garr4 V c (i 0) (i 1)) := by
  show (cfg4.win 7).cut (grid4.coords t) ((dat4 V c).after 7 t) = _
  rw [after4_7]
  unfold out4_7
  rw [View.canon_unit_zero hzz4]
  simp only [View.ld_unit_zero (S := S5000x128) hzz4, View.ld_unit_zero (S := S1x128) hzz4,
    View.ld_unit_zero (S := S128x128) hzz4]
  funext j
  obtain ⟨p, q, rfl⟩ : ∃ (p : Fin 5000) (q : Fin 128), j = ix2 p q := ⟨j 0, j 1, eq_ix2 j⟩
  show k4_pay3 (iblk4 V c 0 t : Vec Ideal S5000x128 .f32) (iblk4 V c 2 t : Vec Ideal S1x128 .f32)
        (iblk4 V c 1 t : Vec Ideal S1x128 .f32) (iblk4 V c 3 t : Vec Ideal S1x128 .f32)
        (iblk4 V c 4 t : Vec Ideal S1x128 .f32) (iblk4 V c 5 t : Vec Ideal S128x128 .f32)
        (iblk4 V c 6 t : Vec Ideal S1x128 .f32) (ix2 p q)
      = garr4 V c ((((cfg4.win 7).blk t).view.emb (ix2 p q)) 0) ((((cfg4.win 7).blk t).view.emb (ix2 p q)) 1)
  rw [embo4_7 t p q]
  exact blkpt4 V c t p q

theorem flushed4_8 (c : Dev nD) (t : Fin cfg4.N) :
    (dat4 V c).flushed 8 t = ((cfg4.win 8).blk t).view.read (Elt Ideal)
      (fun i : S10x1x128.Idx => Spec.ksum (garr4 V c) (i 0) (i 2)) := by
  show (cfg4.win 8).cut (grid4.coords t) ((dat4 V c).after 8 t) = _
  rw [after4_8]
  unfold out4_8
  rw [View.canon_unit_zero hzzz4]
  simp only [View.ld_unit_zero (S := S5000x128) hzz4, View.ld_unit_zero (S := S1x128) hzz4,
    View.ld_unit_zero (S := S128x128) hzz4]
  funext j
  obtain ⟨u, v, q, rfl⟩ : ∃ (u v : Fin 1) (q : Fin 128), j = ix3 u v q := ⟨j 0, j 1, j 2, eq_ix3 j⟩
  show k4_pay1 (k4_pay4 (iblk4 V c 0 t : Vec Ideal S5000x128 .f32) (iblk4 V c 2 t : Vec Ideal S1x128 .f32)
        (iblk4 V c 1 t : Vec Ideal S1x128 .f32) (iblk4 V c 3 t : Vec Ideal S1x128 .f32)
        (iblk4 V c 4 t : Vec Ideal S1x128 .f32) (iblk4 V c 5 t : Vec Ideal S128x128 .f32)
        (iblk4 V c 6 t : Vec Ideal S1x128 .f32)) (ix3 u v q)
      = Spec.ksum (garr4 V c) ((((cfg4.win 8).blk t).view.emb (ix3 u v q)) 0) ((((cfg4.win 8).blk t).view.emb (ix3 u v q)) 2)
  rw [embo4_8 t u v q]
  refine (paysum4 _ _ _ _ _ _ _ u v q).trans ?_
  exact Finset.sum_congr rfl fun p _ => blkpt4 V c t p q

theorem flushed4_9 (c : Dev nD) (t : Fin cfg4.N) :
    (dat4 V c).flushed 9 t = ((cfg4.win 9).blk t).view.read (Elt Ideal)
      (fun i : S10x1x128.Idx => Spec.ksq (garr4 V c) (i 0) (i 2)) := by
  show (cfg4.win 9).cut (grid4.coords t) ((dat4 V c).after 9 t) = _
  rw [after4_9]
  unfold out4_9
  rw [View.canon_unit_zero hzzz4]
  simp only [View.ld_unit_zero (S := S5000x128) hzz4, View.ld_unit_zero (S := S1x128) hzz4,
    View.ld_unit_zero (S := S128x128) hzz4]
  funext j
  obtain ⟨u, v, q, rfl⟩ : ∃ (u v : Fin 1) (q : Fin 128), j = ix3 u v q := ⟨j 0, j 1, j 2, eq_ix3 j⟩
  show k4_pay2 (k4_pay5 (iblk4 V c 0 t : Vec Ideal S5000x128 .f32) (iblk4 V c 2 t : Vec Ideal S1x128 .f32)
        (iblk4 V c 1 t : Vec Ideal S1x128 .f32) (iblk4 V c 3 t : Vec Ideal S1x128 .f32)
        (iblk4 V c 4 t : Vec Ideal S1x128 .f32) (iblk4 V c 5 t : Vec Ideal S128x128 .f32)
        (iblk4 V c 6 t : Vec Ideal S1x128 .f32)) (ix3 u v q)
      = Spec.ksq (garr4 V c) ((((cfg4.win 9).blk t).view.emb (ix3 u v q)) 0) ((((cfg4.win 9).blk t).view.emb (ix3 u v q)) 2)
  rw [embo4_9 t u v q]
  refine (paysq4 _ _ _ _ _ _ _ u v q).trans ?_
  exact Finset.sum_congr rfl fun p _ => congrArg₂ (· * ·) (blkpt4 V c t p q) (blkpt4 V c t p q)

/-! ## The arrays after the region -/

theorem arr4_7 (c : Dev nD) :
    ((dat4 V c).arrAt 7 cfg4.N : S50000x128.Idx → EReal) = fun i : S50000x128.Idx => garr4 V c (i 0) (i 1) :=
  (dat4 V c).arrAt_eq_of_cover 7 (fun i : S50000x128.Idx => garr4 V c (i 0) (i 1)) (fun t _ => flushed4_7 V c t) cover4_7w

theorem arr4_8 (c : Dev nD) :
    ((dat4 V c).arrAt 8 cfg4.N : S10x1x128.Idx → EReal) = fun i : S10x1x128.Idx => Spec.ksum (garr4 V c) (i 0) (i 2) :=
  (dat4 V c).arrAt_eq_of_cover 8 (fun i : S10x1x128.Idx => Spec.ksum (garr4 V c) (i 0) (i 2)) (fun t _ => flushed4_8 V c t) cover4_8w

theorem arr4_9 (c : Dev nD) :
    ((dat4 V c).arrAt 9 cfg4.N : S10x1x128.Idx → EReal) = fun i : S10x1x128.Idx => Spec.ksq (garr4 V c) (i 0) (i 2) :=
  (dat4 V c).arrAt_eq_of_cover 9 (fun i : S10x1x128.Idx => Spec.ksq (garr4 V c) (i 0) (i 2)) (fun t _ => flushed4_9 V c t) cover4_9w

/-- The array of the second affine map after the region: that map of the arrays the region found. -/
theorem val4_7 (c : Dev nD) :
    cur2 ((dat4 V c).arrAt 7 cfg4.N : S50000x128.Idx → EReal)
      = Spec.lin (Spec.bnrelu (cur2 (V c (Pipeline.arrRef spec4 0))) (row0 (V c (Pipeline.arrRef spec4 1)))
          (row0 (V c (Pipeline.arrRef spec4 2))) (row0 (V c (Pipeline.arrRef spec4 3)))
          (row0 (V c (Pipeline.arrRef spec4 4)))) (cur2 (V c (Pipeline.arrRef spec4 5)))
          (row0 (V c (Pipeline.arrRef spec4 6))) :=
  funext fun r => funext fun k => congrFun (arr4_7 V c) (ix2 r k)

/-- Row t of the column sums after the region. -/
theorem val4_8 (c : Dev nD) (t : Fin 10) (k : Fin 128) :
    ((dat4 V c).arrAt 8 cfg4.N : S10x1x128.Idx → EReal) (ValueIdx.ix3 t 0 k)
      = Spec.ksum (Spec.lin (Spec.bnrelu (cur2 (V c (Pipeline.arrRef spec4 0))) (row0 (V c (Pipeline.arrRef spec4 1)))
          (row0 (V c (Pipeline.arrRef spec4 2))) (row0 (V c (Pipeline.arrRef spec4 3)))
          (row0 (V c (Pipeline.arrRef spec4 4)))) (cur2 (V c (Pipeline.arrRef spec4 5)))
          (row0 (V c (Pipeline.arrRef spec4 6)))) t k :=
  congrFun (arr4_8 V c) (ix3 t 0 k)

/-- Row t of the column sums of squares after the region. -/
theorem val4_9 (c : Dev nD) (t : Fin 10) (k : Fin 128) :
    ((dat4 V c).arrAt 9 cfg4.N : S10x1x128.Idx → EReal) (ValueIdx.ix3 t 0 k)
      = Spec.ksq (Spec.lin (Spec.bnrelu (cur2 (V c (Pipeline.arrRef spec4 0))) (row0 (V c (Pipeline.arrRef spec4 1)))
          (row0 (V c (Pipeline.arrRef spec4 2))) (row0 (V c (Pipeline.arrRef spec4 3)))
          (row0 (V c (Pipeline.arrRef spec4 4)))) (cur2 (V c (Pipeline.arrRef spec4 5)))
          (row0 (V c (Pipeline.arrRef spec4 6)))) t k :=
  congrFun (arr4_9 V c) (ix3 t 0 k)

end Cert.KernelIdeal.Hand

end
-- ==== Proof.KI.Val5Pay.lean ====
/-
  What the third kernel of a layer computes from its input blocks, read at one coordinate over the extended reals:
  the normalised, scaled, shifted and rectified features, and one block's pooled share as a 0/1-weighted sum of rows.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Spec
open Idealize.ShloMosaic Idealize.ShloMosaic.ValueIdx

/-- The rectified normalisation at row p, column q of a block: the block's entry minus the column's mean, times the
    reciprocal root of the column's variance plus the offset, times the scale, plus the shift, cut at zero. -/
theorem k5_pay1_apply (x0 : Vec Ideal S5000x128 .f32) (xv xm xg xb : Vec Ideal S1x128 .f32) (p : Fin 5000) (q : Fin 128) :
    k5_pay1 x0 xv xm xg xb (ix2 p q)
      = max (((x0 (ix2 p q) - xm (ix2 0 q)) * Ideal.rsqrt (xv (ix2 0 q) + eps)) * xg (ix2 0 q) + xb (ix2 0 q)) 0 := by
  unfold k5_pay1
  simp only [shapeCast_self, maximumf_apply, addf_apply, mulf_apply, subf_apply, broadcastTo_1b_ab_apply, broadcast_apply]
  show max (((x0 (ix2 p q) - xm (ix2 0 q)) * Ideal.rsqrt (xv (ix2 0 q) + eps)) * xg (ix2 0 q) + xb (ix2 0 q))
      (Ideal.ofBits .f32 0x00000000#32) = _
  rw [Ideal.ofBits_zero_f32]

/-- One column spread over many: a [a, 1] array broadcast to [a, b] reads, at (p, c), the column's entry at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word is the g-th counting word (g below 256) exactly when its signed value is g. -/
private theorem word_eq_ofNat_iff (w : BitVec 32) (g : Fin 256) : w = BitVec.ofNat 32 g.val ↔ w.toInt = (g.val : ℤ) := by
  have hg := g.isLt
  have hw := w.isLt
  rw [BitVec.toInt_eq_toNat_cond]
  constructor
  · intro h
    have hn : w.toNat = g.val := by rw [h, BitVec.toNat_ofNat]; omega
    rw [hn]; split <;> omega
  · intro h
    apply BitVec.eq_of_toNat_eq
    rw [BitVec.toNat_ofNat]
    split at h <;> omega

/-- The equality comparison of two words answers the one-bit word 1 exactly when they are equal. -/
private theorem cmpi_eq_one_iff (a b : BitVec 32) : IntOp.cmpi .eq a b = 1#1 ↔ a = b := by
  have hb : ∀ c : Bool, BitVec.ofBool c = 1#1 ↔ c = true := fun c => by cases c <;> decide
  show BitVec.ofBool (a == b) = 1#1 ↔ a = b
  rw [hb, beq_iff_eq]

/-- The comparison bit of a word with the g-th counting word, widened to 32 bits and read as a number, is the
    indicator of "the word's signed value is g". -/
private theorem onehot_word (w : BitVec 32) (g : Fin 256) :
    ((((IntOp.cmpi .eq w (BitVec.ofNat 32 g.val)).setWidth 32).toInt : ℝ) : EReal)
      = if w.toInt = (g.val : ℤ) then (1 : EReal) else 0 := by
  by_cases h : w = BitVec.ofNat 32 g.val
  · have h1 : IntOp.cmpi .eq w (BitVec.ofNat 32 g.val) = 1#1 := (cmpi_eq_one_iff _ _).mpr h
    rw [h1, if_pos ((word_eq_ofNat_iff w g).mp h)]
    have : ((1#1 : BitVec 1).setWidth 32).toInt = 1 := by decide
    rw [this]; simp
  · have h0 : IntOp.cmpi .eq w (BitVec.ofNat 32 g.val) = 0#1 :=
      eq_zero_of_ne_one fun hh => h ((cmpi_eq_one_iff _ _).mp hh)
    rw [h0, if_neg (fun hh => h ((word_eq_ofNat_iff w g).mpr hh))]
    have : ((0#1 : BitVec 1).setWidth 32).toInt = 0 := by decide
    rw [this]; simp

/-- The pooling product read at (g, q): the sum over the block's rows of the two factors. -/
private theorem matmul_pool_apply {φ₁ φ₂ : FTy} (A : FVec Ideal S256x5000 φ₁) (B : FVec Ideal S5000x128 φ₂) (g : Fin 256) (q : Fin 128) :
    matmul dot_S256x5000_S5000x128_S256x128_1_0_0_1_n_n none A B (constant S256x128 .f32 0x00000000#32) (ix2 g q)
      = ∑ p : Fin 5000, A (ix2 g p) * B (ix2 p q) := by
  show FloatOps.matmul _ none A B _ (ix2 g q) = _
  rw [Ideal.matmul_constant_zero_apply,
    ← Equiv.sum_comp (contrEquiv1 dot_S256x5000_S5000x128_S256x128_1_0_0_1_n_n 5000 rfl rfl).symm]
  refine Finset.sum_congr rfl fun p _ => ?_
  have hc := contrEquiv1_symm_val dot_S256x5000_S5000x128_S256x128_1_0_0_1_n_n 5000 rfl rfl p
  have hl : dot_S256x5000_S5000x128_S256x128_1_0_0_1_n_n.lhsIdx (ix2 g q) ((contrEquiv1 _ 5000 rfl rfl).symm p) = ix2 g p := by
    funext ax; apply Fin.ext
    match ax with
    | ⟨0, _⟩ => simp [DotDims.lhsIdx, dot_S256x5000_S5000x128_S256x128_1_0_0_1_n_n]; rfl
    | ⟨1, _⟩ => simp [DotDims.lhsIdx, dot_S256x5000_S5000x128_S256x128_1_0_0_1_n_n]; exact hc
  have hr : dot_S256x5000_S5000x128_S256x128_1_0_0_1_n_n.rhsIdx (ix2 g q) ((contrEquiv1 _ 5000 rfl rfl).symm p) = ix2 p q := by
    funext ax; apply Fin.ext
    match ax with
    | ⟨0, _⟩ => simp [DotDims.rhsIdx, dot_S256x5000_S5000x128_S256x128_1_0_0_1_n_n]; exact hc
    | ⟨1, _⟩ => simp [DotDims.rhsIdx, dot_S256x5000_S5000x128_S256x128_1_0_0_1_n_n]; rfl
  rw [hl, hr]

/-- One block's pooled share at (g, q): the sum over the block's rows p of the indicator "row p's graph number is g"
    times the row's rectified normalised feature. -/
theorem k5_pay2_apply_pay1 (x0 : Vec Ideal S5000x128 .f32) (xv xm xg xb : Vec Ideal S1x128 .f32) (x5 : Vec Ideal S5000x1 .i32)
    (g : Fin 256) (q : Fin 128) :
    k5_pay2 x0 xv xm xg xb x5 (ix3 0 g q)
      = ∑ p : Fin 5000, (if (x5 (ix2 p 0)).toInt = (g.val : ℤ) then (1 : EReal) else 0) * k5_pay1 x0 xv xm xg xb (ix2 p q) := by
  unfold k5_pay2
  refine (shapeCast_ab_1ab_apply _ _ 0 g q).trans ?_
  refine (matmul_pool_apply _ _ g q).trans ?_
  refine Finset.sum_congr rfl fun p _ => ?_
  refine congrArg₂ (· * ·) ?_ rfl
  refine (transpose_ix2_apply _ _ g p).trans ?_
  show ((((IntOp.cmpi .eq (broadcastTo S5000x256 (shapeCast S5000x1 x5 shapeCasts_S5000x1_S5000x1) broadcasts_S5000x1_S5000x256 (ix2 p g))
      (iota .tc S5000x256 32 [1] iota_S5000x256_d1_w32 (ix2 p g))).setWidth 32).toInt : ℝ) : EReal) = _
  rw [broadcastTo_a1_ab_apply, iota_single_apply, shapeCast_self]
  exact onehot_word _ g

theorem k5_pay2_apply (x0 : Vec Ideal S5000x128 .f32) (xv xm xg xb : Vec Ideal S1x128 .f32) (x5 : Vec Ideal S5000x1 .i32)
    (g : Fin 256) (q : Fin 128) :
    k5_pay2 x0 xv xm xg xb x5 (ix3 0 g q)
      = ∑ p : Fin 5000, (if (x5 (ix2 p 0)).toInt = (g.val : ℤ) then (1 : EReal) else 0)
          * max (((x0 (ix2 p q) - xm (ix2 0 q)) * Ideal.rsqrt (xv (ix2 0 q) + eps)) * xg (ix2 0 q) + xb (ix2 0 q)) 0 := by
  rw [k5_pay2_apply_pay1]
  exact Finset.sum_congr rfl fun p _ => by rw [k5_pay1_apply]

end Cert.KernelIdeal.Hand

end
-- ==== Proof.KI.Val5.lean ====
/-
  What the third kernel of a layer leaves in its two output arrays. Block by block it writes the rectified
  normalisation of the input rows, and per block the sums of those rows weighted by the 0/1 indicator of each graph
  number; the blocks tile the arrays, so each output array is one function of the input arrays.
-/
import proofs.«422260_j36421322670663_2_alg».proof.Proof.KI.Reg5
import proofs.«422260_j36421322670663_2_alg».proof.Proof.KI.Val5Pay
import proofs.«422260_j36421322670663_2_alg».proof.Proof.Spec
import proofs.«422260_j36421322670663_2_alg».proof.Proof.SpecPool
import Idealize.ShloMosaic.Lib.ValueIdx
import Idealize.ShloMosaic.Lib.Pipeline.Value

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The arrays the launch finds, and the arrays it leaves, as functions -/

/-- The launch's six input arrays at their literal shapes: the features, the column means, the column variances, the
    scale, the shift, and the rows' graph numbers. -/
def inp5_0 (c : Dev nD) : S50000x128.Idx → EReal := V c (Pipeline.arrRef spec5 0)
def inp5_1 (c : Dev nD) : S1x128.Idx → EReal := V c (Pipeline.arrRef spec5 1)
def inp5_2 (c : Dev nD) : S1x128.Idx → EReal := V c (Pipeline.arrRef spec5 2)
def inp5_3 (c : Dev nD) : S1x128.Idx → EReal := V c (Pipeline.arrRef spec5 3)
def inp5_4 (c : Dev nD) : S1x128.Idx → EReal := V c (Pipeline.arrRef spec5 4)
def inp5_5 (c : Dev nD) : S50000x1.Idx → BitVec 32 := V c (Pipeline.arrRef spec5 5)

/-- The rectified normalisation of the whole feature array. -/
def feat5 (c : Dev nD) : Mat 50000 128 :=
  Spec.bnrelu (cur2 (inp5_0 V c)) (row0 (inp5_1 V c)) (row0 (inp5_2 V c)) (row0 (inp5_3 V c)) (row0 (inp5_4 V c))

/-- The first output array: that matrix, index by index. -/
def arr5_6 (c : Dev nD) : S50000x128.Idx → EReal := fun i => feat5 V c (i 0) (i 1)

/-- The second output array: slab t is block t's pooled share of that matrix. -/
def arr5_7 (c : Dev nD) : S10x256x128.Idx → EReal :=
  fun i => Spec.poolKpart (fun r => inp5_5 V c (ix2 r 0)) (feat5 V c) (i 0) (i 1) (i 2)

/-- A grid point as a block number. -/
def blkOf5 (t : Fin cfg5.N) : Fin 10 := ⟨t.val, lt_of_lt_of_eq t.isLt N_5⟩

private theorem zeroPair : (![0, 0] : Fin 2 → Nat) = fun _ => 0 := funext fun a => by fin_cases a <;> rfl
private theorem zeroTriple : (![0, 0, 0] : Fin 3 → Nat) = fun _ => 0 := funext fun a => by fin_cases a <;> rfl

/-- The six input windows' blocks at a grid point, at their literal shapes. -/
def blk5_0 (c : Dev nD) (t : Fin cfg5.N) : Vec Ideal S5000x128 .f32 := iblk5 V c 0 t
def blk5_1 (c : Dev nD) (t : Fin cfg5.N) : Vec Ideal S1x128 .f32 := iblk5 V c 1 t
def blk5_2 (c : Dev nD) (t : Fin cfg5.N) : Vec Ideal S1x128 .f32 := iblk5 V c 2 t
def blk5_3 (c : Dev nD) (t : Fin cfg5.N) : Vec Ideal S1x128 .f32 := iblk5 V c 3 t
def blk5_4 (c : Dev nD) (t : Fin cfg5.N) : Vec Ideal S1x128 .f32 := iblk5 V c 4 t
def blk5_5 (c : Dev nD) (t : Fin cfg5.N) : Vec Ideal S5000x1 .i32 := iblk5 V c 5 t

/-! ## Where each window's block lies -/

/-- The block index of every window at every grid point: the row-blocked windows move with the point along the rows,
    the four parameter rows stay, the pooled output moves along its slabs. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0
    ∧ win5_7.index t (0 : Fin 3) = t.val ∧ win5_7.index t (1 : Fin 3) = 0 ∧ win5_7.index t (2 : Fin 3) = 0 :=
  (by decide +kernel : ∀ t : Fin grid5.N, _)

/-- The feature window's block at point t, at (p, q), is the feature array at row t · 5000 + p, column q. -/
theorem blk5_0_apply (c : Dev nD) (t : Fin cfg5.N) (p : Fin 5000) (q : Fin 128) (r : Fin 50000)
    (hr : r.val = t.val * 5000 + p.val) :
    blk5_0 V c t (ix2 p q) = inp5_0 V c (ix2 r q) := by
  obtain ⟨e0, e1, -⟩ := idx_facts5 t
  unfold blk5_0 iblk5 inp5_0
  rw [View.read_apply]
  show V c (Pipeline.arrRef spec5 0) _ = V c (Pipeline.arrRef spec5 0) _
  congr 1
  funext a; apply Fin.ext
  match a with
  | ⟨0, _⟩ => show win5_0.index t (0 : Fin 2) * 5000 + 1 * p.val = r.val; rw [e0, hr]; omega
  | ⟨1, _⟩ => show win5_0.index t (1 : Fin 2) * 128 + 1 * q.val = q.val; rw [e1]; omega

/-- A parameter row's block is the row itself, at every point: the means, -/
theorem blk5_1_apply (c : Dev nD) (t : Fin cfg5.N) (q : Fin 128) :
    blk5_1 V c t (ix2 0 q) = inp5_1 V c (ix2 0 q) := by
  obtain ⟨-, -, e0, e1, -⟩ := idx_facts5 t
  unfold blk5_1 iblk5 inp5_1
  rw [View.read_apply]
  show V c (Pipeline.arrRef spec5 1) _ = V c (Pipeline.arrRef spec5 1) _
  congr 1
  funext a; apply Fin.ext
  match a with
  | ⟨0, _⟩ => show win5_1.index t (0 : Fin 2) * 1 + 1 * 0 = 0; rw [e0]
  | ⟨1, _⟩ => show win5_1.index t (1 : Fin 2) * 128 + 1 * q.val = q.val; rw [e1]; omega

/-- the variances, -/
theorem blk5_2_apply (c : Dev nD) (t : Fin cfg5.N) (q : Fin 128) :
    blk5_2 V c t (ix2 0 q) = inp5_2 V c (ix2 0 q) := by
  obtain ⟨-, -, -, -, e0, e1, -⟩ := idx_facts5 t
  unfold blk5_2 iblk5 inp5_2
  rw [View.read_apply]
  show V c (Pipeline.arrRef spec5 2) _ = V c (Pipeline.arrRef spec5 2) _
  congr 1
  funext a; apply Fin.ext
  match a with
  | ⟨0, _⟩ => show win5_2.index t (0 : Fin 2) * 1 + 1 * 0 = 0; rw [e0]
  | ⟨1, _⟩ => show win5_2.index t (1 : Fin 2) * 128 + 1 * q.val = q.val; rw [e1]; omega

/-- the scale, -/
theorem blk5_3_apply (c : Dev nD) (t : Fin cfg5.N) (q : Fin 128) :
    blk5_3 V c t (ix2 0 q) = inp5_3 V c (ix2 0 q) := by
  obtain ⟨-, -, -, -, -, -, e0, e1, -⟩ := idx_facts5 t
  unfold blk5_3 iblk5 inp5_3
  rw [View.read_apply]
  show V c (Pipeline.arrRef spec5 3) _ = V c (Pipeline.arrRef spec5 3) _
  congr 1
  funext a; apply Fin.ext
  match a with
  | ⟨0, _⟩ => show win5_3.index t (0 : Fin 2) * 1 + 1 * 0 = 0; rw [e0]
  | ⟨1, _⟩ => show win5_3.index t (1 : Fin 2) * 128 + 1 * q.val = q.val; rw [e1]; omega

/-- the shift. -/
theorem blk5_4_apply (c : Dev nD) (t : Fin cfg5.N) (q : Fin 128) :
    blk5_4 V c t (ix2 0 q) = inp5_4 V c (ix2 0 q) := by
  obtain ⟨-, -, -, -, -, -, -, -, e0, e1, -⟩ := idx_facts5 t
  unfold blk5_4 iblk5 inp5_4
  rw [View.read_apply]
  show V c (Pipeline.arrRef spec5 4) _ = V c (Pipeline.arrRef spec5 4) _
  congr 1
  funext a; apply Fin.ext
  match a with
  | ⟨0, _⟩ => show win5_4.index t (0 : Fin 2) * 1 + 1 * 0 = 0; rw [e0]
  | ⟨1, _⟩ => show win5_4.index t (1 : Fin 2) * 128 + 1 * q.val = q.val; rw [e1]; omega

/-- The graph-number window's block at point t, at row p, is the graph number of row t · 5000 + p. -/
theorem blk5_5_apply (c : Dev nD) (t : Fin cfg5.N) (p : Fin 5000) (r : Fin 50000) (hr : r.val = t.val * 5000 + p.val) :
    blk5_5 V c t (ix2 p 0) = inp5_5 V c (ix2 r 0) := by
  obtain ⟨-, -, -, -, -, -, -, -, -, -, e0, e1, -⟩ := idx_facts5 t
  unfold blk5_5 iblk5 inp5_5
  rw [View.read_apply]
  show V c (Pipeline.arrRef spec5 5) _ = V c (Pipeline.arrRef spec5 5) _
  congr 1
  funext a; apply Fin.ext
  match a with
  | ⟨0, _⟩ => show win5_5.index t (0 : Fin 2) * 5000 + 1 * p.val = r.val; rw [e0, hr]; omega
  | ⟨1, _⟩ => show win5_5.index t (1 : Fin 2) * 1 + 1 * 0 = 0; rw [e1]

/-- The rectified normalisation computed from the blocks at point t, at (p, q), is that of the whole array at row
    t · 5000 + p, column q. -/
theorem feat5_row (c : Dev nD) (t : Fin cfg5.N) (p : Fin 5000) (q : Fin 128) (r : Fin 50000) (hr : r.val = t.val * 5000 + p.val) :
    max (((blk5_0 V c t (ix2 p q) - blk5_1 V c t (ix2 0 q)) * Ideal.rsqrt (blk5_2 V c t (ix2 0 q) + eps))
        * blk5_3 V c t (ix2 0 q) + blk5_4 V c t (ix2 0 q)) 0 = feat5 V c r q := by
  rw [blk5_0_apply V c t p q r hr, blk5_1_apply V c t q, blk5_2_apply V c t q, blk5_3_apply V c t q, blk5_4_apply V c t q]
  rfl

/-! ## The first output: the rectified normalised features -/

/-- What point t writes back is block t of the whole normalised array. -/
theorem flushed5_6 (c : Dev nD) (t : Fin cfg5.N) :
    (dat5 V c).flushed 6 t = ((cfg5.win 6).blk t).view.read (Elt Ideal) (arr5_6 V c) := by
  show (cfg5.win 6).cut (grid5.coords t) ((dat5 V c).after 6 t) = _
  rw [after5_6]
  unfold out5_6
  rw [View.canon_unit_zero zeroPair]
  simp only [View.ld_unit_zero (S := S5000x128) zeroPair, View.ld_unit_zero (S := S1x128) zeroPair]
  obtain ⟨-, -, -, -, -, -, -, -, -, -, -, -, e0, e1, -⟩ := idx_facts5 t
  funext j
  obtain ⟨p, q, rfl⟩ : ∃ (p : Fin 5000) (q : Fin 128), j = ix2 p q := ⟨j 0, j 1, eq_ix2 j⟩
  show k5_pay1 (blk5_0 V c t) (blk5_2 V c t) (blk5_1 V c t) (blk5_3 V c t) (blk5_4 V c t) (ix2 p q)
      = arr5_6 V c (((cfg5.win 6).blk t).view.emb (ix2 p q))
  have h0 : (((cfg5.win 6).blk t).view.emb (ix2 p q)) (0 : Fin 2) = brow (blkOf5 t) p :=
    Fin.ext (by show win5_6.index t (0 : Fin 2) * 5000 + 1 * p.val = t.val * 5000 + p.val; rw [e0]; omega)
  have h1 : (((cfg5.win 6).blk t).view.emb (ix2 p q)) (1 : Fin 2) = q :=
    Fin.ext (by show win5_6.index t (1 : Fin 2) * 128 + 1 * q.val = q.val; rw [e1]; omega)
  refine (k5_pay1_apply _ _ _ _ _ p q).trans ?_
  refine (feat5_row V c t p q (brow (blkOf5 t) p) rfl).trans ?_
  exact (congr (congrArg (feat5 V c) h0) h1).symm

/-- An index lies in point t's block exactly when each coordinate is in the block's range. -/
theorem mem_blk5_6 (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole (Pipeline.arrRef spec5 6)).slice (win5_6.rect t)).set ↔ _
  rw [View.set_slice_whole, Rect.mem_set_unit]
  exact Iff.rfl

/-- The ten blocks tile the array: row r lies in block r / 5000. -/
theorem tiles5_6 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, -, -, -, -, e0, e1, -⟩ := idx_facts5 t
  refine ⟨t, flush5_6 t, ?_⟩
  rw [mem_blk5_6]
  intro a
  match a with
  | ⟨0, _⟩ =>
    show win5_6.index t (0 : Fin 2) * 5000 ≤ (i 0).val ∧ (i 0).val < win5_6.index t (0 : Fin 2) * 5000 + 5000
    rw [e0, ht]; omega
  | ⟨1, _⟩ =>
    show win5_6.index t (1 : Fin 2) * 128 ≤ (i 1).val ∧ (i 1).val < win5_6.index t (1 : Fin 2) * 128 + 128
    rw [e1]; omega

/-- So the first output array ends as the whole normalised array. -/
theorem final5_6 (c : Dev nD) : (dat5 V c).arrAt 6 cfg5.N = arr5_6 V c :=
  (dat5 V c).arrAt_eq_of_cover 6 (arr5_6 V c) (fun t _ => flushed5_6 V c t) tiles5_6

/-- The first output array, by coordinates: the rectified normalisation of the input features with the given
    moments, scale and shift. -/
theorem val5_6 (c : Dev nD) :
    cur2 ((dat5 V c).arrAt 6 cfg5.N : S50000x128.Idx → EReal)
      = Spec.bnrelu (cur2 (V c (Pipeline.arrRef spec5 0) : S50000x128.Idx → EReal))
          (row0 (V c (Pipeline.arrRef spec5 1) : S1x128.Idx → EReal)) (row0 (V c (Pipeline.arrRef spec5 2) : S1x128.Idx → EReal))
          (row0 (V c (Pipeline.arrRef spec5 3) : S1x128.Idx → EReal)) (row0 (V c (Pipeline.arrRef spec5 4) : S1x128.Idx → EReal)) := by
  rw [final5_6]
  rfl

/-! ## The second output: the blocks' pooled shares -/

/-- What point t writes back is slab t of the array of pooled shares. -/
theorem flushed5_7 (c : Dev nD) (t : Fin cfg5.N) :
    (dat5 V c).flushed 7 t = ((cfg5.win 7).blk t).view.read (Elt Ideal) (arr5_7 V c) := by
  show (cfg5.win 7).cut (grid5.coords t) ((dat5 V c).after 7 t) = _
  rw [after5_7]
  unfold out5_7
  rw [View.canon_unit_zero zeroTriple]
  simp only [View.ld_unit_zero (S := S5000x128) zeroPair, View.ld_unit_zero (S := S1x128) zeroPair,
    View.ld_unit_zero (S := S5000x1) zeroPair]
  obtain ⟨-, -, -, -, -, -, -, -, -, -, -, -, -, -, e0, e1, e2⟩ := idx_facts5 t
  funext j
  obtain ⟨u, g, q, rfl⟩ : ∃ (u : Fin 1) (g : Fin 256) (q : Fin 128), j = ix3 u g q := ⟨j 0, j 1, j 2, eq_ix3 j⟩
  obtain rfl : u = 0 := Subsingleton.elim _ _
  show k5_pay2 (blk5_0 V c t) (blk5_2 V c t) (blk5_1 V c t) (blk5_3 V c t) (blk5_4 V c t) (blk5_5 V c t) (ix3 0 g q)
      = arr5_7 V c (((cfg5.win 7).blk t).view.emb (ix3 0 g q))
  have h0 : (((cfg5.win 7).blk t).view.emb (ix3 0 g q)) (0 : Fin 3) = blkOf5 t :=
    Fin.ext (by show win5_7.index t (0 : Fin 3) * 1 + 1 * 0 = t.val; rw [e0]; omega)
  have h1 : (((cfg5.win 7).blk t).view.emb (ix3 0 g q)) (1 : Fin 3) = g :=
    Fin.ext (by show win5_7.index t (1 : Fin 3) * 256 + 1 * g.val = g.val; rw [e1]; omega)
  have h2 : (((cfg5.win 7).blk t).view.emb (ix3 0 g q)) (2 : Fin 3) = q :=
    Fin.ext (by show win5_7.index t (2 : Fin 3) * 128 + 1 * q.val = q.val; rw [e2]; omega)
  have hR : arr5_7 V c (((cfg5.win 7).blk t).view.emb (ix3 0 g q))
      = Spec.poolKpart (fun r => inp5_5 V c (ix2 r 0)) (feat5 V c) (blkOf5 t) g q :=
    congr (congr (congrArg (Spec.poolKpart (fun r => inp5_5 V c (ix2 r 0)) (feat5 V c)) h0) h1) h2
  refine (k5_pay2_apply _ _ _ _ _ _ g q).trans ?_
  refine Eq.trans ?_ hR.symm
  show _ = ∑ y : Fin 5000, (if (inp5_5 V c (ix2 (brow (blkOf5 t) y) 0)).toInt = (g.val : ℤ) then (1 : EReal) else 0)
      * feat5 V c (brow (blkOf5 t) y) q
  refine Finset.sum_congr rfl fun p _ => ?_
  exact congrArg₂ (· * ·)
    (congrArg (fun w : BitVec 32 => if w.toInt = (g.val : ℤ) then (1 : EReal) else 0) (blk5_5_apply V c t p (brow (blkOf5 t) p) rfl))
    (feat5_row V c t p q (brow (blkOf5 t) p) rfl)

/-- An index lies in point t's slab exactly when each coordinate is in the slab's range. -/
theorem mem_blk5_7 (t : Fin cfg5.N) (i : S10x256x128.Idx) :
    i ∈ ((cfg5.win 7).blk t).view.set ↔ ∀ a : Fin 3, win5_7.index t a * S1x256x128.size a ≤ (i a).val
      ∧ (i a).val < win5_7.index t a * S1x256x128.size a + S1x256x128.size a := by
  show i ∈ ((View.whole (Pipeline.arrRef spec5 7)).slice (win5_7.rect t)).set ↔ _
  rw [View.set_slice_whole, Rect.mem_set_unit]
  exact Iff.rfl

/-- The ten slabs tile the array: slab number s is point s's. -/
theorem tiles5_7 (i : S10x256x128.Idx) :
    ∃ t : Fin cfg5.N, (cfg5.win 7).flush t = true ∧ i ∈ ((cfg5.win 7).blk t).view.set := by
  have hi0 : (i 0).val < 10 := (i 0).isLt
  have hi1 : (i 1).val < 256 := (i 1).isLt
  have hi2 : (i 2).val < 128 := (i 2).isLt
  have hN : cfg5.N = 10 := N_5
  obtain ⟨t, ht⟩ : ∃ t : Fin cfg5.N, t.val = (i 0).val := ⟨⟨(i 0).val, by rw [hN]; omega⟩, rfl⟩
  obtain ⟨-, -, -, -, -, -, -, -, -, -, -, -, -, -, e0, e1, e2⟩ := idx_facts5 t
  refine ⟨t, flush5_7 t, ?_⟩
  rw [mem_blk5_7]
  intro a
  match a with
  | ⟨0, _⟩ =>
    show win5_7.index t (0 : Fin 3) * 1 ≤ (i 0).val ∧ (i 0).val < win5_7.index t (0 : Fin 3) * 1 + 1
    rw [e0, ht]; omega
  | ⟨1, _⟩ =>
    show win5_7.index t (1 : Fin 3) * 256 ≤ (i 1).val ∧ (i 1).val < win5_7.index t (1 : Fin 3) * 256 + 256
    rw [e1]; omega
  | ⟨2, _⟩ =>
    show win5_7.index t (2 : Fin 3) * 128 ≤ (i 2).val ∧ (i 2).val < win5_7.index t (2 : Fin 3) * 128 + 128
    rw [e2]; omega

/-- So the second output array ends as the array of pooled shares. -/
theorem final5_7 (c : Dev nD) : (dat5 V c).arrAt 7 cfg5.N = arr5_7 V c :=
  (dat5 V c).arrAt_eq_of_cover 7 (arr5_7 V c) (fun t _ => flushed5_7 V c t) tiles5_7

/-- The second output array at (t, g, k): block t's share of the pooling of the rectified normalised features by the
    rows' graph numbers. -/
theorem val5_7 (c : Dev nD) (t : Fin 10) (g : Fin 256) (k : Fin 128) :
    ((dat5 V c).arrAt 7 cfg5.N : S10x256x128.Idx → EReal) (ix3 t g k)
      = Spec.poolKpart (fun r => (V c (Pipeline.arrRef spec5 5) : S50000x1.Idx → BitVec 32) (ix2 r 0))
          (Spec.bnrelu (cur2 (V c (Pipeline.arrRef spec5 0) : S50000x128.Idx → EReal))
            (row0 (V c (Pipeline.arrRef spec5 1) : S1x128.Idx → EReal)) (row0 (V c (Pipeline.arrRef spec5 2) : S1x128.Idx → EReal))
            (row0 (V c (Pipeline.arrRef spec5 3) : S1x128.Idx → EReal)) (row0 (V c (Pipeline.arrRef spec5 4) : S1x128.Idx → EReal)))
          t g k := by
  rw [final5_7]
  rfl

end Cert.KernelIdeal.Hand

end
-- ==== Proof.KI.Host4.lean ====
/-
  The host stretch after a layer's first kernel: the mean and the variance of the first linear map's output
  from its per-block column sums and sums of squares, and the second bias laid out as a row.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The mean: the block sums added up and divided by the node count. -/
theorem host4_mean (Z : Mat 50000 128)
    (hs : ∀ t k, (W main_v92_1 : S10x1x128.Idx → EReal) (ix3 t 0 k) = ksum Z t k) :
    row0 (StableHlo.after hostOps4 W main_v95 : S1x128.Idx → EReal) = kmean Z := by
  have e : (StableHlo.after hostOps4 W main_v95 : S1x128.Idx → EReal)
      = blockDiv (W main_v92_1) reducesTo_S10x1x128_S1x128_d0 h_S_ bcast_S_S1x128 := by
    after_results
  rw [e]
  exact blockDiv_kmean _ _ _ _ Z hs

/-- The variance: the mean of the squares minus the squared mean, cut at zero. -/
theorem host4_var (Z : Mat 50000 128)
    (hs : ∀ t k, (W main_v92_1 : S10x1x128.Idx → EReal) (ix3 t 0 k) = ksum Z t k)
    (hq : ∀ t k, (W main_v92_2 : S10x1x128.Idx → EReal) (ix3 t 0 k) = ksq Z t k) :
    row0 (StableHlo.after hostOps4 W main_v102 : S1x128.Idx → EReal) = kvar Z := by
  have e : (StableHlo.after hostOps4 W main_v102 : S1x128.Idx → EReal)
      = blockVar (W main_v92_1) (W main_v92_2) reducesTo_S10x1x128_S1x128_d0 h_S_ bcast_S_S1x128 := by
    after_results
  rw [e]
  exact blockVar_kvar _ _ _ _ _ Z hs hq

/-- The second bias as a row. -/
theorem host4_bias :
    row0 (StableHlo.after hostOps4 W main_v103 : S1x128.Idx → EReal) = cur1 (W main_v84 : S128.Idx → EReal) := by
  have e : (StableHlo.after hostOps4 W main_v103 : S1x128.Idx → EReal)
      = shapeCast S1x128 (W main_v84 : S128.Idx → EReal) shapeCasts_S128_S1x128 := by
    after_results
    rfl
  rw [e]
  exact row0_shapeCast _ _

end Cert.KernelIdeal.Hand

end
-- ==== Proof.KI.Host5.lean ====
/-
  The host stretch after a layer's second kernel: the mean and the variance of the second linear map's output
  from its per-block column sums and sums of squares.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The mean: the block sums added up and divided by the node count. -/
theorem host5_mean (Z : Mat 50000 128)
    (hs : ∀ t k, (W main_v104_1 : S10x1x128.Idx → EReal) (ix3 t 0 k) = ksum Z t k) :
    row0 (StableHlo.after hostOps5 W main_v107 : S1x128.Idx → EReal) = kmean Z := by
  have e : (StableHlo.after hostOps5 W main_v107 : S1x128.Idx → EReal)
      = blockDiv (W main_v104_1) reducesTo_S10x1x128_S1x128_d0 h_S_ bcast_S_S1x128 := by
    after_results
  rw [e]
  exact blockDiv_kmean _ _ _ _ Z hs

/-- The variance: the mean of the squares minus the squared mean, cut at zero. -/
theorem host5_var (Z : Mat 50000 128)
    (hs : ∀ t k, (W main_v104_1 : S10x1x128.Idx → EReal) (ix3 t 0 k) = ksum Z t k)
    (hq : ∀ t k, (W main_v104_2 : S10x1x128.Idx → EReal) (ix3 t 0 k) = ksq Z t k) :
    row0 (StableHlo.after hostOps5 W main_v114 : S1x128.Idx → EReal) = kvar Z := by
  have e : (StableHlo.after hostOps5 W main_v114 : S1x128.Idx → EReal)
      = blockVar (W main_v104_1) (W main_v104_2) reducesTo_S10x1x128_S1x128_d0 h_S_ bcast_S_S1x128 := by
    after_results
  rw [e]
  exact blockVar_kvar _ _ _ _ _ Z hs hq

end Cert.KernelIdeal.Hand

end
-- ==== Proof.KI.Layer1.lean ====
/-
  One layer of the network as the kernel program computes it, over the extended reals. The layer is entered with
  an array of node features. The host stretch before its first kernel takes their neighbourhood sums and the layer's
  slice of every weight stack; the first kernel leaves the first affine map of features plus sums, with each row
  block's column sums and column sums of squares; the next host stretch turns those into the mean and the
  variance; the second kernel normalises, rectifies and applies the second affine map, again with block sums; the
  stretch after it takes that map's mean and variance; the third kernel normalises and rectifies once more, which
  gives the layer's features, and leaves each row block's share of their sum by graph. Each step is read off the
  step before it, so the features the layer hands on are the layer's mathematics applied to the features it was
  given, and the shares are the shares of their sum by graph.
-/
import proofs.«422260_j36421322670663_2_alg».proof.Proof.KI.Chain
import proofs.«422260_j36421322670663_2_alg».proof.Proof.KI.NetDefs
import proofs.«422260_j36421322670663_2_alg».proof.Proof.KI.Base
import proofs.«422260_j36421322670663_2_alg».proof.Proof.KI.Val3
import proofs.«422260_j36421322670663_2_alg».proof.Proof.KI.Val4
import proofs.«422260_j36421322670663_2_alg».proof.Proof.KI.Val5
import proofs.«422260_j36421322670663_2_alg».proof.Proof.KI.Host3
import proofs.«422260_j36421322670663_2_alg».proof.Proof.KI.Host4
import proofs.«422260_j36421322670663_2_alg».proof.Proof.KI.Host5

-- deciding that a reference is none of the several dozen a host stretch writes recurses once per reference
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- The layer's place in the weight stacks. -/
abbrev lyr1 : Fin 5 := 1

/-! ## What the layer leaves alone -/

/-- An array none of the layer's three kernels and neither host stretch between them writes is the same after the
    layer's last kernel as when its first kernel was entered. -/
theorem layer1_thru (c : Dev nD) (r : Ref sig .tc)
    (h8 : r ∉ ([main_v92_0, main_v92_1, main_v92_2] : List (Ref sig .tc))) (h9 : r ∉ GenP.hostOps4_W)
    (h10 : r ∉ ([main_v104_0, main_v104_1, main_v104_2] : List (Ref sig .tc))) (h11 : r ∉ GenP.hostOps5_W)
    (h12 : r ∉ ([main_v115_0, main_v115_1] : List (Ref sig .tc))) :
    Vout5 m c r = Vin3 m c r :=
  (GenP.V12_of m (outs m) c r h12).trans <| (GenP.V11_of m (outs m) c r h11).trans <|
    (GenP.V10_of m (outs m) c r h10).trans <| (GenP.V9_of m (outs m) c r h9).trans (GenP.V8_of m (outs m) c r h8)

/-- The same from the previous layer's last kernel, for an array the host stretch before the layer's first kernel
    does not write either. -/
theorem ly5_keep (c : Dev nD) (r : Ref sig .tc) (h7 : r ∉ GenP.hostOps3_W)
    (h8 : r ∉ ([main_v92_0, main_v92_1, main_v92_2] : List (Ref sig .tc))) (h9 : r ∉ GenP.hostOps4_W)
    (h10 : r ∉ ([main_v104_0, main_v104_1, main_v104_2] : List (Ref sig .tc))) (h11 : r ∉ GenP.hostOps5_W)
    (h12 : r ∉ ([main_v115_0, main_v115_1] : List (Ref sig .tc))) :
    Vout5 m c r = Vout2 m c r :=
  (layer1_thru m c r h8 h9 h10 h11 h12).trans (GenP.V7_of m (outs m) c r h7)

/-- The base facts pass through the layer. -/
theorem base5 (c : Dev nD) (hb : Base m c (Vout2 m c)) : Base m c (Vout5 m c) where
  v1 := (ly5_keep m c _ (by decide) (by decide) (by decide) (by decide) (by decide) (by decide)).trans hb.v1
  v3 := (ly5_keep m c _ (by decide) (by decide) (by decide) (by decide) (by decide) (by decide)).trans hb.v3
  v4 := (ly5_keep m c _ (by decide) (by decide) (by decide) (by decide) (by decide) (by decide)).trans hb.v4
  a1 := (ly5_keep m c _ (by decide) (by decide) (by decide) (by decide) (by decide) (by decide)).trans hb.a1
  a2 := (ly5_keep m c _ (by decide) (by decide) (by decide) (by decide) (by decide) (by decide)).trans hb.a2
  a3 := (ly5_keep m c _ (by decide) (by decide) (by decide) (by decide) (by decide) (by decide)).trans hb.a3
  a4 := (ly5_keep m c _ (by decide) (by decide) (by decide) (by decide) (by decide) (by decide)).trans hb.a4
  a5 := (ly5_keep m c _ (by decide) (by decide) (by decide) (by decide) (by decide) (by decide)).trans hb.a5
  a6 := (ly5_keep m c _ (by decide) (by decide) (by decide) (by decide) (by decide) (by decide)).trans hb.a6
  a7 := (ly5_keep m c _ (by decide) (by decide) (by decide) (by decide) (by decide) (by decide)).trans hb.a7
  a8 := (ly5_keep m c _ (by decide) (by decide) (by decide) (by decide) (by decide) (by decide)).trans hb.a8

section Layer
variable (c : Dev nD)

/-- The features the layer is entered with, their neighbourhood sums, and the three arrays the layer's mathematics
    makes of them. -/
abbrev hin3 : Mat 50000 128 := cur2 (Vout2 m c main_v59_0 : S50000x128.Idx → EReal)
abbrev agg3 : Mat 50000 128 := cur2 (kAgg m c (Vout2 m c main_v59_0))
abbrev zed3 : Mat 50000 128 := Spec.z1 (hin3 m c) (agg3 m c) (kP m c lyr1)
abbrev zed4 : Mat 50000 128 := Spec.kz2 (hin3 m c) (agg3 m c) (kP m c lyr1)
abbrev hout5 : Mat 50000 128 := Spec.kh (hin3 m c) (agg3 m c) (kP m c lyr1)

/-! ## The first kernel's operands -/

theorem ly3_feat : Vin3 m c main_v59_0 = Vout2 m c main_v59_0 := GenP.V7_of m (outs m) c _ (by decide)

theorem ly3_agg (hb : Base m c (Vout2 m c)) :
    (Vin3 m c main_v70 : S50000x128.Idx → EReal) = kAgg m c (Vout2 m c main_v59_0) := by
  refine (host3_agg (Vout2 m c)).trans ?_
  rw [hb.v1, hb.v3]

theorem ly3_W1 (hb : Base m c (Vout2 m c)) :
    cur2 (Vin3 m c main_v72 : S128x128.Idx → EReal) = (kP m c lyr1).W1 := by
  exact (host3_W1 (Vout2 m c)).trans (congrArg (fun x : S5x128x128.Idx → EReal => sl3 x lyr1) hb.a1)

theorem ly3_b1 (hb : Base m c (Vout2 m c)) :
    row0 (Vin3 m c main_v91 : S1x128.Idx → EReal) = (kP m c lyr1).b1 := by
  exact (host3_b1 (Vout2 m c)).trans (congrArg (fun x : S5x128.Idx → EReal => sl2 x lyr1) hb.a2)

theorem ly3_g1 (hb : Base m c (Vout2 m c)) :
    row0 (Vin3 m c main_v77 : S1x128.Idx → EReal) = (kP m c lyr1).g1 := by
  exact (host3_g1 (Vout2 m c)).trans (congrArg (fun x : S5x128.Idx → EReal => sl2 x lyr1) hb.a3)

theorem ly3_be1 (hb : Base m c (Vout2 m c)) :
    row0 (Vin3 m c main_v80 : S1x128.Idx → EReal) = (kP m c lyr1).be1 := by
  exact (host3_be1 (Vout2 m c)).trans (congrArg (fun x : S5x128.Idx → EReal => sl2 x lyr1) hb.a4)

theorem ly3_W2 (hb : Base m c (Vout2 m c)) :
    cur2 (Vin3 m c main_v82 : S128x128.Idx → EReal) = (kP m c lyr1).W2 := by
  exact (host3_W2 (Vout2 m c)).trans (congrArg (fun x : S5x128x128.Idx → EReal => sl3 x lyr1) hb.a5)

theorem ly3_b2 (hb : Base m c (Vout2 m c)) :
    cur1 (Vin3 m c main_v84 : S128.Idx → EReal) = (kP m c lyr1).b2 := by
  exact (host3_b2 (Vout2 m c)).trans (congrArg (fun x : S5x128.Idx → EReal => sl2 x lyr1) hb.a6)

theorem ly3_g2 (hb : Base m c (Vout2 m c)) :
    row0 (Vin3 m c main_v87 : S1x128.Idx → EReal) = (kP m c lyr1).g2 := by
  exact (host3_g2 (Vout2 m c)).trans (congrArg (fun x : S5x128.Idx → EReal => sl2 x lyr1) hb.a7)

theorem ly3_be2 (hb : Base m c (Vout2 m c)) :
    row0 (Vin3 m c main_v90 : S1x128.Idx → EReal) = (kP m c lyr1).be2 := by
  exact (host3_be2 (Vout2 m c)).trans (congrArg (fun x : S5x128.Idx → EReal => sl2 x lyr1) hb.a8)

/-! ## The first kernel: the first affine map and its block sums -/

/-- The affine map of the first kernel's operands is the layer's first affine map. -/
theorem ly3_lin (hb : Base m c (Vout2 m c)) :
    Spec.lin (fun r k => cur2 (Vin3 m c (Pipeline.arrRef spec3 0)) r k + cur2 (Vin3 m c (Pipeline.arrRef spec3 1)) r k)
        (cur2 (Vin3 m c (Pipeline.arrRef spec3 2))) (row0 (Vin3 m c (Pipeline.arrRef spec3 3)))
      = zed3 m c := by
  show Spec.lin (fun r k => cur2 (Vin3 m c main_v59_0 : S50000x128.Idx → EReal) r k
        + cur2 (Vin3 m c main_v70 : S50000x128.Idx → EReal) r k)
      (cur2 (Vin3 m c main_v72 : S128x128.Idx → EReal)) (row0 (Vin3 m c main_v91 : S1x128.Idx → EReal)) = _
  rw [ly3_feat m c, ly3_agg m c hb, ly3_W1 m c hb, ly3_b1 m c hb]
  rfl

theorem ly3_out (hb : Base m c (Vout2 m c)) :
    cur2 (Vout3 m c main_v92_0 : S50000x128.Idx → EReal) = zed3 m c :=
  (congrArg cur2 (hF_3 m c 4).symm).trans ((val3_4 (fun c b => Vin3 m c b) c).trans (ly3_lin m c hb))

theorem ly3_sum (hb : Base m c (Vout2 m c)) (t : Fin 10) (k : Fin 128) :
    (Vout3 m c main_v92_1 : S10x1x128.Idx → EReal) (ix3 t 0 k) = ksum (zed3 m c) t k :=
  (congrFun (hF_3 m c 5).symm (ix3 t 0 k)).trans
    ((val3_5 (fun c b => Vin3 m c b) c t k).trans (congrArg (fun Z => ksum Z t k) (ly3_lin m c hb)))

theorem ly3_sq (hb : Base m c (Vout2 m c)) (t : Fin 10) (k : Fin 128) :
    (Vout3 m c main_v92_2 : S10x1x128.Idx → EReal) (ix3 t 0 k) = ksq (zed3 m c) t k :=
  (congrFun (hF_3 m c 6).symm (ix3 t 0 k)).trans
    ((val3_6 (fun c b => Vin3 m c b) c t k).trans (congrArg (fun Z => ksq Z t k) (ly3_lin m c hb)))

/-! ## The second kernel's operands -/

theorem ly4_z : Vin4 m c main_v92_0 = Vout3 m c main_v92_0 := GenP.V9_of m (outs m) c _ (by decide)

theorem ly4_mean (hb : Base m c (Vout2 m c)) :
    row0 (Vin4 m c main_v95 : S1x128.Idx → EReal) = kmean (zed3 m c) :=
  host4_mean (Vout3 m c) (zed3 m c) (ly3_sum m c hb)

theorem ly4_var (hb : Base m c (Vout2 m c)) :
    row0 (Vin4 m c main_v102 : S1x128.Idx → EReal) = kvar (zed3 m c) :=
  host4_var (Vout3 m c) (zed3 m c) (ly3_sum m c hb) (ly3_sq m c hb)

/-- An array the first kernel and the stretch after it leave alone. -/
theorem ly4_keep (r : Ref sig .tc) (h8 : r ∉ ([main_v92_0, main_v92_1, main_v92_2] : List (Ref sig .tc)))
    (h9 : r ∉ GenP.hostOps4_W) : Vin4 m c r = Vin3 m c r :=
  (GenP.V9_of m (outs m) c r h9).trans (GenP.V8_of m (outs m) c r h8)

theorem ly4_g1 (hb : Base m c (Vout2 m c)) :
    row0 (Vin4 m c main_v77 : S1x128.Idx → EReal) = (kP m c lyr1).g1 := by
  have e : Vin4 m c main_v77 = Vin3 m c main_v77 := ly4_keep m c _ (by decide) (by decide)
  rw [e]
  exact ly3_g1 m c hb

theorem ly4_be1 (hb : Base m c (Vout2 m c)) :
    row0 (Vin4 m c main_v80 : S1x128.Idx → EReal) = (kP m c lyr1).be1 := by
  have e : Vin4 m c main_v80 = Vin3 m c main_v80 := ly4_keep m c _ (by decide) (by decide)
  rw [e]
  exact ly3_be1 m c hb

theorem ly4_W2 (hb : Base m c (Vout2 m c)) :
    cur2 (Vin4 m c main_v82 : S128x128.Idx → EReal) = (kP m c lyr1).W2 := by
  have e : Vin4 m c main_v82 = Vin3 m c main_v82 := ly4_keep m c _ (by decide) (by decide)
  rw [e]
  exact ly3_W2 m c hb

theorem ly4_b2 (hb : Base m c (Vout2 m c)) :
    row0 (Vin4 m c main_v103 : S1x128.Idx → EReal) = (kP m c lyr1).b2 := by
  refine (host4_bias (Vout3 m c)).trans ?_
  have e : Vout3 m c main_v84 = Vin3 m c main_v84 := GenP.V8_of m (outs m) c _ (by decide)
  rw [e]
  exact ly3_b2 m c hb

/-! ## The second kernel: normalise, rectify, the second affine map and its block sums -/

theorem ly4_lin (hb : Base m c (Vout2 m c)) :
    Spec.lin (Spec.bnrelu (cur2 (Vin4 m c (Pipeline.arrRef spec4 0))) (row0 (Vin4 m c (Pipeline.arrRef spec4 1)))
          (row0 (Vin4 m c (Pipeline.arrRef spec4 2))) (row0 (Vin4 m c (Pipeline.arrRef spec4 3)))
          (row0 (Vin4 m c (Pipeline.arrRef spec4 4)))) (cur2 (Vin4 m c (Pipeline.arrRef spec4 5)))
          (row0 (Vin4 m c (Pipeline.arrRef spec4 6)))
      = zed4 m c := by
  show Spec.lin (Spec.bnrelu (cur2 (Vin4 m c main_v92_0 : S50000x128.Idx → EReal))
        (row0 (Vin4 m c main_v95 : S1x128.Idx → EReal)) (row0 (Vin4 m c main_v102 : S1x128.Idx → EReal))
        (row0 (Vin4 m c main_v77 : S1x128.Idx → EReal)) (row0 (Vin4 m c main_v80 : S1x128.Idx → EReal)))
      (cur2 (Vin4 m c main_v82 : S128x128.Idx → EReal)) (row0 (Vin4 m c main_v103 : S1x128.Idx → EReal)) = _
  rw [ly4_z m c, ly3_out m c hb, ly4_mean m c hb, ly4_var m c hb, ly4_g1 m c hb, ly4_be1 m c hb, ly4_W2 m c hb,
    ly4_b2 m c hb]
  rfl

theorem ly4_out (hb : Base m c (Vout2 m c)) :
    cur2 (Vout4 m c main_v104_0 : S50000x128.Idx → EReal) = zed4 m c :=
  (congrArg cur2 (hF_4 m c 7).symm).trans ((val4_7 (fun c b => Vin4 m c b) c).trans (ly4_lin m c hb))

theorem ly4_sum (hb : Base m c (Vout2 m c)) (t : Fin 10) (k : Fin 128) :
    (Vout4 m c main_v104_1 : S10x1x128.Idx → EReal) (ix3 t 0 k) = ksum (zed4 m c) t k :=
  (congrFun (hF_4 m c 8).symm (ix3 t 0 k)).trans
    ((val4_8 (fun c b => Vin4 m c b) c t k).trans (congrArg (fun Z => ksum Z t k) (ly4_lin m c hb)))

theorem ly4_sq (hb : Base m c (Vout2 m c)) (t : Fin 10) (k : Fin 128) :
    (Vout4 m c main_v104_2 : S10x1x128.Idx → EReal) (ix3 t 0 k) = ksq (zed4 m c) t k :=
  (congrFun (hF_4 m c 9).symm (ix3 t 0 k)).trans
    ((val4_9 (fun c b => Vin4 m c b) c t k).trans (congrArg (fun Z => ksq Z t k) (ly4_lin m c hb)))

/-! ## The third kernel's operands -/

theorem ly5_z : Vin5 m c main_v104_0 = Vout4 m c main_v104_0 := GenP.V11_of m (outs m) c _ (by decide)

theorem ly5_mean (hb : Base m c (Vout2 m c)) :
    row0 (Vin5 m c main_v107 : S1x128.Idx → EReal) = kmean (zed4 m c) :=
  host5_mean (Vout4 m c) (zed4 m c) (ly4_sum m c hb)

theorem ly5_var (hb : Base m c (Vout2 m c)) :
    row0 (Vin5 m c main_v114 : S1x128.Idx → EReal) = kvar (zed4 m c) :=
  host5_var (Vout4 m c) (zed4 m c) (ly4_sum m c hb) (ly4_sq m c hb)

/-- An array the first two kernels and the stretches after them leave alone. -/
theorem ly5_keep3 (r : Ref sig .tc) (h8 : r ∉ ([main_v92_0, main_v92_1, main_v92_2] : List (Ref sig .tc)))
    (h9 : r ∉ GenP.hostOps4_W) (h10 : r ∉ ([main_v104_0, main_v104_1, main_v104_2] : List (Ref sig .tc)))
    (h11 : r ∉ GenP.hostOps5_W) : Vin5 m c r = Vin3 m c r :=
  (GenP.V11_of m (outs m) c r h11).trans <| (GenP.V10_of m (outs m) c r h10).trans (ly4_keep m c r h8 h9)

theorem ly5_g2 (hb : Base m c (Vout2 m c)) :
    row0 (Vin5 m c main_v87 : S1x128.Idx → EReal) = (kP m c lyr1).g2 := by
  have e : Vin5 m c main_v87 = Vin3 m c main_v87 := ly5_keep3 m c _ (by decide) (by decide) (by decide) (by decide)
  rw [e]
  exact ly3_g2 m c hb

theorem ly5_be2 (hb : Base m c (Vout2 m c)) :
    row0 (Vin5 m c main_v90 : S1x128.Idx → EReal) = (kP m c lyr1).be2 := by
  have e : Vin5 m c main_v90 = Vin3 m c main_v90 := ly5_keep3 m c _ (by decide) (by decide) (by decide) (by decide)
  rw [e]
  exact ly3_be2 m c hb

/-- The graph column the third kernel reads holds the launch's graph numbers. -/
theorem ly5_graph (hb : Base m c (Vout2 m c)) (r : Fin 50000) :
    (Vin5 m c main_v4 : S50000x1.Idx → BitVec 32) (ix2 r 0) = kBw m c r := by
  have e : Vin5 m c main_v4 = GenP.V1 m c main_v4 :=
    (ly5_keep3 m c _ (by decide) (by decide) (by decide) (by decide)).trans
      ((GenP.V7_of m (outs m) c _ (by decide)).trans hb.v4)
  rw [e]
  exact graph_launch m c r 0

/-! ## The third kernel: normalise, rectify, and each block's share of the pooling -/

theorem ly5_bn (hb : Base m c (Vout2 m c)) :
    Spec.bnrelu (cur2 (Vin5 m c (Pipeline.arrRef spec5 0))) (row0 (Vin5 m c (Pipeline.arrRef spec5 1)))
        (row0 (Vin5 m c (Pipeline.arrRef spec5 2))) (row0 (Vin5 m c (Pipeline.arrRef spec5 3)))
        (row0 (Vin5 m c (Pipeline.arrRef spec5 4)))
      = hout5 m c := by
  show Spec.bnrelu (cur2 (Vin5 m c main_v104_0 : S50000x128.Idx → EReal))
      (row0 (Vin5 m c main_v107 : S1x128.Idx → EReal)) (row0 (Vin5 m c main_v114 : S1x128.Idx → EReal))
      (row0 (Vin5 m c main_v87 : S1x128.Idx → EReal)) (row0 (Vin5 m c main_v90 : S1x128.Idx → EReal)) = _
  rw [ly5_z m c, ly4_out m c hb, ly5_mean m c hb, ly5_var m c hb, ly5_g2 m c hb, ly5_be2 m c hb]
  rfl

/-- The layer's features. -/
theorem layer1_h (hb : Base m c (Vout2 m c)) :
    cur2 (Vout5 m c main_v115_0 : S50000x128.Idx → EReal)
      = Spec.kh (cur2 (Vout2 m c main_v59_0 : S50000x128.Idx → EReal)) (cur2 (kAgg m c (Vout2 m c main_v59_0)))
          (kP m c lyr1) :=
  (congrArg cur2 (hF_5 m c 6).symm).trans ((val5_6 (fun c b => Vin5 m c b) c).trans (ly5_bn m c hb))

/-- Each block's share of the pooling of the layer's features. -/
theorem ly5_part (hb : Base m c (Vout2 m c)) (t : Fin 10) (g : Fin 256) (k : Fin 128) :
    (Vout5 m c main_v115_1 : S10x256x128.Idx → EReal) (ix3 t g k)
      = poolKpart (kBw m c) (cur2 (Vout5 m c main_v115_0 : S50000x128.Idx → EReal)) t g k := by
  refine (congrFun (hF_5 m c 7).symm (ix3 t g k)).trans ((val5_7 (fun c b => Vin5 m c b) c t g k).trans ?_)
  have eb : (fun r : Fin 50000 => (Vin5 m c (Pipeline.arrRef spec5 5) : S50000x1.Idx → BitVec 32) (ix2 r 0)) = kBw m c :=
    funext fun r => ly5_graph m c hb r
  rw [layer1_h m c hb]
  exact congrArg₂ (fun bw H => poolKpart bw H t g k) eb (ly5_bn m c hb)

end Layer

end Cert.KernelIdeal.Hand

end
-- ==== Proof.KI.Host6.lean ====
/-
  The host stretch before a later layer's first kernel: the previous layer's pooled matrix as the sum of its ten
  per-block shares, the neighbourhood sums of the previous layer's features, and the layer's slice of every
  weight stack.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The layer this stretch prepares: the slice it takes of every weight stack. -/
abbrev host6_layer : Fin 5 := 2

/-- The previous layer's pooled matrix: the ten per-block shares added up. -/
theorem host6_pool (bw : Fin 50000 → BitVec 32) (H : Mat 50000 128)
    (hp : ∀ t g k, (W main_v115_1 : S10x256x128.Idx → EReal) (ix3 t g k) = poolKpart bw H t g k) :
    cur2 (StableHlo.after hostOps6 W main_v116 : S256x128.Idx → EReal) = poolK bw H := by
  have e : (StableHlo.after hostOps6 W main_v116 : S256x128.Idx → EReal)
      = Host.reduceAdd (W main_v115_1 : S10x256x128.Idx → EReal) (constant (F := Ideal) S_ .f32 0x00000000#32)
          reducesTo_S10x256x128_S256x128_d0 h_S_ := by
    after_results
  rw [e]
  exact poolSum_poolK _ _ _ bw H hp

/-- The neighbourhood sums of the previous layer's features. -/
theorem host6_agg :
    (StableHlo.after hostOps6 W main_v126 : S50000x128.Idx → EReal)
      = aggA gather_S50000x128_S800000x1_S800000x128_1_0_n_n_0_1_1128 scatter_S50000x128_S800000x1_S800000x128_1_0_0_1
          bcast_S_S50000x128 (W main_v115_0)
          (srcCol bcast_S_S800000 bcast_S800000_S800000x1_0 (W main_v1))
          (dstCol bcast_S800000_S800000x1_0 (W main_v3)) := by
  after_results_simp
  rfl

/-- The layer's first weight matrix. -/
theorem host6_W1 :
    cur2 (StableHlo.after hostOps6 W main_v128 : S128x128.Idx → EReal) = sl3 (W main_arg1 : S5x128x128.Idx → EReal) host6_layer :=
  cur2_sliceMat_of _ host6_layer _ _ _ _ (by after_results_simp; rfl) (by rfl)

/-- The layer's first bias, as a row. -/
theorem host6_b1 :
    row0 (StableHlo.after hostOps6 W main_v147 : S1x128.Idx → EReal) = sl2 (W main_arg2 : S5x128.Idx → EReal) host6_layer :=
  row0_sliceVec_of _ host6_layer _ _ _ _ _ (by after_results_simp; rfl) (by rfl)

/-- The layer's first scale, as a row. -/
theorem host6_g1 :
    row0 (StableHlo.after hostOps6 W main_v133 : S1x128.Idx → EReal) = sl2 (W main_arg3 : S5x128.Idx → EReal) host6_layer :=
  row0_sliceVec_of _ host6_layer _ _ _ _ _ (by after_results_simp; rfl) (by rfl)

/-- The layer's first shift, as a row. -/
theorem host6_be1 :
    row0 (StableHlo.after hostOps6 W main_v136 : S1x128.Idx → EReal) = sl2 (W main_arg4 : S5x128.Idx → EReal) host6_layer :=
  row0_sliceVec_of _ host6_layer _ _ _ _ _ (by after_results_simp; rfl) (by rfl)

/-- The layer's second weight matrix. -/
theorem host6_W2 :
    cur2 (StableHlo.after hostOps6 W main_v138 : S128x128.Idx → EReal) = sl3 (W main_arg5 : S5x128x128.Idx → EReal) host6_layer :=
  cur2_sliceMat_of _ host6_layer _ _ _ _ (by after_results_simp; rfl) (by rfl)

/-- The layer's second bias, as a vector. -/
theorem host6_b2 :
    cur1 (StableHlo.after hostOps6 W main_v140 : S128.Idx → EReal) = sl2 (W main_arg6 : S5x128.Idx → EReal) host6_layer :=
  cur1_sliceVec_of _ host6_layer _ _ _ _ (by after_results_simp; rfl) (by rfl)

/-- The layer's second scale, as a row. -/
theorem host6_g2 :
    row0 (StableHlo.after hostOps6 W main_v143 : S1x128.Idx → EReal) = sl2 (W main_arg7 : S5x128.Idx → EReal) host6_layer :=
  row0_sliceVec_of _ host6_layer _ _ _ _ _ (by after_results_simp; rfl) (by rfl)

/-- The layer's second shift, as a row. -/
theorem host6_be2 :
    row0 (StableHlo.after hostOps6 W main_v146 : S1x128.Idx → EReal) = sl2 (W main_arg8 : S5x128.Idx → EReal) host6_layer :=
  row0_sliceVec_of _ host6_layer _ _ _ _ _ (by after_results_simp; rfl) (by rfl)

end Cert.KernelIdeal.Hand

end
-- ==== Proof.KI.LPool1.lean ====
/-
  The end of one layer of the network as the kernel program computes it: the host stretch after the layer's last
  kernel adds the ten row blocks' shares into the sum of the layer's features by graph, and leaves the features
  themselves, and every array the layer did not write, for the next layer.
-/
import proofs.«422260_j36421322670663_2_alg».proof.Proof.KI.Layer1
import proofs.«422260_j36421322670663_2_alg».proof.Proof.KI.Host6

-- deciding that a reference is none of the several dozen a host stretch writes recurses once per reference
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- An array none of the layer's three kernels and none of the host stretches after them writes is the same when the
    next layer's first kernel is entered as when this layer's was. -/
theorem layer1_keep (c : Dev nD) (r : Ref sig .tc)
    (h8 : r ∉ ([main_v92_0, main_v92_1, main_v92_2] : List (Ref sig .tc))) (h9 : r ∉ GenP.hostOps4_W)
    (h10 : r ∉ ([main_v104_0, main_v104_1, main_v104_2] : List (Ref sig .tc))) (h11 : r ∉ GenP.hostOps5_W)
    (h12 : r ∉ ([main_v115_0, main_v115_1] : List (Ref sig .tc))) (h13 : r ∉ GenP.hostOps6_W) :
    Vin6 m c r = Vin3 m c r :=
  (GenP.V13_of m (outs m) c r h13).trans (layer1_thru m c r h8 h9 h10 h11 h12)

/-- The next layer is entered with the features this layer's last kernel left. -/
theorem layer1_feat (c : Dev nD) : Vin6 m c main_v115_0 = Vout5 m c main_v115_0 :=
  GenP.V13_of m (outs m) c _ (by decide)

/-- The layer's pooled features: the ten shares added up by the host stretch after the layer's last kernel. -/
theorem layer1_pool (c : Dev nD) (hb : Base m c (Vout2 m c)) :
    cur2 (Vin6 m c main_v116 : S256x128.Idx → EReal)
      = Spec.poolK (kBw m c) (cur2 (Vout5 m c main_v115_0 : S50000x128.Idx → EReal)) :=
  host6_pool (Vout5 m c) (kBw m c) _ (ly5_part m c hb)

end Cert.KernelIdeal.Hand

end
-- ==== Proof.KI.Val6Pay.lean ====
/-
  What the first linear map's kernel body computes from its four loaded blocks, entry by entry, over the extended
  reals: the block's affine image (the sum of the two feature blocks times the weights, plus the bias row), the
  column sums of that image over the block's rows, and the column sums of its squares. The roundings to the
  narrower format are the identity on extended reals, the accumulator of the matrix product is zero, and the sums
  over a whole axis are plain finite sums.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen Cert.Spec

/-! ## The matrix product's operand indices -/

private theorem lhs_row (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

private theorem lhs_shared (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single (cl := 1) rfl j k

private theorem rhs_shared (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single (cr := 0) rfl j k

private theorem rhs_col (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

/-- The product of a 5000 × 128 by a 128 × 128 matrix into the zero accumulator, at (p, q): the sum over the shared
    coordinate of the products of the entries. -/
private theorem mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have hl : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => exact lhs_row _ _
    | ⟨1, _⟩ => exact (lhs_shared _ _).trans hc
  have hr : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => exact (rhs_shared _ _).trans hc
    | ⟨1, _⟩ => exact rhs_col _ _
  rw [hl, hr]

/-! ## The row sums' index, and the casts between a vector, a row and a one-row stack -/

/-- A vector's coordinate put back under row p of the block. -/
private theorem lift_rows (h : S5000x128.Reduces [0] S128) (q : Fin 128) (p : Fin 5000) :
    h.lift (ix1 q) p = ix2 p q := by
  funext ax; apply Fin.ext
  match ax with
  | ⟨0, _⟩ => rfl
  | ⟨1, _⟩ => rfl

/-- The sum over the rows of a block, kept as a 1 × 1 × 128 stack, at column q. -/
private theorem colsum_apply (z : FVec Ideal S5000x128 .f32) (q : Fin 128) :
    shapeCast S1x1x128 (shapeCast S1x128
        (multiReduction (F := Ideal) .add [0] S128 z 0x00000000#32 reduces_S5000x128_S128 (.inl rfl) rfl)
        shapeCasts_S128_S1x128) shapeCasts_S1x128_S1x1x128 (ix3 0 0 q)
      = ∑ p : Fin 5000, z (ix2 p q) := by
  refine (shapeCast_ab_1ab_apply _ _ 0 0 q).trans ?_
  refine (shapeCast_a_1a_apply _ _ 0 q).trans ?_
  refine (Ideal.multiReduction_add_single z 0x00000000#32 reduces_S5000x128_S128 (.inl rfl) rfl (ix1 q)).trans ?_
  exact Finset.sum_congr rfl fun p _ => congrArg z (lift_rows _ q p)

/-! ## The three payloads at an index -/

/-- The block's affine image at (p, q): row p of the sum of the two feature blocks against column q of the weights,
    plus the bias at q. -/
theorem k6_pay1_apply (x0 x1 : Vec Ideal S5000x128 .f32) (x2 : Vec Ideal S128x128 .f32) (x3 : Vec Ideal S1x128 .f32)
    (p : Fin 5000) (q : Fin 128) :
    k6_pay1 x0 x1 x2 x3 (ix2 p q)
      = (∑ k : Fin 128, (x0 (ix2 p k) + x1 (ix2 p k)) * x2 (ix2 k q)) + x3 (ix2 0 q) := by
  unfold k6_pay1
  refine (addf_apply _ _ _).trans ?_
  refine congr (congrArg HAdd.hAdd ?_) ?_
  · refine (mm_apply _ _ p q).trans (Finset.sum_congr rfl fun k _ => ?_)
    simp only [shapeCast_self]
    all_goals rfl
  · refine (broadcastTo_1b_ab_apply _ _ p q).trans ?_
    exact congrFun (shapeCast_self x3 _) _

/-- The column sums of the block's affine image. -/
theorem k6_pay2_apply (x0 x1 : Vec Ideal S5000x128 .f32) (x2 : Vec Ideal S128x128 .f32) (x3 : Vec Ideal S1x128 .f32)
    (q : Fin 128) :
    k6_pay2 x0 x1 x2 x3 (ix3 0 0 q)
      = ∑ p : Fin 5000, ((∑ k : Fin 128, (x0 (ix2 p k) + x1 (ix2 p k)) * x2 (ix2 k q)) + x3 (ix2 0 q)) := by
  unfold k6_pay2
  refine (colsum_apply _ q).trans ?_
  exact Finset.sum_congr rfl fun p _ => k6_pay1_apply x0 x1 x2 x3 p q

/-- The column sums of the squares of the block's affine image. -/
theorem k6_pay3_apply (x0 x1 : Vec Ideal S5000x128 .f32) (x2 : Vec Ideal S128x128 .f32) (x3 : Vec Ideal S1x128 .f32)
    (q : Fin 128) :
    k6_pay3 x0 x1 x2 x3 (ix3 0 0 q)
      = ∑ p : Fin 5000, ((∑ k : Fin 128, (x0 (ix2 p k) + x1 (ix2 p k)) * x2 (ix2 k q)) + x3 (ix2 0 q))
          * ((∑ k : Fin 128, (x0 (ix2 p k) + x1 (ix2 p k)) * x2 (ix2 k q)) + x3 (ix2 0 q)) := by
  unfold k6_pay3
  refine (colsum_apply _ q).trans ?_
  refine Finset.sum_congr rfl fun p _ => ?_
  refine (mulf_apply _ _ _).trans ?_
  rw [k6_pay1_apply]

end Cert.KernelIdeal.Hand

end
-- ==== Proof.KI.Val6.lean ====
/-
  The three arrays the first linear map's region leaves, over the extended reals, as functions of the four arrays it
  reads: the affine image of the whole feature arrays (the sum of the features and their neighbourhood sums, times the
  weights, plus the bias); for each of the ten row blocks the column sums of that image over the block's rows; and
  the column sums of its squares. Each grid point computes its own block of these from its own blocks of the inputs —
  a block's entry sits in the array at (block number × block size + the coordinate inside the block) — and the
  blocks of the ten points tile the arrays.
-/
import proofs.«422260_j36421322670663_2_alg».proof.Proof.KI.Reg6
import proofs.«422260_j36421322670663_2_alg».proof.Proof.KI.Val6Pay
import proofs.«422260_j36421322670663_2_alg».proof.Proof.Gen.KernelIdeal.Points
import proofs.«422260_j36421322670663_2_alg».proof.Proof.Spec
import proofs.«422260_j36421322670663_2_alg».proof.Proof.SpecPool
import Idealize.ShloMosaic.Lib.ValueIdx
import Idealize.ShloMosaic.Lib.Pipeline.Value

noncomputable section

namespace Cert.KernelIdeal.Hand

open Idealize.ShloMosaic Idealize.ShloMosaic.ValueIdx Idealize.ShloMosaic.TcCoe Idealize.SL.Sem
open Cert.KernelIdeal Cert.KernelIdeal.Gen Cert.Spec

section Arrays
variable (V : (c : Dev nD) → (b : Ref sig .tc) → Buf (Elt Ideal) ((c : Thread nD τ).loc b)) (c : Dev nD)

/-! ## The whole arrays the three outputs end holding -/

/-- The affine image of the whole feature arrays: every row of their sum against the weights, plus the bias. -/
def lin6 : Mat 50000 128 :=
  Spec.lin (fun r k => cur2 (V c (Pipeline.arrRef spec6 0) : S50000x128.Idx → EReal) r k
      + cur2 (V c (Pipeline.arrRef spec6 1) : S50000x128.Idx → EReal) r k)
    (cur2 (V c (Pipeline.arrRef spec6 2) : S128x128.Idx → EReal))
    (row0 (V c (Pipeline.arrRef spec6 3) : S1x128.Idx → EReal))

/-- The image, as an array. -/
def arr6_4 : S50000x128.Idx → EReal := fun i => lin6 V c (i 0) (i 1)
/-- Its column sums block by block, as an array. -/
def arr6_5 : S10x1x128.Idx → EReal := fun i => Spec.ksum (lin6 V c) (i 0) (i 2)
/-- The column sums of its squares block by block, as an array. -/
def arr6_6 : S10x1x128.Idx → EReal := fun i => Spec.ksq (lin6 V c) (i 0) (i 2)

/-! ## Where a block's entry sits in its array -/

/-- The printed index maps over the ten grid points: the two feature windows and the image's window sit at the
    point's own row block, the weights and the bias at the one block there is, the two sums' windows at the point's
    own slice. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 3) = t.val ∧ win6_5.index t (1 : Fin 3) = 0 ∧ win6_5.index t (2 : Fin 3) = 0
    ∧ win6_6.index t (0 : Fin 3) = t.val ∧ win6_6.index t (1 : Fin 3) = 0 ∧ win6_6.index t (2 : Fin 3) = 0 :=
  (by decide +kernel : ∀ t : Fin grid6.N, _)

/-- The grid point as a block number. -/
def pt6 (t : Fin cfg6.N) : Fin 10 := Fin.cast N_6 t

/-- Entry (p, k) of a feature block is entry (block's first row + p, k) of the array. -/
theorem emb6_0 (t : Fin cfg6.N) (p : Fin 5000) (k : Fin 128) :
    ((cfg6.win 0).blk t).view.emb (ix2 p k) = (ix2 (brow (pt6 t) p) k : S50000x128.Idx) := by
  obtain ⟨e0, e1, -⟩ := idx6 t
  funext a; apply Fin.ext
  match a with
  | ⟨0, _⟩ => show win6_0.index t (0 : Fin 2) * 5000 + 1 * p.val = t.val * 5000 + p.val; omega
  | ⟨1, _⟩ => show win6_0.index t (1 : Fin 2) * 128 + 1 * k.val = k.val; omega

theorem emb6_1 (t : Fin cfg6.N) (p : Fin 5000) (k : Fin 128) :
    ((cfg6.win 1).blk t).view.emb (ix2 p k) = (ix2 (brow (pt6 t) p) k : S50000x128.Idx) := by
  obtain ⟨-, -, e0, e1, -⟩ := idx6 t
  funext a; apply Fin.ext
  match a with
  | ⟨0, _⟩ => show win6_1.index t (0 : Fin 2) * 5000 + 1 * p.val = t.val * 5000 + p.val; omega
  | ⟨1, _⟩ => show win6_1.index t (1 : Fin 2) * 128 + 1 * k.val = k.val; omega

/-- The weights' and the bias's one block is the array. -/
theorem emb6_2 (t : Fin cfg6.N) (k q : Fin 128) :
    ((cfg6.win 2).blk t).view.emb (ix2 k q) = (ix2 k q : S128x128.Idx) := by
  obtain ⟨-, -, -, -, e0, e1, -⟩ := idx6 t
  funext a; apply Fin.ext
  match a with
  | ⟨0, _⟩ => show win6_2.index t (0 : Fin 2) * 128 + 1 * k.val = k.val; omega
  | ⟨1, _⟩ => show win6_2.index t (1 : Fin 2) * 128 + 1 * q.val = q.val; omega

theorem emb6_3 (t : Fin cfg6.N) (u : Fin 1) (q : Fin 128) :
    ((cfg6.win 3).blk t).view.emb (ix2 u q) = (ix2 u q : S1x128.Idx) := by
  obtain ⟨-, -, -, -, -, -, e0, e1, -⟩ := idx6 t
  funext a; apply Fin.ext
  match a with
  | ⟨0, _⟩ => show win6_3.index t (0 : Fin 2) * 1 + 1 * u.val = u.val; omega
  | ⟨1, _⟩ => show win6_3.index t (1 : Fin 2) * 128 + 1 * q.val = q.val; omega

theorem emb6_4 (t : Fin cfg6.N) (p : Fin 5000) (q : Fin 128) :
    ((cfg6.win 4).blk t).view.emb (ix2 p q) = (ix2 (brow (pt6 t) p) q : S50000x128.Idx) := by
  obtain ⟨-, -, -, -, -, -, -, -, e0, e1, -⟩ := idx6 t
  funext a; apply Fin.ext
  match a with
  | ⟨0, _⟩ => show win6_4.index t (0 : Fin 2) * 5000 + 1 * p.val = t.val * 5000 + p.val; omega
  | ⟨1, _⟩ => show win6_4.index t (1 : Fin 2) * 128 + 1 * q.val = q.val; omega

/-- The one row of a block of sums is slice number (the point) of the stack. -/
theorem emb6_5 (t : Fin cfg6.N) (u v : Fin 1) (q : Fin 128) :
    ((cfg6.win 5).blk t).view.emb (ix3 u v q) = (ix3 (pt6 t) v q : S10x1x128.Idx) := by
  obtain ⟨-, -, -, -, -, -, -, -, -, -, e0, e1, e2, -⟩ := idx6 t
  funext a; apply Fin.ext
  match a with
  | ⟨0, _⟩ => show win6_5.index t (0 : Fin 3) * 1 + 1 * u.val = t.val; omega
  | ⟨1, _⟩ => show win6_5.index t (1 : Fin 3) * 1 + 1 * v.val = v.val; omega
  | ⟨2, _⟩ => show win6_5.index t (2 : Fin 3) * 128 + 1 * q.val = q.val; omega

theorem emb6_6 (t : Fin cfg6.N) (u v : Fin 1) (q : Fin 128) :
    ((cfg6.win 6).blk t).view.emb (ix3 u v q) = (ix3 (pt6 t) v q : S10x1x128.Idx) := by
  obtain ⟨-, -, -, -, -, -, -, -, -, -, -, -, -, e0, e1, e2⟩ := idx6 t
  funext a; apply Fin.ext
  match a with
  | ⟨0, _⟩ => show win6_6.index t (0 : Fin 3) * 1 + 1 * u.val = t.val; omega
  | ⟨1, _⟩ => show win6_6.index t (1 : Fin 3) * 1 + 1 * v.val = v.val; omega
  | ⟨2, _⟩ => show win6_6.index t (2 : Fin 3) * 128 + 1 * q.val = q.val; omega

/-! ## What a grid point's body computes is its block of the whole arrays -/

/-- One entry of the image computed from the point's four blocks is the whole image at the block's row. -/
theorem cell6 (t : Fin cfg6.N) (p : Fin 5000) (q : Fin 128)
    (x0 x1 : Vec Ideal S5000x128 .f32) (x2 : Vec Ideal S128x128 .f32) (x3 : Vec Ideal S1x128 .f32)
    (h0 : x0 = iblk6 V c 0 t) (h1 : x1 = iblk6 V c 1 t) (h2 : x2 = iblk6 V c 2 t) (h3 : x3 = iblk6 V c 3 t) :
    (∑ k : Fin 128, (x0 (ix2 p k) + x1 (ix2 p k)) * x2 (ix2 k q)) + x3 (ix2 0 q)
      = lin6 V c (brow (pt6 t) p) q := by
  subst h0 h1 h2 h3
  have a0 : ∀ k : Fin 128, iblk6 V c 0 t (ix2 p k)
      = (V c (Pipeline.arrRef spec6 0) : S50000x128.Idx → EReal) (ix2 (brow (pt6 t) p) k) :=
    fun k => congrArg (V c (Pipeline.arrRef spec6 0)) (emb6_0 t p k)
  have a1 : ∀ k : Fin 128, iblk6 V c 1 t (ix2 p k)
      = (V c (Pipeline.arrRef spec6 1) : S50000x128.Idx → EReal) (ix2 (brow (pt6 t) p) k) :=
    fun k => congrArg (V c (Pipeline.arrRef spec6 1)) (emb6_1 t p k)
  have a2 : ∀ k : Fin 128, iblk6 V c 2 t (ix2 k q)
      = (V c (Pipeline.arrRef spec6 2) : S128x128.Idx → EReal) (ix2 k q) :=
    fun k => congrArg (V c (Pipeline.arrRef spec6 2)) (emb6_2 t k q)
  have a3 : iblk6 V c 3 t (ix2 0 q) = (V c (Pipeline.arrRef spec6 3) : S1x128.Idx → EReal) (ix2 0 q) :=
    congrArg (V c (Pipeline.arrRef spec6 3)) (emb6_3 t 0 q)
  unfold lin6 Spec.lin cur2 row0
  refine congr (congrArg HAdd.hAdd (Finset.sum_congr rfl fun k _ => ?_)) a3
  exact congr (congrArg HMul.hMul (congr (congrArg HAdd.hAdd (a0 k)) (a1 k))) (a2 k)

end Arrays

section Blocks
variable (V : (c : Dev nD) → (b : Ref sig .tc) → Buf (Elt Ideal) ((c : Thread nD τ).loc b)) (c : Dev nD)

/-- The image's block at a point is the point's block of the whole image. -/
theorem blk6_4 (t : Fin cfg6.N) :
    k6_pay1 (iblk6 V c 0 t) (iblk6 V c 1 t) (iblk6 V c 2 t) (iblk6 V c 3 t)
      = ((cfg6.win 4).blk t).view.read (Elt Ideal) (arr6_4 V c) := by
  funext j
  obtain ⟨p, q, rfl⟩ : ∃ (p : Fin 5000) (q : Fin 128), j = ix2 p q := ⟨j 0, j 1, eq_ix2 j⟩
  refine (k6_pay1_apply _ _ _ _ p q).trans ?_
  refine (cell6 V c t p q _ _ _ _ rfl rfl rfl rfl).trans ?_
  exact (congrArg (arr6_4 V c) (emb6_4 t p q)).symm

/-- The column sums a point computes are the point's slice of the blockwise column sums of the whole image. -/
theorem blk6_5 (t : Fin cfg6.N) :
    k6_pay2 (iblk6 V c 0 t) (iblk6 V c 1 t) (iblk6 V c 2 t) (iblk6 V c 3 t)
      = ((cfg6.win 5).blk t).view.read (Elt Ideal) (arr6_5 V c) := by
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (k6_pay2_apply _ _ _ _ q).trans ?_
  refine (Finset.sum_congr rfl fun p _ => cell6 V c t p q _ _ _ _ rfl rfl rfl rfl).trans ?_
  exact (congrArg (arr6_5 V c) (emb6_5 t 0 0 q)).symm

/-- Likewise the column sums of squares. -/
theorem blk6_6 (t : Fin cfg6.N) :
    k6_pay3 (iblk6 V c 0 t) (iblk6 V c 1 t) (iblk6 V c 2 t) (iblk6 V c 3 t)
      = ((cfg6.win 6).blk t).view.read (Elt Ideal) (arr6_6 V c) := by
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (k6_pay3_apply _ _ _ _ q).trans ?_
  refine (Finset.sum_congr rfl fun p _ => by rw [cell6 V c t p q _ _ _ _ rfl rfl rfl rfl]).trans ?_
  exact (congrArg (arr6_6 V c) (emb6_6 t 0 0 q)).symm

end Blocks

section Final
variable (V : (c : Dev nD) → (b : Ref sig .tc) → Buf (Elt Ideal) ((c : Thread nD τ).loc b)) (c : Dev nD)

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## What each point writes back is its block of the whole array -/

theorem flushed6_4 (t : Fin cfg6.N) :
    (dat6 V c).flushed 4 t = ((cfg6.win 4).blk t).view.read (Elt Ideal) (arr6_4 V c) := by
  show (cfg6.win 4).cut (grid6.coords t) ((dat6 V c).after 4 t) = _
  rw [after6_4]
  unfold out6_4
  rw [View.canon_unit_zero hz2]
  simp only [View.ld_unit_zero (S := S5000x128) hz2, View.ld_unit_zero (S := S128x128) hz2,
    View.ld_unit_zero (S := S1x128) hz2]
  exact blk6_4 V c t

theorem flushed6_5 (t : Fin cfg6.N) :
    (dat6 V c).flushed 5 t = ((cfg6.win 5).blk t).view.read (Elt Ideal) (arr6_5 V c) := by
  show (cfg6.win 5).cut (grid6.coords t) ((dat6 V c).after 5 t) = _
  rw [after6_5]
  unfold out6_5
  rw [View.canon_unit_zero hz3]
  simp only [View.ld_unit_zero (S := S5000x128) hz2, View.ld_unit_zero (S := S128x128) hz2,
    View.ld_unit_zero (S := S1x128) hz2]
  exact blk6_5 V c t

theorem flushed6_6 (t : Fin cfg6.N) :
    (dat6 V c).flushed 6 t = ((cfg6.win 6).blk t).view.read (Elt Ideal) (arr6_6 V c) := by
  show (cfg6.win 6).cut (grid6.coords t) ((dat6 V c).after 6 t) = _
  rw [after6_6]
  unfold out6_6
  rw [View.canon_unit_zero hz3]
  simp only [View.ld_unit_zero (S := S5000x128) hz2, View.ld_unit_zero (S := S128x128) hz2,
    View.ld_unit_zero (S := S1x128) hz2]
  exact blk6_6 V c t

/-! ## The blocks tile the arrays -/

/-- An index is in a point's block when each coordinate is in the block's range on its axis. -/
theorem mem6_4 (t : Fin cfg6.N) (i : S50000x128.Idx) :
    i ∈ ((cfg6.win 4).blk t).view.set ↔ ∀ a : Fin 2, win6_4.index t a * S5000x128.size a ≤ (i a).val
      ∧ (i a).val < win6_4.index t a * S5000x128.size a + S5000x128.size a := by
  show i ∈ ((View.whole (Pipeline.arrRef spec6 4)).slice (win6_4.rect t)).set ↔ _
  rw [View.set_slice_whole, Rect.mem_set_unit]
  exact Iff.rfl

theorem mem6_5 (t : Fin cfg6.N) (i : S10x1x128.Idx) :
    i ∈ ((cfg6.win 5).blk t).view.set ↔ ∀ a : Fin 3, win6_5.index t a * S1x1x128.size a ≤ (i a).val
      ∧ (i a).val < win6_5.index t a * S1x1x128.size a + S1x1x128.size a := by
  show i ∈ ((View.whole (Pipeline.arrRef spec6 5)).slice (win6_5.rect t)).set ↔ _
  rw [View.set_slice_whole, Rect.mem_set_unit]
  exact Iff.rfl

theorem mem6_6 (t : Fin cfg6.N) (i : S10x1x128.Idx) :
    i ∈ ((cfg6.win 6).blk t).view.set ↔ ∀ a : Fin 3, win6_6.index t a * S1x1x128.size a ≤ (i a).val
      ∧ (i a).val < win6_6.index t a * S1x1x128.size a + S1x1x128.size a := by
  show i ∈ ((View.whole (Pipeline.arrRef spec6 6)).slice (win6_6.rect t)).set ↔ _
  rw [View.set_slice_whole, Rect.mem_set_unit]
  exact Iff.rfl

/-- Row r of the image is in the block of point r / 5000. -/
theorem tile6_4 (i : S50000x128.Idx) :
    ∃ t : Fin cfg6.N, (cfg6.win 4).flush t = true ∧ i ∈ ((cfg6.win 4).blk t).view.set := by
  have hi0 : (i 0).val < 50000 := (i 0).isLt
  have hi1 : (i 1).val < 128 := (i 1).isLt
  obtain ⟨t, ht⟩ : ∃ t : Fin cfg6.N, t.val = (i 0).val / 5000 :=
    ⟨⟨(i 0).val / 5000, by show _ < grid6.N; rw [N_6]; omega⟩, rfl⟩
  refine ⟨t, flush6_4 t, ?_⟩
  rw [mem6_4]
  obtain ⟨-, -, -, -, -, -, -, -, e0, e1, -⟩ := idx6 t
  intro a
  match a with
  | ⟨0, _⟩ =>
    show win6_4.index t (0 : Fin 2) * 5000 ≤ (i 0).val ∧ (i 0).val < win6_4.index t (0 : Fin 2) * 5000 + 5000
    omega
  | ⟨1, _⟩ =>
    show win6_4.index t (1 : Fin 2) * 128 ≤ (i 1).val ∧ (i 1).val < win6_4.index t (1 : Fin 2) * 128 + 128
    omega

/-- Slice s of a stack of sums is the block of point s. -/
theorem tile6_5 (i : S10x1x128.Idx) :
    ∃ t : Fin cfg6.N, (cfg6.win 5).flush t = true ∧ i ∈ ((cfg6.win 5).blk t).view.set := by
  have hi0 : (i 0).val < 10 := (i 0).isLt
  have hi1 : (i 1).val < 1 := (i 1).isLt
  have hi2 : (i 2).val < 128 := (i 2).isLt
  obtain ⟨t, ht⟩ : ∃ t : Fin cfg6.N, t.val = (i 0).val :=
    ⟨⟨(i 0).val, by show _ < grid6.N; rw [N_6]; omega⟩, rfl⟩
  refine ⟨t, flush6_5 t, ?_⟩
  rw [mem6_5]
  obtain ⟨-, -, -, -, -, -, -, -, -, -, e0, e1, e2, -⟩ := idx6 t
  intro a
  match a with
  | ⟨0, _⟩ =>
    show win6_5.index t (0 : Fin 3) * 1 ≤ (i 0).val ∧ (i 0).val < win6_5.index t (0 : Fin 3) * 1 + 1
    omega
  | ⟨1, _⟩ =>
    show win6_5.index t (1 : Fin 3) * 1 ≤ (i 1).val ∧ (i 1).val < win6_5.index t (1 : Fin 3) * 1 + 1
    omega
  | ⟨2, _⟩ =>
    show win6_5.index t (2 : Fin 3) * 128 ≤ (i 2).val ∧ (i 2).val < win6_5.index t (2 : Fin 3) * 128 + 128
    omega

theorem tile6_6 (i : S10x1x128.Idx) :
    ∃ t : Fin cfg6.N, (cfg6.win 6).flush t = true ∧ i ∈ ((cfg6.win 6).blk t).view.set := by
  have hi0 : (i 0).val < 10 := (i 0).isLt
  have hi1 : (i 1).val < 1 := (i 1).isLt
  have hi2 : (i 2).val < 128 := (i 2).isLt
  obtain ⟨t, ht⟩ : ∃ t : Fin cfg6.N, t.val = (i 0).val :=
    ⟨⟨(i 0).val, by show _ < grid6.N; rw [N_6]; omega⟩, rfl⟩
  refine ⟨t, flush6_6 t, ?_⟩
  rw [mem6_6]
  obtain ⟨-, -, -, -, -, -, -, -, -, -, -, -, -, e0, e1, e2⟩ := idx6 t
  intro a
  match a with
  | ⟨0, _⟩ =>
    show win6_6.index t (0 : Fin 3) * 1 ≤ (i 0).val ∧ (i 0).val < win6_6.index t (0 : Fin 3) * 1 + 1
    omega
  | ⟨1, _⟩ =>
    show win6_6.index t (1 : Fin 3) * 1 ≤ (i 1).val ∧ (i 1).val < win6_6.index t (1 : Fin 3) * 1 + 1
    omega
  | ⟨2, _⟩ =>
    show win6_6.index t (2 : Fin 3) * 128 ≤ (i 2).val ∧ (i 2).val < win6_6.index t (2 : Fin 3) * 128 + 128
    omega

/-! ## The three arrays after the region -/

theorem final6_4 : (dat6 V c).arrAt 4 cfg6.N = arr6_4 V c :=
  (dat6 V c).arrAt_eq_of_cover 4 (arr6_4 V c) (fun t _ => flushed6_4 V c t) tile6_4

theorem final6_5 : (dat6 V c).arrAt 5 cfg6.N = arr6_5 V c :=
  (dat6 V c).arrAt_eq_of_cover 5 (arr6_5 V c) (fun t _ => flushed6_5 V c t) tile6_5

theorem final6_6 : (dat6 V c).arrAt 6 cfg6.N = arr6_6 V c :=
  (dat6 V c).arrAt_eq_of_cover 6 (arr6_6 V c) (fun t _ => flushed6_6 V c t) tile6_6

/-- The image window ends holding the first linear map of the sum of the two feature arrays. -/
theorem val6_4 :
    cur2 ((dat6 V c).arrAt 4 cfg6.N : S50000x128.Idx → EReal)
      = Spec.lin (fun r k => cur2 (V c (Pipeline.arrRef spec6 0)) r k + cur2 (V c (Pipeline.arrRef spec6 1)) r k)
          (cur2 (V c (Pipeline.arrRef spec6 2))) (row0 (V c (Pipeline.arrRef spec6 3))) := by
  rw [final6_4]
  rfl

/-- The second output holds, slice by slice, the column sums of that image over the block's rows. -/
theorem val6_5 (t : Fin 10) (k : Fin 128) :
    ((dat6 V c).arrAt 5 cfg6.N : S10x1x128.Idx → EReal) (ValueIdx.ix3 t 0 k)
      = Spec.ksum (Spec.lin (fun r k => cur2 (V c (Pipeline.arrRef spec6 0)) r k + cur2 (V c (Pipeline.arrRef spec6 1)) r k)
          (cur2 (V c (Pipeline.arrRef spec6 2))) (row0 (V c (Pipeline.arrRef spec6 3)))) t k := by
  rw [final6_5]
  rfl

/-- The third holds the column sums of its squares. -/
theorem val6_6 (t : Fin 10) (k : Fin 128) :
    ((dat6 V c).arrAt 6 cfg6.N : S10x1x128.Idx → EReal) (ValueIdx.ix3 t 0 k)
      = Spec.ksq (Spec.lin (fun r k => cur2 (V c (Pipeline.arrRef spec6 0)) r k + cur2 (V c (Pipeline.arrRef spec6 1)) r k)
          (cur2 (V c (Pipeline.arrRef spec6 2))) (row0 (V c (Pipeline.arrRef spec6 3)))) t k := by
  rw [final6_6]
  rfl

end Final

end Cert.KernelIdeal.Hand

end
-- ==== Proof.KI.Val7Pay.lean ====
/-
  What the payloads of the batch-normalisation / rectifier / second-product kernel are at an index, over the
  extended reals: the block of the second affine map is, entry by entry, the sum over the features of the rectified
  normalised pre-activation times the weight, plus the bias; the two statistics rows are the column sums of that
  block and of its squares.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.Hand

open Cert.KernelIdeal Cert.KernelIdeal.Gen Cert.Spec
open Idealize.ShloMosaic Idealize.ShloMosaic.ValueIdx

/-! ## The matrix product's operand indices, coordinate by coordinate -/

theorem mmlrow7 (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
theorem mmlcol7 (j : S5000x128.Idx) (k : dot_S5000x128_S128x128_S5000x128_1_0_0_1_n_n.contr.Idx) :
    (dot_S5000x128_S128x128_S5000x128_1_0_0_1_n_n.lhsIdx j k 1 : ℕ) = k ⟨0, by decide⟩ := by
  simp [DotDims.lhsIdx, dot_S5000x128_S128x128_S5000x128_1_0_0_1_n_n]; rfl
theorem mmrrow7 (j : S5000x128.Idx) (k : dot_S5000x128_S128x128_S5000x128_1_0_0_1_n_n.contr.Idx) :
    (dot_S5000x128_S128x128_S5000x128_1_0_0_1_n_n.rhsIdx j k 0 : ℕ) = k ⟨0, by decide⟩ := by
  simp [DotDims.rhsIdx, dot_S5000x128_S128x128_S5000x128_1_0_0_1_n_n]; rfl
theorem mmrcol7 (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-- The product into the zero block, at row p and column q: the sum over the 128 features. -/
theorem mmat7 (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hl : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact mmlrow7 _ _
      | ⟨1, _⟩ => exact (mmlcol7 _ _).trans (contrEquiv1_symm_val _ 128 rfl rfl k))
  have hr : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (mmrrow7 _ _).trans (contrEquiv1_symm_val _ 128 rfl rfl k)
      | ⟨1, _⟩ => exact mmrcol7 _ _)
  rw [hl, hr]

/-- The sum over the 5000 rows of a block, at column q. -/
theorem rsum7 (src : FVec Ideal S5000x128 .f32) (hφ : FKind.Formats .f32) (hacc : (0x00000000#32 : BitVec 32) = 0x00000000#32)
    (q : Fin 128) :
    multiReduction (F := Ideal) .add [0] S128 src 0x00000000#32 reduces_S5000x128_S128 hφ hacc (ix1 q)
      = ∑ p : Fin 5000, src (ix2 p q) := by
  refine (Ideal.multiReduction_add_single src 0x00000000#32 reduces_S5000x128_S128 hφ hacc (ix1 q)).trans ?_
  refine Finset.sum_congr rfl fun p _ => congrArg src (funext fun ax => Fin.ext ?_)
  match ax with
  | ⟨0, _⟩ => rfl
  | ⟨1, _⟩ => rfl

/-! ## The payloads at an index -/

/-- The block of the second affine map at row p and column q. The inputs are named in the kernel's window order:
    the pre-activations, their mean, their variance, the scale, the shift, the weights, the bias. -/
theorem payz7 (xz : Vec Ideal S5000x128 .f32) (xm xv xg xb : Vec Ideal S1x128 .f32) (xw : Vec Ideal S128x128 .f32)
    (xc : Vec Ideal S1x128 .f32) (p : Fin 5000) (q : Fin 128) :
    k7_pay3 xz xv xm xg xb xw xc (ix2 p q)
      = (∑ k : Fin 128, max ((xz (ix2 p k) - xm (ix2 0 k)) * Ideal.rsqrt (xv (ix2 0 k) + eps) * xg (ix2 0 k) + xb (ix2 0 k)) 0
            * xw (ix2 k q)) + xc (ix2 0 q) := by
  unfold k7_pay3
  refine (congrArg₂ (· + ·) (mmat7 _ _ p q) (broadcastTo_1b_ab_apply _ _ p q)).trans ?_
  simp only [shapeCast_self]
  refine congrArg (· + xc (ix2 0 q)) (Finset.sum_congr rfl fun k _ => ?_)
  simp only [truncf_apply, maximumf_apply, addf_apply, mulf_apply, subf_apply, broadcast_apply, broadcastTo_1b_ab_apply]
  have hzero : (FloatOps.ofBits (F := Ideal) .f32 0x00000000#32) = 0 := Ideal.ofBits_zero_f32
  rw [hzero]
  rfl

/-- The row of column sums the kernel stores: at column q, the sum of the block's entries down the 5000 rows. -/
theorem paysum7 (xz : Vec Ideal S5000x128 .f32) (xm xv xg xb : Vec Ideal S1x128 .f32) (xw : Vec Ideal S128x128 .f32)
    (xc : Vec Ideal S1x128 .f32) (u v : Fin 1) (q : Fin 128) :
    k7_pay1 (k7_pay4 xz xv xm xg xb xw xc) (ix3 u v q) = ∑ p : Fin 5000, k7_pay3 xz xv xm xg xb xw xc (ix2 p q) := by
  unfold k7_pay1 k7_pay4
  refine (shapeCast_ab_1ab_apply _ _ u v q).trans ?_
  refine (shapeCast_a_1a_apply _ _ v q).trans ?_
  exact rsum7 _ _ _ q

/-- The row of column sums of squares: at column q, the sum of the squared entries down the rows. -/
theorem paysq7 (xz : Vec Ideal S5000x128 .f32) (xm xv xg xb : Vec Ideal S1x128 .f32) (xw : Vec Ideal S128x128 .f32)
    (xc : Vec Ideal S1x128 .f32) (u v : Fin 1) (q : Fin 128) :
    k7_pay2 (k7_pay5 xz xv xm xg xb xw xc) (ix3 u v q)
      = ∑ p : Fin 5000, k7_pay3 xz xv xm xg xb xw xc (ix2 p q) * k7_pay3 xz xv xm xg xb xw xc (ix2 p q) := by
  unfold k7_pay2 k7_pay5
  refine (shapeCast_ab_1ab_apply _ _ u v q).trans ?_
  refine (shapeCast_a_1a_apply _ _ v q).trans ?_
  exact rsum7 _ _ _ q

end Cert.KernelIdeal.Hand

end
-- ==== Proof.KI.Val7Blk.lean ====
/-
  Where the blocks of the batch-normalisation / rectifier / second-product kernel sit in their arrays: at grid point t
  the block of pre-activations and the block of results are rows 5000·t … 5000·t + 4999, the per-feature rows and the
  weights are whole arrays, and the two statistics rows are row t of their ten-row arrays; the result blocks cover
  their arrays. Also the layer's second affine map of whole arrays, as one function.
-/
import proofs.«422260_j36421322670663_2_alg».proof.Proof.Gen.KernelIdeal.Launch
import proofs.«422260_j36421322670663_2_alg».proof.Proof.Gen.KernelIdeal.Points
import proofs.«422260_j36421322670663_2_alg».proof.Proof.Spec
import proofs.«422260_j36421322670663_2_alg».proof.Proof.SpecPool
import Idealize.ShloMosaic.Lib.ValueIdx
import Idealize.ShloMosaic.Lib.Pipeline.Value

set_option pp.maxSteps 5000
set_option pp.deepTerms false

noncomputable section

namespace Cert.KernelIdeal.Hand

open Cert.KernelIdeal Cert.KernelIdeal.Gen Cert.Spec
open Idealize.ShloMosaic Idealize.ShloMosaic.ValueIdx Idealize.ShloMosaic.TcCoe

/-- The second affine map of the rectified normalised pre-activations, from whole arrays. -/
def gz7 (az : S50000x128.Idx → EReal) (am av ag ab : S1x128.Idx → EReal) (aw : S128x128.Idx → EReal)
    (ac : S1x128.Idx → EReal) : Mat 50000 128 :=
  Spec.lin (Spec.bnrelu (cur2 az) (row0 am) (row0 av) (row0 ag) (row0 ab)) (cur2 aw) (row0 ac)

/-- A grid point as a block number. -/
def tblk7 (t : Fin cfg7.N) : Fin 10 := Fin.cast N_7 t

theorem tblk7_val (t : Fin cfg7.N) : (tblk7 t).val = t.val := rfl

/-- The block indices at every grid point. -/
theorem blkidx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0
    ∧ win7_8.index t (0 : Fin 3) = t.val ∧ win7_8.index t (1 : Fin 3) = 0 ∧ win7_8.index t (2 : Fin 3) = 0
    ∧ win7_9.index t (0 : Fin 3) = t.val ∧ win7_9.index t (1 : Fin 3) = 0 ∧ win7_9.index t (2 : Fin 3) = 0 :=
  (by decide +kernel : ∀ t : Fin grid7.N, _)

/-! ## Where a block's entry sits in its array -/

theorem embz7 (t : Fin cfg7.N) (p : Fin 5000) (k : Fin 128) :
    ((cfg7.win 0).blk t).view.emb (ix2 p k) = ix2 (brow (tblk7 t) p) k := by
  have e := blkidx7 t
  funext a; apply Fin.ext
  match a with
  | ⟨0, _⟩ => show win7_0.index t (0 : Fin 2) * 5000 + 1 * p.val = t.val * 5000 + p.val; rw [e.1]; omega
  | ⟨1, _⟩ => show win7_0.index t (1 : Fin 2) * 128 + 1 * k.val = k.val; rw [e.2.1]; omega

theorem embm7 (t : Fin cfg7.N) (u : Fin 1) (k : Fin 128) :
    ((cfg7.win 1).blk t).view.emb (ix2 u k) = ix2 0 k := by
  have e := blkidx7 t
  funext a; apply Fin.ext
  match a with
  | ⟨0, _⟩ => show win7_1.index t (0 : Fin 2) * 1 + 1 * u.val = 0; rw [e.2.2.1]; omega
  | ⟨1, _⟩ => show win7_1.index t (1 : Fin 2) * 128 + 1 * k.val = k.val; rw [e.2.2.2.1]; omega

theorem embv7 (t : Fin cfg7.N) (u : Fin 1) (k : Fin 128) :
    ((cfg7.win 2).blk t).view.emb (ix2 u k) = ix2 0 k := by
  have e := blkidx7 t
  funext a; apply Fin.ext
  match a with
  | ⟨0, _⟩ => show win7_2.index t (0 : Fin 2) * 1 + 1 * u.val = 0; rw [e.2.2.2.2.1]; omega
  | ⟨1, _⟩ => show win7_2.index t (1 : Fin 2) * 128 + 1 * k.val = k.val; rw [e.2.2.2.2.2.1]; omega

theorem embg7 (t : Fin cfg7.N) (u : Fin 1) (k : Fin 128) :
    ((cfg7.win 3).blk t).view.emb (ix2 u k) = ix2 0 k := by
  have e := blkidx7 t
  funext a; apply Fin.ext
  match a with
  | ⟨0, _⟩ => show win7_3.index t (0 : Fin 2) * 1 + 1 * u.val = 0; rw [e.2.2.2.2.2.2.1]; omega
  | ⟨1, _⟩ => show win7_3.index t (1 : Fin 2) * 128 + 1 * k.val = k.val; rw [e.2.2.2.2.2.2.2.1]; omega

theorem embb7 (t : Fin cfg7.N) (u : Fin 1) (k : Fin 128) :
    ((cfg7.win 4).blk t).view.emb (ix2 u k) = ix2 0 k := by
  have e := blkidx7 t
  funext a; apply Fin.ext
  match a with
  | ⟨0, _⟩ => show win7_4.index t (0 : Fin 2) * 1 + 1 * u.val = 0; rw [e.2.2.2.2.2.2.2.2.1]; omega
  | ⟨1, _⟩ => show win7_4.index t (1 : Fin 2) * 128 + 1 * k.val = k.val; rw [e.2.2.2.2.2.2.2.2.2.1]; omega

theorem embw7 (t : Fin cfg7.N) (k q : Fin 128) :
    ((cfg7.win 5).blk t).view.emb (ix2 k q) = ix2 k q := by
  have e := blkidx7 t
  funext a; apply Fin.ext
  match a with
  | ⟨0, _⟩ => show win7_5.index t (0 : Fin 2) * 128 + 1 * k.val = k.val; rw [e.2.2.2.2.2.2.2.2.2.2.1]; omega
  | ⟨1, _⟩ => show win7_5.index t (1 : Fin 2) * 128 + 1 * q.val = q.val; rw [e.2.2.2.2.2.2.2.2.2.2.2.1]; omega

theorem embc7 (t : Fin cfg7.N) (u : Fin 1) (k : Fin 128) :
    ((cfg7.win 6).blk t).view.emb (ix2 u k) = ix2 0 k := by
  have e := blkidx7 t
  funext a; apply Fin.ext
  match a with
  | ⟨0, _⟩ => show win7_6.index t (0 : Fin 2) * 1 + 1 * u.val = 0; rw [e.2.2.2.2.2.2.2.2.2.2.2.2.1]; omega
  | ⟨1, _⟩ => show win7_6.index t (1 : Fin 2) * 128 + 1 * k.val = k.val; rw [e.2.2.2.2.2.2.2.2.2.2.2.2.2.1]; omega

theorem embo7_7 (t : Fin cfg7.N) (p : Fin 5000) (q : Fin 128) :
    ((cfg7.win 7).blk t).view.emb (ix2 p q) = ix2 (brow (tblk7 t) p) q := by
  have e := blkidx7 t
  funext a; apply Fin.ext
  match a with
  | ⟨0, _⟩ => show win7_7.index t (0 : Fin 2) * 5000 + 1 * p.val = t.val * 5000 + p.val; rw [e.2.2.2.2.2.2.2.2.2.2.2.2.2.2.1]; omega
  | ⟨1, _⟩ => show win7_7.index t (1 : Fin 2) * 128 + 1 * q.val = q.val; rw [e.2.2.2.2.2.2.2.2.2.2.2.2.2.2.2.1]; omega

theorem embo7_8 (t : Fin cfg7.N) (u v : Fin 1) (q : Fin 128) :
    ((cfg7.win 8).blk t).view.emb (ix3 u v q) = ix3 (tblk7 t) 0 q := by
  obtain ⟨-, -, -, -, -, -, -, -, -, -, -, -, -, -, -, -, e0, e1, e2, -⟩ := blkidx7 t
  funext a; apply Fin.ext
  match a with
  | ⟨0, _⟩ => show win7_8.index t (0 : Fin 3) * 1 + 1 * u.val = t.val; rw [e0]; omega
  | ⟨1, _⟩ => show win7_8.index t (1 : Fin 3) * 1 + 1 * v.val = 0; rw [e1]; omega
  | ⟨2, _⟩ => show win7_8.index t (2 : Fin 3) * 128 + 1 * q.val = q.val; rw [e2]; omega

theorem embo7_9 (t : Fin cfg7.N) (u v : Fin 1) (q : Fin 128) :
    ((cfg7.win 9).blk t).view.emb (ix3 u v q) = ix3 (tblk7 t) 0 q := by
  obtain ⟨-, -, -, -, -, -, -, -, -, -, -, -, -, -, -, -, -, -, -, e0, e1, e2⟩ := blkidx7 t
  funext a; apply Fin.ext
  match a with
  | ⟨0, _⟩ => show win7_9.index t (0 : Fin 3) * 1 + 1 * u.val = t.val; rw [e0]; omega
  | ⟨1, _⟩ => show win7_9.index t (1 : Fin 3) * 1 + 1 * v.val = 0; rw [e1]; omega
  | ⟨2, _⟩ => show win7_9.index t (2 : Fin 3) * 128 + 1 * q.val = q.val; rw [e2]; omega

/-! ## The result blocks cover their arrays -/

/-- Every entry of the array of results lies in the block of the point its row belongs to. -/
theorem cover7_7w (i : S50000x128.Idx) :
    ∃ t : Fin cfg7.N, (cfg7.win 7).flush t = true ∧ i ∈ ((cfg7.win 7).blk t).view.set := by
  have hi0 : (i 0).val < 50000 := (i 0).isLt
  have hi1 : (i 1).val < 128 := (i 1).isLt
  have hN : cfg7.N = 10 := N_7
  let t : Fin cfg7.N := ⟨(i 0).val / 5000, by rw [hN]; omega⟩
  have ht : t.val = (i 0).val / 5000 := rfl
  obtain ⟨-, -, -, -, -, -, -, -, -, -, -, -, -, -, e0, e1, -⟩ := blkidx7 t
  refine ⟨t, flush7_7 t, ?_⟩
  show i ∈ ((View.whole (Pipeline.arrRef spec7 7)).slice (win7_7.rect t)).set
  rw [View.set_slice_whole, Rect.mem_set_unit]
  intro a
  match a with
  | ⟨0, _⟩ => show win7_7.index t (0 : Fin 2) * 5000 ≤ (i 0).val ∧ (i 0).val < win7_7.index t (0 : Fin 2) * 5000 + 5000; rw [e0, ht]; omega
  | ⟨1, _⟩ => show win7_7.index t (1 : Fin 2) * 128 ≤ (i 1).val ∧ (i 1).val < win7_7.index t (1 : Fin 2) * 128 + 128; rw [e1]; omega

/-- Every entry of the ten rows of column sums lies in the block of its row's point. -/
theorem cover7_8w (i : S10x1x128.Idx) :
    ∃ t : Fin cfg7.N, (cfg7.win 8).flush t = true ∧ i ∈ ((cfg7.win 8).blk t).view.set := by
  have hi0 : (i 0).val < 10 := (i 0).isLt
  have hi1 : (i 1).val < 1 := (i 1).isLt
  have hi2 : (i 2).val < 128 := (i 2).isLt
  have hN : cfg7.N = 10 := N_7
  let t : Fin cfg7.N := ⟨(i 0).val, by rw [hN]; omega⟩
  have ht : t.val = (i 0).val := rfl
  obtain ⟨-, -, -, -, -, -, -, -, -, -, -, -, -, -, -, -, e0, e1, e2, -⟩ := blkidx7 t
  refine ⟨t, flush7_8 t, ?_⟩
  show i ∈ ((View.whole (Pipeline.arrRef spec7 8)).slice (win7_8.rect t)).set
  rw [View.set_slice_whole, Rect.mem_set_unit]
  intro a
  match a with
  | ⟨0, _⟩ => show win7_8.index t (0 : Fin 3) * 1 ≤ (i 0).val ∧ (i 0).val < win7_8.index t (0 : Fin 3) * 1 + 1; rw [e0, ht]; omega
  | ⟨1, _⟩ => show win7_8.index t (1 : Fin 3) * 1 ≤ (i 1).val ∧ (i 1).val < win7_8.index t (1 : Fin 3) * 1 + 1; rw [e1]; omega
  | ⟨2, _⟩ => show win7_8.index t (2 : Fin 3) * 128 ≤ (i 2).val ∧ (i 2).val < win7_8.index t (2 : Fin 3) * 128 + 128; rw [e2]; omega

/-- The same for the ten rows of column sums of squares. -/
theorem cover7_9w (i : S10x1x128.Idx) :
    ∃ t : Fin cfg7.N, (cfg7.win 9).flush t = true ∧ i ∈ ((cfg7.win 9).blk t).view.set := by
  have hi0 : (i 0).val < 10 := (i 0).isLt
  have hi1 : (i 1).val < 1 := (i 1).isLt
  have hi2 : (i 2).val < 128 := (i 2).isLt
  have hN : cfg7.N = 10 := N_7
  let t : Fin cfg7.N := ⟨(i 0).val, by rw [hN]; omega⟩
  have ht : t.val = (i 0).val := rfl
  obtain ⟨-, -, -, -, -, -, -, -, -, -, -, -, -, -, -, -, -, -, -, e0, e1, e2⟩ := blkidx7 t
  refine ⟨t, flush7_9 t, ?_⟩
  show i ∈ ((View.whole (Pipeline.arrRef spec7 9)).slice (win7_9.rect t)).set
  rw [View.set_slice_whole, Rect.mem_set_unit]
  intro a
  match a with
  | ⟨0, _⟩ => show win7_9.index t (0 : Fin 3) * 1 ≤ (i 0).val ∧ (i 0).val < win7_9.index t (0 : Fin 3) * 1 + 1; rw [e0, ht]; omega
  | ⟨1, _⟩ => show win7_9.index t (1 : Fin 3) * 1 ≤ (i 1).val ∧ (i 1).val < win7_9.index t (1 : Fin 3) * 1 + 1; rw [e1]; omega
  | ⟨2, _⟩ => show win7_9.index t (2 : Fin 3) * 128 ≤ (i 2).val ∧ (i 2).val < win7_9.index t (2 : Fin 3) * 128 + 128; rw [e2]; omega

end Cert.KernelIdeal.Hand

end
-- ==== Proof.KI.Val7.lean ====
/-
  What the batch-normalisation / rectifier / second-product kernel leaves in its three result arrays, over the extended
  reals: the array of the second affine map is that map of the whole input arrays, and row t of the two statistics
  arrays holds the column sums, and the column sums of squares, of rows 5000·t … 5000·t + 4999 of it.
-/
import proofs.«422260_j36421322670663_2_alg».proof.Proof.KI.Reg7
import proofs.«422260_j36421322670663_2_alg».proof.Proof.KI.Val7Pay
import proofs.«422260_j36421322670663_2_alg».proof.Proof.KI.Val7Blk

set_option pp.maxSteps 5000
set_option pp.deepTerms false

noncomputable section

namespace Cert.KernelIdeal.Hand

open Cert.KernelIdeal Cert.KernelIdeal.Gen Cert.Spec
open Idealize.ShloMosaic Idealize.ShloMosaic.ValueIdx Idealize.ShloMosaic.TcCoe
open Idealize.SL.Sem
open Idealize.ShloMosaic.Pipeline (Dat Cfg Window)

-- the contents of every array when the region is entered
variable (V : (c : Dev nD) → (b : Ref sig .tc) → Buf (Elt Ideal) ((c : Thread nD τ).loc b))

theorem hzz7 : (![0, 0] : Fin 2 → Nat) = fun _ => 0 := funext fun a => by fin_cases a <;> rfl
theorem hzzz7 : (![0, 0, 0] : Fin 3 → Nat) = fun _ => 0 := funext fun a => by fin_cases a <;> rfl

/-- The second affine map of the arrays as the region finds them. -/
abbrev garr7 (c : Dev nD) : Mat 50000 128 :=
  gz7 (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))
    (V c (Pipeline.arrRef spec7 6))

/-! ## One entry of a block's result, from blocks that are parts of arrays -/

/-- If row p of the block of pre-activations is row r of their array and the other blocks are their arrays, the
    block's result at (p, q) is the array's second affine map at (r, q). -/
theorem ptz7 (az : S50000x128.Idx → EReal) (am av ag ab : S1x128.Idx → EReal) (aw : S128x128.Idx → EReal)
    (ac : S1x128.Idx → EReal)
    (xz : Vec Ideal S5000x128 .f32) (xm xv xg xb : Vec Ideal S1x128 .f32) (xw : Vec Ideal S128x128 .f32)
    (xc : Vec Ideal S1x128 .f32) (r : Fin 50000) (p : Fin 5000) (q : Fin 128)
    (hz : ∀ k : Fin 128, xz (ix2 p k) = az (ix2 r k))
    (hm : ∀ k : Fin 128, xm (ix2 0 k) = am (ix2 0 k)) (hv : ∀ k : Fin 128, xv (ix2 0 k) = av (ix2 0 k))
    (hg : ∀ k : Fin 128, xg (ix2 0 k) = ag (ix2 0 k)) (hb : ∀ k : Fin 128, xb (ix2 0 k) = ab (ix2 0 k))
    (hw : ∀ k : Fin 128, xw (ix2 k q) = aw (ix2 k q)) (hc : xc (ix2 0 q) = ac (ix2 0 q)) :
    k7_pay3 xz xv xm xg xb xw xc (ix2 p q) = gz7 az am av ag ab aw ac r q := by
  rw [payz7]
  simp only [gz7, Spec.lin, Spec.bnrelu, cur2, row0, hz, hm, hv, hg, hb, hw, hc]

/-- Each input block read at an entry is its array read where the block sits. -/
theorem iblkz7 (c : Dev nD) (t : Fin cfg7.N) (p : Fin 5000) (k : Fin 128) :
    (iblk7 V c 0 t : Vec Ideal S5000x128 .f32) (ix2 p k)
      = (V c (Pipeline.arrRef spec7 0) : S50000x128.Idx → EReal) (ix2 (brow (tblk7 t) p) k) := by
  show (V c (Pipeline.arrRef spec7 0) : S50000x128.Idx → EReal) (((cfg7.win 0).blk t).view.emb (ix2 p k)) = _
  rw [embz7]
theorem iblkm7 (c : Dev nD) (t : Fin cfg7.N) (k : Fin 128) :
    (iblk7 V c 1 t : Vec Ideal S1x128 .f32) (ix2 0 k) = (V c (Pipeline.arrRef spec7 1) : S1x128.Idx → EReal) (ix2 0 k) := by
  show (V c (Pipeline.arrRef spec7 1) : S1x128.Idx → EReal) (((cfg7.win 1).blk t).view.emb (ix2 0 k)) = _
  rw [embm7]
theorem iblkv7 (c : Dev nD) (t : Fin cfg7.N) (k : Fin 128) :
    (iblk7 V c 2 t : Vec Ideal S1x128 .f32) (ix2 0 k) = (V c (Pipeline.arrRef spec7 2) : S1x128.Idx → EReal) (ix2 0 k) := by
  show (V c (Pipeline.arrRef spec7 2) : S1x128.Idx → EReal) (((cfg7.win 2).blk t).view.emb (ix2 0 k)) = _
  rw [embv7]
theorem iblkg7 (c : Dev nD) (t : Fin cfg7.N) (k : Fin 128) :
    (iblk7 V c 3 t : Vec Ideal S1x128 .f32) (ix2 0 k) = (V c (Pipeline.arrRef spec7 3) : S1x128.Idx → EReal) (ix2 0 k) := by
  show (V c (Pipeline.arrRef spec7 3) : S1x128.Idx → EReal) (((cfg7.win 3).blk t).view.emb (ix2 0 k)) = _
  rw [embg7]
theorem iblkb7 (c : Dev nD) (t : Fin cfg7.N) (k : Fin 128) :
    (iblk7 V c 4 t : Vec Ideal S1x128 .f32) (ix2 0 k) = (V c (Pipeline.arrRef spec7 4) : S1x128.Idx → EReal) (ix2 0 k) := by
  show (V c (Pipeline.arrRef spec7 4) : S1x128.Idx → EReal) (((cfg7.win 4).blk t).view.emb (ix2 0 k)) = _
  rw [embb7]
theorem iblkw7 (c : Dev nD) (t : Fin cfg7.N) (k q : Fin 128) :
    (iblk7 V c 5 t : Vec Ideal S128x128 .f32) (ix2 k q) = (V c (Pipeline.arrRef spec7 5) : S128x128.Idx → EReal) (ix2 k q) := by
  show (V c (Pipeline.arrRef spec7 5) : S128x128.Idx → EReal) (((cfg7.win 5).blk t).view.emb (ix2 k q)) = _
  rw [embw7]
theorem iblkc7 (c : Dev nD) (t : Fin cfg7.N) (k : Fin 128) :
    (iblk7 V c 6 t : Vec Ideal S1x128 .f32) (ix2 0 k) = (V c (Pipeline.arrRef spec7 6) : S1x128.Idx → EReal) (ix2 0 k) := by
  show (V c (Pipeline.arrRef spec7 6) : S1x128.Idx → EReal) (((cfg7.win 6).blk t).view.emb (ix2 0 k)) = _
  rw [embc7]

/-- The result of point t's blocks at (p, q) is the arrays' second affine map at row 5000·t + p. -/
theorem blkpt7 (c : Dev nD) (t : Fin cfg7.N) (p : Fin 5000) (q : Fin 128) :
    k7_pay3 (iblk7 V c 0 t : Vec Ideal S5000x128 .f32) (iblk7 V c 2 t : Vec Ideal S1x128 .f32)
        (iblk7 V c 1 t : Vec Ideal S1x128 .f32) (iblk7 V c 3 t : Vec Ideal S1x128 .f32)
        (iblk7 V c 4 t : Vec Ideal S1x128 .f32) (iblk7 V c 5 t : Vec Ideal S128x128 .f32)
        (iblk7 V c 6 t : Vec Ideal S1x128 .f32) (ix2 p q)
      = garr7 V c (brow (tblk7 t) p) q :=
  ptz7 (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))
    (V c (Pipeline.arrRef spec7 6))
    (iblk7 V c 0 t) (iblk7 V c 1 t) (iblk7 V c 2 t) (iblk7 V c 3 t) (iblk7 V c 4 t) (iblk7 V c 5 t) (iblk7 V c 6 t)
    (brow (tblk7 t) p) p q
    (fun k => iblkz7 V c t p k) (fun k => iblkm7 V c t k) (fun k => iblkv7 V c t k) (fun k => iblkg7 V c t k)
    (fun k => iblkb7 V c t k) (fun k => iblkw7 V c t k q) (iblkc7 V c t q)

/-! ## What each point writes back is its block of one whole-array function -/

theorem flushed7_7 (c : Dev nD) (t : Fin cfg7.N) :
    (dat7 V c).flushed 7 t = ((cfg7.win 7).blk t).view.read (Elt Ideal)
      (fun i : S50000x128.Idx => garr7 V c (i 0) (i 1)) := by
  show (cfg7.win 7).cut (grid7.coords t) ((dat7 V c).after 7 t) = _
  rw [after7_7]
  unfold out7_7
  rw [View.canon_unit_zero hzz7]
  simp only [View.ld_unit_zero (S := S5000x128) hzz7, View.ld_unit_zero (S := S1x128) hzz7,
    View.ld_unit_zero (S := S128x128) hzz7]
  funext j
  obtain ⟨p, q, rfl⟩ : ∃ (p : Fin 5000) (q : Fin 128), j = ix2 p q := ⟨j 0, j 1, eq_ix2 j⟩
  show k7_pay3 (iblk7 V c 0 t : Vec Ideal S5000x128 .f32) (iblk7 V c 2 t : Vec Ideal S1x128 .f32)
        (iblk7 V c 1 t : Vec Ideal S1x128 .f32) (iblk7 V c 3 t : Vec Ideal S1x128 .f32)
        (iblk7 V c 4 t : Vec Ideal S1x128 .f32) (iblk7 V c 5 t : Vec Ideal S128x128 .f32)
        (iblk7 V c 6 t : Vec Ideal S1x128 .f32) (ix2 p q)
      = garr7 V c ((((cfg7.win 7).blk t).view.emb (ix2 p q)) 0) ((((cfg7.win 7).blk t).view.emb (ix2 p q)) 1)
  rw [embo7_7 t p q]
  exact blkpt7 V c t p q

theorem flushed7_8 (c : Dev nD) (t : Fin cfg7.N) :
    (dat7 V c).flushed 8 t = ((cfg7.win 8).blk t).view.read (Elt Ideal)
      (fun i : S10x1x128.Idx => Spec.ksum (garr7 V c) (i 0) (i 2)) := by
  show (cfg7.win 8).cut (grid7.coords t) ((dat7 V c).after 8 t) = _
  rw [after7_8]
  unfold out7_8
  rw [View.canon_unit_zero hzzz7]
  simp only [View.ld_unit_zero (S := S5000x128) hzz7, View.ld_unit_zero (S := S1x128) hzz7,
    View.ld_unit_zero (S := S128x128) hzz7]
  funext j
  obtain ⟨u, v, q, rfl⟩ : ∃ (u v : Fin 1) (q : Fin 128), j = ix3 u v q := ⟨j 0, j 1, j 2, eq_ix3 j⟩
  show k7_pay1 (k7_pay4 (iblk7 V c 0 t : Vec Ideal S5000x128 .f32) (iblk7 V c 2 t : Vec Ideal S1x128 .f32)
        (iblk7 V c 1 t : Vec Ideal S1x128 .f32) (iblk7 V c 3 t : Vec Ideal S1x128 .f32)
        (iblk7 V c 4 t : Vec Ideal S1x128 .f32) (iblk7 V c 5 t : Vec Ideal S128x128 .f32)
        (iblk7 V c 6 t : Vec Ideal S1x128 .f32)) (ix3 u v q)
      = Spec.ksum (garr7 V c) ((((cfg7.win 8).blk t).view.emb (ix3 u v q)) 0) ((((cfg7.win 8).blk t).view.emb (ix3 u v q)) 2)
  rw [embo7_8 t u v q]
  refine (paysum7 _ _ _ _ _ _ _ u v q).trans ?_
  exact Finset.sum_congr rfl fun p _ => blkpt7 V c t p q

theorem flushed7_9 (c : Dev nD) (t : Fin cfg7.N) :
    (dat7 V c).flushed 9 t = ((cfg7.win 9).blk t).view.read (Elt Ideal)
      (fun i : S10x1x128.Idx => Spec.ksq (garr7 V c) (i 0) (i 2)) := by
  show (cfg7.win 9).cut (grid7.coords t) ((dat7 V c).after 9 t) = _
  rw [after7_9]
  unfold out7_9
  rw [View.canon_unit_zero hzzz7]
  simp only [View.ld_unit_zero (S := S5000x128) hzz7, View.ld_unit_zero (S := S1x128) hzz7,
    View.ld_unit_zero (S := S128x128) hzz7]
  funext j
  obtain ⟨u, v, q, rfl⟩ : ∃ (u v : Fin 1) (q : Fin 128), j = ix3 u v q := ⟨j 0, j 1, j 2, eq_ix3 j⟩
  show k7_pay2 (k7_pay5 (iblk7 V c 0 t : Vec Ideal S5000x128 .f32) (iblk7 V c 2 t : Vec Ideal S1x128 .f32)
        (iblk7 V c 1 t : Vec Ideal S1x128 .f32) (iblk7 V c 3 t : Vec Ideal S1x128 .f32)
        (iblk7 V c 4 t : Vec Ideal S1x128 .f32) (iblk7 V c 5 t : Vec Ideal S128x128 .f32)
        (iblk7 V c 6 t : Vec Ideal S1x128 .f32)) (ix3 u v q)
      = Spec.ksq (garr7 V c) ((((cfg7.win 9).blk t).view.emb (ix3 u v q)) 0) ((((cfg7.win 9).blk t).view.emb (ix3 u v q)) 2)
  rw [embo7_9 t u v q]
  refine (paysq7 _ _ _ _ _ _ _ u v q).trans ?_
  exact Finset.sum_congr rfl fun p _ => congrArg₂ (· * ·) (blkpt7 V c t p q) (blkpt7 V c t p q)

/-! ## The arrays after the region -/

theorem arr7_7 (c : Dev nD) :
    ((dat7 V c).arrAt 7 cfg7.N : S50000x128.Idx → EReal) = fun i : S50000x128.Idx => garr7 V c (i 0) (i 1) :=
  (dat7 V c).arrAt_eq_of_cover 7 (fun i : S50000x128.Idx => garr7 V c (i 0) (i 1)) (fun t _ => flushed7_7 V c t) cover7_7w

theorem arr7_8 (c : Dev nD) :
    ((dat7 V c).arrAt 8 cfg7.N : S10x1x128.Idx → EReal) = fun i : S10x1x128.Idx => Spec.ksum (garr7 V c) (i 0) (i 2) :=
  (dat7 V c).arrAt_eq_of_cover 8 (fun i : S10x1x128.Idx => Spec.ksum (garr7 V c) (i 0) (i 2)) (fun t _ => flushed7_8 V c t) cover7_8w

theorem arr7_9 (c : Dev nD) :
    ((dat7 V c).arrAt 9 cfg7.N : S10x1x128.Idx → EReal) = fun i : S10x1x128.Idx => Spec.ksq (garr7 V c) (i 0) (i 2) :=
  (dat7 V c).arrAt_eq_of_cover 9 (fun i : S10x1x128.Idx => Spec.ksq (garr7 V c) (i 0) (i 2)) (fun t _ => flushed7_9 V c t) cover7_9w

/-- The array of the second affine map after the region: that map of the arrays the region found. -/
theorem val7_7 (c : Dev nD) :
    cur2 ((dat7 V c).arrAt 7 cfg7.N : S50000x128.Idx → EReal)
      = Spec.lin (Spec.bnrelu (cur2 (V c (Pipeline.arrRef spec7 0))) (row0 (V c (Pipeline.arrRef spec7 1)))
          (row0 (V c (Pipeline.arrRef spec7 2))) (row0 (V c (Pipeline.arrRef spec7 3)))
          (row0 (V c (Pipeline.arrRef spec7 4)))) (cur2 (V c (Pipeline.arrRef spec7 5)))
          (row0 (V c (Pipeline.arrRef spec7 6))) :=
  funext fun r => funext fun k => congrFun (arr7_7 V c) (ix2 r k)

/-- Row t of the column sums after the region. -/
theorem val7_8 (c : Dev nD) (t : Fin 10) (k : Fin 128) :
    ((dat7 V c).arrAt 8 cfg7.N : S10x1x128.Idx → EReal) (ValueIdx.ix3 t 0 k)
      = Spec.ksum (Spec.lin (Spec.bnrelu (cur2 (V c (Pipeline.arrRef spec7 0))) (row0 (V c (Pipeline.arrRef spec7 1)))
          (row0 (V c (Pipeline.arrRef spec7 2))) (row0 (V c (Pipeline.arrRef spec7 3)))
          (row0 (V c (Pipeline.arrRef spec7 4)))) (cur2 (V c (Pipeline.arrRef spec7 5)))
          (row0 (V c (Pipeline.arrRef spec7 6)))) t k :=
  congrFun (arr7_8 V c) (ix3 t 0 k)

/-- Row t of the column sums of squares after the region. -/
theorem val7_9 (c : Dev nD) (t : Fin 10) (k : Fin 128) :
    ((dat7 V c).arrAt 9 cfg7.N : S10x1x128.Idx → EReal) (ValueIdx.ix3 t 0 k)
      = Spec.ksq (Spec.lin (Spec.bnrelu (cur2 (V c (Pipeline.arrRef spec7 0))) (row0 (V c (Pipeline.arrRef spec7 1)))
          (row0 (V c (Pipeline.arrRef spec7 2))) (row0 (V c (Pipeline.arrRef spec7 3)))
          (row0 (V c (Pipeline.arrRef spec7 4)))) (cur2 (V c (Pipeline.arrRef spec7 5)))
          (row0 (V c (Pipeline.arrRef spec7 6)))) t k :=
  congrFun (arr7_9 V c) (ix3 t 0 k)

end Cert.KernelIdeal.Hand

end
-- ==== Proof.KI.Val8Pay.lean ====
/-
  What the third kernel of a layer computes from its input blocks, read at one coordinate over the extended reals:
  the normalised, scaled, shifted and rectified features, and one block's pooled share as a 0/1-weighted sum of rows.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Spec
open Idealize.ShloMosaic Idealize.ShloMosaic.ValueIdx

/-- The rectified normalisation at row p, column q of a block: the block's entry minus the column's mean, times the
    reciprocal root of the column's variance plus the offset, times the scale, plus the shift, cut at zero. -/
theorem k8_pay1_apply (x0 : Vec Ideal S5000x128 .f32) (xv xm xg xb : Vec Ideal S1x128 .f32) (p : Fin 5000) (q : Fin 128) :
    k8_pay1 x0 xv xm xg xb (ix2 p q)
      = max (((x0 (ix2 p q) - xm (ix2 0 q)) * Ideal.rsqrt (xv (ix2 0 q) + eps)) * xg (ix2 0 q) + xb (ix2 0 q)) 0 := by
  unfold k8_pay1
  simp only [shapeCast_self, maximumf_apply, addf_apply, mulf_apply, subf_apply, broadcastTo_1b_ab_apply, broadcast_apply]
  show max (((x0 (ix2 p q) - xm (ix2 0 q)) * Ideal.rsqrt (xv (ix2 0 q) + eps)) * xg (ix2 0 q) + xb (ix2 0 q))
      (Ideal.ofBits .f32 0x00000000#32) = _
  rw [Ideal.ofBits_zero_f32]

/-- One column spread over many: a [a, 1] array broadcast to [a, b] reads, at (p, c), the column's entry at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word is the g-th counting word (g below 256) exactly when its signed value is g. -/
private theorem word_eq_ofNat_iff (w : BitVec 32) (g : Fin 256) : w = BitVec.ofNat 32 g.val ↔ w.toInt = (g.val : ℤ) := by
  have hg := g.isLt
  have hw := w.isLt
  rw [BitVec.toInt_eq_toNat_cond]
  constructor
  · intro h
    have hn : w.toNat = g.val := by rw [h, BitVec.toNat_ofNat]; omega
    rw [hn]; split <;> omega
  · intro h
    apply BitVec.eq_of_toNat_eq
    rw [BitVec.toNat_ofNat]
    split at h <;> omega

/-- The equality comparison of two words answers the one-bit word 1 exactly when they are equal. -/
private theorem cmpi_eq_one_iff (a b : BitVec 32) : IntOp.cmpi .eq a b = 1#1 ↔ a = b := by
  have hb : ∀ c : Bool, BitVec.ofBool c = 1#1 ↔ c = true := fun c => by cases c <;> decide
  show BitVec.ofBool (a == b) = 1#1 ↔ a = b
  rw [hb, beq_iff_eq]

/-- The comparison bit of a word with the g-th counting word, widened to 32 bits and read as a number, is the
    indicator of "the word's signed value is g". -/
private theorem onehot_word (w : BitVec 32) (g : Fin 256) :
    ((((IntOp.cmpi .eq w (BitVec.ofNat 32 g.val)).setWidth 32).toInt : ℝ) : EReal)
      = if w.toInt = (g.val : ℤ) then (1 : EReal) else 0 := by
  by_cases h : w = BitVec.ofNat 32 g.val
  · have h1 : IntOp.cmpi .eq w (BitVec.ofNat 32 g.val) = 1#1 := (cmpi_eq_one_iff _ _).mpr h
    rw [h1, if_pos ((word_eq_ofNat_iff w g).mp h)]
    have : ((1#1 : BitVec 1).setWidth 32).toInt = 1 := by decide
    rw [this]; simp
  · have h0 : IntOp.cmpi .eq w (BitVec.ofNat 32 g.val) = 0#1 :=
      eq_zero_of_ne_one fun hh => h ((cmpi_eq_one_iff _ _).mp hh)
    rw [h0, if_neg (fun hh => h ((word_eq_ofNat_iff w g).mpr hh))]
    have : ((0#1 : BitVec 1).setWidth 32).toInt = 0 := by decide
    rw [this]; simp

/-- The pooling product read at (g, q): the sum over the block's rows of the two factors. -/
private theorem matmul_pool_apply {φ₁ φ₂ : FTy} (A : FVec Ideal S256x5000 φ₁) (B : FVec Ideal S5000x128 φ₂) (g : Fin 256) (q : Fin 128) :
    matmul dot_S256x5000_S5000x128_S256x128_1_0_0_1_n_n none A B (constant S256x128 .f32 0x00000000#32) (ix2 g q)
      = ∑ p : Fin 5000, A (ix2 g p) * B (ix2 p q) := by
  show FloatOps.matmul _ none A B _ (ix2 g q) = _
  rw [Ideal.matmul_constant_zero_apply,
    ← Equiv.sum_comp (contrEquiv1 dot_S256x5000_S5000x128_S256x128_1_0_0_1_n_n 5000 rfl rfl).symm]
  refine Finset.sum_congr rfl fun p _ => ?_
  have hc := contrEquiv1_symm_val dot_S256x5000_S5000x128_S256x128_1_0_0_1_n_n 5000 rfl rfl p
  have hl : dot_S256x5000_S5000x128_S256x128_1_0_0_1_n_n.lhsIdx (ix2 g q) ((contrEquiv1 _ 5000 rfl rfl).symm p) = ix2 g p := by
    funext ax; apply Fin.ext
    match ax with
    | ⟨0, _⟩ => simp [DotDims.lhsIdx, dot_S256x5000_S5000x128_S256x128_1_0_0_1_n_n]; rfl
    | ⟨1, _⟩ => simp [DotDims.lhsIdx, dot_S256x5000_S5000x128_S256x128_1_0_0_1_n_n]; exact hc
  have hr : dot_S256x5000_S5000x128_S256x128_1_0_0_1_n_n.rhsIdx (ix2 g q) ((contrEquiv1 _ 5000 rfl rfl).symm p) = ix2 p q := by
    funext ax; apply Fin.ext
    match ax with
    | ⟨0, _⟩ => simp [DotDims.rhsIdx, dot_S256x5000_S5000x128_S256x128_1_0_0_1_n_n]; exact hc
    | ⟨1, _⟩ => simp [DotDims.rhsIdx, dot_S256x5000_S5000x128_S256x128_1_0_0_1_n_n]; rfl
  rw [hl, hr]

/-- One block's pooled share at (g, q): the sum over the block's rows p of the indicator "row p's graph number is g"
    times the row's rectified normalised feature. -/
theorem k8_pay2_apply_pay1 (x0 : Vec Ideal S5000x128 .f32) (xv xm xg xb : Vec Ideal S1x128 .f32) (x5 : Vec Ideal S5000x1 .i32)
    (g : Fin 256) (q : Fin 128) :
    k8_pay2 x0 xv xm xg xb x5 (ix3 0 g q)
      = ∑ p : Fin 5000, (if (x5 (ix2 p 0)).toInt = (g.val : ℤ) then (1 : EReal) else 0) * k8_pay1 x0 xv xm xg xb (ix2 p q) := by
  unfold k8_pay2
  refine (shapeCast_ab_1ab_apply _ _ 0 g q).trans ?_
  refine (matmul_pool_apply _ _ g q).trans ?_
  refine Finset.sum_congr rfl fun p _ => ?_
  refine congrArg₂ (· * ·) ?_ rfl
  refine (transpose_ix2_apply _ _ g p).trans ?_
  show ((((IntOp.cmpi .eq (broadcastTo S5000x256 (shapeCast S5000x1 x5 shapeCasts_S5000x1_S5000x1) broadcasts_S5000x1_S5000x256 (ix2 p g))
      (iota .tc S5000x256 32 [1] iota_S5000x256_d1_w32 (ix2 p g))).setWidth 32).toInt : ℝ) : EReal) = _
  rw [broadcastTo_a1_ab_apply, iota_single_apply, shapeCast_self]
  exact onehot_word _ g

theorem k8_pay2_apply (x0 : Vec Ideal S5000x128 .f32) (xv xm xg xb : Vec Ideal S1x128 .f32) (x5 : Vec Ideal S5000x1 .i32)
    (g : Fin 256) (q : Fin 128) :
    k8_pay2 x0 xv xm xg xb x5 (ix3 0 g q)
      = ∑ p : Fin 5000, (if (x5 (ix2 p 0)).toInt = (g.val : ℤ) then (1 : EReal) else 0)
          * max (((x0 (ix2 p q) - xm (ix2 0 q)) * Ideal.rsqrt (xv (ix2 0 q) + eps)) * xg (ix2 0 q) + xb (ix2 0 q)) 0 := by
  rw [k8_pay2_apply_pay1]
  exact Finset.sum_congr rfl fun p _ => by rw [k8_pay1_apply]

end Cert.KernelIdeal.Hand

end
-- ==== Proof.KI.Val8.lean ====
/-
  What the third kernel of a layer leaves in its two output arrays. Block by block it writes the rectified
  normalisation of the input rows, and per block the sums of those rows weighted by the 0/1 indicator of each graph
  number; the blocks tile the arrays, so each output array is one function of the input arrays.
-/
import proofs.«422260_j36421322670663_2_alg».proof.Proof.KI.Reg8
import proofs.«422260_j36421322670663_2_alg».proof.Proof.KI.Val8Pay
import proofs.«422260_j36421322670663_2_alg».proof.Proof.Spec
import proofs.«422260_j36421322670663_2_alg».proof.Proof.SpecPool
import Idealize.ShloMosaic.Lib.ValueIdx
import Idealize.ShloMosaic.Lib.Pipeline.Value

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The arrays the launch finds, and the arrays it leaves, as functions -/

/-- The launch's six input arrays at their literal shapes: the features, the column means, the column variances, the
    scale, the shift, and the rows' graph numbers. -/
def inp8_0 (c : Dev nD) : S50000x128.Idx → EReal := V c (Pipeline.arrRef spec8 0)
def inp8_1 (c : Dev nD) : S1x128.Idx → EReal := V c (Pipeline.arrRef spec8 1)
def inp8_2 (c : Dev nD) : S1x128.Idx → EReal := V c (Pipeline.arrRef spec8 2)
def inp8_3 (c : Dev nD) : S1x128.Idx → EReal := V c (Pipeline.arrRef spec8 3)
def inp8_4 (c : Dev nD) : S1x128.Idx → EReal := V c (Pipeline.arrRef spec8 4)
def inp8_5 (c : Dev nD) : S50000x1.Idx → BitVec 32 := V c (Pipeline.arrRef spec8 5)

/-- The rectified normalisation of the whole feature array. -/
def feat8 (c : Dev nD) : Mat 50000 128 :=
  Spec.bnrelu (cur2 (inp8_0 V c)) (row0 (inp8_1 V c)) (row0 (inp8_2 V c)) (row0 (inp8_3 V c)) (row0 (inp8_4 V c))

/-- The first output array: that matrix, index by index. -/
def arr8_6 (c : Dev nD) : S50000x128.Idx → EReal := fun i => feat8 V c (i 0) (i 1)

/-- The second output array: slab t is block t's pooled share of that matrix. -/
def arr8_7 (c : Dev nD) : S10x256x128.Idx → EReal :=
  fun i => Spec.poolKpart (fun r => inp8_5 V c (ix2 r 0)) (feat8 V c) (i 0) (i 1) (i 2)

/-- A grid point as a block number. -/
def blkOf8 (t : Fin cfg8.N) : Fin 10 := ⟨t.val, lt_of_lt_of_eq t.isLt N_8⟩

private theorem zeroPair : (![0, 0] : Fin 2 → Nat) = fun _ => 0 := funext fun a => by fin_cases a <;> rfl
private theorem zeroTriple : (![0, 0, 0] : Fin 3 → Nat) = fun _ => 0 := funext fun a => by fin_cases a <;> rfl

/-- The six input windows' blocks at a grid point, at their literal shapes. -/
def blk8_0 (c : Dev nD) (t : Fin cfg8.N) : Vec Ideal S5000x128 .f32 := iblk8 V c 0 t
def blk8_1 (c : Dev nD) (t : Fin cfg8.N) : Vec Ideal S1x128 .f32 := iblk8 V c 1 t
def blk8_2 (c : Dev nD) (t : Fin cfg8.N) : Vec Ideal S1x128 .f32 := iblk8 V c 2 t
def blk8_3 (c : Dev nD) (t : Fin cfg8.N) : Vec Ideal S1x128 .f32 := iblk8 V c 3 t
def blk8_4 (c : Dev nD) (t : Fin cfg8.N) : Vec Ideal S1x128 .f32 := iblk8 V c 4 t
def blk8_5 (c : Dev nD) (t : Fin cfg8.N) : Vec Ideal S5000x1 .i32 := iblk8 V c 5 t

/-! ## Where each window's block lies -/

/-- The block index of every window at every grid point: the row-blocked windows move with the point along the rows,
    the four parameter rows stay, the pooled output moves along its slabs. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0
    ∧ win8_7.index t (0 : Fin 3) = t.val ∧ win8_7.index t (1 : Fin 3) = 0 ∧ win8_7.index t (2 : Fin 3) = 0 :=
  (by decide +kernel : ∀ t : Fin grid8.N, _)

/-- The feature window's block at point t, at (p, q), is the feature array at row t · 5000 + p, column q. -/
theorem blk8_0_apply (c : Dev nD) (t : Fin cfg8.N) (p : Fin 5000) (q : Fin 128) (r : Fin 50000)
    (hr : r.val = t.val * 5000 + p.val) :
    blk8_0 V c t (ix2 p q) = inp8_0 V c (ix2 r q) := by
  obtain ⟨e0, e1, -⟩ := idx_facts8 t
  unfold blk8_0 iblk8 inp8_0
  rw [View.read_apply]
  show V c (Pipeline.arrRef spec8 0) _ = V c (Pipeline.arrRef spec8 0) _
  congr 1
  funext a; apply Fin.ext
  match a with
  | ⟨0, _⟩ => show win8_0.index t (0 : Fin 2) * 5000 + 1 * p.val = r.val; rw [e0, hr]; omega
  | ⟨1, _⟩ => show win8_0.index t (1 : Fin 2) * 128 + 1 * q.val = q.val; rw [e1]; omega

/-- A parameter row's block is the row itself, at every point: the means, -/
theorem blk8_1_apply (c : Dev nD) (t : Fin cfg8.N) (q : Fin 128) :
    blk8_1 V c t (ix2 0 q) = inp8_1 V c (ix2 0 q) := by
  obtain ⟨-, -, e0, e1, -⟩ := idx_facts8 t
  unfold blk8_1 iblk8 inp8_1
  rw [View.read_apply]
  show V c (Pipeline.arrRef spec8 1) _ = V c (Pipeline.arrRef spec8 1) _
  congr 1
  funext a; apply Fin.ext
  match a with
  | ⟨0, _⟩ => show win8_1.index t (0 : Fin 2) * 1 + 1 * 0 = 0; rw [e0]
  | ⟨1, _⟩ => show win8_1.index t (1 : Fin 2) * 128 + 1 * q.val = q.val; rw [e1]; omega

/-- the variances, -/
theorem blk8_2_apply (c : Dev nD) (t : Fin cfg8.N) (q : Fin 128) :
    blk8_2 V c t (ix2 0 q) = inp8_2 V c (ix2 0 q) := by
  obtain ⟨-, -, -, -, e0, e1, -⟩ := idx_facts8 t
  unfold blk8_2 iblk8 inp8_2
  rw [View.read_apply]
  show V c (Pipeline.arrRef spec8 2) _ = V c (Pipeline.arrRef spec8 2) _
  congr 1
  funext a; apply Fin.ext
  match a with
  | ⟨0, _⟩ => show win8_2.index t (0 : Fin 2) * 1 + 1 * 0 = 0; rw [e0]
  | ⟨1, _⟩ => show win8_2.index t (1 : Fin 2) * 128 + 1 * q.val = q.val; rw [e1]; omega

/-- the scale, -/
theorem blk8_3_apply (c : Dev nD) (t : Fin cfg8.N) (q : Fin 128) :
    blk8_3 V c t (ix2 0 q) = inp8_3 V c (ix2 0 q) := by
  obtain ⟨-, -, -, -, -, -, e0, e1, -⟩ := idx_facts8 t
  unfold blk8_3 iblk8 inp8_3
  rw [View.read_apply]
  show V c (Pipeline.arrRef spec8 3) _ = V c (Pipeline.arrRef spec8 3) _
  congr 1
  funext a; apply Fin.ext
  match a with
  | ⟨0, _⟩ => show win8_3.index t (0 : Fin 2) * 1 + 1 * 0 = 0; rw [e0]
  | ⟨1, _⟩ => show win8_3.index t (1 : Fin 2) * 128 + 1 * q.val = q.val; rw [e1]; omega

/-- the shift. -/
theorem blk8_4_apply (c : Dev nD) (t : Fin cfg8.N) (q : Fin 128) :
    blk8_4 V c t (ix2 0 q) = inp8_4 V c (ix2 0 q) := by
  obtain ⟨-, -, -, -, -, -, -, -, e0, e1, -⟩ := idx_facts8 t
  unfold blk8_4 iblk8 inp8_4
  rw [View.read_apply]
  show V c (Pipeline.arrRef spec8 4) _ = V c (Pipeline.arrRef spec8 4) _
  congr 1
  funext a; apply Fin.ext
  match a with
  | ⟨0, _⟩ => show win8_4.index t (0 : Fin 2) * 1 + 1 * 0 = 0; rw [e0]
  | ⟨1, _⟩ => show win8_4.index t (1 : Fin 2) * 128 + 1 * q.val = q.val; rw [e1]; omega

/-- The graph-number window's block at point t, at row p, is the graph number of row t · 5000 + p. -/
theorem blk8_5_apply (c : Dev nD) (t : Fin cfg8.N) (p : Fin 5000) (r : Fin 50000) (hr : r.val = t.val * 5000 + p.val) :
    blk8_5 V c t (ix2 p 0) = inp8_5 V c (ix2 r 0) := by
  obtain ⟨-, -, -, -, -, -, -, -, -, -, e0, e1, -⟩ := idx_facts8 t
  unfold blk8_5 iblk8 inp8_5
  rw [View.read_apply]
  show V c (Pipeline.arrRef spec8 5) _ = V c (Pipeline.arrRef spec8 5) _
  congr 1
  funext a; apply Fin.ext
  match a with
  | ⟨0, _⟩ => show win8_5.index t (0 : Fin 2) * 5000 + 1 * p.val = r.val; rw [e0, hr]; omega
  | ⟨1, _⟩ => show win8_5.index t (1 : Fin 2) * 1 + 1 * 0 = 0; rw [e1]

/-- The rectified normalisation computed from the blocks at point t, at (p, q), is that of the whole array at row
    t · 5000 + p, column q. -/
theorem feat8_row (c : Dev nD) (t : Fin cfg8.N) (p : Fin 5000) (q : Fin 128) (r : Fin 50000) (hr : r.val = t.val * 5000 + p.val) :
    max (((blk8_0 V c t (ix2 p q) - blk8_1 V c t (ix2 0 q)) * Ideal.rsqrt (blk8_2 V c t (ix2 0 q) + eps))
        * blk8_3 V c t (ix2 0 q) + blk8_4 V c t (ix2 0 q)) 0 = feat8 V c r q := by
  rw [blk8_0_apply V c t p q r hr, blk8_1_apply V c t q, blk8_2_apply V c t q, blk8_3_apply V c t q, blk8_4_apply V c t q]
  rfl

/-! ## The first output: the rectified normalised features -/

/-- What point t writes back is block t of the whole normalised array. -/
theorem flushed8_6 (c : Dev nD) (t : Fin cfg8.N) :
    (dat8 V c).flushed 6 t = ((cfg8.win 6).blk t).view.read (Elt Ideal) (arr8_6 V c) := by
  show (cfg8.win 6).cut (grid8.coords t) ((dat8 V c).after 6 t) = _
  rw [after8_6]
  unfold out8_6
  rw [View.canon_unit_zero zeroPair]
  simp only [View.ld_unit_zero (S := S5000x128) zeroPair, View.ld_unit_zero (S := S1x128) zeroPair]
  obtain ⟨-, -, -, -, -, -, -, -, -, -, -, -, e0, e1, -⟩ := idx_facts8 t
  funext j
  obtain ⟨p, q, rfl⟩ : ∃ (p : Fin 5000) (q : Fin 128), j = ix2 p q := ⟨j 0, j 1, eq_ix2 j⟩
  show k8_pay1 (blk8_0 V c t) (blk8_2 V c t) (blk8_1 V c t) (blk8_3 V c t) (blk8_4 V c t) (ix2 p q)
      = arr8_6 V c (((cfg8.win 6).blk t).view.emb (ix2 p q))
  have h0 : (((cfg8.win 6).blk t).view.emb (ix2 p q)) (0 : Fin 2) = brow (blkOf8 t) p :=
    Fin.ext (by show win8_6.index t (0 : Fin 2) * 5000 + 1 * p.val = t.val * 5000 + p.val; rw [e0]; omega)
  have h1 : (((cfg8.win 6).blk t).view.emb (ix2 p q)) (1 : Fin 2) = q :=
    Fin.ext (by show win8_6.index t (1 : Fin 2) * 128 + 1 * q.val = q.val; rw [e1]; omega)
  refine (k8_pay1_apply _ _ _ _ _ p q).trans ?_
  refine (feat8_row V c t p q (brow (blkOf8 t) p) rfl).trans ?_
  exact (congr (congrArg (feat8 V c) h0) h1).symm

/-- An index lies in point t's block exactly when each coordinate is in the block's range. -/
theorem mem_blk8_6 (t : Fin cfg8.N) (i : S50000x128.Idx) :
    i ∈ ((cfg8.win 6).blk t).view.set ↔ ∀ a : Fin 2, win8_6.index t a * S5000x128.size a ≤ (i a).val
      ∧ (i a).val < win8_6.index t a * S5000x128.size a + S5000x128.size a := by
  show i ∈ ((View.whole (Pipeline.arrRef spec8 6)).slice (win8_6.rect t)).set ↔ _
  rw [View.set_slice_whole, Rect.mem_set_unit]
  exact Iff.rfl

/-- The ten blocks tile the array: row r lies in block r / 5000. -/
theorem tiles8_6 (i : S50000x128.Idx) :
    ∃ t : Fin cfg8.N, (cfg8.win 6).flush t = true ∧ i ∈ ((cfg8.win 6).blk t).view.set := by
  have hi0 : (i 0).val < 50000 := (i 0).isLt
  have hi1 : (i 1).val < 128 := (i 1).isLt
  have hN : cfg8.N = 10 := N_8
  obtain ⟨t, ht⟩ : ∃ t : Fin cfg8.N, t.val = (i 0).val / 5000 := ⟨⟨(i 0).val / 5000, by rw [hN]; omega⟩, rfl⟩
  obtain ⟨-, -, -, -, -, -, -, -, -, -, -, -, e0, e1, -⟩ := idx_facts8 t
  refine ⟨t, flush8_6 t, ?_⟩
  rw [mem_blk8_6]
  intro a
  match a with
  | ⟨0, _⟩ =>
    show win8_6.index t (0 : Fin 2) * 5000 ≤ (i 0).val ∧ (i 0).val < win8_6.index t (0 : Fin 2) * 5000 + 5000
    rw [e0, ht]; omega
  | ⟨1, _⟩ =>
    show win8_6.index t (1 : Fin 2) * 128 ≤ (i 1).val ∧ (i 1).val < win8_6.index t (1 : Fin 2) * 128 + 128
    rw [e1]; omega

/-- So the first output array ends as the whole normalised array. -/
theorem final8_6 (c : Dev nD) : (dat8 V c).arrAt 6 cfg8.N = arr8_6 V c :=
  (dat8 V c).arrAt_eq_of_cover 6 (arr8_6 V c) (fun t _ => flushed8_6 V c t) tiles8_6

/-- The first output array, by coordinates: the rectified normalisation of the input features with the given
    moments, scale and shift. -/
theorem val8_6 (c : Dev nD) :
    cur2 ((dat8 V c).arrAt 6 cfg8.N : S50000x128.Idx → EReal)
      = Spec.bnrelu (cur2 (V c (Pipeline.arrRef spec8 0) : S50000x128.Idx → EReal))
          (row0 (V c (Pipeline.arrRef spec8 1) : S1x128.Idx → EReal)) (row0 (V c (Pipeline.arrRef spec8 2) : S1x128.Idx → EReal))
          (row0 (V c (Pipeline.arrRef spec8 3) : S1x128.Idx → EReal)) (row0 (V c (Pipeline.arrRef spec8 4) : S1x128.Idx → EReal)) := by
  rw [final8_6]
  rfl

/-! ## The second output: the blocks' pooled shares -/

/-- What point t writes back is slab t of the array of pooled shares. -/
theorem flushed8_7 (c : Dev nD) (t : Fin cfg8.N) :
    (dat8 V c).flushed 7 t = ((cfg8.win 7).blk t).view.read (Elt Ideal) (arr8_7 V c) := by
  show (cfg8.win 7).cut (grid8.coords t) ((dat8 V c).after 7 t) = _
  rw [after8_7]
  unfold out8_7
  rw [View.canon_unit_zero zeroTriple]
  simp only [View.ld_unit_zero (S := S5000x128) zeroPair, View.ld_unit_zero (S := S1x128) zeroPair,
    View.ld_unit_zero (S := S5000x1) zeroPair]
  obtain ⟨-, -, -, -, -, -, -, -, -, -, -, -, -, -, e0, e1, e2⟩ := idx_facts8 t
  funext j
  obtain ⟨u, g, q, rfl⟩ : ∃ (u : Fin 1) (g : Fin 256) (q : Fin 128), j = ix3 u g q := ⟨j 0, j 1, j 2, eq_ix3 j⟩
  obtain rfl : u = 0 := Subsingleton.elim _ _
  show k8_pay2 (blk8_0 V c t) (blk8_2 V c t) (blk8_1 V c t) (blk8_3 V c t) (blk8_4 V c t) (blk8_5 V c t) (ix3 0 g q)
      = arr8_7 V c (((cfg8.win 7).blk t).view.emb (ix3 0 g q))
  have h0 : (((cfg8.win 7).blk t).view.emb (ix3 0 g q)) (0 : Fin 3) = blkOf8 t :=
    Fin.ext (by show win8_7.index t (0 : Fin 3) * 1 + 1 * 0 = t.val; rw [e0]; omega)
  have h1 : (((cfg8.win 7).blk t).view.emb (ix3 0 g q)) (1 : Fin 3) = g :=
    Fin.ext (by show win8_7.index t (1 : Fin 3) * 256 + 1 * g.val = g.val; rw [e1]; omega)
  have h2 : (((cfg8.win 7).blk t).view.emb (ix3 0 g q)) (2 : Fin 3) = q :=
    Fin.ext (by show win8_7.index t (2 : Fin 3) * 128 + 1 * q.val = q.val; rw [e2]; omega)
  have hR : arr8_7 V c (((cfg8.win 7).blk t).view.emb (ix3 0 g q))
      = Spec.poolKpart (fun r => inp8_5 V c (ix2 r 0)) (feat8 V c) (blkOf8 t) g q :=
    congr (congr (congrArg (Spec.poolKpart (fun r => inp8_5 V c (ix2 r 0)) (feat8 V c)) h0) h1) h2
  refine (k8_pay2_apply _ _ _ _ _ _ g q).trans ?_
  refine Eq.trans ?_ hR.symm
  show _ = ∑ y : Fin 5000, (if (inp8_5 V c (ix2 (brow (blkOf8 t) y) 0)).toInt = (g.val : ℤ) then (1 : EReal) else 0)
      * feat8 V c (brow (blkOf8 t) y) q
  refine Finset.sum_congr rfl fun p _ => ?_
  exact congrArg₂ (· * ·)
    (congrArg (fun w : BitVec 32 => if w.toInt = (g.val : ℤ) then (1 : EReal) else 0) (blk8_5_apply V c t p (brow (blkOf8 t) p) rfl))
    (feat8_row V c t p q (brow (blkOf8 t) p) rfl)

/-- An index lies in point t's slab exactly when each coordinate is in the slab's range. -/
theorem mem_blk8_7 (t : Fin cfg8.N) (i : S10x256x128.Idx) :
    i ∈ ((cfg8.win 7).blk t).view.set ↔ ∀ a : Fin 3, win8_7.index t a * S1x256x128.size a ≤ (i a).val
      ∧ (i a).val < win8_7.index t a * S1x256x128.size a + S1x256x128.size a := by
  show i ∈ ((View.whole (Pipeline.arrRef spec8 7)).slice (win8_7.rect t)).set ↔ _
  rw [View.set_slice_whole, Rect.mem_set_unit]
  exact Iff.rfl

/-- The ten slabs tile the array: slab number s is point s's. -/
theorem tiles8_7 (i : S10x256x128.Idx) :
    ∃ t : Fin cfg8.N, (cfg8.win 7).flush t = true ∧ i ∈ ((cfg8.win 7).blk t).view.set := by
  have hi0 : (i 0).val < 10 := (i 0).isLt
  have hi1 : (i 1).val < 256 := (i 1).isLt
  have hi2 : (i 2).val < 128 := (i 2).isLt
  have hN : cfg8.N = 10 := N_8
  obtain ⟨t, ht⟩ : ∃ t : Fin cfg8.N, t.val = (i 0).val := ⟨⟨(i 0).val, by rw [hN]; omega⟩, rfl⟩
  obtain ⟨-, -, -, -, -, -, -, -, -, -, -, -, -, -, e0, e1, e2⟩ := idx_facts8 t
  refine ⟨t, flush8_7 t, ?_⟩
  rw [mem_blk8_7]
  intro a
  match a with
  | ⟨0, _⟩ =>
    show win8_7.index t (0 : Fin 3) * 1 ≤ (i 0).val ∧ (i 0).val < win8_7.index t (0 : Fin 3) * 1 + 1
    rw [e0, ht]; omega
  | ⟨1, _⟩ =>
    show win8_7.index t (1 : Fin 3) * 256 ≤ (i 1).val ∧ (i 1).val < win8_7.index t (1 : Fin 3) * 256 + 256
    rw [e1]; omega
  | ⟨2, _⟩ =>
    show win8_7.index t (2 : Fin 3) * 128 ≤ (i 2).val ∧ (i 2).val < win8_7.index t (2 : Fin 3) * 128 + 128
    rw [e2]; omega

/-- So the second output array ends as the array of pooled shares. -/
theorem final8_7 (c : Dev nD) : (dat8 V c).arrAt 7 cfg8.N = arr8_7 V c :=
  (dat8 V c).arrAt_eq_of_cover 7 (arr8_7 V c) (fun t _ => flushed8_7 V c t) tiles8_7

/-- The second output array at (t, g, k): block t's share of the pooling of the rectified normalised features by the
    rows' graph numbers. -/
theorem val8_7 (c : Dev nD) (t : Fin 10) (g : Fin 256) (k : Fin 128) :
    ((dat8 V c).arrAt 7 cfg8.N : S10x256x128.Idx → EReal) (ix3 t g k)
      = Spec.poolKpart (fun r => (V c (Pipeline.arrRef spec8 5) : S50000x1.Idx → BitVec 32) (ix2 r 0))
          (Spec.bnrelu (cur2 (V c (Pipeline.arrRef spec8 0) : S50000x128.Idx → EReal))
            (row0 (V c (Pipeline.arrRef spec8 1) : S1x128.Idx → EReal)) (row0 (V c (Pipeline.arrRef spec8 2) : S1x128.Idx → EReal))
            (row0 (V c (Pipeline.arrRef spec8 3) : S1x128.Idx → EReal)) (row0 (V c (Pipeline.arrRef spec8 4) : S1x128.Idx → EReal)))
          t g k := by
  rw [final8_7]
  rfl

end Cert.KernelIdeal.Hand

end
-- ==== Proof.KI.Host7.lean ====
/-
  The host stretch after a layer's first kernel: the mean and the variance of the first linear map's output
  from its per-block column sums and sums of squares, and the second bias laid out as a row.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The mean: the block sums added up and divided by the node count. -/
theorem host7_mean (Z : Mat 50000 128)
    (hs : ∀ t k, (W main_v148_1 : S10x1x128.Idx → EReal) (ix3 t 0 k) = ksum Z t k) :
    row0 (StableHlo.after hostOps7 W main_v151 : S1x128.Idx → EReal) = kmean Z := by
  have e : (StableHlo.after hostOps7 W main_v151 : S1x128.Idx → EReal)
      = blockDiv (W main_v148_1) reducesTo_S10x1x128_S1x128_d0 h_S_ bcast_S_S1x128 := by
    after_results
  rw [e]
  exact blockDiv_kmean _ _ _ _ Z hs

/-- The variance: the mean of the squares minus the squared mean, cut at zero. -/
theorem host7_var (Z : Mat 50000 128)
    (hs : ∀ t k, (W main_v148_1 : S10x1x128.Idx → EReal) (ix3 t 0 k) = ksum Z t k)
    (hq : ∀ t k, (W main_v148_2 : S10x1x128.Idx → EReal) (ix3 t 0 k) = ksq Z t k) :
    row0 (StableHlo.after hostOps7 W main_v158 : S1x128.Idx → EReal) = kvar Z := by
  have e : (StableHlo.after hostOps7 W main_v158 : S1x128.Idx → EReal)
      = blockVar (W main_v148_1) (W main_v148_2) reducesTo_S10x1x128_S1x128_d0 h_S_ bcast_S_S1x128 := by
    after_results
  rw [e]
  exact blockVar_kvar _ _ _ _ _ Z hs hq

/-- The second bias as a row. -/
theorem host7_bias :
    row0 (StableHlo.after hostOps7 W main_v159 : S1x128.Idx → EReal) = cur1 (W main_v140 : S128.Idx → EReal) := by
  have e : (StableHlo.after hostOps7 W main_v159 : S1x128.Idx → EReal)
      = shapeCast S1x128 (W main_v140 : S128.Idx → EReal) shapeCasts_S128_S1x128 := by
    after_results
    rfl
  rw [e]
  exact row0_shapeCast _ _

end Cert.KernelIdeal.Hand

end
-- ==== Proof.KI.Host8.lean ====
/-
  The host stretch after a layer's second kernel: the mean and the variance of the second linear map's output
  from its per-block column sums and sums of squares.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The mean: the block sums added up and divided by the node count. -/
theorem host8_mean (Z : Mat 50000 128)
    (hs : ∀ t k, (W main_v160_1 : S10x1x128.Idx → EReal) (ix3 t 0 k) = ksum Z t k) :
    row0 (StableHlo.after hostOps8 W main_v163 : S1x128.Idx → EReal) = kmean Z := by
  have e : (StableHlo.after hostOps8 W main_v163 : S1x128.Idx → EReal)
      = blockDiv (W main_v160_1) reducesTo_S10x1x128_S1x128_d0 h_S_ bcast_S_S1x128 := by
    after_results
  rw [e]
  exact blockDiv_kmean _ _ _ _ Z hs

/-- The variance: the mean of the squares minus the squared mean, cut at zero. -/
theorem host8_var (Z : Mat 50000 128)
    (hs : ∀ t k, (W main_v160_1 : S10x1x128.Idx → EReal) (ix3 t 0 k) = ksum Z t k)
    (hq : ∀ t k, (W main_v160_2 : S10x1x128.Idx → EReal) (ix3 t 0 k) = ksq Z t k) :
    row0 (StableHlo.after hostOps8 W main_v170 : S1x128.Idx → EReal) = kvar Z := by
  have e : (StableHlo.after hostOps8 W main_v170 : S1x128.Idx → EReal)
      = blockVar (W main_v160_1) (W main_v160_2) reducesTo_S10x1x128_S1x128_d0 h_S_ bcast_S_S1x128 := by
    after_results
  rw [e]
  exact blockVar_kvar _ _ _ _ _ Z hs hq

end Cert.KernelIdeal.Hand

end
-- ==== Proof.KI.Layer2.lean ====
/-
  One layer of the network as the kernel program computes it, over the extended reals. The layer is entered with
  an array of node features. The host stretch before its first kernel takes their neighbourhood sums and the layer's
  slice of every weight stack; the first kernel leaves the first affine map of features plus sums, with each row
  block's column sums and column sums of squares; the next host stretch turns those into the mean and the
  variance; the second kernel normalises, rectifies and applies the second affine map, again with block sums; the
  stretch after it takes that map's mean and variance; the third kernel normalises and rectifies once more, which
  gives the layer's features, and leaves each row block's share of their sum by graph. Each step is read off the
  step before it, so the features the layer hands on are the layer's mathematics applied to the features it was
  given, and the shares are the shares of their sum by graph.
-/
import proofs.«422260_j36421322670663_2_alg».proof.Proof.KI.Chain
import proofs.«422260_j36421322670663_2_alg».proof.Proof.KI.NetDefs
import proofs.«422260_j36421322670663_2_alg».proof.Proof.KI.Base
import proofs.«422260_j36421322670663_2_alg».proof.Proof.KI.Val6
import proofs.«422260_j36421322670663_2_alg».proof.Proof.KI.Val7
import proofs.«422260_j36421322670663_2_alg».proof.Proof.KI.Val8
import proofs.«422260_j36421322670663_2_alg».proof.Proof.KI.Host6
import proofs.«422260_j36421322670663_2_alg».proof.Proof.KI.Host7
import proofs.«422260_j36421322670663_2_alg».proof.Proof.KI.Host8

-- deciding that a reference is none of the several dozen a host stretch writes recurses once per reference
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- The layer's place in the weight stacks. -/
abbrev lyr2 : Fin 5 := 2

/-! ## What the layer leaves alone -/

/-- An array none of the layer's three kernels and neither host stretch between them writes is the same after the
    layer's last kernel as when its first kernel was entered. -/
theorem layer2_thru (c : Dev nD) (r : Ref sig .tc)
    (h8 : r ∉ ([main_v148_0, main_v148_1, main_v148_2] : List (Ref sig .tc))) (h9 : r ∉ GenP.hostOps7_W)
    (h10 : r ∉ ([main_v160_0, main_v160_1, main_v160_2] : List (Ref sig .tc))) (h11 : r ∉ GenP.hostOps8_W)
    (h12 : r ∉ ([main_v171_0, main_v171_1] : List (Ref sig .tc))) :
    Vout8 m c r = Vin6 m c r :=
  (GenP.V18_of m (outs m) c r h12).trans <| (GenP.V17_of m (outs m) c r h11).trans <|
    (GenP.V16_of m (outs m) c r h10).trans <| (GenP.V15_of m (outs m) c r h9).trans (GenP.V14_of m (outs m) c r h8)

/-- The same from the previous layer's last kernel, for an array the host stretch before the layer's first kernel
    does not write either. -/
theorem ly8_keep (c : Dev nD) (r : Ref sig .tc) (h7 : r ∉ GenP.hostOps6_W)
    (h8 : r ∉ ([main_v148_0, main_v148_1, main_v148_2] : List (Ref sig .tc))) (h9 : r ∉ GenP.hostOps7_W)
    (h10 : r ∉ ([main_v160_0, main_v160_1, main_v160_2] : List (Ref sig .tc))) (h11 : r ∉ GenP.hostOps8_W)
    (h12 : r ∉ ([main_v171_0, main_v171_1] : List (Ref sig .tc))) :
    Vout8 m c r = Vout5 m c r :=
  (layer2_thru m c r h8 h9 h10 h11 h12).trans (GenP.V13_of m (outs m) c r h7)

/-- The base facts pass through the layer. -/
theorem base8 (c : Dev nD) (hb : Base m c (Vout5 m c)) : Base m c (Vout8 m c) where
  v1 := (ly8_keep m c _ (by decide) (by decide) (by decide) (by decide) (by decide) (by decide)).trans hb.v1
  v3 := (ly8_keep m c _ (by decide) (by decide) (by decide) (by decide) (by decide) (by decide)).trans hb.v3
  v4 := (ly8_keep m c _ (by decide) (by decide) (by decide) (by decide) (by decide) (by decide)).trans hb.v4
  a1 := (ly8_keep m c _ (by decide) (by decide) (by decide) (by decide) (by decide) (by decide)).trans hb.a1
  a2 := (ly8_keep m c _ (by decide) (by decide) (by decide) (by decide) (by decide) (by decide)).trans hb.a2
  a3 := (ly8_keep m c _ (by decide) (by decide) (by decide) (by decide) (by decide) (by decide)).trans hb.a3
  a4 := (ly8_keep m c _ (by decide) (by decide) (by decide) (by decide) (by decide) (by decide)).trans hb.a4
  a5 := (ly8_keep m c _ (by decide) (by decide) (by decide) (by decide) (by decide) (by decide)).trans hb.a5
  a6 := (ly8_keep m c _ (by decide) (by decide) (by decide) (by decide) (by decide) (by decide)).trans hb.a6
  a7 := (ly8_keep m c _ (by decide) (by decide) (by decide) (by decide) (by decide) (by decide)).trans hb.a7
  a8 := (ly8_keep m c _ (by decide) (by decide) (by decide) (by decide) (by decide) (by decide)).trans hb.a8

section Layer
variable (c : Dev nD)

/-- The features the layer is entered with, their neighbourhood sums, and the three arrays the layer's mathematics
    makes of them. -/
abbrev hin6 : Mat 50000 128 := cur2 (Vout5 m c main_v115_0 : S50000x128.Idx → EReal)
abbrev agg6 : Mat 50000 128 := cur2 (kAgg m c (Vout5 m c main_v115_0))
abbrev zed6 : Mat 50000 128 := Spec.z1 (hin6 m c) (agg6 m c) (kP m c lyr2)
abbrev zed7 : Mat 50000 128 := Spec.kz2 (hin6 m c) (agg6 m c) (kP m c lyr2)
abbrev hout8 : Mat 50000 128 := Spec.kh (hin6 m c) (agg6 m c) (kP m c lyr2)

/-! ## The first kernel's operands -/

theorem ly6_feat : Vin6 m c main_v115_0 = Vout5 m c main_v115_0 := GenP.V13_of m (outs m) c _ (by decide)

theorem ly6_agg (hb : Base m c (Vout5 m c)) :
    (Vin6 m c main_v126 : S50000x128.Idx → EReal) = kAgg m c (Vout5 m c main_v115_0) := by
  refine (host6_agg (Vout5 m c)).trans ?_
  rw [hb.v1, hb.v3]

theorem ly6_W1 (hb : Base m c (Vout5 m c)) :
    cur2 (Vin6 m c main_v128 : S128x128.Idx → EReal) = (kP m c lyr2).W1 := by
  exact (host6_W1 (Vout5 m c)).trans (congrArg (fun x : S5x128x128.Idx → EReal => sl3 x lyr2) hb.a1)

theorem ly6_b1 (hb : Base m c (Vout5 m c)) :
    row0 (Vin6 m c main_v147 : S1x128.Idx → EReal) = (kP m c lyr2).b1 := by
  exact (host6_b1 (Vout5 m c)).trans (congrArg (fun x : S5x128.Idx → EReal => sl2 x lyr2) hb.a2)

theorem ly6_g1 (hb : Base m c (Vout5 m c)) :
    row0 (Vin6 m c main_v133 : S1x128.Idx → EReal) = (kP m c lyr2).g1 := by
  exact (host6_g1 (Vout5 m c)).trans (congrArg (fun x : S5x128.Idx → EReal => sl2 x lyr2) hb.a3)

theorem ly6_be1 (hb : Base m c (Vout5 m c)) :
    row0 (Vin6 m c main_v136 : S1x128.Idx → EReal) = (kP m c lyr2).be1 := by
  exact (host6_be1 (Vout5 m c)).trans (congrArg (fun x : S5x128.Idx → EReal => sl2 x lyr2) hb.a4)

theorem ly6_W2 (hb : Base m c (Vout5 m c)) :
    cur2 (Vin6 m c main_v138 : S128x128.Idx → EReal) = (kP m c lyr2).W2 := by
  exact (host6_W2 (Vout5 m c)).trans (congrArg (fun x : S5x128x128.Idx → EReal => sl3 x lyr2) hb.a5)

theorem ly6_b2 (hb : Base m c (Vout5 m c)) :
    cur1 (Vin6 m c main_v140 : S128.Idx → EReal) = (kP m c lyr2).b2 := by
  exact (host6_b2 (Vout5 m c)).trans (congrArg (fun x : S5x128.Idx → EReal => sl2 x lyr2) hb.a6)

theorem ly6_g2 (hb : Base m c (Vout5 m c)) :
    row0 (Vin6 m c main_v143 : S1x128.Idx → EReal) = (kP m c lyr2).g2 := by
  exact (host6_g2 (Vout5 m c)).trans (congrArg (fun x : S5x128.Idx → EReal => sl2 x lyr2) hb.a7)

theorem ly6_be2 (hb : Base m c (Vout5 m c)) :
    row0 (Vin6 m c main_v146 : S1x128.Idx → EReal) = (kP m c lyr2).be2 := by
  exact (host6_be2 (Vout5 m c)).trans (congrArg (fun x : S5x128.Idx → EReal => sl2 x lyr2) hb.a8)

/-! ## The first kernel: the first affine map and its block sums -/

/-- The affine map of the first kernel's operands is the layer's first affine map. -/
theorem ly6_lin (hb : Base m c (Vout5 m c)) :
    Spec.lin (fun r k => cur2 (Vin6 m c (Pipeline.arrRef spec6 0)) r k + cur2 (Vin6 m c (Pipeline.arrRef spec6 1)) r k)
        (cur2 (Vin6 m c (Pipeline.arrRef spec6 2))) (row0 (Vin6 m c (Pipeline.arrRef spec6 3)))
      = zed6 m c := by
  show Spec.lin (fun r k => cur2 (Vin6 m c main_v115_0 : S50000x128.Idx → EReal) r k
        + cur2 (Vin6 m c main_v126 : S50000x128.Idx → EReal) r k)
      (cur2 (Vin6 m c main_v128 : S128x128.Idx → EReal)) (row0 (Vin6 m c main_v147 : S1x128.Idx → EReal)) = _
  rw [ly6_feat m c, ly6_agg m c hb, ly6_W1 m c hb, ly6_b1 m c hb]
  rfl

theorem ly6_out (hb : Base m c (Vout5 m c)) :
    cur2 (Vout6 m c main_v148_0 : S50000x128.Idx → EReal) = zed6 m c :=
  (congrArg cur2 (hF_6 m c 4).symm).trans ((val6_4 (fun c b => Vin6 m c b) c).trans (ly6_lin m c hb))

theorem ly6_sum (hb : Base m c (Vout5 m c)) (t : Fin 10) (k : Fin 128) :
    (Vout6 m c main_v148_1 : S10x1x128.Idx → EReal) (ix3 t 0 k) = ksum (zed6 m c) t k :=
  (congrFun (hF_6 m c 5).symm (ix3 t 0 k)).trans
    ((val6_5 (fun c b => Vin6 m c b) c t k).trans (congrArg (fun Z => ksum Z t k) (ly6_lin m c hb)))

theorem ly6_sq (hb : Base m c (Vout5 m c)) (t : Fin 10) (k : Fin 128) :
    (Vout6 m c main_v148_2 : S10x1x128.Idx → EReal) (ix3 t 0 k) = ksq (zed6 m c) t k :=
  (congrFun (hF_6 m c 6).symm (ix3 t 0 k)).trans
    ((val6_6 (fun c b => Vin6 m c b) c t k).trans (congrArg (fun Z => ksq Z t k) (ly6_lin m c hb)))

/-! ## The second kernel's operands -/

theorem ly7_z : Vin7 m c main_v148_0 = Vout6 m c main_v148_0 := GenP.V15_of m (outs m) c _ (by decide)

theorem ly7_mean (hb : Base m c (Vout5 m c)) :
    row0 (Vin7 m c main_v151 : S1x128.Idx → EReal) = kmean (zed6 m c) :=
  host7_mean (Vout6 m c) (zed6 m c) (ly6_sum m c hb)

theorem ly7_var (hb : Base m c (Vout5 m c)) :
    row0 (Vin7 m c main_v158 : S1x128.Idx → EReal) = kvar (zed6 m c) :=
  host7_var (Vout6 m c) (zed6 m c) (ly6_sum m c hb) (ly6_sq m c hb)

/-- An array the first kernel and the stretch after it leave alone. -/
theorem ly7_keep (r : Ref sig .tc) (h8 : r ∉ ([main_v148_0, main_v148_1, main_v148_2] : List (Ref sig .tc)))
    (h9 : r ∉ GenP.hostOps7_W) : Vin7 m c r = Vin6 m c r :=
  (GenP.V15_of m (outs m) c r h9).trans (GenP.V14_of m (outs m) c r h8)

theorem ly7_g1 (hb : Base m c (Vout5 m c)) :
    row0 (Vin7 m c main_v133 : S1x128.Idx → EReal) = (kP m c lyr2).g1 := by
  have e : Vin7 m c main_v133 = Vin6 m c main_v133 := ly7_keep m c _ (by decide) (by decide)
  rw [e]
  exact ly6_g1 m c hb

theorem ly7_be1 (hb : Base m c (Vout5 m c)) :
    row0 (Vin7 m c main_v136 : S1x128.Idx → EReal) = (kP m c lyr2).be1 := by
  have e : Vin7 m c main_v136 = Vin6 m c main_v136 := ly7_keep m c _ (by decide) (by decide)
  rw [e]
  exact ly6_be1 m c hb

theorem ly7_W2 (hb : Base m c (Vout5 m c)) :
    cur2 (Vin7 m c main_v138 : S128x128.Idx → EReal) = (kP m c lyr2).W2 := by
  have e : Vin7 m c main_v138 = Vin6 m c main_v138 := ly7_keep m c _ (by decide) (by decide)
  rw [e]
  exact ly6_W2 m c hb

theorem ly7_b2 (hb : Base m c (Vout5 m c)) :
    row0 (Vin7 m c main_v159 : S1x128.Idx → EReal) = (kP m c lyr2).b2 := by
  refine (host7_bias (Vout6 m c)).trans ?_
  have e : Vout6 m c main_v140 = Vin6 m c main_v140 := GenP.V14_of m (outs m) c _ (by decide)
  rw [e]
  exact ly6_b2 m c hb

/-! ## The second kernel: normalise, rectify, the second affine map and its block sums -/

theorem ly7_lin (hb : Base m c (Vout5 m c)) :
    Spec.lin (Spec.bnrelu (cur2 (Vin7 m c (Pipeline.arrRef spec7 0))) (row0 (Vin7 m c (Pipeline.arrRef spec7 1)))
          (row0 (Vin7 m c (Pipeline.arrRef spec7 2))) (row0 (Vin7 m c (Pipeline.arrRef spec7 3)))
          (row0 (Vin7 m c (Pipeline.arrRef spec7 4)))) (cur2 (Vin7 m c (Pipeline.arrRef spec7 5)))
          (row0 (Vin7 m c (Pipeline.arrRef spec7 6)))
      = zed7 m c := by
  show Spec.lin (Spec.bnrelu (cur2 (Vin7 m c main_v148_0 : S50000x128.Idx → EReal))
        (row0 (Vin7 m c main_v151 : S1x128.Idx → EReal)) (row0 (Vin7 m c main_v158 : S1x128.Idx → EReal))
        (row0 (Vin7 m c main_v133 : S1x128.Idx → EReal)) (row0 (Vin7 m c main_v136 : S1x128.Idx → EReal)))
      (cur2 (Vin7 m c main_v138 : S128x128.Idx → EReal)) (row0 (Vin7 m c main_v159 : S1x128.Idx → EReal)) = _
  rw [ly7_z m c, ly6_out m c hb, ly7_mean m c hb, ly7_var m c hb, ly7_g1 m c hb, ly7_be1 m c hb, ly7_W2 m c hb,
    ly7_b2 m c hb]
  rfl

theorem ly7_out (hb : Base m c (Vout5 m c)) :
    cur2 (Vout7 m c main_v160_0 : S50000x128.Idx → EReal) = zed7 m c :=
  (congrArg cur2 (hF_7 m c 7).symm).trans ((val7_7 (fun c b => Vin7 m c b) c).trans (ly7_lin m c hb))

theorem ly7_sum (hb : Base m c (Vout5 m c)) (t : Fin 10) (k : Fin 128) :
    (Vout7 m c main_v160_1 : S10x1x128.Idx → EReal) (ix3 t 0 k) = ksum (zed7 m c) t k :=
  (congrFun (hF_7 m c 8).symm (ix3 t 0 k)).trans
    ((val7_8 (fun c b => Vin7 m c b) c t k).trans (congrArg (fun Z => ksum Z t k) (ly7_lin m c hb)))

theorem ly7_sq (hb : Base m c (Vout5 m c)) (t : Fin 10) (k : Fin 128) :
    (Vout7 m c main_v160_2 : S10x1x128.Idx → EReal) (ix3 t 0 k) = ksq (zed7 m c) t k :=
  (congrFun (hF_7 m c 9).symm (ix3 t 0 k)).trans
    ((val7_9 (fun c b => Vin7 m c b) c t k).trans (congrArg (fun Z => ksq Z t k) (ly7_lin m c hb)))

/-! ## The third kernel's operands -/

theorem ly8_z : Vin8 m c main_v160_0 = Vout7 m c main_v160_0 := GenP.V17_of m (outs m) c _ (by decide)

theorem ly8_mean (hb : Base m c (Vout5 m c)) :
    row0 (Vin8 m c main_v163 : S1x128.Idx → EReal) = kmean (zed7 m c) :=
  host8_mean (Vout7 m c) (zed7 m c) (ly7_sum m c hb)

theorem ly8_var (hb : Base m c (Vout5 m c)) :
    row0 (Vin8 m c main_v170 : S1x128.Idx → EReal) = kvar (zed7 m c) :=
  host8_var (Vout7 m c) (zed7 m c) (ly7_sum m c hb) (ly7_sq m c hb)

/-- An array the first two kernels and the stretches after them leave alone. -/
theorem ly8_keep3 (r : Ref sig .tc) (h8 : r ∉ ([main_v148_0, main_v148_1, main_v148_2] : List (Ref sig .tc)))
    (h9 : r ∉ GenP.hostOps7_W) (h10 : r ∉ ([main_v160_0, main_v160_1, main_v160_2] : List (Ref sig .tc)))
    (h11 : r ∉ GenP.hostOps8_W) : Vin8 m c r = Vin6 m c r :=
  (GenP.V17_of m (outs m) c r h11).trans <| (GenP.V16_of m (outs m) c r h10).trans (ly7_keep m c r h8 h9)

theorem ly8_g2 (hb : Base m c (Vout5 m c)) :
    row0 (Vin8 m c main_v143 : S1x128.Idx → EReal) = (kP m c lyr2).g2 := by
  have e : Vin8 m c main_v143 = Vin6 m c main_v143 := ly8_keep3 m c _ (by decide) (by decide) (by decide) (by decide)
  rw [e]
  exact ly6_g2 m c hb

theorem ly8_be2 (hb : Base m c (Vout5 m c)) :
    row0 (Vin8 m c main_v146 : S1x128.Idx → EReal) = (kP m c lyr2).be2 := by
  have e : Vin8 m c main_v146 = Vin6 m c main_v146 := ly8_keep3 m c _ (by decide) (by decide) (by decide) (by decide)
  rw [e]
  exact ly6_be2 m c hb

/-- The graph column the third kernel reads holds the launch's graph numbers. -/
theorem ly8_graph (hb : Base m c (Vout5 m c)) (r : Fin 50000) :
    (Vin8 m c main_v4 : S50000x1.Idx → BitVec 32) (ix2 r 0) = kBw m c r := by
  have e : Vin8 m c main_v4 = GenP.V1 m c main_v4 :=
    (ly8_keep3 m c _ (by decide) (by decide) (by decide) (by decide)).trans
      ((GenP.V13_of m (outs m) c _ (by decide)).trans hb.v4)
  rw [e]
  exact graph_launch m c r 0

/-! ## The third kernel: normalise, rectify, and each block's share of the pooling -/

theorem ly8_bn (hb : Base m c (Vout5 m c)) :
    Spec.bnrelu (cur2 (Vin8 m c (Pipeline.arrRef spec8 0))) (row0 (Vin8 m c (Pipeline.arrRef spec8 1)))
        (row0 (Vin8 m c (Pipeline.arrRef spec8 2))) (row0 (Vin8 m c (Pipeline.arrRef spec8 3)))
        (row0 (Vin8 m c (Pipeline.arrRef spec8 4)))
      = hout8 m c := by
  show Spec.bnrelu (cur2 (Vin8 m c main_v160_0 : S50000x128.Idx → EReal))
      (row0 (Vin8 m c main_v163 : S1x128.Idx → EReal)) (row0 (Vin8 m c main_v170 : S1x128.Idx → EReal))
      (row0 (Vin8 m c main_v143 : S1x128.Idx → EReal)) (row0 (Vin8 m c main_v146 : S1x128.Idx → EReal)) = _
  rw [ly8_z m c, ly7_out m c hb, ly8_mean m c hb, ly8_var m c hb, ly8_g2 m c hb, ly8_be2 m c hb]
  rfl

/-- The layer's features. -/
theorem layer2_h (hb : Base m c (Vout5 m c)) :
    cur2 (Vout8 m c main_v171_0 : S50000x128.Idx → EReal)
      = Spec.kh (cur2 (Vout5 m c main_v115_0 : S50000x128.Idx → EReal)) (cur2 (kAgg m c (Vout5 m c main_v115_0)))
          (kP m c lyr2) :=
  (congrArg cur2 (hF_8 m c 6).symm).trans ((val8_6 (fun c b => Vin8 m c b) c).trans (ly8_bn m c hb))

/-- Each block's share of the pooling of the layer's features. -/
theorem ly8_part (hb : Base m c (Vout5 m c)) (t : Fin 10) (g : Fin 256) (k : Fin 128) :
    (Vout8 m c main_v171_1 : S10x256x128.Idx → EReal) (ix3 t g k)
      = poolKpart (kBw m c) (cur2 (Vout8 m c main_v171_0 : S50000x128.Idx → EReal)) t g k := by
  refine (congrFun (hF_8 m c 7).symm (ix3 t g k)).trans ((val8_7 (fun c b => Vin8 m c b) c t g k).trans ?_)
  have eb : (fun r : Fin 50000 => (Vin8 m c (Pipeline.arrRef spec8 5) : S50000x1.Idx → BitVec 32) (ix2 r 0)) = kBw m c :=
    funext fun r => ly8_graph m c hb r
  rw [layer2_h m c hb]
  exact congrArg₂ (fun bw H => poolKpart bw H t g k) eb (ly8_bn m c hb)

end Layer

end Cert.KernelIdeal.Hand

end
-- ==== Proof.KI.Host9.lean ====
/-
  The host stretch before a later layer's first kernel: the previous layer's pooled matrix as the sum of its ten
  per-block shares, the neighbourhood sums of the previous layer's features, and the layer's slice of every
  weight stack.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The layer this stretch prepares: the slice it takes of every weight stack. -/
abbrev host9_layer : Fin 5 := 3

/-- The previous layer's pooled matrix: the ten per-block shares added up. -/
theorem host9_pool (bw : Fin 50000 → BitVec 32) (H : Mat 50000 128)
    (hp : ∀ t g k, (W main_v171_1 : S10x256x128.Idx → EReal) (ix3 t g k) = poolKpart bw H t g k) :
    cur2 (StableHlo.after hostOps9 W main_v172 : S256x128.Idx → EReal) = poolK bw H := by
  have e : (StableHlo.after hostOps9 W main_v172 : S256x128.Idx → EReal)
      = Host.reduceAdd (W main_v171_1 : S10x256x128.Idx → EReal) (constant (F := Ideal) S_ .f32 0x00000000#32)
          reducesTo_S10x256x128_S256x128_d0 h_S_ := by
    after_results
  rw [e]
  exact poolSum_poolK _ _ _ bw H hp

/-- The neighbourhood sums of the previous layer's features. -/
theorem host9_agg :
    (StableHlo.after hostOps9 W main_v182 : S50000x128.Idx → EReal)
      = aggA gather_S50000x128_S800000x1_S800000x128_1_0_n_n_0_1_1128 scatter_S50000x128_S800000x1_S800000x128_1_0_0_1
          bcast_S_S50000x128 (W main_v171_0)
          (srcCol bcast_S_S800000 bcast_S800000_S800000x1_0 (W main_v1))
          (dstCol bcast_S800000_S800000x1_0 (W main_v3)) := by
  after_results_simp
  rfl

/-- The layer's first weight matrix. -/
theorem host9_W1 :
    cur2 (StableHlo.after hostOps9 W main_v184 : S128x128.Idx → EReal) = sl3 (W main_arg1 : S5x128x128.Idx → EReal) host9_layer :=
  cur2_sliceMat_of _ host9_layer _ _ _ _ (by after_results_simp; rfl) (by rfl)

/-- The layer's first bias, as a row. -/
theorem host9_b1 :
    row0 (StableHlo.after hostOps9 W main_v203 : S1x128.Idx → EReal) = sl2 (W main_arg2 : S5x128.Idx → EReal) host9_layer :=
  row0_sliceVec_of _ host9_layer _ _ _ _ _ (by after_results_simp; rfl) (by rfl)

/-- The layer's first scale, as a row. -/
theorem host9_g1 :
    row0 (StableHlo.after hostOps9 W main_v189 : S1x128.Idx → EReal) = sl2 (W main_arg3 : S5x128.Idx → EReal) host9_layer :=
  row0_sliceVec_of _ host9_layer _ _ _ _ _ (by after_results_simp; rfl) (by rfl)

/-- The layer's first shift, as a row. -/
theorem host9_be1 :
    row0 (StableHlo.after hostOps9 W main_v192 : S1x128.Idx → EReal) = sl2 (W main_arg4 : S5x128.Idx → EReal) host9_layer :=
  row0_sliceVec_of _ host9_layer _ _ _ _ _ (by after_results_simp; rfl) (by rfl)

/-- The layer's second weight matrix. -/
theorem host9_W2 :
    cur2 (StableHlo.after hostOps9 W main_v194 : S128x128.Idx → EReal) = sl3 (W main_arg5 : S5x128x128.Idx → EReal) host9_layer :=
  cur2_sliceMat_of _ host9_layer _ _ _ _ (by after_results_simp; rfl) (by rfl)

/-- The layer's second bias, as a vector. -/
theorem host9_b2 :
    cur1 (StableHlo.after hostOps9 W main_v196 : S128.Idx → EReal) = sl2 (W main_arg6 : S5x128.Idx → EReal) host9_layer :=
  cur1_sliceVec_of _ host9_layer _ _ _ _ (by after_results_simp; rfl) (by rfl)

/-- The layer's second scale, as a row. -/
theorem host9_g2 :
    row0 (StableHlo.after hostOps9 W main_v199 : S1x128.Idx → EReal) = sl2 (W main_arg7 : S5x128.Idx → EReal) host9_layer :=
  row0_sliceVec_of _ host9_layer _ _ _ _ _ (by after_results_simp; rfl) (by rfl)

/-- The layer's second shift, as a row. -/
theorem host9_be2 :
    row0 (StableHlo.after hostOps9 W main_v202 : S1x128.Idx → EReal) = sl2 (W main_arg8 : S5x128.Idx → EReal) host9_layer :=
  row0_sliceVec_of _ host9_layer _ _ _ _ _ (by after_results_simp; rfl) (by rfl)

end Cert.KernelIdeal.Hand

end
-- ==== Proof.KI.LPool2.lean ====
/-
  The end of one layer of the network as the kernel program computes it: the host stretch after the layer's last
  kernel adds the ten row blocks' shares into the sum of the layer's features by graph, and leaves the features
  themselves, and every array the layer did not write, for the next layer.
-/
import proofs.«422260_j36421322670663_2_alg».proof.Proof.KI.Layer2
import proofs.«422260_j36421322670663_2_alg».proof.Proof.KI.Host9

-- deciding that a reference is none of the several dozen a host stretch writes recurses once per reference
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- An array none of the layer's three kernels and none of the host stretches after them writes is the same when the
    next layer's first kernel is entered as when this layer's was. -/
theorem layer2_keep (c : Dev nD) (r : Ref sig .tc)
    (h8 : r ∉ ([main_v148_0, main_v148_1, main_v148_2] : List (Ref sig .tc))) (h9 : r ∉ GenP.hostOps7_W)
    (h10 : r ∉ ([main_v160_0, main_v160_1, main_v160_2] : List (Ref sig .tc))) (h11 : r ∉ GenP.hostOps8_W)
    (h12 : r ∉ ([main_v171_0, main_v171_1] : List (Ref sig .tc))) (h13 : r ∉ GenP.hostOps9_W) :
    Vin9 m c r = Vin6 m c r :=
  (GenP.V19_of m (outs m) c r h13).trans (layer2_thru m c r h8 h9 h10 h11 h12)

/-- The next layer is entered with the features this layer's last kernel left. -/
theorem layer2_feat (c : Dev nD) : Vin9 m c main_v171_0 = Vout8 m c main_v171_0 :=
  GenP.V19_of m (outs m) c _ (by decide)

/-- The layer's pooled features: the ten shares added up by the host stretch after the layer's last kernel. -/
theorem layer2_pool (c : Dev nD) (hb : Base m c (Vout5 m c)) :
    cur2 (Vin9 m c main_v172 : S256x128.Idx → EReal)
      = Spec.poolK (kBw m c) (cur2 (Vout8 m c main_v171_0 : S50000x128.Idx → EReal)) :=
  host9_pool (Vout8 m c) (kBw m c) _ (ly8_part m c hb)

end Cert.KernelIdeal.Hand

end
-- ==== Proof.KI.Val9Pay.lean ====
/-
  What the first linear map's kernel body computes from its four loaded blocks, entry by entry, over the extended
  reals: the block's affine image (the sum of the two feature blocks times the weights, plus the bias row), the
  column sums of that image over the block's rows, and the column sums of its squares. The roundings to the
  narrower format are the identity on extended reals, the accumulator of the matrix product is zero, and the sums
  over a whole axis are plain finite sums.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen Cert.Spec

/-! ## The matrix product's operand indices -/

private theorem lhs_row (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

private theorem lhs_shared (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single (cl := 1) rfl j k

private theorem rhs_shared (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single (cr := 0) rfl j k

private theorem rhs_col (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

/-- The product of a 5000 × 128 by a 128 × 128 matrix into the zero accumulator, at (p, q): the sum over the shared
    coordinate of the products of the entries. -/
private theorem mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have hl : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => exact lhs_row _ _
    | ⟨1, _⟩ => exact (lhs_shared _ _).trans hc
  have hr : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => exact (rhs_shared _ _).trans hc
    | ⟨1, _⟩ => exact rhs_col _ _
  rw [hl, hr]

/-! ## The row sums' index, and the casts between a vector, a row and a one-row stack -/

/-- A vector's coordinate put back under row p of the block. -/
private theorem lift_rows (h : S5000x128.Reduces [0] S128) (q : Fin 128) (p : Fin 5000) :
    h.lift (ix1 q) p = ix2 p q := by
  funext ax; apply Fin.ext
  match ax with
  | ⟨0, _⟩ => rfl
  | ⟨1, _⟩ => rfl

/-- The sum over the rows of a block, kept as a 1 × 1 × 128 stack, at column q. -/
private theorem colsum_apply (z : FVec Ideal S5000x128 .f32) (q : Fin 128) :
    shapeCast S1x1x128 (shapeCast S1x128
        (multiReduction (F := Ideal) .add [0] S128 z 0x00000000#32 reduces_S5000x128_S128 (.inl rfl) rfl)
        shapeCasts_S128_S1x128) shapeCasts_S1x128_S1x1x128 (ix3 0 0 q)
      = ∑ p : Fin 5000, z (ix2 p q) := by
  refine (shapeCast_ab_1ab_apply _ _ 0 0 q).trans ?_
  refine (shapeCast_a_1a_apply _ _ 0 q).trans ?_
  refine (Ideal.multiReduction_add_single z 0x00000000#32 reduces_S5000x128_S128 (.inl rfl) rfl (ix1 q)).trans ?_
  exact Finset.sum_congr rfl fun p _ => congrArg z (lift_rows _ q p)

/-! ## The three payloads at an index -/

/-- The block's affine image at (p, q): row p of the sum of the two feature blocks against column q of the weights,
    plus the bias at q. -/
theorem k9_pay1_apply (x0 x1 : Vec Ideal S5000x128 .f32) (x2 : Vec Ideal S128x128 .f32) (x3 : Vec Ideal S1x128 .f32)
    (p : Fin 5000) (q : Fin 128) :
    k9_pay1 x0 x1 x2 x3 (ix2 p q)
      = (∑ k : Fin 128, (x0 (ix2 p k) + x1 (ix2 p k)) * x2 (ix2 k q)) + x3 (ix2 0 q) := by
  unfold k9_pay1
  refine (addf_apply _ _ _).trans ?_
  refine congr (congrArg HAdd.hAdd ?_) ?_
  · refine (mm_apply _ _ p q).trans (Finset.sum_congr rfl fun k _ => ?_)
    simp only [shapeCast_self]
    all_goals rfl
  · refine (broadcastTo_1b_ab_apply _ _ p q).trans ?_
    exact congrFun (shapeCast_self x3 _) _

/-- The column sums of the block's affine image. -/
theorem k9_pay2_apply (x0 x1 : Vec Ideal S5000x128 .f32) (x2 : Vec Ideal S128x128 .f32) (x3 : Vec Ideal S1x128 .f32)
    (q : Fin 128) :
    k9_pay2 x0 x1 x2 x3 (ix3 0 0 q)
      = ∑ p : Fin 5000, ((∑ k : Fin 128, (x0 (ix2 p k) + x1 (ix2 p k)) * x2 (ix2 k q)) + x3 (ix2 0 q)) := by
  unfold k9_pay2
  refine (colsum_apply _ q).trans ?_
  exact Finset.sum_congr rfl fun p _ => k9_pay1_apply x0 x1 x2 x3 p q

/-- The column sums of the squares of the block's affine image. -/
theorem k9_pay3_apply (x0 x1 : Vec Ideal S5000x128 .f32) (x2 : Vec Ideal S128x128 .f32) (x3 : Vec Ideal S1x128 .f32)
    (q : Fin 128) :
    k9_pay3 x0 x1 x2 x3 (ix3 0 0 q)
      = ∑ p : Fin 5000, ((∑ k : Fin 128, (x0 (ix2 p k) + x1 (ix2 p k)) * x2 (ix2 k q)) + x3 (ix2 0 q))
          * ((∑ k : Fin 128, (x0 (ix2 p k) + x1 (ix2 p k)) * x2 (ix2 k q)) + x3 (ix2 0 q)) := by
  unfold k9_pay3
  refine (colsum_apply _ q).trans ?_
  refine Finset.sum_congr rfl fun p _ => ?_
  refine (mulf_apply _ _ _).trans ?_
  rw [k9_pay1_apply]

end Cert.KernelIdeal.Hand

end
-- ==== Proof.KI.Val9.lean ====
/-
  The three arrays the first linear map's region leaves, over the extended reals, as functions of the four arrays it
  reads: the affine image of the whole feature arrays (the sum of the features and their neighbourhood sums, times the
  weights, plus the bias); for each of the ten row blocks the column sums of that image over the block's rows; and
  the column sums of its squares. Each grid point computes its own block of these from its own blocks of the inputs —
  a block's entry sits in the array at (block number × block size + the coordinate inside the block) — and the
  blocks of the ten points tile the arrays.
-/
import proofs.«422260_j36421322670663_2_alg».proof.Proof.KI.Reg9
import proofs.«422260_j36421322670663_2_alg».proof.Proof.KI.Val9Pay
import proofs.«422260_j36421322670663_2_alg».proof.Proof.Gen.KernelIdeal.Points
import proofs.«422260_j36421322670663_2_alg».proof.Proof.Spec
import proofs.«422260_j36421322670663_2_alg».proof.Proof.SpecPool
import Idealize.ShloMosaic.Lib.ValueIdx
import Idealize.ShloMosaic.Lib.Pipeline.Value

noncomputable section

namespace Cert.KernelIdeal.Hand

open Idealize.ShloMosaic Idealize.ShloMosaic.ValueIdx Idealize.ShloMosaic.TcCoe Idealize.SL.Sem
open Cert.KernelIdeal Cert.KernelIdeal.Gen Cert.Spec

section Arrays
variable (V : (c : Dev nD) → (b : Ref sig .tc) → Buf (Elt Ideal) ((c : Thread nD τ).loc b)) (c : Dev nD)

/-! ## The whole arrays the three outputs end holding -/

/-- The affine image of the whole feature arrays: every row of their sum against the weights, plus the bias. -/
def lin9 : Mat 50000 128 :=
  Spec.lin (fun r k => cur2 (V c (Pipeline.arrRef spec9 0) : S50000x128.Idx → EReal) r k
      + cur2 (V c (Pipeline.arrRef spec9 1) : S50000x128.Idx → EReal) r k)
    (cur2 (V c (Pipeline.arrRef spec9 2) : S128x128.Idx → EReal))
    (row0 (V c (Pipeline.arrRef spec9 3) : S1x128.Idx → EReal))

/-- The image, as an array. -/
def arr9_4 : S50000x128.Idx → EReal := fun i => lin9 V c (i 0) (i 1)
/-- Its column sums block by block, as an array. -/
def arr9_5 : S10x1x128.Idx → EReal := fun i => Spec.ksum (lin9 V c) (i 0) (i 2)
/-- The column sums of its squares block by block, as an array. -/
def arr9_6 : S10x1x128.Idx → EReal := fun i => Spec.ksq (lin9 V c) (i 0) (i 2)

/-! ## Where a block's entry sits in its array -/

/-- The printed index maps over the ten grid points: the two feature windows and the image's window sit at the
    point's own row block, the weights and the bias at the one block there is, the two sums' windows at the point's
    own slice. -/
theorem idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 3) = t.val ∧ win9_5.index t (1 : Fin 3) = 0 ∧ win9_5.index t (2 : Fin 3) = 0
    ∧ win9_6.index t (0 : Fin 3) = t.val ∧ win9_6.index t (1 : Fin 3) = 0 ∧ win9_6.index t (2 : Fin 3) = 0 :=
  (by decide +kernel : ∀ t : Fin grid9.N, _)

/-- The grid point as a block number. -/
def pt9 (t : Fin cfg9.N) : Fin 10 := Fin.cast N_9 t

/-- Entry (p, k) of a feature block is entry (block's first row + p, k) of the array. -/
theorem emb9_0 (t : Fin cfg9.N) (p : Fin 5000) (k : Fin 128) :
    ((cfg9.win 0).blk t).view.emb (ix2 p k) = (ix2 (brow (pt9 t) p) k : S50000x128.Idx) := by
  obtain ⟨e0, e1, -⟩ := idx9 t
  funext a; apply Fin.ext
  match a with
  | ⟨0, _⟩ => show win9_0.index t (0 : Fin 2) * 5000 + 1 * p.val = t.val * 5000 + p.val; omega
  | ⟨1, _⟩ => show win9_0.index t (1 : Fin 2) * 128 + 1 * k.val = k.val; omega

theorem emb9_1 (t : Fin cfg9.N) (p : Fin 5000) (k : Fin 128) :
    ((cfg9.win 1).blk t).view.emb (ix2 p k) = (ix2 (brow (pt9 t) p) k : S50000x128.Idx) := by
  obtain ⟨-, -, e0, e1, -⟩ := idx9 t
  funext a; apply Fin.ext
  match a with
  | ⟨0, _⟩ => show win9_1.index t (0 : Fin 2) * 5000 + 1 * p.val = t.val * 5000 + p.val; omega
  | ⟨1, _⟩ => show win9_1.index t (1 : Fin 2) * 128 + 1 * k.val = k.val; omega

/-- The weights' and the bias's one block is the array. -/
theorem emb9_2 (t : Fin cfg9.N) (k q : Fin 128) :
    ((cfg9.win 2).blk t).view.emb (ix2 k q) = (ix2 k q : S128x128.Idx) := by
  obtain ⟨-, -, -, -, e0, e1, -⟩ := idx9 t
  funext a; apply Fin.ext
  match a with
  | ⟨0, _⟩ => show win9_2.index t (0 : Fin 2) * 128 + 1 * k.val = k.val; omega
  | ⟨1, _⟩ => show win9_2.index t (1 : Fin 2) * 128 + 1 * q.val = q.val; omega

theorem emb9_3 (t : Fin cfg9.N) (u : Fin 1) (q : Fin 128) :
    ((cfg9.win 3).blk t).view.emb (ix2 u q) = (ix2 u q : S1x128.Idx) := by
  obtain ⟨-, -, -, -, -, -, e0, e1, -⟩ := idx9 t
  funext a; apply Fin.ext
  match a with
  | ⟨0, _⟩ => show win9_3.index t (0 : Fin 2) * 1 + 1 * u.val = u.val; omega
  | ⟨1, _⟩ => show win9_3.index t (1 : Fin 2) * 128 + 1 * q.val = q.val; omega

theorem emb9_4 (t : Fin cfg9.N) (p : Fin 5000) (q : Fin 128) :
    ((cfg9.win 4).blk t).view.emb (ix2 p q) = (ix2 (brow (pt9 t) p) q : S50000x128.Idx) := by
  obtain ⟨-, -, -, -, -, -, -, -, e0, e1, -⟩ := idx9 t
  funext a; apply Fin.ext
  match a with
  | ⟨0, _⟩ => show win9_4.index t (0 : Fin 2) * 5000 + 1 * p.val = t.val * 5000 + p.val; omega
  | ⟨1, _⟩ => show win9_4.index t (1 : Fin 2) * 128 + 1 * q.val = q.val; omega

/-- The one row of a block of sums is slice number (the point) of the stack. -/
theorem emb9_5 (t : Fin cfg9.N) (u v : Fin 1) (q : Fin 128) :
    ((cfg9.win 5).blk t).view.emb (ix3 u v q) = (ix3 (pt9 t) v q : S10x1x128.Idx) := by
  obtain ⟨-, -, -, -, -, -, -, -, -, -, e0, e1, e2, -⟩ := idx9 t
  funext a; apply Fin.ext
  match a with
  | ⟨0, _⟩ => show win9_5.index t (0 : Fin 3) * 1 + 1 * u.val = t.val; omega
  | ⟨1, _⟩ => show win9_5.index t (1 : Fin 3) * 1 + 1 * v.val = v.val; omega
  | ⟨2, _⟩ => show win9_5.index t (2 : Fin 3) * 128 + 1 * q.val = q.val; omega

theorem emb9_6 (t : Fin cfg9.N) (u v : Fin 1) (q : Fin 128) :
    ((cfg9.win 6).blk t).view.emb (ix3 u v q) = (ix3 (pt9 t) v q : S10x1x128.Idx) := by
  obtain ⟨-, -, -, -, -, -, -, -, -, -, -, -, -, e0, e1, e2⟩ := idx9 t
  funext a; apply Fin.ext
  match a with
  | ⟨0, _⟩ => show win9_6.index t (0 : Fin 3) * 1 + 1 * u.val = t.val; omega
  | ⟨1, _⟩ => show win9_6.index t (1 : Fin 3) * 1 + 1 * v.val = v.val; omega
  | ⟨2, _⟩ => show win9_6.index t (2 : Fin 3) * 128 + 1 * q.val = q.val; omega

/-! ## What a grid point's body computes is its block of the whole arrays -/

/-- One entry of the image computed from the point's four blocks is the whole image at the block's row. -/
theorem cell9 (t : Fin cfg9.N) (p : Fin 5000) (q : Fin 128)
    (x0 x1 : Vec Ideal S5000x128 .f32) (x2 : Vec Ideal S128x128 .f32) (x3 : Vec Ideal S1x128 .f32)
    (h0 : x0 = iblk9 V c 0 t) (h1 : x1 = iblk9 V c 1 t) (h2 : x2 = iblk9 V c 2 t) (h3 : x3 = iblk9 V c 3 t) :
    (∑ k : Fin 128, (x0 (ix2 p k) + x1 (ix2 p k)) * x2 (ix2 k q)) + x3 (ix2 0 q)
      = lin9 V c (brow (pt9 t) p) q := by
  subst h0 h1 h2 h3
  have a0 : ∀ k : Fin 128, iblk9 V c 0 t (ix2 p k)
      = (V c (Pipeline.arrRef spec9 0) : S50000x128.Idx → EReal) (ix2 (brow (pt9 t) p) k) :=
    fun k => congrArg (V c (Pipeline.arrRef spec9 0)) (emb9_0 t p k)
  have a1 : ∀ k : Fin 128, iblk9 V c 1 t (ix2 p k)
      = (V c (Pipeline.arrRef spec9 1) : S50000x128.Idx → EReal) (ix2 (brow (pt9 t) p) k) :=
    fun k => congrArg (V c (Pipeline.arrRef spec9 1)) (emb9_1 t p k)
  have a2 : ∀ k : Fin 128, iblk9 V c 2 t (ix2 k q)
      = (V c (Pipeline.arrRef spec9 2) : S128x128.Idx → EReal) (ix2 k q) :=
    fun k => congrArg (V c (Pipeline.arrRef spec9 2)) (emb9_2 t k q)
  have a3 : iblk9 V c 3 t (ix2 0 q) = (V c (Pipeline.arrRef spec9 3) : S1x128.Idx → EReal) (ix2 0 q) :=
    congrArg (V c (Pipeline.arrRef spec9 3)) (emb9_3 t 0 q)
  unfold lin9 Spec.lin cur2 row0
  refine congr (congrArg HAdd.hAdd (Finset.sum_congr rfl fun k _ => ?_)) a3
  exact congr (congrArg HMul.hMul (congr (congrArg HAdd.hAdd (a0 k)) (a1 k))) (a2 k)

end Arrays

section Blocks
variable (V : (c : Dev nD) → (b : Ref sig .tc) → Buf (Elt Ideal) ((c : Thread nD τ).loc b)) (c : Dev nD)

/-- The image's block at a point is the point's block of the whole image. -/
theorem blk9_4 (t : Fin cfg9.N) :
    k9_pay1 (iblk9 V c 0 t) (iblk9 V c 1 t) (iblk9 V c 2 t) (iblk9 V c 3 t)
      = ((cfg9.win 4).blk t).view.read (Elt Ideal) (arr9_4 V c) := by
  funext j
  obtain ⟨p, q, rfl⟩ : ∃ (p : Fin 5000) (q : Fin 128), j = ix2 p q := ⟨j 0, j 1, eq_ix2 j⟩
  refine (k9_pay1_apply _ _ _ _ p q).trans ?_
  refine (cell9 V c t p q _ _ _ _ rfl rfl rfl rfl).trans ?_
  exact (congrArg (arr9_4 V c) (emb9_4 t p q)).symm

/-- The column sums a point computes are the point's slice of the blockwise column sums of the whole image. -/
theorem blk9_5 (t : Fin cfg9.N) :
    k9_pay2 (iblk9 V c 0 t) (iblk9 V c 1 t) (iblk9 V c 2 t) (iblk9 V c 3 t)
      = ((cfg9.win 5).blk t).view.read (Elt Ideal) (arr9_5 V c) := by
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (k9_pay2_apply _ _ _ _ q).trans ?_
  refine (Finset.sum_congr rfl fun p _ => cell9 V c t p q _ _ _ _ rfl rfl rfl rfl).trans ?_
  exact (congrArg (arr9_5 V c) (emb9_5 t 0 0 q)).symm

/-- Likewise the column sums of squares. -/
theorem blk9_6 (t : Fin cfg9.N) :
    k9_pay3 (iblk9 V c 0 t) (iblk9 V c 1 t) (iblk9 V c 2 t) (iblk9 V c 3 t)
      = ((cfg9.win 6).blk t).view.read (Elt Ideal) (arr9_6 V c) := by
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (k9_pay3_apply _ _ _ _ q).trans ?_
  refine (Finset.sum_congr rfl fun p _ => by rw [cell9 V c t p q _ _ _ _ rfl rfl rfl rfl]).trans ?_
  exact (congrArg (arr9_6 V c) (emb9_6 t 0 0 q)).symm

end Blocks

section Final
variable (V : (c : Dev nD) → (b : Ref sig .tc) → Buf (Elt Ideal) ((c : Thread nD τ).loc b)) (c : Dev nD)

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## What each point writes back is its block of the whole array -/

theorem flushed9_4 (t : Fin cfg9.N) :
    (dat9 V c).flushed 4 t = ((cfg9.win 4).blk t).view.read (Elt Ideal) (arr9_4 V c) := by
  show (cfg9.win 4).cut (grid9.coords t) ((dat9 V c).after 4 t) = _
  rw [after9_4]
  unfold out9_4
  rw [View.canon_unit_zero hz2]
  simp only [View.ld_unit_zero (S := S5000x128) hz2, View.ld_unit_zero (S := S128x128) hz2,
    View.ld_unit_zero (S := S1x128) hz2]
  exact blk9_4 V c t

theorem flushed9_5 (t : Fin cfg9.N) :
    (dat9 V c).flushed 5 t = ((cfg9.win 5).blk t).view.read (Elt Ideal) (arr9_5 V c) := by
  show (cfg9.win 5).cut (grid9.coords t) ((dat9 V c).after 5 t) = _
  rw [after9_5]
  unfold out9_5
  rw [View.canon_unit_zero hz3]
  simp only [View.ld_unit_zero (S := S5000x128) hz2, View.ld_unit_zero (S := S128x128) hz2,
    View.ld_unit_zero (S := S1x128) hz2]
  exact blk9_5 V c t

theorem flushed9_6 (t : Fin cfg9.N) :
    (dat9 V c).flushed 6 t = ((cfg9.win 6).blk t).view.read (Elt Ideal) (arr9_6 V c) := by
  show (cfg9.win 6).cut (grid9.coords t) ((dat9 V c).after 6 t) = _
  rw [after9_6]
  unfold out9_6
  rw [View.canon_unit_zero hz3]
  simp only [View.ld_unit_zero (S := S5000x128) hz2, View.ld_unit_zero (S := S128x128) hz2,
    View.ld_unit_zero (S := S1x128) hz2]
  exact blk9_6 V c t

/-! ## The blocks tile the arrays -/

/-- An index is in a point's block when each coordinate is in the block's range on its axis. -/
theorem mem9_4 (t : Fin cfg9.N) (i : S50000x128.Idx) :
    i ∈ ((cfg9.win 4).blk t).view.set ↔ ∀ a : Fin 2, win9_4.index t a * S5000x128.size a ≤ (i a).val
      ∧ (i a).val < win9_4.index t a * S5000x128.size a + S5000x128.size a := by
  show i ∈ ((View.whole (Pipeline.arrRef spec9 4)).slice (win9_4.rect t)).set ↔ _
  rw [View.set_slice_whole, Rect.mem_set_unit]
  exact Iff.rfl

theorem mem9_5 (t : Fin cfg9.N) (i : S10x1x128.Idx) :
    i ∈ ((cfg9.win 5).blk t).view.set ↔ ∀ a : Fin 3, win9_5.index t a * S1x1x128.size a ≤ (i a).val
      ∧ (i a).val < win9_5.index t a * S1x1x128.size a + S1x1x128.size a := by
  show i ∈ ((View.whole (Pipeline.arrRef spec9 5)).slice (win9_5.rect t)).set ↔ _
  rw [View.set_slice_whole, Rect.mem_set_unit]
  exact Iff.rfl

theorem mem9_6 (t : Fin cfg9.N) (i : S10x1x128.Idx) :
    i ∈ ((cfg9.win 6).blk t).view.set ↔ ∀ a : Fin 3, win9_6.index t a * S1x1x128.size a ≤ (i a).val
      ∧ (i a).val < win9_6.index t a * S1x1x128.size a + S1x1x128.size a := by
  show i ∈ ((View.whole (Pipeline.arrRef spec9 6)).slice (win9_6.rect t)).set ↔ _
  rw [View.set_slice_whole, Rect.mem_set_unit]
  exact Iff.rfl

/-- Row r of the image is in the block of point r / 5000. -/
theorem tile9_4 (i : S50000x128.Idx) :
    ∃ t : Fin cfg9.N, (cfg9.win 4).flush t = true ∧ i ∈ ((cfg9.win 4).blk t).view.set := by
  have hi0 : (i 0).val < 50000 := (i 0).isLt
  have hi1 : (i 1).val < 128 := (i 1).isLt
  obtain ⟨t, ht⟩ : ∃ t : Fin cfg9.N, t.val = (i 0).val / 5000 :=
    ⟨⟨(i 0).val / 5000, by show _ < grid9.N; rw [N_9]; omega⟩, rfl⟩
  refine ⟨t, flush9_4 t, ?_⟩
  rw [mem9_4]
  obtain ⟨-, -, -, -, -, -, -, -, e0, e1, -⟩ := idx9 t
  intro a
  match a with
  | ⟨0, _⟩ =>
    show win9_4.index t (0 : Fin 2) * 5000 ≤ (i 0).val ∧ (i 0).val < win9_4.index t (0 : Fin 2) * 5000 + 5000
    omega
  | ⟨1, _⟩ =>
    show win9_4.index t (1 : Fin 2) * 128 ≤ (i 1).val ∧ (i 1).val < win9_4.index t (1 : Fin 2) * 128 + 128
    omega

/-- Slice s of a stack of sums is the block of point s. -/
theorem tile9_5 (i : S10x1x128.Idx) :
    ∃ t : Fin cfg9.N, (cfg9.win 5).flush t = true ∧ i ∈ ((cfg9.win 5).blk t).view.set := by
  have hi0 : (i 0).val < 10 := (i 0).isLt
  have hi1 : (i 1).val < 1 := (i 1).isLt
  have hi2 : (i 2).val < 128 := (i 2).isLt
  obtain ⟨t, ht⟩ : ∃ t : Fin cfg9.N, t.val = (i 0).val :=
    ⟨⟨(i 0).val, by show _ < grid9.N; rw [N_9]; omega⟩, rfl⟩
  refine ⟨t, flush9_5 t, ?_⟩
  rw [mem9_5]
  obtain ⟨-, -, -, -, -, -, -, -, -, -, e0, e1, e2, -⟩ := idx9 t
  intro a
  match a with
  | ⟨0, _⟩ =>
    show win9_5.index t (0 : Fin 3) * 1 ≤ (i 0).val ∧ (i 0).val < win9_5.index t (0 : Fin 3) * 1 + 1
    omega
  | ⟨1, _⟩ =>
    show win9_5.index t (1 : Fin 3) * 1 ≤ (i 1).val ∧ (i 1).val < win9_5.index t (1 : Fin 3) * 1 + 1
    omega
  | ⟨2, _⟩ =>
    show win9_5.index t (2 : Fin 3) * 128 ≤ (i 2).val ∧ (i 2).val < win9_5.index t (2 : Fin 3) * 128 + 128
    omega

theorem tile9_6 (i : S10x1x128.Idx) :
    ∃ t : Fin cfg9.N, (cfg9.win 6).flush t = true ∧ i ∈ ((cfg9.win 6).blk t).view.set := by
  have hi0 : (i 0).val < 10 := (i 0).isLt
  have hi1 : (i 1).val < 1 := (i 1).isLt
  have hi2 : (i 2).val < 128 := (i 2).isLt
  obtain ⟨t, ht⟩ : ∃ t : Fin cfg9.N, t.val = (i 0).val :=
    ⟨⟨(i 0).val, by show _ < grid9.N; rw [N_9]; omega⟩, rfl⟩
  refine ⟨t, flush9_6 t, ?_⟩
  rw [mem9_6]
  obtain ⟨-, -, -, -, -, -, -, -, -, -, -, -, -, e0, e1, e2⟩ := idx9 t
  intro a
  match a with
  | ⟨0, _⟩ =>
    show win9_6.index t (0 : Fin 3) * 1 ≤ (i 0).val ∧ (i 0).val < win9_6.index t (0 : Fin 3) * 1 + 1
    omega
  | ⟨1, _⟩ =>
    show win9_6.index t (1 : Fin 3) * 1 ≤ (i 1).val ∧ (i 1).val < win9_6.index t (1 : Fin 3) * 1 + 1
    omega
  | ⟨2, _⟩ =>
    show win9_6.index t (2 : Fin 3) * 128 ≤ (i 2).val ∧ (i 2).val < win9_6.index t (2 : Fin 3) * 128 + 128
    omega

/-! ## The three arrays after the region -/

theorem final9_4 : (dat9 V c).arrAt 4 cfg9.N = arr9_4 V c :=
  (dat9 V c).arrAt_eq_of_cover 4 (arr9_4 V c) (fun t _ => flushed9_4 V c t) tile9_4

theorem final9_5 : (dat9 V c).arrAt 5 cfg9.N = arr9_5 V c :=
  (dat9 V c).arrAt_eq_of_cover 5 (arr9_5 V c) (fun t _ => flushed9_5 V c t) tile9_5

theorem final9_6 : (dat9 V c).arrAt 6 cfg9.N = arr9_6 V c :=
  (dat9 V c).arrAt_eq_of_cover 6 (arr9_6 V c) (fun t _ => flushed9_6 V c t) tile9_6

/-- The image window ends holding the first linear map of the sum of the two feature arrays. -/
theorem val9_4 :
    cur2 ((dat9 V c).arrAt 4 cfg9.N : S50000x128.Idx → EReal)
      = Spec.lin (fun r k => cur2 (V c (Pipeline.arrRef spec9 0)) r k + cur2 (V c (Pipeline.arrRef spec9 1)) r k)
          (cur2 (V c (Pipeline.arrRef spec9 2))) (row0 (V c (Pipeline.arrRef spec9 3))) := by
  rw [final9_4]
  rfl

/-- The second output holds, slice by slice, the column sums of that image over the block's rows. -/
theorem val9_5 (t : Fin 10) (k : Fin 128) :
    ((dat9 V c).arrAt 5 cfg9.N : S10x1x128.Idx → EReal) (ValueIdx.ix3 t 0 k)
      = Spec.ksum (Spec.lin (fun r k => cur2 (V c (Pipeline.arrRef spec9 0)) r k + cur2 (V c (Pipeline.arrRef spec9 1)) r k)
          (cur2 (V c (Pipeline.arrRef spec9 2))) (row0 (V c (Pipeline.arrRef spec9 3)))) t k := by
  rw [final9_5]
  rfl

/-- The third holds the column sums of its squares. -/
theorem val9_6 (t : Fin 10) (k : Fin 128) :
    ((dat9 V c).arrAt 6 cfg9.N : S10x1x128.Idx → EReal) (ValueIdx.ix3 t 0 k)
      = Spec.ksq (Spec.lin (fun r k => cur2 (V c (Pipeline.arrRef spec9 0)) r k + cur2 (V c (Pipeline.arrRef spec9 1)) r k)
          (cur2 (V c (Pipeline.arrRef spec9 2))) (row0 (V c (Pipeline.arrRef spec9 3)))) t k := by
  rw [final9_6]
  rfl

end Final

end Cert.KernelIdeal.Hand

end
-- ==== Proof.KI.Val10Pay.lean ====
/-
  What the payloads of the batch-normalisation / rectifier / second-product kernel are at an index, over the
  extended reals: the block of the second affine map is, entry by entry, the sum over the features of the rectified
  normalised pre-activation times the weight, plus the bias; the two statistics rows are the column sums of that
  block and of its squares.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.Hand

open Cert.KernelIdeal Cert.KernelIdeal.Gen Cert.Spec
open Idealize.ShloMosaic Idealize.ShloMosaic.ValueIdx

/-! ## The matrix product's operand indices, coordinate by coordinate -/

theorem mmlrow10 (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
theorem mmlcol10 (j : S5000x128.Idx) (k : dot_S5000x128_S128x128_S5000x128_1_0_0_1_n_n.contr.Idx) :
    (dot_S5000x128_S128x128_S5000x128_1_0_0_1_n_n.lhsIdx j k 1 : ℕ) = k ⟨0, by decide⟩ := by
  simp [DotDims.lhsIdx, dot_S5000x128_S128x128_S5000x128_1_0_0_1_n_n]; rfl
theorem mmrrow10 (j : S5000x128.Idx) (k : dot_S5000x128_S128x128_S5000x128_1_0_0_1_n_n.contr.Idx) :
    (dot_S5000x128_S128x128_S5000x128_1_0_0_1_n_n.rhsIdx j k 0 : ℕ) = k ⟨0, by decide⟩ := by
  simp [DotDims.rhsIdx, dot_S5000x128_S128x128_S5000x128_1_0_0_1_n_n]; rfl
theorem mmrcol10 (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-- The product into the zero block, at row p and column q: the sum over the 128 features. -/
theorem mmat10 (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hl : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact mmlrow10 _ _
      | ⟨1, _⟩ => exact (mmlcol10 _ _).trans (contrEquiv1_symm_val _ 128 rfl rfl k))
  have hr : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (mmrrow10 _ _).trans (contrEquiv1_symm_val _ 128 rfl rfl k)
      | ⟨1, _⟩ => exact mmrcol10 _ _)
  rw [hl, hr]

/-- The sum over the 5000 rows of a block, at column q. -/
theorem rsum10 (src : FVec Ideal S5000x128 .f32) (hφ : FKind.Formats .f32) (hacc : (0x00000000#32 : BitVec 32) = 0x00000000#32)
    (q : Fin 128) :
    multiReduction (F := Ideal) .add [0] S128 src 0x00000000#32 reduces_S5000x128_S128 hφ hacc (ix1 q)
      = ∑ p : Fin 5000, src (ix2 p q) := by
  refine (Ideal.multiReduction_add_single src 0x00000000#32 reduces_S5000x128_S128 hφ hacc (ix1 q)).trans ?_
  refine Finset.sum_congr rfl fun p _ => congrArg src (funext fun ax => Fin.ext ?_)
  match ax with
  | ⟨0, _⟩ => rfl
  | ⟨1, _⟩ => rfl

/-! ## The payloads at an index -/

/-- The block of the second affine map at row p and column q. The inputs are named in the kernel's window order:
    the pre-activations, their mean, their variance, the scale, the shift, the weights, the bias. -/
theorem payz10 (xz : Vec Ideal S5000x128 .f32) (xm xv xg xb : Vec Ideal S1x128 .f32) (xw : Vec Ideal S128x128 .f32)
    (xc : Vec Ideal S1x128 .f32) (p : Fin 5000) (q : Fin 128) :
    k10_pay3 xz xv xm xg xb xw xc (ix2 p q)
      = (∑ k : Fin 128, max ((xz (ix2 p k) - xm (ix2 0 k)) * Ideal.rsqrt (xv (ix2 0 k) + eps) * xg (ix2 0 k) + xb (ix2 0 k)) 0
            * xw (ix2 k q)) + xc (ix2 0 q) := by
  unfold k10_pay3
  refine (congrArg₂ (· + ·) (mmat10 _ _ p q) (broadcastTo_1b_ab_apply _ _ p q)).trans ?_
  simp only [shapeCast_self]
  refine congrArg (· + xc (ix2 0 q)) (Finset.sum_congr rfl fun k _ => ?_)
  simp only [truncf_apply, maximumf_apply, addf_apply, mulf_apply, subf_apply, broadcast_apply, broadcastTo_1b_ab_apply]
  have hzero : (FloatOps.ofBits (F := Ideal) .f32 0x00000000#32) = 0 := Ideal.ofBits_zero_f32
  rw [hzero]
  rfl

/-- The row of column sums the kernel stores: at column q, the sum of the block's entries down the 5000 rows. -/
theorem paysum10 (xz : Vec Ideal S5000x128 .f32) (xm xv xg xb : Vec Ideal S1x128 .f32) (xw : Vec Ideal S128x128 .f32)
    (xc : Vec Ideal S1x128 .f32) (u v : Fin 1) (q : Fin 128) :
    k10_pay1 (k10_pay4 xz xv xm xg xb xw xc) (ix3 u v q) = ∑ p : Fin 5000, k10_pay3 xz xv xm xg xb xw xc (ix2 p q) := by
  unfold k10_pay1 k10_pay4
  refine (shapeCast_ab_1ab_apply _ _ u v q).trans ?_
  refine (shapeCast_a_1a_apply _ _ v q).trans ?_
  exact rsum10 _ _ _ q

/-- The row of column sums of squares: at column q, the sum of the squared entries down the rows. -/
theorem paysq10 (xz : Vec Ideal S5000x128 .f32) (xm xv xg xb : Vec Ideal S1x128 .f32) (xw : Vec Ideal S128x128 .f32)
    (xc : Vec Ideal S1x128 .f32) (u v : Fin 1) (q : Fin 128) :
    k10_pay2 (k10_pay5 xz xv xm xg xb xw xc) (ix3 u v q)
      = ∑ p : Fin 5000, k10_pay3 xz xv xm xg xb xw xc (ix2 p q) * k10_pay3 xz xv xm xg xb xw xc (ix2 p q) := by
  unfold k10_pay2 k10_pay5
  refine (shapeCast_ab_1ab_apply _ _ u v q).trans ?_
  refine (shapeCast_a_1a_apply _ _ v q).trans ?_
  exact rsum10 _ _ _ q

end Cert.KernelIdeal.Hand

end
-- ==== Proof.KI.Val10Blk.lean ====
/-
  Where the blocks of the batch-normalisation / rectifier / second-product kernel sit in their arrays: at grid point t
  the block of pre-activations and the block of results are rows 5000·t … 5000·t + 4999, the per-feature rows and the
  weights are whole arrays, and the two statistics rows are row t of their ten-row arrays; the result blocks cover
  their arrays. Also the layer's second affine map of whole arrays, as one function.
-/
import proofs.«422260_j36421322670663_2_alg».proof.Proof.Gen.KernelIdeal.Launch
import proofs.«422260_j36421322670663_2_alg».proof.Proof.Gen.KernelIdeal.Points
import proofs.«422260_j36421322670663_2_alg».proof.Proof.Spec
import proofs.«422260_j36421322670663_2_alg».proof.Proof.SpecPool
import Idealize.ShloMosaic.Lib.ValueIdx
import Idealize.ShloMosaic.Lib.Pipeline.Value

set_option pp.maxSteps 5000
set_option pp.deepTerms false

noncomputable section

namespace Cert.KernelIdeal.Hand

open Cert.KernelIdeal Cert.KernelIdeal.Gen Cert.Spec
open Idealize.ShloMosaic Idealize.ShloMosaic.ValueIdx Idealize.ShloMosaic.TcCoe

/-- The second affine map of the rectified normalised pre-activations, from whole arrays. -/
def gz10 (az : S50000x128.Idx → EReal) (am av ag ab : S1x128.Idx → EReal) (aw : S128x128.Idx → EReal)
    (ac : S1x128.Idx → EReal) : Mat 50000 128 :=
  Spec.lin (Spec.bnrelu (cur2 az) (row0 am) (row0 av) (row0 ag) (row0 ab)) (cur2 aw) (row0 ac)

/-- A grid point as a block number. -/
def tblk10 (t : Fin cfg10.N) : Fin 10 := Fin.cast N_10 t

theorem tblk10_val (t : Fin cfg10.N) : (tblk10 t).val = t.val := rfl

/-- The block indices at every grid point. -/
theorem blkidx10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0
    ∧ win10_8.index t (0 : Fin 3) = t.val ∧ win10_8.index t (1 : Fin 3) = 0 ∧ win10_8.index t (2 : Fin 3) = 0
    ∧ win10_9.index t (0 : Fin 3) = t.val ∧ win10_9.index t (1 : Fin 3) = 0 ∧ win10_9.index t (2 : Fin 3) = 0 :=
  (by decide +kernel : ∀ t : Fin grid10.N, _)

/-! ## Where a block's entry sits in its array -/

theorem embz10 (t : Fin cfg10.N) (p : Fin 5000) (k : Fin 128) :
    ((cfg10.win 0).blk t).view.emb (ix2 p k) = ix2 (brow (tblk10 t) p) k := by
  have e := blkidx10 t
  funext a; apply Fin.ext
  match a with
  | ⟨0, _⟩ => show win10_0.index t (0 : Fin 2) * 5000 + 1 * p.val = t.val * 5000 + p.val; rw [e.1]; omega
  | ⟨1, _⟩ => show win10_0.index t (1 : Fin 2) * 128 + 1 * k.val = k.val; rw [e.2.1]; omega

theorem embm10 (t : Fin cfg10.N) (u : Fin 1) (k : Fin 128) :
    ((cfg10.win 1).blk t).view.emb (ix2 u k) = ix2 0 k := by
  have e := blkidx10 t
  funext a; apply Fin.ext
  match a with
  | ⟨0, _⟩ => show win10_1.index t (0 : Fin 2) * 1 + 1 * u.val = 0; rw [e.2.2.1]; omega
  | ⟨1, _⟩ => show win10_1.index t (1 : Fin 2) * 128 + 1 * k.val = k.val; rw [e.2.2.2.1]; omega

theorem embv10 (t : Fin cfg10.N) (u : Fin 1) (k : Fin 128) :
    ((cfg10.win 2).blk t).view.emb (ix2 u k) = ix2 0 k := by
  have e := blkidx10 t
  funext a; apply Fin.ext
  match a with
  | ⟨0, _⟩ => show win10_2.index t (0 : Fin 2) * 1 + 1 * u.val = 0; rw [e.2.2.2.2.1]; omega
  | ⟨1, _⟩ => show win10_2.index t (1 : Fin 2) * 128 + 1 * k.val = k.val; rw [e.2.2.2.2.2.1]; omega

theorem embg10 (t : Fin cfg10.N) (u : Fin 1) (k : Fin 128) :
    ((cfg10.win 3).blk t).view.emb (ix2 u k) = ix2 0 k := by
  have e := blkidx10 t
  funext a; apply Fin.ext
  match a with
  | ⟨0, _⟩ => show win10_3.index t (0 : Fin 2) * 1 + 1 * u.val = 0; rw [e.2.2.2.2.2.2.1]; omega
  | ⟨1, _⟩ => show win10_3.index t (1 : Fin 2) * 128 + 1 * k.val = k.val; rw [e.2.2.2.2.2.2.2.1]; omega

theorem embb10 (t : Fin cfg10.N) (u : Fin 1) (k : Fin 128) :
    ((cfg10.win 4).blk t).view.emb (ix2 u k) = ix2 0 k := by
  have e := blkidx10 t
  funext a; apply Fin.ext
  match a with
  | ⟨0, _⟩ => show win10_4.index t (0 : Fin 2) * 1 + 1 * u.val = 0; rw [e.2.2.2.2.2.2.2.2.1]; omega
  | ⟨1, _⟩ => show win10_4.index t (1 : Fin 2) * 128 + 1 * k.val = k.val; rw [e.2.2.2.2.2.2.2.2.2.1]; omega

theorem embw10 (t : Fin cfg10.N) (k q : Fin 128) :
    ((cfg10.win 5).blk t).view.emb (ix2 k q) = ix2 k q := by
  have e := blkidx10 t
  funext a; apply Fin.ext
  match a with
  | ⟨0, _⟩ => show win10_5.index t (0 : Fin 2) * 128 + 1 * k.val = k.val; rw [e.2.2.2.2.2.2.2.2.2.2.1]; omega
  | ⟨1, _⟩ => show win10_5.index t (1 : Fin 2) * 128 + 1 * q.val = q.val; rw [e.2.2.2.2.2.2.2.2.2.2.2.1]; omega

theorem embc10 (t : Fin cfg10.N) (u : Fin 1) (k : Fin 128) :
    ((cfg10.win 6).blk t).view.emb (ix2 u k) = ix2 0 k := by
  have e := blkidx10 t
  funext a; apply Fin.ext
  match a with
  | ⟨0, _⟩ => show win10_6.index t (0 : Fin 2) * 1 + 1 * u.val = 0; rw [e.2.2.2.2.2.2.2.2.2.2.2.2.1]; omega
  | ⟨1, _⟩ => show win10_6.index t (1 : Fin 2) * 128 + 1 * k.val = k.val; rw [e.2.2.2.2.2.2.2.2.2.2.2.2.2.1]; omega

theorem embo10_7 (t : Fin cfg10.N) (p : Fin 5000) (q : Fin 128) :
    ((cfg10.win 7).blk t).view.emb (ix2 p q) = ix2 (brow (tblk10 t) p) q := by
  have e := blkidx10 t
  funext a; apply Fin.ext
  match a with
  | ⟨0, _⟩ => show win10_7.index t (0 : Fin 2) * 5000 + 1 * p.val = t.val * 5000 + p.val; rw [e.2.2.2.2.2.2.2.2.2.2.2.2.2.2.1]; omega
  | ⟨1, _⟩ => show win10_7.index t (1 : Fin 2) * 128 + 1 * q.val = q.val; rw [e.2.2.2.2.2.2.2.2.2.2.2.2.2.2.2.1]; omega

theorem embo10_8 (t : Fin cfg10.N) (u v : Fin 1) (q : Fin 128) :
    ((cfg10.win 8).blk t).view.emb (ix3 u v q) = ix3 (tblk10 t) 0 q := by
  obtain ⟨-, -, -, -, -, -, -, -, -, -, -, -, -, -, -, -, e0, e1, e2, -⟩ := blkidx10 t
  funext a; apply Fin.ext
  match a with
  | ⟨0, _⟩ => show win10_8.index t (0 : Fin 3) * 1 + 1 * u.val = t.val; rw [e0]; omega
  | ⟨1, _⟩ => show win10_8.index t (1 : Fin 3) * 1 + 1 * v.val = 0; rw [e1]; omega
  | ⟨2, _⟩ => show win10_8.index t (2 : Fin 3) * 128 + 1 * q.val = q.val; rw [e2]; omega

theorem embo10_9 (t : Fin cfg10.N) (u v : Fin 1) (q : Fin 128) :
    ((cfg10.win 9).blk t).view.emb (ix3 u v q) = ix3 (tblk10 t) 0 q := by
  obtain ⟨-, -, -, -, -, -, -, -, -, -, -, -, -, -, -, -, -, -, -, e0, e1, e2⟩ := blkidx10 t
  funext a; apply Fin.ext
  match a with
  | ⟨0, _⟩ => show win10_9.index t (0 : Fin 3) * 1 + 1 * u.val = t.val; rw [e0]; omega
  | ⟨1, _⟩ => show win10_9.index t (1 : Fin 3) * 1 + 1 * v.val = 0; rw [e1]; omega
  | ⟨2, _⟩ => show win10_9.index t (2 : Fin 3) * 128 + 1 * q.val = q.val; rw [e2]; omega

/-! ## The result blocks cover their arrays -/

/-- Every entry of the array of results lies in the block of the point its row belongs to. -/
theorem cover10_7w (i : S50000x128.Idx) :
    ∃ t : Fin cfg10.N, (cfg10.win 7).flush t = true ∧ i ∈ ((cfg10.win 7).blk t).view.set := by
  have hi0 : (i 0).val < 50000 := (i 0).isLt
  have hi1 : (i 1).val < 128 := (i 1).isLt
  have hN : cfg10.N = 10 := N_10
  let t : Fin cfg10.N := ⟨(i 0).val / 5000, by rw [hN]; omega⟩
  have ht : t.val = (i 0).val / 5000 := rfl
  obtain ⟨-, -, -, -, -, -, -, -, -, -, -, -, -, -, e0, e1, -⟩ := blkidx10 t
  refine ⟨t, flush10_7 t, ?_⟩
  show i ∈ ((View.whole (Pipeline.arrRef spec10 7)).slice (win10_7.rect t)).set
  rw [View.set_slice_whole, Rect.mem_set_unit]
  intro a
  match a with
  | ⟨0, _⟩ => show win10_7.index t (0 : Fin 2) * 5000 ≤ (i 0).val ∧ (i 0).val < win10_7.index t (0 : Fin 2) * 5000 + 5000; rw [e0, ht]; omega
  | ⟨1, _⟩ => show win10_7.index t (1 : Fin 2) * 128 ≤ (i 1).val ∧ (i 1).val < win10_7.index t (1 : Fin 2) * 128 + 128; rw [e1]; omega

/-- Every entry of the ten rows of column sums lies in the block of its row's point. -/
theorem cover10_8w (i : S10x1x128.Idx) :
    ∃ t : Fin cfg10.N, (cfg10.win 8).flush t = true ∧ i ∈ ((cfg10.win 8).blk t).view.set := by
  have hi0 : (i 0).val < 10 := (i 0).isLt
  have hi1 : (i 1).val < 1 := (i 1).isLt
  have hi2 : (i 2).val < 128 := (i 2).isLt
  have hN : cfg10.N = 10 := N_10
  let t : Fin cfg10.N := ⟨(i 0).val, by rw [hN]; omega⟩
  have ht : t.val = (i 0).val := rfl
  obtain ⟨-, -, -, -, -, -, -, -, -, -, -, -, -, -, -, -, e0, e1, e2, -⟩ := blkidx10 t
  refine ⟨t, flush10_8 t, ?_⟩
  show i ∈ ((View.whole (Pipeline.arrRef spec10 8)).slice (win10_8.rect t)).set
  rw [View.set_slice_whole, Rect.mem_set_unit]
  intro a
  match a with
  | ⟨0, _⟩ => show win10_8.index t (0 : Fin 3) * 1 ≤ (i 0).val ∧ (i 0).val < win10_8.index t (0 : Fin 3) * 1 + 1; rw [e0, ht]; omega
  | ⟨1, _⟩ => show win10_8.index t (1 : Fin 3) * 1 ≤ (i 1).val ∧ (i 1).val < win10_8.index t (1 : Fin 3) * 1 + 1; rw [e1]; omega
  | ⟨2, _⟩ => show win10_8.index t (2 : Fin 3) * 128 ≤ (i 2).val ∧ (i 2).val < win10_8.index t (2 : Fin 3) * 128 + 128; rw [e2]; omega

/-- The same for the ten rows of column sums of squares. -/
theorem cover10_9w (i : S10x1x128.Idx) :
    ∃ t : Fin cfg10.N, (cfg10.win 9).flush t = true ∧ i ∈ ((cfg10.win 9).blk t).view.set := by
  have hi0 : (i 0).val < 10 := (i 0).isLt
  have hi1 : (i 1).val < 1 := (i 1).isLt
  have hi2 : (i 2).val < 128 := (i 2).isLt
  have hN : cfg10.N = 10 := N_10
  let t : Fin cfg10.N := ⟨(i 0).val, by rw [hN]; omega⟩
  have ht : t.val = (i 0).val := rfl
  obtain ⟨-, -, -, -, -, -, -, -, -, -, -, -, -, -, -, -, -, -, -, e0, e1, e2⟩ := blkidx10 t
  refine ⟨t, flush10_9 t, ?_⟩
  show i ∈ ((View.whole (Pipeline.arrRef spec10 9)).slice (win10_9.rect t)).set
  rw [View.set_slice_whole, Rect.mem_set_unit]
  intro a
  match a with
  | ⟨0, _⟩ => show win10_9.index t (0 : Fin 3) * 1 ≤ (i 0).val ∧ (i 0).val < win10_9.index t (0 : Fin 3) * 1 + 1; rw [e0, ht]; omega
  | ⟨1, _⟩ => show win10_9.index t (1 : Fin 3) * 1 ≤ (i 1).val ∧ (i 1).val < win10_9.index t (1 : Fin 3) * 1 + 1; rw [e1]; omega
  | ⟨2, _⟩ => show win10_9.index t (2 : Fin 3) * 128 ≤ (i 2).val ∧ (i 2).val < win10_9.index t (2 : Fin 3) * 128 + 128; rw [e2]; omega

end Cert.KernelIdeal.Hand

end
-- ==== Proof.KI.Val10.lean ====
/-
  What the batch-normalisation / rectifier / second-product kernel leaves in its three result arrays, over the extended
  reals: the array of the second affine map is that map of the whole input arrays, and row t of the two statistics
  arrays holds the column sums, and the column sums of squares, of rows 5000·t … 5000·t + 4999 of it.
-/
import proofs.«422260_j36421322670663_2_alg».proof.Proof.KI.Reg10
import proofs.«422260_j36421322670663_2_alg».proof.Proof.KI.Val10Pay
import proofs.«422260_j36421322670663_2_alg».proof.Proof.KI.Val10Blk

set_option pp.maxSteps 5000
set_option pp.deepTerms false

noncomputable section

namespace Cert.KernelIdeal.Hand

open Cert.KernelIdeal Cert.KernelIdeal.Gen Cert.Spec
open Idealize.ShloMosaic Idealize.ShloMosaic.ValueIdx Idealize.ShloMosaic.TcCoe
open Idealize.SL.Sem
open Idealize.ShloMosaic.Pipeline (Dat Cfg Window)

-- the contents of every array when the region is entered
variable (V : (c : Dev nD) → (b : Ref sig .tc) → Buf (Elt Ideal) ((c : Thread nD τ).loc b))

theorem hzz10 : (![0, 0] : Fin 2 → Nat) = fun _ => 0 := funext fun a => by fin_cases a <;> rfl
theorem hzzz10 : (![0, 0, 0] : Fin 3 → Nat) = fun _ => 0 := funext fun a => by fin_cases a <;> rfl

/-- The second affine map of the arrays as the region finds them. -/
abbrev garr10 (c : Dev nD) : Mat 50000 128 :=
  gz10 (V c (Pipeline.arrRef spec10 0)) (V c (Pipeline.arrRef spec10 1)) (V c (Pipeline.arrRef spec10 2))
    (V c (Pipeline.arrRef spec10 3)) (V c (Pipeline.arrRef spec10 4)) (V c (Pipeline.arrRef spec10 5))
    (V c (Pipeline.arrRef spec10 6))

/-! ## One entry of a block's result, from blocks that are parts of arrays -/

/-- If row p of the block of pre-activations is row r of their array and the other blocks are their arrays, the
    block's result at (p, q) is the array's second affine map at (r, q). -/
theorem ptz10 (az : S50000x128.Idx → EReal) (am av ag ab : S1x128.Idx → EReal) (aw : S128x128.Idx → EReal)
    (ac : S1x128.Idx → EReal)
    (xz : Vec Ideal S5000x128 .f32) (xm xv xg xb : Vec Ideal S1x128 .f32) (xw : Vec Ideal S128x128 .f32)
    (xc : Vec Ideal S1x128 .f32) (r : Fin 50000) (p : Fin 5000) (q : Fin 128)
    (hz : ∀ k : Fin 128, xz (ix2 p k) = az (ix2 r k))
    (hm : ∀ k : Fin 128, xm (ix2 0 k) = am (ix2 0 k)) (hv : ∀ k : Fin 128, xv (ix2 0 k) = av (ix2 0 k))
    (hg : ∀ k : Fin 128, xg (ix2 0 k) = ag (ix2 0 k)) (hb : ∀ k : Fin 128, xb (ix2 0 k) = ab (ix2 0 k))
    (hw : ∀ k : Fin 128, xw (ix2 k q) = aw (ix2 k q)) (hc : xc (ix2 0 q) = ac (ix2 0 q)) :
    k10_pay3 xz xv xm xg xb xw xc (ix2 p q) = gz10 az am av ag ab aw ac r q := by
  rw [payz10]
  simp only [gz10, Spec.lin, Spec.bnrelu, cur2, row0, hz, hm, hv, hg, hb, hw, hc]

/-- Each input block read at an entry is its array read where the block sits. -/
theorem iblkz10 (c : Dev nD) (t : Fin cfg10.N) (p : Fin 5000) (k : Fin 128) :
    (iblk10 V c 0 t : Vec Ideal S5000x128 .f32) (ix2 p k)
      = (V c (Pipeline.arrRef spec10 0) : S50000x128.Idx → EReal) (ix2 (brow (tblk10 t) p) k) := by
  show (V c (Pipeline.arrRef spec10 0) : S50000x128.Idx → EReal) (((cfg10.win 0).blk t).view.emb (ix2 p k)) = _
  rw [embz10]
theorem iblkm10 (c : Dev nD) (t : Fin cfg10.N) (k : Fin 128) :
    (iblk10 V c 1 t : Vec Ideal S1x128 .f32) (ix2 0 k) = (V c (Pipeline.arrRef spec10 1) : S1x128.Idx → EReal) (ix2 0 k) := by
  show (V c (Pipeline.arrRef spec10 1) : S1x128.Idx → EReal) (((cfg10.win 1).blk t).view.emb (ix2 0 k)) = _
  rw [embm10]
theorem iblkv10 (c : Dev nD) (t : Fin cfg10.N) (k : Fin 128) :
    (iblk10 V c 2 t : Vec Ideal S1x128 .f32) (ix2 0 k) = (V c (Pipeline.arrRef spec10 2) : S1x128.Idx → EReal) (ix2 0 k) := by
  show (V c (Pipeline.arrRef spec10 2) : S1x128.Idx → EReal) (((cfg10.win 2).blk t).view.emb (ix2 0 k)) = _
  rw [embv10]
theorem iblkg10 (c : Dev nD) (t : Fin cfg10.N) (k : Fin 128) :
    (iblk10 V c 3 t : Vec Ideal S1x128 .f32) (ix2 0 k) = (V c (Pipeline.arrRef spec10 3) : S1x128.Idx → EReal) (ix2 0 k) := by
  show (V c (Pipeline.arrRef spec10 3) : S1x128.Idx → EReal) (((cfg10.win 3).blk t).view.emb (ix2 0 k)) = _
  rw [embg10]
theorem iblkb10 (c : Dev nD) (t : Fin cfg10.N) (k : Fin 128) :
    (iblk10 V c 4 t : Vec Ideal S1x128 .f32) (ix2 0 k) = (V c (Pipeline.arrRef spec10 4) : S1x128.Idx → EReal) (ix2 0 k) := by
  show (V c (Pipeline.arrRef spec10 4) : S1x128.Idx → EReal) (((cfg10.win 4).blk t).view.emb (ix2 0 k)) = _
  rw [embb10]
theorem iblkw10 (c : Dev nD) (t : Fin cfg10.N) (k q : Fin 128) :
    (iblk10 V c 5 t : Vec Ideal S128x128 .f32) (ix2 k q) = (V c (Pipeline.arrRef spec10 5) : S128x128.Idx → EReal) (ix2 k q) := by
  show (V c (Pipeline.arrRef spec10 5) : S128x128.Idx → EReal) (((cfg10.win 5).blk t).view.emb (ix2 k q)) = _
  rw [embw10]
theorem iblkc10 (c : Dev nD) (t : Fin cfg10.N) (k : Fin 128) :
    (iblk10 V c 6 t : Vec Ideal S1x128 .f32) (ix2 0 k) = (V c (Pipeline.arrRef spec10 6) : S1x128.Idx → EReal) (ix2 0 k) := by
  show (V c (Pipeline.arrRef spec10 6) : S1x128.Idx → EReal) (((cfg10.win 6).blk t).view.emb (ix2 0 k)) = _
  rw [embc10]

/-- The result of point t's blocks at (p, q) is the arrays' second affine map at row 5000·t + p. -/
theorem blkpt10 (c : Dev nD) (t : Fin cfg10.N) (p : Fin 5000) (q : Fin 128) :
    k10_pay3 (iblk10 V c 0 t : Vec Ideal S5000x128 .f32) (iblk10 V c 2 t : Vec Ideal S1x128 .f32)
        (iblk10 V c 1 t : Vec Ideal S1x128 .f32) (iblk10 V c 3 t : Vec Ideal S1x128 .f32)
        (iblk10 V c 4 t : Vec Ideal S1x128 .f32) (iblk10 V c 5 t : Vec Ideal S128x128 .f32)
        (iblk10 V c 6 t : Vec Ideal S1x128 .f32) (ix2 p q)
      = garr10 V c (brow (tblk10 t) p) q :=
  ptz10 (V c (Pipeline.arrRef spec10 0)) (V c (Pipeline.arrRef spec10 1)) (V c (Pipeline.arrRef spec10 2))
    (V c (Pipeline.arrRef spec10 3)) (V c (Pipeline.arrRef spec10 4)) (V c (Pipeline.arrRef spec10 5))
    (V c (Pipeline.arrRef spec10 6))
    (iblk10 V c 0 t) (iblk10 V c 1 t) (iblk10 V c 2 t) (iblk10 V c 3 t) (iblk10 V c 4 t) (iblk10 V c 5 t) (iblk10 V c 6 t)
    (brow (tblk10 t) p) p q
    (fun k => iblkz10 V c t p k) (fun k => iblkm10 V c t k) (fun k => iblkv10 V c t k) (fun k => iblkg10 V c t k)
    (fun k => iblkb10 V c t k) (fun k => iblkw10 V c t k q) (iblkc10 V c t q)

/-! ## What each point writes back is its block of one whole-array function -/

theorem flushed10_7 (c : Dev nD) (t : Fin cfg10.N) :
    (dat10 V c).flushed 7 t = ((cfg10.win 7).blk t).view.read (Elt Ideal)
      (fun i : S50000x128.Idx => garr10 V c (i 0) (i 1)) := by
  show (cfg10.win 7).cut (grid10.coords t) ((dat10 V c).after 7 t) = _
  rw [after10_7]
  unfold out10_7
  rw [View.canon_unit_zero hzz10]
  simp only [View.ld_unit_zero (S := S5000x128) hzz10, View.ld_unit_zero (S := S1x128) hzz10,
    View.ld_unit_zero (S := S128x128) hzz10]
  funext j
  obtain ⟨p, q, rfl⟩ : ∃ (p : Fin 5000) (q : Fin 128), j = ix2 p q := ⟨j 0, j 1, eq_ix2 j⟩
  show k10_pay3 (iblk10 V c 0 t : Vec Ideal S5000x128 .f32) (iblk10 V c 2 t : Vec Ideal S1x128 .f32)
        (iblk10 V c 1 t : Vec Ideal S1x128 .f32) (iblk10 V c 3 t : Vec Ideal S1x128 .f32)
        (iblk10 V c 4 t : Vec Ideal S1x128 .f32) (iblk10 V c 5 t : Vec Ideal S128x128 .f32)
        (iblk10 V c 6 t : Vec Ideal S1x128 .f32) (ix2 p q)
      = garr10 V c ((((cfg10.win 7).blk t).view.emb (ix2 p q)) 0) ((((cfg10.win 7).blk t).view.emb (ix2 p q)) 1)
  rw [embo10_7 t p q]
  exact blkpt10 V c t p q

theorem flushed10_8 (c : Dev nD) (t : Fin cfg10.N) :
    (dat10 V c).flushed 8 t = ((cfg10.win 8).blk t).view.read (Elt Ideal)
      (fun i : S10x1x128.Idx => Spec.ksum (garr10 V c) (i 0) (i 2)) := by
  show (cfg10.win 8).cut (grid10.coords t) ((dat10 V c).after 8 t) = _
  rw [after10_8]
  unfold out10_8
  rw [View.canon_unit_zero hzzz10]
  simp only [View.ld_unit_zero (S := S5000x128) hzz10, View.ld_unit_zero (S := S1x128) hzz10,
    View.ld_unit_zero (S := S128x128) hzz10]
  funext j
  obtain ⟨u, v, q, rfl⟩ : ∃ (u v : Fin 1) (q : Fin 128), j = ix3 u v q := ⟨j 0, j 1, j 2, eq_ix3 j⟩
  show k10_pay1 (k10_pay4 (iblk10 V c 0 t : Vec Ideal S5000x128 .f32) (iblk10 V c 2 t : Vec Ideal S1x128 .f32)
        (iblk10 V c 1 t : Vec Ideal S1x128 .f32) (iblk10 V c 3 t : Vec Ideal S1x128 .f32)
        (iblk10 V c 4 t : Vec Ideal S1x128 .f32) (iblk10 V c 5 t : Vec Ideal S128x128 .f32)
        (iblk10 V c 6 t : Vec Ideal S1x128 .f32)) (ix3 u v q)
      = Spec.ksum (garr10 V c) ((((cfg10.win 8).blk t).view.emb (ix3 u v q)) 0) ((((cfg10.win 8).blk t).view.emb (ix3 u v q)) 2)
  rw [embo10_8 t u v q]
  refine (paysum10 _ _ _ _ _ _ _ u v q).trans ?_
  exact Finset.sum_congr rfl fun p _ => blkpt10 V c t p q

theorem flushed10_9 (c : Dev nD) (t : Fin cfg10.N) :
    (dat10 V c).flushed 9 t = ((cfg10.win 9).blk t).view.read (Elt Ideal)
      (fun i : S10x1x128.Idx => Spec.ksq (garr10 V c) (i 0) (i 2)) := by
  show (cfg10.win 9).cut (grid10.coords t) ((dat10 V c).after 9 t) = _
  rw [after10_9]
  unfold out10_9
  rw [View.canon_unit_zero hzzz10]
  simp only [View.ld_unit_zero (S := S5000x128) hzz10, View.ld_unit_zero (S := S1x128) hzz10,
    View.ld_unit_zero (S := S128x128) hzz10]
  funext j
  obtain ⟨u, v, q, rfl⟩ : ∃ (u v : Fin 1) (q : Fin 128), j = ix3 u v q := ⟨j 0, j 1, j 2, eq_ix3 j⟩
  show k10_pay2 (k10_pay5 (iblk10 V c 0 t : Vec Ideal S5000x128 .f32) (iblk10 V c 2 t : Vec Ideal S1x128 .f32)
        (iblk10 V c 1 t : Vec Ideal S1x128 .f32) (iblk10 V c 3 t : Vec Ideal S1x128 .f32)
        (iblk10 V c 4 t : Vec Ideal S1x128 .f32) (iblk10 V c 5 t : Vec Ideal S128x128 .f32)
        (iblk10 V c 6 t : Vec Ideal S1x128 .f32)) (ix3 u v q)
      = Spec.ksq (garr10 V c) ((((cfg10.win 9).blk t).view.emb (ix3 u v q)) 0) ((((cfg10.win 9).blk t).view.emb (ix3 u v q)) 2)
  rw [embo10_9 t u v q]
  refine (paysq10 _ _ _ _ _ _ _ u v q).trans ?_
  exact Finset.sum_congr rfl fun p _ => congrArg₂ (· * ·) (blkpt10 V c t p q) (blkpt10 V c t p q)

/-! ## The arrays after the region -/

theorem arr10_7 (c : Dev nD) :
    ((dat10 V c).arrAt 7 cfg10.N : S50000x128.Idx → EReal) = fun i : S50000x128.Idx => garr10 V c (i 0) (i 1) :=
  (dat10 V c).arrAt_eq_of_cover 7 (fun i : S50000x128.Idx => garr10 V c (i 0) (i 1)) (fun t _ => flushed10_7 V c t) cover10_7w

theorem arr10_8 (c : Dev nD) :
    ((dat10 V c).arrAt 8 cfg10.N : S10x1x128.Idx → EReal) = fun i : S10x1x128.Idx => Spec.ksum (garr10 V c) (i 0) (i 2) :=
  (dat10 V c).arrAt_eq_of_cover 8 (fun i : S10x1x128.Idx => Spec.ksum (garr10 V c) (i 0) (i 2)) (fun t _ => flushed10_8 V c t) cover10_8w

theorem arr10_9 (c : Dev nD) :
    ((dat10 V c).arrAt 9 cfg10.N : S10x1x128.Idx → EReal) = fun i : S10x1x128.Idx => Spec.ksq (garr10 V c) (i 0) (i 2) :=
  (dat10 V c).arrAt_eq_of_cover 9 (fun i : S10x1x128.Idx => Spec.ksq (garr10 V c) (i 0) (i 2)) (fun t _ => flushed10_9 V c t) cover10_9w

/-- The array of the second affine map after the region: that map of the arrays the region found. -/
theorem val10_7 (c : Dev nD) :
    cur2 ((dat10 V c).arrAt 7 cfg10.N : S50000x128.Idx → EReal)
      = Spec.lin (Spec.bnrelu (cur2 (V c (Pipeline.arrRef spec10 0))) (row0 (V c (Pipeline.arrRef spec10 1)))
          (row0 (V c (Pipeline.arrRef spec10 2))) (row0 (V c (Pipeline.arrRef spec10 3)))
          (row0 (V c (Pipeline.arrRef spec10 4)))) (cur2 (V c (Pipeline.arrRef spec10 5)))
          (row0 (V c (Pipeline.arrRef spec10 6))) :=
  funext fun r => funext fun k => congrFun (arr10_7 V c) (ix2 r k)

/-- Row t of the column sums after the region. -/
theorem val10_8 (c : Dev nD) (t : Fin 10) (k : Fin 128) :
    ((dat10 V c).arrAt 8 cfg10.N : S10x1x128.Idx → EReal) (ValueIdx.ix3 t 0 k)
      = Spec.ksum (Spec.lin (Spec.bnrelu (cur2 (V c (Pipeline.arrRef spec10 0))) (row0 (V c (Pipeline.arrRef spec10 1)))
          (row0 (V c (Pipeline.arrRef spec10 2))) (row0 (V c (Pipeline.arrRef spec10 3)))
          (row0 (V c (Pipeline.arrRef spec10 4)))) (cur2 (V c (Pipeline.arrRef spec10 5)))
          (row0 (V c (Pipeline.arrRef spec10 6)))) t k :=
  congrFun (arr10_8 V c) (ix3 t 0 k)

/-- Row t of the column sums of squares after the region. -/
theorem val10_9 (c : Dev nD) (t : Fin 10) (k : Fin 128) :
    ((dat10 V c).arrAt 9 cfg10.N : S10x1x128.Idx → EReal) (ValueIdx.ix3 t 0 k)
      = Spec.ksq (Spec.lin (Spec.bnrelu (cur2 (V c (Pipeline.arrRef spec10 0))) (row0 (V c (Pipeline.arrRef spec10 1)))
          (row0 (V c (Pipeline.arrRef spec10 2))) (row0 (V c (Pipeline.arrRef spec10 3)))
          (row0 (V c (Pipeline.arrRef spec10 4)))) (cur2 (V c (Pipeline.arrRef spec10 5)))
          (row0 (V c (Pipeline.arrRef spec10 6)))) t k :=
  congrFun (arr10_9 V c) (ix3 t 0 k)

end Cert.KernelIdeal.Hand

end
-- ==== Proof.KI.Val11Pay.lean ====
/-
  What the third kernel of a layer computes from its input blocks, read at one coordinate over the extended reals:
  the normalised, scaled, shifted and rectified features, and one block's pooled share as a 0/1-weighted sum of rows.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Spec
open Idealize.ShloMosaic Idealize.ShloMosaic.ValueIdx

/-- The rectified normalisation at row p, column q of a block: the block's entry minus the column's mean, times the
    reciprocal root of the column's variance plus the offset, times the scale, plus the shift, cut at zero. -/
theorem k11_pay1_apply (x0 : Vec Ideal S5000x128 .f32) (xv xm xg xb : Vec Ideal S1x128 .f32) (p : Fin 5000) (q : Fin 128) :
    k11_pay1 x0 xv xm xg xb (ix2 p q)
      = max (((x0 (ix2 p q) - xm (ix2 0 q)) * Ideal.rsqrt (xv (ix2 0 q) + eps)) * xg (ix2 0 q) + xb (ix2 0 q)) 0 := by
  unfold k11_pay1
  simp only [shapeCast_self, maximumf_apply, addf_apply, mulf_apply, subf_apply, broadcastTo_1b_ab_apply, broadcast_apply]
  show max (((x0 (ix2 p q) - xm (ix2 0 q)) * Ideal.rsqrt (xv (ix2 0 q) + eps)) * xg (ix2 0 q) + xb (ix2 0 q))
      (Ideal.ofBits .f32 0x00000000#32) = _
  rw [Ideal.ofBits_zero_f32]

/-- One column spread over many: a [a, 1] array broadcast to [a, b] reads, at (p, c), the column's entry at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word is the g-th counting word (g below 256) exactly when its signed value is g. -/
private theorem word_eq_ofNat_iff (w : BitVec 32) (g : Fin 256) : w = BitVec.ofNat 32 g.val ↔ w.toInt = (g.val : ℤ) := by
  have hg := g.isLt
  have hw := w.isLt
  rw [BitVec.toInt_eq_toNat_cond]
  constructor
  · intro h
    have hn : w.toNat = g.val := by rw [h, BitVec.toNat_ofNat]; omega
    rw [hn]; split <;> omega
  · intro h
    apply BitVec.eq_of_toNat_eq
    rw [BitVec.toNat_ofNat]
    split at h <;> omega

/-- The equality comparison of two words answers the one-bit word 1 exactly when they are equal. -/
private theorem cmpi_eq_one_iff (a b : BitVec 32) : IntOp.cmpi .eq a b = 1#1 ↔ a = b := by
  have hb : ∀ c : Bool, BitVec.ofBool c = 1#1 ↔ c = true := fun c => by cases c <;> decide
  show BitVec.ofBool (a == b) = 1#1 ↔ a = b
  rw [hb, beq_iff_eq]

/-- The comparison bit of a word with the g-th counting word, widened to 32 bits and read as a number, is the
    indicator of "the word's signed value is g". -/
private theorem onehot_word (w : BitVec 32) (g : Fin 256) :
    ((((IntOp.cmpi .eq w (BitVec.ofNat 32 g.val)).setWidth 32).toInt : ℝ) : EReal)
      = if w.toInt = (g.val : ℤ) then (1 : EReal) else 0 := by
  by_cases h : w = BitVec.ofNat 32 g.val
  · have h1 : IntOp.cmpi .eq w (BitVec.ofNat 32 g.val) = 1#1 := (cmpi_eq_one_iff _ _).mpr h
    rw [h1, if_pos ((word_eq_ofNat_iff w g).mp h)]
    have : ((1#1 : BitVec 1).setWidth 32).toInt = 1 := by decide
    rw [this]; simp
  · have h0 : IntOp.cmpi .eq w (BitVec.ofNat 32 g.val) = 0#1 :=
      eq_zero_of_ne_one fun hh => h ((cmpi_eq_one_iff _ _).mp hh)
    rw [h0, if_neg (fun hh => h ((word_eq_ofNat_iff w g).mpr hh))]
    have : ((0#1 : BitVec 1).setWidth 32).toInt = 0 := by decide
    rw [this]; simp

/-- The pooling product read at (g, q): the sum over the block's rows of the two factors. -/
private theorem matmul_pool_apply {φ₁ φ₂ : FTy} (A : FVec Ideal S256x5000 φ₁) (B : FVec Ideal S5000x128 φ₂) (g : Fin 256) (q : Fin 128) :
    matmul dot_S256x5000_S5000x128_S256x128_1_0_0_1_n_n none A B (constant S256x128 .f32 0x00000000#32) (ix2 g q)
      = ∑ p : Fin 5000, A (ix2 g p) * B (ix2 p q) := by
  show FloatOps.matmul _ none A B _ (ix2 g q) = _
  rw [Ideal.matmul_constant_zero_apply,
    ← Equiv.sum_comp (contrEquiv1 dot_S256x5000_S5000x128_S256x128_1_0_0_1_n_n 5000 rfl rfl).symm]
  refine Finset.sum_congr rfl fun p _ => ?_
  have hc := contrEquiv1_symm_val dot_S256x5000_S5000x128_S256x128_1_0_0_1_n_n 5000 rfl rfl p
  have hl : dot_S256x5000_S5000x128_S256x128_1_0_0_1_n_n.lhsIdx (ix2 g q) ((contrEquiv1 _ 5000 rfl rfl).symm p) = ix2 g p := by
    funext ax; apply Fin.ext
    match ax with
    | ⟨0, _⟩ => simp [DotDims.lhsIdx, dot_S256x5000_S5000x128_S256x128_1_0_0_1_n_n]; rfl
    | ⟨1, _⟩ => simp [DotDims.lhsIdx, dot_S256x5000_S5000x128_S256x128_1_0_0_1_n_n]; exact hc
  have hr : dot_S256x5000_S5000x128_S256x128_1_0_0_1_n_n.rhsIdx (ix2 g q) ((contrEquiv1 _ 5000 rfl rfl).symm p) = ix2 p q := by
    funext ax; apply Fin.ext
    match ax with
    | ⟨0, _⟩ => simp [DotDims.rhsIdx, dot_S256x5000_S5000x128_S256x128_1_0_0_1_n_n]; exact hc
    | ⟨1, _⟩ => simp [DotDims.rhsIdx, dot_S256x5000_S5000x128_S256x128_1_0_0_1_n_n]; rfl
  rw [hl, hr]

/-- One block's pooled share at (g, q): the sum over the block's rows p of the indicator "row p's graph number is g"
    times the row's rectified normalised feature. -/
theorem k11_pay2_apply_pay1 (x0 : Vec Ideal S5000x128 .f32) (xv xm xg xb : Vec Ideal S1x128 .f32) (x5 : Vec Ideal S5000x1 .i32)
    (g : Fin 256) (q : Fin 128) :
    k11_pay2 x0 xv xm xg xb x5 (ix3 0 g q)
      = ∑ p : Fin 5000, (if (x5 (ix2 p 0)).toInt = (g.val : ℤ) then (1 : EReal) else 0) * k11_pay1 x0 xv xm xg xb (ix2 p q) := by
  unfold k11_pay2
  refine (shapeCast_ab_1ab_apply _ _ 0 g q).trans ?_
  refine (matmul_pool_apply _ _ g q).trans ?_
  refine Finset.sum_congr rfl fun p _ => ?_
  refine congrArg₂ (· * ·) ?_ rfl
  refine (transpose_ix2_apply _ _ g p).trans ?_
  show ((((IntOp.cmpi .eq (broadcastTo S5000x256 (shapeCast S5000x1 x5 shapeCasts_S5000x1_S5000x1) broadcasts_S5000x1_S5000x256 (ix2 p g))
      (iota .tc S5000x256 32 [1] iota_S5000x256_d1_w32 (ix2 p g))).setWidth 32).toInt : ℝ) : EReal) = _
  rw [broadcastTo_a1_ab_apply, iota_single_apply, shapeCast_self]
  exact onehot_word _ g

theorem k11_pay2_apply (x0 : Vec Ideal S5000x128 .f32) (xv xm xg xb : Vec Ideal S1x128 .f32) (x5 : Vec Ideal S5000x1 .i32)
    (g : Fin 256) (q : Fin 128) :
    k11_pay2 x0 xv xm xg xb x5 (ix3 0 g q)
      = ∑ p : Fin 5000, (if (x5 (ix2 p 0)).toInt = (g.val : ℤ) then (1 : EReal) else 0)
          * max (((x0 (ix2 p q) - xm (ix2 0 q)) * Ideal.rsqrt (xv (ix2 0 q) + eps)) * xg (ix2 0 q) + xb (ix2 0 q)) 0 := by
  rw [k11_pay2_apply_pay1]
  exact Finset.sum_congr rfl fun p _ => by rw [k11_pay1_apply]

end Cert.KernelIdeal.Hand

end
-- ==== Proof.KI.Val11.lean ====
/-
  What the third kernel of a layer leaves in its two output arrays. Block by block it writes the rectified
  normalisation of the input rows, and per block the sums of those rows weighted by the 0/1 indicator of each graph
  number; the blocks tile the arrays, so each output array is one function of the input arrays.
-/
import proofs.«422260_j36421322670663_2_alg».proof.Proof.KI.Reg11
import proofs.«422260_j36421322670663_2_alg».proof.Proof.KI.Val11Pay
import proofs.«422260_j36421322670663_2_alg».proof.Proof.Spec
import proofs.«422260_j36421322670663_2_alg».proof.Proof.SpecPool
import Idealize.ShloMosaic.Lib.ValueIdx
import Idealize.ShloMosaic.Lib.Pipeline.Value

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The arrays the launch finds, and the arrays it leaves, as functions -/

/-- The launch's six input arrays at their literal shapes: the features, the column means, the column variances, the
    scale, the shift, and the rows' graph numbers. -/
def inp11_0 (c : Dev nD) : S50000x128.Idx → EReal := V c (Pipeline.arrRef spec11 0)
def inp11_1 (c : Dev nD) : S1x128.Idx → EReal := V c (Pipeline.arrRef spec11 1)
def inp11_2 (c : Dev nD) : S1x128.Idx → EReal := V c (Pipeline.arrRef spec11 2)
def inp11_3 (c : Dev nD) : S1x128.Idx → EReal := V c (Pipeline.arrRef spec11 3)
def inp11_4 (c : Dev nD) : S1x128.Idx → EReal := V c (Pipeline.arrRef spec11 4)
def inp11_5 (c : Dev nD) : S50000x1.Idx → BitVec 32 := V c (Pipeline.arrRef spec11 5)

/-- The rectified normalisation of the whole feature array. -/
def feat11 (c : Dev nD) : Mat 50000 128 :=
  Spec.bnrelu (cur2 (inp11_0 V c)) (row0 (inp11_1 V c)) (row0 (inp11_2 V c)) (row0 (inp11_3 V c)) (row0 (inp11_4 V c))

/-- The first output array: that matrix, index by index. -/
def arr11_6 (c : Dev nD) : S50000x128.Idx → EReal := fun i => feat11 V c (i 0) (i 1)

/-- The second output array: slab t is block t's pooled share of that matrix. -/
def arr11_7 (c : Dev nD) : S10x256x128.Idx → EReal :=
  fun i => Spec.poolKpart (fun r => inp11_5 V c (ix2 r 0)) (feat11 V c) (i 0) (i 1) (i 2)

/-- A grid point as a block number. -/
def blkOf11 (t : Fin cfg11.N) : Fin 10 := ⟨t.val, lt_of_lt_of_eq t.isLt N_11⟩

private theorem zeroPair : (![0, 0] : Fin 2 → Nat) = fun _ => 0 := funext fun a => by fin_cases a <;> rfl
private theorem zeroTriple : (![0, 0, 0] : Fin 3 → Nat) = fun _ => 0 := funext fun a => by fin_cases a <;> rfl

/-- The six input windows' blocks at a grid point, at their literal shapes. -/
def blk11_0 (c : Dev nD) (t : Fin cfg11.N) : Vec Ideal S5000x128 .f32 := iblk11 V c 0 t
def blk11_1 (c : Dev nD) (t : Fin cfg11.N) : Vec Ideal S1x128 .f32 := iblk11 V c 1 t
def blk11_2 (c : Dev nD) (t : Fin cfg11.N) : Vec Ideal S1x128 .f32 := iblk11 V c 2 t
def blk11_3 (c : Dev nD) (t : Fin cfg11.N) : Vec Ideal S1x128 .f32 := iblk11 V c 3 t
def blk11_4 (c : Dev nD) (t : Fin cfg11.N) : Vec Ideal S1x128 .f32 := iblk11 V c 4 t
def blk11_5 (c : Dev nD) (t : Fin cfg11.N) : Vec Ideal S5000x1 .i32 := iblk11 V c 5 t

/-! ## Where each window's block lies -/

/-- The block index of every window at every grid point: the row-blocked windows move with the point along the rows,
    the four parameter rows stay, the pooled output moves along its slabs. -/
theorem idx_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0
    ∧ win11_6.index t (0 : Fin 2) = t.val ∧ win11_6.index t (1 : Fin 2) = 0
    ∧ win11_7.index t (0 : Fin 3) = t.val ∧ win11_7.index t (1 : Fin 3) = 0 ∧ win11_7.index t (2 : Fin 3) = 0 :=
  (by decide +kernel : ∀ t : Fin grid11.N, _)

/-- The feature window's block at point t, at (p, q), is the feature array at row t · 5000 + p, column q. -/
theorem blk11_0_apply (c : Dev nD) (t : Fin cfg11.N) (p : Fin 5000) (q : Fin 128) (r : Fin 50000)
    (hr : r.val = t.val * 5000 + p.val) :
    blk11_0 V c t (ix2 p q) = inp11_0 V c (ix2 r q) := by
  obtain ⟨e0, e1, -⟩ := idx_facts11 t
  unfold blk11_0 iblk11 inp11_0
  rw [View.read_apply]
  show V c (Pipeline.arrRef spec11 0) _ = V c (Pipeline.arrRef spec11 0) _
  congr 1
  funext a; apply Fin.ext
  match a with
  | ⟨0, _⟩ => show win11_0.index t (0 : Fin 2) * 5000 + 1 * p.val = r.val; rw [e0, hr]; omega
  | ⟨1, _⟩ => show win11_0.index t (1 : Fin 2) * 128 + 1 * q.val = q.val; rw [e1]; omega

/-- A parameter row's block is the row itself, at every point: the means, -/
theorem blk11_1_apply (c : Dev nD) (t : Fin cfg11.N) (q : Fin 128) :
    blk11_1 V c t (ix2 0 q) = inp11_1 V c (ix2 0 q) := by
  obtain ⟨-, -, e0, e1, -⟩ := idx_facts11 t
  unfold blk11_1 iblk11 inp11_1
  rw [View.read_apply]
  show V c (Pipeline.arrRef spec11 1) _ = V c (Pipeline.arrRef spec11 1) _
  congr 1
  funext a; apply Fin.ext
  match a with
  | ⟨0, _⟩ => show win11_1.index t (0 : Fin 2) * 1 + 1 * 0 = 0; rw [e0]
  | ⟨1, _⟩ => show win11_1.index t (1 : Fin 2) * 128 + 1 * q.val = q.val; rw [e1]; omega

/-- the variances, -/
theorem blk11_2_apply (c : Dev nD) (t : Fin cfg11.N) (q : Fin 128) :
    blk11_2 V c t (ix2 0 q) = inp11_2 V c (ix2 0 q) := by
  obtain ⟨-, -, -, -, e0, e1, -⟩ := idx_facts11 t
  unfold blk11_2 iblk11 inp11_2
  rw [View.read_apply]
  show V c (Pipeline.arrRef spec11 2) _ = V c (Pipeline.arrRef spec11 2) _
  congr 1
  funext a; apply Fin.ext
  match a with
  | ⟨0, _⟩ => show win11_2.index t (0 : Fin 2) * 1 + 1 * 0 = 0; rw [e0]
  | ⟨1, _⟩ => show win11_2.index t (1 : Fin 2) * 128 + 1 * q.val = q.val; rw [e1]; omega

/-- the scale, -/
theorem blk11_3_apply (c : Dev nD) (t : Fin cfg11.N) (q : Fin 128) :
    blk11_3 V c t (ix2 0 q) = inp11_3 V c (ix2 0 q) := by
  obtain ⟨-, -, -, -, -, -, e0, e1, -⟩ := idx_facts11 t
  unfold blk11_3 iblk11 inp11_3
  rw [View.read_apply]
  show V c (Pipeline.arrRef spec11 3) _ = V c (Pipeline.arrRef spec11 3) _
  congr 1
  funext a; apply Fin.ext
  match a with
  | ⟨0, _⟩ => show win11_3.index t (0 : Fin 2) * 1 + 1 * 0 = 0; rw [e0]
  | ⟨1, _⟩ => show win11_3.index t (1 : Fin 2) * 128 + 1 * q.val = q.val; rw [e1]; omega

/-- the shift. -/
theorem blk11_4_apply (c : Dev nD) (t : Fin cfg11.N) (q : Fin 128) :
    blk11_4 V c t (ix2 0 q) = inp11_4 V c (ix2 0 q) := by
  obtain ⟨-, -, -, -, -, -, -, -, e0, e1, -⟩ := idx_facts11 t
  unfold blk11_4 iblk11 inp11_4
  rw [View.read_apply]
  show V c (Pipeline.arrRef spec11 4) _ = V c (Pipeline.arrRef spec11 4) _
  congr 1
  funext a; apply Fin.ext
  match a with
  | ⟨0, _⟩ => show win11_4.index t (0 : Fin 2) * 1 + 1 * 0 = 0; rw [e0]
  | ⟨1, _⟩ => show win11_4.index t (1 : Fin 2) * 128 + 1 * q.val = q.val; rw [e1]; omega

/-- The graph-number window's block at point t, at row p, is the graph number of row t · 5000 + p. -/
theorem blk11_5_apply (c : Dev nD) (t : Fin cfg11.N) (p : Fin 5000) (r : Fin 50000) (hr : r.val = t.val * 5000 + p.val) :
    blk11_5 V c t (ix2 p 0) = inp11_5 V c (ix2 r 0) := by
  obtain ⟨-, -, -, -, -, -, -, -, -, -, e0, e1, -⟩ := idx_facts11 t
  unfold blk11_5 iblk11 inp11_5
  rw [View.read_apply]
  show V c (Pipeline.arrRef spec11 5) _ = V c (Pipeline.arrRef spec11 5) _
  congr 1
  funext a; apply Fin.ext
  match a with
  | ⟨0, _⟩ => show win11_5.index t (0 : Fin 2) * 5000 + 1 * p.val = r.val; rw [e0, hr]; omega
  | ⟨1, _⟩ => show win11_5.index t (1 : Fin 2) * 1 + 1 * 0 = 0; rw [e1]

/-- The rectified normalisation computed from the blocks at point t, at (p, q), is that of the whole array at row
    t · 5000 + p, column q. -/
theorem feat11_row (c : Dev nD) (t : Fin cfg11.N) (p : Fin 5000) (q : Fin 128) (r : Fin 50000) (hr : r.val = t.val * 5000 + p.val) :
    max (((blk11_0 V c t (ix2 p q) - blk11_1 V c t (ix2 0 q)) * Ideal.rsqrt (blk11_2 V c t (ix2 0 q) + eps))
        * blk11_3 V c t (ix2 0 q) + blk11_4 V c t (ix2 0 q)) 0 = feat11 V c r q := by
  rw [blk11_0_apply V c t p q r hr, blk11_1_apply V c t q, blk11_2_apply V c t q, blk11_3_apply V c t q, blk11_4_apply V c t q]
  rfl

/-! ## The first output: the rectified normalised features -/

/-- What point t writes back is block t of the whole normalised array. -/
theorem flushed11_6 (c : Dev nD) (t : Fin cfg11.N) :
    (dat11 V c).flushed 6 t = ((cfg11.win 6).blk t).view.read (Elt Ideal) (arr11_6 V c) := by
  show (cfg11.win 6).cut (grid11.coords t) ((dat11 V c).after 6 t) = _
  rw [after11_6]
  unfold out11_6
  rw [View.canon_unit_zero zeroPair]
  simp only [View.ld_unit_zero (S := S5000x128) zeroPair, View.ld_unit_zero (S := S1x128) zeroPair]
  obtain ⟨-, -, -, -, -, -, -, -, -, -, -, -, e0, e1, -⟩ := idx_facts11 t
  funext j
  obtain ⟨p, q, rfl⟩ : ∃ (p : Fin 5000) (q : Fin 128), j = ix2 p q := ⟨j 0, j 1, eq_ix2 j⟩
  show k11_pay1 (blk11_0 V c t) (blk11_2 V c t) (blk11_1 V c t) (blk11_3 V c t) (blk11_4 V c t) (ix2 p q)
      = arr11_6 V c (((cfg11.win 6).blk t).view.emb (ix2 p q))
  have h0 : (((cfg11.win 6).blk t).view.emb (ix2 p q)) (0 : Fin 2) = brow (blkOf11 t) p :=
    Fin.ext (by show win11_6.index t (0 : Fin 2) * 5000 + 1 * p.val = t.val * 5000 + p.val; rw [e0]; omega)
  have h1 : (((cfg11.win 6).blk t).view.emb (ix2 p q)) (1 : Fin 2) = q :=
    Fin.ext (by show win11_6.index t (1 : Fin 2) * 128 + 1 * q.val = q.val; rw [e1]; omega)
  refine (k11_pay1_apply _ _ _ _ _ p q).trans ?_
  refine (feat11_row V c t p q (brow (blkOf11 t) p) rfl).trans ?_
  exact (congr (congrArg (feat11 V c) h0) h1).symm

/-- An index lies in point t's block exactly when each coordinate is in the block's range. -/
theorem mem_blk11_6 (t : Fin cfg11.N) (i : S50000x128.Idx) :
    i ∈ ((cfg11.win 6).blk t).view.set ↔ ∀ a : Fin 2, win11_6.index t a * S5000x128.size a ≤ (i a).val
      ∧ (i a).val < win11_6.index t a * S5000x128.size a + S5000x128.size a := by
  show i ∈ ((View.whole (Pipeline.arrRef spec11 6)).slice (win11_6.rect t)).set ↔ _
  rw [View.set_slice_whole, Rect.mem_set_unit]
  exact Iff.rfl

/-- The ten blocks tile the array: row r lies in block r / 5000. -/
theorem tiles11_6 (i : S50000x128.Idx) :
    ∃ t : Fin cfg11.N, (cfg11.win 6).flush t = true ∧ i ∈ ((cfg11.win 6).blk t).view.set := by
  have hi0 : (i 0).val < 50000 := (i 0).isLt
  have hi1 : (i 1).val < 128 := (i 1).isLt
  have hN : cfg11.N = 10 := N_11
  obtain ⟨t, ht⟩ : ∃ t : Fin cfg11.N, t.val = (i 0).val / 5000 := ⟨⟨(i 0).val / 5000, by rw [hN]; omega⟩, rfl⟩
  obtain ⟨-, -, -, -, -, -, -, -, -, -, -, -, e0, e1, -⟩ := idx_facts11 t
  refine ⟨t, flush11_6 t, ?_⟩
  rw [mem_blk11_6]
  intro a
  match a with
  | ⟨0, _⟩ =>
    show win11_6.index t (0 : Fin 2) * 5000 ≤ (i 0).val ∧ (i 0).val < win11_6.index t (0 : Fin 2) * 5000 + 5000
    rw [e0, ht]; omega
  | ⟨1, _⟩ =>
    show win11_6.index t (1 : Fin 2) * 128 ≤ (i 1).val ∧ (i 1).val < win11_6.index t (1 : Fin 2) * 128 + 128
    rw [e1]; omega

/-- So the first output array ends as the whole normalised array. -/
theorem final11_6 (c : Dev nD) : (dat11 V c).arrAt 6 cfg11.N = arr11_6 V c :=
  (dat11 V c).arrAt_eq_of_cover 6 (arr11_6 V c) (fun t _ => flushed11_6 V c t) tiles11_6

/-- The first output array, by coordinates: the rectified normalisation of the input features with the given
    moments, scale and shift. -/
theorem val11_6 (c : Dev nD) :
    cur2 ((dat11 V c).arrAt 6 cfg11.N : S50000x128.Idx → EReal)
      = Spec.bnrelu (cur2 (V c (Pipeline.arrRef spec11 0) : S50000x128.Idx → EReal))
          (row0 (V c (Pipeline.arrRef spec11 1) : S1x128.Idx → EReal)) (row0 (V c (Pipeline.arrRef spec11 2) : S1x128.Idx → EReal))
          (row0 (V c (Pipeline.arrRef spec11 3) : S1x128.Idx → EReal)) (row0 (V c (Pipeline.arrRef spec11 4) : S1x128.Idx → EReal)) := by
  rw [final11_6]
  rfl

/-! ## The second output: the blocks' pooled shares -/

/-- What point t writes back is slab t of the array of pooled shares. -/
theorem flushed11_7 (c : Dev nD) (t : Fin cfg11.N) :
    (dat11 V c).flushed 7 t = ((cfg11.win 7).blk t).view.read (Elt Ideal) (arr11_7 V c) := by
  show (cfg11.win 7).cut (grid11.coords t) ((dat11 V c).after 7 t) = _
  rw [after11_7]
  unfold out11_7
  rw [View.canon_unit_zero zeroTriple]
  simp only [View.ld_unit_zero (S := S5000x128) zeroPair, View.ld_unit_zero (S := S1x128) zeroPair,
    View.ld_unit_zero (S := S5000x1) zeroPair]
  obtain ⟨-, -, -, -, -, -, -, -, -, -, -, -, -, -, e0, e1, e2⟩ := idx_facts11 t
  funext j
  obtain ⟨u, g, q, rfl⟩ : ∃ (u : Fin 1) (g : Fin 256) (q : Fin 128), j = ix3 u g q := ⟨j 0, j 1, j 2, eq_ix3 j⟩
  obtain rfl : u = 0 := Subsingleton.elim _ _
  show k11_pay2 (blk11_0 V c t) (blk11_2 V c t) (blk11_1 V c t) (blk11_3 V c t) (blk11_4 V c t) (blk11_5 V c t) (ix3 0 g q)
      = arr11_7 V c (((cfg11.win 7).blk t).view.emb (ix3 0 g q))
  have h0 : (((cfg11.win 7).blk t).view.emb (ix3 0 g q)) (0 : Fin 3) = blkOf11 t :=
    Fin.ext (by show win11_7.index t (0 : Fin 3) * 1 + 1 * 0 = t.val; rw [e0]; omega)
  have h1 : (((cfg11.win 7).blk t).view.emb (ix3 0 g q)) (1 : Fin 3) = g :=
    Fin.ext (by show win11_7.index t (1 : Fin 3) * 256 + 1 * g.val = g.val; rw [e1]; omega)
  have h2 : (((cfg11.win 7).blk t).view.emb (ix3 0 g q)) (2 : Fin 3) = q :=
    Fin.ext (by show win11_7.index t (2 : Fin 3) * 128 + 1 * q.val = q.val; rw [e2]; omega)
  have hR : arr11_7 V c (((cfg11.win 7).blk t).view.emb (ix3 0 g q))
      = Spec.poolKpart (fun r => inp11_5 V c (ix2 r 0)) (feat11 V c) (blkOf11 t) g q :=
    congr (congr (congrArg (Spec.poolKpart (fun r => inp11_5 V c (ix2 r 0)) (feat11 V c)) h0) h1) h2
  refine (k11_pay2_apply _ _ _ _ _ _ g q).trans ?_
  refine Eq.trans ?_ hR.symm
  show _ = ∑ y : Fin 5000, (if (inp11_5 V c (ix2 (brow (blkOf11 t) y) 0)).toInt = (g.val : ℤ) then (1 : EReal) else 0)
      * feat11 V c (brow (blkOf11 t) y) q
  refine Finset.sum_congr rfl fun p _ => ?_
  exact congrArg₂ (· * ·)
    (congrArg (fun w : BitVec 32 => if w.toInt = (g.val : ℤ) then (1 : EReal) else 0) (blk11_5_apply V c t p (brow (blkOf11 t) p) rfl))
    (feat11_row V c t p q (brow (blkOf11 t) p) rfl)

/-- An index lies in point t's slab exactly when each coordinate is in the slab's range. -/
theorem mem_blk11_7 (t : Fin cfg11.N) (i : S10x256x128.Idx) :
    i ∈ ((cfg11.win 7).blk t).view.set ↔ ∀ a : Fin 3, win11_7.index t a * S1x256x128.size a ≤ (i a).val
      ∧ (i a).val < win11_7.index t a * S1x256x128.size a + S1x256x128.size a := by
  show i ∈ ((View.whole (Pipeline.arrRef spec11 7)).slice (win11_7.rect t)).set ↔ _
  rw [View.set_slice_whole, Rect.mem_set_unit]
  exact Iff.rfl

/-- The ten slabs tile the array: slab number s is point s's. -/
theorem tiles11_7 (i : S10x256x128.Idx) :
    ∃ t : Fin cfg11.N, (cfg11.win 7).flush t = true ∧ i ∈ ((cfg11.win 7).blk t).view.set := by
  have hi0 : (i 0).val < 10 := (i 0).isLt
  have hi1 : (i 1).val < 256 := (i 1).isLt
  have hi2 : (i 2).val < 128 := (i 2).isLt
  have hN : cfg11.N = 10 := N_11
  obtain ⟨t, ht⟩ : ∃ t : Fin cfg11.N, t.val = (i 0).val := ⟨⟨(i 0).val, by rw [hN]; omega⟩, rfl⟩
  obtain ⟨-, -, -, -, -, -, -, -, -, -, -, -, -, -, e0, e1, e2⟩ := idx_facts11 t
  refine ⟨t, flush11_7 t, ?_⟩
  rw [mem_blk11_7]
  intro a
  match a with
  | ⟨0, _⟩ =>
    show win11_7.index t (0 : Fin 3) * 1 ≤ (i 0).val ∧ (i 0).val < win11_7.index t (0 : Fin 3) * 1 + 1
    rw [e0, ht]; omega
  | ⟨1, _⟩ =>
    show win11_7.index t (1 : Fin 3) * 256 ≤ (i 1).val ∧ (i 1).val < win11_7.index t (1 : Fin 3) * 256 + 256
    rw [e1]; omega
  | ⟨2, _⟩ =>
    show win11_7.index t (2 : Fin 3) * 128 ≤ (i 2).val ∧ (i 2).val < win11_7.index t (2 : Fin 3) * 128 + 128
    rw [e2]; omega

/-- So the second output array ends as the array of pooled shares. -/
theorem final11_7 (c : Dev nD) : (dat11 V c).arrAt 7 cfg11.N = arr11_7 V c :=
  (dat11 V c).arrAt_eq_of_cover 7 (arr11_7 V c) (fun t _ => flushed11_7 V c t) tiles11_7

/-- The second output array at (t, g, k): block t's share of the pooling of the rectified normalised features by the
    rows' graph numbers. -/
theorem val11_7 (c : Dev nD) (t : Fin 10) (g : Fin 256) (k : Fin 128) :
    ((dat11 V c).arrAt 7 cfg11.N : S10x256x128.Idx → EReal) (ix3 t g k)
      = Spec.poolKpart (fun r => (V c (Pipeline.arrRef spec11 5) : S50000x1.Idx → BitVec 32) (ix2 r 0))
          (Spec.bnrelu (cur2 (V c (Pipeline.arrRef spec11 0) : S50000x128.Idx → EReal))
            (row0 (V c (Pipeline.arrRef spec11 1) : S1x128.Idx → EReal)) (row0 (V c (Pipeline.arrRef spec11 2) : S1x128.Idx → EReal))
            (row0 (V c (Pipeline.arrRef spec11 3) : S1x128.Idx → EReal)) (row0 (V c (Pipeline.arrRef spec11 4) : S1x128.Idx → EReal)))
          t g k := by
  rw [final11_7]
  rfl

end Cert.KernelIdeal.Hand

end
-- ==== Proof.KI.Host10.lean ====
/-
  The host stretch after a layer's first kernel: the mean and the variance of the first linear map's output
  from its per-block column sums and sums of squares, and the second bias laid out as a row.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The mean: the block sums added up and divided by the node count. -/
theorem host10_mean (Z : Mat 50000 128)
    (hs : ∀ t k, (W main_v204_1 : S10x1x128.Idx → EReal) (ix3 t 0 k) = ksum Z t k) :
    row0 (StableHlo.after hostOps10 W main_v207 : S1x128.Idx → EReal) = kmean Z := by
  have e : (StableHlo.after hostOps10 W main_v207 : S1x128.Idx → EReal)
      = blockDiv (W main_v204_1) reducesTo_S10x1x128_S1x128_d0 h_S_ bcast_S_S1x128 := by
    after_results
  rw [e]
  exact blockDiv_kmean _ _ _ _ Z hs

/-- The variance: the mean of the squares minus the squared mean, cut at zero. -/
theorem host10_var (Z : Mat 50000 128)
    (hs : ∀ t k, (W main_v204_1 : S10x1x128.Idx → EReal) (ix3 t 0 k) = ksum Z t k)
    (hq : ∀ t k, (W main_v204_2 : S10x1x128.Idx → EReal) (ix3 t 0 k) = ksq Z t k) :
    row0 (StableHlo.after hostOps10 W main_v214 : S1x128.Idx → EReal) = kvar Z := by
  have e : (StableHlo.after hostOps10 W main_v214 : S1x128.Idx → EReal)
      = blockVar (W main_v204_1) (W main_v204_2) reducesTo_S10x1x128_S1x128_d0 h_S_ bcast_S_S1x128 := by
    after_results
  rw [e]
  exact blockVar_kvar _ _ _ _ _ Z hs hq

/-- The second bias as a row. -/
theorem host10_bias :
    row0 (StableHlo.after hostOps10 W main_v215 : S1x128.Idx → EReal) = cur1 (W main_v196 : S128.Idx → EReal) := by
  have e : (StableHlo.after hostOps10 W main_v215 : S1x128.Idx → EReal)
      = shapeCast S1x128 (W main_v196 : S128.Idx → EReal) shapeCasts_S128_S1x128 := by
    after_results
    rfl
  rw [e]
  exact row0_shapeCast _ _

end Cert.KernelIdeal.Hand

end
-- ==== Proof.KI.Host11.lean ====
/-
  The host stretch after a layer's second kernel: the mean and the variance of the second linear map's output
  from its per-block column sums and sums of squares.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The mean: the block sums added up and divided by the node count. -/
theorem host11_mean (Z : Mat 50000 128)
    (hs : ∀ t k, (W main_v216_1 : S10x1x128.Idx → EReal) (ix3 t 0 k) = ksum Z t k) :
    row0 (StableHlo.after hostOps11 W main_v219 : S1x128.Idx → EReal) = kmean Z := by
  have e : (StableHlo.after hostOps11 W main_v219 : S1x128.Idx → EReal)
      = blockDiv (W main_v216_1) reducesTo_S10x1x128_S1x128_d0 h_S_ bcast_S_S1x128 := by
    after_results
  rw [e]
  exact blockDiv_kmean _ _ _ _ Z hs

/-- The variance: the mean of the squares minus the squared mean, cut at zero. -/
theorem host11_var (Z : Mat 50000 128)
    (hs : ∀ t k, (W main_v216_1 : S10x1x128.Idx → EReal) (ix3 t 0 k) = ksum Z t k)
    (hq : ∀ t k, (W main_v216_2 : S10x1x128.Idx → EReal) (ix3 t 0 k) = ksq Z t k) :
    row0 (StableHlo.after hostOps11 W main_v226 : S1x128.Idx → EReal) = kvar Z := by
  have e : (StableHlo.after hostOps11 W main_v226 : S1x128.Idx → EReal)
      = blockVar (W main_v216_1) (W main_v216_2) reducesTo_S10x1x128_S1x128_d0 h_S_ bcast_S_S1x128 := by
    after_results
  rw [e]
  exact blockVar_kvar _ _ _ _ _ Z hs hq

end Cert.KernelIdeal.Hand

end
-- ==== Proof.KI.Layer3.lean ====
/-
  One layer of the network as the kernel program computes it, over the extended reals. The layer is entered with
  an array of node features. The host stretch before its first kernel takes their neighbourhood sums and the layer's
  slice of every weight stack; the first kernel leaves the first affine map of features plus sums, with each row
  block's column sums and column sums of squares; the next host stretch turns those into the mean and the
  variance; the second kernel normalises, rectifies and applies the second affine map, again with block sums; the
  stretch after it takes that map's mean and variance; the third kernel normalises and rectifies once more, which
  gives the layer's features, and leaves each row block's share of their sum by graph. Each step is read off the
  step before it, so the features the layer hands on are the layer's mathematics applied to the features it was
  given, and the shares are the shares of their sum by graph.
-/
import proofs.«422260_j36421322670663_2_alg».proof.Proof.KI.Chain
import proofs.«422260_j36421322670663_2_alg».proof.Proof.KI.NetDefs
import proofs.«422260_j36421322670663_2_alg».proof.Proof.KI.Base
import proofs.«422260_j36421322670663_2_alg».proof.Proof.KI.Val9
import proofs.«422260_j36421322670663_2_alg».proof.Proof.KI.Val10
import proofs.«422260_j36421322670663_2_alg».proof.Proof.KI.Val11
import proofs.«422260_j36421322670663_2_alg».proof.Proof.KI.Host9
import proofs.«422260_j36421322670663_2_alg».proof.Proof.KI.Host10
import proofs.«422260_j36421322670663_2_alg».proof.Proof.KI.Host11

-- deciding that a reference is none of the several dozen a host stretch writes recurses once per reference
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- The layer's place in the weight stacks. -/
abbrev lyr3 : Fin 5 := 3

/-! ## What the layer leaves alone -/

/-- An array none of the layer's three kernels and neither host stretch between them writes is the same after the
    layer's last kernel as when its first kernel was entered. -/
theorem layer3_thru (c : Dev nD) (r : Ref sig .tc)
    (h8 : r ∉ ([main_v204_0, main_v204_1, main_v204_2] : List (Ref sig .tc))) (h9 : r ∉ GenP.hostOps10_W)
    (h10 : r ∉ ([main_v216_0, main_v216_1, main_v216_2] : List (Ref sig .tc))) (h11 : r ∉ GenP.hostOps11_W)
    (h12 : r ∉ ([main_v227_0, main_v227_1] : List (Ref sig .tc))) :
    Vout11 m c r = Vin9 m c r :=
  (GenP.V24_of m (outs m) c r h12).trans <| (GenP.V23_of m (outs m) c r h11).trans <|
    (GenP.V22_of m (outs m) c r h10).trans <| (GenP.V21_of m (outs m) c r h9).trans (GenP.V20_of m (outs m) c r h8)

/-- The same from the previous layer's last kernel, for an array the host stretch before the layer's first kernel
    does not write either. -/
theorem ly11_keep (c : Dev nD) (r : Ref sig .tc) (h7 : r ∉ GenP.hostOps9_W)
    (h8 : r ∉ ([main_v204_0, main_v204_1, main_v204_2] : List (Ref sig .tc))) (h9 : r ∉ GenP.hostOps10_W)
    (h10 : r ∉ ([main_v216_0, main_v216_1, main_v216_2] : List (Ref sig .tc))) (h11 : r ∉ GenP.hostOps11_W)
    (h12 : r ∉ ([main_v227_0, main_v227_1] : List (Ref sig .tc))) :
    Vout11 m c r = Vout8 m c r :=
  (layer3_thru m c r h8 h9 h10 h11 h12).trans (GenP.V19_of m (outs m) c r h7)

/-- The base facts pass through the layer. -/
theorem base11 (c : Dev nD) (hb : Base m c (Vout8 m c)) : Base m c (Vout11 m c) where
  v1 := (ly11_keep m c _ (by decide) (by decide) (by decide) (by decide) (by decide) (by decide)).trans hb.v1
  v3 := (ly11_keep m c _ (by decide) (by decide) (by decide) (by decide) (by decide) (by decide)).trans hb.v3
  v4 := (ly11_keep m c _ (by decide) (by decide) (by decide) (by decide) (by decide) (by decide)).trans hb.v4
  a1 := (ly11_keep m c _ (by decide) (by decide) (by decide) (by decide) (by decide) (by decide)).trans hb.a1
  a2 := (ly11_keep m c _ (by decide) (by decide) (by decide) (by decide) (by decide) (by decide)).trans hb.a2
  a3 := (ly11_keep m c _ (by decide) (by decide) (by decide) (by decide) (by decide) (by decide)).trans hb.a3
  a4 := (ly11_keep m c _ (by decide) (by decide) (by decide) (by decide) (by decide) (by decide)).trans hb.a4
  a5 := (ly11_keep m c _ (by decide) (by decide) (by decide) (by decide) (by decide) (by decide)).trans hb.a5
  a6 := (ly11_keep m c _ (by decide) (by decide) (by decide) (by decide) (by decide) (by decide)).trans hb.a6
  a7 := (ly11_keep m c _ (by decide) (by decide) (by decide) (by decide) (by decide) (by decide)).trans hb.a7
  a8 := (ly11_keep m c _ (by decide) (by decide) (by decide) (by decide) (by decide) (by decide)).trans hb.a8

section Layer
variable (c : Dev nD)

/-- The features the layer is entered with, their neighbourhood sums, and the three arrays the layer's mathematics
    makes of them. -/
abbrev hin9 : Mat 50000 128 := cur2 (Vout8 m c main_v171_0 : S50000x128.Idx → EReal)
abbrev agg9 : Mat 50000 128 := cur2 (kAgg m c (Vout8 m c main_v171_0))
abbrev zed9 : Mat 50000 128 := Spec.z1 (hin9 m c) (agg9 m c) (kP m c lyr3)
abbrev zed10 : Mat 50000 128 := Spec.kz2 (hin9 m c) (agg9 m c) (kP m c lyr3)
abbrev hout11 : Mat 50000 128 := Spec.kh (hin9 m c) (agg9 m c) (kP m c lyr3)

/-! ## The first kernel's operands -/

theorem ly9_feat : Vin9 m c main_v171_0 = Vout8 m c main_v171_0 := GenP.V19_of m (outs m) c _ (by decide)

theorem ly9_agg (hb : Base m c (Vout8 m c)) :
    (Vin9 m c main_v182 : S50000x128.Idx → EReal) = kAgg m c (Vout8 m c main_v171_0) := by
  refine (host9_agg (Vout8 m c)).trans ?_
  rw [hb.v1, hb.v3]

theorem ly9_W1 (hb : Base m c (Vout8 m c)) :
    cur2 (Vin9 m c main_v184 : S128x128.Idx → EReal) = (kP m c lyr3).W1 := by
  exact (host9_W1 (Vout8 m c)).trans (congrArg (fun x : S5x128x128.Idx → EReal => sl3 x lyr3) hb.a1)

theorem ly9_b1 (hb : Base m c (Vout8 m c)) :
    row0 (Vin9 m c main_v203 : S1x128.Idx → EReal) = (kP m c lyr3).b1 := by
  exact (host9_b1 (Vout8 m c)).trans (congrArg (fun x : S5x128.Idx → EReal => sl2 x lyr3) hb.a2)

theorem ly9_g1 (hb : Base m c (Vout8 m c)) :
    row0 (Vin9 m c main_v189 : S1x128.Idx → EReal) = (kP m c lyr3).g1 := by
  exact (host9_g1 (Vout8 m c)).trans (congrArg (fun x : S5x128.Idx → EReal => sl2 x lyr3) hb.a3)

theorem ly9_be1 (hb : Base m c (Vout8 m c)) :
    row0 (Vin9 m c main_v192 : S1x128.Idx → EReal) = (kP m c lyr3).be1 := by
  exact (host9_be1 (Vout8 m c)).trans (congrArg (fun x : S5x128.Idx → EReal => sl2 x lyr3) hb.a4)

theorem ly9_W2 (hb : Base m c (Vout8 m c)) :
    cur2 (Vin9 m c main_v194 : S128x128.Idx → EReal) = (kP m c lyr3).W2 := by
  exact (host9_W2 (Vout8 m c)).trans (congrArg (fun x : S5x128x128.Idx → EReal => sl3 x lyr3) hb.a5)

theorem ly9_b2 (hb : Base m c (Vout8 m c)) :
    cur1 (Vin9 m c main_v196 : S128.Idx → EReal) = (kP m c lyr3).b2 := by
  exact (host9_b2 (Vout8 m c)).trans (congrArg (fun x : S5x128.Idx → EReal => sl2 x lyr3) hb.a6)

theorem ly9_g2 (hb : Base m c (Vout8 m c)) :
    row0 (Vin9 m c main_v199 : S1x128.Idx → EReal) = (kP m c lyr3).g2 := by
  exact (host9_g2 (Vout8 m c)).trans (congrArg (fun x : S5x128.Idx → EReal => sl2 x lyr3) hb.a7)

theorem ly9_be2 (hb : Base m c (Vout8 m c)) :
    row0 (Vin9 m c main_v202 : S1x128.Idx → EReal) = (kP m c lyr3).be2 := by
  exact (host9_be2 (Vout8 m c)).trans (congrArg (fun x : S5x128.Idx → EReal => sl2 x lyr3) hb.a8)

/-! ## The first kernel: the first affine map and its block sums -/

/-- The affine map of the first kernel's operands is the layer's first affine map. -/
theorem ly9_lin (hb : Base m c (Vout8 m c)) :
    Spec.lin (fun r k => cur2 (Vin9 m c (Pipeline.arrRef spec9 0)) r k + cur2 (Vin9 m c (Pipeline.arrRef spec9 1)) r k)
        (cur2 (Vin9 m c (Pipeline.arrRef spec9 2))) (row0 (Vin9 m c (Pipeline.arrRef spec9 3)))
      = zed9 m c := by
  show Spec.lin (fun r k => cur2 (Vin9 m c main_v171_0 : S50000x128.Idx → EReal) r k
        + cur2 (Vin9 m c main_v182 : S50000x128.Idx → EReal) r k)
      (cur2 (Vin9 m c main_v184 : S128x128.Idx → EReal)) (row0 (Vin9 m c main_v203 : S1x128.Idx → EReal)) = _
  rw [ly9_feat m c, ly9_agg m c hb, ly9_W1 m c hb, ly9_b1 m c hb]
  rfl

theorem ly9_out (hb : Base m c (Vout8 m c)) :
    cur2 (Vout9 m c main_v204_0 : S50000x128.Idx → EReal) = zed9 m c :=
  (congrArg cur2 (hF_9 m c 4).symm).trans ((val9_4 (fun c b => Vin9 m c b) c).trans (ly9_lin m c hb))

theorem ly9_sum (hb : Base m c (Vout8 m c)) (t : Fin 10) (k : Fin 128) :
    (Vout9 m c main_v204_1 : S10x1x128.Idx → EReal) (ix3 t 0 k) = ksum (zed9 m c) t k :=
  (congrFun (hF_9 m c 5).symm (ix3 t 0 k)).trans
    ((val9_5 (fun c b => Vin9 m c b) c t k).trans (congrArg (fun Z => ksum Z t k) (ly9_lin m c hb)))

theorem ly9_sq (hb : Base m c (Vout8 m c)) (t : Fin 10) (k : Fin 128) :
    (Vout9 m c main_v204_2 : S10x1x128.Idx → EReal) (ix3 t 0 k) = ksq (zed9 m c) t k :=
  (congrFun (hF_9 m c 6).symm (ix3 t 0 k)).trans
    ((val9_6 (fun c b => Vin9 m c b) c t k).trans (congrArg (fun Z => ksq Z t k) (ly9_lin m c hb)))

/-! ## The second kernel's operands -/

theorem ly10_z : Vin10 m c main_v204_0 = Vout9 m c main_v204_0 := GenP.V21_of m (outs m) c _ (by decide)

theorem ly10_mean (hb : Base m c (Vout8 m c)) :
    row0 (Vin10 m c main_v207 : S1x128.Idx → EReal) = kmean (zed9 m c) :=
  host10_mean (Vout9 m c) (zed9 m c) (ly9_sum m c hb)

theorem ly10_var (hb : Base m c (Vout8 m c)) :
    row0 (Vin10 m c main_v214 : S1x128.Idx → EReal) = kvar (zed9 m c) :=
  host10_var (Vout9 m c) (zed9 m c) (ly9_sum m c hb) (ly9_sq m c hb)

/-- An array the first kernel and the stretch after it leave alone. -/
theorem ly10_keep (r : Ref sig .tc) (h8 : r ∉ ([main_v204_0, main_v204_1, main_v204_2] : List (Ref sig .tc)))
    (h9 : r ∉ GenP.hostOps10_W) : Vin10 m c r = Vin9 m c r :=
  (GenP.V21_of m (outs m) c r h9).trans (GenP.V20_of m (outs m) c r h8)

theorem ly10_g1 (hb : Base m c (Vout8 m c)) :
    row0 (Vin10 m c main_v189 : S1x128.Idx → EReal) = (kP m c lyr3).g1 := by
  have e : Vin10 m c main_v189 = Vin9 m c main_v189 := ly10_keep m c _ (by decide) (by decide)
  rw [e]
  exact ly9_g1 m c hb

theorem ly10_be1 (hb : Base m c (Vout8 m c)) :
    row0 (Vin10 m c main_v192 : S1x128.Idx → EReal) = (kP m c lyr3).be1 := by
  have e : Vin10 m c main_v192 = Vin9 m c main_v192 := ly10_keep m c _ (by decide) (by decide)
  rw [e]
  exact ly9_be1 m c hb

theorem ly10_W2 (hb : Base m c (Vout8 m c)) :
    cur2 (Vin10 m c main_v194 : S128x128.Idx → EReal) = (kP m c lyr3).W2 := by
  have e : Vin10 m c main_v194 = Vin9 m c main_v194 := ly10_keep m c _ (by decide) (by decide)
  rw [e]
  exact ly9_W2 m c hb

theorem ly10_b2 (hb : Base m c (Vout8 m c)) :
    row0 (Vin10 m c main_v215 : S1x128.Idx → EReal) = (kP m c lyr3).b2 := by
  refine (host10_bias (Vout9 m c)).trans ?_
  have e : Vout9 m c main_v196 = Vin9 m c main_v196 := GenP.V20_of m (outs m) c _ (by decide)
  rw [e]
  exact ly9_b2 m c hb

/-! ## The second kernel: normalise, rectify, the second affine map and its block sums -/

theorem ly10_lin (hb : Base m c (Vout8 m c)) :
    Spec.lin (Spec.bnrelu (cur2 (Vin10 m c (Pipeline.arrRef spec10 0))) (row0 (Vin10 m c (Pipeline.arrRef spec10 1)))
          (row0 (Vin10 m c (Pipeline.arrRef spec10 2))) (row0 (Vin10 m c (Pipeline.arrRef spec10 3)))
          (row0 (Vin10 m c (Pipeline.arrRef spec10 4)))) (cur2 (Vin10 m c (Pipeline.arrRef spec10 5)))
          (row0 (Vin10 m c (Pipeline.arrRef spec10 6)))
      = zed10 m c := by
  show Spec.lin (Spec.bnrelu (cur2 (Vin10 m c main_v204_0 : S50000x128.Idx → EReal))
        (row0 (Vin10 m c main_v207 : S1x128.Idx → EReal)) (row0 (Vin10 m c main_v214 : S1x128.Idx → EReal))
        (row0 (Vin10 m c main_v189 : S1x128.Idx → EReal)) (row0 (Vin10 m c main_v192 : S1x128.Idx → EReal)))
      (cur2 (Vin10 m c main_v194 : S128x128.Idx → EReal)) (row0 (Vin10 m c main_v215 : S1x128.Idx → EReal)) = _
  rw [ly10_z m c, ly9_out m c hb, ly10_mean m c hb, ly10_var m c hb, ly10_g1 m c hb, ly10_be1 m c hb, ly10_W2 m c hb,
    ly10_b2 m c hb]
  rfl

theorem ly10_out (hb : Base m c (Vout8 m c)) :
    cur2 (Vout10 m c main_v216_0 : S50000x128.Idx → EReal) = zed10 m c :=
  (congrArg cur2 (hF_10 m c 7).symm).trans ((val10_7 (fun c b => Vin10 m c b) c).trans (ly10_lin m c hb))

theorem ly10_sum (hb : Base m c (Vout8 m c)) (t : Fin 10) (k : Fin 128) :
    (Vout10 m c main_v216_1 : S10x1x128.Idx → EReal) (ix3 t 0 k) = ksum (zed10 m c) t k :=
  (congrFun (hF_10 m c 8).symm (ix3 t 0 k)).trans
    ((val10_8 (fun c b => Vin10 m c b) c t k).trans (congrArg (fun Z => ksum Z t k) (ly10_lin m c hb)))

theorem ly10_sq (hb : Base m c (Vout8 m c)) (t : Fin 10) (k : Fin 128) :
    (Vout10 m c main_v216_2 : S10x1x128.Idx → EReal) (ix3 t 0 k) = ksq (zed10 m c) t k :=
  (congrFun (hF_10 m c 9).symm (ix3 t 0 k)).trans
    ((val10_9 (fun c b => Vin10 m c b) c t k).trans (congrArg (fun Z => ksq Z t k) (ly10_lin m c hb)))

/-! ## The third kernel's operands -/

theorem ly11_z : Vin11 m c main_v216_0 = Vout10 m c main_v216_0 := GenP.V23_of m (outs m) c _ (by decide)

theorem ly11_mean (hb : Base m c (Vout8 m c)) :
    row0 (Vin11 m c main_v219 : S1x128.Idx → EReal) = kmean (zed10 m c) :=
  host11_mean (Vout10 m c) (zed10 m c) (ly10_sum m c hb)

theorem ly11_var (hb : Base m c (Vout8 m c)) :
    row0 (Vin11 m c main_v226 : S1x128.Idx → EReal) = kvar (zed10 m c) :=
  host11_var (Vout10 m c) (zed10 m c) (ly10_sum m c hb) (ly10_sq m c hb)

/-- An array the first two kernels and the stretches after them leave alone. -/
theorem ly11_keep3 (r : Ref sig .tc) (h8 : r ∉ ([main_v204_0, main_v204_1, main_v204_2] : List (Ref sig .tc)))
    (h9 : r ∉ GenP.hostOps10_W) (h10 : r ∉ ([main_v216_0, main_v216_1, main_v216_2] : List (Ref sig .tc)))
    (h11 : r ∉ GenP.hostOps11_W) : Vin11 m c r = Vin9 m c r :=
  (GenP.V23_of m (outs m) c r h11).trans <| (GenP.V22_of m (outs m) c r h10).trans (ly10_keep m c r h8 h9)

theorem ly11_g2 (hb : Base m c (Vout8 m c)) :
    row0 (Vin11 m c main_v199 : S1x128.Idx → EReal) = (kP m c lyr3).g2 := by
  have e : Vin11 m c main_v199 = Vin9 m c main_v199 := ly11_keep3 m c _ (by decide) (by decide) (by decide) (by decide)
  rw [e]
  exact ly9_g2 m c hb

theorem ly11_be2 (hb : Base m c (Vout8 m c)) :
    row0 (Vin11 m c main_v202 : S1x128.Idx → EReal) = (kP m c lyr3).be2 := by
  have e : Vin11 m c main_v202 = Vin9 m c main_v202 := ly11_keep3 m c _ (by decide) (by decide) (by decide) (by decide)
  rw [e]
  exact ly9_be2 m c hb

/-- The graph column the third kernel reads holds the launch's graph numbers. -/
theorem ly11_graph (hb : Base m c (Vout8 m c)) (r : Fin 50000) :
    (Vin11 m c main_v4 : S50000x1.Idx → BitVec 32) (ix2 r 0) = kBw m c r := by
  have e : Vin11 m c main_v4 = GenP.V1 m c main_v4 :=
    (ly11_keep3 m c _ (by decide) (by decide) (by decide) (by decide)).trans
      ((GenP.V19_of m (outs m) c _ (by decide)).trans hb.v4)
  rw [e]
  exact graph_launch m c r 0

/-! ## The third kernel: normalise, rectify, and each block's share of the pooling -/

theorem ly11_bn (hb : Base m c (Vout8 m c)) :
    Spec.bnrelu (cur2 (Vin11 m c (Pipeline.arrRef spec11 0))) (row0 (Vin11 m c (Pipeline.arrRef spec11 1)))
        (row0 (Vin11 m c (Pipeline.arrRef spec11 2))) (row0 (Vin11 m c (Pipeline.arrRef spec11 3)))
        (row0 (Vin11 m c (Pipeline.arrRef spec11 4)))
      = hout11 m c := by
  show Spec.bnrelu (cur2 (Vin11 m c main_v216_0 : S50000x128.Idx → EReal))
      (row0 (Vin11 m c main_v219 : S1x128.Idx → EReal)) (row0 (Vin11 m c main_v226 : S1x128.Idx → EReal))
      (row0 (Vin11 m c main_v199 : S1x128.Idx → EReal)) (row0 (Vin11 m c main_v202 : S1x128.Idx → EReal)) = _
  rw [ly11_z m c, ly10_out m c hb, ly11_mean m c hb, ly11_var m c hb, ly11_g2 m c hb, ly11_be2 m c hb]
  rfl

/-- The layer's features. -/
theorem layer3_h (hb : Base m c (Vout8 m c)) :
    cur2 (Vout11 m c main_v227_0 : S50000x128.Idx → EReal)
      = Spec.kh (cur2 (Vout8 m c main_v171_0 : S50000x128.Idx → EReal)) (cur2 (kAgg m c (Vout8 m c main_v171_0)))
          (kP m c lyr3) :=
  (congrArg cur2 (hF_11 m c 6).symm).trans ((val11_6 (fun c b => Vin11 m c b) c).trans (ly11_bn m c hb))

/-- Each block's share of the pooling of the layer's features. -/
theorem ly11_part (hb : Base m c (Vout8 m c)) (t : Fin 10) (g : Fin 256) (k : Fin 128) :
    (Vout11 m c main_v227_1 : S10x256x128.Idx → EReal) (ix3 t g k)
      = poolKpart (kBw m c) (cur2 (Vout11 m c main_v227_0 : S50000x128.Idx → EReal)) t g k := by
  refine (congrFun (hF_11 m c 7).symm (ix3 t g k)).trans ((val11_7 (fun c b => Vin11 m c b) c t g k).trans ?_)
  have eb : (fun r : Fin 50000 => (Vin11 m c (Pipeline.arrRef spec11 5) : S50000x1.Idx → BitVec 32) (ix2 r 0)) = kBw m c :=
    funext fun r => ly11_graph m c hb r
  rw [layer3_h m c hb]
  exact congrArg₂ (fun bw H => poolKpart bw H t g k) eb (ly11_bn m c hb)

end Layer

end Cert.KernelIdeal.Hand

end
-- ==== Proof.KI.Host12.lean ====
/-
  The host stretch before a later layer's first kernel: the previous layer's pooled matrix as the sum of its ten
  per-block shares, the neighbourhood sums of the previous layer's features, and the layer's slice of every
  weight stack.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The layer this stretch prepares: the slice it takes of every weight stack. -/
abbrev host12_layer : Fin 5 := 4

/-- The previous layer's pooled matrix: the ten per-block shares added up. -/
theorem host12_pool (bw : Fin 50000 → BitVec 32) (H : Mat 50000 128)
    (hp : ∀ t g k, (W main_v227_1 : S10x256x128.Idx → EReal) (ix3 t g k) = poolKpart bw H t g k) :
    cur2 (StableHlo.after hostOps12 W main_v228 : S256x128.Idx → EReal) = poolK bw H := by
  have e : (StableHlo.after hostOps12 W main_v228 : S256x128.Idx → EReal)
      = Host.reduceAdd (W main_v227_1 : S10x256x128.Idx → EReal) (constant (F := Ideal) S_ .f32 0x00000000#32)
          reducesTo_S10x256x128_S256x128_d0 h_S_ := by
    after_results
  rw [e]
  exact poolSum_poolK _ _ _ bw H hp

/-- The neighbourhood sums of the previous layer's features. -/
theorem host12_agg :
    (StableHlo.after hostOps12 W main_v238 : S50000x128.Idx → EReal)
      = aggA gather_S50000x128_S800000x1_S800000x128_1_0_n_n_0_1_1128 scatter_S50000x128_S800000x1_S800000x128_1_0_0_1
          bcast_S_S50000x128 (W main_v227_0)
          (srcCol bcast_S_S800000 bcast_S800000_S800000x1_0 (W main_v1))
          (dstCol bcast_S800000_S800000x1_0 (W main_v3)) := by
  after_results_simp
  rfl

/-- The layer's first weight matrix. -/
theorem host12_W1 :
    cur2 (StableHlo.after hostOps12 W main_v240 : S128x128.Idx → EReal) = sl3 (W main_arg1 : S5x128x128.Idx → EReal) host12_layer :=
  cur2_sliceMat_of _ host12_layer _ _ _ _ (by after_results_simp; rfl) (by rfl)

/-- The layer's first bias, as a row. -/
theorem host12_b1 :
    row0 (StableHlo.after hostOps12 W main_v259 : S1x128.Idx → EReal) = sl2 (W main_arg2 : S5x128.Idx → EReal) host12_layer :=
  row0_sliceVec_of _ host12_layer _ _ _ _ _ (by after_results_simp; rfl) (by rfl)

/-- The layer's first scale, as a row. -/
theorem host12_g1 :
    row0 (StableHlo.after hostOps12 W main_v245 : S1x128.Idx → EReal) = sl2 (W main_arg3 : S5x128.Idx → EReal) host12_layer :=
  row0_sliceVec_of _ host12_layer _ _ _ _ _ (by after_results_simp; rfl) (by rfl)

/-- The layer's first shift, as a row. -/
theorem host12_be1 :
    row0 (StableHlo.after hostOps12 W main_v248 : S1x128.Idx → EReal) = sl2 (W main_arg4 : S5x128.Idx → EReal) host12_layer :=
  row0_sliceVec_of _ host12_layer _ _ _ _ _ (by after_results_simp; rfl) (by rfl)

/-- The layer's second weight matrix. -/
theorem host12_W2 :
    cur2 (StableHlo.after hostOps12 W main_v250 : S128x128.Idx → EReal) = sl3 (W main_arg5 : S5x128x128.Idx → EReal) host12_layer :=
  cur2_sliceMat_of _ host12_layer _ _ _ _ (by after_results_simp; rfl) (by rfl)

/-- The layer's second bias, as a vector. -/
theorem host12_b2 :
    cur1 (StableHlo.after hostOps12 W main_v252 : S128.Idx → EReal) = sl2 (W main_arg6 : S5x128.Idx → EReal) host12_layer :=
  cur1_sliceVec_of _ host12_layer _ _ _ _ (by after_results_simp; rfl) (by rfl)

/-- The layer's second scale, as a row. -/
theorem host12_g2 :
    row0 (StableHlo.after hostOps12 W main_v255 : S1x128.Idx → EReal) = sl2 (W main_arg7 : S5x128.Idx → EReal) host12_layer :=
  row0_sliceVec_of _ host12_layer _ _ _ _ _ (by after_results_simp; rfl) (by rfl)

/-- The layer's second shift, as a row. -/
theorem host12_be2 :
    row0 (StableHlo.after hostOps12 W main_v258 : S1x128.Idx → EReal) = sl2 (W main_arg8 : S5x128.Idx → EReal) host12_layer :=
  row0_sliceVec_of _ host12_layer _ _ _ _ _ (by after_results_simp; rfl) (by rfl)

end Cert.KernelIdeal.Hand

end
-- ==== Proof.KI.LPool3.lean ====
/-
  The end of one layer of the network as the kernel program computes it: the host stretch after the layer's last
  kernel adds the ten row blocks' shares into the sum of the layer's features by graph, and leaves the features
  themselves, and every array the layer did not write, for the next layer.
-/
import proofs.«422260_j36421322670663_2_alg».proof.Proof.KI.Layer3
import proofs.«422260_j36421322670663_2_alg».proof.Proof.KI.Host12

-- deciding that a reference is none of the several dozen a host stretch writes recurses once per reference
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- An array none of the layer's three kernels and none of the host stretches after them writes is the same when the
    next layer's first kernel is entered as when this layer's was. -/
theorem layer3_keep (c : Dev nD) (r : Ref sig .tc)
    (h8 : r ∉ ([main_v204_0, main_v204_1, main_v204_2] : List (Ref sig .tc))) (h9 : r ∉ GenP.hostOps10_W)
    (h10 : r ∉ ([main_v216_0, main_v216_1, main_v216_2] : List (Ref sig .tc))) (h11 : r ∉ GenP.hostOps11_W)
    (h12 : r ∉ ([main_v227_0, main_v227_1] : List (Ref sig .tc))) (h13 : r ∉ GenP.hostOps12_W) :
    Vin12 m c r = Vin9 m c r :=
  (GenP.V25_of m (outs m) c r h13).trans (layer3_thru m c r h8 h9 h10 h11 h12)

/-- The next layer is entered with the features this layer's last kernel left. -/
theorem layer3_feat (c : Dev nD) : Vin12 m c main_v227_0 = Vout11 m c main_v227_0 :=
  GenP.V25_of m (outs m) c _ (by decide)

/-- The layer's pooled features: the ten shares added up by the host stretch after the layer's last kernel. -/
theorem layer3_pool (c : Dev nD) (hb : Base m c (Vout8 m c)) :
    cur2 (Vin12 m c main_v228 : S256x128.Idx → EReal)
      = Spec.poolK (kBw m c) (cur2 (Vout11 m c main_v227_0 : S50000x128.Idx → EReal)) :=
  host12_pool (Vout11 m c) (kBw m c) _ (ly11_part m c hb)

end Cert.KernelIdeal.Hand

end
-- ==== Proof.KI.Val12Pay.lean ====
/-
  What the first linear map's kernel body computes from its four loaded blocks, entry by entry, over the extended
  reals: the block's affine image (the sum of the two feature blocks times the weights, plus the bias row), the
  column sums of that image over the block's rows, and the column sums of its squares. The roundings to the
  narrower format are the identity on extended reals, the accumulator of the matrix product is zero, and the sums
  over a whole axis are plain finite sums.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen Cert.Spec

/-! ## The matrix product's operand indices -/

private theorem lhs_row (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

private theorem lhs_shared (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single (cl := 1) rfl j k

private theorem rhs_shared (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single (cr := 0) rfl j k

private theorem rhs_col (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

/-- The product of a 5000 × 128 by a 128 × 128 matrix into the zero accumulator, at (p, q): the sum over the shared
    coordinate of the products of the entries. -/
private theorem mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have hl : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => exact lhs_row _ _
    | ⟨1, _⟩ => exact (lhs_shared _ _).trans hc
  have hr : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => exact (rhs_shared _ _).trans hc
    | ⟨1, _⟩ => exact rhs_col _ _
  rw [hl, hr]

/-! ## The row sums' index, and the casts between a vector, a row and a one-row stack -/

/-- A vector's coordinate put back under row p of the block. -/
private theorem lift_rows (h : S5000x128.Reduces [0] S128) (q : Fin 128) (p : Fin 5000) :
    h.lift (ix1 q) p = ix2 p q := by
  funext ax; apply Fin.ext
  match ax with
  | ⟨0, _⟩ => rfl
  | ⟨1, _⟩ => rfl

/-- The sum over the rows of a block, kept as a 1 × 1 × 128 stack, at column q. -/
private theorem colsum_apply (z : FVec Ideal S5000x128 .f32) (q : Fin 128) :
    shapeCast S1x1x128 (shapeCast S1x128
        (multiReduction (F := Ideal) .add [0] S128 z 0x00000000#32 reduces_S5000x128_S128 (.inl rfl) rfl)
        shapeCasts_S128_S1x128) shapeCasts_S1x128_S1x1x128 (ix3 0 0 q)
      = ∑ p : Fin 5000, z (ix2 p q) := by
  refine (shapeCast_ab_1ab_apply _ _ 0 0 q).trans ?_
  refine (shapeCast_a_1a_apply _ _ 0 q).trans ?_
  refine (Ideal.multiReduction_add_single z 0x00000000#32 reduces_S5000x128_S128 (.inl rfl) rfl (ix1 q)).trans ?_
  exact Finset.sum_congr rfl fun p _ => congrArg z (lift_rows _ q p)

/-! ## The three payloads at an index -/

/-- The block's affine image at (p, q): row p of the sum of the two feature blocks against column q of the weights,
    plus the bias at q. -/
theorem k12_pay1_apply (x0 x1 : Vec Ideal S5000x128 .f32) (x2 : Vec Ideal S128x128 .f32) (x3 : Vec Ideal S1x128 .f32)
    (p : Fin 5000) (q : Fin 128) :
    k12_pay1 x0 x1 x2 x3 (ix2 p q)
      = (∑ k : Fin 128, (x0 (ix2 p k) + x1 (ix2 p k)) * x2 (ix2 k q)) + x3 (ix2 0 q) := by
  unfold k12_pay1
  refine (addf_apply _ _ _).trans ?_
  refine congr (congrArg HAdd.hAdd ?_) ?_
  · refine (mm_apply _ _ p q).trans (Finset.sum_congr rfl fun k _ => ?_)
    simp only [shapeCast_self]
    all_goals rfl
  · refine (broadcastTo_1b_ab_apply _ _ p q).trans ?_
    exact congrFun (shapeCast_self x3 _) _

/-- The column sums of the block's affine image. -/
theorem k12_pay2_apply (x0 x1 : Vec Ideal S5000x128 .f32) (x2 : Vec Ideal S128x128 .f32) (x3 : Vec Ideal S1x128 .f32)
    (q : Fin 128) :
    k12_pay2 x0 x1 x2 x3 (ix3 0 0 q)
      = ∑ p : Fin 5000, ((∑ k : Fin 128, (x0 (ix2 p k) + x1 (ix2 p k)) * x2 (ix2 k q)) + x3 (ix2 0 q)) := by
  unfold k12_pay2
  refine (colsum_apply _ q).trans ?_
  exact Finset.sum_congr rfl fun p _ => k12_pay1_apply x0 x1 x2 x3 p q

/-- The column sums of the squares of the block's affine image. -/
theorem k12_pay3_apply (x0 x1 : Vec Ideal S5000x128 .f32) (x2 : Vec Ideal S128x128 .f32) (x3 : Vec Ideal S1x128 .f32)
    (q : Fin 128) :
    k12_pay3 x0 x1 x2 x3 (ix3 0 0 q)
      = ∑ p : Fin 5000, ((∑ k : Fin 128, (x0 (ix2 p k) + x1 (ix2 p k)) * x2 (ix2 k q)) + x3 (ix2 0 q))
          * ((∑ k : Fin 128, (x0 (ix2 p k) + x1 (ix2 p k)) * x2 (ix2 k q)) + x3 (ix2 0 q)) := by
  unfold k12_pay3
  refine (colsum_apply _ q).trans ?_
  refine Finset.sum_congr rfl fun p _ => ?_
  refine (mulf_apply _ _ _).trans ?_
  rw [k12_pay1_apply]

end Cert.KernelIdeal.Hand

end
-- ==== Proof.KI.Val12.lean ====
/-
  The three arrays the first linear map's region leaves, over the extended reals, as functions of the four arrays it
  reads: the affine image of the whole feature arrays (the sum of the features and their neighbourhood sums, times the
  weights, plus the bias); for each of the ten row blocks the column sums of that image over the block's rows; and
  the column sums of its squares. Each grid point computes its own block of these from its own blocks of the inputs —
  a block's entry sits in the array at (block number × block size + the coordinate inside the block) — and the
  blocks of the ten points tile the arrays.
-/
import proofs.«422260_j36421322670663_2_alg».proof.Proof.KI.Reg12
import proofs.«422260_j36421322670663_2_alg».proof.Proof.KI.Val12Pay
import proofs.«422260_j36421322670663_2_alg».proof.Proof.Gen.KernelIdeal.Points
import proofs.«422260_j36421322670663_2_alg».proof.Proof.Spec
import proofs.«422260_j36421322670663_2_alg».proof.Proof.SpecPool
import Idealize.ShloMosaic.Lib.ValueIdx
import Idealize.ShloMosaic.Lib.Pipeline.Value

noncomputable section

namespace Cert.KernelIdeal.Hand

open Idealize.ShloMosaic Idealize.ShloMosaic.ValueIdx Idealize.ShloMosaic.TcCoe Idealize.SL.Sem
open Cert.KernelIdeal Cert.KernelIdeal.Gen Cert.Spec

section Arrays
variable (V : (c : Dev nD) → (b : Ref sig .tc) → Buf (Elt Ideal) ((c : Thread nD τ).loc b)) (c : Dev nD)

/-! ## The whole arrays the three outputs end holding -/

/-- The affine image of the whole feature arrays: every row of their sum against the weights, plus the bias. -/
def lin12 : Mat 50000 128 :=
  Spec.lin (fun r k => cur2 (V c (Pipeline.arrRef spec12 0) : S50000x128.Idx → EReal) r k
      + cur2 (V c (Pipeline.arrRef spec12 1) : S50000x128.Idx → EReal) r k)
    (cur2 (V c (Pipeline.arrRef spec12 2) : S128x128.Idx → EReal))
    (row0 (V c (Pipeline.arrRef spec12 3) : S1x128.Idx → EReal))

/-- The image, as an array. -/
def arr12_4 : S50000x128.Idx → EReal := fun i => lin12 V c (i 0) (i 1)
/-- Its column sums block by block, as an array. -/
def arr12_5 : S10x1x128.Idx → EReal := fun i => Spec.ksum (lin12 V c) (i 0) (i 2)
/-- The column sums of its squares block by block, as an array. -/
def arr12_6 : S10x1x128.Idx → EReal := fun i => Spec.ksq (lin12 V c) (i 0) (i 2)

/-! ## Where a block's entry sits in its array -/

/-- The printed index maps over the ten grid points: the two feature windows and the image's window sit at the
    point's own row block, the weights and the bias at the one block there is, the two sums' windows at the point's
    own slice. -/
theorem idx12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0
    ∧ win12_5.index t (0 : Fin 3) = t.val ∧ win12_5.index t (1 : Fin 3) = 0 ∧ win12_5.index t (2 : Fin 3) = 0
    ∧ win12_6.index t (0 : Fin 3) = t.val ∧ win12_6.index t (1 : Fin 3) = 0 ∧ win12_6.index t (2 : Fin 3) = 0 :=
  (by decide +kernel : ∀ t : Fin grid12.N, _)

/-- The grid point as a block number. -/
def pt12 (t : Fin cfg12.N) : Fin 10 := Fin.cast N_12 t

/-- Entry (p, k) of a feature block is entry (block's first row + p, k) of the array. -/
theorem emb12_0 (t : Fin cfg12.N) (p : Fin 5000) (k : Fin 128) :
    ((cfg12.win 0).blk t).view.emb (ix2 p k) = (ix2 (brow (pt12 t) p) k : S50000x128.Idx) := by
  obtain ⟨e0, e1, -⟩ := idx12 t
  funext a; apply Fin.ext
  match a with
  | ⟨0, _⟩ => show win12_0.index t (0 : Fin 2) * 5000 + 1 * p.val = t.val * 5000 + p.val; omega
  | ⟨1, _⟩ => show win12_0.index t (1 : Fin 2) * 128 + 1 * k.val = k.val; omega

theorem emb12_1 (t : Fin cfg12.N) (p : Fin 5000) (k : Fin 128) :
    ((cfg12.win 1).blk t).view.emb (ix2 p k) = (ix2 (brow (pt12 t) p) k : S50000x128.Idx) := by
  obtain ⟨-, -, e0, e1, -⟩ := idx12 t
  funext a; apply Fin.ext
  match a with
  | ⟨0, _⟩ => show win12_1.index t (0 : Fin 2) * 5000 + 1 * p.val = t.val * 5000 + p.val; omega
  | ⟨1, _⟩ => show win12_1.index t (1 : Fin 2) * 128 + 1 * k.val = k.val; omega

/-- The weights' and the bias's one block is the array. -/
theorem emb12_2 (t : Fin cfg12.N) (k q : Fin 128) :
    ((cfg12.win 2).blk t).view.emb (ix2 k q) = (ix2 k q : S128x128.Idx) := by
  obtain ⟨-, -, -, -, e0, e1, -⟩ := idx12 t
  funext a; apply Fin.ext
  match a with
  | ⟨0, _⟩ => show win12_2.index t (0 : Fin 2) * 128 + 1 * k.val = k.val; omega
  | ⟨1, _⟩ => show win12_2.index t (1 : Fin 2) * 128 + 1 * q.val = q.val; omega

theorem emb12_3 (t : Fin cfg12.N) (u : Fin 1) (q : Fin 128) :
    ((cfg12.win 3).blk t).view.emb (ix2 u q) = (ix2 u q : S1x128.Idx) := by
  obtain ⟨-, -, -, -, -, -, e0, e1, -⟩ := idx12 t
  funext a; apply Fin.ext
  match a with
  | ⟨0, _⟩ => show win12_3.index t (0 : Fin 2) * 1 + 1 * u.val = u.val; omega
  | ⟨1, _⟩ => show win12_3.index t (1 : Fin 2) * 128 + 1 * q.val = q.val; omega

theorem emb12_4 (t : Fin cfg12.N) (p : Fin 5000) (q : Fin 128) :
    ((cfg12.win 4).blk t).view.emb (ix2 p q) = (ix2 (brow (pt12 t) p) q : S50000x128.Idx) := by
  obtain ⟨-, -, -, -, -, -, -, -, e0, e1, -⟩ := idx12 t
  funext a; apply Fin.ext
  match a with
  | ⟨0, _⟩ => show win12_4.index t (0 : Fin 2) * 5000 + 1 * p.val = t.val * 5000 + p.val; omega
  | ⟨1, _⟩ => show win12_4.index t (1 : Fin 2) * 128 + 1 * q.val = q.val; omega

/-- The one row of a block of sums is slice number (the point) of the stack. -/
theorem emb12_5 (t : Fin cfg12.N) (u v : Fin 1) (q : Fin 128) :
    ((cfg12.win 5).blk t).view.emb (ix3 u v q) = (ix3 (pt12 t) v q : S10x1x128.Idx) := by
  obtain ⟨-, -, -, -, -, -, -, -, -, -, e0, e1, e2, -⟩ := idx12 t
  funext a; apply Fin.ext
  match a with
  | ⟨0, _⟩ => show win12_5.index t (0 : Fin 3) * 1 + 1 * u.val = t.val; omega
  | ⟨1, _⟩ => show win12_5.index t (1 : Fin 3) * 1 + 1 * v.val = v.val; omega
  | ⟨2, _⟩ => show win12_5.index t (2 : Fin 3) * 128 + 1 * q.val = q.val; omega

theorem emb12_6 (t : Fin cfg12.N) (u v : Fin 1) (q : Fin 128) :
    ((cfg12.win 6).blk t).view.emb (ix3 u v q) = (ix3 (pt12 t) v q : S10x1x128.Idx) := by
  obtain ⟨-, -, -, -, -, -, -, -, -, -, -, -, -, e0, e1, e2⟩ := idx12 t
  funext a; apply Fin.ext
  match a with
  | ⟨0, _⟩ => show win12_6.index t (0 : Fin 3) * 1 + 1 * u.val = t.val; omega
  | ⟨1, _⟩ => show win12_6.index t (1 : Fin 3) * 1 + 1 * v.val = v.val; omega
  | ⟨2, _⟩ => show win12_6.index t (2 : Fin 3) * 128 + 1 * q.val = q.val; omega

/-! ## What a grid point's body computes is its block of the whole arrays -/

/-- One entry of the image computed from the point's four blocks is the whole image at the block's row. -/
theorem cell12 (t : Fin cfg12.N) (p : Fin 5000) (q : Fin 128)
    (x0 x1 : Vec Ideal S5000x128 .f32) (x2 : Vec Ideal S128x128 .f32) (x3 : Vec Ideal S1x128 .f32)
    (h0 : x0 = iblk12 V c 0 t) (h1 : x1 = iblk12 V c 1 t) (h2 : x2 = iblk12 V c 2 t) (h3 : x3 = iblk12 V c 3 t) :
    (∑ k : Fin 128, (x0 (ix2 p k) + x1 (ix2 p k)) * x2 (ix2 k q)) + x3 (ix2 0 q)
      = lin12 V c (brow (pt12 t) p) q := by
  subst h0 h1 h2 h3
  have a0 : ∀ k : Fin 128, iblk12 V c 0 t (ix2 p k)
      = (V c (Pipeline.arrRef spec12 0) : S50000x128.Idx → EReal) (ix2 (brow (pt12 t) p) k) :=
    fun k => congrArg (V c (Pipeline.arrRef spec12 0)) (emb12_0 t p k)
  have a1 : ∀ k : Fin 128, iblk12 V c 1 t (ix2 p k)
      = (V c (Pipeline.arrRef spec12 1) : S50000x128.Idx → EReal) (ix2 (brow (pt12 t) p) k) :=
    fun k => congrArg (V c (Pipeline.arrRef spec12 1)) (emb12_1 t p k)
  have a2 : ∀ k : Fin 128, iblk12 V c 2 t (ix2 k q)
      = (V c (Pipeline.arrRef spec12 2) : S128x128.Idx → EReal) (ix2 k q) :=
    fun k => congrArg (V c (Pipeline.arrRef spec12 2)) (emb12_2 t k q)
  have a3 : iblk12 V c 3 t (ix2 0 q) = (V c (Pipeline.arrRef spec12 3) : S1x128.Idx → EReal) (ix2 0 q) :=
    congrArg (V c (Pipeline.arrRef spec12 3)) (emb12_3 t 0 q)
  unfold lin12 Spec.lin cur2 row0
  refine congr (congrArg HAdd.hAdd (Finset.sum_congr rfl fun k _ => ?_)) a3
  exact congr (congrArg HMul.hMul (congr (congrArg HAdd.hAdd (a0 k)) (a1 k))) (a2 k)

end Arrays

section Blocks
variable (V : (c : Dev nD) → (b : Ref sig .tc) → Buf (Elt Ideal) ((c : Thread nD τ).loc b)) (c : Dev nD)

/-- The image's block at a point is the point's block of the whole image. -/
theorem blk12_4 (t : Fin cfg12.N) :
    k12_pay1 (iblk12 V c 0 t) (iblk12 V c 1 t) (iblk12 V c 2 t) (iblk12 V c 3 t)
      = ((cfg12.win 4).blk t).view.read (Elt Ideal) (arr12_4 V c) := by
  funext j
  obtain ⟨p, q, rfl⟩ : ∃ (p : Fin 5000) (q : Fin 128), j = ix2 p q := ⟨j 0, j 1, eq_ix2 j⟩
  refine (k12_pay1_apply _ _ _ _ p q).trans ?_
  refine (cell12 V c t p q _ _ _ _ rfl rfl rfl rfl).trans ?_
  exact (congrArg (arr12_4 V c) (emb12_4 t p q)).symm

/-- The column sums a point computes are the point's slice of the blockwise column sums of the whole image. -/
theorem blk12_5 (t : Fin cfg12.N) :
    k12_pay2 (iblk12 V c 0 t) (iblk12 V c 1 t) (iblk12 V c 2 t) (iblk12 V c 3 t)
      = ((cfg12.win 5).blk t).view.read (Elt Ideal) (arr12_5 V c) := by
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (k12_pay2_apply _ _ _ _ q).trans ?_
  refine (Finset.sum_congr rfl fun p _ => cell12 V c t p q _ _ _ _ rfl rfl rfl rfl).trans ?_
  exact (congrArg (arr12_5 V c) (emb12_5 t 0 0 q)).symm

/-- Likewise the column sums of squares. -/
theorem blk12_6 (t : Fin cfg12.N) :
    k12_pay3 (iblk12 V c 0 t) (iblk12 V c 1 t) (iblk12 V c 2 t) (iblk12 V c 3 t)
      = ((cfg12.win 6).blk t).view.read (Elt Ideal) (arr12_6 V c) := by
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (k12_pay3_apply _ _ _ _ q).trans ?_
  refine (Finset.sum_congr rfl fun p _ => by rw [cell12 V c t p q _ _ _ _ rfl rfl rfl rfl]).trans ?_
  exact (congrArg (arr12_6 V c) (emb12_6 t 0 0 q)).symm

end Blocks

section Final
variable (V : (c : Dev nD) → (b : Ref sig .tc) → Buf (Elt Ideal) ((c : Thread nD τ).loc b)) (c : Dev nD)

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## What each point writes back is its block of the whole array -/

theorem flushed12_4 (t : Fin cfg12.N) :
    (dat12 V c).flushed 4 t = ((cfg12.win 4).blk t).view.read (Elt Ideal) (arr12_4 V c) := by
  show (cfg12.win 4).cut (grid12.coords t) ((dat12 V c).after 4 t) = _
  rw [after12_4]
  unfold out12_4
  rw [View.canon_unit_zero hz2]
  simp only [View.ld_unit_zero (S := S5000x128) hz2, View.ld_unit_zero (S := S128x128) hz2,
    View.ld_unit_zero (S := S1x128) hz2]
  exact blk12_4 V c t

theorem flushed12_5 (t : Fin cfg12.N) :
    (dat12 V c).flushed 5 t = ((cfg12.win 5).blk t).view.read (Elt Ideal) (arr12_5 V c) := by
  show (cfg12.win 5).cut (grid12.coords t) ((dat12 V c).after 5 t) = _
  rw [after12_5]
  unfold out12_5
  rw [View.canon_unit_zero hz3]
  simp only [View.ld_unit_zero (S := S5000x128) hz2, View.ld_unit_zero (S := S128x128) hz2,
    View.ld_unit_zero (S := S1x128) hz2]
  exact blk12_5 V c t

theorem flushed12_6 (t : Fin cfg12.N) :
    (dat12 V c).flushed 6 t = ((cfg12.win 6).blk t).view.read (Elt Ideal) (arr12_6 V c) := by
  show (cfg12.win 6).cut (grid12.coords t) ((dat12 V c).after 6 t) = _
  rw [after12_6]
  unfold out12_6
  rw [View.canon_unit_zero hz3]
  simp only [View.ld_unit_zero (S := S5000x128) hz2, View.ld_unit_zero (S := S128x128) hz2,
    View.ld_unit_zero (S := S1x128) hz2]
  exact blk12_6 V c t

/-! ## The blocks tile the arrays -/

/-- An index is in a point's block when each coordinate is in the block's range on its axis. -/
theorem mem12_4 (t : Fin cfg12.N) (i : S50000x128.Idx) :
    i ∈ ((cfg12.win 4).blk t).view.set ↔ ∀ a : Fin 2, win12_4.index t a * S5000x128.size a ≤ (i a).val
      ∧ (i a).val < win12_4.index t a * S5000x128.size a + S5000x128.size a := by
  show i ∈ ((View.whole (Pipeline.arrRef spec12 4)).slice (win12_4.rect t)).set ↔ _
  rw [View.set_slice_whole, Rect.mem_set_unit]
  exact Iff.rfl

theorem mem12_5 (t : Fin cfg12.N) (i : S10x1x128.Idx) :
    i ∈ ((cfg12.win 5).blk t).view.set ↔ ∀ a : Fin 3, win12_5.index t a * S1x1x128.size a ≤ (i a).val
      ∧ (i a).val < win12_5.index t a * S1x1x128.size a + S1x1x128.size a := by
  show i ∈ ((View.whole (Pipeline.arrRef spec12 5)).slice (win12_5.rect t)).set ↔ _
  rw [View.set_slice_whole, Rect.mem_set_unit]
  exact Iff.rfl

theorem mem12_6 (t : Fin cfg12.N) (i : S10x1x128.Idx) :
    i ∈ ((cfg12.win 6).blk t).view.set ↔ ∀ a : Fin 3, win12_6.index t a * S1x1x128.size a ≤ (i a).val
      ∧ (i a).val < win12_6.index t a * S1x1x128.size a + S1x1x128.size a := by
  show i ∈ ((View.whole (Pipeline.arrRef spec12 6)).slice (win12_6.rect t)).set ↔ _
  rw [View.set_slice_whole, Rect.mem_set_unit]
  exact Iff.rfl

/-- Row r of the image is in the block of point r / 5000. -/
theorem tile12_4 (i : S50000x128.Idx) :
    ∃ t : Fin cfg12.N, (cfg12.win 4).flush t = true ∧ i ∈ ((cfg12.win 4).blk t).view.set := by
  have hi0 : (i 0).val < 50000 := (i 0).isLt
  have hi1 : (i 1).val < 128 := (i 1).isLt
  obtain ⟨t, ht⟩ : ∃ t : Fin cfg12.N, t.val = (i 0).val / 5000 :=
    ⟨⟨(i 0).val / 5000, by show _ < grid12.N; rw [N_12]; omega⟩, rfl⟩
  refine ⟨t, flush12_4 t, ?_⟩
  rw [mem12_4]
  obtain ⟨-, -, -, -, -, -, -, -, e0, e1, -⟩ := idx12 t
  intro a
  match a with
  | ⟨0, _⟩ =>
    show win12_4.index t (0 : Fin 2) * 5000 ≤ (i 0).val ∧ (i 0).val < win12_4.index t (0 : Fin 2) * 5000 + 5000
    omega
  | ⟨1, _⟩ =>
    show win12_4.index t (1 : Fin 2) * 128 ≤ (i 1).val ∧ (i 1).val < win12_4.index t (1 : Fin 2) * 128 + 128
    omega

/-- Slice s of a stack of sums is the block of point s. -/
theorem tile12_5 (i : S10x1x128.Idx) :
    ∃ t : Fin cfg12.N, (cfg12.win 5).flush t = true ∧ i ∈ ((cfg12.win 5).blk t).view.set := by
  have hi0 : (i 0).val < 10 := (i 0).isLt
  have hi1 : (i 1).val < 1 := (i 1).isLt
  have hi2 : (i 2).val < 128 := (i 2).isLt
  obtain ⟨t, ht⟩ : ∃ t : Fin cfg12.N, t.val = (i 0).val :=
    ⟨⟨(i 0).val, by show _ < grid12.N; rw [N_12]; omega⟩, rfl⟩
  refine ⟨t, flush12_5 t, ?_⟩
  rw [mem12_5]
  obtain ⟨-, -, -, -, -, -, -, -, -, -, e0, e1, e2, -⟩ := idx12 t
  intro a
  match a with
  | ⟨0, _⟩ =>
    show win12_5.index t (0 : Fin 3) * 1 ≤ (i 0).val ∧ (i 0).val < win12_5.index t (0 : Fin 3) * 1 + 1
    omega
  | ⟨1, _⟩ =>
    show win12_5.index t (1 : Fin 3) * 1 ≤ (i 1).val ∧ (i 1).val < win12_5.index t (1 : Fin 3) * 1 + 1
    omega
  | ⟨2, _⟩ =>
    show win12_5.index t (2 : Fin 3) * 128 ≤ (i 2).val ∧ (i 2).val < win12_5.index t (2 : Fin 3) * 128 + 128
    omega

theorem tile12_6 (i : S10x1x128.Idx) :
    ∃ t : Fin cfg12.N, (cfg12.win 6).flush t = true ∧ i ∈ ((cfg12.win 6).blk t).view.set := by
  have hi0 : (i 0).val < 10 := (i 0).isLt
  have hi1 : (i 1).val < 1 := (i 1).isLt
  have hi2 : (i 2).val < 128 := (i 2).isLt
  obtain ⟨t, ht⟩ : ∃ t : Fin cfg12.N, t.val = (i 0).val :=
    ⟨⟨(i 0).val, by show _ < grid12.N; rw [N_12]; omega⟩, rfl⟩
  refine ⟨t, flush12_6 t, ?_⟩
  rw [mem12_6]
  obtain ⟨-, -, -, -, -, -, -, -, -, -, -, -, -, e0, e1, e2⟩ := idx12 t
  intro a
  match a with
  | ⟨0, _⟩ =>
    show win12_6.index t (0 : Fin 3) * 1 ≤ (i 0).val ∧ (i 0).val < win12_6.index t (0 : Fin 3) * 1 + 1
    omega
  | ⟨1, _⟩ =>
    show win12_6.index t (1 : Fin 3) * 1 ≤ (i 1).val ∧ (i 1).val < win12_6.index t (1 : Fin 3) * 1 + 1
    omega
  | ⟨2, _⟩ =>
    show win12_6.index t (2 : Fin 3) * 128 ≤ (i 2).val ∧ (i 2).val < win12_6.index t (2 : Fin 3) * 128 + 128
    omega

/-! ## The three arrays after the region -/

theorem final12_4 : (dat12 V c).arrAt 4 cfg12.N = arr12_4 V c :=
  (dat12 V c).arrAt_eq_of_cover 4 (arr12_4 V c) (fun t _ => flushed12_4 V c t) tile12_4

theorem final12_5 : (dat12 V c).arrAt 5 cfg12.N = arr12_5 V c :=
  (dat12 V c).arrAt_eq_of_cover 5 (arr12_5 V c) (fun t _ => flushed12_5 V c t) tile12_5

theorem final12_6 : (dat12 V c).arrAt 6 cfg12.N = arr12_6 V c :=
  (dat12 V c).arrAt_eq_of_cover 6 (arr12_6 V c) (fun t _ => flushed12_6 V c t) tile12_6

/-- The image window ends holding the first linear map of the sum of the two feature arrays. -/
theorem val12_4 :
    cur2 ((dat12 V c).arrAt 4 cfg12.N : S50000x128.Idx → EReal)
      = Spec.lin (fun r k => cur2 (V c (Pipeline.arrRef spec12 0)) r k + cur2 (V c (Pipeline.arrRef spec12 1)) r k)
          (cur2 (V c (Pipeline.arrRef spec12 2))) (row0 (V c (Pipeline.arrRef spec12 3))) := by
  rw [final12_4]
  rfl

/-- The second output holds, slice by slice, the column sums of that image over the block's rows. -/
theorem val12_5 (t : Fin 10) (k : Fin 128) :
    ((dat12 V c).arrAt 5 cfg12.N : S10x1x128.Idx → EReal) (ValueIdx.ix3 t 0 k)
      = Spec.ksum (Spec.lin (fun r k => cur2 (V c (Pipeline.arrRef spec12 0)) r k + cur2 (V c (Pipeline.arrRef spec12 1)) r k)
          (cur2 (V c (Pipeline.arrRef spec12 2))) (row0 (V c (Pipeline.arrRef spec12 3)))) t k := by
  rw [final12_5]
  rfl

/-- The third holds the column sums of its squares. -/
theorem val12_6 (t : Fin 10) (k : Fin 128) :
    ((dat12 V c).arrAt 6 cfg12.N : S10x1x128.Idx → EReal) (ValueIdx.ix3 t 0 k)
      = Spec.ksq (Spec.lin (fun r k => cur2 (V c (Pipeline.arrRef spec12 0)) r k + cur2 (V c (Pipeline.arrRef spec12 1)) r k)
          (cur2 (V c (Pipeline.arrRef spec12 2))) (row0 (V c (Pipeline.arrRef spec12 3)))) t k := by
  rw [final12_6]
  rfl

end Final

end Cert.KernelIdeal.Hand

end
-- ==== Proof.KI.Val13Pay.lean ====
/-
  What the payloads of the batch-normalisation / rectifier / second-product kernel are at an index, over the
  extended reals: the block of the second affine map is, entry by entry, the sum over the features of the rectified
  normalised pre-activation times the weight, plus the bias; the two statistics rows are the column sums of that
  block and of its squares.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KernelIdeal.Hand

open Cert.KernelIdeal Cert.KernelIdeal.Gen Cert.Spec
open Idealize.ShloMosaic Idealize.ShloMosaic.ValueIdx

/-! ## The matrix product's operand indices, coordinate by coordinate -/

theorem mmlrow13 (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
theorem mmlcol13 (j : S5000x128.Idx) (k : dot_S5000x128_S128x128_S5000x128_1_0_0_1_n_n.contr.Idx) :
    (dot_S5000x128_S128x128_S5000x128_1_0_0_1_n_n.lhsIdx j k 1 : ℕ) = k ⟨0, by decide⟩ := by
  simp [DotDims.lhsIdx, dot_S5000x128_S128x128_S5000x128_1_0_0_1_n_n]; rfl
theorem mmrrow13 (j : S5000x128.Idx) (k : dot_S5000x128_S128x128_S5000x128_1_0_0_1_n_n.contr.Idx) :
    (dot_S5000x128_S128x128_S5000x128_1_0_0_1_n_n.rhsIdx j k 0 : ℕ) = k ⟨0, by decide⟩ := by
  simp [DotDims.rhsIdx, dot_S5000x128_S128x128_S5000x128_1_0_0_1_n_n]; rfl
theorem mmrcol13 (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-- The product into the zero block, at row p and column q: the sum over the 128 features. -/
theorem mmat13 (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hl : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact mmlrow13 _ _
      | ⟨1, _⟩ => exact (mmlcol13 _ _).trans (contrEquiv1_symm_val _ 128 rfl rfl k))
  have hr : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (mmrrow13 _ _).trans (contrEquiv1_symm_val _ 128 rfl rfl k)
      | ⟨1, _⟩ => exact mmrcol13 _ _)
  rw [hl, hr]

/-- The sum over the 5000 rows of a block, at column q. -/
theorem rsum13 (src : FVec Ideal S5000x128 .f32) (hφ : FKind.Formats .f32) (hacc : (0x00000000#32 : BitVec 32) = 0x00000000#32)
    (q : Fin 128) :
    multiReduction (F := Ideal) .add [0] S128 src 0x00000000#32 reduces_S5000x128_S128 hφ hacc (ix1 q)
      = ∑ p : Fin 5000, src (ix2 p q) := by
  refine (Ideal.multiReduction_add_single src 0x00000000#32 reduces_S5000x128_S128 hφ hacc (ix1 q)).trans ?_
  refine Finset.sum_congr rfl fun p _ => congrArg src (funext fun ax => Fin.ext ?_)
  match ax with
  | ⟨0, _⟩ => rfl
  | ⟨1, _⟩ => rfl

/-! ## The payloads at an index -/

/-- The block of the second affine map at row p and column q. The inputs are named in the kernel's window order:
    the pre-activations, their mean, their variance, the scale, the shift, the weights, the bias. -/
theorem payz13 (xz : Vec Ideal S5000x128 .f32) (xm xv xg xb : Vec Ideal S1x128 .f32) (xw : Vec Ideal S128x128 .f32)
    (xc : Vec Ideal S1x128 .f32) (p : Fin 5000) (q : Fin 128) :
    k13_pay3 xz xv xm xg xb xw xc (ix2 p q)
      = (∑ k : Fin 128, max ((xz (ix2 p k) - xm (ix2 0 k)) * Ideal.rsqrt (xv (ix2 0 k) + eps) * xg (ix2 0 k) + xb (ix2 0 k)) 0
            * xw (ix2 k q)) + xc (ix2 0 q) := by
  unfold k13_pay3
  refine (congrArg₂ (· + ·) (mmat13 _ _ p q) (broadcastTo_1b_ab_apply _ _ p q)).trans ?_
  simp only [shapeCast_self]
  refine congrArg (· + xc (ix2 0 q)) (Finset.sum_congr rfl fun k _ => ?_)
  simp only [truncf_apply, maximumf_apply, addf_apply, mulf_apply, subf_apply, broadcast_apply, broadcastTo_1b_ab_apply]
  have hzero : (FloatOps.ofBits (F := Ideal) .f32 0x00000000#32) = 0 := Ideal.ofBits_zero_f32
  rw [hzero]
  rfl

/-- The row of column sums the kernel stores: at column q, the sum of the block's entries down the 5000 rows. -/
theorem paysum13 (xz : Vec Ideal S5000x128 .f32) (xm xv xg xb : Vec Ideal S1x128 .f32) (xw : Vec Ideal S128x128 .f32)
    (xc : Vec Ideal S1x128 .f32) (u v : Fin 1) (q : Fin 128) :
    k13_pay1 (k13_pay4 xz xv xm xg xb xw xc) (ix3 u v q) = ∑ p : Fin 5000, k13_pay3 xz xv xm xg xb xw xc (ix2 p q) := by
  unfold k13_pay1 k13_pay4
  refine (shapeCast_ab_1ab_apply _ _ u v q).trans ?_
  refine (shapeCast_a_1a_apply _ _ v q).trans ?_
  exact rsum13 _ _ _ q

/-- The row of column sums of squares: at column q, the sum of the squared entries down the rows. -/
theorem paysq13 (xz : Vec Ideal S5000x128 .f32) (xm xv xg xb : Vec Ideal S1x128 .f32) (xw : Vec Ideal S128x128 .f32)
    (xc : Vec Ideal S1x128 .f32) (u v : Fin 1) (q : Fin 128) :
    k13_pay2 (k13_pay5 xz xv xm xg xb xw xc) (ix3 u v q)
      = ∑ p : Fin 5000, k13_pay3 xz xv xm xg xb xw xc (ix2 p q) * k13_pay3 xz xv xm xg xb xw xc (ix2 p q) := by
  unfold k13_pay2 k13_pay5
  refine (shapeCast_ab_1ab_apply _ _ u v q).trans ?_
  refine (shapeCast_a_1a_apply _ _ v q).trans ?_
  exact rsum13 _ _ _ q

end Cert.KernelIdeal.Hand

end
-- ==== Proof.KI.Val13Blk.lean ====
/-
  Where the blocks of the batch-normalisation / rectifier / second-product kernel sit in their arrays: at grid point t
  the block of pre-activations and the block of results are rows 5000·t … 5000·t + 4999, the per-feature rows and the
  weights are whole arrays, and the two statistics rows are row t of their ten-row arrays; the result blocks cover
  their arrays. Also the layer's second affine map of whole arrays, as one function.
-/
import proofs.«422260_j36421322670663_2_alg».proof.Proof.Gen.KernelIdeal.Launch
import proofs.«422260_j36421322670663_2_alg».proof.Proof.Gen.KernelIdeal.Points
import proofs.«422260_j36421322670663_2_alg».proof.Proof.Spec
import proofs.«422260_j36421322670663_2_alg».proof.Proof.SpecPool
import Idealize.ShloMosaic.Lib.ValueIdx
import Idealize.ShloMosaic.Lib.Pipeline.Value

set_option pp.maxSteps 5000
set_option pp.deepTerms false

noncomputable section

namespace Cert.KernelIdeal.Hand

open Cert.KernelIdeal Cert.KernelIdeal.Gen Cert.Spec
open Idealize.ShloMosaic Idealize.ShloMosaic.ValueIdx Idealize.ShloMosaic.TcCoe

/-- The second affine map of the rectified normalised pre-activations, from whole arrays. -/
def gz13 (az : S50000x128.Idx → EReal) (am av ag ab : S1x128.Idx → EReal) (aw : S128x128.Idx → EReal)
    (ac : S1x128.Idx → EReal) : Mat 50000 128 :=
  Spec.lin (Spec.bnrelu (cur2 az) (row0 am) (row0 av) (row0 ag) (row0 ab)) (cur2 aw) (row0 ac)

/-- A grid point as a block number. -/
def tblk13 (t : Fin cfg13.N) : Fin 10 := Fin.cast N_13 t

theorem tblk13_val (t : Fin cfg13.N) : (tblk13 t).val = t.val := rfl

/-- The block indices at every grid point. -/
theorem blkidx13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = 0
    ∧ win13_7.index t (0 : Fin 2) = t.val ∧ win13_7.index t (1 : Fin 2) = 0
    ∧ win13_8.index t (0 : Fin 3) = t.val ∧ win13_8.index t (1 : Fin 3) = 0 ∧ win13_8.index t (2 : Fin 3) = 0
    ∧ win13_9.index t (0 : Fin 3) = t.val ∧ win13_9.index t (1 : Fin 3) = 0 ∧ win13_9.index t (2 : Fin 3) = 0 :=
  (by decide +kernel : ∀ t : Fin grid13.N, _)

/-! ## Where a block's entry sits in its array -/

theorem embz13 (t : Fin cfg13.N) (p : Fin 5000) (k : Fin 128) :
    ((cfg13.win 0).blk t).view.emb (ix2 p k) = ix2 (brow (tblk13 t) p) k := by
  have e := blkidx13 t
  funext a; apply Fin.ext
  match a with
  | ⟨0, _⟩ => show win13_0.index t (0 : Fin 2) * 5000 + 1 * p.val = t.val * 5000 + p.val; rw [e.1]; omega
  | ⟨1, _⟩ => show win13_0.index t (1 : Fin 2) * 128 + 1 * k.val = k.val; rw [e.2.1]; omega

theorem embm13 (t : Fin cfg13.N) (u : Fin 1) (k : Fin 128) :
    ((cfg13.win 1).blk t).view.emb (ix2 u k) = ix2 0 k := by
  have e := blkidx13 t
  funext a; apply Fin.ext
  match a with
  | ⟨0, _⟩ => show win13_1.index t (0 : Fin 2) * 1 + 1 * u.val = 0; rw [e.2.2.1]; omega
  | ⟨1, _⟩ => show win13_1.index t (1 : Fin 2) * 128 + 1 * k.val = k.val; rw [e.2.2.2.1]; omega

theorem embv13 (t : Fin cfg13.N) (u : Fin 1) (k : Fin 128) :
    ((cfg13.win 2).blk t).view.emb (ix2 u k) = ix2 0 k := by
  have e := blkidx13 t
  funext a; apply Fin.ext
  match a with
  | ⟨0, _⟩ => show win13_2.index t (0 : Fin 2) * 1 + 1 * u.val = 0; rw [e.2.2.2.2.1]; omega
  | ⟨1, _⟩ => show win13_2.index t (1 : Fin 2) * 128 + 1 * k.val = k.val; rw [e.2.2.2.2.2.1]; omega

theorem embg13 (t : Fin cfg13.N) (u : Fin 1) (k : Fin 128) :
    ((cfg13.win 3).blk t).view.emb (ix2 u k) = ix2 0 k := by
  have e := blkidx13 t
  funext a; apply Fin.ext
  match a with
  | ⟨0, _⟩ => show win13_3.index t (0 : Fin 2) * 1 + 1 * u.val = 0; rw [e.2.2.2.2.2.2.1]; omega
  | ⟨1, _⟩ => show win13_3.index t (1 : Fin 2) * 128 + 1 * k.val = k.val; rw [e.2.2.2.2.2.2.2.1]; omega

theorem embb13 (t : Fin cfg13.N) (u : Fin 1) (k : Fin 128) :
    ((cfg13.win 4).blk t).view.emb (ix2 u k) = ix2 0 k := by
  have e := blkidx13 t
  funext a; apply Fin.ext
  match a with
  | ⟨0, _⟩ => show win13_4.index t (0 : Fin 2) * 1 + 1 * u.val = 0; rw [e.2.2.2.2.2.2.2.2.1]; omega
  | ⟨1, _⟩ => show win13_4.index t (1 : Fin 2) * 128 + 1 * k.val = k.val; rw [e.2.2.2.2.2.2.2.2.2.1]; omega

theorem embw13 (t : Fin cfg13.N) (k q : Fin 128) :
    ((cfg13.win 5).blk t).view.emb (ix2 k q) = ix2 k q := by
  have e := blkidx13 t
  funext a; apply Fin.ext
  match a with
  | ⟨0, _⟩ => show win13_5.index t (0 : Fin 2) * 128 + 1 * k.val = k.val; rw [e.2.2.2.2.2.2.2.2.2.2.1]; omega
  | ⟨1, _⟩ => show win13_5.index t (1 : Fin 2) * 128 + 1 * q.val = q.val; rw [e.2.2.2.2.2.2.2.2.2.2.2.1]; omega

theorem embc13 (t : Fin cfg13.N) (u : Fin 1) (k : Fin 128) :
    ((cfg13.win 6).blk t).view.emb (ix2 u k) = ix2 0 k := by
  have e := blkidx13 t
  funext a; apply Fin.ext
  match a with
  | ⟨0, _⟩ => show win13_6.index t (0 : Fin 2) * 1 + 1 * u.val = 0; rw [e.2.2.2.2.2.2.2.2.2.2.2.2.1]; omega
  | ⟨1, _⟩ => show win13_6.index t (1 : Fin 2) * 128 + 1 * k.val = k.val; rw [e.2.2.2.2.2.2.2.2.2.2.2.2.2.1]; omega

theorem embo13_7 (t : Fin cfg13.N) (p : Fin 5000) (q : Fin 128) :
    ((cfg13.win 7).blk t).view.emb (ix2 p q) = ix2 (brow (tblk13 t) p) q := by
  have e := blkidx13 t
  funext a; apply Fin.ext
  match a with
  | ⟨0, _⟩ => show win13_7.index t (0 : Fin 2) * 5000 + 1 * p.val = t.val * 5000 + p.val; rw [e.2.2.2.2.2.2.2.2.2.2.2.2.2.2.1]; omega
  | ⟨1, _⟩ => show win13_7.index t (1 : Fin 2) * 128 + 1 * q.val = q.val; rw [e.2.2.2.2.2.2.2.2.2.2.2.2.2.2.2.1]; omega

theorem embo13_8 (t : Fin cfg13.N) (u v : Fin 1) (q : Fin 128) :
    ((cfg13.win 8).blk t).view.emb (ix3 u v q) = ix3 (tblk13 t) 0 q := by
  obtain ⟨-, -, -, -, -, -, -, -, -, -, -, -, -, -, -, -, e0, e1, e2, -⟩ := blkidx13 t
  funext a; apply Fin.ext
  match a with
  | ⟨0, _⟩ => show win13_8.index t (0 : Fin 3) * 1 + 1 * u.val = t.val; rw [e0]; omega
  | ⟨1, _⟩ => show win13_8.index t (1 : Fin 3) * 1 + 1 * v.val = 0; rw [e1]; omega
  | ⟨2, _⟩ => show win13_8.index t (2 : Fin 3) * 128 + 1 * q.val = q.val; rw [e2]; omega

theorem embo13_9 (t : Fin cfg13.N) (u v : Fin 1) (q : Fin 128) :
    ((cfg13.win 9).blk t).view.emb (ix3 u v q) = ix3 (tblk13 t) 0 q := by
  obtain ⟨-, -, -, -, -, -, -, -, -, -, -, -, -, -, -, -, -, -, -, e0, e1, e2⟩ := blkidx13 t
  funext a; apply Fin.ext
  match a with
  | ⟨0, _⟩ => show win13_9.index t (0 : Fin 3) * 1 + 1 * u.val = t.val; rw [e0]; omega
  | ⟨1, _⟩ => show win13_9.index t (1 : Fin 3) * 1 + 1 * v.val = 0; rw [e1]; omega
  | ⟨2, _⟩ => show win13_9.index t (2 : Fin 3) * 128 + 1 * q.val = q.val; rw [e2]; omega

/-! ## The result blocks cover their arrays -/

/-- Every entry of the array of results lies in the block of the point its row belongs to. -/
theorem cover13_7w (i : S50000x128.Idx) :
    ∃ t : Fin cfg13.N, (cfg13.win 7).flush t = true ∧ i ∈ ((cfg13.win 7).blk t).view.set := by
  have hi0 : (i 0).val < 50000 := (i 0).isLt
  have hi1 : (i 1).val < 128 := (i 1).isLt
  have hN : cfg13.N = 10 := N_13
  let t : Fin cfg13.N := ⟨(i 0).val / 5000, by rw [hN]; omega⟩
  have ht : t.val = (i 0).val / 5000 := rfl
  obtain ⟨-, -, -, -, -, -, -, -, -, -, -, -, -, -, e0, e1, -⟩ := blkidx13 t
  refine ⟨t, flush13_7 t, ?_⟩
  show i ∈ ((View.whole (Pipeline.arrRef spec13 7)).slice (win13_7.rect t)).set
  rw [View.set_slice_whole, Rect.mem_set_unit]
  intro a
  match a with
  | ⟨0, _⟩ => show win13_7.index t (0 : Fin 2) * 5000 ≤ (i 0).val ∧ (i 0).val < win13_7.index t (0 : Fin 2) * 5000 + 5000; rw [e0, ht]; omega
  | ⟨1, _⟩ => show win13_7.index t (1 : Fin 2) * 128 ≤ (i 1).val ∧ (i 1).val < win13_7.index t (1 : Fin 2) * 128 + 128; rw [e1]; omega

/-- Every entry of the ten rows of column sums lies in the block of its row's point. -/
theorem cover13_8w (i : S10x1x128.Idx) :
    ∃ t : Fin cfg13.N, (cfg13.win 8).flush t = true ∧ i ∈ ((cfg13.win 8).blk t).view.set := by
  have hi0 : (i 0).val < 10 := (i 0).isLt
  have hi1 : (i 1).val < 1 := (i 1).isLt
  have hi2 : (i 2).val < 128 := (i 2).isLt
  have hN : cfg13.N = 10 := N_13
  let t : Fin cfg13.N := ⟨(i 0).val, by rw [hN]; omega⟩
  have ht : t.val = (i 0).val := rfl
  obtain ⟨-, -, -, -, -, -, -, -, -, -, -, -, -, -, -, -, e0, e1, e2, -⟩ := blkidx13 t
  refine ⟨t, flush13_8 t, ?_⟩
  show i ∈ ((View.whole (Pipeline.arrRef spec13 8)).slice (win13_8.rect t)).set
  rw [View.set_slice_whole, Rect.mem_set_unit]
  intro a
  match a with
  | ⟨0, _⟩ => show win13_8.index t (0 : Fin 3) * 1 ≤ (i 0).val ∧ (i 0).val < win13_8.index t (0 : Fin 3) * 1 + 1; rw [e0, ht]; omega
  | ⟨1, _⟩ => show win13_8.index t (1 : Fin 3) * 1 ≤ (i 1).val ∧ (i 1).val < win13_8.index t (1 : Fin 3) * 1 + 1; rw [e1]; omega
  | ⟨2, _⟩ => show win13_8.index t (2 : Fin 3) * 128 ≤ (i 2).val ∧ (i 2).val < win13_8.index t (2 : Fin 3) * 128 + 128; rw [e2]; omega

/-- The same for the ten rows of column sums of squares. -/
theorem cover13_9w (i : S10x1x128.Idx) :
    ∃ t : Fin cfg13.N, (cfg13.win 9).flush t = true ∧ i ∈ ((cfg13.win 9).blk t).view.set := by
  have hi0 : (i 0).val < 10 := (i 0).isLt
  have hi1 : (i 1).val < 1 := (i 1).isLt
  have hi2 : (i 2).val < 128 := (i 2).isLt
  have hN : cfg13.N = 10 := N_13
  let t : Fin cfg13.N := ⟨(i 0).val, by rw [hN]; omega⟩
  have ht : t.val = (i 0).val := rfl
  obtain ⟨-, -, -, -, -, -, -, -, -, -, -, -, -, -, -, -, -, -, -, e0, e1, e2⟩ := blkidx13 t
  refine ⟨t, flush13_9 t, ?_⟩
  show i ∈ ((View.whole (Pipeline.arrRef spec13 9)).slice (win13_9.rect t)).set
  rw [View.set_slice_whole, Rect.mem_set_unit]
  intro a
  match a with
  | ⟨0, _⟩ => show win13_9.index t (0 : Fin 3) * 1 ≤ (i 0).val ∧ (i 0).val < win13_9.index t (0 : Fin 3) * 1 + 1; rw [e0, ht]; omega
  | ⟨1, _⟩ => show win13_9.index t (1 : Fin 3) * 1 ≤ (i 1).val ∧ (i 1).val < win13_9.index t (1 : Fin 3) * 1 + 1; rw [e1]; omega
  | ⟨2, _⟩ => show win13_9.index t (2 : Fin 3) * 128 ≤ (i 2).val ∧ (i 2).val < win13_9.index t (2 : Fin 3) * 128 + 128; rw [e2]; omega

end Cert.KernelIdeal.Hand

end
-- ==== Proof.KI.Val13.lean ====
/-
  What the batch-normalisation / rectifier / second-product kernel leaves in its three result arrays, over the extended
  reals: the array of the second affine map is that map of the whole input arrays, and row t of the two statistics
  arrays holds the column sums, and the column sums of squares, of rows 5000·t … 5000·t + 4999 of it.
-/
import proofs.«422260_j36421322670663_2_alg».proof.Proof.KI.Reg13
import proofs.«422260_j36421322670663_2_alg».proof.Proof.KI.Val13Pay
import proofs.«422260_j36421322670663_2_alg».proof.Proof.KI.Val13Blk

set_option pp.maxSteps 5000
set_option pp.deepTerms false

noncomputable section

namespace Cert.KernelIdeal.Hand

open Cert.KernelIdeal Cert.KernelIdeal.Gen Cert.Spec
open Idealize.ShloMosaic Idealize.ShloMosaic.ValueIdx Idealize.ShloMosaic.TcCoe
open Idealize.SL.Sem
open Idealize.ShloMosaic.Pipeline (Dat Cfg Window)

-- the contents of every array when the region is entered
variable (V : (c : Dev nD) → (b : Ref sig .tc) → Buf (Elt Ideal) ((c : Thread nD τ).loc b))

theorem hzz13 : (![0, 0] : Fin 2 → Nat) = fun _ => 0 := funext fun a => by fin_cases a <;> rfl
theorem hzzz13 : (![0, 0, 0] : Fin 3 → Nat) = fun _ => 0 := funext fun a => by fin_cases a <;> rfl

/-- The second affine map of the arrays as the region finds them. -/
abbrev garr13 (c : Dev nD) : Mat 50000 128 :=
  gz13 (V c (Pipeline.arrRef spec13 0)) (V c (Pipeline.arrRef spec13 1)) (V c (Pipeline.arrRef spec13 2))
    (V c (Pipeline.arrRef spec13 3)) (V c (Pipeline.arrRef spec13 4)) (V c (Pipeline.arrRef spec13 5))
    (V c (Pipeline.arrRef spec13 6))

/-! ## One entry of a block's result, from blocks that are parts of arrays -/

/-- If row p of the block of pre-activations is row r of their array and the other blocks are their arrays, the
    block's result at (p, q) is the array's second affine map at (r, q). -/
theorem ptz13 (az : S50000x128.Idx → EReal) (am av ag ab : S1x128.Idx → EReal) (aw : S128x128.Idx → EReal)
    (ac : S1x128.Idx → EReal)
    (xz : Vec Ideal S5000x128 .f32) (xm xv xg xb : Vec Ideal S1x128 .f32) (xw : Vec Ideal S128x128 .f32)
    (xc : Vec Ideal S1x128 .f32) (r : Fin 50000) (p : Fin 5000) (q : Fin 128)
    (hz : ∀ k : Fin 128, xz (ix2 p k) = az (ix2 r k))
    (hm : ∀ k : Fin 128, xm (ix2 0 k) = am (ix2 0 k)) (hv : ∀ k : Fin 128, xv (ix2 0 k) = av (ix2 0 k))
    (hg : ∀ k : Fin 128, xg (ix2 0 k) = ag (ix2 0 k)) (hb : ∀ k : Fin 128, xb (ix2 0 k) = ab (ix2 0 k))
    (hw : ∀ k : Fin 128, xw (ix2 k q) = aw (ix2 k q)) (hc : xc (ix2 0 q) = ac (ix2 0 q)) :
    k13_pay3 xz xv xm xg xb xw xc (ix2 p q) = gz13 az am av ag ab aw ac r q := by
  rw [payz13]
  simp only [gz13, Spec.lin, Spec.bnrelu, cur2, row0, hz, hm, hv, hg, hb, hw, hc]

/-- Each input block read at an entry is its array read where the block sits. -/
theorem iblkz13 (c : Dev nD) (t : Fin cfg13.N) (p : Fin 5000) (k : Fin 128) :
    (iblk13 V c 0 t : Vec Ideal S5000x128 .f32) (ix2 p k)
      = (V c (Pipeline.arrRef spec13 0) : S50000x128.Idx → EReal) (ix2 (brow (tblk13 t) p) k) := by
  show (V c (Pipeline.arrRef spec13 0) : S50000x128.Idx → EReal) (((cfg13.win 0).blk t).view.emb (ix2 p k)) = _
  rw [embz13]
theorem iblkm13 (c : Dev nD) (t : Fin cfg13.N) (k : Fin 128) :
    (iblk13 V c 1 t : Vec Ideal S1x128 .f32) (ix2 0 k) = (V c (Pipeline.arrRef spec13 1) : S1x128.Idx → EReal) (ix2 0 k) := by
  show (V c (Pipeline.arrRef spec13 1) : S1x128.Idx → EReal) (((cfg13.win 1).blk t).view.emb (ix2 0 k)) = _
  rw [embm13]
theorem iblkv13 (c : Dev nD) (t : Fin cfg13.N) (k : Fin 128) :
    (iblk13 V c 2 t : Vec Ideal S1x128 .f32) (ix2 0 k) = (V c (Pipeline.arrRef spec13 2) : S1x128.Idx → EReal) (ix2 0 k) := by
  show (V c (Pipeline.arrRef spec13 2) : S1x128.Idx → EReal) (((cfg13.win 2).blk t).view.emb (ix2 0 k)) = _
  rw [embv13]
theorem iblkg13 (c : Dev nD) (t : Fin cfg13.N) (k : Fin 128) :
    (iblk13 V c 3 t : Vec Ideal S1x128 .f32) (ix2 0 k) = (V c (Pipeline.arrRef spec13 3) : S1x128.Idx → EReal) (ix2 0 k) := by
  show (V c (Pipeline.arrRef spec13 3) : S1x128.Idx → EReal) (((cfg13.win 3).blk t).view.emb (ix2 0 k)) = _
  rw [embg13]
theorem iblkb13 (c : Dev nD) (t : Fin cfg13.N) (k : Fin 128) :
    (iblk13 V c 4 t : Vec Ideal S1x128 .f32) (ix2 0 k) = (V c (Pipeline.arrRef spec13 4) : S1x128.Idx → EReal) (ix2 0 k) := by
  show (V c (Pipeline.arrRef spec13 4) : S1x128.Idx → EReal) (((cfg13.win 4).blk t).view.emb (ix2 0 k)) = _
  rw [embb13]
theorem iblkw13 (c : Dev nD) (t : Fin cfg13.N) (k q : Fin 128) :
    (iblk13 V c 5 t : Vec Ideal S128x128 .f32) (ix2 k q) = (V c (Pipeline.arrRef spec13 5) : S128x128.Idx → EReal) (ix2 k q) := by
  show (V c (Pipeline.arrRef spec13 5) : S128x128.Idx → EReal) (((cfg13.win 5).blk t).view.emb (ix2 k q)) = _
  rw [embw13]
theorem iblkc13 (c : Dev nD) (t : Fin cfg13.N) (k : Fin 128) :
    (iblk13 V c 6 t : Vec Ideal S1x128 .f32) (ix2 0 k) = (V c (Pipeline.arrRef spec13 6) : S1x128.Idx → EReal) (ix2 0 k) := by
  show (V c (Pipeline.arrRef spec13 6) : S1x128.Idx → EReal) (((cfg13.win 6).blk t).view.emb (ix2 0 k)) = _
  rw [embc13]

/-- The result of point t's blocks at (p, q) is the arrays' second affine map at row 5000·t + p. -/
theorem blkpt13 (c : Dev nD) (t : Fin cfg13.N) (p : Fin 5000) (q : Fin 128) :
    k13_pay3 (iblk13 V c 0 t : Vec Ideal S5000x128 .f32) (iblk13 V c 2 t : Vec Ideal S1x128 .f32)
        (iblk13 V c 1 t : Vec Ideal S1x128 .f32) (iblk13 V c 3 t : Vec Ideal S1x128 .f32)
        (iblk13 V c 4 t : Vec Ideal S1x128 .f32) (iblk13 V c 5 t : Vec Ideal S128x128 .f32)
        (iblk13 V c 6 t : Vec Ideal S1x128 .f32) (ix2 p q)
      = garr13 V c (brow (tblk13 t) p) q :=
  ptz13 (V c (Pipeline.arrRef spec13 0)) (V c (Pipeline.arrRef spec13 1)) (V c (Pipeline.arrRef spec13 2))
    (V c (Pipeline.arrRef spec13 3)) (V c (Pipeline.arrRef spec13 4)) (V c (Pipeline.arrRef spec13 5))
    (V c (Pipeline.arrRef spec13 6))
    (iblk13 V c 0 t) (iblk13 V c 1 t) (iblk13 V c 2 t) (iblk13 V c 3 t) (iblk13 V c 4 t) (iblk13 V c 5 t) (iblk13 V c 6 t)
    (brow (tblk13 t) p) p q
    (fun k => iblkz13 V c t p k) (fun k => iblkm13 V c t k) (fun k => iblkv13 V c t k) (fun k => iblkg13 V c t k)
    (fun k => iblkb13 V c t k) (fun k => iblkw13 V c t k q) (iblkc13 V c t q)

/-! ## What each point writes back is its block of one whole-array function -/

theorem flushed13_7 (c : Dev nD) (t : Fin cfg13.N) :
    (dat13 V c).flushed 7 t = ((cfg13.win 7).blk t).view.read (Elt Ideal)
      (fun i : S50000x128.Idx => garr13 V c (i 0) (i 1)) := by
  show (cfg13.win 7).cut (grid13.coords t) ((dat13 V c).after 7 t) = _
  rw [after13_7]
  unfold out13_7
  rw [View.canon_unit_zero hzz13]
  simp only [View.ld_unit_zero (S := S5000x128) hzz13, View.ld_unit_zero (S := S1x128) hzz13,
    View.ld_unit_zero (S := S128x128) hzz13]
  funext j
  obtain ⟨p, q, rfl⟩ : ∃ (p : Fin 5000) (q : Fin 128), j = ix2 p q := ⟨j 0, j 1, eq_ix2 j⟩
  show k13_pay3 (iblk13 V c 0 t : Vec Ideal S5000x128 .f32) (iblk13 V c 2 t : Vec Ideal S1x128 .f32)
        (iblk13 V c 1 t : Vec Ideal S1x128 .f32) (iblk13 V c 3 t : Vec Ideal S1x128 .f32)
        (iblk13 V c 4 t : Vec Ideal S1x128 .f32) (iblk13 V c 5 t : Vec Ideal S128x128 .f32)
        (iblk13 V c 6 t : Vec Ideal S1x128 .f32) (ix2 p q)
      = garr13 V c ((((cfg13.win 7).blk t).view.emb (ix2 p q)) 0) ((((cfg13.win 7).blk t).view.emb (ix2 p q)) 1)
  rw [embo13_7 t p q]
  exact blkpt13 V c t p q

theorem flushed13_8 (c : Dev nD) (t : Fin cfg13.N) :
    (dat13 V c).flushed 8 t = ((cfg13.win 8).blk t).view.read (Elt Ideal)
      (fun i : S10x1x128.Idx => Spec.ksum (garr13 V c) (i 0) (i 2)) := by
  show (cfg13.win 8).cut (grid13.coords t) ((dat13 V c).after 8 t) = _
  rw [after13_8]
  unfold out13_8
  rw [View.canon_unit_zero hzzz13]
  simp only [View.ld_unit_zero (S := S5000x128) hzz13, View.ld_unit_zero (S := S1x128) hzz13,
    View.ld_unit_zero (S := S128x128) hzz13]
  funext j
  obtain ⟨u, v, q, rfl⟩ : ∃ (u v : Fin 1) (q : Fin 128), j = ix3 u v q := ⟨j 0, j 1, j 2, eq_ix3 j⟩
  show k13_pay1 (k13_pay4 (iblk13 V c 0 t : Vec Ideal S5000x128 .f32) (iblk13 V c 2 t : Vec Ideal S1x128 .f32)
        (iblk13 V c 1 t : Vec Ideal S1x128 .f32) (iblk13 V c 3 t : Vec Ideal S1x128 .f32)
        (iblk13 V c 4 t : Vec Ideal S1x128 .f32) (iblk13 V c 5 t : Vec Ideal S128x128 .f32)
        (iblk13 V c 6 t : Vec Ideal S1x128 .f32)) (ix3 u v q)
      = Spec.ksum (garr13 V c) ((((cfg13.win 8).blk t).view.emb (ix3 u v q)) 0) ((((cfg13.win 8).blk t).view.emb (ix3 u v q)) 2)
  rw [embo13_8 t u v q]
  refine (paysum13 _ _ _ _ _ _ _ u v q).trans ?_
  exact Finset.sum_congr rfl fun p _ => blkpt13 V c t p q

theorem flushed13_9 (c : Dev nD) (t : Fin cfg13.N) :
    (dat13 V c).flushed 9 t = ((cfg13.win 9).blk t).view.read (Elt Ideal)
      (fun i : S10x1x128.Idx => Spec.ksq (garr13 V c) (i 0) (i 2)) := by
  show (cfg13.win 9).cut (grid13.coords t) ((dat13 V c).after 9 t) = _
  rw [after13_9]
  unfold out13_9
  rw [View.canon_unit_zero hzzz13]
  simp only [View.ld_unit_zero (S := S5000x128) hzz13, View.ld_unit_zero (S := S1x128) hzz13,
    View.ld_unit_zero (S := S128x128) hzz13]
  funext j
  obtain ⟨u, v, q, rfl⟩ : ∃ (u v : Fin 1) (q : Fin 128), j = ix3 u v q := ⟨j 0, j 1, j 2, eq_ix3 j⟩
  show k13_pay2 (k13_pay5 (iblk13 V c 0 t : Vec Ideal S5000x128 .f32) (iblk13 V c 2 t : Vec Ideal S1x128 .f32)
        (iblk13 V c 1 t : Vec Ideal S1x128 .f32) (iblk13 V c 3 t : Vec Ideal S1x128 .f32)
        (iblk13 V c 4 t : Vec Ideal S1x128 .f32) (iblk13 V c 5 t : Vec Ideal S128x128 .f32)
        (iblk13 V c 6 t : Vec Ideal S1x128 .f32)) (ix3 u v q)
      = Spec.ksq (garr13 V c) ((((cfg13.win 9).blk t).view.emb (ix3 u v q)) 0) ((((cfg13.win 9).blk t).view.emb (ix3 u v q)) 2)
  rw [embo13_9 t u v q]
  refine (paysq13 _ _ _ _ _ _ _ u v q).trans ?_
  exact Finset.sum_congr rfl fun p _ => congrArg₂ (· * ·) (blkpt13 V c t p q) (blkpt13 V c t p q)

/-! ## The arrays after the region -/

theorem arr13_7 (c : Dev nD) :
    ((dat13 V c).arrAt 7 cfg13.N : S50000x128.Idx → EReal) = fun i : S50000x128.Idx => garr13 V c (i 0) (i 1) :=
  (dat13 V c).arrAt_eq_of_cover 7 (fun i : S50000x128.Idx => garr13 V c (i 0) (i 1)) (fun t _ => flushed13_7 V c t) cover13_7w

theorem arr13_8 (c : Dev nD) :
    ((dat13 V c).arrAt 8 cfg13.N : S10x1x128.Idx → EReal) = fun i : S10x1x128.Idx => Spec.ksum (garr13 V c) (i 0) (i 2) :=
  (dat13 V c).arrAt_eq_of_cover 8 (fun i : S10x1x128.Idx => Spec.ksum (garr13 V c) (i 0) (i 2)) (fun t _ => flushed13_8 V c t) cover13_8w

theorem arr13_9 (c : Dev nD) :
    ((dat13 V c).arrAt 9 cfg13.N : S10x1x128.Idx → EReal) = fun i : S10x1x128.Idx => Spec.ksq (garr13 V c) (i 0) (i 2) :=
  (dat13 V c).arrAt_eq_of_cover 9 (fun i : S10x1x128.Idx => Spec.ksq (garr13 V c) (i 0) (i 2)) (fun t _ => flushed13_9 V c t) cover13_9w

/-- The array of the second affine map after the region: that map of the arrays the region found. -/
theorem val13_7 (c : Dev nD) :
    cur2 ((dat13 V c).arrAt 7 cfg13.N : S50000x128.Idx → EReal)
      = Spec.lin (Spec.bnrelu (cur2 (V c (Pipeline.arrRef spec13 0))) (row0 (V c (Pipeline.arrRef spec13 1)))
          (row0 (V c (Pipeline.arrRef spec13 2))) (row0 (V c (Pipeline.arrRef spec13 3)))
          (row0 (V c (Pipeline.arrRef spec13 4)))) (cur2 (V c (Pipeline.arrRef spec13 5)))
          (row0 (V c (Pipeline.arrRef spec13 6))) :=
  funext fun r => funext fun k => congrFun (arr13_7 V c) (ix2 r k)

/-- Row t of the column sums after the region. -/
theorem val13_8 (c : Dev nD) (t : Fin 10) (k : Fin 128) :
    ((dat13 V c).arrAt 8 cfg13.N : S10x1x128.Idx → EReal) (ValueIdx.ix3 t 0 k)
      = Spec.ksum (Spec.lin (Spec.bnrelu (cur2 (V c (Pipeline.arrRef spec13 0))) (row0 (V c (Pipeline.arrRef spec13 1)))
          (row0 (V c (Pipeline.arrRef spec13 2))) (row0 (V c (Pipeline.arrRef spec13 3)))
          (row0 (V c (Pipeline.arrRef spec13 4)))) (cur2 (V c (Pipeline.arrRef spec13 5)))
          (row0 (V c (Pipeline.arrRef spec13 6)))) t k :=
  congrFun (arr13_8 V c) (ix3 t 0 k)

/-- Row t of the column sums of squares after the region. -/
theorem val13_9 (c : Dev nD) (t : Fin 10) (k : Fin 128) :
    ((dat13 V c).arrAt 9 cfg13.N : S10x1x128.Idx → EReal) (ValueIdx.ix3 t 0 k)
      = Spec.ksq (Spec.lin (Spec.bnrelu (cur2 (V c (Pipeline.arrRef spec13 0))) (row0 (V c (Pipeline.arrRef spec13 1)))
          (row0 (V c (Pipeline.arrRef spec13 2))) (row0 (V c (Pipeline.arrRef spec13 3)))
          (row0 (V c (Pipeline.arrRef spec13 4)))) (cur2 (V c (Pipeline.arrRef spec13 5)))
          (row0 (V c (Pipeline.arrRef spec13 6)))) t k :=
  congrFun (arr13_9 V c) (ix3 t 0 k)

end Cert.KernelIdeal.Hand

end
-- ==== Proof.KI.Val14Pay.lean ====
/-
  What the third kernel of a layer computes from its input blocks, read at one coordinate over the extended reals:
  the normalised, scaled, shifted and rectified features, and one block's pooled share as a 0/1-weighted sum of rows.
-/
import proofs.«422260_j36421322670663_2_alg».proof.Proof.Gen.KernelIdeal.Skeleton
import proofs.«422260_j36421322670663_2_alg».proof.Proof.Spec
import proofs.«422260_j36421322670663_2_alg».proof.Proof.SpecPool
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Spec
open Idealize.ShloMosaic Idealize.ShloMosaic.ValueIdx

/-- The rectified normalisation at row p, column q of a block: the block's entry minus the column's mean, times the
    reciprocal root of the column's variance plus the offset, times the scale, plus the shift, cut at zero. -/
theorem k14_pay1_apply (x0 : Vec Ideal S5000x128 .f32) (xv xm xg xb : Vec Ideal S1x128 .f32) (p : Fin 5000) (q : Fin 128) :
    k14_pay1 x0 xv xm xg xb (ix2 p q)
      = max (((x0 (ix2 p q) - xm (ix2 0 q)) * Ideal.rsqrt (xv (ix2 0 q) + eps)) * xg (ix2 0 q) + xb (ix2 0 q)) 0 := by
  unfold k14_pay1
  simp only [shapeCast_self, maximumf_apply, addf_apply, mulf_apply, subf_apply, broadcastTo_1b_ab_apply, broadcast_apply]
  show max (((x0 (ix2 p q) - xm (ix2 0 q)) * Ideal.rsqrt (xv (ix2 0 q) + eps)) * xg (ix2 0 q) + xb (ix2 0 q))
      (Ideal.ofBits .f32 0x00000000#32) = _
  rw [Ideal.ofBits_zero_f32]

/-- One column spread over many: a [a, 1] array broadcast to [a, b] reads, at (p, c), the column's entry at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word is the g-th counting word (g below 256) exactly when its signed value is g. -/
private theorem word_eq_ofNat_iff (w : BitVec 32) (g : Fin 256) : w = BitVec.ofNat 32 g.val ↔ w.toInt = (g.val : ℤ) := by
  have hg := g.isLt
  have hw := w.isLt
  rw [BitVec.toInt_eq_toNat_cond]
  constructor
  · intro h
    have hn : w.toNat = g.val := by rw [h, BitVec.toNat_ofNat]; omega
    rw [hn]; split <;> omega
  · intro h
    apply BitVec.eq_of_toNat_eq
    rw [BitVec.toNat_ofNat]
    split at h <;> omega

/-- The equality comparison of two words answers the one-bit word 1 exactly when they are equal. -/
private theorem cmpi_eq_one_iff (a b : BitVec 32) : IntOp.cmpi .eq a b = 1#1 ↔ a = b := by
  have hb : ∀ c : Bool, BitVec.ofBool c = 1#1 ↔ c = true := fun c => by cases c <;> decide
  show BitVec.ofBool (a == b) = 1#1 ↔ a = b
  rw [hb, beq_iff_eq]

/-- The comparison bit of a word with the g-th counting word, widened to 32 bits and read as a number, is the
    indicator of "the word's signed value is g". -/
private theorem onehot_word (w : BitVec 32) (g : Fin 256) :
    ((((IntOp.cmpi .eq w (BitVec.ofNat 32 g.val)).setWidth 32).toInt : ℝ) : EReal)
      = if w.toInt = (g.val : ℤ) then (1 : EReal) else 0 := by
  by_cases h : w = BitVec.ofNat 32 g.val
  · have h1 : IntOp.cmpi .eq w (BitVec.ofNat 32 g.val) = 1#1 := (cmpi_eq_one_iff _ _).mpr h
    rw [h1, if_pos ((word_eq_ofNat_iff w g).mp h)]
    have : ((1#1 : BitVec 1).setWidth 32).toInt = 1 := by decide
    rw [this]; simp
  · have h0 : IntOp.cmpi .eq w (BitVec.ofNat 32 g.val) = 0#1 :=
      eq_zero_of_ne_one fun hh => h ((cmpi_eq_one_iff _ _).mp hh)
    rw [h0, if_neg (fun hh => h ((word_eq_ofNat_iff w g).mpr hh))]
    have : ((0#1 : BitVec 1).setWidth 32).toInt = 0 := by decide
    rw [this]; simp

/-- The pooling product read at (g, q): the sum over the block's rows of the two factors. -/
private theorem matmul_pool_apply {φ₁ φ₂ : FTy} (A : FVec Ideal S256x5000 φ₁) (B : FVec Ideal S5000x128 φ₂) (g : Fin 256) (q : Fin 128) :
    matmul dot_S256x5000_S5000x128_S256x128_1_0_0_1_n_n none A B (constant S256x128 .f32 0x00000000#32) (ix2 g q)
      = ∑ p : Fin 5000, A (ix2 g p) * B (ix2 p q) := by
  show FloatOps.matmul _ none A B _ (ix2 g q) = _
  rw [Ideal.matmul_constant_zero_apply,
    ← Equiv.sum_comp (contrEquiv1 dot_S256x5000_S5000x128_S256x128_1_0_0_1_n_n 5000 rfl rfl).symm]
  refine Finset.sum_congr rfl fun p _ => ?_
  have hc := contrEquiv1_symm_val dot_S256x5000_S5000x128_S256x128_1_0_0_1_n_n 5000 rfl rfl p
  have hl : dot_S256x5000_S5000x128_S256x128_1_0_0_1_n_n.lhsIdx (ix2 g q) ((contrEquiv1 _ 5000 rfl rfl).symm p) = ix2 g p := by
    funext ax; apply Fin.ext
    match ax with
    | ⟨0, _⟩ => simp [DotDims.lhsIdx, dot_S256x5000_S5000x128_S256x128_1_0_0_1_n_n]; rfl
    | ⟨1, _⟩ => simp [DotDims.lhsIdx, dot_S256x5000_S5000x128_S256x128_1_0_0_1_n_n]; exact hc
  have hr : dot_S256x5000_S5000x128_S256x128_1_0_0_1_n_n.rhsIdx (ix2 g q) ((contrEquiv1 _ 5000 rfl rfl).symm p) = ix2 p q := by
    funext ax; apply Fin.ext
    match ax with
    | ⟨0, _⟩ => simp [DotDims.rhsIdx, dot_S256x5000_S5000x128_S256x128_1_0_0_1_n_n]; exact hc
    | ⟨1, _⟩ => simp [DotDims.rhsIdx, dot_S256x5000_S5000x128_S256x128_1_0_0_1_n_n]; rfl
  rw [hl, hr]

/-- One block's pooled share at (g, q): the sum over the block's rows p of the indicator "row p's graph number is g"
    times the row's rectified normalised feature. -/
theorem k14_pay2_apply_pay1 (x0 : Vec Ideal S5000x128 .f32) (xv xm xg xb : Vec Ideal S1x128 .f32) (x5 : Vec Ideal S5000x1 .i32)
    (g : Fin 256) (q : Fin 128) :
    k14_pay2 x0 xv xm xg xb x5 (ix3 0 g q)
      = ∑ p : Fin 5000, (if (x5 (ix2 p 0)).toInt = (g.val : ℤ) then (1 : EReal) else 0) * k14_pay1 x0 xv xm xg xb (ix2 p q) := by
  unfold k14_pay2
  refine (shapeCast_ab_1ab_apply _ _ 0 g q).trans ?_
  refine (matmul_pool_apply _ _ g q).trans ?_
  refine Finset.sum_congr rfl fun p _ => ?_
  refine congrArg₂ (· * ·) ?_ rfl
  refine (transpose_ix2_apply _ _ g p).trans ?_
  show ((((IntOp.cmpi .eq (broadcastTo S5000x256 (shapeCast S5000x1 x5 shapeCasts_S5000x1_S5000x1) broadcasts_S5000x1_S5000x256 (ix2 p g))
      (iota .tc S5000x256 32 [1] iota_S5000x256_d1_w32 (ix2 p g))).setWidth 32).toInt : ℝ) : EReal) = _
  rw [broadcastTo_a1_ab_apply, iota_single_apply, shapeCast_self]
  exact onehot_word _ g

theorem k14_pay2_apply (x0 : Vec Ideal S5000x128 .f32) (xv xm xg xb : Vec Ideal S1x128 .f32) (x5 : Vec Ideal S5000x1 .i32)
    (g : Fin 256) (q : Fin 128) :
    k14_pay2 x0 xv xm xg xb x5 (ix3 0 g q)
      = ∑ p : Fin 5000, (if (x5 (ix2 p 0)).toInt = (g.val : ℤ) then (1 : EReal) else 0)
          * max (((x0 (ix2 p q) - xm (ix2 0 q)) * Ideal.rsqrt (xv (ix2 0 q) + eps)) * xg (ix2 0 q) + xb (ix2 0 q)) 0 := by
  rw [k14_pay2_apply_pay1]
  exact Finset.sum_congr rfl fun p _ => by rw [k14_pay1_apply]

end Cert.KernelIdeal.Hand

end
-- ==== Proof.KI.Val14.lean ====
/-
  What the third kernel of a layer leaves in its two output arrays. Block by block it writes the rectified
  normalisation of the input rows, and per block the sums of those rows weighted by the 0/1 indicator of each graph
  number; the blocks tile the arrays, so each output array is one function of the input arrays.
-/
import proofs.«422260_j36421322670663_2_alg».proof.Proof.KI.Reg14
import proofs.«422260_j36421322670663_2_alg».proof.Proof.KI.Val14Pay
import proofs.«422260_j36421322670663_2_alg».proof.Proof.Spec
import proofs.«422260_j36421322670663_2_alg».proof.Proof.SpecPool
import Idealize.ShloMosaic.Lib.ValueIdx
import Idealize.ShloMosaic.Lib.Pipeline.Value

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The arrays the launch finds, and the arrays it leaves, as functions -/

/-- The launch's six input arrays at their literal shapes: the features, the column means, the column variances, the
    scale, the shift, and the rows' graph numbers. -/
def inp14_0 (c : Dev nD) : S50000x128.Idx → EReal := V c (Pipeline.arrRef spec14 0)
def inp14_1 (c : Dev nD) : S1x128.Idx → EReal := V c (Pipeline.arrRef spec14 1)
def inp14_2 (c : Dev nD) : S1x128.Idx → EReal := V c (Pipeline.arrRef spec14 2)
def inp14_3 (c : Dev nD) : S1x128.Idx → EReal := V c (Pipeline.arrRef spec14 3)
def inp14_4 (c : Dev nD) : S1x128.Idx → EReal := V c (Pipeline.arrRef spec14 4)
def inp14_5 (c : Dev nD) : S50000x1.Idx → BitVec 32 := V c (Pipeline.arrRef spec14 5)

/-- The rectified normalisation of the whole feature array. -/
def feat14 (c : Dev nD) : Mat 50000 128 :=
  Spec.bnrelu (cur2 (inp14_0 V c)) (row0 (inp14_1 V c)) (row0 (inp14_2 V c)) (row0 (inp14_3 V c)) (row0 (inp14_4 V c))

/-- The first output array: that matrix, index by index. -/
def arr14_6 (c : Dev nD) : S50000x128.Idx → EReal := fun i => feat14 V c (i 0) (i 1)

/-- The second output array: slab t is block t's pooled share of that matrix. -/
def arr14_7 (c : Dev nD) : S10x256x128.Idx → EReal :=
  fun i => Spec.poolKpart (fun r => inp14_5 V c (ix2 r 0)) (feat14 V c) (i 0) (i 1) (i 2)

/-- A grid point as a block number. -/
def blkOf14 (t : Fin cfg14.N) : Fin 10 := ⟨t.val, lt_of_lt_of_eq t.isLt N_14⟩

private theorem zeroPair : (![0, 0] : Fin 2 → Nat) = fun _ => 0 := funext fun a => by fin_cases a <;> rfl
private theorem zeroTriple : (![0, 0, 0] : Fin 3 → Nat) = fun _ => 0 := funext fun a => by fin_cases a <;> rfl

/-- The six input windows' blocks at a grid point, at their literal shapes. -/
def blk14_0 (c : Dev nD) (t : Fin cfg14.N) : Vec Ideal S5000x128 .f32 := iblk14 V c 0 t
def blk14_1 (c : Dev nD) (t : Fin cfg14.N) : Vec Ideal S1x128 .f32 := iblk14 V c 1 t
def blk14_2 (c : Dev nD) (t : Fin cfg14.N) : Vec Ideal S1x128 .f32 := iblk14 V c 2 t
def blk14_3 (c : Dev nD) (t : Fin cfg14.N) : Vec Ideal S1x128 .f32 := iblk14 V c 3 t
def blk14_4 (c : Dev nD) (t : Fin cfg14.N) : Vec Ideal S1x128 .f32 := iblk14 V c 4 t
def blk14_5 (c : Dev nD) (t : Fin cfg14.N) : Vec Ideal S5000x1 .i32 := iblk14 V c 5 t

/-! ## Where each window's block lies -/

/-- The block index of every window at every grid point: the row-blocked windows move with the point along the rows,
    the four parameter rows stay, the pooled output moves along its slabs. -/
theorem idx_facts14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0
    ∧ win14_6.index t (0 : Fin 2) = t.val ∧ win14_6.index t (1 : Fin 2) = 0
    ∧ win14_7.index t (0 : Fin 3) = t.val ∧ win14_7.index t (1 : Fin 3) = 0 ∧ win14_7.index t (2 : Fin 3) = 0 :=
  (by decide +kernel : ∀ t : Fin grid14.N, _)

/-- The feature window's block at point t, at (p, q), is the feature array at row t · 5000 + p, column q. -/
theorem blk14_0_apply (c : Dev nD) (t : Fin cfg14.N) (p : Fin 5000) (q : Fin 128) (r : Fin 50000)
    (hr : r.val = t.val * 5000 + p.val) :
    blk14_0 V c t (ix2 p q) = inp14_0 V c (ix2 r q) := by
  obtain ⟨e0, e1, -⟩ := idx_facts14 t
  unfold blk14_0 iblk14 inp14_0
  rw [View.read_apply]
  show V c (Pipeline.arrRef spec14 0) _ = V c (Pipeline.arrRef spec14 0) _
  congr 1
  funext a; apply Fin.ext
  match a with
  | ⟨0, _⟩ => show win14_0.index t (0 : Fin 2) * 5000 + 1 * p.val = r.val; rw [e0, hr]; omega
  | ⟨1, _⟩ => show win14_0.index t (1 : Fin 2) * 128 + 1 * q.val = q.val; rw [e1]; omega

/-- A parameter row's block is the row itself, at every point: the means, -/
theorem blk14_1_apply (c : Dev nD) (t : Fin cfg14.N) (q : Fin 128) :
    blk14_1 V c t (ix2 0 q) = inp14_1 V c (ix2 0 q) := by
  obtain ⟨-, -, e0, e1, -⟩ := idx_facts14 t
  unfold blk14_1 iblk14 inp14_1
  rw [View.read_apply]
  show V c (Pipeline.arrRef spec14 1) _ = V c (Pipeline.arrRef spec14 1) _
  congr 1
  funext a; apply Fin.ext
  match a with
  | ⟨0, _⟩ => show win14_1.index t (0 : Fin 2) * 1 + 1 * 0 = 0; rw [e0]
  | ⟨1, _⟩ => show win14_1.index t (1 : Fin 2) * 128 + 1 * q.val = q.val; rw [e1]; omega

/-- the variances, -/
theorem blk14_2_apply (c : Dev nD) (t : Fin cfg14.N) (q : Fin 128) :
    blk14_2 V c t (ix2 0 q) = inp14_2 V c (ix2 0 q) := by
  obtain ⟨-, -, -, -, e0, e1, -⟩ := idx_facts14 t
  unfold blk14_2 iblk14 inp14_2
  rw [View.read_apply]
  show V c (Pipeline.arrRef spec14 2) _ = V c (Pipeline.arrRef spec14 2) _
  congr 1
  funext a; apply Fin.ext
  match a with
  | ⟨0, _⟩ => show win14_2.index t (0 : Fin 2) * 1 + 1 * 0 = 0; rw [e0]
  | ⟨1, _⟩ => show win14_2.index t (1 : Fin 2) * 128 + 1 * q.val = q.val; rw [e1]; omega

/-- the scale, -/
theorem blk14_3_apply (c : Dev nD) (t : Fin cfg14.N) (q : Fin 128) :
    blk14_3 V c t (ix2 0 q) = inp14_3 V c (ix2 0 q) := by
  obtain ⟨-, -, -, -, -, -, e0, e1, -⟩ := idx_facts14 t
  unfold blk14_3 iblk14 inp14_3
  rw [View.read_apply]
  show V c (Pipeline.arrRef spec14 3) _ = V c (Pipeline.arrRef spec14 3) _
  congr 1
  funext a; apply Fin.ext
  match a with
  | ⟨0, _⟩ => show win14_3.index t (0 : Fin 2) * 1 + 1 * 0 = 0; rw [e0]
  | ⟨1, _⟩ => show win14_3.index t (1 : Fin 2) * 128 + 1 * q.val = q.val; rw [e1]; omega

/-- the shift. -/
theorem blk14_4_apply (c : Dev nD) (t : Fin cfg14.N) (q : Fin 128) :
    blk14_4 V c t (ix2 0 q) = inp14_4 V c (ix2 0 q) := by
  obtain ⟨-, -, -, -, -, -, -, -, e0, e1, -⟩ := idx_facts14 t
  unfold blk14_4 iblk14 inp14_4
  rw [View.read_apply]
  show V c (Pipeline.arrRef spec14 4) _ = V c (Pipeline.arrRef spec14 4) _
  congr 1
  funext a; apply Fin.ext
  match a with
  | ⟨0, _⟩ => show win14_4.index t (0 : Fin 2) * 1 + 1 * 0 = 0; rw [e0]
  | ⟨1, _⟩ => show win14_4.index t (1 : Fin 2) * 128 + 1 * q.val = q.val; rw [e1]; omega

/-- The graph-number window's block at point t, at row p, is the graph number of row t · 5000 + p. -/
theorem blk14_5_apply (c : Dev nD) (t : Fin cfg14.N) (p : Fin 5000) (r : Fin 50000) (hr : r.val = t.val * 5000 + p.val) :
    blk14_5 V c t (ix2 p 0) = inp14_5 V c (ix2 r 0) := by
  obtain ⟨-, -, -, -, -, -, -, -, -, -, e0, e1, -⟩ := idx_facts14 t
  unfold blk14_5 iblk14 inp14_5
  rw [View.read_apply]
  show V c (Pipeline.arrRef spec14 5) _ = V c (Pipeline.arrRef spec14 5) _
  congr 1
  funext a; apply Fin.ext
  match a with
  | ⟨0, _⟩ => show win14_5.index t (0 : Fin 2) * 5000 + 1 * p.val = r.val; rw [e0, hr]; omega
  | ⟨1, _⟩ => show win14_5.index t (1 : Fin 2) * 1 + 1 * 0 = 0; rw [e1]

/-- The rectified normalisation computed from the blocks at point t, at (p, q), is that of the whole array at row
    t · 5000 + p, column q. -/
theorem feat14_row (c : Dev nD) (t : Fin cfg14.N) (p : Fin 5000) (q : Fin 128) (r : Fin 50000) (hr : r.val = t.val * 5000 + p.val) :
    max (((blk14_0 V c t (ix2 p q) - blk14_1 V c t (ix2 0 q)) * Ideal.rsqrt (blk14_2 V c t (ix2 0 q) + eps))
        * blk14_3 V c t (ix2 0 q) + blk14_4 V c t (ix2 0 q)) 0 = feat14 V c r q := by
  rw [blk14_0_apply V c t p q r hr, blk14_1_apply V c t q, blk14_2_apply V c t q, blk14_3_apply V c t q, blk14_4_apply V c t q]
  rfl

/-! ## The first output: the rectified normalised features -/

/-- What point t writes back is block t of the whole normalised array. -/
theorem flushed14_6 (c : Dev nD) (t : Fin cfg14.N) :
    (dat14 V c).flushed 6 t = ((cfg14.win 6).blk t).view.read (Elt Ideal) (arr14_6 V c) := by
  show (cfg14.win 6).cut (grid14.coords t) ((dat14 V c).after 6 t) = _
  rw [after14_6]
  unfold out14_6
  rw [View.canon_unit_zero zeroPair]
  simp only [View.ld_unit_zero (S := S5000x128) zeroPair, View.ld_unit_zero (S := S1x128) zeroPair]
  obtain ⟨-, -, -, -, -, -, -, -, -, -, -, -, e0, e1, -⟩ := idx_facts14 t
  funext j
  obtain ⟨p, q, rfl⟩ : ∃ (p : Fin 5000) (q : Fin 128), j = ix2 p q := ⟨j 0, j 1, eq_ix2 j⟩
  show k14_pay1 (blk14_0 V c t) (blk14_2 V c t) (blk14_1 V c t) (blk14_3 V c t) (blk14_4 V c t) (ix2 p q)
      = arr14_6 V c (((cfg14.win 6).blk t).view.emb (ix2 p q))
  have h0 : (((cfg14.win 6).blk t).view.emb (ix2 p q)) (0 : Fin 2) = brow (blkOf14 t) p :=
    Fin.ext (by show win14_6.index t (0 : Fin 2) * 5000 + 1 * p.val = t.val * 5000 + p.val; rw [e0]; omega)
  have h1 : (((cfg14.win 6).blk t).view.emb (ix2 p q)) (1 : Fin 2) = q :=
    Fin.ext (by show win14_6.index t (1 : Fin 2) * 128 + 1 * q.val = q.val; rw [e1]; omega)
  refine (k14_pay1_apply _ _ _ _ _ p q).trans ?_
  refine (feat14_row V c t p q (brow (blkOf14 t) p) rfl).trans ?_
  exact (congr (congrArg (feat14 V c) h0) h1).symm

/-- An index lies in point t's block exactly when each coordinate is in the block's range. -/
theorem mem_blk14_6 (t : Fin cfg14.N) (i : S50000x128.Idx) :
    i ∈ ((cfg14.win 6).blk t).view.set ↔ ∀ a : Fin 2, win14_6.index t a * S5000x128.size a ≤ (i a).val
      ∧ (i a).val < win14_6.index t a * S5000x128.size a + S5000x128.size a := by
  show i ∈ ((View.whole (Pipeline.arrRef spec14 6)).slice (win14_6.rect t)).set ↔ _
  rw [View.set_slice_whole, Rect.mem_set_unit]
  exact Iff.rfl

/-- The ten blocks tile the array: row r lies in block r / 5000. -/
theorem tiles14_6 (i : S50000x128.Idx) :
    ∃ t : Fin cfg14.N, (cfg14.win 6).flush t = true ∧ i ∈ ((cfg14.win 6).blk t).view.set := by
  have hi0 : (i 0).val < 50000 := (i 0).isLt
  have hi1 : (i 1).val < 128 := (i 1).isLt
  have hN : cfg14.N = 10 := N_14
  obtain ⟨t, ht⟩ : ∃ t : Fin cfg14.N, t.val = (i 0).val / 5000 := ⟨⟨(i 0).val / 5000, by rw [hN]; omega⟩, rfl⟩
  obtain ⟨-, -, -, -, -, -, -, -, -, -, -, -, e0, e1, -⟩ := idx_facts14 t
  refine ⟨t, flush14_6 t, ?_⟩
  rw [mem_blk14_6]
  intro a
  match a with
  | ⟨0, _⟩ =>
    show win14_6.index t (0 : Fin 2) * 5000 ≤ (i 0).val ∧ (i 0).val < win14_6.index t (0 : Fin 2) * 5000 + 5000
    rw [e0, ht]; omega
  | ⟨1, _⟩ =>
    show win14_6.index t (1 : Fin 2) * 128 ≤ (i 1).val ∧ (i 1).val < win14_6.index t (1 : Fin 2) * 128 + 128
    rw [e1]; omega

/-- So the first output array ends as the whole normalised array. -/
theorem final14_6 (c : Dev nD) : (dat14 V c).arrAt 6 cfg14.N = arr14_6 V c :=
  (dat14 V c).arrAt_eq_of_cover 6 (arr14_6 V c) (fun t _ => flushed14_6 V c t) tiles14_6

/-- The first output array, by coordinates: the rectified normalisation of the input features with the given
    moments, scale and shift. -/
theorem val14_6 (c : Dev nD) :
    cur2 ((dat14 V c).arrAt 6 cfg14.N : S50000x128.Idx → EReal)
      = Spec.bnrelu (cur2 (V c (Pipeline.arrRef spec14 0) : S50000x128.Idx → EReal))
          (row0 (V c (Pipeline.arrRef spec14 1) : S1x128.Idx → EReal)) (row0 (V c (Pipeline.arrRef spec14 2) : S1x128.Idx → EReal))
          (row0 (V c (Pipeline.arrRef spec14 3) : S1x128.Idx → EReal)) (row0 (V c (Pipeline.arrRef spec14 4) : S1x128.Idx → EReal)) := by
  rw [final14_6]
  rfl

/-! ## The second output: the blocks' pooled shares -/

/-- What point t writes back is slab t of the array of pooled shares. -/
theorem flushed14_7 (c : Dev nD) (t : Fin cfg14.N) :
    (dat14 V c).flushed 7 t = ((cfg14.win 7).blk t).view.read (Elt Ideal) (arr14_7 V c) := by
  show (cfg14.win 7).cut (grid14.coords t) ((dat14 V c).after 7 t) = _
  rw [after14_7]
  unfold out14_7
  rw [View.canon_unit_zero zeroTriple]
  simp only [View.ld_unit_zero (S := S5000x128) zeroPair, View.ld_unit_zero (S := S1x128) zeroPair,
    View.ld_unit_zero (S := S5000x1) zeroPair]
  obtain ⟨-, -, -, -, -, -, -, -, -, -, -, -, -, -, e0, e1, e2⟩ := idx_facts14 t
  funext j
  obtain ⟨u, g, q, rfl⟩ : ∃ (u : Fin 1) (g : Fin 256) (q : Fin 128), j = ix3 u g q := ⟨j 0, j 1, j 2, eq_ix3 j⟩
  obtain rfl : u = 0 := Subsingleton.elim _ _
  show k14_pay2 (blk14_0 V c t) (blk14_2 V c t) (blk14_1 V c t) (blk14_3 V c t) (blk14_4 V c t) (blk14_5 V c t) (ix3 0 g q)
      = arr14_7 V c (((cfg14.win 7).blk t).view.emb (ix3 0 g q))
  have h0 : (((cfg14.win 7).blk t).view.emb (ix3 0 g q)) (0 : Fin 3) = blkOf14 t :=
    Fin.ext (by show win14_7.index t (0 : Fin 3) * 1 + 1 * 0 = t.val; rw [e0]; omega)
  have h1 : (((cfg14.win 7).blk t).view.emb (ix3 0 g q)) (1 : Fin 3) = g :=
    Fin.ext (by show win14_7.index t (1 : Fin 3) * 256 + 1 * g.val = g.val; rw [e1]; omega)
  have h2 : (((cfg14.win 7).blk t).view.emb (ix3 0 g q)) (2 : Fin 3) = q :=
    Fin.ext (by show win14_7.index t (2 : Fin 3) * 128 + 1 * q.val = q.val; rw [e2]; omega)
  have hR : arr14_7 V c (((cfg14.win 7).blk t).view.emb (ix3 0 g q))
      = Spec.poolKpart (fun r => inp14_5 V c (ix2 r 0)) (feat14 V c) (blkOf14 t) g q :=
    congr (congr (congrArg (Spec.poolKpart (fun r => inp14_5 V c (ix2 r 0)) (feat14 V c)) h0) h1) h2
  refine (k14_pay2_apply _ _ _ _ _ _ g q).trans ?_
  refine Eq.trans ?_ hR.symm
  show _ = ∑ y : Fin 5000, (if (inp14_5 V c (ix2 (brow (blkOf14 t) y) 0)).toInt = (g.val : ℤ) then (1 : EReal) else 0)
      * feat14 V c (brow (blkOf14 t) y) q
  refine Finset.sum_congr rfl fun p _ => ?_
  exact congrArg₂ (· * ·)
    (congrArg (fun w : BitVec 32 => if w.toInt = (g.val : ℤ) then (1 : EReal) else 0) (blk14_5_apply V c t p (brow (blkOf14 t) p) rfl))
    (feat14_row V c t p q (brow (blkOf14 t) p) rfl)

/-- An index lies in point t's slab exactly when each coordinate is in the slab's range. -/
theorem mem_blk14_7 (t : Fin cfg14.N) (i : S10x256x128.Idx) :
    i ∈ ((cfg14.win 7).blk t).view.set ↔ ∀ a : Fin 3, win14_7.index t a * S1x256x128.size a ≤ (i a).val
      ∧ (i a).val < win14_7.index t a * S1x256x128.size a + S1x256x128.size a := by
  show i ∈ ((View.whole (Pipeline.arrRef spec14 7)).slice (win14_7.rect t)).set ↔ _
  rw [View.set_slice_whole, Rect.mem_set_unit]
  exact Iff.rfl

/-- The ten slabs tile the array: slab number s is point s's. -/
theorem tiles14_7 (i : S10x256x128.Idx) :
    ∃ t : Fin cfg14.N, (cfg14.win 7).flush t = true ∧ i ∈ ((cfg14.win 7).blk t).view.set := by
  have hi0 : (i 0).val < 10 := (i 0).isLt
  have hi1 : (i 1).val < 256 := (i 1).isLt
  have hi2 : (i 2).val < 128 := (i 2).isLt
  have hN : cfg14.N = 10 := N_14
  obtain ⟨t, ht⟩ : ∃ t : Fin cfg14.N, t.val = (i 0).val := ⟨⟨(i 0).val, by rw [hN]; omega⟩, rfl⟩
  obtain ⟨-, -, -, -, -, -, -, -, -, -, -, -, -, -, e0, e1, e2⟩ := idx_facts14 t
  refine ⟨t, flush14_7 t, ?_⟩
  rw [mem_blk14_7]
  intro a
  match a with
  | ⟨0, _⟩ =>
    show win14_7.index t (0 : Fin 3) * 1 ≤ (i 0).val ∧ (i 0).val < win14_7.index t (0 : Fin 3) * 1 + 1
    rw [e0, ht]; omega
  | ⟨1, _⟩ =>
    show win14_7.index t (1 : Fin 3) * 256 ≤ (i 1).val ∧ (i 1).val < win14_7.index t (1 : Fin 3) * 256 + 256
    rw [e1]; omega
  | ⟨2, _⟩ =>
    show win14_7.index t (2 : Fin 3) * 128 ≤ (i 2).val ∧ (i 2).val < win14_7.index t (2 : Fin 3) * 128 + 128
    rw [e2]; omega

/-- So the second output array ends as the array of pooled shares. -/
theorem final14_7 (c : Dev nD) : (dat14 V c).arrAt 7 cfg14.N = arr14_7 V c :=
  (dat14 V c).arrAt_eq_of_cover 7 (arr14_7 V c) (fun t _ => flushed14_7 V c t) tiles14_7

/-- The second output array at (t, g, k): block t's share of the pooling of the rectified normalised features by the
    rows' graph numbers. -/
theorem val14_7 (c : Dev nD) (t : Fin 10) (g : Fin 256) (k : Fin 128) :
    ((dat14 V c).arrAt 7 cfg14.N : S10x256x128.Idx → EReal) (ix3 t g k)
      = Spec.poolKpart (fun r => (V c (Pipeline.arrRef spec14 5) : S50000x1.Idx → BitVec 32) (ix2 r 0))
          (Spec.bnrelu (cur2 (V c (Pipeline.arrRef spec14 0) : S50000x128.Idx → EReal))
            (row0 (V c (Pipeline.arrRef spec14 1) : S1x128.Idx → EReal)) (row0 (V c (Pipeline.arrRef spec14 2) : S1x128.Idx → EReal))
            (row0 (V c (Pipeline.arrRef spec14 3) : S1x128.Idx → EReal)) (row0 (V c (Pipeline.arrRef spec14 4) : S1x128.Idx → EReal)))
          t g k := by
  rw [final14_7]
  rfl

end Cert.KernelIdeal.Hand

end
-- ==== Proof.KI.Host13.lean ====
/-
  The host stretch after a layer's first kernel: the mean and the variance of the first linear map's output
  from its per-block column sums and sums of squares, and the second bias laid out as a row.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The mean: the block sums added up and divided by the node count. -/
theorem host13_mean (Z : Mat 50000 128)
    (hs : ∀ t k, (W main_v260_1 : S10x1x128.Idx → EReal) (ix3 t 0 k) = ksum Z t k) :
    row0 (StableHlo.after hostOps13 W main_v263 : S1x128.Idx → EReal) = kmean Z := by
  have e : (StableHlo.after hostOps13 W main_v263 : S1x128.Idx → EReal)
      = blockDiv (W main_v260_1) reducesTo_S10x1x128_S1x128_d0 h_S_ bcast_S_S1x128 := by
    after_results
  rw [e]
  exact blockDiv_kmean _ _ _ _ Z hs

/-- The variance: the mean of the squares minus the squared mean, cut at zero. -/
theorem host13_var (Z : Mat 50000 128)
    (hs : ∀ t k, (W main_v260_1 : S10x1x128.Idx → EReal) (ix3 t 0 k) = ksum Z t k)
    (hq : ∀ t k, (W main_v260_2 : S10x1x128.Idx → EReal) (ix3 t 0 k) = ksq Z t k) :
    row0 (StableHlo.after hostOps13 W main_v270 : S1x128.Idx → EReal) = kvar Z := by
  have e : (StableHlo.after hostOps13 W main_v270 : S1x128.Idx → EReal)
      = blockVar (W main_v260_1) (W main_v260_2) reducesTo_S10x1x128_S1x128_d0 h_S_ bcast_S_S1x128 := by
    after_results
  rw [e]
  exact blockVar_kvar _ _ _ _ _ Z hs hq

/-- The second bias as a row. -/
theorem host13_bias :
    row0 (StableHlo.after hostOps13 W main_v271 : S1x128.Idx → EReal) = cur1 (W main_v252 : S128.Idx → EReal) := by
  have e : (StableHlo.after hostOps13 W main_v271 : S1x128.Idx → EReal)
      = shapeCast S1x128 (W main_v252 : S128.Idx → EReal) shapeCasts_S128_S1x128 := by
    after_results
    rfl
  rw [e]
  exact row0_shapeCast _ _

end Cert.KernelIdeal.Hand

end
-- ==== Proof.KI.Host14.lean ====
/-
  The host stretch after a layer's second kernel: the mean and the variance of the second linear map's output
  from its per-block column sums and sums of squares.
-/
import proofs.«422260_j36421322670663_2_alg».proof.Proof.KI.HostLib

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

/-- The mean: the block sums added up and divided by the node count. -/
theorem host14_mean (Z : Mat 50000 128)
    (hs : ∀ t k, (W main_v272_1 : S10x1x128.Idx → EReal) (ix3 t 0 k) = ksum Z t k) :
    row0 (StableHlo.after hostOps14 W main_v275 : S1x128.Idx → EReal) = kmean Z := by
  have e : (StableHlo.after hostOps14 W main_v275 : S1x128.Idx → EReal)
      = blockDiv (W main_v272_1) reducesTo_S10x1x128_S1x128_d0 h_S_ bcast_S_S1x128 := by
    after_results
  rw [e]
  exact blockDiv_kmean _ _ _ _ Z hs

/-- The variance: the mean of the squares minus the squared mean, cut at zero. -/
theorem host14_var (Z : Mat 50000 128)
    (hs : ∀ t k, (W main_v272_1 : S10x1x128.Idx → EReal) (ix3 t 0 k) = ksum Z t k)
    (hq : ∀ t k, (W main_v272_2 : S10x1x128.Idx → EReal) (ix3 t 0 k) = ksq Z t k) :
    row0 (StableHlo.after hostOps14 W main_v282 : S1x128.Idx → EReal) = kvar Z := by
  have e : (StableHlo.after hostOps14 W main_v282 : S1x128.Idx → EReal)
      = blockVar (W main_v272_1) (W main_v272_2) reducesTo_S10x1x128_S1x128_d0 h_S_ bcast_S_S1x128 := by
    after_results
  rw [e]
  exact blockVar_kvar _ _ _ _ _ Z hs hq

end Cert.KernelIdeal.Hand

end
-- ==== Proof.KI.Layer4.lean ====
/-
  One layer of the network as the kernel program computes it, over the extended reals. The layer is entered with
  an array of node features. The host stretch before its first kernel takes their neighbourhood sums and the layer's
  slice of every weight stack; the first kernel leaves the first affine map of features plus sums, with each row
  block's column sums and column sums of squares; the next host stretch turns those into the mean and the
  variance; the second kernel normalises, rectifies and applies the second affine map, again with block sums; the
  stretch after it takes that map's mean and variance; the third kernel normalises and rectifies once more, which
  gives the layer's features, and leaves each row block's share of their sum by graph. Each step is read off the
  step before it, so the features the layer hands on are the layer's mathematics applied to the features it was
  given, and the shares are the shares of their sum by graph.
-/
import proofs.«422260_j36421322670663_2_alg».proof.Proof.KI.Chain
import proofs.«422260_j36421322670663_2_alg».proof.Proof.KI.NetDefs
import proofs.«422260_j36421322670663_2_alg».proof.Proof.KI.Base
import proofs.«422260_j36421322670663_2_alg».proof.Proof.KI.Val12
import proofs.«422260_j36421322670663_2_alg».proof.Proof.KI.Val13
import proofs.«422260_j36421322670663_2_alg».proof.Proof.KI.Val14
import proofs.«422260_j36421322670663_2_alg».proof.Proof.KI.Host12
import proofs.«422260_j36421322670663_2_alg».proof.Proof.KI.Host13
import proofs.«422260_j36421322670663_2_alg».proof.Proof.KI.Host14

-- deciding that a reference is none of the several dozen a host stretch writes recurses once per reference
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- The layer's place in the weight stacks. -/
abbrev lyr4 : Fin 5 := 4

/-! ## What the layer leaves alone -/

/-- An array none of the layer's three kernels and neither host stretch between them writes is the same after the
    layer's last kernel as when its first kernel was entered. -/
theorem layer4_thru (c : Dev nD) (r : Ref sig .tc)
    (h8 : r ∉ ([main_v260_0, main_v260_1, main_v260_2] : List (Ref sig .tc))) (h9 : r ∉ GenP.hostOps13_W)
    (h10 : r ∉ ([main_v272_0, main_v272_1, main_v272_2] : List (Ref sig .tc))) (h11 : r ∉ GenP.hostOps14_W)
    (h12 : r ∉ ([main_v283_0, main_v283_1] : List (Ref sig .tc))) :
    Vout14 m c r = Vin12 m c r :=
  (GenP.V30_of m (outs m) c r h12).trans <| (GenP.V29_of m (outs m) c r h11).trans <|
    (GenP.V28_of m (outs m) c r h10).trans <| (GenP.V27_of m (outs m) c r h9).trans (GenP.V26_of m (outs m) c r h8)

/-- The same from the previous layer's last kernel, for an array the host stretch before the layer's first kernel
    does not write either. -/
theorem ly14_keep (c : Dev nD) (r : Ref sig .tc) (h7 : r ∉ GenP.hostOps12_W)
    (h8 : r ∉ ([main_v260_0, main_v260_1, main_v260_2] : List (Ref sig .tc))) (h9 : r ∉ GenP.hostOps13_W)
    (h10 : r ∉ ([main_v272_0, main_v272_1, main_v272_2] : List (Ref sig .tc))) (h11 : r ∉ GenP.hostOps14_W)
    (h12 : r ∉ ([main_v283_0, main_v283_1] : List (Ref sig .tc))) :
    Vout14 m c r = Vout11 m c r :=
  (layer4_thru m c r h8 h9 h10 h11 h12).trans (GenP.V25_of m (outs m) c r h7)

/-- The base facts pass through the layer. -/
theorem base14 (c : Dev nD) (hb : Base m c (Vout11 m c)) : Base m c (Vout14 m c) where
  v1 := (ly14_keep m c _ (by decide) (by decide) (by decide) (by decide) (by decide) (by decide)).trans hb.v1
  v3 := (ly14_keep m c _ (by decide) (by decide) (by decide) (by decide) (by decide) (by decide)).trans hb.v3
  v4 := (ly14_keep m c _ (by decide) (by decide) (by decide) (by decide) (by decide) (by decide)).trans hb.v4
  a1 := (ly14_keep m c _ (by decide) (by decide) (by decide) (by decide) (by decide) (by decide)).trans hb.a1
  a2 := (ly14_keep m c _ (by decide) (by decide) (by decide) (by decide) (by decide) (by decide)).trans hb.a2
  a3 := (ly14_keep m c _ (by decide) (by decide) (by decide) (by decide) (by decide) (by decide)).trans hb.a3
  a4 := (ly14_keep m c _ (by decide) (by decide) (by decide) (by decide) (by decide) (by decide)).trans hb.a4
  a5 := (ly14_keep m c _ (by decide) (by decide) (by decide) (by decide) (by decide) (by decide)).trans hb.a5
  a6 := (ly14_keep m c _ (by decide) (by decide) (by decide) (by decide) (by decide) (by decide)).trans hb.a6
  a7 := (ly14_keep m c _ (by decide) (by decide) (by decide) (by decide) (by decide) (by decide)).trans hb.a7
  a8 := (ly14_keep m c _ (by decide) (by decide) (by decide) (by decide) (by decide) (by decide)).trans hb.a8

section Layer
variable (c : Dev nD)

/-- The features the layer is entered with, their neighbourhood sums, and the three arrays the layer's mathematics
    makes of them. -/
abbrev hin12 : Mat 50000 128 := cur2 (Vout11 m c main_v227_0 : S50000x128.Idx → EReal)
abbrev agg12 : Mat 50000 128 := cur2 (kAgg m c (Vout11 m c main_v227_0))
abbrev zed12 : Mat 50000 128 := Spec.z1 (hin12 m c) (agg12 m c) (kP m c lyr4)
abbrev zed13 : Mat 50000 128 := Spec.kz2 (hin12 m c) (agg12 m c) (kP m c lyr4)
abbrev hout14 : Mat 50000 128 := Spec.kh (hin12 m c) (agg12 m c) (kP m c lyr4)

/-! ## The first kernel's operands -/

theorem ly12_feat : Vin12 m c main_v227_0 = Vout11 m c main_v227_0 := GenP.V25_of m (outs m) c _ (by decide)

theorem ly12_agg (hb : Base m c (Vout11 m c)) :
    (Vin12 m c main_v238 : S50000x128.Idx → EReal) = kAgg m c (Vout11 m c main_v227_0) := by
  refine (host12_agg (Vout11 m c)).trans ?_
  rw [hb.v1, hb.v3]

theorem ly12_W1 (hb : Base m c (Vout11 m c)) :
    cur2 (Vin12 m c main_v240 : S128x128.Idx → EReal) = (kP m c lyr4).W1 := by
  exact (host12_W1 (Vout11 m c)).trans (congrArg (fun x : S5x128x128.Idx → EReal => sl3 x lyr4) hb.a1)

theorem ly12_b1 (hb : Base m c (Vout11 m c)) :
    row0 (Vin12 m c main_v259 : S1x128.Idx → EReal) = (kP m c lyr4).b1 := by
  exact (host12_b1 (Vout11 m c)).trans (congrArg (fun x : S5x128.Idx → EReal => sl2 x lyr4) hb.a2)

theorem ly12_g1 (hb : Base m c (Vout11 m c)) :
    row0 (Vin12 m c main_v245 : S1x128.Idx → EReal) = (kP m c lyr4).g1 := by
  exact (host12_g1 (Vout11 m c)).trans (congrArg (fun x : S5x128.Idx → EReal => sl2 x lyr4) hb.a3)

theorem ly12_be1 (hb : Base m c (Vout11 m c)) :
    row0 (Vin12 m c main_v248 : S1x128.Idx → EReal) = (kP m c lyr4).be1 := by
  exact (host12_be1 (Vout11 m c)).trans (congrArg (fun x : S5x128.Idx → EReal => sl2 x lyr4) hb.a4)

theorem ly12_W2 (hb : Base m c (Vout11 m c)) :
    cur2 (Vin12 m c main_v250 : S128x128.Idx → EReal) = (kP m c lyr4).W2 := by
  exact (host12_W2 (Vout11 m c)).trans (congrArg (fun x : S5x128x128.Idx → EReal => sl3 x lyr4) hb.a5)

theorem ly12_b2 (hb : Base m c (Vout11 m c)) :
    cur1 (Vin12 m c main_v252 : S128.Idx → EReal) = (kP m c lyr4).b2 := by
  exact (host12_b2 (Vout11 m c)).trans (congrArg (fun x : S5x128.Idx → EReal => sl2 x lyr4) hb.a6)

theorem ly12_g2 (hb : Base m c (Vout11 m c)) :
    row0 (Vin12 m c main_v255 : S1x128.Idx → EReal) = (kP m c lyr4).g2 := by
  exact (host12_g2 (Vout11 m c)).trans (congrArg (fun x : S5x128.Idx → EReal => sl2 x lyr4) hb.a7)

theorem ly12_be2 (hb : Base m c (Vout11 m c)) :
    row0 (Vin12 m c main_v258 : S1x128.Idx → EReal) = (kP m c lyr4).be2 := by
  exact (host12_be2 (Vout11 m c)).trans (congrArg (fun x : S5x128.Idx → EReal => sl2 x lyr4) hb.a8)

/-! ## The first kernel: the first affine map and its block sums -/

/-- The affine map of the first kernel's operands is the layer's first affine map. -/
theorem ly12_lin (hb : Base m c (Vout11 m c)) :
    Spec.lin (fun r k => cur2 (Vin12 m c (Pipeline.arrRef spec12 0)) r k + cur2 (Vin12 m c (Pipeline.arrRef spec12 1)) r k)
        (cur2 (Vin12 m c (Pipeline.arrRef spec12 2))) (row0 (Vin12 m c (Pipeline.arrRef spec12 3)))
      = zed12 m c := by
  show Spec.lin (fun r k => cur2 (Vin12 m c main_v227_0 : S50000x128.Idx → EReal) r k
        + cur2 (Vin12 m c main_v238 : S50000x128.Idx → EReal) r k)
      (cur2 (Vin12 m c main_v240 : S128x128.Idx → EReal)) (row0 (Vin12 m c main_v259 : S1x128.Idx → EReal)) = _
  rw [ly12_feat m c, ly12_agg m c hb, ly12_W1 m c hb, ly12_b1 m c hb]
  rfl

theorem ly12_out (hb : Base m c (Vout11 m c)) :
    cur2 (Vout12 m c main_v260_0 : S50000x128.Idx → EReal) = zed12 m c :=
  (congrArg cur2 (hF_12 m c 4).symm).trans ((val12_4 (fun c b => Vin12 m c b) c).trans (ly12_lin m c hb))

theorem ly12_sum (hb : Base m c (Vout11 m c)) (t : Fin 10) (k : Fin 128) :
    (Vout12 m c main_v260_1 : S10x1x128.Idx → EReal) (ix3 t 0 k) = ksum (zed12 m c) t k :=
  (congrFun (hF_12 m c 5).symm (ix3 t 0 k)).trans
    ((val12_5 (fun c b => Vin12 m c b) c t k).trans (congrArg (fun Z => ksum Z t k) (ly12_lin m c hb)))

theorem ly12_sq (hb : Base m c (Vout11 m c)) (t : Fin 10) (k : Fin 128) :
    (Vout12 m c main_v260_2 : S10x1x128.Idx → EReal) (ix3 t 0 k) = ksq (zed12 m c) t k :=
  (congrFun (hF_12 m c 6).symm (ix3 t 0 k)).trans
    ((val12_6 (fun c b => Vin12 m c b) c t k).trans (congrArg (fun Z => ksq Z t k) (ly12_lin m c hb)))

/-! ## The second kernel's operands -/

theorem ly13_z : Vin13 m c main_v260_0 = Vout12 m c main_v260_0 := GenP.V27_of m (outs m) c _ (by decide)

theorem ly13_mean (hb : Base m c (Vout11 m c)) :
    row0 (Vin13 m c main_v263 : S1x128.Idx → EReal) = kmean (zed12 m c) :=
  host13_mean (Vout12 m c) (zed12 m c) (ly12_sum m c hb)

theorem ly13_var (hb : Base m c (Vout11 m c)) :
    row0 (Vin13 m c main_v270 : S1x128.Idx → EReal) = kvar (zed12 m c) :=
  host13_var (Vout12 m c) (zed12 m c) (ly12_sum m c hb) (ly12_sq m c hb)

/-- An array the first kernel and the stretch after it leave alone. -/
theorem ly13_keep (r : Ref sig .tc) (h8 : r ∉ ([main_v260_0, main_v260_1, main_v260_2] : List (Ref sig .tc)))
    (h9 : r ∉ GenP.hostOps13_W) : Vin13 m c r = Vin12 m c r :=
  (GenP.V27_of m (outs m) c r h9).trans (GenP.V26_of m (outs m) c r h8)

theorem ly13_g1 (hb : Base m c (Vout11 m c)) :
    row0 (Vin13 m c main_v245 : S1x128.Idx → EReal) = (kP m c lyr4).g1 := by
  have e : Vin13 m c main_v245 = Vin12 m c main_v245 := ly13_keep m c _ (by decide) (by decide)
  rw [e]
  exact ly12_g1 m c hb

theorem ly13_be1 (hb : Base m c (Vout11 m c)) :
    row0 (Vin13 m c main_v248 : S1x128.Idx → EReal) = (kP m c lyr4).be1 := by
  have e : Vin13 m c main_v248 = Vin12 m c main_v248 := ly13_keep m c _ (by decide) (by decide)
  rw [e]
  exact ly12_be1 m c hb

theorem ly13_W2 (hb : Base m c (Vout11 m c)) :
    cur2 (Vin13 m c main_v250 : S128x128.Idx → EReal) = (kP m c lyr4).W2 := by
  have e : Vin13 m c main_v250 = Vin12 m c main_v250 := ly13_keep m c _ (by decide) (by decide)
  rw [e]
  exact ly12_W2 m c hb

theorem ly13_b2 (hb : Base m c (Vout11 m c)) :
    row0 (Vin13 m c main_v271 : S1x128.Idx → EReal) = (kP m c lyr4).b2 := by
  refine (host13_bias (Vout12 m c)).trans ?_
  have e : Vout12 m c main_v252 = Vin12 m c main_v252 := GenP.V26_of m (outs m) c _ (by decide)
  rw [e]
  exact ly12_b2 m c hb

/-! ## The second kernel: normalise, rectify, the second affine map and its block sums -/

theorem ly13_lin (hb : Base m c (Vout11 m c)) :
    Spec.lin (Spec.bnrelu (cur2 (Vin13 m c (Pipeline.arrRef spec13 0))) (row0 (Vin13 m c (Pipeline.arrRef spec13 1)))
          (row0 (Vin13 m c (Pipeline.arrRef spec13 2))) (row0 (Vin13 m c (Pipeline.arrRef spec13 3)))
          (row0 (Vin13 m c (Pipeline.arrRef spec13 4)))) (cur2 (Vin13 m c (Pipeline.arrRef spec13 5)))
          (row0 (Vin13 m c (Pipeline.arrRef spec13 6)))
      = zed13 m c := by
  show Spec.lin (Spec.bnrelu (cur2 (Vin13 m c main_v260_0 : S50000x128.Idx → EReal))
        (row0 (Vin13 m c main_v263 : S1x128.Idx → EReal)) (row0 (Vin13 m c main_v270 : S1x128.Idx → EReal))
        (row0 (Vin13 m c main_v245 : S1x128.Idx → EReal)) (row0 (Vin13 m c main_v248 : S1x128.Idx → EReal)))
      (cur2 (Vin13 m c main_v250 : S128x128.Idx → EReal)) (row0 (Vin13 m c main_v271 : S1x128.Idx → EReal)) = _
  rw [ly13_z m c, ly12_out m c hb, ly13_mean m c hb, ly13_var m c hb, ly13_g1 m c hb, ly13_be1 m c hb, ly13_W2 m c hb,
    ly13_b2 m c hb]
  rfl

theorem ly13_out (hb : Base m c (Vout11 m c)) :
    cur2 (Vout13 m c main_v272_0 : S50000x128.Idx → EReal) = zed13 m c :=
  (congrArg cur2 (hF_13 m c 7).symm).trans ((val13_7 (fun c b => Vin13 m c b) c).trans (ly13_lin m c hb))

theorem ly13_sum (hb : Base m c (Vout11 m c)) (t : Fin 10) (k : Fin 128) :
    (Vout13 m c main_v272_1 : S10x1x128.Idx → EReal) (ix3 t 0 k) = ksum (zed13 m c) t k :=
  (congrFun (hF_13 m c 8).symm (ix3 t 0 k)).trans
    ((val13_8 (fun c b => Vin13 m c b) c t k).trans (congrArg (fun Z => ksum Z t k) (ly13_lin m c hb)))

theorem ly13_sq (hb : Base m c (Vout11 m c)) (t : Fin 10) (k : Fin 128) :
    (Vout13 m c main_v272_2 : S10x1x128.Idx → EReal) (ix3 t 0 k) = ksq (zed13 m c) t k :=
  (congrFun (hF_13 m c 9).symm (ix3 t 0 k)).trans
    ((val13_9 (fun c b => Vin13 m c b) c t k).trans (congrArg (fun Z => ksq Z t k) (ly13_lin m c hb)))

/-! ## The third kernel's operands -/

theorem ly14_z : Vin14 m c main_v272_0 = Vout13 m c main_v272_0 := GenP.V29_of m (outs m) c _ (by decide)

theorem ly14_mean (hb : Base m c (Vout11 m c)) :
    row0 (Vin14 m c main_v275 : S1x128.Idx → EReal) = kmean (zed13 m c) :=
  host14_mean (Vout13 m c) (zed13 m c) (ly13_sum m c hb)

theorem ly14_var (hb : Base m c (Vout11 m c)) :
    row0 (Vin14 m c main_v282 : S1x128.Idx → EReal) = kvar (zed13 m c) :=
  host14_var (Vout13 m c) (zed13 m c) (ly13_sum m c hb) (ly13_sq m c hb)

/-- An array the first two kernels and the stretches after them leave alone. -/
theorem ly14_keep3 (r : Ref sig .tc) (h8 : r ∉ ([main_v260_0, main_v260_1, main_v260_2] : List (Ref sig .tc)))
    (h9 : r ∉ GenP.hostOps13_W) (h10 : r ∉ ([main_v272_0, main_v272_1, main_v272_2] : List (Ref sig .tc)))
    (h11 : r ∉ GenP.hostOps14_W) : Vin14 m c r = Vin12 m c r :=
  (GenP.V29_of m (outs m) c r h11).trans <| (GenP.V28_of m (outs m) c r h10).trans (ly13_keep m c r h8 h9)

theorem ly14_g2 (hb : Base m c (Vout11 m c)) :
    row0 (Vin14 m c main_v255 : S1x128.Idx → EReal) = (kP m c lyr4).g2 := by
  have e : Vin14 m c main_v255 = Vin12 m c main_v255 := ly14_keep3 m c _ (by decide) (by decide) (by decide) (by decide)
  rw [e]
  exact ly12_g2 m c hb

theorem ly14_be2 (hb : Base m c (Vout11 m c)) :
    row0 (Vin14 m c main_v258 : S1x128.Idx → EReal) = (kP m c lyr4).be2 := by
  have e : Vin14 m c main_v258 = Vin12 m c main_v258 := ly14_keep3 m c _ (by decide) (by decide) (by decide) (by decide)
  rw [e]
  exact ly12_be2 m c hb

/-- The graph column the third kernel reads holds the launch's graph numbers. -/
theorem ly14_graph (hb : Base m c (Vout11 m c)) (r : Fin 50000) :
    (Vin14 m c main_v4 : S50000x1.Idx → BitVec 32) (ix2 r 0) = kBw m c r := by
  have e : Vin14 m c main_v4 = GenP.V1 m c main_v4 :=
    (ly14_keep3 m c _ (by decide) (by decide) (by decide) (by decide)).trans
      ((GenP.V25_of m (outs m) c _ (by decide)).trans hb.v4)
  rw [e]
  exact graph_launch m c r 0

/-! ## The third kernel: normalise, rectify, and each block's share of the pooling -/

theorem ly14_bn (hb : Base m c (Vout11 m c)) :
    Spec.bnrelu (cur2 (Vin14 m c (Pipeline.arrRef spec14 0))) (row0 (Vin14 m c (Pipeline.arrRef spec14 1)))
        (row0 (Vin14 m c (Pipeline.arrRef spec14 2))) (row0 (Vin14 m c (Pipeline.arrRef spec14 3)))
        (row0 (Vin14 m c (Pipeline.arrRef spec14 4)))
      = hout14 m c := by
  show Spec.bnrelu (cur2 (Vin14 m c main_v272_0 : S50000x128.Idx → EReal))
      (row0 (Vin14 m c main_v275 : S1x128.Idx → EReal)) (row0 (Vin14 m c main_v282 : S1x128.Idx → EReal))
      (row0 (Vin14 m c main_v255 : S1x128.Idx → EReal)) (row0 (Vin14 m c main_v258 : S1x128.Idx → EReal)) = _
  rw [ly14_z m c, ly13_out m c hb, ly14_mean m c hb, ly14_var m c hb, ly14_g2 m c hb, ly14_be2 m c hb]
  rfl

/-- The layer's features. -/
theorem layer4_h (hb : Base m c (Vout11 m c)) :
    cur2 (Vout14 m c main_v283_0 : S50000x128.Idx → EReal)
      = Spec.kh (cur2 (Vout11 m c main_v227_0 : S50000x128.Idx → EReal)) (cur2 (kAgg m c (Vout11 m c main_v227_0)))
          (kP m c lyr4) :=
  (congrArg cur2 (hF_14 m c 6).symm).trans ((val14_6 (fun c b => Vin14 m c b) c).trans (ly14_bn m c hb))

/-- Each block's share of the pooling of the layer's features. -/
theorem ly14_part (hb : Base m c (Vout11 m c)) (t : Fin 10) (g : Fin 256) (k : Fin 128) :
    (Vout14 m c main_v283_1 : S10x256x128.Idx → EReal) (ix3 t g k)
      = poolKpart (kBw m c) (cur2 (Vout14 m c main_v283_0 : S50000x128.Idx → EReal)) t g k := by
  refine (congrFun (hF_14 m c 7).symm (ix3 t g k)).trans ((val14_7 (fun c b => Vin14 m c b) c t g k).trans ?_)
  have eb : (fun r : Fin 50000 => (Vin14 m c (Pipeline.arrRef spec14 5) : S50000x1.Idx → BitVec 32) (ix2 r 0)) = kBw m c :=
    funext fun r => ly14_graph m c hb r
  rw [layer4_h m c hb]
  exact congrArg₂ (fun bw H => poolKpart bw H t g k) eb (ly14_bn m c hb)

end Layer

end Cert.KernelIdeal.Hand

end
-- ==== Proof.KI.LPool4.lean ====
/-
  The end of the last layer of the network as the kernel program computes it. No host stretch of the layer's own
  follows its last kernel: the ten row blocks' shares of the sum of the layer's features by graph are added up at the
  head of the readout. So the pooled features are stated of that sum, as a term over the array of shares the last
  kernel leaves.
-/
import proofs.«422260_j36421322670663_2_alg».proof.Proof.KI.Layer4

-- deciding that a reference is none of the several dozen a host stretch writes recurses once per reference
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- The last layer's pooled features: the ten shares the last kernel leaves, added up. -/
theorem layer4_pool (c : Dev nD) (hb : Base m c (Vout11 m c)) :
    cur2 (Host.reduceAdd (Vout14 m c main_v283_1 : S10x256x128.Idx → EReal) (constant (F := Ideal) S_ .f32 0x00000000#32)
        reducesTo_S10x256x128_S256x128_d0 h_S_)
      = Spec.poolK (kBw m c) (cur2 (Vout14 m c main_v283_0 : S50000x128.Idx → EReal)) :=
  poolSum_poolK _ _ _ (kBw m c) _ (ly14_part m c hb)

end Cert.KernelIdeal.Hand

end
-- ==== Proof.KI.Host15.lean ====
/-
  The host stretches after the last kernel: the last layer's pooled matrix as the sum of its ten per-block
  shares, the five pooled matrices set side by side and sent through the first readout map, the rectifier, and
  the second readout map: the readout both programs share, stretch by stretch and composed.
-/
import proofs.«422260_j36421322670663_2_alg».proof.Proof.KI.HostLib
import proofs.«422260_j36421322670663_2_alg».proof.Proof.TailSpec

noncomputable section

namespace Cert.KernelIdeal.Hand

open Cert.KernelIdeal Cert.KernelIdeal.Gen Cert.Spec
open Idealize.ShloMosaic Idealize.ShloMosaic.TcCoe Idealize.ShloMosaic.ValueIdx

variable (W : Valuation τ sig (Elt Ideal))

section

variable {x0 x1 x2 x3 x4 y : Ref sig .tc}

/-- A five-operand operation's result with each operand's contents at its own reference. -/
theorem host15_nary5_result
    (f : ((k : Fin 5) → ((![x0, x1, x2, x3, x4] : Fin 5 → Ref sig .tc) k).ty.Contents (Elt Ideal)) → y.ty.Contents (Elt Ideal))
    (hxs hy) (V : Valuation τ sig (Elt Ideal)) :
    (StableHlo.nary (τ := τ) ![x0, x1, x2, x3, x4] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (fun i => i.elim0)))))) := by
  rw [StableHlo.nary_result]; congr 1; funext k; fin_cases k <;> rfl

end

/-- The last layer's pooled matrix: the ten per-block shares added up. -/
theorem host15_pool (bw : Fin 50000 → BitVec 32) (H : Mat 50000 128)
    (hp : ∀ t g k, (W main_v283_1 : S10x256x128.Idx → EReal) (ix3 t g k) = poolKpart bw H t g k) :
    cur2 (StableHlo.after hostOps15 W main_v284 : S256x128.Idx → EReal) = poolK bw H := by
  have e : (StableHlo.after hostOps15 W main_v284 : S256x128.Idx → EReal)
      = Host.reduceAdd (W main_v283_1 : S10x256x128.Idx → EReal) (constant (F := Ideal) S_ .f32 0x00000000#32)
          reducesTo_S10x256x128_S256x128_d0 h_S_ := by
    after_results
  rw [e]
  exact poolSum_poolK _ _ _ bw H hp

/-- The hidden readout of the five pooled matrices. -/
theorem host15_hid :
    (StableHlo.after hostOps15 W main_v289 : S256x128.Idx → EReal)
      = tailHid concatenates_S256x128_S256x128_S256x128_S256x128_S256x128_S256x640_d1
          dot_S256x640_S640x128_S256x128_1_0_0_1_n_n bcast_S128_S1x128_1 bcast_S1x128_S256x128_0_1
          (W main_v60) (W main_v116) (W main_v172) (W main_v228)
          (Host.reduceAdd (W main_v283_1 : S10x256x128.Idx → EReal) (constant (F := Ideal) S_ .f32 0x00000000#32)
            reducesTo_S10x256x128_S256x128_d0 h_S_)
          (W main_arg9) (W main_arg10) := by
  simp only [StableHlo.after_cons, StableHlo.after_nil]
  repeat (first
    | rw [host15_nary5_result] | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide)
    | (rw [StableHlo.nary_result_ne]; rotate_left; decide))
  rfl

/-- The rectifier. -/
theorem host15_1_relu :
    (StableHlo.after hostOps15_1 W main_v290 : S256x128.Idx → EReal) = tailRelu bcast_S_S256x128 (W main_v289) := by
  after_results
  rfl

/-- The output. -/
theorem host15_2_out :
    (StableHlo.after hostOps15_2 W main_v294 : S256x10.Idx → EReal)
      = tailOut dot_S256x128_S128x10_S256x10_1_0_0_1_n_n bcast_S10_S1x10_1 bcast_S1x10_S256x10_0_1
          (W main_v290) (W main_arg11) (W main_arg12) := by
  after_results
  rfl

/-- The second readout matrix and bias are not written on the way. -/
theorem host15_keep_A11 :
    (StableHlo.after hostOps15_1 (StableHlo.after hostOps15 W) main_arg11 : S128x10.Idx → EReal) = W main_arg11 := by
  have a : ∀ V : Valuation τ sig (Elt Ideal),
      (StableHlo.after hostOps15_1 V main_arg11 : S128x10.Idx → EReal) = V main_arg11 := fun V => by after_results
  have b : (StableHlo.after hostOps15 W main_arg11 : S128x10.Idx → EReal) = W main_arg11 := by after_results
  rw [a, b]

theorem host15_keep_A12 :
    (StableHlo.after hostOps15_1 (StableHlo.after hostOps15 W) main_arg12 : S10.Idx → EReal) = W main_arg12 := by
  have a : ∀ V : Valuation τ sig (Elt Ideal),
      (StableHlo.after hostOps15_1 V main_arg12 : S10.Idx → EReal) = V main_arg12 := fun V => by after_results
  have b : (StableHlo.after hostOps15 W main_arg12 : S10.Idx → EReal) = W main_arg12 := by after_results
  rw [a, b]

/-- The three stretches composed: the readout of the five pooled matrices. -/
theorem host15_tail :
    (StableHlo.after hostOps15_2 (StableHlo.after hostOps15_1 (StableHlo.after hostOps15 W)) main_v294 : S256x10.Idx → EReal)
      = tailA concatenates_S256x128_S256x128_S256x128_S256x128_S256x128_S256x640_d1
          dot_S256x640_S640x128_S256x128_1_0_0_1_n_n dot_S256x128_S128x10_S256x10_1_0_0_1_n_n
          bcast_S128_S1x128_1 bcast_S1x128_S256x128_0_1 bcast_S_S256x128 bcast_S10_S1x10_1 bcast_S1x10_S256x10_0_1
          (W main_v60) (W main_v116) (W main_v172) (W main_v228)
          (Host.reduceAdd (W main_v283_1 : S10x256x128.Idx → EReal) (constant (F := Ideal) S_ .f32 0x00000000#32)
            reducesTo_S10x256x128_S256x128_d0 h_S_)
          (W main_arg9) (W main_arg10) (W main_arg11) (W main_arg12) := by
  rw [host15_2_out, host15_1_relu, host15_hid, host15_keep_A11, host15_keep_A12]
  rfl

end Cert.KernelIdeal.Hand

end
-- ==== Proof.KI.Net.lean ====
/-
  The kernel program's value: the five layers in sequence and the readout. Layer by layer the array of node
  features a layer hands on is the kernel's layer of the array before it, so by induction on the number of layers
  it is the network's features after that many layers on the launched features; each layer's pooled matrix is the
  pooling by graph of its features, and is written by nobody afterwards; the last host stretches set the five
  pooled matrices side by side and apply the readout with the launched readout parameters.
-/
import proofs.«422260_j36421322670663_2_alg».proof.Proof.KI.Chain
import proofs.«422260_j36421322670663_2_alg».proof.Proof.KI.NetDefs
import proofs.«422260_j36421322670663_2_alg».proof.Proof.KI.Layer0
import proofs.«422260_j36421322670663_2_alg».proof.Proof.KI.LPool1
import proofs.«422260_j36421322670663_2_alg».proof.Proof.KI.LPool2
import proofs.«422260_j36421322670663_2_alg».proof.Proof.KI.LPool3
import proofs.«422260_j36421322670663_2_alg».proof.Proof.KI.LPool4
import proofs.«422260_j36421322670663_2_alg».proof.Proof.KI.Host15
import proofs.«422260_j36421322670663_2_alg».proof.Proof.TailSpec
import proofs.«422260_j36421322670663_2_alg».proof.Proof.Math.Net

-- deciding that a reference is not among the many a host stretch writes recurses past the default depth
set_option maxRecDepth 2900

noncomputable section

namespace Cert.KernelIdeal.Hand

open Cert.KernelIdeal Cert.KernelIdeal.Gen Cert.Spec
open Idealize.ShloMosaic Idealize.ShloMosaic.TcCoe Idealize.ShloMosaic.ValueIdx

-- the launch memory
variable (m : (ℓ : Loc nD τ sig) → Buf (Elt Ideal) ℓ)

/-! ## The pooled matrices reach the readout unchanged

Once a layer's pooled matrix is laid down, no later kernel and no later host stretch writes it. -/

theorem keepP_0 (c : Dev nD) :
    (GenP.V30 m (outs m) c main_v60 : S256x128.Idx → EReal) = Vin3 m c main_v60 :=
  (GenP.V30_of m (outs m) c main_v60 (by decide)).trans <|
    (GenP.V29_of m (outs m) c main_v60 (by decide)).trans <|
    (GenP.V28_of m (outs m) c main_v60 (by decide)).trans <|
    (GenP.V27_of m (outs m) c main_v60 (by decide)).trans <|
    (GenP.V26_of m (outs m) c main_v60 (by decide)).trans <|
    (GenP.V25_of m (outs m) c main_v60 (by decide)).trans <|
    (GenP.V24_of m (outs m) c main_v60 (by decide)).trans <|
    (GenP.V23_of m (outs m) c main_v60 (by decide)).trans <|
    (GenP.V22_of m (outs m) c main_v60 (by decide)).trans <|
    (GenP.V21_of m (outs m) c main_v60 (by decide)).trans <|
    (GenP.V20_of m (outs m) c main_v60 (by decide)).trans <|
    (GenP.V19_of m (outs m) c main_v60 (by decide)).trans <|
    (GenP.V18_of m (outs m) c main_v60 (by decide)).trans <|
    (GenP.V17_of m (outs m) c main_v60 (by decide)).trans <|
    (GenP.V16_of m (outs m) c main_v60 (by decide)).trans <|
    (GenP.V15_of m (outs m) c main_v60 (by decide)).trans <|
    (GenP.V14_of m (outs m) c main_v60 (by decide)).trans <|
    (GenP.V13_of m (outs m) c main_v60 (by decide)).trans <|
    (GenP.V12_of m (outs m) c main_v60 (by decide)).trans <|
    (GenP.V11_of m (outs m) c main_v60 (by decide)).trans <|
    (GenP.V10_of m (outs m) c main_v60 (by decide)).trans <|
    (GenP.V9_of m (outs m) c main_v60 (by decide)).trans <|
    (GenP.V8_of m (outs m) c main_v60 (by decide))

theorem keepP_1 (c : Dev nD) :
    (GenP.V30 m (outs m) c main_v116 : S256x128.Idx → EReal) = Vin6 m c main_v116 :=
  (GenP.V30_of m (outs m) c main_v116 (by decide)).trans <|
    (GenP.V29_of m (outs m) c main_v116 (by decide)).trans <|
    (GenP.V28_of m (outs m) c main_v116 (by decide)).trans <|
    (GenP.V27_of m (outs m) c main_v116 (by decide)).trans <|
    (GenP.V26_of m (outs m) c main_v116 (by decide)).trans <|
    (GenP.V25_of m (outs m) c main_v116 (by decide)).trans <|
    (GenP.V24_of m (outs m) c main_v116 (by decide)).trans <|
    (GenP.V23_of m (outs m) c main_v116 (by decide)).trans <|
    (GenP.V22_of m (outs m) c main_v116 (by decide)).trans <|
    (GenP.V21_of m (outs m) c main_v116 (by decide)).trans <|
    (GenP.V20_of m (outs m) c main_v116 (by decide)).trans <|
    (GenP.V19_of m (outs m) c main_v116 (by decide)).trans <|
    (GenP.V18_of m (outs m) c main_v116 (by decide)).trans <|
    (GenP.V17_of m (outs m) c main_v116 (by decide)).trans <|
    (GenP.V16_of m (outs m) c main_v116 (by decide)).trans <|
    (GenP.V15_of m (outs m) c main_v116 (by decide)).trans <|
    (GenP.V14_of m (outs m) c main_v116 (by decide))

theorem keepP_2 (c : Dev nD) :
    (GenP.V30 m (outs m) c main_v172 : S256x128.Idx → EReal) = Vin9 m c main_v172 :=
  (GenP.V30_of m (outs m) c main_v172 (by decide)).trans <|
    (GenP.V29_of m (outs m) c main_v172 (by decide)).trans <|
    (GenP.V28_of m (outs m) c main_v172 (by decide)).trans <|
    (GenP.V27_of m (outs m) c main_v172 (by decide)).trans <|
    (GenP.V26_of m (outs m) c main_v172 (by decide)).trans <|
    (GenP.V25_of m (outs m) c main_v172 (by decide)).trans <|
    (GenP.V24_of m (outs m) c main_v172 (by decide)).trans <|
    (GenP.V23_of m (outs m) c main_v172 (by decide)).trans <|
    (GenP.V22_of m (outs m) c main_v172 (by decide)).trans <|
    (GenP.V21_of m (outs m) c main_v172 (by decide)).trans <|
    (GenP.V20_of m (outs m) c main_v172 (by decide))

theorem keepP_3 (c : Dev nD) :
    (GenP.V30 m (outs m) c main_v228 : S256x128.Idx → EReal) = Vin12 m c main_v228 :=
  (GenP.V30_of m (outs m) c main_v228 (by decide)).trans <|
    (GenP.V29_of m (outs m) c main_v228 (by decide)).trans <|
    (GenP.V28_of m (outs m) c main_v228 (by decide)).trans <|
    (GenP.V27_of m (outs m) c main_v228 (by decide)).trans <|
    (GenP.V26_of m (outs m) c main_v228 (by decide))

/-! ## The readout parameters are the launched ones -/

theorem keepA_9 (c : Dev nD) :
    (GenP.V30 m (outs m) c main_arg9 : S640x128.Idx → EReal) = m ((c : Thread nD τ).loc main_arg9) :=
  ((GenP.V33_of m (outs m) c main_arg9 (by decide)).trans <|
    (GenP.V32_of m (outs m) c main_arg9 (by decide)).trans <|
    (GenP.V31_of m (outs m) c main_arg9 (by decide))).symm.trans (GenP.V33_main_arg9 m (outs m) c)

theorem keepA_10 (c : Dev nD) :
    (GenP.V30 m (outs m) c main_arg10 : S128.Idx → EReal) = m ((c : Thread nD τ).loc main_arg10) :=
  ((GenP.V33_of m (outs m) c main_arg10 (by decide)).trans <|
    (GenP.V32_of m (outs m) c main_arg10 (by decide)).trans <|
    (GenP.V31_of m (outs m) c main_arg10 (by decide))).symm.trans (GenP.V33_main_arg10 m (outs m) c)

theorem keepA_11 (c : Dev nD) :
    (GenP.V30 m (outs m) c main_arg11 : S128x10.Idx → EReal) = m ((c : Thread nD τ).loc main_arg11) :=
  ((GenP.V33_of m (outs m) c main_arg11 (by decide)).trans <|
    (GenP.V32_of m (outs m) c main_arg11 (by decide)).trans <|
    (GenP.V31_of m (outs m) c main_arg11 (by decide))).symm.trans (GenP.V33_main_arg11 m (outs m) c)

theorem keepA_12 (c : Dev nD) :
    (GenP.V30 m (outs m) c main_arg12 : S10.Idx → EReal) = m ((c : Thread nD τ).loc main_arg12) :=
  ((GenP.V33_of m (outs m) c main_arg12 (by decide)).trans <|
    (GenP.V32_of m (outs m) c main_arg12 (by decide)).trans <|
    (GenP.V31_of m (outs m) c main_arg12 (by decide))).symm.trans (GenP.V33_main_arg12 m (outs m) c)

/-! ## The node features layer by layer -/

section
variable (c : Dev nD)

/-- The neighbourhood sums of a curried array of features. -/
abbrev nAgg : Mat 50000 128 → Mat 50000 128 := fun H => cur2 (kAgg m c (Spec.uncur2 H))
/-- The weights by layer number. -/
abbrev nP : ℕ → LayerP := fun i => kP m c (Fin.ofNat 5 i)
/-- The features after a number of layers, from the launched features. -/
abbrev nH (L : ℕ) : Mat 50000 128 := Spec.hKn (nAgg m c) (nP m c) (cur2 (m ((c : Thread nD τ).loc main_arg0) : S50000x128.Idx → EReal)) L

/-- One layer on: when an array holds the features after L layers and another is the kernel's layer of it, taken
    with the weights of layer number L, the other holds the features after L + 1 layers. -/
theorem feat_step (A : SNH.Idx → EReal) (B : Mat 50000 128) (L : ℕ) (i : Fin 5) (hi : Fin.ofNat 5 L = i)
    (hA : cur2 A = nH m c L) (hB : B = Spec.kh (cur2 A) (cur2 (kAgg m c A)) (kP m c i)) :
    B = nH m c (L + 1) := by
  show B = Spec.kh (nH m c L) (nAgg m c (nH m c L)) (nP m c L)
  rw [← hA]
  show B = Spec.kh (cur2 A) (cur2 (kAgg m c (Spec.uncur2 (cur2 A)))) (kP m c (Fin.ofNat 5 L))
  rw [Spec.uncur2_cur2, hi]
  exact hB

theorem feat_1 : cur2 (Vout2 m c main_v59_0 : S50000x128.Idx → EReal) = nH m c 1 :=
  feat_step m c (m ((c : Thread nD τ).loc main_arg0) : S50000x128.Idx → EReal) _ 0 0 rfl rfl (layer0_h m c)

theorem feat_2 : cur2 (Vout5 m c main_v115_0 : S50000x128.Idx → EReal) = nH m c 2 :=
  feat_step m c (Vout2 m c main_v59_0) _ 1 1 rfl (feat_1 m c) (layer1_h m c (base2 m c))

theorem feat_3 : cur2 (Vout8 m c main_v171_0 : S50000x128.Idx → EReal) = nH m c 3 :=
  feat_step m c (Vout5 m c main_v115_0) _ 2 2 rfl (feat_2 m c) (layer2_h m c (base5 m c (base2 m c)))

theorem feat_4 : cur2 (Vout11 m c main_v227_0 : S50000x128.Idx → EReal) = nH m c 4 :=
  feat_step m c (Vout8 m c main_v171_0) _ 3 3 rfl (feat_3 m c) (layer3_h m c (base8 m c (base5 m c (base2 m c))))

theorem feat_5 : cur2 (Vout14 m c main_v283_0 : S50000x128.Idx → EReal) = nH m c 5 :=
  feat_step m c (Vout11 m c main_v227_0) _ 4 4 rfl (feat_4 m c)
    (layer4_h m c (base11 m c (base8 m c (base5 m c (base2 m c)))))

/-! ## The five pooled matrices the readout takes -/

theorem pool_1 : cur2 (GenP.V30 m (outs m) c main_v60 : S256x128.Idx → EReal) = poolK (kBw m c) (nH m c 1) := by
  rw [keepP_0 m c, layer0_pool m c, feat_1 m c]

theorem pool_2 : cur2 (GenP.V30 m (outs m) c main_v116 : S256x128.Idx → EReal) = poolK (kBw m c) (nH m c 2) := by
  rw [keepP_1 m c, layer1_pool m c (base2 m c), feat_2 m c]

theorem pool_3 : cur2 (GenP.V30 m (outs m) c main_v172 : S256x128.Idx → EReal) = poolK (kBw m c) (nH m c 3) := by
  rw [keepP_2 m c, layer2_pool m c (base5 m c (base2 m c)), feat_3 m c]

theorem pool_4 : cur2 (GenP.V30 m (outs m) c main_v228 : S256x128.Idx → EReal) = poolK (kBw m c) (nH m c 4) := by
  rw [keepP_3 m c, layer3_pool m c (base8 m c (base5 m c (base2 m c))), feat_4 m c]

/-- The last layer's pooled matrix is added up from its per-block shares inside the readout's host stretch. -/
theorem pool_5 :
    cur2 (Host.reduceAdd (GenP.V30 m (outs m) c main_v283_1 : S10x256x128.Idx → EReal)
            (constant (F := Ideal) S_ .f32 0x00000000#32) reducesTo_S10x256x128_S256x128_d0 h_S_)
      = poolK (kBw m c) (nH m c 5) := by
  rw [← feat_5 m c]
  exact layer4_pool m c (base11 m c (base8 m c (base5 m c (base2 m c))))

/-- The program's result is the readout of the five pooled matrices with the launched readout parameters. -/
theorem tail_eq :
    GenP.V33 m (outs m) c main_v294
      = Cert.Spec.tailA concatenates_S256x128_S256x128_S256x128_S256x128_S256x128_S256x640_d1
          dot_S256x640_S640x128_S256x128_1_0_0_1_n_n dot_S256x128_S128x10_S256x10_1_0_0_1_n_n
          bcast_S128_S1x128_1 bcast_S1x128_S256x128_0_1 bcast_S_S256x128 bcast_S10_S1x10_1 bcast_S1x10_S256x10_0_1
          (GenP.V30 m (outs m) c main_v60) (GenP.V30 m (outs m) c main_v116) (GenP.V30 m (outs m) c main_v172)
          (GenP.V30 m (outs m) c main_v228)
          (Host.reduceAdd (GenP.V30 m (outs m) c main_v283_1 : S10x256x128.Idx → EReal)
            (constant (F := Ideal) S_ .f32 0x00000000#32) reducesTo_S10x256x128_S256x128_d0 h_S_)
          (m ((c : Thread nD τ).loc main_arg9)) (m ((c : Thread nD τ).loc main_arg10))
          (m ((c : Thread nD τ).loc main_arg11)) (m ((c : Thread nD τ).loc main_arg12)) := by
  have h := host15_tail (GenP.V30 m (outs m) c)
  rw [keepA_9 m c, keepA_10 m c, keepA_11 m c, keepA_12 m c] at h
  with_reducible exact h

end

/-- The kernel program's value: the readout of five matrices, the i-th of which is the pooling by graph of the
    node features after i + 1 layers of the network on the launched features. -/
theorem kernel_value (c : Dev nD) :
    ∃ PK : Fin 5 → (S256x128.Idx → EReal),
      GenP.V33 m (outs m) c main_v294
        = Cert.Spec.tailA concatenates_S256x128_S256x128_S256x128_S256x128_S256x128_S256x640_d1
          dot_S256x640_S640x128_S256x128_1_0_0_1_n_n dot_S256x128_S128x10_S256x10_1_0_0_1_n_n
          bcast_S128_S1x128_1 bcast_S1x128_S256x128_0_1 bcast_S_S256x128 bcast_S10_S1x10_1 bcast_S1x10_S256x10_0_1
            (PK 0) (PK 1) (PK 2) (PK 3) (PK 4)
            (m ((c : Thread nD τ).loc main_arg9)) (m ((c : Thread nD τ).loc main_arg10))
            (m ((c : Thread nD τ).loc main_arg11)) (m ((c : Thread nD τ).loc main_arg12))
      ∧ ∀ i : Fin 5, cur2 (PK i)
          = Spec.poolK (kBw m c) (Spec.hKn (fun H => cur2 (kAgg m c (Spec.uncur2 H))) (fun i => kP m c (Fin.ofNat 5 i))
              (cur2 (m ((c : Thread nD τ).loc main_arg0) : S50000x128.Idx → EReal)) (i.val + 1)) := by
  have hT := tail_eq m c
  have h1 := pool_1 m c
  have h2 := pool_2 m c
  have h3 := pool_3 m c
  have h4 := pool_4 m c
  have h5 := pool_5 m c
  -- from here on the five matrices are only names
  generalize Host.reduceAdd (GenP.V30 m (outs m) c main_v283_1 : S10x256x128.Idx → EReal)
      (constant (F := Ideal) S_ .f32 0x00000000#32) reducesTo_S10x256x128_S256x128_d0 h_S_ = P4 at hT h5
  generalize GenP.V30 m (outs m) c main_v60 = P0 at hT h1
  generalize GenP.V30 m (outs m) c main_v116 = P1 at hT h2
  generalize GenP.V30 m (outs m) c main_v172 = P2 at hT h3
  generalize GenP.V30 m (outs m) c main_v228 = P3 at hT h4
  refine ⟨![P0, P1, P2, P3, P4], hT, fun i => ?_⟩
  fin_cases i
  exacts [h1, h2, h3, h4, h5]

end Cert.KernelIdeal.Hand

end
-- ==== Proof.Ref.ValOps.lean ====
/-
  The reference's array operations read at an index, over arbitrary arrays of the literal shapes: a slice of a
  weight stack made a matrix (a vector), a vector laid along the rows of the node array, the product with a
  weight matrix, the column mean and the centred second moment over the nodes, and the normalisation followed
  by the rectifier. Each is stated as the operation term the program spells, equal to the curried formula.
-/
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Idealize.ShloMosaic.Lib.ValueLayout
import Idealize.ShloMosaic.Lib.StackMember
import Idealize.ShloMosaic.Lib.Pipeline.Value
import proofs.«422260_j36421322670663_2_alg».proof.Proof.Spec
import proofs.«422260_j36421322670663_2_alg».proof.Proof.Math.Consts

noncomputable section

open scoped BigOperators

namespace Cert.ReferenceIdeal.Hand

open Idealize.ShloMosaic Idealize.ShloMosaic.ValueIdx Cert.Spec

abbrev T0 : Shape := ⟨0, ![]⟩
abbrev TN : Shape := ⟨2, ![50000, 128]⟩
abbrev TR : Shape := ⟨2, ![1, 128]⟩
abbrev TV : Shape := ⟨1, ![128]⟩
abbrev TW : Shape := ⟨2, ![128, 128]⟩
abbrev TW1 : Shape := ⟨3, ![1, 128, 128]⟩
abbrev TW5 : Shape := ⟨3, ![5, 128, 128]⟩
abbrev TB5 : Shape := ⟨2, ![5, 128]⟩

/-- A vector made a 1 × 128 row and repeated along the 50000 rows: entry (r, c) is entry c. -/
theorem rows_apply (w1 : TV.BroadcastsInDim TR (![1] : Fin 1 → Fin TR.rank))
    (w2 : TR.BroadcastsInDim TN (![0, 1] : Fin 2 → Fin TN.rank)) (v : TV.Idx → EReal) (r : Fin 50000) (c : Fin 128) :
    broadcastInDim TN ![0, 1] w2 (broadcastInDim TR ![1] w1 v) (ix2 r c) = v (ix1 c) := by
  refine (broadcastInDim_apply ![0, 1] w2 _ (ix2 r c) (ix2 (0 : Fin 1) c) (fun a => ?_)).trans ?_
  · match a with
    | ⟨0, _⟩ => rfl
    | ⟨1, _⟩ => rfl
  · refine broadcastInDim_apply ![1] w1 v (ix2 (0 : Fin 1) c) (ix1 c) (fun a => ?_)
    match a with
    | ⟨0, _⟩ => rfl

/-- Slice k of a stack of five 128 × 128 matrices, made a matrix: entry (a, b) is the stack's entry (k, a, b). -/
theorem wslice_apply (k : ℕ) (hk : k < 5) (hs : TW5.Slices ![k, 0, 0] TW1) (hc : TW1.ShapeCasts TW)
    (X : TW5.Idx → EReal) (a b : Fin 128) :
    shapeCast TW (extractStridedSlice TW1 ![k, 0, 0] X hs) hc (ix2 a b) = X (ix3 (⟨k, hk⟩ : Fin 5) a b) := by
  refine (shapeCast_1ab_ab_apply _ hc a b).trans ?_
  refine extractStridedSlice_apply ![k, 0, 0] X hs (ix3 (0 : Fin 1) a b) (ix3 (⟨k, hk⟩ : Fin 5) a b) (fun ax => ?_)
  match ax with
  | ⟨0, _⟩ => rfl
  | ⟨1, _⟩ => exact (Nat.zero_add _).symm
  | ⟨2, _⟩ => exact (Nat.zero_add _).symm

/-- Row k of a stack of five vectors, made a vector: entry c is the stack's entry (k, c). -/
theorem bslice_apply (k : ℕ) (hk : k < 5) (hs : TB5.Slices ![k, 0] TR) (hc : TR.ShapeCasts TV)
    (X : TB5.Idx → EReal) (c : Fin 128) :
    shapeCast TV (extractStridedSlice TR ![k, 0] X hs) hc (ix1 c) = X (ix2 (⟨k, hk⟩ : Fin 5) c) := by
  refine (shapeCast_1a_a_apply _ hc c).trans ?_
  refine extractStridedSlice_apply ![k, 0] X hs (ix2 (0 : Fin 1) c) (ix2 (⟨k, hk⟩ : Fin 5) c) (fun ax => ?_)
  match ax with
  | ⟨0, _⟩ => rfl
  | ⟨1, _⟩ => exact (Nat.zero_add _).symm

/-- The product of the node array with a weight matrix, entry by entry a sum over the 128 features. -/
theorem dot_apply (w : DotDims.WF TN TW TN [1] [0] [0] [1] [] []) (x : TN.Idx → EReal) (y : TW.Idx → EReal)
    (r : Fin 50000) (c : Fin 128) :
    Host.dotGeneral (F := Ideal) (φ₁ := .f32) (φ₂ := .f32) (⟨[1], [0], [0], [1], [], [], w⟩ : DotDims TN TW TN) none x y (ix2 r c)
      = ∑ j : Fin 128, x (ix2 r j) * y (ix2 j c) :=
  StackMember.dotGeneral_plain_apply (m := 50000) (n := 128) (k := 128) (φ₁ := .f32) (φ₂ := .f32) none x y r c

/-! ## The operation terms the program spells, named -/

/-- A vector repeated along the rows (through a 1 × 128 row). -/
def tRows (w1 : TV.BroadcastsInDim TR (![1] : Fin 1 → Fin TR.rank))
    (w2 : TR.BroadcastsInDim TN (![0, 1] : Fin 2 → Fin TN.rank)) (v : TV.Idx → EReal) : TN.Idx → EReal :=
  broadcastInDim TN ![0, 1] w2 (broadcastInDim TR ![1] w1 v)

theorem tRows_apply (w1 : TV.BroadcastsInDim TR (![1] : Fin 1 → Fin TR.rank))
    (w2 : TR.BroadcastsInDim TN (![0, 1] : Fin 2 → Fin TN.rank)) (v : TV.Idx → EReal) (r : Fin 50000) (c : Fin 128) :
    tRows w1 w2 v (ix2 r c) = v (ix1 c) := rows_apply w1 w2 v r c

/-- The column sums over the nodes, from the zero word. -/
def tColsum (hr : TN.ReducesTo [0] TV) (h0 : 0 < T0.numel) (z : TN.Idx → EReal) : TV.Idx → EReal :=
  Host.reduceAdd (F := Ideal) (φ := .f32) z (constant (F := Ideal) T0 .f32 0x00000000#32) hr h0

theorem lift_ix (h : TN.Reduces [0] TV) (c : Fin 128) (k : Fin 50000) : h.lift (ix1 c) k = ix2 k c := by
  funext ax; apply Fin.ext
  match ax with
  | ⟨0, _⟩ => rfl
  | ⟨1, _⟩ => rfl

theorem tColsum_apply (hr : TN.ReducesTo [0] TV) (h0 : 0 < T0.numel) (z : TN.Idx → EReal) (c : Fin 128) :
    tColsum hr h0 z (ix1 c) = ∑ r : Fin 50000, z (ix2 r c) := by
  have hR : TN.Reduces [0] TV := by decide
  show Ideal.hostReduceAdd hr z (Ideal.ofBits .f32 0x00000000#32) (ix1 c) = _
  rw [Ideal.hostReduceAdd_single hr hR, Ideal.ofBits_zero_f32, zero_add]
  exact Finset.sum_congr rfl fun k _ => congrArg z (lift_ix hR c k)

/-- The column means: the column sums divided by the node count word. -/
def tMean (hr : TN.ReducesTo [0] TV) (h0 : 0 < T0.numel) (wb : T0.BroadcastsInDim TV (![] : Fin 0 → Fin TV.rank))
    (z : TN.Idx → EReal) : TV.Idx → EReal :=
  Host.divf (F := Ideal) (φ := .f32) (tColsum hr h0 z) (broadcastInDim TV ![] wb (constant (F := Ideal) T0 .f32 0x47435000#32))

theorem tMean_apply (hr : TN.ReducesTo [0] TV) (h0 : 0 < T0.numel) (wb : T0.BroadcastsInDim TV (![] : Fin 0 → Fin TV.rank))
    (z : TN.Idx → EReal) (c : Fin 128) : tMean hr h0 wb z (ix1 c) = rmean (cur2 z) c := by
  show Ideal.div (tColsum hr h0 z (ix1 c)) cN = _
  rw [tColsum_apply]; rfl

/-- The column means as the variance function spells them: divided as a 1 × 128 row, then repeated along the rows. -/
def tMeanRows (hr : TN.ReducesTo [0] TV) (h0 : 0 < T0.numel) (w1 : TV.BroadcastsInDim TR (![1] : Fin 1 → Fin TR.rank))
    (w2 : TR.BroadcastsInDim TN (![0, 1] : Fin 2 → Fin TN.rank)) (wbR : T0.BroadcastsInDim TR (![] : Fin 0 → Fin TR.rank))
    (z : TN.Idx → EReal) : TN.Idx → EReal :=
  broadcastInDim TN ![0, 1] w2 (Host.divf (F := Ideal) (φ := .f32) (broadcastInDim TR ![1] w1 (tColsum hr h0 z))
    (broadcastInDim TR ![] wbR (constant (F := Ideal) T0 .f32 0x47435000#32)))

theorem tMeanRows_apply (hr : TN.ReducesTo [0] TV) (h0 : 0 < T0.numel) (w1 : TV.BroadcastsInDim TR (![1] : Fin 1 → Fin TR.rank))
    (w2 : TR.BroadcastsInDim TN (![0, 1] : Fin 2 → Fin TN.rank)) (wbR : T0.BroadcastsInDim TR (![] : Fin 0 → Fin TR.rank))
    (z : TN.Idx → EReal) (r : Fin 50000) (c : Fin 128) : tMeanRows hr h0 w1 w2 wbR z (ix2 r c) = rmean (cur2 z) c := by
  unfold tMeanRows
  refine (broadcastInDim_apply ![0, 1] w2 _ (ix2 r c) (ix2 (0 : Fin 1) c) (fun a => ?_)).trans ?_
  · match a with
    | ⟨0, _⟩ => rfl
    | ⟨1, _⟩ => rfl
  · show Ideal.div (broadcastInDim TR ![1] w1 (tColsum hr h0 z) (ix2 (0 : Fin 1) c)) cN = _
    rw [broadcastInDim_apply ![1] w1 (tColsum hr h0 z) (ix2 (0 : Fin 1) c) (ix1 c) (fun a => by
      match a with
      | ⟨0, _⟩ => rfl), tColsum_apply]
    rfl

/-- The divisor the variance function spells: the node count word minus the integer zero made a float. -/
def tDiv : T0.Idx → EReal :=
  subf (F := Ideal) (φ := .f32) (constant (F := Ideal) T0 .f32 0x47435000#32) (sitofp .f32 (constantI T0 32 0#32))

theorem tDiv_apply (i : T0.Idx) : tDiv i = cN := by
  show cN - (((0#32 : BitVec 32).toInt : ℝ) : EReal) = cN
  simp

/-- The variance function's term: the centred squares summed and divided by the divisor, selected against the
    not-a-number word by the comparison of the divisor with zero. -/
def tVar (hr : TN.ReducesTo [0] TV) (h0 : 0 < T0.numel) (wb : T0.BroadcastsInDim TV (![] : Fin 0 → Fin TV.rank))
    (w1 : TV.BroadcastsInDim TR (![1] : Fin 1 → Fin TR.rank)) (w2 : TR.BroadcastsInDim TN (![0, 1] : Fin 2 → Fin TN.rank))
    (wbR : T0.BroadcastsInDim TR (![] : Fin 0 → Fin TR.rank)) (z : TN.Idx → EReal) : TV.Idx → EReal :=
  select (broadcastInDim TV ![] wb (cmpf (F := Ideal) (φ := .f32) .ogt tDiv (constant (F := Ideal) T0 .f32 0x00000000#32)))
    (Host.divf (F := Ideal) (φ := .f32)
      (tColsum hr h0 (mulf (F := Ideal) (φ := .f32) (subf (F := Ideal) (φ := .f32) z (tMeanRows hr h0 w1 w2 wbR z))
        (subf (F := Ideal) (φ := .f32) z (tMeanRows hr h0 w1 w2 wbR z))))
      (broadcastInDim TV ![] wb tDiv))
    (broadcastInDim TV ![] wb (id (constant (F := Ideal) T0 .f32 0x7FC00000#32)))

theorem tVar_apply (hr : TN.ReducesTo [0] TV) (h0 : 0 < T0.numel) (wb : T0.BroadcastsInDim TV (![] : Fin 0 → Fin TV.rank))
    (w1 : TV.BroadcastsInDim TR (![1] : Fin 1 → Fin TR.rank)) (w2 : TR.BroadcastsInDim TN (![0, 1] : Fin 2 → Fin TN.rank))
    (wbR : T0.BroadcastsInDim TR (![] : Fin 0 → Fin TR.rank)) (z : TN.Idx → EReal) (c : Fin 128) :
    tVar hr h0 wb w1 w2 wbR z (ix1 c) = rvar (cur2 z) c := by
  have h1 : broadcastInDim TV ![] wb (cmpf (F := Ideal) (φ := .f32) .ogt tDiv (constant (F := Ideal) T0 .f32 0x00000000#32)) (ix1 c)
      = 1#1 := by
    show Ideal.cmp .ogt (tDiv _) (Ideal.ofBits .f32 0x00000000#32) = 1#1
    rw [tDiv_apply, Ideal.ofBits_zero_f32, cN_eq]
    simp [Ideal.cmp]
  unfold tVar
  rw [select_apply, h1, select_one]
  show Ideal.div (tColsum hr h0 _ (ix1 c)) (tDiv _) = _
  rw [tDiv_apply, tColsum_apply]
  refine congrArg (Ideal.div · cN) (Finset.sum_congr rfl fun r _ => ?_)
  rw [mulf_apply, subf_apply, tMeanRows_apply]
  rfl

/-- The normalisation with the given moments, scale and shift, followed by the rectifier. -/
def tBnRelu (w1 : TV.BroadcastsInDim TR (![1] : Fin 1 → Fin TR.rank)) (w2 : TR.BroadcastsInDim TN (![0, 1] : Fin 2 → Fin TN.rank))
    (wb : T0.BroadcastsInDim TV (![] : Fin 0 → Fin TV.rank)) (wbN : T0.BroadcastsInDim TN (![] : Fin 0 → Fin TN.rank))
    (z : TN.Idx → EReal) (mean var g be : TV.Idx → EReal) : TN.Idx → EReal :=
  maximumf (F := Ideal) (φ := .f32)
    (addf (F := Ideal) (φ := .f32)
      (mulf (F := Ideal) (φ := .f32)
        (mulf (F := Ideal) (φ := .f32) (subf (F := Ideal) (φ := .f32) z (tRows w1 w2 mean))
          (tRows w1 w2 (Host.rsqrt (F := Ideal) (φ := .f32)
            (addf (F := Ideal) (φ := .f32) var (broadcastInDim TV ![] wb (constant (F := Ideal) T0 .f32 0x3727C5AC#32))))))
        (tRows w1 w2 g))
      (tRows w1 w2 be))
    (broadcastInDim TN ![] wbN (constant (F := Ideal) T0 .f32 0x00000000#32))

theorem tBnRelu_apply (w1 : TV.BroadcastsInDim TR (![1] : Fin 1 → Fin TR.rank)) (w2 : TR.BroadcastsInDim TN (![0, 1] : Fin 2 → Fin TN.rank))
    (wb : T0.BroadcastsInDim TV (![] : Fin 0 → Fin TV.rank)) (wbN : T0.BroadcastsInDim TN (![] : Fin 0 → Fin TN.rank))
    (z : TN.Idx → EReal) (mean var g be : TV.Idx → EReal) :
    cur2 (tBnRelu w1 w2 wb wbN z mean var g be) = bnrelu (cur2 z) (cur1 mean) (cur1 var) (cur1 g) (cur1 be) := by
  funext r c
  show max ((z (ix2 r c) - tRows w1 w2 mean (ix2 r c)) * tRows w1 w2 _ (ix2 r c) * tRows w1 w2 g (ix2 r c)
      + tRows w1 w2 be (ix2 r c)) (Ideal.ofBits .f32 0x00000000#32) = _
  rw [tRows_apply, tRows_apply, tRows_apply, tRows_apply, Ideal.ofBits_zero_f32]
  rfl

/-- Slice k of a weight stack as a matrix; row k of a stack of vectors as a vector. -/
def tW (k : ℕ) (hs : TW5.Slices ![k, 0, 0] TW1) (hc : TW1.ShapeCasts TW) (X : TW5.Idx → EReal) : TW.Idx → EReal :=
  shapeCast TW (extractStridedSlice TW1 ![k, 0, 0] X hs) hc
def tB (k : ℕ) (hs : TB5.Slices ![k, 0] TR) (hc : TR.ShapeCasts TV) (X : TB5.Idx → EReal) : TV.Idx → EReal :=
  shapeCast TV (extractStridedSlice TR ![k, 0] X hs) hc

theorem tW_apply (k : ℕ) (hk : k < 5) (hs : TW5.Slices ![k, 0, 0] TW1) (hc : TW1.ShapeCasts TW)
    (X : TW5.Idx → EReal) (a b : Fin 128) : tW k hs hc X (ix2 a b) = sl3 X (⟨k, hk⟩ : Fin 5) a b :=
  wslice_apply k hk hs hc X a b
theorem tB_apply (k : ℕ) (hk : k < 5) (hs : TB5.Slices ![k, 0] TR) (hc : TR.ShapeCasts TV)
    (X : TB5.Idx → EReal) (c : Fin 128) : tB k hs hc X (ix1 c) = sl2 X (⟨k, hk⟩ : Fin 5) c :=
  bslice_apply k hk hs hc X c

/-- The linear map: the product with a weight matrix plus a bias vector repeated along the rows. -/
def tLin (w : DotDims.WF TN TW TN [1] [0] [0] [1] [] []) (w1 : TV.BroadcastsInDim TR (![1] : Fin 1 → Fin TR.rank))
    (w2 : TR.BroadcastsInDim TN (![0, 1] : Fin 2 → Fin TN.rank)) (x : TN.Idx → EReal) (y : TW.Idx → EReal) (b : TV.Idx → EReal) :
    TN.Idx → EReal :=
  addf (F := Ideal) (φ := .f32)
    (Host.dotGeneral (F := Ideal) (φ₁ := .f32) (φ₂ := .f32) (⟨[1], [0], [0], [1], [], [], w⟩ : DotDims TN TW TN) none x y)
    (tRows w1 w2 b)

theorem tLin_apply (w : DotDims.WF TN TW TN [1] [0] [0] [1] [] []) (w1 : TV.BroadcastsInDim TR (![1] : Fin 1 → Fin TR.rank))
    (w2 : TR.BroadcastsInDim TN (![0, 1] : Fin 2 → Fin TN.rank)) (x : TN.Idx → EReal) (y : TW.Idx → EReal) (b : TV.Idx → EReal) :
    cur2 (tLin w w1 w2 x y b) = lin (cur2 x) (cur2 y) (cur1 b) := by
  funext r c
  show Host.dotGeneral (F := Ideal) (φ₁ := .f32) (φ₂ := .f32) (⟨[1], [0], [0], [1], [], [], w⟩ : DotDims TN TW TN) none x y (ix2 r c)
      + tRows w1 w2 b (ix2 r c) = _
  rw [dot_apply, tRows_apply]
  rfl

/-- A slice read through the curried views. -/
theorem cur2_tW (k : ℕ) (hk : k < 5) (hs : TW5.Slices ![k, 0, 0] TW1) (hc : TW1.ShapeCasts TW) (X : TW5.Idx → EReal) :
    cur2 (tW k hs hc X) = sl3 X (⟨k, hk⟩ : Fin 5) := by
  funext a b; exact tW_apply k hk hs hc X a b
theorem cur1_tB (k : ℕ) (hk : k < 5) (hs : TB5.Slices ![k, 0] TR) (hc : TR.ShapeCasts TV) (X : TB5.Idx → EReal) :
    cur1 (tB k hs hc X) = sl2 X (⟨k, hk⟩ : Fin 5) := by
  funext c; exact tB_apply k hk hs hc X c
theorem cur1_tMean (hr : TN.ReducesTo [0] TV) (h0 : 0 < T0.numel) (wb : T0.BroadcastsInDim TV (![] : Fin 0 → Fin TV.rank))
    (z : TN.Idx → EReal) : cur1 (tMean hr h0 wb z) = rmean (cur2 z) := by
  funext c; exact tMean_apply hr h0 wb z c
theorem cur1_tVar (hr : TN.ReducesTo [0] TV) (h0 : 0 < T0.numel) (wb : T0.BroadcastsInDim TV (![] : Fin 0 → Fin TV.rank))
    (w1 : TV.BroadcastsInDim TR (![1] : Fin 1 → Fin TR.rank)) (w2 : TR.BroadcastsInDim TN (![0, 1] : Fin 2 → Fin TN.rank))
    (wbR : T0.BroadcastsInDim TR (![] : Fin 0 → Fin TR.rank)) (z : TN.Idx → EReal) :
    cur1 (tVar hr h0 wb w1 w2 wbR z) = rvar (cur2 z) := by
  funext c; exact tVar_apply hr h0 wb w1 w2 wbR z c
/-- The sum of two arrays, curried. -/
theorem cur2_addf (x y : TN.Idx → EReal) :
    cur2 (addf (F := Ideal) (φ := .f32) x y) = fun r k => cur2 x r k + cur2 y r k := rfl

/-! ## A whole layer -/

/-- The product with a weight matrix alone. -/
def tDot (w : DotDims.WF TN TW TN [1] [0] [0] [1] [] []) (x : TN.Idx → EReal) (y : TW.Idx → EReal) : TN.Idx → EReal :=
  Host.dotGeneral (F := Ideal) (φ₁ := .f32) (φ₂ := .f32) (⟨[1], [0], [0], [1], [], [], w⟩ : DotDims TN TW TN) none x y

/-- The shape facts the layer's operations cite. -/
structure Wit : Prop where
  hr : TN.ReducesTo [0] TV
  h0 : 0 < T0.numel
  wb : T0.BroadcastsInDim TV (![] : Fin 0 → Fin TV.rank)
  wbR : T0.BroadcastsInDim TR (![] : Fin 0 → Fin TR.rank)
  wbN : T0.BroadcastsInDim TN (![] : Fin 0 → Fin TN.rank)
  w1 : TV.BroadcastsInDim TR (![1] : Fin 1 → Fin TR.rank)
  w2 : TR.BroadcastsInDim TN (![0, 1] : Fin 2 → Fin TN.rank)
  wd : DotDims.WF TN TW TN [1] [0] [0] [1] [] []
  hc3 : TW1.ShapeCasts TW
  hc2 : TR.ShapeCasts TV

/-- The first linear map of the features plus their neighbourhood sums. -/
def tZ1 (q : Wit) (k : ℕ) (hs3 : TW5.Slices ![k, 0, 0] TW1) (hs2 : TB5.Slices ![k, 0] TR) (h agg : TN.Idx → EReal)
    (A1 : TW5.Idx → EReal) (A2 : TB5.Idx → EReal) : TN.Idx → EReal :=
  tLin q.wd q.w1 q.w2 (addf (F := Ideal) (φ := .f32) h agg) (tW k hs3 q.hc3 A1) (tB k hs2 q.hc2 A2)

/-- The normalisation by the array's own column mean and centred second moment, then the rectifier. -/
def tAct (q : Wit) (z : TN.Idx → EReal) (G B : TV.Idx → EReal) : TN.Idx → EReal :=
  tBnRelu q.w1 q.w2 q.wb q.wbN z (tMean q.hr q.h0 q.wb z) (tVar q.hr q.h0 q.wb q.w1 q.w2 q.wbR z) G B

theorem tAct_val (q : Wit) (z : TN.Idx → EReal) (G B : TV.Idx → EReal) :
    cur2 (tAct q z G B) = bnrelu (cur2 z) (rmean (cur2 z)) (rvar (cur2 z)) (cur1 G) (cur1 B) := by
  unfold tAct
  rw [tBnRelu_apply, cur1_tMean, cur1_tVar]

/-- The layer's output features. -/
def tH (q : Wit) (k : ℕ) (hs3 : TW5.Slices ![k, 0, 0] TW1) (hs2 : TB5.Slices ![k, 0] TR) (h agg : TN.Idx → EReal)
    (A1 : TW5.Idx → EReal) (A2 A3 A4 : TB5.Idx → EReal) (A5 : TW5.Idx → EReal) (A6 A7 A8 : TB5.Idx → EReal) : TN.Idx → EReal :=
  tAct q
    (addf (F := Ideal) (φ := .f32)
      (tDot q.wd (tAct q (tZ1 q k hs3 hs2 h agg A1 A2) (tB k hs2 q.hc2 A3) (tB k hs2 q.hc2 A4)) (tW k hs3 q.hc3 A5))
      (broadcastInDim TN ![0, 1] q.w2 (broadcastInDim TR ![1] q.w1 (tB k hs2 q.hc2 A6))))
    (tB k hs2 q.hc2 A7) (tB k hs2 q.hc2 A8)

theorem tZ1_val (q : Wit) (k : ℕ) (hk : k < 5) (hs3 : TW5.Slices ![k, 0, 0] TW1) (hs2 : TB5.Slices ![k, 0] TR)
    (h agg : TN.Idx → EReal) (A1 : TW5.Idx → EReal) (A2 : TB5.Idx → EReal) :
    cur2 (tZ1 q k hs3 hs2 h agg A1 A2)
      = lin (fun r j => cur2 h r j + cur2 agg r j) (sl3 A1 (⟨k, hk⟩ : Fin 5)) (sl2 A2 (⟨k, hk⟩ : Fin 5)) := by
  unfold tZ1
  rw [tLin_apply, cur2_tW k hk, cur1_tB k hk]
  rfl

/-- The layer's output features are the reference's layer formula of the input features, their neighbourhood sums and
    slice k of the eight stacks. -/
theorem tH_val (q : Wit) (k : ℕ) (hk : k < 5) (hs3 : TW5.Slices ![k, 0, 0] TW1) (hs2 : TB5.Slices ![k, 0] TR)
    (h agg : TN.Idx → EReal) (A1 : TW5.Idx → EReal) (A2 A3 A4 : TB5.Idx → EReal) (A5 : TW5.Idx → EReal) (A6 A7 A8 : TB5.Idx → EReal) :
    cur2 (tH q k hs3 hs2 h agg A1 A2 A3 A4 A5 A6 A7 A8)
      = rh (cur2 h) (cur2 agg)
          ⟨sl3 A1 (⟨k, hk⟩ : Fin 5), sl2 A2 (⟨k, hk⟩ : Fin 5), sl2 A3 (⟨k, hk⟩ : Fin 5), sl2 A4 (⟨k, hk⟩ : Fin 5),
           sl3 A5 (⟨k, hk⟩ : Fin 5), sl2 A6 (⟨k, hk⟩ : Fin 5), sl2 A7 (⟨k, hk⟩ : Fin 5), sl2 A8 (⟨k, hk⟩ : Fin 5)⟩ := by
  have e2 : addf (F := Ideal) (φ := .f32)
      (tDot q.wd (tAct q (tZ1 q k hs3 hs2 h agg A1 A2) (tB k hs2 q.hc2 A3) (tB k hs2 q.hc2 A4)) (tW k hs3 q.hc3 A5))
      (broadcastInDim TN ![0, 1] q.w2 (broadcastInDim TR ![1] q.w1 (tB k hs2 q.hc2 A6)))
      = tLin q.wd q.w1 q.w2 (tAct q (tZ1 q k hs3 hs2 h agg A1 A2) (tB k hs2 q.hc2 A3) (tB k hs2 q.hc2 A4)) (tW k hs3 q.hc3 A5)
          (tB k hs2 q.hc2 A6) := rfl
  unfold tH
  rw [e2, tAct_val, tLin_apply, tAct_val, tZ1_val q k hk, cur2_tW k hk, cur1_tB k hk, cur1_tB k hk, cur1_tB k hk, cur1_tB k hk,
    cur1_tB k hk]
  rfl

end Cert.ReferenceIdeal.Hand

end
-- ==== Proof.Ref.ValLib.lean ====
/-
  Names shared by the layer-by-layer readings of the reference: a layer's weights read from the eight stacks among
  the arguments, the neighbourhood sums of a feature array under the program's edge arrays, and that a stretch
  whose operations write no argument leaves the arguments as they were.
-/
import proofs.«422260_j36421322670663_2_alg».proof.Proof.Ref.Base
import proofs.«422260_j36421322670663_2_alg».proof.Proof.Ref.ValOps
import proofs.«422260_j36421322670663_2_alg».proof.Proof.AggSpec

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

/-- Layer i's weights: slice i of each of the eight stacks. -/
abbrev refP (W : Valuation τ sig (Elt Ideal)) (i : Fin 5) : LayerP :=
  ⟨sl3 (W (main_arg1 : DevRef τ sig)) i, sl2 (W (main_arg2 : DevRef τ sig)) i, sl2 (W (main_arg3 : DevRef τ sig)) i,
   sl2 (W (main_arg4 : DevRef τ sig)) i, sl3 (W (main_arg5 : DevRef τ sig)) i, sl2 (W (main_arg6 : DevRef τ sig)) i,
   sl2 (W (main_arg7 : DevRef τ sig)) i, sl2 (W (main_arg8 : DevRef τ sig)) i⟩

/-- The neighbourhood sums of the feature array x under the edge sources and targets W holds. -/
abbrev refAgg (W : Valuation τ sig (Elt Ideal)) (x : SNH.Idx → EReal) : SNH.Idx → EReal :=
  aggA gather_S50000x128_S800000x1_S800000x128_1_0_n_n_0_1_1128 scatter_S50000x128_S800000x1_S800000x128_1_0_0_1 bcast_S_S50000x128 x
    (srcCol bcast_S_S800000 bcast_S800000_S800000x1_0 (W (main_v1 : DevRef τ sig)))
    (dstCol bcast_S800000_S800000x1_0 (W (main_v3 : DevRef τ sig)))

/-- A stretch none of whose operations writes an argument leaves every argument as it was. -/
theorem keep_arg {Val : EltTy → Type} {l : List (HloOp τ sig Val)} (hl : l.Forall OpOk) (V : Valuation τ sig Val)
    {r : Ref sig .tc} (h : isArg r = true) : after l V (r : DevRef τ sig) = V (r : DevRef τ sig) :=
  after_of_forall_not_mem l V fun op hop => (List.forall_iff_forall_mem.1 hl op hop).2.2 r h

/-- The fold over two lines in a row is the folds one after the other. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The shape facts a layer's operations cite, as the program states them. -/
theorem refWit : Wit :=
  ⟨reducesTo_S50000x128_S128_d0, h_S_, bcast_S_S128, bcast_S_S1x128, bcast_S_S50000x128, bcast_S128_S1x128_1,
   bcast_S1x128_S50000x128_0_1, dot_S50000x128_S128x128_S50000x128_1_0_0_1_n_n_wf, shapeCasts_S1x128x128_S128x128,
   shapeCasts_S1x128_S128⟩

end Cert.ReferenceIdeal.Hand

end
-- ==== Proof.Ref.Split.lean ====
/- The fold of the reference's line of operations, read stretch by stretch: the fold over lines in a row is the folds one
   after the other, so what the line leaves in a buffer is what the epilogue leaves from what the fifth layer leaves
   from … from what the prologue leaves from the launch contents; and each layer likewise through its four stretches. -/
import proofs.«422260_j36421322670663_2_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section
variable {Val : EltTy → Type}

/-- The fold over four lines in a row is the folds one after the other. -/
theorem after_append4 (a b c d : List (HloOp τ sig Val)) (V : Valuation τ sig Val) :
    after (a ++ b ++ c ++ d) V = after d (after c (after b (after a V))) := by
  rw [after_append, after_append, after_append]

/-- The fold over seven lines in a row is the folds one after the other. -/
theorem after_append7 (p l0 l1 l2 l3 l4 t : List (HloOp τ sig Val)) (V : Valuation τ sig Val) :
    after (p ++ l0 ++ l1 ++ l2 ++ l3 ++ l4 ++ t) V
      = after t (after l4 (after l3 (after l2 (after l1 (after l0 (after p V)))))) := by
  rw [after_append, after_append, after_append, after_append, after_append, after_append]
end

/-- The whole line's fold, read stretch by stretch: prologue, the five layers, epilogue. -/
theorem after_ops (V : Valuation τ sig (Elt F)) :
    after ops V = after opsTail (after opsL4 (after opsL3 (after opsL2 (after opsL1 (after opsL0 (after opsPre V)))))) :=
  after_append7 opsPre opsL0 opsL1 opsL2 opsL3 opsL4 opsTail V

/-- Layer 0's fold, read stretch by stretch. -/
theorem after_opsL0 (V : Valuation τ sig (Elt F)) :
    after opsL0 V = after opsL0d (after opsL0c (after opsL0b (after opsL0a V))) :=
  after_append4 opsL0a opsL0b opsL0c opsL0d V

/-- Layer 1's fold, read stretch by stretch. -/
theorem after_opsL1 (V : Valuation τ sig (Elt F)) :
    after opsL1 V = after opsL1d (after opsL1c (after opsL1b (after opsL1a V))) :=
  after_append4 opsL1a opsL1b opsL1c opsL1d V

/-- Layer 2's fold, read stretch by stretch. -/
theorem after_opsL2 (V : Valuation τ sig (Elt F)) :
    after opsL2 V = after opsL2d (after opsL2c (after opsL2b (after opsL2a V))) :=
  after_append4 opsL2a opsL2b opsL2c opsL2d V

/-- Layer 3's fold, read stretch by stretch. -/
theorem after_opsL3 (V : Valuation τ sig (Elt F)) :
    after opsL3 V = after opsL3d (after opsL3c (after opsL3b (after opsL3a V))) :=
  after_append4 opsL3a opsL3b opsL3c opsL3d V

/-- Layer 4's fold, read stretch by stretch. -/
theorem after_opsL4 (V : Valuation τ sig (Elt F)) :
    after opsL4 V = after opsL4d (after opsL4c (after opsL4b (after opsL4a V))) :=
  after_append4 opsL4a opsL4b opsL4c opsL4d V

end Cert.ReferenceIdeal.Hand

end
-- ==== Proof.Ref.ValL0a.lean ====
/-
  The first stretch of a layer of the reference, read as formulas: the first linear map of the features plus their
  neighbourhood sums, and the first normalisation's scale and shift vectors.
-/
import proofs.«422260_j36421322670663_2_alg».proof.Proof.Ref.Ops0
import proofs.«422260_j36421322670663_2_alg».proof.Proof.Ref.ValLib

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

/-- The layer's number among the five slices of each weight stack. -/
abbrev lyr_main_v78 : Fin 5 := ⟨0, by decide⟩

set_option maxHeartbeats 1600000 in
/-- The stretch leaves in the first linear map's reference the linear map's term over the features plus their
    neighbourhood sums. -/
theorem read_main_v22 (W : Valuation τ sig (Elt Ideal)) :
    after (opsL0a (F := Ideal)) W (main_v22 : DevRef τ sig)
      = tZ1 refWit lyr_main_v78.val slices_S5x128x128_S1x128x128_0_0_0 slices_S5x128_S1x128_0_0 (W (main_arg0 : DevRef τ sig)) (refAgg W (W (main_arg0 : DevRef τ sig)))
          (W (main_arg1 : DevRef τ sig)) (W (main_arg2 : DevRef τ sig)) := by
  after_results
  rfl

set_option maxHeartbeats 1600000 in
/-- … and in the scale and the shift reference the layer's row of their stacks. -/
theorem read_main_v24 (W : Valuation τ sig (Elt Ideal)) :
    after (opsL0a (F := Ideal)) W (main_v24 : DevRef τ sig) = tB lyr_main_v78.val slices_S5x128_S1x128_0_0 shapeCasts_S1x128_S128 (W (main_arg3 : DevRef τ sig)) := by
  after_results
  rfl
set_option maxHeartbeats 1600000 in
theorem read_main_v26 (W : Valuation τ sig (Elt Ideal)) :
    after (opsL0a (F := Ideal)) W (main_v26 : DevRef τ sig) = tB lyr_main_v78.val slices_S5x128_S1x128_0_0 shapeCasts_S1x128_S128 (W (main_arg4 : DevRef τ sig)) := by
  after_results
  rfl

/-- The first linear map, as the formula. -/
theorem val_main_v22 (W : Valuation τ sig (Elt Ideal)) :
    cur2 (after (opsL0a (F := Ideal)) W (main_v22 : DevRef τ sig))
      = Spec.z1 (cur2 (W (main_arg0 : DevRef τ sig))) (cur2 (refAgg W (W (main_arg0 : DevRef τ sig)))) (refP W lyr_main_v78) := by
  rw [read_main_v22, tZ1_val refWit _ lyr_main_v78.isLt]
  rfl
theorem val_main_v24 (W : Valuation τ sig (Elt Ideal)) :
    cur1 (after (opsL0a (F := Ideal)) W (main_v24 : DevRef τ sig)) = sl2 (W (main_arg3 : DevRef τ sig)) lyr_main_v78 := by
  rw [read_main_v24, cur1_tB _ lyr_main_v78.isLt]
theorem val_main_v26 (W : Valuation τ sig (Elt Ideal)) :
    cur1 (after (opsL0a (F := Ideal)) W (main_v26 : DevRef τ sig)) = sl2 (W (main_arg4 : DevRef τ sig)) lyr_main_v78 := by
  rw [read_main_v26, cur1_tB _ lyr_main_v78.isLt]

end Cert.ReferenceIdeal.Hand

end
-- ==== Proof.Ref.ValL0b.lean ====
/-
  The second stretch of a layer of the reference, read as terms of what the first stretch left: the first
  normalisation and rectifier of the first linear map's output multiplied by the second weight matrix, and the
  second bias as a row.
-/
import proofs.«422260_j36421322670663_2_alg».proof.Proof.Ref.ValL0a

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The product of the normalised, rectified first linear map with the layer's second weight matrix. -/
theorem read_main_v49 (V : Valuation τ sig (Elt Ideal)) :
    after (opsL0b (F := Ideal)) V (main_v49 : DevRef τ sig)
      = tDot dot_S50000x128_S128x128_S50000x128_1_0_0_1_n_n_wf
          (tAct refWit (V (main_v22 : DevRef τ sig)) (V (main_v24 : DevRef τ sig)) (V (main_v26 : DevRef τ sig)))
          (tW lyr_main_v78.val slices_S5x128x128_S1x128x128_0_0_0 shapeCasts_S1x128x128_S128x128 (V (main_arg5 : DevRef τ sig))) := by
  after_results_simp
  rfl

set_option maxHeartbeats 1600000 in
/-- The layer's second bias vector as a 1 × 128 row. -/
theorem read_main_v52 (V : Valuation τ sig (Elt Ideal)) :
    after (opsL0b (F := Ideal)) V (main_v52 : DevRef τ sig)
      = broadcastInDim S1x128 ![1] bcast_S128_S1x128_1 (tB lyr_main_v78.val slices_S5x128_S1x128_0_0 shapeCasts_S1x128_S128 (V (main_arg6 : DevRef τ sig))) := by
  after_results_simp
  rfl

end Cert.ReferenceIdeal.Hand

end
-- ==== Proof.Ref.ValL0c.lean ====
/-
  The third stretch of a layer of the reference and the layer as a whole: the second linear map's output with its
  bias, normalised and rectified, is the layer's output; through the four stretches it is the reference's layer
  formula of the layer's input features, their neighbourhood sums and the layer's slice of the weight stacks.
-/
import proofs.«422260_j36421322670663_2_alg».proof.Proof.Ref.ValL0b

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The third stretch leaves the normalised, rectified second linear map in the layer's output reference. -/
theorem read_main_v78 (V : Valuation τ sig (Elt Ideal)) :
    after (opsL0c (F := Ideal)) V (main_v78 : DevRef τ sig)
      = tAct refWit
          (addf (F := Ideal) (φ := .f32) (V (main_v49 : DevRef τ sig))
            (broadcastInDim S50000x128 ![0, 1] bcast_S1x128_S50000x128_0_1 (V (main_v52 : DevRef τ sig))))
          (tB lyr_main_v78.val slices_S5x128_S1x128_0_0 shapeCasts_S1x128_S128 (V (main_arg7 : DevRef τ sig)))
          (tB lyr_main_v78.val slices_S5x128_S1x128_0_0 shapeCasts_S1x128_S128 (V (main_arg8 : DevRef τ sig))) := by
  after_results_simp
  rfl

set_option maxHeartbeats 1600000 in
/-- The last stretch does not write the layer's output reference. -/
theorem keep_main_v78 (V : Valuation τ sig (Elt Ideal)) :
    after (opsL0d (F := Ideal)) V (main_v78 : DevRef τ sig) = V (main_v78 : DevRef τ sig) := by
  after_results

/-- The layer's four stretches leave the layer's term in the output reference. -/
theorem readL_main_v78 (W : Valuation τ sig (Elt Ideal)) :
    after (opsL0 (F := Ideal)) W (main_v78 : DevRef τ sig)
      = tH refWit lyr_main_v78.val slices_S5x128x128_S1x128x128_0_0_0 slices_S5x128_S1x128_0_0 (W (main_arg0 : DevRef τ sig)) (refAgg W (W (main_arg0 : DevRef τ sig)))
          (W (main_arg1 : DevRef τ sig)) (W (main_arg2 : DevRef τ sig)) (W (main_arg3 : DevRef τ sig)) (W (main_arg4 : DevRef τ sig))
          (W (main_arg5 : DevRef τ sig)) (W (main_arg6 : DevRef τ sig)) (W (main_arg7 : DevRef τ sig)) (W (main_arg8 : DevRef τ sig)) := by
  show after (opsL0a ++ opsL0b ++ opsL0c ++ opsL0d) W _ = _
  rw [after_app, after_app, after_app, keep_main_v78, read_main_v78, read_main_v49, read_main_v52,
    read_main_v22, read_main_v24, read_main_v26,
    keep_arg opsL0b_ok _ (r := main_arg7) rfl, keep_arg opsL0a_ok _ (r := main_arg7) rfl,
    keep_arg opsL0b_ok _ (r := main_arg8) rfl, keep_arg opsL0a_ok _ (r := main_arg8) rfl,
    keep_arg opsL0a_ok _ (r := main_arg5) rfl, keep_arg opsL0a_ok _ (r := main_arg6) rfl]
  rfl

/-- The layer's output features, as the formula. -/
theorem val_main_v78 (W : Valuation τ sig (Elt Ideal)) :
    cur2 (after (opsL0 (F := Ideal)) W (main_v78 : DevRef τ sig))
      = Spec.rh (cur2 (W (main_arg0 : DevRef τ sig))) (cur2 (refAgg W (W (main_arg0 : DevRef τ sig)))) (refP W lyr_main_v78) := by
  rw [readL_main_v78, tH_val refWit _ lyr_main_v78.isLt]

end Cert.ReferenceIdeal.Hand

end
-- ==== Proof.Ref.ValPool.lean ====
/-
  The pooling as the reference spells it, read as a formula: the rows of a 50000 × 128 array added into a zero
  256 × 128 array at the rows named by a column made of a vector of signed graph numbers; entry (g, c) is the sum
  of the entries (r, c) over the rows r whose graph number is g.
-/
import Idealize.ShloMosaic.PureOps.Ideal.Laws
import Idealize.ShloMosaic.Lib.ValueIdx
import Idealize.ShloMosaic.Lib.Pipeline.Value
import proofs.«422260_j36421322670663_2_alg».proof.Proof.Math.Scatter

noncomputable section

namespace Cert.ReferenceIdeal.Hand

open Idealize.ShloMosaic Idealize.ShloMosaic.ValueIdx Cert.Spec

abbrev TP : Shape := ⟨2, ![256, 128]⟩
abbrev TI : Shape := ⟨2, ![50000, 1]⟩
abbrev TU : Shape := ⟨2, ![50000, 128]⟩
abbrev TG : Shape := ⟨1, ![50000]⟩
abbrev TZ : Shape := ⟨0, ![]⟩

/-- The graph numbers laid out as a 50000 × 1 column: entry (r, 0) is entry r. -/
theorem col_apply (wi : TG.BroadcastsInDim TI (![0] : Fin 1 → Fin TI.rank)) (bw : TG.Idx → BitVec 32) (r : Fin 50000) :
    broadcastInDim TI ![0] wi bw (ix2 r (0 : Fin 1)) = bw (ix1 r) := by
  refine broadcastInDim_apply ![0] wi bw (ix2 r (0 : Fin 1)) (ix1 r) (fun a => ?_)
  match a with
  | ⟨0, _⟩ => rfl

/-- The array the rows are added into holds the real zero everywhere. -/
theorem zeros_apply (wz : TZ.BroadcastsInDim TP (![] : Fin 0 → Fin TP.rank)) (i : TP.Idx) :
    broadcastInDim TP ![] wz (constant (F := Ideal) TZ .f32 0x00000000#32) i = 0 := by
  show Ideal.ofBits .f32 0x00000000#32 = 0
  exact Idealize.ShloMosaic.Ideal.ofBits_zero_f32

/-- The accumulating scatter of the program, entry by entry the sum over the graph's nodes. -/
theorem pool_val (d : ScatterDims TP TI TU) (h1 : d.updateWindowDims = [1]) (h2 : d.insertedWindowDims = [0])
    (h3 : d.scatterDimsToOperandDims = [0]) (h4 : d.indexVectorDim = 1)
    (wz : TZ.BroadcastsInDim TP (![] : Fin 0 → Fin TP.rank)) (wi : TG.BroadcastsInDim TI (![0] : Fin 1 → Fin TI.rank))
    (bw : TG.Idx → BitVec 32) (upd : TU.Idx → EReal) :
    cur2 (Host.scatterAdd (F := Ideal) (φ := .f32) d (broadcastInDim TP ![] wz (constant (F := Ideal) TZ .f32 0x00000000#32))
        (broadcastInDim TI ![0] wi bw) upd)
      = poolR (fun r => bw (ix1 r)) (cur2 upd) := by
  funext g c
  show Ideal.hostScatterAdd d (broadcastInDim TP ![] wz (constant (F := Ideal) TZ .f32 0x00000000#32))
      (broadcastInDim TI ![0] wi bw) upd (ix2 g c) = _
  rw [pool_scatter d h1 h2 h3 h4 (broadcastInDim TI ![0] wi bw) upd _ (zeros_apply wz) g c]
  exact congrArg (fun b => poolR b (cur2 upd) g c) (funext fun r => col_apply wi bw r)

end Cert.ReferenceIdeal.Hand

end
-- ==== Proof.Ref.ValL0d.lean ====
/-
  The last stretch of a layer of the reference: the rows of the layer's output features added into a zero array at
  the row each node's graph number names; at one entry it is the sum over the nodes of that graph.
-/
import proofs.«422260_j36421322670663_2_alg».proof.Proof.Ref.ValL0c
import proofs.«422260_j36421322670663_2_alg».proof.Proof.Ref.ValPool

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The stretch leaves the accumulating scatter's term in the pooled reference. -/
theorem read_main_v81 (V : Valuation τ sig (Elt Ideal)) :
    after (opsL0d (F := Ideal)) V (main_v81 : DevRef τ sig)
      = Host.scatterAdd (F := Ideal) (φ := .f32) scatter_S256x128_S50000x1_S50000x128_1_0_0_1
          (broadcastInDim S256x128 ![] bcast_S_S256x128 (constant (F := Ideal) S_ .f32 0x00000000#32))
          (broadcastInDim S50000x1 ![0] bcast_S50000_S50000x1_0 (V (main_arg14 : DevRef τ sig))) (V (main_v78 : DevRef τ sig)) := by
  after_results

/-- The layer's pooled array: per graph, the sum of the layer's output rows of that graph's nodes. -/
theorem val_main_v81 (W : Valuation τ sig (Elt Ideal)) :
    cur2 (after (opsL0 (F := Ideal)) W (main_v81 : DevRef τ sig))
      = Spec.poolR (fun r => W (main_arg14 : DevRef τ sig) (ValueIdx.ix1 r)) (cur2 (after (opsL0 (F := Ideal)) W (main_v78 : DevRef τ sig))) := by
  have e156 : after (opsL0 (F := Ideal)) W (main_v78 : DevRef τ sig)
      = after (opsL0c (F := Ideal)) (after opsL0b (after opsL0a W)) (main_v78 : DevRef τ sig) := by
    show after (opsL0a ++ opsL0b ++ opsL0c ++ opsL0d) W _ = _
    rw [after_app, after_app, after_app, keep_main_v78]
  have e159 : after (opsL0 (F := Ideal)) W (main_v81 : DevRef τ sig)
      = Host.scatterAdd (F := Ideal) (φ := .f32) scatter_S256x128_S50000x1_S50000x128_1_0_0_1
          (broadcastInDim S256x128 ![] bcast_S_S256x128 (constant (F := Ideal) S_ .f32 0x00000000#32))
          (broadcastInDim S50000x1 ![0] bcast_S50000_S50000x1_0 (W (main_arg14 : DevRef τ sig)))
          (after (opsL0c (F := Ideal)) (after opsL0b (after opsL0a W)) (main_v78 : DevRef τ sig)) := by
    show after (opsL0a ++ opsL0b ++ opsL0c ++ opsL0d) W _ = _
    rw [after_app, after_app, after_app, read_main_v81, keep_arg opsL0c_ok _ (r := main_arg14) rfl,
      keep_arg opsL0b_ok _ (r := main_arg14) rfl, keep_arg opsL0a_ok _ (r := main_arg14) rfl]
  rw [e156, e159]
  exact pool_val scatter_S256x128_S50000x1_S50000x128_1_0_0_1 rfl rfl rfl rfl bcast_S_S256x128 bcast_S50000_S50000x1_0
    (W (main_arg14 : DevRef τ sig)) _

end Cert.ReferenceIdeal.Hand

end
-- ==== Proof.Ref.ValL1a.lean ====
/-
  The first stretch of a layer of the reference, read as formulas: the first linear map of the features plus their
  neighbourhood sums, and the first normalisation's scale and shift vectors.
-/
import proofs.«422260_j36421322670663_2_alg».proof.Proof.Ref.Ops1
import proofs.«422260_j36421322670663_2_alg».proof.Proof.Ref.ValLib

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

/-- The layer's number among the five slices of each weight stack. -/
abbrev lyr_main_v156 : Fin 5 := ⟨1, by decide⟩

set_option maxHeartbeats 1600000 in
/-- The stretch leaves in the first linear map's reference the linear map's term over the features plus their
    neighbourhood sums. -/
theorem read_main_v100 (W : Valuation τ sig (Elt Ideal)) :
    after (opsL1a (F := Ideal)) W (main_v100 : DevRef τ sig)
      = tZ1 refWit lyr_main_v156.val slices_S5x128x128_S1x128x128_1_0_0 slices_S5x128_S1x128_1_0 (W (main_v78 : DevRef τ sig)) (refAgg W (W (main_v78 : DevRef τ sig)))
          (W (main_arg1 : DevRef τ sig)) (W (main_arg2 : DevRef τ sig)) := by
  after_results
  rfl

set_option maxHeartbeats 1600000 in
/-- … and in the scale and the shift reference the layer's row of their stacks. -/
theorem read_main_v102 (W : Valuation τ sig (Elt Ideal)) :
    after (opsL1a (F := Ideal)) W (main_v102 : DevRef τ sig) = tB lyr_main_v156.val slices_S5x128_S1x128_1_0 shapeCasts_S1x128_S128 (W (main_arg3 : DevRef τ sig)) := by
  after_results
  rfl
set_option maxHeartbeats 1600000 in
theorem read_main_v104 (W : Valuation τ sig (Elt Ideal)) :
    after (opsL1a (F := Ideal)) W (main_v104 : DevRef τ sig) = tB lyr_main_v156.val slices_S5x128_S1x128_1_0 shapeCasts_S1x128_S128 (W (main_arg4 : DevRef τ sig)) := by
  after_results
  rfl

/-- The first linear map, as the formula. -/
theorem val_main_v100 (W : Valuation τ sig (Elt Ideal)) :
    cur2 (after (opsL1a (F := Ideal)) W (main_v100 : DevRef τ sig))
      = Spec.z1 (cur2 (W (main_v78 : DevRef τ sig))) (cur2 (refAgg W (W (main_v78 : DevRef τ sig)))) (refP W lyr_main_v156) := by
  rw [read_main_v100, tZ1_val refWit _ lyr_main_v156.isLt]
  rfl
theorem val_main_v102 (W : Valuation τ sig (Elt Ideal)) :
    cur1 (after (opsL1a (F := Ideal)) W (main_v102 : DevRef τ sig)) = sl2 (W (main_arg3 : DevRef τ sig)) lyr_main_v156 := by
  rw [read_main_v102, cur1_tB _ lyr_main_v156.isLt]
theorem val_main_v104 (W : Valuation τ sig (Elt Ideal)) :
    cur1 (after (opsL1a (F := Ideal)) W (main_v104 : DevRef τ sig)) = sl2 (W (main_arg4 : DevRef τ sig)) lyr_main_v156 := by
  rw [read_main_v104, cur1_tB _ lyr_main_v156.isLt]

end Cert.ReferenceIdeal.Hand

end
-- ==== Proof.Ref.ValL1b.lean ====
/-
  The second stretch of a layer of the reference, read as terms of what the first stretch left: the first
  normalisation and rectifier of the first linear map's output multiplied by the second weight matrix, and the
  second bias as a row.
-/
import proofs.«422260_j36421322670663_2_alg».proof.Proof.Ref.ValL1a

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The product of the normalised, rectified first linear map with the layer's second weight matrix. -/
theorem read_main_v127 (V : Valuation τ sig (Elt Ideal)) :
    after (opsL1b (F := Ideal)) V (main_v127 : DevRef τ sig)
      = tDot dot_S50000x128_S128x128_S50000x128_1_0_0_1_n_n_wf
          (tAct refWit (V (main_v100 : DevRef τ sig)) (V (main_v102 : DevRef τ sig)) (V (main_v104 : DevRef τ sig)))
          (tW lyr_main_v156.val slices_S5x128x128_S1x128x128_1_0_0 shapeCasts_S1x128x128_S128x128 (V (main_arg5 : DevRef τ sig))) := by
  after_results_simp
  rfl

set_option maxHeartbeats 1600000 in
/-- The layer's second bias vector as a 1 × 128 row. -/
theorem read_main_v130 (V : Valuation τ sig (Elt Ideal)) :
    after (opsL1b (F := Ideal)) V (main_v130 : DevRef τ sig)
      = broadcastInDim S1x128 ![1] bcast_S128_S1x128_1 (tB lyr_main_v156.val slices_S5x128_S1x128_1_0 shapeCasts_S1x128_S128 (V (main_arg6 : DevRef τ sig))) := by
  after_results_simp
  rfl

end Cert.ReferenceIdeal.Hand

end
-- ==== Proof.Ref.ValL1c.lean ====
/-
  The third stretch of a layer of the reference and the layer as a whole: the second linear map's output with its
  bias, normalised and rectified, is the layer's output; through the four stretches it is the reference's layer
  formula of the layer's input features, their neighbourhood sums and the layer's slice of the weight stacks.
-/
import proofs.«422260_j36421322670663_2_alg».proof.Proof.Ref.ValL1b

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The third stretch leaves the normalised, rectified second linear map in the layer's output reference. -/
theorem read_main_v156 (V : Valuation τ sig (Elt Ideal)) :
    after (opsL1c (F := Ideal)) V (main_v156 : DevRef τ sig)
      = tAct refWit
          (addf (F := Ideal) (φ := .f32) (V (main_v127 : DevRef τ sig))
            (broadcastInDim S50000x128 ![0, 1] bcast_S1x128_S50000x128_0_1 (V (main_v130 : DevRef τ sig))))
          (tB lyr_main_v156.val slices_S5x128_S1x128_1_0 shapeCasts_S1x128_S128 (V (main_arg7 : DevRef τ sig)))
          (tB lyr_main_v156.val slices_S5x128_S1x128_1_0 shapeCasts_S1x128_S128 (V (main_arg8 : DevRef τ sig))) := by
  after_results_simp
  rfl

set_option maxHeartbeats 1600000 in
/-- The last stretch does not write the layer's output reference. -/
theorem keep_main_v156 (V : Valuation τ sig (Elt Ideal)) :
    after (opsL1d (F := Ideal)) V (main_v156 : DevRef τ sig) = V (main_v156 : DevRef τ sig) := by
  after_results

/-- The layer's four stretches leave the layer's term in the output reference. -/
theorem readL_main_v156 (W : Valuation τ sig (Elt Ideal)) :
    after (opsL1 (F := Ideal)) W (main_v156 : DevRef τ sig)
      = tH refWit lyr_main_v156.val slices_S5x128x128_S1x128x128_1_0_0 slices_S5x128_S1x128_1_0 (W (main_v78 : DevRef τ sig)) (refAgg W (W (main_v78 : DevRef τ sig)))
          (W (main_arg1 : DevRef τ sig)) (W (main_arg2 : DevRef τ sig)) (W (main_arg3 : DevRef τ sig)) (W (main_arg4 : DevRef τ sig))
          (W (main_arg5 : DevRef τ sig)) (W (main_arg6 : DevRef τ sig)) (W (main_arg7 : DevRef τ sig)) (W (main_arg8 : DevRef τ sig)) := by
  show after (opsL1a ++ opsL1b ++ opsL1c ++ opsL1d) W _ = _
  rw [after_app, after_app, after_app, keep_main_v156, read_main_v156, read_main_v127, read_main_v130,
    read_main_v100, read_main_v102, read_main_v104,
    keep_arg opsL1b_ok _ (r := main_arg7) rfl, keep_arg opsL1a_ok _ (r := main_arg7) rfl,
    keep_arg opsL1b_ok _ (r := main_arg8) rfl, keep_arg opsL1a_ok _ (r := main_arg8) rfl,
    keep_arg opsL1a_ok _ (r := main_arg5) rfl, keep_arg opsL1a_ok _ (r := main_arg6) rfl]
  rfl

/-- The layer's output features, as the formula. -/
theorem val_main_v156 (W : Valuation τ sig (Elt Ideal)) :
    cur2 (after (opsL1 (F := Ideal)) W (main_v156 : DevRef τ sig))
      = Spec.rh (cur2 (W (main_v78 : DevRef τ sig))) (cur2 (refAgg W (W (main_v78 : DevRef τ sig)))) (refP W lyr_main_v156) := by
  rw [readL_main_v156, tH_val refWit _ lyr_main_v156.isLt]

end Cert.ReferenceIdeal.Hand

end
-- ==== Proof.Ref.ValL1d.lean ====
/-
  The last stretch of a layer of the reference: the rows of the layer's output features added into a zero array at
  the row each node's graph number names; at one entry it is the sum over the nodes of that graph.
-/
import proofs.«422260_j36421322670663_2_alg».proof.Proof.Ref.ValL1c
import proofs.«422260_j36421322670663_2_alg».proof.Proof.Ref.ValPool

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The stretch leaves the accumulating scatter's term in the pooled reference. -/
theorem read_main_v159 (V : Valuation τ sig (Elt Ideal)) :
    after (opsL1d (F := Ideal)) V (main_v159 : DevRef τ sig)
      = Host.scatterAdd (F := Ideal) (φ := .f32) scatter_S256x128_S50000x1_S50000x128_1_0_0_1
          (broadcastInDim S256x128 ![] bcast_S_S256x128 (constant (F := Ideal) S_ .f32 0x00000000#32))
          (broadcastInDim S50000x1 ![0] bcast_S50000_S50000x1_0 (V (main_arg14 : DevRef τ sig))) (V (main_v156 : DevRef τ sig)) := by
  after_results

/-- The layer's pooled array: per graph, the sum of the layer's output rows of that graph's nodes. -/
theorem val_main_v159 (W : Valuation τ sig (Elt Ideal)) :
    cur2 (after (opsL1 (F := Ideal)) W (main_v159 : DevRef τ sig))
      = Spec.poolR (fun r => W (main_arg14 : DevRef τ sig) (ValueIdx.ix1 r)) (cur2 (after (opsL1 (F := Ideal)) W (main_v156 : DevRef τ sig))) := by
  have e156 : after (opsL1 (F := Ideal)) W (main_v156 : DevRef τ sig)
      = after (opsL1c (F := Ideal)) (after opsL1b (after opsL1a W)) (main_v156 : DevRef τ sig) := by
    show after (opsL1a ++ opsL1b ++ opsL1c ++ opsL1d) W _ = _
    rw [after_app, after_app, after_app, keep_main_v156]
  have e159 : after (opsL1 (F := Ideal)) W (main_v159 : DevRef τ sig)
      = Host.scatterAdd (F := Ideal) (φ := .f32) scatter_S256x128_S50000x1_S50000x128_1_0_0_1
          (broadcastInDim S256x128 ![] bcast_S_S256x128 (constant (F := Ideal) S_ .f32 0x00000000#32))
          (broadcastInDim S50000x1 ![0] bcast_S50000_S50000x1_0 (W (main_arg14 : DevRef τ sig)))
          (after (opsL1c (F := Ideal)) (after opsL1b (after opsL1a W)) (main_v156 : DevRef τ sig)) := by
    show after (opsL1a ++ opsL1b ++ opsL1c ++ opsL1d) W _ = _
    rw [after_app, after_app, after_app, read_main_v159, keep_arg opsL1c_ok _ (r := main_arg14) rfl,
      keep_arg opsL1b_ok _ (r := main_arg14) rfl, keep_arg opsL1a_ok _ (r := main_arg14) rfl]
  rw [e156, e159]
  exact pool_val scatter_S256x128_S50000x1_S50000x128_1_0_0_1 rfl rfl rfl rfl bcast_S_S256x128 bcast_S50000_S50000x1_0
    (W (main_arg14 : DevRef τ sig)) _

end Cert.ReferenceIdeal.Hand

end
-- ==== Proof.Ref.ValL2a.lean ====
/-
  The first stretch of a layer of the reference, read as formulas: the first linear map of the features plus their
  neighbourhood sums, and the first normalisation's scale and shift vectors.
-/
import proofs.«422260_j36421322670663_2_alg».proof.Proof.Ref.Ops2
import proofs.«422260_j36421322670663_2_alg».proof.Proof.Ref.ValLib

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

/-- The layer's number among the five slices of each weight stack. -/
abbrev lyr_main_v234 : Fin 5 := ⟨2, by decide⟩

set_option maxHeartbeats 1600000 in
/-- The stretch leaves in the first linear map's reference the linear map's term over the features plus their
    neighbourhood sums. -/
theorem read_main_v178 (W : Valuation τ sig (Elt Ideal)) :
    after (opsL2a (F := Ideal)) W (main_v178 : DevRef τ sig)
      = tZ1 refWit lyr_main_v234.val slices_S5x128x128_S1x128x128_2_0_0 slices_S5x128_S1x128_2_0 (W (main_v156 : DevRef τ sig)) (refAgg W (W (main_v156 : DevRef τ sig)))
          (W (main_arg1 : DevRef τ sig)) (W (main_arg2 : DevRef τ sig)) := by
  after_results
  rfl

set_option maxHeartbeats 1600000 in
/-- … and in the scale and the shift reference the layer's row of their stacks. -/
theorem read_main_v180 (W : Valuation τ sig (Elt Ideal)) :
    after (opsL2a (F := Ideal)) W (main_v180 : DevRef τ sig) = tB lyr_main_v234.val slices_S5x128_S1x128_2_0 shapeCasts_S1x128_S128 (W (main_arg3 : DevRef τ sig)) := by
  after_results
  rfl
set_option maxHeartbeats 1600000 in
theorem read_main_v182 (W : Valuation τ sig (Elt Ideal)) :
    after (opsL2a (F := Ideal)) W (main_v182 : DevRef τ sig) = tB lyr_main_v234.val slices_S5x128_S1x128_2_0 shapeCasts_S1x128_S128 (W (main_arg4 : DevRef τ sig)) := by
  after_results
  rfl

/-- The first linear map, as the formula. -/
theorem val_main_v178 (W : Valuation τ sig (Elt Ideal)) :
    cur2 (after (opsL2a (F := Ideal)) W (main_v178 : DevRef τ sig))
      = Spec.z1 (cur2 (W (main_v156 : DevRef τ sig))) (cur2 (refAgg W (W (main_v156 : DevRef τ sig)))) (refP W lyr_main_v234) := by
  rw [read_main_v178, tZ1_val refWit _ lyr_main_v234.isLt]
  rfl
theorem val_main_v180 (W : Valuation τ sig (Elt Ideal)) :
    cur1 (after (opsL2a (F := Ideal)) W (main_v180 : DevRef τ sig)) = sl2 (W (main_arg3 : DevRef τ sig)) lyr_main_v234 := by
  rw [read_main_v180, cur1_tB _ lyr_main_v234.isLt]
theorem val_main_v182 (W : Valuation τ sig (Elt Ideal)) :
    cur1 (after (opsL2a (F := Ideal)) W (main_v182 : DevRef τ sig)) = sl2 (W (main_arg4 : DevRef τ sig)) lyr_main_v234 := by
  rw [read_main_v182, cur1_tB _ lyr_main_v234.isLt]

end Cert.ReferenceIdeal.Hand

end
-- ==== Proof.Ref.ValL2b.lean ====
/-
  The second stretch of a layer of the reference, read as terms of what the first stretch left: the first
  normalisation and rectifier of the first linear map's output multiplied by the second weight matrix, and the
  second bias as a row.
-/
import proofs.«422260_j36421322670663_2_alg».proof.Proof.Ref.ValL2a

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The product of the normalised, rectified first linear map with the layer's second weight matrix. -/
theorem read_main_v205 (V : Valuation τ sig (Elt Ideal)) :
    after (opsL2b (F := Ideal)) V (main_v205 : DevRef τ sig)
      = tDot dot_S50000x128_S128x128_S50000x128_1_0_0_1_n_n_wf
          (tAct refWit (V (main_v178 : DevRef τ sig)) (V (main_v180 : DevRef τ sig)) (V (main_v182 : DevRef τ sig)))
          (tW lyr_main_v234.val slices_S5x128x128_S1x128x128_2_0_0 shapeCasts_S1x128x128_S128x128 (V (main_arg5 : DevRef τ sig))) := by
  after_results_simp
  rfl

set_option maxHeartbeats 1600000 in
/-- The layer's second bias vector as a 1 × 128 row. -/
theorem read_main_v208 (V : Valuation τ sig (Elt Ideal)) :
    after (opsL2b (F := Ideal)) V (main_v208 : DevRef τ sig)
      = broadcastInDim S1x128 ![1] bcast_S128_S1x128_1 (tB lyr_main_v234.val slices_S5x128_S1x128_2_0 shapeCasts_S1x128_S128 (V (main_arg6 : DevRef τ sig))) := by
  after_results_simp
  rfl

end Cert.ReferenceIdeal.Hand

end
-- ==== Proof.Ref.ValL2c.lean ====
/-
  The third stretch of a layer of the reference and the layer as a whole: the second linear map's output with its
  bias, normalised and rectified, is the layer's output; through the four stretches it is the reference's layer
  formula of the layer's input features, their neighbourhood sums and the layer's slice of the weight stacks.
-/
import proofs.«422260_j36421322670663_2_alg».proof.Proof.Ref.ValL2b

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The third stretch leaves the normalised, rectified second linear map in the layer's output reference. -/
theorem read_main_v234 (V : Valuation τ sig (Elt Ideal)) :
    after (opsL2c (F := Ideal)) V (main_v234 : DevRef τ sig)
      = tAct refWit
          (addf (F := Ideal) (φ := .f32) (V (main_v205 : DevRef τ sig))
            (broadcastInDim S50000x128 ![0, 1] bcast_S1x128_S50000x128_0_1 (V (main_v208 : DevRef τ sig))))
          (tB lyr_main_v234.val slices_S5x128_S1x128_2_0 shapeCasts_S1x128_S128 (V (main_arg7 : DevRef τ sig)))
          (tB lyr_main_v234.val slices_S5x128_S1x128_2_0 shapeCasts_S1x128_S128 (V (main_arg8 : DevRef τ sig))) := by
  after_results_simp
  rfl

set_option maxHeartbeats 1600000 in
/-- The last stretch does not write the layer's output reference. -/
theorem keep_main_v234 (V : Valuation τ sig (Elt Ideal)) :
    after (opsL2d (F := Ideal)) V (main_v234 : DevRef τ sig) = V (main_v234 : DevRef τ sig) := by
  after_results

/-- The layer's four stretches leave the layer's term in the output reference. -/
theorem readL_main_v234 (W : Valuation τ sig (Elt Ideal)) :
    after (opsL2 (F := Ideal)) W (main_v234 : DevRef τ sig)
      = tH refWit lyr_main_v234.val slices_S5x128x128_S1x128x128_2_0_0 slices_S5x128_S1x128_2_0 (W (main_v156 : DevRef τ sig)) (refAgg W (W (main_v156 : DevRef τ sig)))
          (W (main_arg1 : DevRef τ sig)) (W (main_arg2 : DevRef τ sig)) (W (main_arg3 : DevRef τ sig)) (W (main_arg4 : DevRef τ sig))
          (W (main_arg5 : DevRef τ sig)) (W (main_arg6 : DevRef τ sig)) (W (main_arg7 : DevRef τ sig)) (W (main_arg8 : DevRef τ sig)) := by
  show after (opsL2a ++ opsL2b ++ opsL2c ++ opsL2d) W _ = _
  rw [after_app, after_app, after_app, keep_main_v234, read_main_v234, read_main_v205, read_main_v208,
    read_main_v178, read_main_v180, read_main_v182,
    keep_arg opsL2b_ok _ (r := main_arg7) rfl, keep_arg opsL2a_ok _ (r := main_arg7) rfl,
    keep_arg opsL2b_ok _ (r := main_arg8) rfl, keep_arg opsL2a_ok _ (r := main_arg8) rfl,
    keep_arg opsL2a_ok _ (r := main_arg5) rfl, keep_arg opsL2a_ok _ (r := main_arg6) rfl]
  rfl

/-- The layer's output features, as the formula. -/
theorem val_main_v234 (W : Valuation τ sig (Elt Ideal)) :
    cur2 (after (opsL2 (F := Ideal)) W (main_v234 : DevRef τ sig))
      = Spec.rh (cur2 (W (main_v156 : DevRef τ sig))) (cur2 (refAgg W (W (main_v156 : DevRef τ sig)))) (refP W lyr_main_v234) := by
  rw [readL_main_v234, tH_val refWit _ lyr_main_v234.isLt]

end Cert.ReferenceIdeal.Hand

end
-- ==== Proof.Ref.ValL2d.lean ====
/-
  The last stretch of a layer of the reference: the rows of the layer's output features added into a zero array at
  the row each node's graph number names; at one entry it is the sum over the nodes of that graph.
-/
import proofs.«422260_j36421322670663_2_alg».proof.Proof.Ref.ValL2c
import proofs.«422260_j36421322670663_2_alg».proof.Proof.Ref.ValPool

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The stretch leaves the accumulating scatter's term in the pooled reference. -/
theorem read_main_v237 (V : Valuation τ sig (Elt Ideal)) :
    after (opsL2d (F := Ideal)) V (main_v237 : DevRef τ sig)
      = Host.scatterAdd (F := Ideal) (φ := .f32) scatter_S256x128_S50000x1_S50000x128_1_0_0_1
          (broadcastInDim S256x128 ![] bcast_S_S256x128 (constant (F := Ideal) S_ .f32 0x00000000#32))
          (broadcastInDim S50000x1 ![0] bcast_S50000_S50000x1_0 (V (main_arg14 : DevRef τ sig))) (V (main_v234 : DevRef τ sig)) := by
  after_results

/-- The layer's pooled array: per graph, the sum of the layer's output rows of that graph's nodes. -/
theorem val_main_v237 (W : Valuation τ sig (Elt Ideal)) :
    cur2 (after (opsL2 (F := Ideal)) W (main_v237 : DevRef τ sig))
      = Spec.poolR (fun r => W (main_arg14 : DevRef τ sig) (ValueIdx.ix1 r)) (cur2 (after (opsL2 (F := Ideal)) W (main_v234 : DevRef τ sig))) := by
  have e156 : after (opsL2 (F := Ideal)) W (main_v234 : DevRef τ sig)
      = after (opsL2c (F := Ideal)) (after opsL2b (after opsL2a W)) (main_v234 : DevRef τ sig) := by
    show after (opsL2a ++ opsL2b ++ opsL2c ++ opsL2d) W _ = _
    rw [after_app, after_app, after_app, keep_main_v234]
  have e159 : after (opsL2 (F := Ideal)) W (main_v237 : DevRef τ sig)
      = Host.scatterAdd (F := Ideal) (φ := .f32) scatter_S256x128_S50000x1_S50000x128_1_0_0_1
          (broadcastInDim S256x128 ![] bcast_S_S256x128 (constant (F := Ideal) S_ .f32 0x00000000#32))
          (broadcastInDim S50000x1 ![0] bcast_S50000_S50000x1_0 (W (main_arg14 : DevRef τ sig)))
          (after (opsL2c (F := Ideal)) (after opsL2b (after opsL2a W)) (main_v234 : DevRef τ sig)) := by
    show after (opsL2a ++ opsL2b ++ opsL2c ++ opsL2d) W _ = _
    rw [after_app, after_app, after_app, read_main_v237, keep_arg opsL2c_ok _ (r := main_arg14) rfl,
      keep_arg opsL2b_ok _ (r := main_arg14) rfl, keep_arg opsL2a_ok _ (r := main_arg14) rfl]
  rw [e156, e159]
  exact pool_val scatter_S256x128_S50000x1_S50000x128_1_0_0_1 rfl rfl rfl rfl bcast_S_S256x128 bcast_S50000_S50000x1_0
    (W (main_arg14 : DevRef τ sig)) _

end Cert.ReferenceIdeal.Hand

end
-- ==== Proof.Ref.ValL3a.lean ====
/-
  The first stretch of a layer of the reference, read as formulas: the first linear map of the features plus their
  neighbourhood sums, and the first normalisation's scale and shift vectors.
-/
import proofs.«422260_j36421322670663_2_alg».proof.Proof.Ref.Ops3
import proofs.«422260_j36421322670663_2_alg».proof.Proof.Ref.ValLib

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

/-- The layer's number among the five slices of each weight stack. -/
abbrev lyr_main_v312 : Fin 5 := ⟨3, by decide⟩

set_option maxHeartbeats 1600000 in
/-- The stretch leaves in the first linear map's reference the linear map's term over the features plus their
    neighbourhood sums. -/
theorem read_main_v256 (W : Valuation τ sig (Elt Ideal)) :
    after (opsL3a (F := Ideal)) W (main_v256 : DevRef τ sig)
      = tZ1 refWit lyr_main_v312.val slices_S5x128x128_S1x128x128_3_0_0 slices_S5x128_S1x128_3_0 (W (main_v234 : DevRef τ sig)) (refAgg W (W (main_v234 : DevRef τ sig)))
          (W (main_arg1 : DevRef τ sig)) (W (main_arg2 : DevRef τ sig)) := by
  after_results
  rfl

set_option maxHeartbeats 1600000 in
/-- … and in the scale and the shift reference the layer's row of their stacks. -/
theorem read_main_v258 (W : Valuation τ sig (Elt Ideal)) :
    after (opsL3a (F := Ideal)) W (main_v258 : DevRef τ sig) = tB lyr_main_v312.val slices_S5x128_S1x128_3_0 shapeCasts_S1x128_S128 (W (main_arg3 : DevRef τ sig)) := by
  after_results
  rfl
set_option maxHeartbeats 1600000 in
theorem read_main_v260 (W : Valuation τ sig (Elt Ideal)) :
    after (opsL3a (F := Ideal)) W (main_v260 : DevRef τ sig) = tB lyr_main_v312.val slices_S5x128_S1x128_3_0 shapeCasts_S1x128_S128 (W (main_arg4 : DevRef τ sig)) := by
  after_results
  rfl

/-- The first linear map, as the formula. -/
theorem val_main_v256 (W : Valuation τ sig (Elt Ideal)) :
    cur2 (after (opsL3a (F := Ideal)) W (main_v256 : DevRef τ sig))
      = Spec.z1 (cur2 (W (main_v234 : DevRef τ sig))) (cur2 (refAgg W (W (main_v234 : DevRef τ sig)))) (refP W lyr_main_v312) := by
  rw [read_main_v256, tZ1_val refWit _ lyr_main_v312.isLt]
  rfl
theorem val_main_v258 (W : Valuation τ sig (Elt Ideal)) :
    cur1 (after (opsL3a (F := Ideal)) W (main_v258 : DevRef τ sig)) = sl2 (W (main_arg3 : DevRef τ sig)) lyr_main_v312 := by
  rw [read_main_v258, cur1_tB _ lyr_main_v312.isLt]
theorem val_main_v260 (W : Valuation τ sig (Elt Ideal)) :
    cur1 (after (opsL3a (F := Ideal)) W (main_v260 : DevRef τ sig)) = sl2 (W (main_arg4 : DevRef τ sig)) lyr_main_v312 := by
  rw [read_main_v260, cur1_tB _ lyr_main_v312.isLt]

end Cert.ReferenceIdeal.Hand

end
-- ==== Proof.Ref.ValL3b.lean ====
/-
  The second stretch of a layer of the reference, read as terms of what the first stretch left: the first
  normalisation and rectifier of the first linear map's output multiplied by the second weight matrix, and the
  second bias as a row.
-/
import proofs.«422260_j36421322670663_2_alg».proof.Proof.Ref.ValL3a

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The product of the normalised, rectified first linear map with the layer's second weight matrix. -/
theorem read_main_v283 (V : Valuation τ sig (Elt Ideal)) :
    after (opsL3b (F := Ideal)) V (main_v283 : DevRef τ sig)
      = tDot dot_S50000x128_S128x128_S50000x128_1_0_0_1_n_n_wf
          (tAct refWit (V (main_v256 : DevRef τ sig)) (V (main_v258 : DevRef τ sig)) (V (main_v260 : DevRef τ sig)))
          (tW lyr_main_v312.val slices_S5x128x128_S1x128x128_3_0_0 shapeCasts_S1x128x128_S128x128 (V (main_arg5 : DevRef τ sig))) := by
  after_results_simp
  rfl

set_option maxHeartbeats 1600000 in
/-- The layer's second bias vector as a 1 × 128 row. -/
theorem read_main_v286 (V : Valuation τ sig (Elt Ideal)) :
    after (opsL3b (F := Ideal)) V (main_v286 : DevRef τ sig)
      = broadcastInDim S1x128 ![1] bcast_S128_S1x128_1 (tB lyr_main_v312.val slices_S5x128_S1x128_3_0 shapeCasts_S1x128_S128 (V (main_arg6 : DevRef τ sig))) := by
  after_results_simp
  rfl

end Cert.ReferenceIdeal.Hand

end
-- ==== Proof.Ref.ValL3c.lean ====
/-
  The third stretch of a layer of the reference and the layer as a whole: the second linear map's output with its
  bias, normalised and rectified, is the layer's output; through the four stretches it is the reference's layer
  formula of the layer's input features, their neighbourhood sums and the layer's slice of the weight stacks.
-/
import proofs.«422260_j36421322670663_2_alg».proof.Proof.Ref.ValL3b

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The third stretch leaves the normalised, rectified second linear map in the layer's output reference. -/
theorem read_main_v312 (V : Valuation τ sig (Elt Ideal)) :
    after (opsL3c (F := Ideal)) V (main_v312 : DevRef τ sig)
      = tAct refWit
          (addf (F := Ideal) (φ := .f32) (V (main_v283 : DevRef τ sig))
            (broadcastInDim S50000x128 ![0, 1] bcast_S1x128_S50000x128_0_1 (V (main_v286 : DevRef τ sig))))
          (tB lyr_main_v312.val slices_S5x128_S1x128_3_0 shapeCasts_S1x128_S128 (V (main_arg7 : DevRef τ sig)))
          (tB lyr_main_v312.val slices_S5x128_S1x128_3_0 shapeCasts_S1x128_S128 (V (main_arg8 : DevRef τ sig))) := by
  after_results_simp
  rfl

set_option maxHeartbeats 1600000 in
/-- The last stretch does not write the layer's output reference. -/
theorem keep_main_v312 (V : Valuation τ sig (Elt Ideal)) :
    after (opsL3d (F := Ideal)) V (main_v312 : DevRef τ sig) = V (main_v312 : DevRef τ sig) := by
  after_results

/-- The layer's four stretches leave the layer's term in the output reference. -/
theorem readL_main_v312 (W : Valuation τ sig (Elt Ideal)) :
    after (opsL3 (F := Ideal)) W (main_v312 : DevRef τ sig)
      = tH refWit lyr_main_v312.val slices_S5x128x128_S1x128x128_3_0_0 slices_S5x128_S1x128_3_0 (W (main_v234 : DevRef τ sig)) (refAgg W (W (main_v234 : DevRef τ sig)))
          (W (main_arg1 : DevRef τ sig)) (W (main_arg2 : DevRef τ sig)) (W (main_arg3 : DevRef τ sig)) (W (main_arg4 : DevRef τ sig))
          (W (main_arg5 : DevRef τ sig)) (W (main_arg6 : DevRef τ sig)) (W (main_arg7 : DevRef τ sig)) (W (main_arg8 : DevRef τ sig)) := by
  show after (opsL3a ++ opsL3b ++ opsL3c ++ opsL3d) W _ = _
  rw [after_app, after_app, after_app, keep_main_v312, read_main_v312, read_main_v283, read_main_v286,
    read_main_v256, read_main_v258, read_main_v260,
    keep_arg opsL3b_ok _ (r := main_arg7) rfl, keep_arg opsL3a_ok _ (r := main_arg7) rfl,
    keep_arg opsL3b_ok _ (r := main_arg8) rfl, keep_arg opsL3a_ok _ (r := main_arg8) rfl,
    keep_arg opsL3a_ok _ (r := main_arg5) rfl, keep_arg opsL3a_ok _ (r := main_arg6) rfl]
  rfl

/-- The layer's output features, as the formula. -/
theorem val_main_v312 (W : Valuation τ sig (Elt Ideal)) :
    cur2 (after (opsL3 (F := Ideal)) W (main_v312 : DevRef τ sig))
      = Spec.rh (cur2 (W (main_v234 : DevRef τ sig))) (cur2 (refAgg W (W (main_v234 : DevRef τ sig)))) (refP W lyr_main_v312) := by
  rw [readL_main_v312, tH_val refWit _ lyr_main_v312.isLt]

end Cert.ReferenceIdeal.Hand

end
-- ==== Proof.Ref.ValL3d.lean ====
/-
  The last stretch of a layer of the reference: the rows of the layer's output features added into a zero array at
  the row each node's graph number names; at one entry it is the sum over the nodes of that graph.
-/
import proofs.«422260_j36421322670663_2_alg».proof.Proof.Ref.ValL3c
import proofs.«422260_j36421322670663_2_alg».proof.Proof.Ref.ValPool

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The stretch leaves the accumulating scatter's term in the pooled reference. -/
theorem read_main_v315 (V : Valuation τ sig (Elt Ideal)) :
    after (opsL3d (F := Ideal)) V (main_v315 : DevRef τ sig)
      = Host.scatterAdd (F := Ideal) (φ := .f32) scatter_S256x128_S50000x1_S50000x128_1_0_0_1
          (broadcastInDim S256x128 ![] bcast_S_S256x128 (constant (F := Ideal) S_ .f32 0x00000000#32))
          (broadcastInDim S50000x1 ![0] bcast_S50000_S50000x1_0 (V (main_arg14 : DevRef τ sig))) (V (main_v312 : DevRef τ sig)) := by
  after_results

/-- The layer's pooled array: per graph, the sum of the layer's output rows of that graph's nodes. -/
theorem val_main_v315 (W : Valuation τ sig (Elt Ideal)) :
    cur2 (after (opsL3 (F := Ideal)) W (main_v315 : DevRef τ sig))
      = Spec.poolR (fun r => W (main_arg14 : DevRef τ sig) (ValueIdx.ix1 r)) (cur2 (after (opsL3 (F := Ideal)) W (main_v312 : DevRef τ sig))) := by
  have e156 : after (opsL3 (F := Ideal)) W (main_v312 : DevRef τ sig)
      = after (opsL3c (F := Ideal)) (after opsL3b (after opsL3a W)) (main_v312 : DevRef τ sig) := by
    show after (opsL3a ++ opsL3b ++ opsL3c ++ opsL3d) W _ = _
    rw [after_app, after_app, after_app, keep_main_v312]
  have e159 : after (opsL3 (F := Ideal)) W (main_v315 : DevRef τ sig)
      = Host.scatterAdd (F := Ideal) (φ := .f32) scatter_S256x128_S50000x1_S50000x128_1_0_0_1
          (broadcastInDim S256x128 ![] bcast_S_S256x128 (constant (F := Ideal) S_ .f32 0x00000000#32))
          (broadcastInDim S50000x1 ![0] bcast_S50000_S50000x1_0 (W (main_arg14 : DevRef τ sig)))
          (after (opsL3c (F := Ideal)) (after opsL3b (after opsL3a W)) (main_v312 : DevRef τ sig)) := by
    show after (opsL3a ++ opsL3b ++ opsL3c ++ opsL3d) W _ = _
    rw [after_app, after_app, after_app, read_main_v315, keep_arg opsL3c_ok _ (r := main_arg14) rfl,
      keep_arg opsL3b_ok _ (r := main_arg14) rfl, keep_arg opsL3a_ok _ (r := main_arg14) rfl]
  rw [e156, e159]
  exact pool_val scatter_S256x128_S50000x1_S50000x128_1_0_0_1 rfl rfl rfl rfl bcast_S_S256x128 bcast_S50000_S50000x1_0
    (W (main_arg14 : DevRef τ sig)) _

end Cert.ReferenceIdeal.Hand

end
-- ==== Proof.Ref.ValL4a.lean ====
/-
  The first stretch of a layer of the reference, read as formulas: the first linear map of the features plus their
  neighbourhood sums, and the first normalisation's scale and shift vectors.
-/
import proofs.«422260_j36421322670663_2_alg».proof.Proof.Ref.Ops4
import proofs.«422260_j36421322670663_2_alg».proof.Proof.Ref.ValLib

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

/-- The layer's number among the five slices of each weight stack. -/
abbrev lyr_main_v390 : Fin 5 := ⟨4, by decide⟩

set_option maxHeartbeats 1600000 in
/-- The stretch leaves in the first linear map's reference the linear map's term over the features plus their
    neighbourhood sums. -/
theorem read_main_v334 (W : Valuation τ sig (Elt Ideal)) :
    after (opsL4a (F := Ideal)) W (main_v334 : DevRef τ sig)
      = tZ1 refWit lyr_main_v390.val slices_S5x128x128_S1x128x128_4_0_0 slices_S5x128_S1x128_4_0 (W (main_v312 : DevRef τ sig)) (refAgg W (W (main_v312 : DevRef τ sig)))
          (W (main_arg1 : DevRef τ sig)) (W (main_arg2 : DevRef τ sig)) := by
  after_results
  rfl

set_option maxHeartbeats 1600000 in
/-- … and in the scale and the shift reference the layer's row of their stacks. -/
theorem read_main_v336 (W : Valuation τ sig (Elt Ideal)) :
    after (opsL4a (F := Ideal)) W (main_v336 : DevRef τ sig) = tB lyr_main_v390.val slices_S5x128_S1x128_4_0 shapeCasts_S1x128_S128 (W (main_arg3 : DevRef τ sig)) := by
  after_results
  rfl
set_option maxHeartbeats 1600000 in
theorem read_main_v338 (W : Valuation τ sig (Elt Ideal)) :
    after (opsL4a (F := Ideal)) W (main_v338 : DevRef τ sig) = tB lyr_main_v390.val slices_S5x128_S1x128_4_0 shapeCasts_S1x128_S128 (W (main_arg4 : DevRef τ sig)) := by
  after_results
  rfl

/-- The first linear map, as the formula. -/
theorem val_main_v334 (W : Valuation τ sig (Elt Ideal)) :
    cur2 (after (opsL4a (F := Ideal)) W (main_v334 : DevRef τ sig))
      = Spec.z1 (cur2 (W (main_v312 : DevRef τ sig))) (cur2 (refAgg W (W (main_v312 : DevRef τ sig)))) (refP W lyr_main_v390) := by
  rw [read_main_v334, tZ1_val refWit _ lyr_main_v390.isLt]
  rfl
theorem val_main_v336 (W : Valuation τ sig (Elt Ideal)) :
    cur1 (after (opsL4a (F := Ideal)) W (main_v336 : DevRef τ sig)) = sl2 (W (main_arg3 : DevRef τ sig)) lyr_main_v390 := by
  rw [read_main_v336, cur1_tB _ lyr_main_v390.isLt]
theorem val_main_v338 (W : Valuation τ sig (Elt Ideal)) :
    cur1 (after (opsL4a (F := Ideal)) W (main_v338 : DevRef τ sig)) = sl2 (W (main_arg4 : DevRef τ sig)) lyr_main_v390 := by
  rw [read_main_v338, cur1_tB _ lyr_main_v390.isLt]

end Cert.ReferenceIdeal.Hand

end
-- ==== Proof.Ref.ValL4b.lean ====
/-
  The second stretch of a layer of the reference, read as terms of what the first stretch left: the first
  normalisation and rectifier of the first linear map's output multiplied by the second weight matrix, and the
  second bias as a row.
-/
import proofs.«422260_j36421322670663_2_alg».proof.Proof.Ref.ValL4a

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The product of the normalised, rectified first linear map with the layer's second weight matrix. -/
theorem read_main_v361 (V : Valuation τ sig (Elt Ideal)) :
    after (opsL4b (F := Ideal)) V (main_v361 : DevRef τ sig)
      = tDot dot_S50000x128_S128x128_S50000x128_1_0_0_1_n_n_wf
          (tAct refWit (V (main_v334 : DevRef τ sig)) (V (main_v336 : DevRef τ sig)) (V (main_v338 : DevRef τ sig)))
          (tW lyr_main_v390.val slices_S5x128x128_S1x128x128_4_0_0 shapeCasts_S1x128x128_S128x128 (V (main_arg5 : DevRef τ sig))) := by
  after_results_simp
  rfl

set_option maxHeartbeats 1600000 in
/-- The layer's second bias vector as a 1 × 128 row. -/
theorem read_main_v364 (V : Valuation τ sig (Elt Ideal)) :
    after (opsL4b (F := Ideal)) V (main_v364 : DevRef τ sig)
      = broadcastInDim S1x128 ![1] bcast_S128_S1x128_1 (tB lyr_main_v390.val slices_S5x128_S1x128_4_0 shapeCasts_S1x128_S128 (V (main_arg6 : DevRef τ sig))) := by
  after_results_simp
  rfl

end Cert.ReferenceIdeal.Hand

end
-- ==== Proof.Ref.ValL4c.lean ====
/-
  The third stretch of a layer of the reference and the layer as a whole: the second linear map's output with its
  bias, normalised and rectified, is the layer's output; through the four stretches it is the reference's layer
  formula of the layer's input features, their neighbourhood sums and the layer's slice of the weight stacks.
-/
import proofs.«422260_j36421322670663_2_alg».proof.Proof.Ref.ValL4b

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The third stretch leaves the normalised, rectified second linear map in the layer's output reference. -/
theorem read_main_v390 (V : Valuation τ sig (Elt Ideal)) :
    after (opsL4c (F := Ideal)) V (main_v390 : DevRef τ sig)
      = tAct refWit
          (addf (F := Ideal) (φ := .f32) (V (main_v361 : DevRef τ sig))
            (broadcastInDim S50000x128 ![0, 1] bcast_S1x128_S50000x128_0_1 (V (main_v364 : DevRef τ sig))))
          (tB lyr_main_v390.val slices_S5x128_S1x128_4_0 shapeCasts_S1x128_S128 (V (main_arg7 : DevRef τ sig)))
          (tB lyr_main_v390.val slices_S5x128_S1x128_4_0 shapeCasts_S1x128_S128 (V (main_arg8 : DevRef τ sig))) := by
  after_results_simp
  rfl

set_option maxHeartbeats 1600000 in
/-- The last stretch does not write the layer's output reference. -/
theorem keep_main_v390 (V : Valuation τ sig (Elt Ideal)) :
    after (opsL4d (F := Ideal)) V (main_v390 : DevRef τ sig) = V (main_v390 : DevRef τ sig) := by
  after_results

/-- The layer's four stretches leave the layer's term in the output reference. -/
theorem readL_main_v390 (W : Valuation τ sig (Elt Ideal)) :
    after (opsL4 (F := Ideal)) W (main_v390 : DevRef τ sig)
      = tH refWit lyr_main_v390.val slices_S5x128x128_S1x128x128_4_0_0 slices_S5x128_S1x128_4_0 (W (main_v312 : DevRef τ sig)) (refAgg W (W (main_v312 : DevRef τ sig)))
          (W (main_arg1 : DevRef τ sig)) (W (main_arg2 : DevRef τ sig)) (W (main_arg3 : DevRef τ sig)) (W (main_arg4 : DevRef τ sig))
          (W (main_arg5 : DevRef τ sig)) (W (main_arg6 : DevRef τ sig)) (W (main_arg7 : DevRef τ sig)) (W (main_arg8 : DevRef τ sig)) := by
  show after (opsL4a ++ opsL4b ++ opsL4c ++ opsL4d) W _ = _
  rw [after_app, after_app, after_app, keep_main_v390, read_main_v390, read_main_v361, read_main_v364,
    read_main_v334, read_main_v336, read_main_v338,
    keep_arg opsL4b_ok _ (r := main_arg7) rfl, keep_arg opsL4a_ok _ (r := main_arg7) rfl,
    keep_arg opsL4b_ok _ (r := main_arg8) rfl, keep_arg opsL4a_ok _ (r := main_arg8) rfl,
    keep_arg opsL4a_ok _ (r := main_arg5) rfl, keep_arg opsL4a_ok _ (r := main_arg6) rfl]
  rfl

/-- The layer's output features, as the formula. -/
theorem val_main_v390 (W : Valuation τ sig (Elt Ideal)) :
    cur2 (after (opsL4 (F := Ideal)) W (main_v390 : DevRef τ sig))
      = Spec.rh (cur2 (W (main_v312 : DevRef τ sig))) (cur2 (refAgg W (W (main_v312 : DevRef τ sig)))) (refP W lyr_main_v390) := by
  rw [readL_main_v390, tH_val refWit _ lyr_main_v390.isLt]

end Cert.ReferenceIdeal.Hand

end
-- ==== Proof.Ref.ValL4d.lean ====
/-
  The last stretch of a layer of the reference: the rows of the layer's output features added into a zero array at
  the row each node's graph number names; at one entry it is the sum over the nodes of that graph.
-/
import proofs.«422260_j36421322670663_2_alg».proof.Proof.Ref.ValL4c
import proofs.«422260_j36421322670663_2_alg».proof.Proof.Ref.ValPool

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

set_option maxHeartbeats 1600000 in
/-- The stretch leaves the accumulating scatter's term in the pooled reference. -/
theorem read_main_v393 (V : Valuation τ sig (Elt Ideal)) :
    after (opsL4d (F := Ideal)) V (main_v393 : DevRef τ sig)
      = Host.scatterAdd (F := Ideal) (φ := .f32) scatter_S256x128_S50000x1_S50000x128_1_0_0_1
          (broadcastInDim S256x128 ![] bcast_S_S256x128 (constant (F := Ideal) S_ .f32 0x00000000#32))
          (broadcastInDim S50000x1 ![0] bcast_S50000_S50000x1_0 (V (main_arg14 : DevRef τ sig))) (V (main_v390 : DevRef τ sig)) := by
  after_results

/-- The layer's pooled array: per graph, the sum of the layer's output rows of that graph's nodes. -/
theorem val_main_v393 (W : Valuation τ sig (Elt Ideal)) :
    cur2 (after (opsL4 (F := Ideal)) W (main_v393 : DevRef τ sig))
      = Spec.poolR (fun r => W (main_arg14 : DevRef τ sig) (ValueIdx.ix1 r)) (cur2 (after (opsL4 (F := Ideal)) W (main_v390 : DevRef τ sig))) := by
  have e156 : after (opsL4 (F := Ideal)) W (main_v390 : DevRef τ sig)
      = after (opsL4c (F := Ideal)) (after opsL4b (after opsL4a W)) (main_v390 : DevRef τ sig) := by
    show after (opsL4a ++ opsL4b ++ opsL4c ++ opsL4d) W _ = _
    rw [after_app, after_app, after_app, keep_main_v390]
  have e159 : after (opsL4 (F := Ideal)) W (main_v393 : DevRef τ sig)
      = Host.scatterAdd (F := Ideal) (φ := .f32) scatter_S256x128_S50000x1_S50000x128_1_0_0_1
          (broadcastInDim S256x128 ![] bcast_S_S256x128 (constant (F := Ideal) S_ .f32 0x00000000#32))
          (broadcastInDim S50000x1 ![0] bcast_S50000_S50000x1_0 (W (main_arg14 : DevRef τ sig)))
          (after (opsL4c (F := Ideal)) (after opsL4b (after opsL4a W)) (main_v390 : DevRef τ sig)) := by
    show after (opsL4a ++ opsL4b ++ opsL4c ++ opsL4d) W _ = _
    rw [after_app, after_app, after_app, read_main_v393, keep_arg opsL4c_ok _ (r := main_arg14) rfl,
      keep_arg opsL4b_ok _ (r := main_arg14) rfl, keep_arg opsL4a_ok _ (r := main_arg14) rfl]
  rw [e156, e159]
  exact pool_val scatter_S256x128_S50000x1_S50000x128_1_0_0_1 rfl rfl rfl rfl bcast_S_S256x128 bcast_S50000_S50000x1_0
    (W (main_arg14 : DevRef τ sig)) _

end Cert.ReferenceIdeal.Hand

end
-- ==== Proof.Ref.ValNet.lean ====
/-
  The reference's whole line, read as formulas: after the prologue the five layers apply the layer formula in turn
  to the launched node features, with the neighbourhood sums taken under the launched edge arrays and the weights
  read from the launched stacks; each layer's pooled array is the per-graph sum of that layer's output features; and
  the result is the readout of the five pooled arrays.
-/
import proofs.«422260_j36421322670663_2_alg».proof.Proof.Ref.Keep
import proofs.«422260_j36421322670663_2_alg».proof.Proof.Ref.ValL0d
import proofs.«422260_j36421322670663_2_alg».proof.Proof.Ref.ValL1d
import proofs.«422260_j36421322670663_2_alg».proof.Proof.Ref.ValL2d
import proofs.«422260_j36421322670663_2_alg».proof.Proof.Ref.ValL3d
import proofs.«422260_j36421322670663_2_alg».proof.Proof.Ref.ValL4d
import proofs.«422260_j36421322670663_2_alg».proof.Proof.TailSpec
import proofs.«422260_j36421322670663_2_alg».proof.Proof.Math.Net

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

/-- Two valuations agree on the arguments and on the edge sources and targets (the first nineteen buffers). -/
def LowEq (W W' : Valuation τ sig (Elt Ideal)) : Prop :=
  ∀ r : Ref sig .tc, r.idx.val < 19 → W (r : DevRef τ sig) = W' (r : DevRef τ sig)

theorem LowEq.refl (W : Valuation τ sig (Elt Ideal)) : LowEq W W := fun _ _ => rfl
theorem LowEq.trans {W W' W'' : Valuation τ sig (Elt Ideal)} (h : LowEq W W') (h' : LowEq W' W'') : LowEq W W'' :=
  fun r hr => (h r hr).trans (h' r hr)

/-- A buffer below an interval is outside it. -/
theorem inIdx_low {lo hi : Nat} {r : Ref sig .tc} (h : r.idx.val < 19) (hlo : 19 ≤ lo) : inIdx lo hi r = false := by
  unfold inIdx
  exact decide_eq_false fun h' => absurd h'.1 (by omega)

theorem lowEq_L0 (V : Valuation τ sig (Elt Ideal)) : LowEq (after opsL0 V) V := fun _ h => opsL0_keep V (inIdx_low h (by decide))
theorem lowEq_L1 (V : Valuation τ sig (Elt Ideal)) : LowEq (after opsL1 V) V := fun _ h => opsL1_keep V (inIdx_low h (by decide))
theorem lowEq_L2 (V : Valuation τ sig (Elt Ideal)) : LowEq (after opsL2 V) V := fun _ h => opsL2_keep V (inIdx_low h (by decide))
theorem lowEq_L3 (V : Valuation τ sig (Elt Ideal)) : LowEq (after opsL3 V) V := fun _ h => opsL3_keep V (inIdx_low h (by decide))
theorem lowEq_L4 (V : Valuation τ sig (Elt Ideal)) : LowEq (after opsL4 V) V := fun _ h => opsL4_keep V (inIdx_low h (by decide))

/-- The weights and the neighbourhood sums depend on a valuation through those buffers only. -/
theorem refP_lowEq {W W' : Valuation τ sig (Elt Ideal)} (h : LowEq W W') (i : Fin 5) : refP W i = refP W' i := by
  show LayerP.mk _ _ _ _ _ _ _ _ = LayerP.mk _ _ _ _ _ _ _ _
  rw [h main_arg1 (by decide), h main_arg2 (by decide), h main_arg3 (by decide), h main_arg4 (by decide),
    h main_arg5 (by decide), h main_arg6 (by decide), h main_arg7 (by decide), h main_arg8 (by decide)]
theorem refAgg_lowEq {W W' : Valuation τ sig (Elt Ideal)} (h : LowEq W W') (x : SNH.Idx → EReal) : refAgg W x = refAgg W' x := by
  show aggA _ _ _ x (srcCol _ _ (W (main_v1 : DevRef τ sig))) (dstCol _ (W (main_v3 : DevRef τ sig))) = _
  rw [h main_v1 (by decide), h main_v3 (by decide)]

/-- One layer on top of i layers: the layer formula at features that are the i-layer features, under a valuation that
    agrees with W0 on the low buffers, is the (i+1)-layer features. -/
theorem step_hRn (W W0 : Valuation τ sig (Elt Ideal)) (hL : LowEq W W0) (hin : SNH.Idx → EReal) (i : ℕ) (lyr : Fin 5)
    (hl : lyr = Fin.ofNat 5 i) (x : Mat 50000 128)
    (hx : cur2 hin = hRn (fun H => cur2 (refAgg W0 (uncur2 H))) (fun i => refP W0 (Fin.ofNat 5 i)) x i) :
    rh (cur2 hin) (cur2 (refAgg W hin)) (refP W lyr)
      = hRn (fun H => cur2 (refAgg W0 (uncur2 H))) (fun i => refP W0 (Fin.ofNat 5 i)) x (i + 1) := by
  show _ = rh (hRn _ _ x i) (cur2 (refAgg W0 (uncur2 (hRn _ _ x i)))) (refP W0 (Fin.ofNat 5 i))
  rw [← hx, uncur2_cur2, refAgg_lowEq hL, refP_lowEq hL, hl]

/-- The epilogue leaves the readout's term in the result reference. -/
theorem read_main_v403 (V : Valuation τ sig (Elt Ideal)) :
    after (opsTail (F := Ideal)) V (main_v403 : DevRef τ sig)
      = tailA concatenates_S256x128_S256x128_S256x128_S256x128_S256x128_S256x640_d1
          dot_S256x640_S640x128_S256x128_1_0_0_1_n_n dot_S256x128_S128x10_S256x10_1_0_0_1_n_n
          bcast_S128_S1x128_1 bcast_S1x128_S256x128_0_1 bcast_S_S256x128 bcast_S10_S1x10_1 bcast_S1x10_S256x10_0_1
          (V (main_v81 : DevRef τ sig)) (V (main_v159 : DevRef τ sig)) (V (main_v237 : DevRef τ sig))
          (V (main_v315 : DevRef τ sig)) (V (main_v393 : DevRef τ sig))
          (V (main_arg9 : DevRef τ sig)) (V (main_arg10 : DevRef τ sig)) (V (main_arg11 : DevRef τ sig))
          (V (main_arg12 : DevRef τ sig)) := by
  after_results
  rfl

/-- What the reference computes: the result is the readout of five arrays, and array i is the per-graph sum of the
    features after i + 1 layers of the reference's layer formula from the launched features. -/
theorem ref_value (m' : (ℓ : Loc nD τ sig) → Buf (Elt Ideal) ℓ) (c : Dev nD) :
    ∃ PR : Fin 5 → (S256x128.Idx → EReal),
      after (ops (F := Ideal)) (launchContents m' c) (main_v403 : DevRef τ sig)
        = tailA concatenates_S256x128_S256x128_S256x128_S256x128_S256x128_S256x640_d1
            dot_S256x640_S640x128_S256x128_1_0_0_1_n_n dot_S256x128_S128x10_S256x10_1_0_0_1_n_n
            bcast_S128_S1x128_1 bcast_S1x128_S256x128_0_1 bcast_S_S256x128 bcast_S10_S1x10_1 bcast_S1x10_S256x10_0_1
            (PR 0) (PR 1) (PR 2) (PR 3) (PR 4) (m' ((c.tc : Thread nD τ).loc main_arg9)) (m' ((c.tc : Thread nD τ).loc main_arg10)) (m' ((c.tc : Thread nD τ).loc main_arg11)) (m' ((c.tc : Thread nD τ).loc main_arg12))
      ∧ ∀ i : Fin 5, cur2 (PR i)
          = poolR (fun r => (m' ((c.tc : Thread nD τ).loc main_arg14)) (ValueIdx.ix1 r))
              (hRn (fun H => cur2 (refAgg (after (opsPre (F := Ideal)) (launchContents m' c)) (uncur2 H)))
                (fun i => refP (after (opsPre (F := Ideal)) (launchContents m' c)) (Fin.ofNat 5 i))
                (cur2 (m' ((c.tc : Thread nD τ).loc main_arg0))) (i.val + 1)) := by
  -- the valuations after the prologue and after each layer
  obtain ⟨W0, hW0⟩ : ∃ W : Valuation τ sig (Elt Ideal), W = after (opsPre (F := Ideal)) (launchContents m' c) := ⟨_, rfl⟩
  obtain ⟨W1, hW1⟩ : ∃ W : Valuation τ sig (Elt Ideal), W = after (opsL0 (F := Ideal)) W0 := ⟨_, rfl⟩
  obtain ⟨W2, hW2⟩ : ∃ W : Valuation τ sig (Elt Ideal), W = after (opsL1 (F := Ideal)) W1 := ⟨_, rfl⟩
  obtain ⟨W3, hW3⟩ : ∃ W : Valuation τ sig (Elt Ideal), W = after (opsL2 (F := Ideal)) W2 := ⟨_, rfl⟩
  obtain ⟨W4, hW4⟩ : ∃ W : Valuation τ sig (Elt Ideal), W = after (opsL3 (F := Ideal)) W3 := ⟨_, rfl⟩
  obtain ⟨W5, hW5⟩ : ∃ W : Valuation τ sig (Elt Ideal), W = after (opsL4 (F := Ideal)) W4 := ⟨_, rfl⟩
  have l1 : LowEq W1 W0 := hW1 ▸ lowEq_L0 W0
  have l2 : LowEq W2 W0 := (hW2 ▸ lowEq_L1 W1).trans l1
  have l3 : LowEq W3 W0 := (hW3 ▸ lowEq_L2 W2).trans l2
  have l4 : LowEq W4 W0 := (hW4 ▸ lowEq_L3 W3).trans l3
  have l5 : LowEq W5 W0 := (hW5 ▸ lowEq_L4 W4).trans l4
  -- the prologue keeps the arguments
  have a0 : ∀ r : Ref sig .tc, r.idx.val < 15 → W0 (r : DevRef τ sig) = (launchContents m' c) (r : DevRef τ sig) := fun r h => by
    rw [hW0]
    exact opsPre_keep (launchContents m' c) (by unfold inIdx; exact decide_eq_false fun h' => absurd h'.1 (by omega))
  -- the features after each layer
  have c0 := (val_main_v78 W0).trans
    (step_hRn W0 W0 (LowEq.refl W0) _ 0 lyr_main_v78 rfl (cur2 ((launchContents m' c) (main_arg0 : DevRef τ sig)))
      (by rw [a0 main_arg0 (by decide)]; rfl))
  rw [← hW1] at c0
  have c1 := (val_main_v156 W1).trans (step_hRn W1 W0 l1 _ 1 lyr_main_v156 rfl _ c0)
  rw [← hW2] at c1
  have c2 := (val_main_v234 W2).trans (step_hRn W2 W0 l2 _ 2 lyr_main_v234 rfl _ c1)
  rw [← hW3] at c2
  have c3 := (val_main_v312 W3).trans (step_hRn W3 W0 l3 _ 3 lyr_main_v312 rfl _ c2)
  rw [← hW4] at c3
  have c4 := (val_main_v390 W4).trans (step_hRn W4 W0 l4 _ 4 lyr_main_v390 rfl _ c3)
  rw [← hW5] at c4
  -- the pooled arrays
  have p0 := val_main_v81 W0
  rw [← hW1, c0, a0 main_arg14 (by decide)] at p0
  have p1 := val_main_v159 W1
  rw [← hW2, c1, l1 main_arg14 (by decide), a0 main_arg14 (by decide)] at p1
  have p2 := val_main_v237 W2
  rw [← hW3, c2, l2 main_arg14 (by decide), a0 main_arg14 (by decide)] at p2
  have p3 := val_main_v315 W3
  rw [← hW4, c3, l3 main_arg14 (by decide), a0 main_arg14 (by decide)] at p3
  have p4 := val_main_v393 W4
  rw [← hW5, c4, l4 main_arg14 (by decide), a0 main_arg14 (by decide)] at p4
  -- later layers keep the earlier pooled arrays
  have k0 : W5 (main_v81 : DevRef τ sig) = W1 (main_v81 : DevRef τ sig) := by
    rw [hW5, opsL4_keep _ (r := main_v81) rfl, hW4, opsL3_keep _ (r := main_v81) rfl, hW3, opsL2_keep _ (r := main_v81) rfl,
      hW2, opsL1_keep _ (r := main_v81) rfl]
  have k1 : W5 (main_v159 : DevRef τ sig) = W2 (main_v159 : DevRef τ sig) := by
    rw [hW5, opsL4_keep _ (r := main_v159) rfl, hW4, opsL3_keep _ (r := main_v159) rfl, hW3, opsL2_keep _ (r := main_v159) rfl]
  have k2 : W5 (main_v237 : DevRef τ sig) = W3 (main_v237 : DevRef τ sig) := by
    rw [hW5, opsL4_keep _ (r := main_v237) rfl, hW4, opsL3_keep _ (r := main_v237) rfl]
  have k3 : W5 (main_v315 : DevRef τ sig) = W4 (main_v315 : DevRef τ sig) := by
    rw [hW5, opsL4_keep _ (r := main_v315) rfl]
  refine ⟨![W5 (main_v81 : DevRef τ sig), W5 (main_v159 : DevRef τ sig), W5 (main_v237 : DevRef τ sig),
    W5 (main_v315 : DevRef τ sig), W5 (main_v393 : DevRef τ sig)], ?_, ?_⟩
  · show after (ops (F := Ideal)) (launchContents m' c) (main_v403 : DevRef τ sig)
      = tailA _ _ _ _ _ _ _ _ (W5 (main_v81 : DevRef τ sig)) (W5 (main_v159 : DevRef τ sig)) (W5 (main_v237 : DevRef τ sig))
          (W5 (main_v315 : DevRef τ sig)) (W5 (main_v393 : DevRef τ sig)) ((launchContents m' c) (main_arg9 : DevRef τ sig))
          ((launchContents m' c) (main_arg10 : DevRef τ sig)) ((launchContents m' c) (main_arg11 : DevRef τ sig)) ((launchContents m' c) (main_arg12 : DevRef τ sig))
    rw [after_ops, ← hW0, ← hW1, ← hW2, ← hW3, ← hW4, ← hW5, read_main_v403,
      l5 main_arg9 (by decide), a0 main_arg9 (by decide), l5 main_arg10 (by decide), a0 main_arg10 (by decide),
      l5 main_arg11 (by decide), a0 main_arg11 (by decide), l5 main_arg12 (by decide), a0 main_arg12 (by decide)]
  · intro i
    rw [← hW0]
    fin_cases i
    · exact (congrArg cur2 k0).trans p0
    · exact (congrArg cur2 k1).trans p1
    · exact (congrArg cur2 k2).trans p2
    · exact (congrArg cur2 k3).trans p3
    · exact p4

end Cert.ReferenceIdeal.Hand

end
-- ==== Proof.Final.lean ====
/-
  The algebraic claim: at the extended reals, from launch memories that agree on the fifteen arguments, the kernel
  program and the reference program both run to their ends with unchanged arguments and with EQUAL result arrays.

  Each program's result is the same readout (the five pooled matrices side by side, two linear maps with a rectifier
  between them) of its own five pooled matrices and the four readout parameters. The kernel's i-th pooled matrix is
  the block-wise 0/1 pooling of its node features after i+1 layers, the reference's the sum by graph number of its
  own; both feature sequences start from the same real-valued array, use the same real weights (the slices of the
  launched stacks), the same graph numbers and ONE neighbourhood-sum operator (the two programs cut the same two rows
  out of the same edge list), and that operator keeps real-valued arrays real-valued. For such data the two layer
  recursions agree after every layer and so do their poolings; arrays with equal coordinate forms are equal; hence
  the readouts are equal term by term.
-/
import proofs.«422260_j36421322670663_2_alg».proof.Defs
import proofs.«422260_j36421322670663_2_alg».proof.Proof.Spec
import proofs.«422260_j36421322670663_2_alg».proof.Proof.AggSpec
import proofs.«422260_j36421322670663_2_alg».proof.Proof.TailSpec
import proofs.«422260_j36421322670663_2_alg».proof.Proof.Math.Net
import proofs.«422260_j36421322670663_2_alg».proof.Proof.Math.Scatter
import proofs.«422260_j36421322670663_2_alg».proof.Proof.PreFin
import proofs.«422260_j36421322670663_2_alg».proof.Proof.KI.RegionsP
import proofs.«422260_j36421322670663_2_alg».proof.Proof.KI.NetDefs
import proofs.«422260_j36421322670663_2_alg».proof.Proof.KI.Net
import proofs.«422260_j36421322670663_2_alg».proof.Proof.KI.Frame
import proofs.«422260_j36421322670663_2_alg».proof.Proof.Ref.Run
import proofs.«422260_j36421322670663_2_alg».proof.Proof.Ref.ValLib
import proofs.«422260_j36421322670663_2_alg».proof.Proof.Ref.ValNet

noncomputable section

namespace Cert.Final

open Idealize.ShloMosaic Idealize.ShloMosaic.TcCoe Idealize.SL.Sem Idealize.ShloMosaic.StableHlo
open Cert.Spec

/-! ## Pure steps -/

/-- Arrays over rank-2 index tuples with equal coordinate forms are equal. -/
theorem eq_of_cur2_eq {a b : ℕ} {x y : (⟨2, ![a, b]⟩ : Shape).Idx → EReal} (h : cur2 x = cur2 y) : x = y := by
  rw [← uncur2_cur2 x, ← uncur2_cur2 y, h]

/-- Two families of five pooled matrices, one the kernel-style pooling of the kernel-style features and the other the
    reference-style pooling of the reference-style features over the same real data, are the same family. -/
theorem pools_agree (aggf : Mat 50000 128 → Mat 50000 128) (P : ℕ → LayerP) (x : Mat 50000 128) (hx : Fin2 x)
    (hP : ∀ i, (P i).Fin) (hagg : ∀ H, Fin2 H → Fin2 (aggf H)) (bw : Fin 50000 → BitVec 32)
    (PK PR : Fin 5 → (SP.Idx → EReal))
    (hK : ∀ i : Fin 5, cur2 (PK i) = poolK bw (hKn aggf P x (i.val + 1)))
    (hR : ∀ i : Fin 5, cur2 (PR i) = poolR bw (hRn aggf P x (i.val + 1))) : PR = PK := by
  funext i
  exact eq_of_cur2_eq (by rw [hK i, hR i, pool_net aggf P x hx hP hagg bw i.val])

/-- The neighbourhood sum is a function of its dimension records and its two index columns. -/
theorem aggA_congr (gd gd' : GatherDims SNH SE1 SEH) (sd sd' : ScatterDims SNH SE1 SEH)
    (w2 w2' : S0.BroadcastsInDim SNH (![] : Fin 0 → Fin SNH.rank)) (h : SNH.Idx → EReal)
    (s s' d d' : SE1.Idx → BitVec 32) (hg : gd = gd') (hs : sd = sd') (h1 : s = s') (h2 : d = d') :
    aggA gd sd w2 h s d = aggA gd' sd' w2' h s' d' := by
  subst hg hs h1 h2; rfl

/-- A layer's weights are a function of the eight stacks. -/
theorem layer_congr (i : Fin 5) (X1 X1' X5 X5' : (⟨3, ![5, 128, 128]⟩ : Shape).Idx → EReal)
    (X2 X2' X3 X3' X4 X4' X6 X6' X7 X7' X8 X8' : (⟨2, ![5, 128]⟩ : Shape).Idx → EReal)
    (h1 : X1 = X1') (h2 : X2 = X2') (h3 : X3 = X3') (h4 : X4 = X4') (h5 : X5 = X5') (h6 : X6 = X6') (h7 : X7 = X7')
    (h8 : X8 = X8') :
    (⟨sl3 X1 i, sl2 X2 i, sl2 X3 i, sl2 X4 i, sl3 X5 i, sl2 X6 i, sl2 X7 i, sl2 X8 i⟩ : LayerP)
      = ⟨sl3 X1' i, sl2 X2' i, sl2 X3' i, sl2 X4' i, sl3 X5' i, sl2 X6' i, sl2 X7' i, sl2 X8' i⟩ := by
  subst h1 h2 h3 h4 h5 h6 h7 h8; rfl

/-- The whole argument on abstract data: two readouts, one of kernel-style pooled matrices and one of reference-style
    pooled matrices, over data that agree and are real-valued, are equal. -/
theorem assemble
    (cw cw' : Shape.Concatenates [SP, SP, SP, SP, SP] SC 1) (d1 d1' : DotDims SC SW1 SP) (d2 d2' : DotDims SP SW2 SO)
    (w128 w128' : SB1.BroadcastsInDim SB1r (![1] : Fin 1 → Fin SB1r.rank))
    (wP wP' : SB1r.BroadcastsInDim SP (![0, 1] : Fin 2 → Fin SP.rank))
    (w0 w0' : ST0.BroadcastsInDim SP (![] : Fin 0 → Fin SP.rank))
    (w10 w10' : SB2.BroadcastsInDim SB2r (![1] : Fin 1 → Fin SB2r.rank))
    (wO wO' : SB2r.BroadcastsInDim SO (![0, 1] : Fin 2 → Fin SO.rank))
    (vK vR : SO.Idx → EReal) (PK PR : Fin 5 → (SP.Idx → EReal))
    (A9 A9' : SW1.Idx → EReal) (A10 A10' : SB1.Idx → EReal) (A11 A11' : SW2.Idx → EReal) (A12 A12' : SB2.Idx → EReal)
    (bw bw' : Fin 50000 → BitVec 32) (aggf aggf' : Mat 50000 128 → Mat 50000 128) (P P' : ℕ → LayerP)
    (x x' : Mat 50000 128)
    (hKv : vK = tailA cw d1 d2 w128 wP w0 w10 wO (PK 0) (PK 1) (PK 2) (PK 3) (PK 4) A9 A10 A11 A12)
    (hKp : ∀ i : Fin 5, cur2 (PK i) = poolK bw (hKn aggf P x (i.val + 1)))
    (hRv : vR = tailA cw' d1' d2' w128' wP' w0' w10' wO' (PR 0) (PR 1) (PR 2) (PR 3) (PR 4) A9' A10' A11' A12')
    (hRp : ∀ i : Fin 5, cur2 (PR i) = poolR bw' (hRn aggf' P' x' (i.val + 1)))
    (hd1 : d1' = d1) (hd2 : d2' = d2) (h9 : A9' = A9) (h10 : A10' = A10) (h11 : A11' = A11) (h12 : A12' = A12)
    (hbw : bw' = bw) (hagg : aggf' = aggf) (hP : P' = P) (hx : x' = x)
    (fx : Fin2 x) (fP : ∀ i, (P i).Fin) (fagg : ∀ H, Fin2 H → Fin2 (aggf H)) : vR = vK := by
  subst hd1 hd2 h9 h10 h11 h12 hbw hagg hP hx
  have hPP : PR = PK := pools_agree aggf' P' x' fx fP fagg bw' PK PR hKp hRp
  subst hPP
  rw [hRv, hKv]

/-! ## The two programs cut the same edge columns -/

set_option maxHeartbeats 1000000 in
/-- The edge sources: both programs read row 0 of the edge list as a vector. -/
theorem src_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    after (Cert.ReferenceIdeal.Hand.opsPre (F := Ideal)) (launchContents m' c) (Cert.ReferenceIdeal.main_v1 : DevRef Cert.ReferenceIdeal.τ Cert.ReferenceIdeal.sig)
      = Cert.KernelIdeal.GenP.V1 m c Cert.KernelIdeal.main_v1 := by
  have hk : (after (Cert.KernelIdeal.Gen.hostOps0 (F := Ideal)) (Cert.KernelIdeal.GenP.V0 m c) (Cert.KernelIdeal.main_v1 : DevRef Cert.KernelIdeal.τ Cert.KernelIdeal.sig) : Cert.KernelIdeal.S800000.Idx → BitVec 32)
      = shapeCast Cert.KernelIdeal.S800000 (extractStridedSlice Cert.KernelIdeal.S1x800000 ![0, 0]
          (m ((c.tc : Thread Cert.KernelIdeal.nD Cert.KernelIdeal.τ).loc Cert.KernelIdeal.main_arg13) : Cert.KernelIdeal.S2x800000.Idx → BitVec 32) Cert.KernelIdeal.Gen.slices_S2x800000_S1x800000_0_0)
          Cert.KernelIdeal.Gen.shapeCasts_S1x800000_S800000 := by
    after_results
    rfl
  have hr : (after (Cert.ReferenceIdeal.Hand.opsPre (F := Ideal)) (launchContents m' c) (Cert.ReferenceIdeal.main_v1 : DevRef Cert.ReferenceIdeal.τ Cert.ReferenceIdeal.sig) : Cert.ReferenceIdeal.S800000.Idx → BitVec 32)
      = shapeCast Cert.ReferenceIdeal.S800000 (extractStridedSlice Cert.ReferenceIdeal.S1x800000 ![0, 0]
          (m' ((c.tc : Thread Cert.ReferenceIdeal.nD Cert.ReferenceIdeal.τ).loc Cert.ReferenceIdeal.main_arg13) : Cert.ReferenceIdeal.S2x800000.Idx → BitVec 32) Cert.ReferenceIdeal.Gen.slices_S2x800000_S1x800000_0_0)
          Cert.ReferenceIdeal.Gen.shapeCasts_S1x800000_S800000 := by
    after_results
    rfl
  exact hr.trans ((congrArg (fun a : Cert.KernelIdeal.S2x800000.Idx → BitVec 32 => shapeCast Cert.KernelIdeal.S800000 (extractStridedSlice Cert.KernelIdeal.S1x800000 ![0, 0]
          a Cert.KernelIdeal.Gen.slices_S2x800000_S1x800000_0_0) Cert.KernelIdeal.Gen.shapeCasts_S1x800000_S800000) e13).trans hk.symm)

set_option maxHeartbeats 1000000 in
/-- The edge targets: both programs read row 1 of the edge list as a vector. -/
theorem dst_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    after (Cert.ReferenceIdeal.Hand.opsPre (F := Ideal)) (launchContents m' c) (Cert.ReferenceIdeal.main_v3 : DevRef Cert.ReferenceIdeal.τ Cert.ReferenceIdeal.sig)
      = Cert.KernelIdeal.GenP.V1 m c Cert.KernelIdeal.main_v3 := by
  have hk : (after (Cert.KernelIdeal.Gen.hostOps0 (F := Ideal)) (Cert.KernelIdeal.GenP.V0 m c) (Cert.KernelIdeal.main_v3 : DevRef Cert.KernelIdeal.τ Cert.KernelIdeal.sig) : Cert.KernelIdeal.S800000.Idx → BitVec 32)
      = shapeCast Cert.KernelIdeal.S800000 (extractStridedSlice Cert.KernelIdeal.S1x800000 ![1, 0]
          (m ((c.tc : Thread Cert.KernelIdeal.nD Cert.KernelIdeal.τ).loc Cert.KernelIdeal.main_arg13) : Cert.KernelIdeal.S2x800000.Idx → BitVec 32) Cert.KernelIdeal.Gen.slices_S2x800000_S1x800000_1_0)
          Cert.KernelIdeal.Gen.shapeCasts_S1x800000_S800000 := by
    after_results
    rfl
  have hr : (after (Cert.ReferenceIdeal.Hand.opsPre (F := Ideal)) (launchContents m' c) (Cert.ReferenceIdeal.main_v3 : DevRef Cert.ReferenceIdeal.τ Cert.ReferenceIdeal.sig) : Cert.ReferenceIdeal.S800000.Idx → BitVec 32)
      = shapeCast Cert.ReferenceIdeal.S800000 (extractStridedSlice Cert.ReferenceIdeal.S1x800000 ![1, 0]
          (m' ((c.tc : Thread Cert.ReferenceIdeal.nD Cert.ReferenceIdeal.τ).loc Cert.ReferenceIdeal.main_arg13) : Cert.ReferenceIdeal.S2x800000.Idx → BitVec 32) Cert.ReferenceIdeal.Gen.slices_S2x800000_S1x800000_1_0)
          Cert.ReferenceIdeal.Gen.shapeCasts_S1x800000_S800000 := by
    after_results
    rfl
  exact hr.trans ((congrArg (fun a : Cert.KernelIdeal.S2x800000.Idx → BitVec 32 => shapeCast Cert.KernelIdeal.S800000 (extractStridedSlice Cert.KernelIdeal.S1x800000 ![1, 0]
          a Cert.KernelIdeal.Gen.slices_S2x800000_S1x800000_1_0) Cert.KernelIdeal.Gen.shapeCasts_S1x800000_S800000) e13).trans hk.symm)

/-! ## The claim -/

/-- On one device: the reference's result array is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hsrc : after (Cert.ReferenceIdeal.Hand.opsPre (F := Ideal)) (launchContents m' c) (Cert.ReferenceIdeal.main_v1 : DevRef Cert.ReferenceIdeal.τ Cert.ReferenceIdeal.sig) = Cert.KernelIdeal.GenP.V1 m c Cert.KernelIdeal.main_v1)
    (hdst : after (Cert.ReferenceIdeal.Hand.opsPre (F := Ideal)) (launchContents m' c) (Cert.ReferenceIdeal.main_v3 : DevRef Cert.ReferenceIdeal.τ Cert.ReferenceIdeal.sig) = Cert.KernelIdeal.GenP.V1 m c Cert.KernelIdeal.main_v3)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = (fun _ => 1#1))
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    (after (Cert.ReferenceIdeal.Hand.ops (F := Ideal)) (launchContents m' c) (Cert.ReferenceIdeal.main_v403 : DevRef Cert.ReferenceIdeal.τ Cert.ReferenceIdeal.sig) : SO.Idx → EReal)
      = Cert.KernelIdeal.GenP.V33 m (Cert.KernelIdeal.Hand.outs m) c Cert.KernelIdeal.main_v294 := by
  obtain ⟨e0, e1, e2, e3, e4, e5, e6, e7, e8, e9, e10, e11, e12, e13, e14⟩ := hag
  obtain ⟨f0, f1, f2, f3, f4, f5, f6, f7, f8, f9, f10, f11, f12⟩ := Cert.PreFin.fin_of_pre _ _ _ _ _ _ _ _ _ _ _ _ _ _ _ hpre
  obtain ⟨PK, hKv, hKp⟩ := Cert.KernelIdeal.Hand.kernel_value m c
  obtain ⟨PR, hRv, hRp⟩ := Cert.ReferenceIdeal.Hand.ref_value m' c
  -- the prologue leaves the reference's arguments as launched, and those are the kernel's
  have hW1 : after (Cert.ReferenceIdeal.Hand.opsPre (F := Ideal)) (launchContents m' c) (Cert.ReferenceIdeal.main_arg1 : DevRef Cert.ReferenceIdeal.τ Cert.ReferenceIdeal.sig) = m ((c.tc : Thread Cert.KernelIdeal.nD Cert.KernelIdeal.τ).loc Cert.KernelIdeal.main_arg1) :=
    (Cert.ReferenceIdeal.Hand.keep_arg Cert.ReferenceIdeal.Hand.opsPre_ok _ rfl).trans e1
  have hW2 : after (Cert.ReferenceIdeal.Hand.opsPre (F := Ideal)) (launchContents m' c) (Cert.ReferenceIdeal.main_arg2 : DevRef Cert.ReferenceIdeal.τ Cert.ReferenceIdeal.sig) = m ((c.tc : Thread Cert.KernelIdeal.nD Cert.KernelIdeal.τ).loc Cert.KernelIdeal.main_arg2) :=
    (Cert.ReferenceIdeal.Hand.keep_arg Cert.ReferenceIdeal.Hand.opsPre_ok _ rfl).trans e2
  have hW3 : after (Cert.ReferenceIdeal.Hand.opsPre (F := Ideal)) (launchContents m' c) (Cert.ReferenceIdeal.main_arg3 : DevRef Cert.ReferenceIdeal.τ Cert.ReferenceIdeal.sig) = m ((c.tc : Thread Cert.KernelIdeal.nD Cert.KernelIdeal.τ).loc Cert.KernelIdeal.main_arg3) :=
    (Cert.ReferenceIdeal.Hand.keep_arg Cert.ReferenceIdeal.Hand.opsPre_ok _ rfl).trans e3
  have hW4 : after (Cert.ReferenceIdeal.Hand.opsPre (F := Ideal)) (launchContents m' c) (Cert.ReferenceIdeal.main_arg4 : DevRef Cert.ReferenceIdeal.τ Cert.ReferenceIdeal.sig) = m ((c.tc : Thread Cert.KernelIdeal.nD Cert.KernelIdeal.τ).loc Cert.KernelIdeal.main_arg4) :=
    (Cert.ReferenceIdeal.Hand.keep_arg Cert.ReferenceIdeal.Hand.opsPre_ok _ rfl).trans e4
  have hW5 : after (Cert.ReferenceIdeal.Hand.opsPre (F := Ideal)) (launchContents m' c) (Cert.ReferenceIdeal.main_arg5 : DevRef Cert.ReferenceIdeal.τ Cert.ReferenceIdeal.sig) = m ((c.tc : Thread Cert.KernelIdeal.nD Cert.KernelIdeal.τ).loc Cert.KernelIdeal.main_arg5) :=
    (Cert.ReferenceIdeal.Hand.keep_arg Cert.ReferenceIdeal.Hand.opsPre_ok _ rfl).trans e5
  have hW6 : after (Cert.ReferenceIdeal.Hand.opsPre (F := Ideal)) (launchContents m' c) (Cert.ReferenceIdeal.main_arg6 : DevRef Cert.ReferenceIdeal.τ Cert.ReferenceIdeal.sig) = m ((c.tc : Thread Cert.KernelIdeal.nD Cert.KernelIdeal.τ).loc Cert.KernelIdeal.main_arg6) :=
    (Cert.ReferenceIdeal.Hand.keep_arg Cert.ReferenceIdeal.Hand.opsPre_ok _ rfl).trans e6
  have hW7 : after (Cert.ReferenceIdeal.Hand.opsPre (F := Ideal)) (launchContents m' c) (Cert.ReferenceIdeal.main_arg7 : DevRef Cert.ReferenceIdeal.τ Cert.ReferenceIdeal.sig) = m ((c.tc : Thread Cert.KernelIdeal.nD Cert.KernelIdeal.τ).loc Cert.KernelIdeal.main_arg7) :=
    (Cert.ReferenceIdeal.Hand.keep_arg Cert.ReferenceIdeal.Hand.opsPre_ok _ rfl).trans e7
  have hW8 : after (Cert.ReferenceIdeal.Hand.opsPre (F := Ideal)) (launchContents m' c) (Cert.ReferenceIdeal.main_arg8 : DevRef Cert.ReferenceIdeal.τ Cert.ReferenceIdeal.sig) = m ((c.tc : Thread Cert.KernelIdeal.nD Cert.KernelIdeal.τ).loc Cert.KernelIdeal.main_arg8) :=
    (Cert.ReferenceIdeal.Hand.keep_arg Cert.ReferenceIdeal.Hand.opsPre_ok _ rfl).trans e8
  refine assemble _ _ _ _ _ _ _ _ _ _ _ _ _ _ _ _ _ _ PK PR _ _ _ _ _ _ _ _ _ _ _ _ _ _ _ _ hKv hKp hRv hRp rfl rfl e9 e10 e11 e12
    ?bw ?agg ?P ?x (cur2_fin _ f0) ?fP ?fagg
  case bw => funext r; exact congrFun e14 _
  case agg =>
    funext H
    exact congrArg cur2 (aggA_congr _ _ _ _ _ _ _ _ _ _ _ rfl rfl (congrArg (srcCol _ _) hsrc) (congrArg (dstCol _) hdst))
  case P => funext i; exact layer_congr _ _ _ _ _ _ _ _ _ _ _ _ _ _ _ _ _ hW1 hW2 hW3 hW4 hW5 hW6 hW7 hW8
  case x => exact congrArg cur2 e0
  case fP =>
    intro i
    exact ⟨sl3_fin _ f1 _, sl2_fin _ f2 _, sl2_fin _ f3 _, sl2_fin _ f4 _, sl3_fin _ f5 _, sl2_fin _ f6 _, sl2_fin _ f7 _,
      sl2_fin _ f8 _⟩
  case fagg =>
    intro H hH
    exact aggA_fin2 _ _ _ (uncur2 H) _ _ (by rw [cur2_uncur2]; exact hH)

/-- The algebraic claim. -/
theorem algebraic : Cert.algebraic_KernelIdeal_ReferenceIdeal := by
  intro m ρ m' ρ' hpre hagree
  refine ⟨fun c => Cert.KernelIdeal.GenP.V33 m (Cert.KernelIdeal.Hand.outs m) c Cert.KernelIdeal.main_v294, Cert.KernelIdeal.Hand.result_at m ρ, ?_⟩
  refine (θ_run Cert.ReferenceIdeal.defs _ _).mono (fun _ h c => ⟨(h c).1.trans ?_, (h c).2⟩) (Cert.ReferenceIdeal.Hand.result_ref (F := Ideal) m' ρ')
  exact results_eq m m' c (src_eq m m' c (hagree c).2.2.2.2.2.2.2.2.2.2.2.2.2.1) (dst_eq m m' c (hagree c).2.2.2.2.2.2.2.2.2.2.2.2.2.1) (hpre c) (hagree c)

end Cert.Final

end
-- ==== Proof.lean ====
/-
  The certificate's claim, assembled from its parts.

  Frames. Each of the three programs, run from any launch memory with zero counters whose float arguments are
  finite, terminates without fault on every weakly fair execution and leaves its fifteen argument arrays as
  launched. For the two kernel programs (the same text read at the machine floats and at the extended reals) this is
  the chain of fifteen pipelined kernel launches between sixteen stretches of host operations: every launch writes
  only its own output arrays and scoped buffers, every host operation writes only its own result. For the reference
  it is one straight line of host operations none of which writes an argument.

  Preservation. The idealised kernel program is the kernel program's own text read at the extended reals; no
  operation was rewritten, so there is nothing to preserve beyond the text itself.

  Algebraic equality. At the extended reals, from launch memories agreeing on the arguments, the idealised kernel
  program and the idealised reference end with equal result arrays: five layers of (features plus neighbourhood
  sums) times a matrix plus bias, batch normalisation, rectifier, a second matrix plus bias, batch normalisation,
  rectifier, each layer's output pooled by graph; then a two-layer readout of the five pooled matrices. The kernel
  takes the normalisation's variance as the mean of squares minus the squared mean cut at zero, from per-block sums,
  and pools by a 0/1 matrix product block by block; the reference takes the centred second moment and sums the rows
  of each graph. On real-valued inputs these are the same real numbers.
-/
import proofs.«422260_j36421322670663_2_alg».proof.Defs
import proofs.«422260_j36421322670663_2_alg».proof.Proof.Gen.Kernel
import proofs.«422260_j36421322670663_2_alg».proof.Proof.Gen.KernelIdeal
import proofs.«422260_j36421322670663_2_alg».proof.Proof.Gen.ReferenceIdeal
import proofs.«422260_j36421322670663_2_alg».proof.Proof.Gen.Pre_finite_inputs
import proofs.«422260_j36421322670663_2_alg».proof.Proof.K.Frame
import proofs.«422260_j36421322670663_2_alg».proof.Proof.KI.Frame
import proofs.«422260_j36421322670663_2_alg».proof.Proof.Ref.Run
import proofs.«422260_j36421322670663_2_alg».proof.Proof.Final

noncomputable section

namespace Cert.Proof

open Idealize.ShloMosaic Idealize.SL.Sem

/-- The witnesses of the programs' stated side conditions first, then the three frames, the preservation (which
    claims nothing) and the algebraic equality. -/
theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => Cert.ReferenceIdeal.Hand.frame_ref m ρ,
    trivial,
    Cert.Final.algebraic⟩

end Cert.Proof

end
